-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S50000 : Shape := ⟨1, ![50000]⟩
abbrev S50000x10 : Shape := ⟨2, ![50000, 10]⟩
abbrev S100000x128 : Shape := ⟨2, ![100000, 128]⟩
abbrev S128x128 : Shape := ⟨2, ![128, 128]⟩
abbrev S128 : Shape := ⟨1, ![128]⟩
abbrev S256x128 : Shape := ⟨2, ![256, 128]⟩
abbrev S_ : Shape := ⟨0, ![]⟩

class Facts : Prop where
  bcast_S_S50000x10 : S_.BroadcastsInDim S50000x10 (![] : Fin 0 → Fin S50000x10.rank)
  reducesTo_S50000x10_S_d0_1 : S50000x10.ReducesTo [0, 1] S_
  h_S_ : 0 < S_.numel
  bcast_S_S100000x128 : S_.BroadcastsInDim S100000x128 (![] : Fin 0 → Fin S100000x128.rank)
  reducesTo_S100000x128_S_d0_1 : S100000x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S256x128 : S_.BroadcastsInDim S256x128 (![] : Fin 0 → Fin S256x128.rank)
  reducesTo_S256x128_S_d0_1 : S256x128.ReducesTo [0, 1] S_
  bcast_S_S50000 : S_.BroadcastsInDim S50000 (![] : Fin 0 → Fin S50000.rank)
  reducesTo_S50000_S_d0 : S50000.ReducesTo [0] S_
  reducesTo_S50000x10_S50000_d1 : S50000x10.ReducesTo [1] S50000

variable [Facts]

def fn_part2 {F : FTy → Type} [FloatOps F] (main_arg1 : IVec S50000x10 32) (main_arg2 : FVec F S50000x10 .f32) (main_v28 : IVec S_ 1) (main_v33 : IVec S50000 1) : IVec S_ 1 :=
  let main_c_12 : IVec S_ 1 := constantI S_ 1 1#1
  let main_v34 : IVec S_ 1 := (fun x v => Host.reduce IntOp.andi x v reducesTo_S50000_S_d0 h_S_) main_v33 main_c_12
  let main_v35 : IVec S_ 1 := andi main_v28 main_v34
  let main_c_13 : IVec S_ 32 := constantI S_ 32 0#32
  let main_v36 : IVec S50000x10 32 := broadcastInDim S50000x10 ![] bcast_S_S50000x10 main_c_13
  let main_v37 : IVec S50000x10 1 := cmpi .sge main_arg1 main_v36
  let main_c_14 : IVec S_ 32 := constantI S_ 32 99999#32
  let main_v38 : IVec S50000x10 32 := broadcastInDim S50000x10 ![] bcast_S_S50000x10 main_c_14
  let main_v39 : IVec S50000x10 1 := cmpi .sle main_arg1 main_v38
  let main_v40 : IVec S50000x10 1 := andi main_v37 main_v39
  let main_c_15 : IVec S_ 1 := constantI S_ 1 1#1
  let main_v41 : IVec S_ 1 := (fun x v => Host.reduce IntOp.andi x v reducesTo_S50000x10_S_d0_1 h_S_) main_v40 main_c_15
  let main_v42 : IVec S_ 1 := andi main_v35 main_v41
  let main_cst_16 : FVec F S_ .f32 := constant S_ .f32 0x00000000#32
  let main_v43 : FVec F S50000 .f32 := (fun x v => Host.reduceAdd x v reducesTo_S50000x10_S50000_d1 h_S_) main_arg2 main_cst_16
  let main_cst_17 : FVec F S_ .f32 := constant S_ .f32 0x00000000#32
  let main_v44 : FVec F S50000 .f32 := broadcastInDim S50000 ![] bcast_S_S50000 main_cst_17
  let main_v45 : IVec S50000 1 := cmpf .une main_v43 main_v44
  let main_c_18 : IVec S_ 1 := constantI S_ 1 1#1
  let main_v46 : IVec S_ 1 := (fun x v => Host.reduce IntOp.andi x v reducesTo_S50000_S_d0 h_S_) main_v45 main_c_18
  let main_v47 : IVec S_ 1 := andi main_v42 main_v46
  main_v47

def fn_part1 {F : FTy → Type} [FloatOps F] (main_arg0 : IVec S50000 32) (main_arg1 : IVec S50000x10 32) (main_arg2 : FVec F S50000x10 .f32) (main_arg6 : FVec F S256x128 .f32) (main_arg7 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S256x128 .f32 := Host.absf main_arg6
  let main_cst_6 : FVec F S_ .f32 := constant S_ .f32 0x7F800000#32
  let main_v20 : FVec F S256x128 .f32 := broadcastInDim S256x128 ![] bcast_S_S256x128 main_cst_6
  let main_v21 : IVec S256x128 1 := cmpf .olt main_v19 main_v20
  let main_c_7 : IVec S_ 1 := constantI S_ 1 1#1
  let main_v22 : IVec S_ 1 := (fun x v => Host.reduce IntOp.andi x v reducesTo_S256x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_c_10 : IVec S_ 32 := constantI S_ 32 0#32
  let main_v29 : IVec S50000 32 := broadcastInDim S50000 ![] bcast_S_S50000 main_c_10
  let main_v30 : IVec S50000 1 := cmpi .sge main_arg0 main_v29
  let main_c_11 : IVec S_ 32 := constantI S_ 32 99999#32
  let main_v31 : IVec S50000 32 := broadcastInDim S50000 ![] bcast_S_S50000 main_c_11
  let main_v32 : IVec S50000 1 := cmpi .sle main_arg0 main_v31
  let main_v33 : IVec S50000 1 := andi main_v30 main_v32
  fn_part2 (F := F) main_arg1 main_arg2 main_v28 main_v33

def fn {F : FTy → Type} [FloatOps F] (main_arg0 : IVec S50000 32) (main_arg1 : IVec S50000x10 32) (main_arg2 : FVec F S50000x10 .f32) (main_arg3 : FVec F S100000x128 .f32) (main_arg4 : FVec F S128x128 .f32) (main_arg5 : FVec F S128 .f32) (main_arg6 : FVec F S256x128 .f32) (main_arg7 : FVec F S128 .f32) : IVec S_ 1 :=
  let main_v0 : FVec F S50000x10 .f32 := Host.absf main_arg2
  let main_cst : FVec F S_ .f32 := constant S_ .f32 0x7F800000#32
  let main_v1 : FVec F S50000x10 .f32 := broadcastInDim S50000x10 ![] bcast_S_S50000x10 main_cst
  let main_v2 : IVec S50000x10 1 := cmpf .olt main_v0 main_v1
  let main_c : IVec S_ 1 := constantI S_ 1 1#1
  let main_v3 : IVec S_ 1 := (fun x v => Host.reduce IntOp.andi x v reducesTo_S50000x10_S_d0_1 h_S_) main_v2 main_c
  let main_v4 : FVec F S100000x128 .f32 := Host.absf main_arg3
  let main_cst_0 : FVec F S_ .f32 := constant S_ .f32 0x7F800000#32
  let main_v5 : FVec F S100000x128 .f32 := broadcastInDim S100000x128 ![] bcast_S_S100000x128 main_cst_0
  let main_v6 : IVec S100000x128 1 := cmpf .olt main_v4 main_v5
  let main_c_1 : IVec S_ 1 := constantI S_ 1 1#1
  let main_v7 : IVec S_ 1 := (fun x v => Host.reduce IntOp.andi x v reducesTo_S100000x128_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg0 main_arg1 main_arg2 main_arg6 main_arg7 main_v13 main_v16
-- ==== Kernel.lean ====
abbrev S50000 : Shape := ⟨1, ![50000]⟩
abbrev S50000x10 : Shape := ⟨2, ![50000, 10]⟩
abbrev S100000x128 : Shape := ⟨2, ![100000, 128]⟩
abbrev S128x128 : Shape := ⟨2, ![128, 128]⟩
abbrev S128 : Shape := ⟨1, ![128]⟩
abbrev S256x128 : Shape := ⟨2, ![256, 128]⟩
abbrev S500000 : Shape := ⟨1, ![500000]⟩
abbrev S_ : Shape := ⟨0, ![]⟩
abbrev S505920 : Shape := ⟨1, ![505920]⟩
abbrev S50592 : Shape := ⟨1, ![50592]⟩
abbrev S50176x128 : Shape := ⟨2, ![50176, 128]⟩
abbrev S17760 : Shape := ⟨1, ![17760]⟩
abbrev S1776 : Shape := ⟨1, ![1776]⟩
abbrev S80x128 : Shape := ⟨2, ![80, 128]⟩
abbrev S8x128 : Shape := ⟨2, ![8, 128]⟩
abbrev S80 : Shape := ⟨1, ![80]⟩
abbrev S8 : Shape := ⟨1, ![8]⟩
abbrev S16 : Shape := ⟨1, ![16]⟩
abbrev S1x16 : Shape := ⟨2, ![1, 16]⟩
abbrev S1x128 : Shape := ⟨2, ![1, 128]⟩
abbrev S50000x128 : Shape := ⟨2, ![50000, 128]⟩
abbrev S1024x128 : Shape := ⟨2, ![1024, 128]⟩

abbrev nBuf : Table → Nat
  | .hbm => 24
  | .local .tc .vmem => 10
  | .local .scVector .vmem => 9
  | _ => 0

abbrev bufTy : (tb : Table) → Fin (nBuf tb) → BufTy
  | .hbm, ⟨0, _⟩ => ⟨S50000, .i32⟩
  | .hbm, ⟨1, _⟩ => ⟨S50000x10, .i32⟩
  | .hbm, ⟨2, _⟩ => ⟨S50000x10, .f32⟩
  | .hbm, ⟨3, _⟩ => ⟨S100000x128, .f32⟩
  | .hbm, ⟨4, _⟩ => ⟨S128x128, .f32⟩
  | .hbm, ⟨5, _⟩ => ⟨S128, .f32⟩
  | .hbm, ⟨6, _⟩ => ⟨S256x128, .f32⟩
  | .hbm, ⟨7, _⟩ => ⟨S128, .f32⟩
  | .hbm, ⟨8, _⟩ => ⟨S500000, .i32⟩
  | .hbm, ⟨9, _⟩ => ⟨S_, .i32⟩
  | .hbm, ⟨10, _⟩ => ⟨S_, .i32⟩
  | .hbm, ⟨11, _⟩ => ⟨S505920, .i32⟩
  | .hbm, ⟨12, _⟩ => ⟨S500000, .f32⟩
  | .hbm, ⟨13, _⟩ => ⟨S_, .f32⟩
  | .hbm, ⟨14, _⟩ => ⟨S_, .f32⟩
  | .hbm, ⟨15, _⟩ => ⟨S505920, .f32⟩
  | .hbm, ⟨16, _⟩ => ⟨S_, .i32⟩
  | .hbm, ⟨17, _⟩ => ⟨S_, .i32⟩
  | .hbm, ⟨18, _⟩ => ⟨S50592, .i32⟩
  | .hbm, ⟨19, _⟩ => ⟨S50176x128, .f32⟩
  | .hbm, ⟨20, _⟩ => ⟨S50176x128, .f32⟩
  | .hbm, ⟨21, _⟩ => ⟨S1x128, .f32⟩
  | .hbm, ⟨22, _⟩ => ⟨S1x128, .f32⟩
  | .hbm, ⟨23, _⟩ => ⟨S50000x128, .f32⟩
  | .local .tc .vmem, ⟨0, _⟩ => ⟨S1024x128, .f32⟩
  | .local .tc .vmem, ⟨1, _⟩ => ⟨S1024x128, .f32⟩
  | .local .tc .vmem, ⟨2, _⟩ => ⟨S1024x128, .f32⟩
  | .local .tc .vmem, ⟨3, _⟩ => ⟨S1024x128, .f32⟩
  | .local .tc .vmem, ⟨4, _⟩ => ⟨S128x128, .f32⟩
  | .local .tc .vmem, ⟨5, _⟩ => ⟨S256x128, .f32⟩
  | .local .tc .vmem, ⟨6, _⟩ => ⟨S1x128, .f32⟩
  | .local .tc .vmem, ⟨7, _⟩ => ⟨S1x128, .f32⟩
  | .local .tc .vmem, ⟨8, _⟩ => ⟨S1024x128, .f32⟩
  | .local .tc .vmem, ⟨9, _⟩ => ⟨S1024x128, .f32⟩
  | .local .scVector .vmem, ⟨0, _⟩ => ⟨S17760, .i32⟩
  | .local .scVector .vmem, ⟨1, _⟩ => ⟨S1776, .i32⟩
  | .local .scVector .vmem, ⟨2, _⟩ => ⟨S17760, .f32⟩
  | .local .scVector .vmem, ⟨3, _⟩ => ⟨S80x128, .f32⟩
  | .local .scVector .vmem, ⟨4, _⟩ => ⟨S80x128, .f32⟩
  | .local .scVector .vmem, ⟨5, _⟩ => ⟨S8x128, .f32⟩
  | .local .scVector .vmem, ⟨6, _⟩ => ⟨S8x128, .f32⟩
  | .local .scVector .vmem, ⟨7, _⟩ => ⟨S8x128, .f32⟩
  | .local .scVector .vmem, ⟨8, _⟩ => ⟨S8x128, .f32⟩
  | _, _ => ⟨S50000, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 21 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTables nBuf rfl bufTy 4 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_call0_v0 : Ref sig .tc := ⟨.hbm, 10, rfl⟩
abbrev main_v1 : Ref sig .tc := ⟨.hbm, 11, rfl⟩
abbrev main_v2 : Ref sig .tc := ⟨.hbm, 12, rfl⟩
abbrev main_cst : Ref sig .tc := ⟨.hbm, 13, rfl⟩
abbrev main_call1_v0 : Ref sig .tc := ⟨.hbm, 14, rfl⟩
abbrev main_v3 : Ref sig .tc := ⟨.hbm, 15, rfl⟩
abbrev main_c_0 : Ref sig .tc := ⟨.hbm, 16, rfl⟩
abbrev main_call2_v0 : Ref sig .tc := ⟨.hbm, 17, rfl⟩
abbrev main_v4 : Ref sig .tc := ⟨.hbm, 18, rfl⟩
abbrev main_v5_0 : Ref sig .tc := ⟨.hbm, 19, rfl⟩
abbrev main_v5_1 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v1_scv : Ref sig .scVector := ⟨.hbm, 11, rfl⟩
abbrev main_v4_scv : Ref sig .scVector := ⟨.hbm, 18, rfl⟩
abbrev main_v3_scv : Ref sig .scVector := ⟨.hbm, 15, rfl⟩
abbrev main_arg3_scv : Ref sig .scVector := ⟨.hbm, 3, rfl⟩
abbrev main_v5_0_scv : Ref sig .scVector := ⟨.hbm, 19, rfl⟩
abbrev main_v5_1_scv : Ref sig .scVector := ⟨.hbm, 20, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg3_0 : Ref sig .tc := ⟨.vmem, 5, rfl⟩
abbrev cc1_stg4_0 : Ref sig .tc := ⟨.vmem, 6, rfl⟩
abbrev cc1_stg5_0 : Ref sig .tc := ⟨.vmem, 7, rfl⟩
abbrev cc1_stg6_0 : Ref sig .tc := ⟨.vmem, 8, rfl⟩
abbrev cc1_stg6_1 : Ref sig .tc := ⟨.vmem, 9, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev cc0_scratch7 : Ref sig .scVector := ⟨.vmem, 7, rfl⟩
abbrev cc0_scratch8 : Ref sig .scVector := ⟨.vmem, 8, rfl⟩
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem6_0 : DmaSem sig := 19
abbrev cc1_sem6_1 : DmaSem sig := 20
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c392_i32 : BitVec 32 := 392#32
  let v2 : BitVec 32 := Scalar.muli arg1 c392_i32
  let arg0 : BitVec 32 := BitVec.ofNat 32 (i 0).val
  let c222_i32_0 : BitVec 32 := 222#32
  let v3 : BitVec 32 := Scalar.muli arg0 c222_i32_0
  let v4 : BitVec 32 := Scalar.addi v2 v3
  let c8_i32 : BitVec 32 := 8#32
  let v5 : BitVec 32 := Scalar.muli v4 c8_i32
  let c10_i32 : BitVec 32 := 10#32
  let v6 : BitVec 32 := Scalar.muli v5 c10_i32
  ![v6.toNat]
def k0_off2 (i : grid0.Coords) : Fin 1 → Nat :=
  let arg1 : BitVec 32 := BitVec.ofNat 32 (i 1).val
  let c392_i32 : BitVec 32 := 392#32
  let v2 : BitVec 32 := Scalar.muli arg1 c392_i32
  let arg0 : BitVec 32 := BitVec.ofNat 32 (i 0).val
  let c222_i32_0 : BitVec 32 := 222#32
  let v3 : BitVec 32 := Scalar.muli arg0 c222_i32_0
  let v4 : BitVec 32 := Scalar.addi v2 v3
  let c8_i32 : BitVec 32 := 8#32
  let v5 : BitVec 32 := Scalar.muli v4 c8_i32
  ![v5.toNat]
@[reducible] def k0_t1_loop (i : grid0.Coords) : Scf.Loop 32 :=
  let c0_i32_18 : BitVec 32 := 0#32
  let arg0 : BitVec 32 := BitVec.ofNat 32 (i 0).val
  let c0_i32 : BitVec 32 := 0#32
  let v0 : BitVec 1 := Scalar.cmpi .eq arg0 c0_i32
  let c222_i32 : BitVec 32 := 222#32
  let c170_i32 : BitVec 32 := 170#32
  let v1 : BitVec 32 := Scalar.select v0 c222_i32 c170_i32
  let c0_i32_13 : BitVec 32 := 0#32
  let v17 : BitVec 1 := Scalar.cmpi .sgt v1 c0_i32_13
  let v18 : BitVec 32 := Scalar.extui v17
  let c0_i32_14 : BitVec 32 := 0#32
  let v19 : BitVec 1 := Scalar.cmpi .slt v1 c0_i32_14
  let v20 : BitVec 32 := Scalar.extui v19
  let v21 : BitVec 32 := Scalar.subi v18 v20
  let c2_i32 : BitVec 32 := 2#32
  let c0_i32_15 : BitVec 32 := 0#32
  let v22 : BitVec 1 := Scalar.cmpi .sgt c2_i32 c0_i32_15
  let v23 : BitVec 32 := Scalar.extui v22
  let c0_i32_16 : BitVec 32 := 0#32
  let v24 : BitVec 1 := Scalar.cmpi .slt c2_i32 c0_i32_16
  let v25 : BitVec 32 := Scalar.extui v24
  let v26 : BitVec 32 := Scalar.subi v23 v25
  let v27 : BitVec 1 := Scalar.cmpi .ne v21 v26
  let v28 : BitVec 32 := Scalar.remsi v1 c2_i32
  let c0_i32_17 : BitVec 32 := 0#32
  let v29 : BitVec 1 := Scalar.cmpi .ne v28 c0_i32_17
  let v30 : BitVec 1 := Scalar.andi v27 v29
  let v16 : BitVec 32 := Scalar.divsi v1 c2_i32
  let c1_i32 : BitVec 32 := 1#32
  let v31 : BitVec 32 := Scalar.subi v16 c1_i32
  let v32 : BitVec 32 := Scalar.select v30 v31 v16
  let v33 : BitVec 32 := Scalar.subi v32 c0_i32_18
  let c1_i32_20 : BitVec 32 := 1#32
  let v35 : BitVec 32 := Scalar.divsi v33 c1_i32_20
  let v36 : BitVec 32 := Scalar.muli v35 c1_i32_20
  let v37 : BitVec 32 := Scalar.addi c0_i32_18 v36
  let c1_i32_21 : BitVec 32 := 1#32
  ⟨c0_i32_18, v37, c1_i32_21⟩
def k0_cond1 (i : grid0.Coords) (k0_t1 : Fin (k0_t1_loop i).trips) : BitVec 1 :=
  let c2_i32_37 : BitVec 32 := 2#32
  let c0_i32_18 : BitVec 32 := 0#32
  let c1_i32_21 : BitVec 32 := 1#32
  let arg25 : BitVec 32 := Scf.iv c0_i32_18 c1_i32_21 k0_t1
  let v56 : BitVec 32 := Scalar.muli c2_i32_37 arg25
  let c0_i32_38 : BitVec 32 := 0#32
  let v57 : BitVec 32 := Scalar.addi v56 c0_i32_38
  let c2_i32_39 : BitVec 32 := 2#32
  let v58 : BitVec 1 := Scalar.cmpi .sge v57 c2_i32_39
  let v59 : BitVec 32 := Scalar.extui v58
  let c0_i32_40 : BitVec 32 := 0#32
  let v60 : BitVec 1 := Scalar.cmpi .ne v59 c0_i32_40
  v60

def k0_off3 (i : grid0.Coords) (k0_t1 : Fin (k0_t1_loop i).trips) : Fin 2 → Nat :=
  let arg1 : BitVec 32 := BitVec.ofNat 32 (i 1).val
  let c392_i32 : BitVec 32 := 392#32
  let v2 : BitVec 32 := Scalar.muli arg1 c392_i32
  let arg0 : BitVec 32 := BitVec.ofNat 32 (i 0).val
  let c222_i32_0 : BitVec 32 := 222#32
  let v3 : BitVec 32 := Scalar.muli arg0 c222_i32_0
  let v4 : BitVec 32 := Scalar.addi v2 v3
  let c8_i32 : BitVec 32 := 8#32
  let v5 : BitVec 32 := Scalar.muli v4 c8_i32
  let c2_i32_37 : BitVec 32 := 2#32
  let c0_i32_18 : BitVec 32 := 0#32
  let c1_i32_21 : BitVec 32 := 1#32
  let arg25 : BitVec 32 := Scf.iv c0_i32_18 c1_i32_21 k0_t1
  let v56 : BitVec 32 := Scalar.muli c2_i32_37 arg25
  let c0_i32_38 : BitVec 32 := 0#32
  let v57 : BitVec 32 := Scalar.addi v56 c0_i32_38
  let c2_i32_82 : BitVec 32 := 2#32
  let v102 : BitVec 32 := Scalar.subi v57 c2_i32_82
  let c8_i32_83 : BitVec 32 := 8#32
  let v103 : BitVec 32 := Scalar.muli v102 c8_i32_83
  let v104 : BitVec 32 := Scalar.addi v5 v103
  let c0_i32_84 : BitVec 32 := 0#32
  ![v104.toNat, 0]
def k0_off4 (i : grid0.Coords) (k0_t1 : Fin (k0_t1_loop i).trips) : Fin 1 → Nat :=
  let c2_i32_37 : BitVec 32 := 2#32
  let c0_i32_18 : BitVec 32 := 0#32
  let c1_i32_21 : BitVec 32 := 1#32
  let arg25 : BitVec 32 := Scf.iv c0_i32_18 c1_i32_21 k0_t1
  let v56 : BitVec 32 := Scalar.muli c2_i32_37 arg25
  let c0_i32_38 : BitVec 32 := 0#32
  let v57 : BitVec 32 := Scalar.addi v56 c0_i32_38
  let c8_i32_88 : BitVec 32 := 8#32
  let v109 : BitVec 32 := Scalar.muli v57 c8_i32_88
  ![v109.toNat]
def k0_off5 (i : grid0.Coords) (k0_t1 : Fin (k0_t1_loop i).trips) (c0_i32_38 : BitVec 32) : Fin 1 → Nat :=
  let c2_i32_37 : BitVec 32 := 2#32
  let c0_i32_18 : BitVec 32 := 0#32
  let c1_i32_21 : BitVec 32 := 1#32
  let arg25 : BitVec 32 := Scf.iv c0_i32_18 c1_i32_21 k0_t1
  let v56 : BitVec 32 := Scalar.muli c2_i32_37 arg25
  let v57 : BitVec 32 := Scalar.addi v56 c0_i32_38
  let c80_i32_41 : BitVec 32 := 80#32
  let v61 : BitVec 32 := Scalar.muli v57 c80_i32_41
  ![v61.toNat]
@[reducible] def k0_t2_loop : Scf.Loop 32 :=
  let c0_i32_45 : BitVec 32 := 0#32
  let c8_i32_46 : BitVec 32 := 8#32
  let v64 : BitVec 32 := Scalar.addi c0_i32_45 c8_i32_46
  let c1_i32_47 : BitVec 32 := 1#32
  ⟨c0_i32_45, v64, c1_i32_47⟩

def k0_chk1 (v106 : IVec S16 32) : Prop :=
  (∀ a x, ((![v106] : Fin 1 → IVec S16 32) a x).toNat < S17760.size a)
instance k0_chk1.dec : ∀ (v106 : IVec S16 32), Decidable (k0_chk1 v106) := fun v106 => decidable_of_iff' _ (Iff.of_eq (k0_chk1.eq_1 v106))
theorem k0_idx1_inb : ∀ (v106 : IVec S16 32) (k0_hw1 : k0_chk1 v106), ∀ a x, ((![v106] : Fin 1 → IVec S16 32) a x).toNat < S17760.size a := fun v106 k0_hw1 => k0_hw1

def k0_chk2 (v109 : IVec S16 32) : Prop :=
  (∀ a x, ((![v109] : Fin 1 → IVec S16 32) a x).toNat < S17760.size a)
instance k0_chk2.dec : ∀ (v109 : IVec S16 32), Decidable (k0_chk2 v109) := fun v109 => decidable_of_iff' _ (Iff.of_eq (k0_chk2.eq_1 v109))
theorem k0_idx2_inb : ∀ (v109 : IVec S16 32) (k0_hw2 : k0_chk2 v109), ∀ a x, ((![v109] : Fin 1 → IVec S16 32) a x).toNat < S17760.size a := fun v109 k0_hw2 => k0_hw2

def k0_chk3 (v112 : IVec S16 32) : Prop :=
  (∀ a x, ((![v112] : Fin 1 → IVec S16 32) a x).toNat < S17760.size a)
instance k0_chk3.dec : ∀ (v112 : IVec S16 32), Decidable (k0_chk3 v112) := fun v112 => decidable_of_iff' _ (Iff.of_eq (k0_chk3.eq_1 v112))
theorem k0_idx3_inb : ∀ (v112 : IVec S16 32) (k0_hw3 : k0_chk3 v112), ∀ a x, ((![v112] : Fin 1 → IVec S16 32) a x).toNat < S17760.size a := fun v112 k0_hw3 => k0_hw3

def k0_chk4 (v115 : IVec S16 32) : Prop :=
  (∀ a x, ((![v115] : Fin 1 → IVec S16 32) a x).toNat < S17760.size a)
instance k0_chk4.dec : ∀ (v115 : IVec S16 32), Decidable (k0_chk4 v115) := fun v115 => decidable_of_iff' _ (Iff.of_eq (k0_chk4.eq_1 v115))
theorem k0_idx4_inb : ∀ (v115 : IVec S16 32) (k0_hw4 : k0_chk4 v115), ∀ a x, ((![v115] : Fin 1 → IVec S16 32) a x).toNat < S17760.size a := fun v115 k0_hw4 => k0_hw4

def k0_chk5 (v118 : IVec S16 32) : Prop :=
  (∀ a x, ((![v118] : Fin 1 → IVec S16 32) a x).toNat < S17760.size a)
instance k0_chk5.dec : ∀ (v118 : IVec S16 32), Decidable (k0_chk5 v118) := fun v118 => decidable_of_iff' _ (Iff.of_eq (k0_chk5.eq_1 v118))
theorem k0_idx5_inb : ∀ (v118 : IVec S16 32) (k0_hw5 : k0_chk5 v118), ∀ a x, ((![v118] : Fin 1 → IVec S16 32) a x).toNat < S17760.size a := fun v118 k0_hw5 => k0_hw5

def k0_chk6 (v121 : IVec S16 32) : Prop :=
  (∀ a x, ((![v121] : Fin 1 → IVec S16 32) a x).toNat < S17760.size a)
instance k0_chk6.dec : ∀ (v121 : IVec S16 32), Decidable (k0_chk6 v121) := fun v121 => decidable_of_iff' _ (Iff.of_eq (k0_chk6.eq_1 v121))
theorem k0_idx6_inb : ∀ (v121 : IVec S16 32) (k0_hw6 : k0_chk6 v121), ∀ a x, ((![v121] : Fin 1 → IVec S16 32) a x).toNat < S17760.size a := fun v121 k0_hw6 => k0_hw6

def k0_chk7 (v124 : IVec S16 32) : Prop :=
  (∀ a x, ((![v124] : Fin 1 → IVec S16 32) a x).toNat < S17760.size a)
instance k0_chk7.dec : ∀ (v124 : IVec S16 32), Decidable (k0_chk7 v124) := fun v124 => decidable_of_iff' _ (Iff.of_eq (k0_chk7.eq_1 v124))
theorem k0_idx7_inb : ∀ (v124 : IVec S16 32) (k0_hw7 : k0_chk7 v124), ∀ a x, ((![v124] : Fin 1 → IVec S16 32) a x).toNat < S17760.size a := fun v124 k0_hw7 => k0_hw7

def k0_chk8 (v127 : IVec S16 32) : Prop :=
  (∀ a x, ((![v127] : Fin 1 → IVec S16 32) a x).toNat < S17760.size a)
instance k0_chk8.dec : ∀ (v127 : IVec S16 32), Decidable (k0_chk8 v127) := fun v127 => decidable_of_iff' _ (Iff.of_eq (k0_chk8.eq_1 v127))
theorem k0_idx8_inb : ∀ (v127 : IVec S16 32) (k0_hw8 : k0_chk8 v127), ∀ a x, ((![v127] : Fin 1 → IVec S16 32) a x).toNat < S17760.size a := fun v127 k0_hw8 => k0_hw8

def k0_chk9 (v130 : IVec S16 32) : Prop :=
  (∀ a x, ((![v130] : Fin 1 → IVec S16 32) a x).toNat < S17760.size a)
instance k0_chk9.dec : ∀ (v130 : IVec S16 32), Decidable (k0_chk9 v130) := fun v130 => decidable_of_iff' _ (Iff.of_eq (k0_chk9.eq_1 v130))
theorem k0_idx9_inb : ∀ (v130 : IVec S16 32) (k0_hw9 : k0_chk9 v130), ∀ a x, ((![v130] : Fin 1 → IVec S16 32) a x).toNat < S17760.size a := fun v130 k0_hw9 => k0_hw9

def k0_chk10 (v133 : IVec S16 32) : Prop :=
  (∀ a x, ((![v133] : Fin 1 → IVec S16 32) a x).toNat < S17760.size a)
instance k0_chk10.dec : ∀ (v133 : IVec S16 32), Decidable (k0_chk10 v133) := fun v133 => decidable_of_iff' _ (Iff.of_eq (k0_chk10.eq_1 v133))
theorem k0_idx10_inb : ∀ (v133 : IVec S16 32) (k0_hw10 : k0_chk10 v133), ∀ a x, ((![v133] : Fin 1 → IVec S16 32) a x).toNat < S17760.size a := fun v133 k0_hw10 => k0_hw10
def k0_off6 (k0_t2 : Fin k0_t2_loop.trips) : Fin 2 → Nat :=
  let c0_i32_45 : BitVec 32 := 0#32
  let c1_i32_47 : BitVec 32 := 1#32
  let arg27 : BitVec 32 := Scf.iv c0_i32_45 c1_i32_47 k0_t2
  let c10_i32_82 : BitVec 32 := 10#32
  let v102 : BitVec 32 := Scalar.muli arg27 c10_i32_82
  let v146 : Index := Scalar.indexCast v102
  let c0 : Index := 0#32
  ![v146.toNat, 0]
def k0_off7 (k0_t2 : Fin k0_t2_loop.trips) (c1_i32_88 : BitVec 32) : Fin 2 → Nat :=
  let c0_i32_45 : BitVec 32 := 0#32
  let c1_i32_47 : BitVec 32 := 1#32
  let arg27 : BitVec 32 := Scf.iv c0_i32_45 c1_i32_47 k0_t2
  let c10_i32_82 : BitVec 32 := 10#32
  let v102 : BitVec 32 := Scalar.muli arg27 c10_i32_82
  let v149 : BitVec 32 := Scalar.addi v102 c1_i32_88
  let v150 : Index := Scalar.indexCast v149
  let c0_89 : Index := 0#32
  ![v150.toNat, 0]
def k0_off8 (k0_t2 : Fin k0_t2_loop.trips) : Fin 2 → Nat :=
  let c0_i32_45 : BitVec 32 := 0#32
  let c1_i32_47 : BitVec 32 := 1#32
  let arg27 : BitVec 32 := Scf.iv c0_i32_45 c1_i32_47 k0_t2
  let v195 : Index := Scalar.indexCast arg27
  let c0_106 : Index := 0#32
  ![v195.toNat, 0]
def k0_off9 (k0_t2 : Fin k0_t2_loop.trips) : Fin 2 → Nat :=
  let c0_i32_45 : BitVec 32 := 0#32
  let c1_i32_47 : BitVec 32 := 1#32
  let arg27 : BitVec 32 := Scf.iv c0_i32_45 c1_i32_47 k0_t2
  let c10_i32_82 : BitVec 32 := 10#32
  let v102 : BitVec 32 := Scalar.muli arg27 c10_i32_82
  let v197 : Index := Scalar.indexCast v102
  let c16 : Index := 16#32
  ![v197.toNat, 16]
def k0_off10 (k0_t2 : Fin k0_t2_loop.trips) (c1_i32_107 : BitVec 32) : Fin 2 → Nat :=
  let c0_i32_45 : BitVec 32 := 0#32
  let c1_i32_47 : BitVec 32 := 1#32
  let arg27 : BitVec 32 := Scf.iv c0_i32_45 c1_i32_47 k0_t2
  let c10_i32_82 : BitVec 32 := 10#32
  let v102 : BitVec 32 := Scalar.muli arg27 c10_i32_82
  let v200 : BitVec 32 := Scalar.addi v102 c1_i32_107
  let v201 : Index := Scalar.indexCast v200
  let c16_108 : Index := 16#32
  ![v201.toNat, 16]
def k0_off11 (k0_t2 : Fin k0_t2_loop.trips) : Fin 2 → Nat :=
  let c0_i32_45 : BitVec 32 := 0#32
  let c1_i32_47 : BitVec 32 := 1#32
  let arg27 : BitVec 32 := Scf.iv c0_i32_45 c1_i32_47 k0_t2
  let v246 : Index := Scalar.indexCast arg27
  let c16_125 : Index := 16#32
  ![v246.toNat, 16]
def k0_off12 (k0_t2 : Fin k0_t2_loop.trips) : Fin 2 → Nat :=
  let c0_i32_45 : BitVec 32 := 0#32
  let c1_i32_47 : BitVec 32 := 1#32
  let arg27 : BitVec 32 := Scf.iv c0_i32_45 c1_i32_47 k0_t2
  let c10_i32_82 : BitVec 32 := 10#32
  let v102 : BitVec 32 := Scalar.muli arg27 c10_i32_82
  let v248 : Index := Scalar.indexCast v102
  let c32 : Index := 32#32
  ![v248.toNat, 32]
def k0_off13 (k0_t2 : Fin k0_t2_loop.trips) (c1_i32_126 : BitVec 32) : Fin 2 → Nat :=
  let c0_i32_45 : BitVec 32 := 0#32
  let c1_i32_47 : BitVec 32 := 1#32
  let arg27 : BitVec 32 := Scf.iv c0_i32_45 c1_i32_47 k0_t2
  let c10_i32_82 : BitVec 32 := 10#32
  let v102 : BitVec 32 := Scalar.muli arg27 c10_i32_82
  let v251 : BitVec 32 := Scalar.addi v102 c1_i32_126
  let v252 : Index := Scalar.indexCast v251
  let c32_127 : Index := 32#32
  ![v252.toNat, 32]
def k0_off14 (k0_t2 : Fin k0_t2_loop.trips) : Fin 2 → Nat :=
  let c0_i32_45 : BitVec 32 := 0#32
  let c1_i32_47 : BitVec 32 := 1#32
  let arg27 : BitVec 32 := Scf.iv c0_i32_45 c1_i32_47 k0_t2
  let v297 : Index := Scalar.indexCast arg27
  let c32_144 : Index := 32#32
  ![v297.toNat, 32]
def k0_off15 (k0_t2 : Fin k0_t2_loop.trips) : Fin 2 → Nat :=
  let c0_i32_45 : BitVec 32 := 0#32
  let c1_i32_47 : BitVec 32 := 1#32
  let arg27 : BitVec 32 := Scf.iv c0_i32_45 c1_i32_47 k0_t2
  let c10_i32_82 : BitVec 32 := 10#32
  let v102 : BitVec 32 := Scalar.muli arg27 c10_i32_82
  let v299 : Index := Scalar.indexCast v102
  let c48 : Index := 48#32
  ![v299.toNat, 48]
def k0_off16 (k0_t2 : Fin k0_t2_loop.trips) (c1_i32_145 : BitVec 32) : Fin 2 → Nat :=
  let c0_i32_45 : BitVec 32 := 0#32
  let c1_i32_47 : BitVec 32 := 1#32
  let arg27 : BitVec 32 := Scf.iv c0_i32_45 c1_i32_47 k0_t2
  let c10_i32_82 : BitVec 32 := 10#32
  let v102 : BitVec 32 := Scalar.muli arg27 c10_i32_82
  let v302 : BitVec 32 := Scalar.addi v102 c1_i32_145
  let v303 : Index := Scalar.indexCast v302
  let c48_146 : Index := 48#32
  ![v303.toNat, 48]
def k0_off17 (k0_t2 : Fin k0_t2_loop.trips) : Fin 2 → Nat :=
  let c0_i32_45 : BitVec 32 := 0#32
  let c1_i32_47 : BitVec 32 := 1#32
  let arg27 : BitVec 32 := Scf.iv c0_i32_45 c1_i32_47 k0_t2
  let v348 : Index := Scalar.indexCast arg27
  let c48_163 : Index := 48#32
  ![v348.toNat, 48]
def k0_off18 (k0_t2 : Fin k0_t2_loop.trips) : Fin 2 → Nat :=
  let c0_i32_45 : BitVec 32 := 0#32
  let c1_i32_47 : BitVec 32 := 1#32
  let arg27 : BitVec 32 := Scf.iv c0_i32_45 c1_i32_47 k0_t2
  let c10_i32_82 : BitVec 32 := 10#32
  let v102 : BitVec 32 := Scalar.muli arg27 c10_i32_82
  let v350 : Index := Scalar.indexCast v102
  let c64 : Index := 64#32
  ![v350.toNat, 64]
def k0_off19 (k0_t2 : Fin k0_t2_loop.trips) (c1_i32_164 : BitVec 32) : Fin 2 → Nat :=
  let c0_i32_45 : BitVec 32 := 0#32
  let c1_i32_47 : BitVec 32 := 1#32
  let arg27 : BitVec 32 := Scf.iv c0_i32_45 c1_i32_47 k0_t2
  let c10_i32_82 : BitVec 32 := 10#32
  let v102 : BitVec 32 := Scalar.muli arg27 c10_i32_82
  let v353 : BitVec 32 := Scalar.addi v102 c1_i32_164
  let v354 : Index := Scalar.indexCast v353
  let c64_165 : Index := 64#32
  ![v354.toNat, 64]
def k0_off20 (k0_t2 : Fin k0_t2_loop.trips) : Fin 2 → Nat :=
  let c0_i32_45 : BitVec 32 := 0#32
  let c1_i32_47 : BitVec 32 := 1#32
  let arg27 : BitVec 32 := Scf.iv c0_i32_45 c1_i32_47 k0_t2
  let v399 : Index := Scalar.indexCast arg27
  let c64_182 : Index := 64#32
  ![v399.toNat, 64]
def k0_off21 (k0_t2 : Fin k0_t2_loop.trips) : Fin 2 → Nat :=
  let c0_i32_45 : BitVec 32 := 0#32
  let c1_i32_47 : BitVec 32 := 1#32
  let arg27 : BitVec 32 := Scf.iv c0_i32_45 c1_i32_47 k0_t2
  let c10_i32_82 : BitVec 32 := 10#32
  let v102 : BitVec 32 := Scalar.muli arg27 c10_i32_82
  let v401 : Index := Scalar.indexCast v102
  let c80 : Index := 80#32
  ![v401.toNat, 80]
def k0_off22 (k0_t2 : Fin k0_t2_loop.trips) (c1_i32_183 : BitVec 32) : Fin 2 → Nat :=
  let c0_i32_45 : BitVec 32 := 0#32
  let c1_i32_47 : BitVec 32 := 1#32
  let arg27 : BitVec 32 := Scf.iv c0_i32_45 c1_i32_47 k0_t2
  let c10_i32_82 : BitVec 32 := 10#32
  let v102 : BitVec 32 := Scalar.muli arg27 c10_i32_82
  let v404 : BitVec 32 := Scalar.addi v102 c1_i32_183
  let v405 : Index := Scalar.indexCast v404
  let c80_184 : Index := 80#32
  ![v405.toNat, 80]
def k0_off23 (k0_t2 : Fin k0_t2_loop.trips) : Fin 2 → Nat :=
  let c0_i32_45 : BitVec 32 := 0#32
  let c1_i32_47 : BitVec 32 := 1#32
  let arg27 : BitVec 32 := Scf.iv c0_i32_45 c1_i32_47 k0_t2
  let v450 : Index := Scalar.indexCast arg27
  let c80_201 : Index := 80#32
  ![v450.toNat, 80]
def k0_off24 (k0_t2 : Fin k0_t2_loop.trips) : Fin 2 → Nat :=
  let c0_i32_45 : BitVec 32 := 0#32
  let c1_i32_47 : BitVec 32 := 1#32
  let arg27 : BitVec 32 := Scf.iv c0_i32_45 c1_i32_47 k0_t2
  let c10_i32_82 : BitVec 32 := 10#32
  let v102 : BitVec 32 := Scalar.muli arg27 c10_i32_82
  let v452 : Index := Scalar.indexCast v102
  let c96 : Index := 96#32
  ![v452.toNat, 96]
def k0_off25 (k0_t2 : Fin k0_t2_loop.trips) (c1_i32_202 : BitVec 32) : Fin 2 → Nat :=
  let c0_i32_45 : BitVec 32 := 0#32
  let c1_i32_47 : BitVec 32 := 1#32
  let arg27 : BitVec 32 := Scf.iv c0_i32_45 c1_i32_47 k0_t2
  let c10_i32_82 : BitVec 32 := 10#32
  let v102 : BitVec 32 := Scalar.muli arg27 c10_i32_82
  let v455 : BitVec 32 := Scalar.addi v102 c1_i32_202
  let v456 : Index := Scalar.indexCast v455
  let c96_203 : Index := 96#32
  ![v456.toNat, 96]
def k0_off26 (k0_t2 : Fin k0_t2_loop.trips) : Fin 2 → Nat :=
  let c0_i32_45 : BitVec 32 := 0#32
  let c1_i32_47 : BitVec 32 := 1#32
  let arg27 : BitVec 32 := Scf.iv c0_i32_45 c1_i32_47 k0_t2
  let v501 : Index := Scalar.indexCast arg27
  let c96_220 : Index := 96#32
  ![v501.toNat, 96]
def k0_off27 (k0_t2 : Fin k0_t2_loop.trips) : Fin 2 → Nat :=
  let c0_i32_45 : BitVec 32 := 0#32
  let c1_i32_47 : BitVec 32 := 1#32
  let arg27 : BitVec 32 := Scf.iv c0_i32_45 c1_i32_47 k0_t2
  let c10_i32_82 : BitVec 32 := 10#32
  let v102 : BitVec 32 := Scalar.muli arg27 c10_i32_82
  let v503 : Index := Scalar.indexCast v102
  let c112 : Index := 112#32
  ![v503.toNat, 112]
def k0_off28 (k0_t2 : Fin k0_t2_loop.trips) (c1_i32_221 : BitVec 32) : Fin 2 → Nat :=
  let c0_i32_45 : BitVec 32 := 0#32
  let c1_i32_47 : BitVec 32 := 1#32
  let arg27 : BitVec 32 := Scf.iv c0_i32_45 c1_i32_47 k0_t2
  let c10_i32_82 : BitVec 32 := 10#32
  let v102 : BitVec 32 := Scalar.muli arg27 c10_i32_82
  let v506 : BitVec 32 := Scalar.addi v102 c1_i32_221
  let v507 : Index := Scalar.indexCast v506
  let c112_222 : Index := 112#32
  ![v507.toNat, 112]
def k0_off29 (k0_t2 : Fin k0_t2_loop.trips) : Fin 2 → Nat :=
  let c0_i32_45 : BitVec 32 := 0#32
  let c1_i32_47 : BitVec 32 := 1#32
  let arg27 : BitVec 32 := Scf.iv c0_i32_45 c1_i32_47 k0_t2
  let v552 : Index := Scalar.indexCast arg27
  let c112_239 : Index := 112#32
  ![v552.toNat, 112]
def k0_off30 (i : grid0.Coords) (k0_t1 : Fin (k0_t1_loop i).trips) (c0_i32_38 : BitVec 32) : Fin 1 → Nat :=
  let c2_i32_37 : BitVec 32 := 2#32
  let c0_i32_18 : BitVec 32 := 0#32
  let c1_i32_21 : BitVec 32 := 1#32
  let arg25 : BitVec 32 := Scf.iv c0_i32_18 c1_i32_21 k0_t1
  let v56 : BitVec 32 := Scalar.muli c2_i32_37 arg25
  let v57 : BitVec 32 := Scalar.addi v56 c0_i32_38
  let c8_i32_49 : BitVec 32 := 8#32
  let v66 : BitVec 32 := Scalar.muli v57 c8_i32_49
  ![v66.toNat]
def k0_off31 (i : grid0.Coords) (k0_t1 : Fin (k0_t1_loop i).trips) (c0_i32_38 : BitVec 32) : Fin 2 → Nat :=
  let arg1 : BitVec 32 := BitVec.ofNat 32 (i 1).val
  let c392_i32 : BitVec 32 := 392#32
  let v2 : BitVec 32 := Scalar.muli arg1 c392_i32
  let arg0 : BitVec 32 := BitVec.ofNat 32 (i 0).val
  let c222_i32_0 : BitVec 32 := 222#32
  let v3 : BitVec 32 := Scalar.muli arg0 c222_i32_0
  let v4 : BitVec 32 := Scalar.addi v2 v3
  let c8_i32 : BitVec 32 := 8#32
  let v5 : BitVec 32 := Scalar.muli v4 c8_i32
  let c2_i32_37 : BitVec 32 := 2#32
  let c0_i32_18 : BitVec 32 := 0#32
  let c1_i32_21 : BitVec 32 := 1#32
  let arg25 : BitVec 32 := Scf.iv c0_i32_18 c1_i32_21 k0_t1
  let v56 : BitVec 32 := Scalar.muli c2_i32_37 arg25
  let v57 : BitVec 32 := Scalar.addi v56 c0_i32_38
  let c8_i32_52 : BitVec 32 := 8#32
  let v69 : BitVec 32 := Scalar.muli v57 c8_i32_52
  let v70 : BitVec 32 := Scalar.addi v5 v69
  let c0_i32_53 : BitVec 32 := 0#32
  ![v70.toNat, 0]
def k0_cond2 (i : grid0.Coords) (k0_t1 : Fin (k0_t1_loop i).trips) : BitVec 1 :=
  let c2_i32_37 : BitVec 32 := 2#32
  let c0_i32_18 : BitVec 32 := 0#32
  let c1_i32_21 : BitVec 32 := 1#32
  let arg25 : BitVec 32 := Scf.iv c0_i32_18 c1_i32_21 k0_t1
  let v56 : BitVec 32 := Scalar.muli c2_i32_37 arg25
  let c0_i32_38 : BitVec 32 := 0#32
  let v57 : BitVec 32 := Scalar.addi v56 c0_i32_38
  let c2_i32_57 : BitVec 32 := 2#32
  let v75 : BitVec 32 := Scalar.addi v57 c2_i32_57
  let arg0 : BitVec 32 := BitVec.ofNat 32 (i 0).val
  let c0_i32 : BitVec 32 := 0#32
  let v0 : BitVec 1 := Scalar.cmpi .eq arg0 c0_i32
  let c222_i32 : BitVec 32 := 222#32
  let c170_i32 : BitVec 32 := 170#32
  let v1 : BitVec 32 := Scalar.select v0 c222_i32 c170_i32
  let v76 : BitVec 1 := Scalar.cmpi .slt v75 v1
  let v77 : BitVec 32 := Scalar.extui v76
  let c0_i32_58 : BitVec 32 := 0#32
  let v78 : BitVec 1 := Scalar.cmpi .ne v77 c0_i32_58
  v78

def k0_off32 (i : grid0.Coords) (k0_t1 : Fin (k0_t1_loop i).trips) : Fin 1 → Nat :=
  let c2_i32_37 : BitVec 32 := 2#32
  let c0_i32_18 : BitVec 32 := 0#32
  let c1_i32_21 : BitVec 32 := 1#32
  let arg25 : BitVec 32 := Scf.iv c0_i32_18 c1_i32_21 k0_t1
  let v56 : BitVec 32 := Scalar.muli c2_i32_37 arg25
  let c0_i32_38 : BitVec 32 := 0#32
  let v57 : BitVec 32 := Scalar.addi v56 c0_i32_38
  let c2_i32_82 : BitVec 32 := 2#32
  let v102 : BitVec 32 := Scalar.addi v57 c2_i32_82
  let c80_i32_83 : BitVec 32 := 80#32
  let v103 : BitVec 32 := Scalar.muli v102 c80_i32_83
  ![v103.toNat]
def k0_cond3 (i : grid0.Coords) (k0_t1 : Fin (k0_t1_loop i).trips) : BitVec 1 :=
  let c2_i32_59 : BitVec 32 := 2#32
  let c0_i32_18 : BitVec 32 := 0#32
  let c1_i32_21 : BitVec 32 := 1#32
  let arg25 : BitVec 32 := Scf.iv c0_i32_18 c1_i32_21 k0_t1
  let v79 : BitVec 32 := Scalar.muli c2_i32_59 arg25
  let c1_i32_60 : BitVec 32 := 1#32
  let v80 : BitVec 32 := Scalar.addi v79 c1_i32_60
  let c2_i32_61 : BitVec 32 := 2#32
  let v81 : BitVec 1 := Scalar.cmpi .sge v80 c2_i32_61
  let v82 : BitVec 32 := Scalar.extui v81
  let c0_i32_62 : BitVec 32 := 0#32
  let v83 : BitVec 1 := Scalar.cmpi .ne v82 c0_i32_62
  v83

def k0_off33 (i : grid0.Coords) (k0_t1 : Fin (k0_t1_loop i).trips) : Fin 2 → Nat :=
  let arg1 : BitVec 32 := BitVec.ofNat 32 (i 1).val
  let c392_i32 : BitVec 32 := 392#32
  let v2 : BitVec 32 := Scalar.muli arg1 c392_i32
  let arg0 : BitVec 32 := BitVec.ofNat 32 (i 0).val
  let c222_i32_0 : BitVec 32 := 222#32
  let v3 : BitVec 32 := Scalar.muli arg0 c222_i32_0
  let v4 : BitVec 32 := Scalar.addi v2 v3
  let c8_i32 : BitVec 32 := 8#32
  let v5 : BitVec 32 := Scalar.muli v4 c8_i32
  let c2_i32_59 : BitVec 32 := 2#32
  let c0_i32_18 : BitVec 32 := 0#32
  let c1_i32_21 : BitVec 32 := 1#32
  let arg25 : BitVec 32 := Scf.iv c0_i32_18 c1_i32_21 k0_t1
  let v79 : BitVec 32 := Scalar.muli c2_i32_59 arg25
  let c1_i32_60 : BitVec 32 := 1#32
  let v80 : BitVec 32 := Scalar.addi v79 c1_i32_60
  let c2_i32_82 : BitVec 32 := 2#32
  let v102 : BitVec 32 := Scalar.subi v80 c2_i32_82
  let c8_i32_83 : BitVec 32 := 8#32
  let v103 : BitVec 32 := Scalar.muli v102 c8_i32_83
  let v104 : BitVec 32 := Scalar.addi v5 v103
  let c0_i32_84 : BitVec 32 := 0#32
  ![v104.toNat, 0]
def k0_off34 (i : grid0.Coords) (k0_t1 : Fin (k0_t1_loop i).trips) : Fin 1 → Nat :=
  let c2_i32_59 : BitVec 32 := 2#32
  let c0_i32_18 : BitVec 32 := 0#32
  let c1_i32_21 : BitVec 32 := 1#32
  let arg25 : BitVec 32 := Scf.iv c0_i32_18 c1_i32_21 k0_t1
  let v79 : BitVec 32 := Scalar.muli c2_i32_59 arg25
  let c1_i32_60 : BitVec 32 := 1#32
  let v80 : BitVec 32 := Scalar.addi v79 c1_i32_60
  let c8_i32_88 : BitVec 32 := 8#32
  let v109 : BitVec 32 := Scalar.muli v80 c8_i32_88
  ![v109.toNat]
@[reducible] def k0_t3_loop : Scf.Loop 32 :=
  let c0_i32_67 : BitVec 32 := 0#32
  let c8_i32_68 : BitVec 32 := 8#32
  let v87 : BitVec 32 := Scalar.addi c0_i32_67 c8_i32_68
  let c1_i32_69 : BitVec 32 := 1#32
  ⟨c0_i32_67, v87, c1_i32_69⟩

def k0_chk11 (v106 : IVec S16 32) : Prop :=
  (∀ a x, ((![v106] : Fin 1 → IVec S16 32) a x).toNat < S17760.size a)
instance k0_chk11.dec : ∀ (v106 : IVec S16 32), Decidable (k0_chk11 v106) := fun v106 => decidable_of_iff' _ (Iff.of_eq (k0_chk11.eq_1 v106))
theorem k0_idx11_inb : ∀ (v106 : IVec S16 32) (k0_hw11 : k0_chk11 v106), ∀ a x, ((![v106] : Fin 1 → IVec S16 32) a x).toNat < S17760.size a := fun v106 k0_hw11 => k0_hw11

def k0_chk12 (v109 : IVec S16 32) : Prop :=
  (∀ a x, ((![v109] : Fin 1 → IVec S16 32) a x).toNat < S17760.size a)
instance k0_chk12.dec : ∀ (v109 : IVec S16 32), Decidable (k0_chk12 v109) := fun v109 => decidable_of_iff' _ (Iff.of_eq (k0_chk12.eq_1 v109))
theorem k0_idx12_inb : ∀ (v109 : IVec S16 32) (k0_hw12 : k0_chk12 v109), ∀ a x, ((![v109] : Fin 1 → IVec S16 32) a x).toNat < S17760.size a := fun v109 k0_hw12 => k0_hw12

def k0_chk13 (v112 : IVec S16 32) : Prop :=
  (∀ a x, ((![v112] : Fin 1 → IVec S16 32) a x).toNat < S17760.size a)
instance k0_chk13.dec : ∀ (v112 : IVec S16 32), Decidable (k0_chk13 v112) := fun v112 => decidable_of_iff' _ (Iff.of_eq (k0_chk13.eq_1 v112))
theorem k0_idx13_inb : ∀ (v112 : IVec S16 32) (k0_hw13 : k0_chk13 v112), ∀ a x, ((![v112] : Fin 1 → IVec S16 32) a x).toNat < S17760.size a := fun v112 k0_hw13 => k0_hw13

def k0_chk14 (v115 : IVec S16 32) : Prop :=
  (∀ a x, ((![v115] : Fin 1 → IVec S16 32) a x).toNat < S17760.size a)
instance k0_chk14.dec : ∀ (v115 : IVec S16 32), Decidable (k0_chk14 v115) := fun v115 => decidable_of_iff' _ (Iff.of_eq (k0_chk14.eq_1 v115))
theorem k0_idx14_inb : ∀ (v115 : IVec S16 32) (k0_hw14 : k0_chk14 v115), ∀ a x, ((![v115] : Fin 1 → IVec S16 32) a x).toNat < S17760.size a := fun v115 k0_hw14 => k0_hw14

def k0_chk15 (v118 : IVec S16 32) : Prop :=
  (∀ a x, ((![v118] : Fin 1 → IVec S16 32) a x).toNat < S17760.size a)
instance k0_chk15.dec : ∀ (v118 : IVec S16 32), Decidable (k0_chk15 v118) := fun v118 => decidable_of_iff' _ (Iff.of_eq (k0_chk15.eq_1 v118))
theorem k0_idx15_inb : ∀ (v118 : IVec S16 32) (k0_hw15 : k0_chk15 v118), ∀ a x, ((![v118] : Fin 1 → IVec S16 32) a x).toNat < S17760.size a := fun v118 k0_hw15 => k0_hw15

def k0_chk16 (v121 : IVec S16 32) : Prop :=
  (∀ a x, ((![v121] : Fin 1 → IVec S16 32) a x).toNat < S17760.size a)
instance k0_chk16.dec : ∀ (v121 : IVec S16 32), Decidable (k0_chk16 v121) := fun v121 => decidable_of_iff' _ (Iff.of_eq (k0_chk16.eq_1 v121))
theorem k0_idx16_inb : ∀ (v121 : IVec S16 32) (k0_hw16 : k0_chk16 v121), ∀ a x, ((![v121] : Fin 1 → IVec S16 32) a x).toNat < S17760.size a := fun v121 k0_hw16 => k0_hw16

def k0_chk17 (v124 : IVec S16 32) : Prop :=
  (∀ a x, ((![v124] : Fin 1 → IVec S16 32) a x).toNat < S17760.size a)
instance k0_chk17.dec : ∀ (v124 : IVec S16 32), Decidable (k0_chk17 v124) := fun v124 => decidable_of_iff' _ (Iff.of_eq (k0_chk17.eq_1 v124))
theorem k0_idx17_inb : ∀ (v124 : IVec S16 32) (k0_hw17 : k0_chk17 v124), ∀ a x, ((![v124] : Fin 1 → IVec S16 32) a x).toNat < S17760.size a := fun v124 k0_hw17 => k0_hw17

def k0_chk18 (v127 : IVec S16 32) : Prop :=
  (∀ a x, ((![v127] : Fin 1 → IVec S16 32) a x).toNat < S17760.size a)
instance k0_chk18.dec : ∀ (v127 : IVec S16 32), Decidable (k0_chk18 v127) := fun v127 => decidable_of_iff' _ (Iff.of_eq (k0_chk18.eq_1 v127))
theorem k0_idx18_inb : ∀ (v127 : IVec S16 32) (k0_hw18 : k0_chk18 v127), ∀ a x, ((![v127] : Fin 1 → IVec S16 32) a x).toNat < S17760.size a := fun v127 k0_hw18 => k0_hw18

def k0_chk19 (v130 : IVec S16 32) : Prop :=
  (∀ a x, ((![v130] : Fin 1 → IVec S16 32) a x).toNat < S17760.size a)
instance k0_chk19.dec : ∀ (v130 : IVec S16 32), Decidable (k0_chk19 v130) := fun v130 => decidable_of_iff' _ (Iff.of_eq (k0_chk19.eq_1 v130))
theorem k0_idx19_inb : ∀ (v130 : IVec S16 32) (k0_hw19 : k0_chk19 v130), ∀ a x, ((![v130] : Fin 1 → IVec S16 32) a x).toNat < S17760.size a := fun v130 k0_hw19 => k0_hw19

def k0_chk20 (v133 : IVec S16 32) : Prop :=
  (∀ a x, ((![v133] : Fin 1 → IVec S16 32) a x).toNat < S17760.size a)
instance k0_chk20.dec : ∀ (v133 : IVec S16 32), Decidable (k0_chk20 v133) := fun v133 => decidable_of_iff' _ (Iff.of_eq (k0_chk20.eq_1 v133))
theorem k0_idx20_inb : ∀ (v133 : IVec S16 32) (k0_hw20 : k0_chk20 v133), ∀ a x, ((![v133] : Fin 1 → IVec S16 32) a x).toNat < S17760.size a := fun v133 k0_hw20 => k0_hw20
def k0_off35 (k0_t3 : Fin k0_t3_loop.trips) : Fin 2 → Nat :=
  let c0_i32_67 : BitVec 32 := 0#32
  let c1_i32_69 : BitVec 32 := 1#32
  let arg27 : BitVec 32 := Scf.iv c0_i32_67 c1_i32_69 k0_t3
  let c10_i32_82 : BitVec 32 := 10#32
  let v102 : BitVec 32 := Scalar.muli arg27 c10_i32_82
  let v146 : Index := Scalar.indexCast v102
  let c0 : Index := 0#32
  ![v146.toNat, 0]
def k0_off36 (k0_t3 : Fin k0_t3_loop.trips) (c1_i32_88 : BitVec 32) : Fin 2 → Nat :=
  let c0_i32_67 : BitVec 32 := 0#32
  let c1_i32_69 : BitVec 32 := 1#32
  let arg27 : BitVec 32 := Scf.iv c0_i32_67 c1_i32_69 k0_t3
  let c10_i32_82 : BitVec 32 := 10#32
  let v102 : BitVec 32 := Scalar.muli arg27 c10_i32_82
  let v149 : BitVec 32 := Scalar.addi v102 c1_i32_88
  let v150 : Index := Scalar.indexCast v149
  let c0_89 : Index := 0#32
  ![v150.toNat, 0]
def k0_off37 (k0_t3 : Fin k0_t3_loop.trips) : Fin 2 → Nat :=
  let c0_i32_67 : BitVec 32 := 0#32
  let c1_i32_69 : BitVec 32 := 1#32
  let arg27 : BitVec 32 := Scf.iv c0_i32_67 c1_i32_69 k0_t3
  let v195 : Index := Scalar.indexCast arg27
  let c0_106 : Index := 0#32
  ![v195.toNat, 0]
def k0_off38 (k0_t3 : Fin k0_t3_loop.trips) : Fin 2 → Nat :=
  let c0_i32_67 : BitVec 32 := 0#32
  let c1_i32_69 : BitVec 32 := 1#32
  let arg27 : BitVec 32 := Scf.iv c0_i32_67 c1_i32_69 k0_t3
  let c10_i32_82 : BitVec 32 := 10#32
  let v102 : BitVec 32 := Scalar.muli arg27 c10_i32_82
  let v197 : Index := Scalar.indexCast v102
  let c16 : Index := 16#32
  ![v197.toNat, 16]
def k0_off39 (k0_t3 : Fin k0_t3_loop.trips) (c1_i32_107 : BitVec 32) : Fin 2 → Nat :=
  let c0_i32_67 : BitVec 32 := 0#32
  let c1_i32_69 : BitVec 32 := 1#32
  let arg27 : BitVec 32 := Scf.iv c0_i32_67 c1_i32_69 k0_t3
  let c10_i32_82 : BitVec 32 := 10#32
  let v102 : BitVec 32 := Scalar.muli arg27 c10_i32_82
  let v200 : BitVec 32 := Scalar.addi v102 c1_i32_107
  let v201 : Index := Scalar.indexCast v200
  let c16_108 : Index := 16#32
  ![v201.toNat, 16]
def k0_off40 (k0_t3 : Fin k0_t3_loop.trips) : Fin 2 → Nat :=
  let c0_i32_67 : BitVec 32 := 0#32
  let c1_i32_69 : BitVec 32 := 1#32
  let arg27 : BitVec 32 := Scf.iv c0_i32_67 c1_i32_69 k0_t3
  let v246 : Index := Scalar.indexCast arg27
  let c16_125 : Index := 16#32
  ![v246.toNat, 16]
def k0_off41 (k0_t3 : Fin k0_t3_loop.trips) : Fin 2 → Nat :=
  let c0_i32_67 : BitVec 32 := 0#32
  let c1_i32_69 : BitVec 32 := 1#32
  let arg27 : BitVec 32 := Scf.iv c0_i32_67 c1_i32_69 k0_t3
  let c10_i32_82 : BitVec 32 := 10#32
  let v102 : BitVec 32 := Scalar.muli arg27 c10_i32_82
  let v248 : Index := Scalar.indexCast v102
  let c32 : Index := 32#32
  ![v248.toNat, 32]
def k0_off42 (k0_t3 : Fin k0_t3_loop.trips) (c1_i32_126 : BitVec 32) : Fin 2 → Nat :=
  let c0_i32_67 : BitVec 32 := 0#32
  let c1_i32_69 : BitVec 32 := 1#32
  let arg27 : BitVec 32 := Scf.iv c0_i32_67 c1_i32_69 k0_t3
  let c10_i32_82 : BitVec 32 := 10#32
  let v102 : BitVec 32 := Scalar.muli arg27 c10_i32_82
  let v251 : BitVec 32 := Scalar.addi v102 c1_i32_126
  let v252 : Index := Scalar.indexCast v251
  let c32_127 : Index := 32#32
  ![v252.toNat, 32]
def k0_off43 (k0_t3 : Fin k0_t3_loop.trips) : Fin 2 → Nat :=
  let c0_i32_67 : BitVec 32 := 0#32
  let c1_i32_69 : BitVec 32 := 1#32
  let arg27 : BitVec 32 := Scf.iv c0_i32_67 c1_i32_69 k0_t3
  let v297 : Index := Scalar.indexCast arg27
  let c32_144 : Index := 32#32
  ![v297.toNat, 32]
def k0_off44 (k0_t3 : Fin k0_t3_loop.trips) : Fin 2 → Nat :=
  let c0_i32_67 : BitVec 32 := 0#32
  let c1_i32_69 : BitVec 32 := 1#32
  let arg27 : BitVec 32 := Scf.iv c0_i32_67 c1_i32_69 k0_t3
  let c10_i32_82 : BitVec 32 := 10#32
  let v102 : BitVec 32 := Scalar.muli arg27 c10_i32_82
  let v299 : Index := Scalar.indexCast v102
  let c48 : Index := 48#32
  ![v299.toNat, 48]
def k0_off45 (k0_t3 : Fin k0_t3_loop.trips) (c1_i32_145 : BitVec 32) : Fin 2 → Nat :=
  let c0_i32_67 : BitVec 32 := 0#32
  let c1_i32_69 : BitVec 32 := 1#32
  let arg27 : BitVec 32 := Scf.iv c0_i32_67 c1_i32_69 k0_t3
  let c10_i32_82 : BitVec 32 := 10#32
  let v102 : BitVec 32 := Scalar.muli arg27 c10_i32_82
  let v302 : BitVec 32 := Scalar.addi v102 c1_i32_145
  let v303 : Index := Scalar.indexCast v302
  let c48_146 : Index := 48#32
  ![v303.toNat, 48]
def k0_off46 (k0_t3 : Fin k0_t3_loop.trips) : Fin 2 → Nat :=
  let c0_i32_67 : BitVec 32 := 0#32
  let c1_i32_69 : BitVec 32 := 1#32
  let arg27 : BitVec 32 := Scf.iv c0_i32_67 c1_i32_69 k0_t3
  let v348 : Index := Scalar.indexCast arg27
  let c48_163 : Index := 48#32
  ![v348.toNat, 48]
def k0_off47 (k0_t3 : Fin k0_t3_loop.trips) : Fin 2 → Nat :=
  let c0_i32_67 : BitVec 32 := 0#32
  let c1_i32_69 : BitVec 32 := 1#32
  let arg27 : BitVec 32 := Scf.iv c0_i32_67 c1_i32_69 k0_t3
  let c10_i32_82 : BitVec 32 := 10#32
  let v102 : BitVec 32 := Scalar.muli arg27 c10_i32_82
  let v350 : Index := Scalar.indexCast v102
  let c64 : Index := 64#32
  ![v350.toNat, 64]
def k0_off48 (k0_t3 : Fin k0_t3_loop.trips) (c1_i32_164 : BitVec 32) : Fin 2 → Nat :=
  let c0_i32_67 : BitVec 32 := 0#32
  let c1_i32_69 : BitVec 32 := 1#32
  let arg27 : BitVec 32 := Scf.iv c0_i32_67 c1_i32_69 k0_t3
  let c10_i32_82 : BitVec 32 := 10#32
  let v102 : BitVec 32 := Scalar.muli arg27 c10_i32_82
  let v353 : BitVec 32 := Scalar.addi v102 c1_i32_164
  let v354 : Index := Scalar.indexCast v353
  let c64_165 : Index := 64#32
  ![v354.toNat, 64]
def k0_off49 (k0_t3 : Fin k0_t3_loop.trips) : Fin 2 → Nat :=
  let c0_i32_67 : BitVec 32 := 0#32
  let c1_i32_69 : BitVec 32 := 1#32
  let arg27 : BitVec 32 := Scf.iv c0_i32_67 c1_i32_69 k0_t3
  let v399 : Index := Scalar.indexCast arg27
  let c64_182 : Index := 64#32
  ![v399.toNat, 64]
def k0_off50 (k0_t3 : Fin k0_t3_loop.trips) : Fin 2 → Nat :=
  let c0_i32_67 : BitVec 32 := 0#32
  let c1_i32_69 : BitVec 32 := 1#32
  let arg27 : BitVec 32 := Scf.iv c0_i32_67 c1_i32_69 k0_t3
  let c10_i32_82 : BitVec 32 := 10#32
  let v102 : BitVec 32 := Scalar.muli arg27 c10_i32_82
  let v401 : Index := Scalar.indexCast v102
  let c80 : Index := 80#32
  ![v401.toNat, 80]
def k0_off51 (k0_t3 : Fin k0_t3_loop.trips) (c1_i32_183 : BitVec 32) : Fin 2 → Nat :=
  let c0_i32_67 : BitVec 32 := 0#32
  let c1_i32_69 : BitVec 32 := 1#32
  let arg27 : BitVec 32 := Scf.iv c0_i32_67 c1_i32_69 k0_t3
  let c10_i32_82 : BitVec 32 := 10#32
  let v102 : BitVec 32 := Scalar.muli arg27 c10_i32_82
  let v404 : BitVec 32 := Scalar.addi v102 c1_i32_183
  let v405 : Index := Scalar.indexCast v404
  let c80_184 : Index := 80#32
  ![v405.toNat, 80]
def k0_off52 (k0_t3 : Fin k0_t3_loop.trips) : Fin 2 → Nat :=
  let c0_i32_67 : BitVec 32 := 0#32
  let c1_i32_69 : BitVec 32 := 1#32
  let arg27 : BitVec 32 := Scf.iv c0_i32_67 c1_i32_69 k0_t3
  let v450 : Index := Scalar.indexCast arg27
  let c80_201 : Index := 80#32
  ![v450.toNat, 80]
def k0_off53 (k0_t3 : Fin k0_t3_loop.trips) : Fin 2 → Nat :=
  let c0_i32_67 : BitVec 32 := 0#32
  let c1_i32_69 : BitVec 32 := 1#32
  let arg27 : BitVec 32 := Scf.iv c0_i32_67 c1_i32_69 k0_t3
  let c10_i32_82 : BitVec 32 := 10#32
  let v102 : BitVec 32 := Scalar.muli arg27 c10_i32_82
  let v452 : Index := Scalar.indexCast v102
  let c96 : Index := 96#32
  ![v452.toNat, 96]
def k0_off54 (k0_t3 : Fin k0_t3_loop.trips) (c1_i32_202 : BitVec 32) : Fin 2 → Nat :=
  let c0_i32_67 : BitVec 32 := 0#32
  let c1_i32_69 : BitVec 32 := 1#32
  let arg27 : BitVec 32 := Scf.iv c0_i32_67 c1_i32_69 k0_t3
  let c10_i32_82 : BitVec 32 := 10#32
  let v102 : BitVec 32 := Scalar.muli arg27 c10_i32_82
  let v455 : BitVec 32 := Scalar.addi v102 c1_i32_202
  let v456 : Index := Scalar.indexCast v455
  let c96_203 : Index := 96#32
  ![v456.toNat, 96]
def k0_off55 (k0_t3 : Fin k0_t3_loop.trips) : Fin 2 → Nat :=
  let c0_i32_67 : BitVec 32 := 0#32
  let c1_i32_69 : BitVec 32 := 1#32
  let arg27 : BitVec 32 := Scf.iv c0_i32_67 c1_i32_69 k0_t3
  let v501 : Index := Scalar.indexCast arg27
  let c96_220 : Index := 96#32
  ![v501.toNat, 96]
def k0_off56 (k0_t3 : Fin k0_t3_loop.trips) : Fin 2 → Nat :=
  let c0_i32_67 : BitVec 32 := 0#32
  let c1_i32_69 : BitVec 32 := 1#32
  let arg27 : BitVec 32 := Scf.iv c0_i32_67 c1_i32_69 k0_t3
  let c10_i32_82 : BitVec 32 := 10#32
  let v102 : BitVec 32 := Scalar.muli arg27 c10_i32_82
  let v503 : Index := Scalar.indexCast v102
  let c112 : Index := 112#32
  ![v503.toNat, 112]
def k0_off57 (k0_t3 : Fin k0_t3_loop.trips) (c1_i32_221 : BitVec 32) : Fin 2 → Nat :=
  let c0_i32_67 : BitVec 32 := 0#32
  let c1_i32_69 : BitVec 32 := 1#32
  let arg27 : BitVec 32 := Scf.iv c0_i32_67 c1_i32_69 k0_t3
  let c10_i32_82 : BitVec 32 := 10#32
  let v102 : BitVec 32 := Scalar.muli arg27 c10_i32_82
  let v506 : BitVec 32 := Scalar.addi v102 c1_i32_221
  let v507 : Index := Scalar.indexCast v506
  let c112_222 : Index := 112#32
  ![v507.toNat, 112]
def k0_off58 (k0_t3 : Fin k0_t3_loop.trips) : Fin 2 → Nat :=
  let c0_i32_67 : BitVec 32 := 0#32
  let c1_i32_69 : BitVec 32 := 1#32
  let arg27 : BitVec 32 := Scf.iv c0_i32_67 c1_i32_69 k0_t3
  let v552 : Index := Scalar.indexCast arg27
  let c112_239 : Index := 112#32
  ![v552.toNat, 112]
def k0_cond4 (i : grid0.Coords) (k0_t1 : Fin (k0_t1_loop i).trips) : BitVec 1 :=
  let c2_i32_59 : BitVec 32 := 2#32
  let c0_i32_18 : BitVec 32 := 0#32
  let c1_i32_21 : BitVec 32 := 1#32
  let arg25 : BitVec 32 := Scf.iv c0_i32_18 c1_i32_21 k0_t1
  let v79 : BitVec 32 := Scalar.muli c2_i32_59 arg25
  let c1_i32_60 : BitVec 32 := 1#32
  let v80 : BitVec 32 := Scalar.addi v79 c1_i32_60
  let c2_i32_79 : BitVec 32 := 2#32
  let v98 : BitVec 32 := Scalar.addi v80 c2_i32_79
  let arg0 : BitVec 32 := BitVec.ofNat 32 (i 0).val
  let c0_i32 : BitVec 32 := 0#32
  let v0 : BitVec 1 := Scalar.cmpi .eq arg0 c0_i32
  let c222_i32 : BitVec 32 := 222#32
  let c170_i32 : BitVec 32 := 170#32
  let v1 : BitVec 32 := Scalar.select v0 c222_i32 c170_i32
  let v99 : BitVec 1 := Scalar.cmpi .slt v98 v1
  let v100 : BitVec 32 := Scalar.extui v99
  let c0_i32_80 : BitVec 32 := 0#32
  let v101 : BitVec 1 := Scalar.cmpi .ne v100 c0_i32_80
  v101

def k0_off59 (i : grid0.Coords) (k0_t1 : Fin (k0_t1_loop i).trips) : Fin 1 → Nat :=
  let c2_i32_59 : BitVec 32 := 2#32
  let c0_i32_18 : BitVec 32 := 0#32
  let c1_i32_21 : BitVec 32 := 1#32
  let arg25 : BitVec 32 := Scf.iv c0_i32_18 c1_i32_21 k0_t1
  let v79 : BitVec 32 := Scalar.muli c2_i32_59 arg25
  let c1_i32_60 : BitVec 32 := 1#32
  let v80 : BitVec 32 := Scalar.addi v79 c1_i32_60
  let c2_i32_82 : BitVec 32 := 2#32
  let v102 : BitVec 32 := Scalar.addi v80 c2_i32_82
  let c80_i32_83 : BitVec 32 := 80#32
  let v103 : BitVec 32 := Scalar.muli v102 c80_i32_83
  ![v103.toNat]
@[reducible] def k0_t4_loop (i : grid0.Coords) : Scf.Loop 32 :=
  let c0_i32_18 : BitVec 32 := 0#32
  let arg0 : BitVec 32 := BitVec.ofNat 32 (i 0).val
  let c0_i32 : BitVec 32 := 0#32
  let v0 : BitVec 1 := Scalar.cmpi .eq arg0 c0_i32
  let c222_i32 : BitVec 32 := 222#32
  let c170_i32 : BitVec 32 := 170#32
  let v1 : BitVec 32 := Scalar.select v0 c222_i32 c170_i32
  let c0_i32_13 : BitVec 32 := 0#32
  let v17 : BitVec 1 := Scalar.cmpi .sgt v1 c0_i32_13
  let v18 : BitVec 32 := Scalar.extui v17
  let c0_i32_14 : BitVec 32 := 0#32
  let v19 : BitVec 1 := Scalar.cmpi .slt v1 c0_i32_14
  let v20 : BitVec 32 := Scalar.extui v19
  let v21 : BitVec 32 := Scalar.subi v18 v20
  let c2_i32 : BitVec 32 := 2#32
  let c0_i32_15 : BitVec 32 := 0#32
  let v22 : BitVec 1 := Scalar.cmpi .sgt c2_i32 c0_i32_15
  let v23 : BitVec 32 := Scalar.extui v22
  let c0_i32_16 : BitVec 32 := 0#32
  let v24 : BitVec 1 := Scalar.cmpi .slt c2_i32 c0_i32_16
  let v25 : BitVec 32 := Scalar.extui v24
  let v26 : BitVec 32 := Scalar.subi v23 v25
  let v27 : BitVec 1 := Scalar.cmpi .ne v21 v26
  let v28 : BitVec 32 := Scalar.remsi v1 c2_i32
  let c0_i32_17 : BitVec 32 := 0#32
  let v29 : BitVec 1 := Scalar.cmpi .ne v28 c0_i32_17
  let v30 : BitVec 1 := Scalar.andi v27 v29
  let v16 : BitVec 32 := Scalar.divsi v1 c2_i32
  let c1_i32 : BitVec 32 := 1#32
  let v31 : BitVec 32 := Scalar.subi v16 c1_i32
  let v32 : BitVec 32 := Scalar.select v30 v31 v16
  let v33 : BitVec 32 := Scalar.subi v32 c0_i32_18
  let c1_i32_20 : BitVec 32 := 1#32
  let v35 : BitVec 32 := Scalar.divsi v33 c1_i32_20
  let v36 : BitVec 32 := Scalar.muli v35 c1_i32_20
  let v37 : BitVec 32 := Scalar.addi c0_i32_18 v36
  let v34 : BitVec 32 := Scalar.addi c0_i32_18 v33
  let c1_i32_22 : BitVec 32 := 1#32
  ⟨v37, v34, c1_i32_22⟩
def k0_cond5 (i : grid0.Coords) (k0_t4 : Fin (k0_t4_loop i).trips) : BitVec 1 :=
  let c2_i32_37 : BitVec 32 := 2#32
  let c0_i32_18 : BitVec 32 := 0#32
  let arg0 : BitVec 32 := BitVec.ofNat 32 (i 0).val
  let c0_i32 : BitVec 32 := 0#32
  let v0 : BitVec 1 := Scalar.cmpi .eq arg0 c0_i32
  let c222_i32 : BitVec 32 := 222#32
  let c170_i32 : BitVec 32 := 170#32
  let v1 : BitVec 32 := Scalar.select v0 c222_i32 c170_i32
  let c0_i32_13 : BitVec 32 := 0#32
  let v17 : BitVec 1 := Scalar.cmpi .sgt v1 c0_i32_13
  let v18 : BitVec 32 := Scalar.extui v17
  let c0_i32_14 : BitVec 32 := 0#32
  let v19 : BitVec 1 := Scalar.cmpi .slt v1 c0_i32_14
  let v20 : BitVec 32 := Scalar.extui v19
  let v21 : BitVec 32 := Scalar.subi v18 v20
  let c2_i32 : BitVec 32 := 2#32
  let c0_i32_15 : BitVec 32 := 0#32
  let v22 : BitVec 1 := Scalar.cmpi .sgt c2_i32 c0_i32_15
  let v23 : BitVec 32 := Scalar.extui v22
  let c0_i32_16 : BitVec 32 := 0#32
  let v24 : BitVec 1 := Scalar.cmpi .slt c2_i32 c0_i32_16
  let v25 : BitVec 32 := Scalar.extui v24
  let v26 : BitVec 32 := Scalar.subi v23 v25
  let v27 : BitVec 1 := Scalar.cmpi .ne v21 v26
  let v28 : BitVec 32 := Scalar.remsi v1 c2_i32
  let c0_i32_17 : BitVec 32 := 0#32
  let v29 : BitVec 1 := Scalar.cmpi .ne v28 c0_i32_17
  let v30 : BitVec 1 := Scalar.andi v27 v29
  let v16 : BitVec 32 := Scalar.divsi v1 c2_i32
  let c1_i32 : BitVec 32 := 1#32
  let v31 : BitVec 32 := Scalar.subi v16 c1_i32
  let v32 : BitVec 32 := Scalar.select v30 v31 v16
  let v33 : BitVec 32 := Scalar.subi v32 c0_i32_18
  let c1_i32_20 : BitVec 32 := 1#32
  let v35 : BitVec 32 := Scalar.divsi v33 c1_i32_20
  let v36 : BitVec 32 := Scalar.muli v35 c1_i32_20
  let v37 : BitVec 32 := Scalar.addi c0_i32_18 v36
  let c1_i32_22 : BitVec 32 := 1#32
  let arg25 : BitVec 32 := Scf.iv v37 c1_i32_22 k0_t4
  let v56 : BitVec 32 := Scalar.muli c2_i32_37 arg25
  let c0_i32_38 : BitVec 32 := 0#32
  let v57 : BitVec 32 := Scalar.addi v56 c0_i32_38
  let c2_i32_39 : BitVec 32 := 2#32
  let v58 : BitVec 1 := Scalar.cmpi .sge v57 c2_i32_39
  let v59 : BitVec 32 := Scalar.extui v58
  let c0_i32_40 : BitVec 32 := 0#32
  let v60 : BitVec 1 := Scalar.cmpi .ne v59 c0_i32_40
  v60

def k0_off60 (i : grid0.Coords) (k0_t4 : Fin (k0_t4_loop i).trips) : Fin 2 → Nat :=
  let arg1 : BitVec 32 := BitVec.ofNat 32 (i 1).val
  let c392_i32 : BitVec 32 := 392#32
  let v2 : BitVec 32 := Scalar.muli arg1 c392_i32
  let arg0 : BitVec 32 := BitVec.ofNat 32 (i 0).val
  let c222_i32_0 : BitVec 32 := 222#32
  let v3 : BitVec 32 := Scalar.muli arg0 c222_i32_0
  let v4 : BitVec 32 := Scalar.addi v2 v3
  let c8_i32 : BitVec 32 := 8#32
  let v5 : BitVec 32 := Scalar.muli v4 c8_i32
  let c2_i32_37 : BitVec 32 := 2#32
  let c0_i32_18 : BitVec 32 := 0#32
  let c0_i32 : BitVec 32 := 0#32
  let v0 : BitVec 1 := Scalar.cmpi .eq arg0 c0_i32
  let c222_i32 : BitVec 32 := 222#32
  let c170_i32 : BitVec 32 := 170#32
  let v1 : BitVec 32 := Scalar.select v0 c222_i32 c170_i32
  let c0_i32_13 : BitVec 32 := 0#32
  let v17 : BitVec 1 := Scalar.cmpi .sgt v1 c0_i32_13
  let v18 : BitVec 32 := Scalar.extui v17
  let c0_i32_14 : BitVec 32 := 0#32
  let v19 : BitVec 1 := Scalar.cmpi .slt v1 c0_i32_14
  let v20 : BitVec 32 := Scalar.extui v19
  let v21 : BitVec 32 := Scalar.subi v18 v20
  let c2_i32 : BitVec 32 := 2#32
  let c0_i32_15 : BitVec 32 := 0#32
  let v22 : BitVec 1 := Scalar.cmpi .sgt c2_i32 c0_i32_15
  let v23 : BitVec 32 := Scalar.extui v22
  let c0_i32_16 : BitVec 32 := 0#32
  let v24 : BitVec 1 := Scalar.cmpi .slt c2_i32 c0_i32_16
  let v25 : BitVec 32 := Scalar.extui v24
  let v26 : BitVec 32 := Scalar.subi v23 v25
  let v27 : BitVec 1 := Scalar.cmpi .ne v21 v26
  let v28 : BitVec 32 := Scalar.remsi v1 c2_i32
  let c0_i32_17 : BitVec 32 := 0#32
  let v29 : BitVec 1 := Scalar.cmpi .ne v28 c0_i32_17
  let v30 : BitVec 1 := Scalar.andi v27 v29
  let v16 : BitVec 32 := Scalar.divsi v1 c2_i32
  let c1_i32 : BitVec 32 := 1#32
  let v31 : BitVec 32 := Scalar.subi v16 c1_i32
  let v32 : BitVec 32 := Scalar.select v30 v31 v16
  let v33 : BitVec 32 := Scalar.subi v32 c0_i32_18
  let c1_i32_20 : BitVec 32 := 1#32
  let v35 : BitVec 32 := Scalar.divsi v33 c1_i32_20
  let v36 : BitVec 32 := Scalar.muli v35 c1_i32_20
  let v37 : BitVec 32 := Scalar.addi c0_i32_18 v36
  let c1_i32_22 : BitVec 32 := 1#32
  let arg25 : BitVec 32 := Scf.iv v37 c1_i32_22 k0_t4
  let v56 : BitVec 32 := Scalar.muli c2_i32_37 arg25
  let c0_i32_38 : BitVec 32 := 0#32
  let v57 : BitVec 32 := Scalar.addi v56 c0_i32_38
  let c2_i32_82 : BitVec 32 := 2#32
  let v102 : BitVec 32 := Scalar.subi v57 c2_i32_82
  let c8_i32_83 : BitVec 32 := 8#32
  let v103 : BitVec 32 := Scalar.muli v102 c8_i32_83
  let v104 : BitVec 32 := Scalar.addi v5 v103
  let c0_i32_84 : BitVec 32 := 0#32
  ![v104.toNat, 0]
def k0_off61 (i : grid0.Coords) (k0_t4 : Fin (k0_t4_loop i).trips) : Fin 1 → Nat :=
  let c2_i32_37 : BitVec 32 := 2#32
  let c0_i32_18 : BitVec 32 := 0#32
  let arg0 : BitVec 32 := BitVec.ofNat 32 (i 0).val
  let c0_i32 : BitVec 32 := 0#32
  let v0 : BitVec 1 := Scalar.cmpi .eq arg0 c0_i32
  let c222_i32 : BitVec 32 := 222#32
  let c170_i32 : BitVec 32 := 170#32
  let v1 : BitVec 32 := Scalar.select v0 c222_i32 c170_i32
  let c0_i32_13 : BitVec 32 := 0#32
  let v17 : BitVec 1 := Scalar.cmpi .sgt v1 c0_i32_13
  let v18 : BitVec 32 := Scalar.extui v17
  let c0_i32_14 : BitVec 32 := 0#32
  let v19 : BitVec 1 := Scalar.cmpi .slt v1 c0_i32_14
  let v20 : BitVec 32 := Scalar.extui v19
  let v21 : BitVec 32 := Scalar.subi v18 v20
  let c2_i32 : BitVec 32 := 2#32
  let c0_i32_15 : BitVec 32 := 0#32
  let v22 : BitVec 1 := Scalar.cmpi .sgt c2_i32 c0_i32_15
  let v23 : BitVec 32 := Scalar.extui v22
  let c0_i32_16 : BitVec 32 := 0#32
  let v24 : BitVec 1 := Scalar.cmpi .slt c2_i32 c0_i32_16
  let v25 : BitVec 32 := Scalar.extui v24
  let v26 : BitVec 32 := Scalar.subi v23 v25
  let v27 : BitVec 1 := Scalar.cmpi .ne v21 v26
  let v28 : BitVec 32 := Scalar.remsi v1 c2_i32
  let c0_i32_17 : BitVec 32 := 0#32
  let v29 : BitVec 1 := Scalar.cmpi .ne v28 c0_i32_17
  let v30 : BitVec 1 := Scalar.andi v27 v29
  let v16 : BitVec 32 := Scalar.divsi v1 c2_i32
  let c1_i32 : BitVec 32 := 1#32
  let v31 : BitVec 32 := Scalar.subi v16 c1_i32
  let v32 : BitVec 32 := Scalar.select v30 v31 v16
  let v33 : BitVec 32 := Scalar.subi v32 c0_i32_18
  let c1_i32_20 : BitVec 32 := 1#32
  let v35 : BitVec 32 := Scalar.divsi v33 c1_i32_20
  let v36 : BitVec 32 := Scalar.muli v35 c1_i32_20
  let v37 : BitVec 32 := Scalar.addi c0_i32_18 v36
  let c1_i32_22 : BitVec 32 := 1#32
  let arg25 : BitVec 32 := Scf.iv v37 c1_i32_22 k0_t4
  let v56 : BitVec 32 := Scalar.muli c2_i32_37 arg25
  let c0_i32_38 : BitVec 32 := 0#32
  let v57 : BitVec 32 := Scalar.addi v56 c0_i32_38
  let c8_i32_88 : BitVec 32 := 8#32
  let v109 : BitVec 32 := Scalar.muli v57 c8_i32_88
  ![v109.toNat]
def k0_off62 (i : grid0.Coords) (k0_t4 : Fin (k0_t4_loop i).trips) (c0_i32_38 : BitVec 32) : Fin 1 → Nat :=
  let c2_i32_37 : BitVec 32 := 2#32
  let c0_i32_18 : BitVec 32 := 0#32
  let arg0 : BitVec 32 := BitVec.ofNat 32 (i 0).val
  let c0_i32 : BitVec 32 := 0#32
  let v0 : BitVec 1 := Scalar.cmpi .eq arg0 c0_i32
  let c222_i32 : BitVec 32 := 222#32
  let c170_i32 : BitVec 32 := 170#32
  let v1 : BitVec 32 := Scalar.select v0 c222_i32 c170_i32
  let c0_i32_13 : BitVec 32 := 0#32
  let v17 : BitVec 1 := Scalar.cmpi .sgt v1 c0_i32_13
  let v18 : BitVec 32 := Scalar.extui v17
  let c0_i32_14 : BitVec 32 := 0#32
  let v19 : BitVec 1 := Scalar.cmpi .slt v1 c0_i32_14
  let v20 : BitVec 32 := Scalar.extui v19
  let v21 : BitVec 32 := Scalar.subi v18 v20
  let c2_i32 : BitVec 32 := 2#32
  let c0_i32_15 : BitVec 32 := 0#32
  let v22 : BitVec 1 := Scalar.cmpi .sgt c2_i32 c0_i32_15
  let v23 : BitVec 32 := Scalar.extui v22
  let c0_i32_16 : BitVec 32 := 0#32
  let v24 : BitVec 1 := Scalar.cmpi .slt c2_i32 c0_i32_16
  let v25 : BitVec 32 := Scalar.extui v24
  let v26 : BitVec 32 := Scalar.subi v23 v25
  let v27 : BitVec 1 := Scalar.cmpi .ne v21 v26
  let v28 : BitVec 32 := Scalar.remsi v1 c2_i32
  let c0_i32_17 : BitVec 32 := 0#32
  let v29 : BitVec 1 := Scalar.cmpi .ne v28 c0_i32_17
  let v30 : BitVec 1 := Scalar.andi v27 v29
  let v16 : BitVec 32 := Scalar.divsi v1 c2_i32
  let c1_i32 : BitVec 32 := 1#32
  let v31 : BitVec 32 := Scalar.subi v16 c1_i32
  let v32 : BitVec 32 := Scalar.select v30 v31 v16
  let v33 : BitVec 32 := Scalar.subi v32 c0_i32_18
  let c1_i32_20 : BitVec 32 := 1#32
  let v35 : BitVec 32 := Scalar.divsi v33 c1_i32_20
  let v36 : BitVec 32 := Scalar.muli v35 c1_i32_20
  let v37 : BitVec 32 := Scalar.addi c0_i32_18 v36
  let c1_i32_22 : BitVec 32 := 1#32
  let arg25 : BitVec 32 := Scf.iv v37 c1_i32_22 k0_t4
  let v56 : BitVec 32 := Scalar.muli c2_i32_37 arg25
  let v57 : BitVec 32 := Scalar.addi v56 c0_i32_38
  let c80_i32_41 : BitVec 32 := 80#32
  let v61 : BitVec 32 := Scalar.muli v57 c80_i32_41
  ![v61.toNat]
@[reducible] def k0_t5_loop : Scf.Loop 32 :=
  let c0_i32_45 : BitVec 32 := 0#32
  let c8_i32_46 : BitVec 32 := 8#32
  let v64 : BitVec 32 := Scalar.addi c0_i32_45 c8_i32_46
  let c1_i32_47 : BitVec 32 := 1#32
  ⟨c0_i32_45, v64, c1_i32_47⟩

def k0_chk21 (v106 : IVec S16 32) : Prop :=
  (∀ a x, ((![v106] : Fin 1 → IVec S16 32) a x).toNat < S17760.size a)
instance k0_chk21.dec : ∀ (v106 : IVec S16 32), Decidable (k0_chk21 v106) := fun v106 => decidable_of_iff' _ (Iff.of_eq (k0_chk21.eq_1 v106))
theorem k0_idx21_inb : ∀ (v106 : IVec S16 32) (k0_hw21 : k0_chk21 v106), ∀ a x, ((![v106] : Fin 1 → IVec S16 32) a x).toNat < S17760.size a := fun v106 k0_hw21 => k0_hw21

def k0_chk22 (v109 : IVec S16 32) : Prop :=
  (∀ a x, ((![v109] : Fin 1 → IVec S16 32) a x).toNat < S17760.size a)
instance k0_chk22.dec : ∀ (v109 : IVec S16 32), Decidable (k0_chk22 v109) := fun v109 => decidable_of_iff' _ (Iff.of_eq (k0_chk22.eq_1 v109))
theorem k0_idx22_inb : ∀ (v109 : IVec S16 32) (k0_hw22 : k0_chk22 v109), ∀ a x, ((![v109] : Fin 1 → IVec S16 32) a x).toNat < S17760.size a := fun v109 k0_hw22 => k0_hw22

def k0_chk23 (v112 : IVec S16 32) : Prop :=
  (∀ a x, ((![v112] : Fin 1 → IVec S16 32) a x).toNat < S17760.size a)
instance k0_chk23.dec : ∀ (v112 : IVec S16 32), Decidable (k0_chk23 v112) := fun v112 => decidable_of_iff' _ (Iff.of_eq (k0_chk23.eq_1 v112))
theorem k0_idx23_inb : ∀ (v112 : IVec S16 32) (k0_hw23 : k0_chk23 v112), ∀ a x, ((![v112] : Fin 1 → IVec S16 32) a x).toNat < S17760.size a := fun v112 k0_hw23 => k0_hw23

def k0_chk24 (v115 : IVec S16 32) : Prop :=
  (∀ a x, ((![v115] : Fin 1 → IVec S16 32) a x).toNat < S17760.size a)
instance k0_chk24.dec : ∀ (v115 : IVec S16 32), Decidable (k0_chk24 v115) := fun v115 => decidable_of_iff' _ (Iff.of_eq (k0_chk24.eq_1 v115))
theorem k0_idx24_inb : ∀ (v115 : IVec S16 32) (k0_hw24 : k0_chk24 v115), ∀ a x, ((![v115] : Fin 1 → IVec S16 32) a x).toNat < S17760.size a := fun v115 k0_hw24 => k0_hw24

def k0_chk25 (v118 : IVec S16 32) : Prop :=
  (∀ a x, ((![v118] : Fin 1 → IVec S16 32) a x).toNat < S17760.size a)
instance k0_chk25.dec : ∀ (v118 : IVec S16 32), Decidable (k0_chk25 v118) := fun v118 => decidable_of_iff' _ (Iff.of_eq (k0_chk25.eq_1 v118))
theorem k0_idx25_inb : ∀ (v118 : IVec S16 32) (k0_hw25 : k0_chk25 v118), ∀ a x, ((![v118] : Fin 1 → IVec S16 32) a x).toNat < S17760.size a := fun v118 k0_hw25 => k0_hw25

def k0_chk26 (v121 : IVec S16 32) : Prop :=
  (∀ a x, ((![v121] : Fin 1 → IVec S16 32) a x).toNat < S17760.size a)
instance k0_chk26.dec : ∀ (v121 : IVec S16 32), Decidable (k0_chk26 v121) := fun v121 => decidable_of_iff' _ (Iff.of_eq (k0_chk26.eq_1 v121))
theorem k0_idx26_inb : ∀ (v121 : IVec S16 32) (k0_hw26 : k0_chk26 v121), ∀ a x, ((![v121] : Fin 1 → IVec S16 32) a x).toNat < S17760.size a := fun v121 k0_hw26 => k0_hw26

def k0_chk27 (v124 : IVec S16 32) : Prop :=
  (∀ a x, ((![v124] : Fin 1 → IVec S16 32) a x).toNat < S17760.size a)
instance k0_chk27.dec : ∀ (v124 : IVec S16 32), Decidable (k0_chk27 v124) := fun v124 => decidable_of_iff' _ (Iff.of_eq (k0_chk27.eq_1 v124))
theorem k0_idx27_inb : ∀ (v124 : IVec S16 32) (k0_hw27 : k0_chk27 v124), ∀ a x, ((![v124] : Fin 1 → IVec S16 32) a x).toNat < S17760.size a := fun v124 k0_hw27 => k0_hw27

def k0_chk28 (v127 : IVec S16 32) : Prop :=
  (∀ a x, ((![v127] : Fin 1 → IVec S16 32) a x).toNat < S17760.size a)
instance k0_chk28.dec : ∀ (v127 : IVec S16 32), Decidable (k0_chk28 v127) := fun v127 => decidable_of_iff' _ (Iff.of_eq (k0_chk28.eq_1 v127))
theorem k0_idx28_inb : ∀ (v127 : IVec S16 32) (k0_hw28 : k0_chk28 v127), ∀ a x, ((![v127] : Fin 1 → IVec S16 32) a x).toNat < S17760.size a := fun v127 k0_hw28 => k0_hw28

def k0_chk29 (v130 : IVec S16 32) : Prop :=
  (∀ a x, ((![v130] : Fin 1 → IVec S16 32) a x).toNat < S17760.size a)
instance k0_chk29.dec : ∀ (v130 : IVec S16 32), Decidable (k0_chk29 v130) := fun v130 => decidable_of_iff' _ (Iff.of_eq (k0_chk29.eq_1 v130))
theorem k0_idx29_inb : ∀ (v130 : IVec S16 32) (k0_hw29 : k0_chk29 v130), ∀ a x, ((![v130] : Fin 1 → IVec S16 32) a x).toNat < S17760.size a := fun v130 k0_hw29 => k0_hw29

def k0_chk30 (v133 : IVec S16 32) : Prop :=
  (∀ a x, ((![v133] : Fin 1 → IVec S16 32) a x).toNat < S17760.size a)
instance k0_chk30.dec : ∀ (v133 : IVec S16 32), Decidable (k0_chk30 v133) := fun v133 => decidable_of_iff' _ (Iff.of_eq (k0_chk30.eq_1 v133))
theorem k0_idx30_inb : ∀ (v133 : IVec S16 32) (k0_hw30 : k0_chk30 v133), ∀ a x, ((![v133] : Fin 1 → IVec S16 32) a x).toNat < S17760.size a := fun v133 k0_hw30 => k0_hw30
def k0_off63 (k0_t5 : Fin k0_t5_loop.trips) : Fin 2 → Nat :=
  let c0_i32_45 : BitVec 32 := 0#32
  let c1_i32_47 : BitVec 32 := 1#32
  let arg27 : BitVec 32 := Scf.iv c0_i32_45 c1_i32_47 k0_t5
  let c10_i32_82 : BitVec 32 := 10#32
  let v102 : BitVec 32 := Scalar.muli arg27 c10_i32_82
  let v146 : Index := Scalar.indexCast v102
  let c0 : Index := 0#32
  ![v146.toNat, 0]
def k0_off64 (k0_t5 : Fin k0_t5_loop.trips) (c1_i32_88 : BitVec 32) : Fin 2 → Nat :=
  let c0_i32_45 : BitVec 32 := 0#32
  let c1_i32_47 : BitVec 32 := 1#32
  let arg27 : BitVec 32 := Scf.iv c0_i32_45 c1_i32_47 k0_t5
  let c10_i32_82 : BitVec 32 := 10#32
  let v102 : BitVec 32 := Scalar.muli arg27 c10_i32_82
  let v149 : BitVec 32 := Scalar.addi v102 c1_i32_88
  let v150 : Index := Scalar.indexCast v149
  let c0_89 : Index := 0#32
  ![v150.toNat, 0]
def k0_off65 (k0_t5 : Fin k0_t5_loop.trips) : Fin 2 → Nat :=
  let c0_i32_45 : BitVec 32 := 0#32
  let c1_i32_47 : BitVec 32 := 1#32
  let arg27 : BitVec 32 := Scf.iv c0_i32_45 c1_i32_47 k0_t5
  let v195 : Index := Scalar.indexCast arg27
  let c0_106 : Index := 0#32
  ![v195.toNat, 0]
def k0_off66 (k0_t5 : Fin k0_t5_loop.trips) : Fin 2 → Nat :=
  let c0_i32_45 : BitVec 32 := 0#32
  let c1_i32_47 : BitVec 32 := 1#32
  let arg27 : BitVec 32 := Scf.iv c0_i32_45 c1_i32_47 k0_t5
  let c10_i32_82 : BitVec 32 := 10#32
  let v102 : BitVec 32 := Scalar.muli arg27 c10_i32_82
  let v197 : Index := Scalar.indexCast v102
  let c16 : Index := 16#32
  ![v197.toNat, 16]
def k0_off67 (k0_t5 : Fin k0_t5_loop.trips) (c1_i32_107 : BitVec 32) : Fin 2 → Nat :=
  let c0_i32_45 : BitVec 32 := 0#32
  let c1_i32_47 : BitVec 32 := 1#32
  let arg27 : BitVec 32 := Scf.iv c0_i32_45 c1_i32_47 k0_t5
  let c10_i32_82 : BitVec 32 := 10#32
  let v102 : BitVec 32 := Scalar.muli arg27 c10_i32_82
  let v200 : BitVec 32 := Scalar.addi v102 c1_i32_107
  let v201 : Index := Scalar.indexCast v200
  let c16_108 : Index := 16#32
  ![v201.toNat, 16]
def k0_off68 (k0_t5 : Fin k0_t5_loop.trips) : Fin 2 → Nat :=
  let c0_i32_45 : BitVec 32 := 0#32
  let c1_i32_47 : BitVec 32 := 1#32
  let arg27 : BitVec 32 := Scf.iv c0_i32_45 c1_i32_47 k0_t5
  let v246 : Index := Scalar.indexCast arg27
  let c16_125 : Index := 16#32
  ![v246.toNat, 16]
def k0_off69 (k0_t5 : Fin k0_t5_loop.trips) : Fin 2 → Nat :=
  let c0_i32_45 : BitVec 32 := 0#32
  let c1_i32_47 : BitVec 32 := 1#32
  let arg27 : BitVec 32 := Scf.iv c0_i32_45 c1_i32_47 k0_t5
  let c10_i32_82 : BitVec 32 := 10#32
  let v102 : BitVec 32 := Scalar.muli arg27 c10_i32_82
  let v248 : Index := Scalar.indexCast v102
  let c32 : Index := 32#32
  ![v248.toNat, 32]
def k0_off70 (k0_t5 : Fin k0_t5_loop.trips) (c1_i32_126 : BitVec 32) : Fin 2 → Nat :=
  let c0_i32_45 : BitVec 32 := 0#32
  let c1_i32_47 : BitVec 32 := 1#32
  let arg27 : BitVec 32 := Scf.iv c0_i32_45 c1_i32_47 k0_t5
  let c10_i32_82 : BitVec 32 := 10#32
  let v102 : BitVec 32 := Scalar.muli arg27 c10_i32_82
  let v251 : BitVec 32 := Scalar.addi v102 c1_i32_126
  let v252 : Index := Scalar.indexCast v251
  let c32_127 : Index := 32#32
  ![v252.toNat, 32]
def k0_off71 (k0_t5 : Fin k0_t5_loop.trips) : Fin 2 → Nat :=
  let c0_i32_45 : BitVec 32 := 0#32
  let c1_i32_47 : BitVec 32 := 1#32
  let arg27 : BitVec 32 := Scf.iv c0_i32_45 c1_i32_47 k0_t5
  let v297 : Index := Scalar.indexCast arg27
  let c32_144 : Index := 32#32
  ![v297.toNat, 32]
def k0_off72 (k0_t5 : Fin k0_t5_loop.trips) : Fin 2 → Nat :=
  let c0_i32_45 : BitVec 32 := 0#32
  let c1_i32_47 : BitVec 32 := 1#32
  let arg27 : BitVec 32 := Scf.iv c0_i32_45 c1_i32_47 k0_t5
  let c10_i32_82 : BitVec 32 := 10#32
  let v102 : BitVec 32 := Scalar.muli arg27 c10_i32_82
  let v299 : Index := Scalar.indexCast v102
  let c48 : Index := 48#32
  ![v299.toNat, 48]
def k0_off73 (k0_t5 : Fin k0_t5_loop.trips) (c1_i32_145 : BitVec 32) : Fin 2 → Nat :=
  let c0_i32_45 : BitVec 32 := 0#32
  let c1_i32_47 : BitVec 32 := 1#32
  let arg27 : BitVec 32 := Scf.iv c0_i32_45 c1_i32_47 k0_t5
  let c10_i32_82 : BitVec 32 := 10#32
  let v102 : BitVec 32 := Scalar.muli arg27 c10_i32_82
  let v302 : BitVec 32 := Scalar.addi v102 c1_i32_145
  let v303 : Index := Scalar.indexCast v302
  let c48_146 : Index := 48#32
  ![v303.toNat, 48]
def k0_off74 (k0_t5 : Fin k0_t5_loop.trips) : Fin 2 → Nat :=
  let c0_i32_45 : BitVec 32 := 0#32
  let c1_i32_47 : BitVec 32 := 1#32
  let arg27 : BitVec 32 := Scf.iv c0_i32_45 c1_i32_47 k0_t5
  let v348 : Index := Scalar.indexCast arg27
  let c48_163 : Index := 48#32
  ![v348.toNat, 48]
def k0_off75 (k0_t5 : Fin k0_t5_loop.trips) : Fin 2 → Nat :=
  let c0_i32_45 : BitVec 32 := 0#32
  let c1_i32_47 : BitVec 32 := 1#32
  let arg27 : BitVec 32 := Scf.iv c0_i32_45 c1_i32_47 k0_t5
  let c10_i32_82 : BitVec 32 := 10#32
  let v102 : BitVec 32 := Scalar.muli arg27 c10_i32_82
  let v350 : Index := Scalar.indexCast v102
  let c64 : Index := 64#32
  ![v350.toNat, 64]
def k0_off76 (k0_t5 : Fin k0_t5_loop.trips) (c1_i32_164 : BitVec 32) : Fin 2 → Nat :=
  let c0_i32_45 : BitVec 32 := 0#32
  let c1_i32_47 : BitVec 32 := 1#32
  let arg27 : BitVec 32 := Scf.iv c0_i32_45 c1_i32_47 k0_t5
  let c10_i32_82 : BitVec 32 := 10#32
  let v102 : BitVec 32 := Scalar.muli arg27 c10_i32_82
  let v353 : BitVec 32 := Scalar.addi v102 c1_i32_164
  let v354 : Index := Scalar.indexCast v353
  let c64_165 : Index := 64#32
  ![v354.toNat, 64]
def k0_off77 (k0_t5 : Fin k0_t5_loop.trips) : Fin 2 → Nat :=
  let c0_i32_45 : BitVec 32 := 0#32
  let c1_i32_47 : BitVec 32 := 1#32
  let arg27 : BitVec 32 := Scf.iv c0_i32_45 c1_i32_47 k0_t5
  let v399 : Index := Scalar.indexCast arg27
  let c64_182 : Index := 64#32
  ![v399.toNat, 64]
def k0_off78 (k0_t5 : Fin k0_t5_loop.trips) : Fin 2 → Nat :=
  let c0_i32_45 : BitVec 32 := 0#32
  let c1_i32_47 : BitVec 32 := 1#32
  let arg27 : BitVec 32 := Scf.iv c0_i32_45 c1_i32_47 k0_t5
  let c10_i32_82 : BitVec 32 := 10#32
  let v102 : BitVec 32 := Scalar.muli arg27 c10_i32_82
  let v401 : Index := Scalar.indexCast v102
  let c80 : Index := 80#32
  ![v401.toNat, 80]
def k0_off79 (k0_t5 : Fin k0_t5_loop.trips) (c1_i32_183 : BitVec 32) : Fin 2 → Nat :=
  let c0_i32_45 : BitVec 32 := 0#32
  let c1_i32_47 : BitVec 32 := 1#32
  let arg27 : BitVec 32 := Scf.iv c0_i32_45 c1_i32_47 k0_t5
  let c10_i32_82 : BitVec 32 := 10#32
  let v102 : BitVec 32 := Scalar.muli arg27 c10_i32_82
  let v404 : BitVec 32 := Scalar.addi v102 c1_i32_183
  let v405 : Index := Scalar.indexCast v404
  let c80_184 : Index := 80#32
  ![v405.toNat, 80]
def k0_off80 (k0_t5 : Fin k0_t5_loop.trips) : Fin 2 → Nat :=
  let c0_i32_45 : BitVec 32 := 0#32
  let c1_i32_47 : BitVec 32 := 1#32
  let arg27 : BitVec 32 := Scf.iv c0_i32_45 c1_i32_47 k0_t5
  let v450 : Index := Scalar.indexCast arg27
  let c80_201 : Index := 80#32
  ![v450.toNat, 80]
def k0_off81 (k0_t5 : Fin k0_t5_loop.trips) : Fin 2 → Nat :=
  let c0_i32_45 : BitVec 32 := 0#32
  let c1_i32_47 : BitVec 32 := 1#32
  let arg27 : BitVec 32 := Scf.iv c0_i32_45 c1_i32_47 k0_t5
  let c10_i32_82 : BitVec 32 := 10#32
  let v102 : BitVec 32 := Scalar.muli arg27 c10_i32_82
  let v452 : Index := Scalar.indexCast v102
  let c96 : Index := 96#32
  ![v452.toNat, 96]
def k0_off82 (k0_t5 : Fin k0_t5_loop.trips) (c1_i32_202 : BitVec 32) : Fin 2 → Nat :=
  let c0_i32_45 : BitVec 32 := 0#32
  let c1_i32_47 : BitVec 32 := 1#32
  let arg27 : BitVec 32 := Scf.iv c0_i32_45 c1_i32_47 k0_t5
  let c10_i32_82 : BitVec 32 := 10#32
  let v102 : BitVec 32 := Scalar.muli arg27 c10_i32_82
  let v455 : BitVec 32 := Scalar.addi v102 c1_i32_202
  let v456 : Index := Scalar.indexCast v455
  let c96_203 : Index := 96#32
  ![v456.toNat, 96]
def k0_off83 (k0_t5 : Fin k0_t5_loop.trips) : Fin 2 → Nat :=
  let c0_i32_45 : BitVec 32 := 0#32
  let c1_i32_47 : BitVec 32 := 1#32
  let arg27 : BitVec 32 := Scf.iv c0_i32_45 c1_i32_47 k0_t5
  let v501 : Index := Scalar.indexCast arg27
  let c96_220 : Index := 96#32
  ![v501.toNat, 96]
def k0_off84 (k0_t5 : Fin k0_t5_loop.trips) : Fin 2 → Nat :=
  let c0_i32_45 : BitVec 32 := 0#32
  let c1_i32_47 : BitVec 32 := 1#32
  let arg27 : BitVec 32 := Scf.iv c0_i32_45 c1_i32_47 k0_t5
  let c10_i32_82 : BitVec 32 := 10#32
  let v102 : BitVec 32 := Scalar.muli arg27 c10_i32_82
  let v503 : Index := Scalar.indexCast v102
  let c112 : Index := 112#32
  ![v503.toNat, 112]
def k0_off85 (k0_t5 : Fin k0_t5_loop.trips) (c1_i32_221 : BitVec 32) : Fin 2 → Nat :=
  let c0_i32_45 : BitVec 32 := 0#32
  let c1_i32_47 : BitVec 32 := 1#32
  let arg27 : BitVec 32 := Scf.iv c0_i32_45 c1_i32_47 k0_t5
  let c10_i32_82 : BitVec 32 := 10#32
  let v102 : BitVec 32 := Scalar.muli arg27 c10_i32_82
  let v506 : BitVec 32 := Scalar.addi v102 c1_i32_221
  let v507 : Index := Scalar.indexCast v506
  let c112_222 : Index := 112#32
  ![v507.toNat, 112]
def k0_off86 (k0_t5 : Fin k0_t5_loop.trips) : Fin 2 → Nat :=
  let c0_i32_45 : BitVec 32 := 0#32
  let c1_i32_47 : BitVec 32 := 1#32
  let arg27 : BitVec 32 := Scf.iv c0_i32_45 c1_i32_47 k0_t5
  let v552 : Index := Scalar.indexCast arg27
  let c112_239 : Index := 112#32
  ![v552.toNat, 112]
def k0_off87 (i : grid0.Coords) (k0_t4 : Fin (k0_t4_loop i).trips) (c0_i32_38 : BitVec 32) : Fin 1 → Nat :=
  let c2_i32_37 : BitVec 32 := 2#32
  let c0_i32_18 : BitVec 32 := 0#32
  let arg0 : BitVec 32 := BitVec.ofNat 32 (i 0).val
  let c0_i32 : BitVec 32 := 0#32
  let v0 : BitVec 1 := Scalar.cmpi .eq arg0 c0_i32
  let c222_i32 : BitVec 32 := 222#32
  let c170_i32 : BitVec 32 := 170#32
  let v1 : BitVec 32 := Scalar.select v0 c222_i32 c170_i32
  let c0_i32_13 : BitVec 32 := 0#32
  let v17 : BitVec 1 := Scalar.cmpi .sgt v1 c0_i32_13
  let v18 : BitVec 32 := Scalar.extui v17
  let c0_i32_14 : BitVec 32 := 0#32
  let v19 : BitVec 1 := Scalar.cmpi .slt v1 c0_i32_14
  let v20 : BitVec 32 := Scalar.extui v19
  let v21 : BitVec 32 := Scalar.subi v18 v20
  let c2_i32 : BitVec 32 := 2#32
  let c0_i32_15 : BitVec 32 := 0#32
  let v22 : BitVec 1 := Scalar.cmpi .sgt c2_i32 c0_i32_15
  let v23 : BitVec 32 := Scalar.extui v22
  let c0_i32_16 : BitVec 32 := 0#32
  let v24 : BitVec 1 := Scalar.cmpi .slt c2_i32 c0_i32_16
  let v25 : BitVec 32 := Scalar.extui v24
  let v26 : BitVec 32 := Scalar.subi v23 v25
  let v27 : BitVec 1 := Scalar.cmpi .ne v21 v26
  let v28 : BitVec 32 := Scalar.remsi v1 c2_i32
  let c0_i32_17 : BitVec 32 := 0#32
  let v29 : BitVec 1 := Scalar.cmpi .ne v28 c0_i32_17
  let v30 : BitVec 1 := Scalar.andi v27 v29
  let v16 : BitVec 32 := Scalar.divsi v1 c2_i32
  let c1_i32 : BitVec 32 := 1#32
  let v31 : BitVec 32 := Scalar.subi v16 c1_i32
  let v32 : BitVec 32 := Scalar.select v30 v31 v16
  let v33 : BitVec 32 := Scalar.subi v32 c0_i32_18
  let c1_i32_20 : BitVec 32 := 1#32
  let v35 : BitVec 32 := Scalar.divsi v33 c1_i32_20
  let v36 : BitVec 32 := Scalar.muli v35 c1_i32_20
  let v37 : BitVec 32 := Scalar.addi c0_i32_18 v36
  let c1_i32_22 : BitVec 32 := 1#32
  let arg25 : BitVec 32 := Scf.iv v37 c1_i32_22 k0_t4
  let v56 : BitVec 32 := Scalar.muli c2_i32_37 arg25
  let v57 : BitVec 32 := Scalar.addi v56 c0_i32_38
  let c8_i32_49 : BitVec 32 := 8#32
  let v66 : BitVec 32 := Scalar.muli v57 c8_i32_49
  ![v66.toNat]
def k0_off88 (i : grid0.Coords) (k0_t4 : Fin (k0_t4_loop i).trips) (c0_i32_38 : BitVec 32) : Fin 2 → Nat :=
  let arg1 : BitVec 32 := BitVec.ofNat 32 (i 1).val
  let c392_i32 : BitVec 32 := 392#32
  let v2 : BitVec 32 := Scalar.muli arg1 c392_i32
  let arg0 : BitVec 32 := BitVec.ofNat 32 (i 0).val
  let c222_i32_0 : BitVec 32 := 222#32
  let v3 : BitVec 32 := Scalar.muli arg0 c222_i32_0
  let v4 : BitVec 32 := Scalar.addi v2 v3
  let c8_i32 : BitVec 32 := 8#32
  let v5 : BitVec 32 := Scalar.muli v4 c8_i32
  let c2_i32_37 : BitVec 32 := 2#32
  let c0_i32_18 : BitVec 32 := 0#32
  let c0_i32 : BitVec 32 := 0#32
  let v0 : BitVec 1 := Scalar.cmpi .eq arg0 c0_i32
  let c222_i32 : BitVec 32 := 222#32
  let c170_i32 : BitVec 32 := 170#32
  let v1 : BitVec 32 := Scalar.select v0 c222_i32 c170_i32
  let c0_i32_13 : BitVec 32 := 0#32
  let v17 : BitVec 1 := Scalar.cmpi .sgt v1 c0_i32_13
  let v18 : BitVec 32 := Scalar.extui v17
  let c0_i32_14 : BitVec 32 := 0#32
  let v19 : BitVec 1 := Scalar.cmpi .slt v1 c0_i32_14
  let v20 : BitVec 32 := Scalar.extui v19
  let v21 : BitVec 32 := Scalar.subi v18 v20
  let c2_i32 : BitVec 32 := 2#32
  let c0_i32_15 : BitVec 32 := 0#32
  let v22 : BitVec 1 := Scalar.cmpi .sgt c2_i32 c0_i32_15
  let v23 : BitVec 32 := Scalar.extui v22
  let c0_i32_16 : BitVec 32 := 0#32
  let v24 : BitVec 1 := Scalar.cmpi .slt c2_i32 c0_i32_16
  let v25 : BitVec 32 := Scalar.extui v24
  let v26 : BitVec 32 := Scalar.subi v23 v25
  let v27 : BitVec 1 := Scalar.cmpi .ne v21 v26
  let v28 : BitVec 32 := Scalar.remsi v1 c2_i32
  let c0_i32_17 : BitVec 32 := 0#32
  let v29 : BitVec 1 := Scalar.cmpi .ne v28 c0_i32_17
  let v30 : BitVec 1 := Scalar.andi v27 v29
  let v16 : BitVec 32 := Scalar.divsi v1 c2_i32
  let c1_i32 : BitVec 32 := 1#32
  let v31 : BitVec 32 := Scalar.subi v16 c1_i32
  let v32 : BitVec 32 := Scalar.select v30 v31 v16
  let v33 : BitVec 32 := Scalar.subi v32 c0_i32_18
  let c1_i32_20 : BitVec 32 := 1#32
  let v35 : BitVec 32 := Scalar.divsi v33 c1_i32_20
  let v36 : BitVec 32 := Scalar.muli v35 c1_i32_20
  let v37 : BitVec 32 := Scalar.addi c0_i32_18 v36
  let c1_i32_22 : BitVec 32 := 1#32
  let arg25 : BitVec 32 := Scf.iv v37 c1_i32_22 k0_t4
  let v56 : BitVec 32 := Scalar.muli c2_i32_37 arg25
  let v57 : BitVec 32 := Scalar.addi v56 c0_i32_38
  let c8_i32_52 : BitVec 32 := 8#32
  let v69 : BitVec 32 := Scalar.muli v57 c8_i32_52
  let v70 : BitVec 32 := Scalar.addi v5 v69
  let c0_i32_53 : BitVec 32 := 0#32
  ![v70.toNat, 0]
def k0_cond6 (i : grid0.Coords) (k0_t4 : Fin (k0_t4_loop i).trips) : BitVec 1 :=
  let c2_i32_37 : BitVec 32 := 2#32
  let c0_i32_18 : BitVec 32 := 0#32
  let arg0 : BitVec 32 := BitVec.ofNat 32 (i 0).val
  let c0_i32 : BitVec 32 := 0#32
  let v0 : BitVec 1 := Scalar.cmpi .eq arg0 c0_i32
  let c222_i32 : BitVec 32 := 222#32
  let c170_i32 : BitVec 32 := 170#32
  let v1 : BitVec 32 := Scalar.select v0 c222_i32 c170_i32
  let c0_i32_13 : BitVec 32 := 0#32
  let v17 : BitVec 1 := Scalar.cmpi .sgt v1 c0_i32_13
  let v18 : BitVec 32 := Scalar.extui v17
  let c0_i32_14 : BitVec 32 := 0#32
  let v19 : BitVec 1 := Scalar.cmpi .slt v1 c0_i32_14
  let v20 : BitVec 32 := Scalar.extui v19
  let v21 : BitVec 32 := Scalar.subi v18 v20
  let c2_i32 : BitVec 32 := 2#32
  let c0_i32_15 : BitVec 32 := 0#32
  let v22 : BitVec 1 := Scalar.cmpi .sgt c2_i32 c0_i32_15
  let v23 : BitVec 32 := Scalar.extui v22
  let c0_i32_16 : BitVec 32 := 0#32
  let v24 : BitVec 1 := Scalar.cmpi .slt c2_i32 c0_i32_16
  let v25 : BitVec 32 := Scalar.extui v24
  let v26 : BitVec 32 := Scalar.subi v23 v25
  let v27 : BitVec 1 := Scalar.cmpi .ne v21 v26
  let v28 : BitVec 32 := Scalar.remsi v1 c2_i32
  let c0_i32_17 : BitVec 32 := 0#32
  let v29 : BitVec 1 := Scalar.cmpi .ne v28 c0_i32_17
  let v30 : BitVec 1 := Scalar.andi v27 v29
  let v16 : BitVec 32 := Scalar.divsi v1 c2_i32
  let c1_i32 : BitVec 32 := 1#32
  let v31 : BitVec 32 := Scalar.subi v16 c1_i32
  let v32 : BitVec 32 := Scalar.select v30 v31 v16
  let v33 : BitVec 32 := Scalar.subi v32 c0_i32_18
  let c1_i32_20 : BitVec 32 := 1#32
  let v35 : BitVec 32 := Scalar.divsi v33 c1_i32_20
  let v36 : BitVec 32 := Scalar.muli v35 c1_i32_20
  let v37 : BitVec 32 := Scalar.addi c0_i32_18 v36
  let c1_i32_22 : BitVec 32 := 1#32
  let arg25 : BitVec 32 := Scf.iv v37 c1_i32_22 k0_t4
  let v56 : BitVec 32 := Scalar.muli c2_i32_37 arg25
  let c0_i32_38 : BitVec 32 := 0#32
  let v57 : BitVec 32 := Scalar.addi v56 c0_i32_38
  let c2_i32_57 : BitVec 32 := 2#32
  let v75 : BitVec 32 := Scalar.addi v57 c2_i32_57
  let v76 : BitVec 1 := Scalar.cmpi .slt v75 v1
  let v77 : BitVec 32 := Scalar.extui v76
  let c0_i32_58 : BitVec 32 := 0#32
  let v78 : BitVec 1 := Scalar.cmpi .ne v77 c0_i32_58
  v78

def k0_off89 (i : grid0.Coords) (k0_t4 : Fin (k0_t4_loop i).trips) : Fin 1 → Nat :=
  let c2_i32_37 : BitVec 32 := 2#32
  let c0_i32_18 : BitVec 32 := 0#32
  let arg0 : BitVec 32 := BitVec.ofNat 32 (i 0).val
  let c0_i32 : BitVec 32 := 0#32
  let v0 : BitVec 1 := Scalar.cmpi .eq arg0 c0_i32
  let c222_i32 : BitVec 32 := 222#32
  let c170_i32 : BitVec 32 := 170#32
  let v1 : BitVec 32 := Scalar.select v0 c222_i32 c170_i32
  let c0_i32_13 : BitVec 32 := 0#32
  let v17 : BitVec 1 := Scalar.cmpi .sgt v1 c0_i32_13
  let v18 : BitVec 32 := Scalar.extui v17
  let c0_i32_14 : BitVec 32 := 0#32
  let v19 : BitVec 1 := Scalar.cmpi .slt v1 c0_i32_14
  let v20 : BitVec 32 := Scalar.extui v19
  let v21 : BitVec 32 := Scalar.subi v18 v20
  let c2_i32 : BitVec 32 := 2#32
  let c0_i32_15 : BitVec 32 := 0#32
  let v22 : BitVec 1 := Scalar.cmpi .sgt c2_i32 c0_i32_15
  let v23 : BitVec 32 := Scalar.extui v22
  let c0_i32_16 : BitVec 32 := 0#32
  let v24 : BitVec 1 := Scalar.cmpi .slt c2_i32 c0_i32_16
  let v25 : BitVec 32 := Scalar.extui v24
  let v26 : BitVec 32 := Scalar.subi v23 v25
  let v27 : BitVec 1 := Scalar.cmpi .ne v21 v26
  let v28 : BitVec 32 := Scalar.remsi v1 c2_i32
  let c0_i32_17 : BitVec 32 := 0#32
  let v29 : BitVec 1 := Scalar.cmpi .ne v28 c0_i32_17
  let v30 : BitVec 1 := Scalar.andi v27 v29
  let v16 : BitVec 32 := Scalar.divsi v1 c2_i32
  let c1_i32 : BitVec 32 := 1#32
  let v31 : BitVec 32 := Scalar.subi v16 c1_i32
  let v32 : BitVec 32 := Scalar.select v30 v31 v16
  let v33 : BitVec 32 := Scalar.subi v32 c0_i32_18
  let c1_i32_20 : BitVec 32 := 1#32
  let v35 : BitVec 32 := Scalar.divsi v33 c1_i32_20
  let v36 : BitVec 32 := Scalar.muli v35 c1_i32_20
  let v37 : BitVec 32 := Scalar.addi c0_i32_18 v36
  let c1_i32_22 : BitVec 32 := 1#32
  let arg25 : BitVec 32 := Scf.iv v37 c1_i32_22 k0_t4
  let v56 : BitVec 32 := Scalar.muli c2_i32_37 arg25
  let c0_i32_38 : BitVec 32 := 0#32
  let v57 : BitVec 32 := Scalar.addi v56 c0_i32_38
  let c2_i32_82 : BitVec 32 := 2#32
  let v102 : BitVec 32 := Scalar.addi v57 c2_i32_82
  let c80_i32_83 : BitVec 32 := 80#32
  let v103 : BitVec 32 := Scalar.muli v102 c80_i32_83
  ![v103.toNat]
def k0_cond7 (i : grid0.Coords) (k0_t4 : Fin (k0_t4_loop i).trips) : BitVec 1 :=
  let c2_i32_59 : BitVec 32 := 2#32
  let c0_i32_18 : BitVec 32 := 0#32
  let arg0 : BitVec 32 := BitVec.ofNat 32 (i 0).val
  let c0_i32 : BitVec 32 := 0#32
  let v0 : BitVec 1 := Scalar.cmpi .eq arg0 c0_i32
  let c222_i32 : BitVec 32 := 222#32
  let c170_i32 : BitVec 32 := 170#32
  let v1 : BitVec 32 := Scalar.select v0 c222_i32 c170_i32
  let c0_i32_13 : BitVec 32 := 0#32
  let v17 : BitVec 1 := Scalar.cmpi .sgt v1 c0_i32_13
  let v18 : BitVec 32 := Scalar.extui v17
  let c0_i32_14 : BitVec 32 := 0#32
  let v19 : BitVec 1 := Scalar.cmpi .slt v1 c0_i32_14
  let v20 : BitVec 32 := Scalar.extui v19
  let v21 : BitVec 32 := Scalar.subi v18 v20
  let c2_i32 : BitVec 32 := 2#32
  let c0_i32_15 : BitVec 32 := 0#32
  let v22 : BitVec 1 := Scalar.cmpi .sgt c2_i32 c0_i32_15
  let v23 : BitVec 32 := Scalar.extui v22
  let c0_i32_16 : BitVec 32 := 0#32
  let v24 : BitVec 1 := Scalar.cmpi .slt c2_i32 c0_i32_16
  let v25 : BitVec 32 := Scalar.extui v24
  let v26 : BitVec 32 := Scalar.subi v23 v25
  let v27 : BitVec 1 := Scalar.cmpi .ne v21 v26
  let v28 : BitVec 32 := Scalar.remsi v1 c2_i32
  let c0_i32_17 : BitVec 32 := 0#32
  let v29 : BitVec 1 := Scalar.cmpi .ne v28 c0_i32_17
  let v30 : BitVec 1 := Scalar.andi v27 v29
  let v16 : BitVec 32 := Scalar.divsi v1 c2_i32
  let c1_i32 : BitVec 32 := 1#32
  let v31 : BitVec 32 := Scalar.subi v16 c1_i32
  let v32 : BitVec 32 := Scalar.select v30 v31 v16
  let v33 : BitVec 32 := Scalar.subi v32 c0_i32_18
  let c1_i32_20 : BitVec 32 := 1#32
  let v35 : BitVec 32 := Scalar.divsi v33 c1_i32_20
  let v36 : BitVec 32 := Scalar.muli v35 c1_i32_20
  let v37 : BitVec 32 := Scalar.addi c0_i32_18 v36
  let c1_i32_22 : BitVec 32 := 1#32
  let arg25 : BitVec 32 := Scf.iv v37 c1_i32_22 k0_t4
  let v79 : BitVec 32 := Scalar.muli c2_i32_59 arg25
  let c1_i32_60 : BitVec 32 := 1#32
  let v80 : BitVec 32 := Scalar.addi v79 c1_i32_60
  let c2_i32_61 : BitVec 32 := 2#32
  let v81 : BitVec 1 := Scalar.cmpi .sge v80 c2_i32_61
  let v82 : BitVec 32 := Scalar.extui v81
  let c0_i32_62 : BitVec 32 := 0#32
  let v83 : BitVec 1 := Scalar.cmpi .ne v82 c0_i32_62
  v83

def k0_off90 (i : grid0.Coords) (k0_t4 : Fin (k0_t4_loop i).trips) : Fin 2 → Nat :=
  let arg1 : BitVec 32 := BitVec.ofNat 32 (i 1).val
  let c392_i32 : BitVec 32 := 392#32
  let v2 : BitVec 32 := Scalar.muli arg1 c392_i32
  let arg0 : BitVec 32 := BitVec.ofNat 32 (i 0).val
  let c222_i32_0 : BitVec 32 := 222#32
  let v3 : BitVec 32 := Scalar.muli arg0 c222_i32_0
  let v4 : BitVec 32 := Scalar.addi v2 v3
  let c8_i32 : BitVec 32 := 8#32
  let v5 : BitVec 32 := Scalar.muli v4 c8_i32
  let c2_i32_59 : BitVec 32 := 2#32
  let c0_i32_18 : BitVec 32 := 0#32
  let c0_i32 : BitVec 32 := 0#32
  let v0 : BitVec 1 := Scalar.cmpi .eq arg0 c0_i32
  let c222_i32 : BitVec 32 := 222#32
  let c170_i32 : BitVec 32 := 170#32
  let v1 : BitVec 32 := Scalar.select v0 c222_i32 c170_i32
  let c0_i32_13 : BitVec 32 := 0#32
  let v17 : BitVec 1 := Scalar.cmpi .sgt v1 c0_i32_13
  let v18 : BitVec 32 := Scalar.extui v17
  let c0_i32_14 : BitVec 32 := 0#32
  let v19 : BitVec 1 := Scalar.cmpi .slt v1 c0_i32_14
  let v20 : BitVec 32 := Scalar.extui v19
  let v21 : BitVec 32 := Scalar.subi v18 v20
  let c2_i32 : BitVec 32 := 2#32
  let c0_i32_15 : BitVec 32 := 0#32
  let v22 : BitVec 1 := Scalar.cmpi .sgt c2_i32 c0_i32_15
  let v23 : BitVec 32 := Scalar.extui v22
  let c0_i32_16 : BitVec 32 := 0#32
  let v24 : BitVec 1 := Scalar.cmpi .slt c2_i32 c0_i32_16
  let v25 : BitVec 32 := Scalar.extui v24
  let v26 : BitVec 32 := Scalar.subi v23 v25
  let v27 : BitVec 1 := Scalar.cmpi .ne v21 v26
  let v28 : BitVec 32 := Scalar.remsi v1 c2_i32
  let c0_i32_17 : BitVec 32 := 0#32
  let v29 : BitVec 1 := Scalar.cmpi .ne v28 c0_i32_17
  let v30 : BitVec 1 := Scalar.andi v27 v29
  let v16 : BitVec 32 := Scalar.divsi v1 c2_i32
  let c1_i32 : BitVec 32 := 1#32
  let v31 : BitVec 32 := Scalar.subi v16 c1_i32
  let v32 : BitVec 32 := Scalar.select v30 v31 v16
  let v33 : BitVec 32 := Scalar.subi v32 c0_i32_18
  let c1_i32_20 : BitVec 32 := 1#32
  let v35 : BitVec 32 := Scalar.divsi v33 c1_i32_20
  let v36 : BitVec 32 := Scalar.muli v35 c1_i32_20
  let v37 : BitVec 32 := Scalar.addi c0_i32_18 v36
  let c1_i32_22 : BitVec 32 := 1#32
  let arg25 : BitVec 32 := Scf.iv v37 c1_i32_22 k0_t4
  let v79 : BitVec 32 := Scalar.muli c2_i32_59 arg25
  let c1_i32_60 : BitVec 32 := 1#32
  let v80 : BitVec 32 := Scalar.addi v79 c1_i32_60
  let c2_i32_82 : BitVec 32 := 2#32
  let v102 : BitVec 32 := Scalar.subi v80 c2_i32_82
  let c8_i32_83 : BitVec 32 := 8#32
  let v103 : BitVec 32 := Scalar.muli v102 c8_i32_83
  let v104 : BitVec 32 := Scalar.addi v5 v103
  let c0_i32_84 : BitVec 32 := 0#32
  ![v104.toNat, 0]
def k0_off91 (i : grid0.Coords) (k0_t4 : Fin (k0_t4_loop i).trips) : Fin 1 → Nat :=
  let c2_i32_59 : BitVec 32 := 2#32
  let c0_i32_18 : BitVec 32 := 0#32
  let arg0 : BitVec 32 := BitVec.ofNat 32 (i 0).val
  let c0_i32 : BitVec 32 := 0#32
  let v0 : BitVec 1 := Scalar.cmpi .eq arg0 c0_i32
  let c222_i32 : BitVec 32 := 222#32
  let c170_i32 : BitVec 32 := 170#32
  let v1 : BitVec 32 := Scalar.select v0 c222_i32 c170_i32
  let c0_i32_13 : BitVec 32 := 0#32
  let v17 : BitVec 1 := Scalar.cmpi .sgt v1 c0_i32_13
  let v18 : BitVec 32 := Scalar.extui v17
  let c0_i32_14 : BitVec 32 := 0#32
  let v19 : BitVec 1 := Scalar.cmpi .slt v1 c0_i32_14
  let v20 : BitVec 32 := Scalar.extui v19
  let v21 : BitVec 32 := Scalar.subi v18 v20
  let c2_i32 : BitVec 32 := 2#32
  let c0_i32_15 : BitVec 32 := 0#32
  let v22 : BitVec 1 := Scalar.cmpi .sgt c2_i32 c0_i32_15
  let v23 : BitVec 32 := Scalar.extui v22
  let c0_i32_16 : BitVec 32 := 0#32
  let v24 : BitVec 1 := Scalar.cmpi .slt c2_i32 c0_i32_16
  let v25 : BitVec 32 := Scalar.extui v24
  let v26 : BitVec 32 := Scalar.subi v23 v25
  let v27 : BitVec 1 := Scalar.cmpi .ne v21 v26
  let v28 : BitVec 32 := Scalar.remsi v1 c2_i32
  let c0_i32_17 : BitVec 32 := 0#32
  let v29 : BitVec 1 := Scalar.cmpi .ne v28 c0_i32_17
  let v30 : BitVec 1 := Scalar.andi v27 v29
  let v16 : BitVec 32 := Scalar.divsi v1 c2_i32
  let c1_i32 : BitVec 32 := 1#32
  let v31 : BitVec 32 := Scalar.subi v16 c1_i32
  let v32 : BitVec 32 := Scalar.select v30 v31 v16
  let v33 : BitVec 32 := Scalar.subi v32 c0_i32_18
  let c1_i32_20 : BitVec 32 := 1#32
  let v35 : BitVec 32 := Scalar.divsi v33 c1_i32_20
  let v36 : BitVec 32 := Scalar.muli v35 c1_i32_20
  let v37 : BitVec 32 := Scalar.addi c0_i32_18 v36
  let c1_i32_22 : BitVec 32 := 1#32
  let arg25 : BitVec 32 := Scf.iv v37 c1_i32_22 k0_t4
  let v79 : BitVec 32 := Scalar.muli c2_i32_59 arg25
  let c1_i32_60 : BitVec 32 := 1#32
  let v80 : BitVec 32 := Scalar.addi v79 c1_i32_60
  let c8_i32_88 : BitVec 32 := 8#32
  let v109 : BitVec 32 := Scalar.muli v80 c8_i32_88
  ![v109.toNat]
@[reducible] def k0_t6_loop : Scf.Loop 32 :=
  let c0_i32_67 : BitVec 32 := 0#32
  let c8_i32_68 : BitVec 32 := 8#32
  let v87 : BitVec 32 := Scalar.addi c0_i32_67 c8_i32_68
  let c1_i32_69 : BitVec 32 := 1#32
  ⟨c0_i32_67, v87, c1_i32_69⟩

def k0_chk31 (v106 : IVec S16 32) : Prop :=
  (∀ a x, ((![v106] : Fin 1 → IVec S16 32) a x).toNat < S17760.size a)
instance k0_chk31.dec : ∀ (v106 : IVec S16 32), Decidable (k0_chk31 v106) := fun v106 => decidable_of_iff' _ (Iff.of_eq (k0_chk31.eq_1 v106))
theorem k0_idx31_inb : ∀ (v106 : IVec S16 32) (k0_hw31 : k0_chk31 v106), ∀ a x, ((![v106] : Fin 1 → IVec S16 32) a x).toNat < S17760.size a := fun v106 k0_hw31 => k0_hw31

def k0_chk32 (v109 : IVec S16 32) : Prop :=
  (∀ a x, ((![v109] : Fin 1 → IVec S16 32) a x).toNat < S17760.size a)
instance k0_chk32.dec : ∀ (v109 : IVec S16 32), Decidable (k0_chk32 v109) := fun v109 => decidable_of_iff' _ (Iff.of_eq (k0_chk32.eq_1 v109))
theorem k0_idx32_inb : ∀ (v109 : IVec S16 32) (k0_hw32 : k0_chk32 v109), ∀ a x, ((![v109] : Fin 1 → IVec S16 32) a x).toNat < S17760.size a := fun v109 k0_hw32 => k0_hw32

def k0_chk33 (v112 : IVec S16 32) : Prop :=
  (∀ a x, ((![v112] : Fin 1 → IVec S16 32) a x).toNat < S17760.size a)
instance k0_chk33.dec : ∀ (v112 : IVec S16 32), Decidable (k0_chk33 v112) := fun v112 => decidable_of_iff' _ (Iff.of_eq (k0_chk33.eq_1 v112))
theorem k0_idx33_inb : ∀ (v112 : IVec S16 32) (k0_hw33 : k0_chk33 v112), ∀ a x, ((![v112] : Fin 1 → IVec S16 32) a x).toNat < S17760.size a := fun v112 k0_hw33 => k0_hw33

def k0_chk34 (v115 : IVec S16 32) : Prop :=
  (∀ a x, ((![v115] : Fin 1 → IVec S16 32) a x).toNat < S17760.size a)
instance k0_chk34.dec : ∀ (v115 : IVec S16 32), Decidable (k0_chk34 v115) := fun v115 => decidable_of_iff' _ (Iff.of_eq (k0_chk34.eq_1 v115))
theorem k0_idx34_inb : ∀ (v115 : IVec S16 32) (k0_hw34 : k0_chk34 v115), ∀ a x, ((![v115] : Fin 1 → IVec S16 32) a x).toNat < S17760.size a := fun v115 k0_hw34 => k0_hw34

def k0_chk35 (v118 : IVec S16 32) : Prop :=
  (∀ a x, ((![v118] : Fin 1 → IVec S16 32) a x).toNat < S17760.size a)
instance k0_chk35.dec : ∀ (v118 : IVec S16 32), Decidable (k0_chk35 v118) := fun v118 => decidable_of_iff' _ (Iff.of_eq (k0_chk35.eq_1 v118))
theorem k0_idx35_inb : ∀ (v118 : IVec S16 32) (k0_hw35 : k0_chk35 v118), ∀ a x, ((![v118] : Fin 1 → IVec S16 32) a x).toNat < S17760.size a := fun v118 k0_hw35 => k0_hw35

def k0_chk36 (v121 : IVec S16 32) : Prop :=
  (∀ a x, ((![v121] : Fin 1 → IVec S16 32) a x).toNat < S17760.size a)
instance k0_chk36.dec : ∀ (v121 : IVec S16 32), Decidable (k0_chk36 v121) := fun v121 => decidable_of_iff' _ (Iff.of_eq (k0_chk36.eq_1 v121))
theorem k0_idx36_inb : ∀ (v121 : IVec S16 32) (k0_hw36 : k0_chk36 v121), ∀ a x, ((![v121] : Fin 1 → IVec S16 32) a x).toNat < S17760.size a := fun v121 k0_hw36 => k0_hw36

def k0_chk37 (v124 : IVec S16 32) : Prop :=
  (∀ a x, ((![v124] : Fin 1 → IVec S16 32) a x).toNat < S17760.size a)
instance k0_chk37.dec : ∀ (v124 : IVec S16 32), Decidable (k0_chk37 v124) := fun v124 => decidable_of_iff' _ (Iff.of_eq (k0_chk37.eq_1 v124))
theorem k0_idx37_inb : ∀ (v124 : IVec S16 32) (k0_hw37 : k0_chk37 v124), ∀ a x, ((![v124] : Fin 1 → IVec S16 32) a x).toNat < S17760.size a := fun v124 k0_hw37 => k0_hw37

def k0_chk38 (v127 : IVec S16 32) : Prop :=
  (∀ a x, ((![v127] : Fin 1 → IVec S16 32) a x).toNat < S17760.size a)
instance k0_chk38.dec : ∀ (v127 : IVec S16 32), Decidable (k0_chk38 v127) := fun v127 => decidable_of_iff' _ (Iff.of_eq (k0_chk38.eq_1 v127))
theorem k0_idx38_inb : ∀ (v127 : IVec S16 32) (k0_hw38 : k0_chk38 v127), ∀ a x, ((![v127] : Fin 1 → IVec S16 32) a x).toNat < S17760.size a := fun v127 k0_hw38 => k0_hw38

def k0_chk39 (v130 : IVec S16 32) : Prop :=
  (∀ a x, ((![v130] : Fin 1 → IVec S16 32) a x).toNat < S17760.size a)
instance k0_chk39.dec : ∀ (v130 : IVec S16 32), Decidable (k0_chk39 v130) := fun v130 => decidable_of_iff' _ (Iff.of_eq (k0_chk39.eq_1 v130))
theorem k0_idx39_inb : ∀ (v130 : IVec S16 32) (k0_hw39 : k0_chk39 v130), ∀ a x, ((![v130] : Fin 1 → IVec S16 32) a x).toNat < S17760.size a := fun v130 k0_hw39 => k0_hw39

def k0_chk40 (v133 : IVec S16 32) : Prop :=
  (∀ a x, ((![v133] : Fin 1 → IVec S16 32) a x).toNat < S17760.size a)
instance k0_chk40.dec : ∀ (v133 : IVec S16 32), Decidable (k0_chk40 v133) := fun v133 => decidable_of_iff' _ (Iff.of_eq (k0_chk40.eq_1 v133))
theorem k0_idx40_inb : ∀ (v133 : IVec S16 32) (k0_hw40 : k0_chk40 v133), ∀ a x, ((![v133] : Fin 1 → IVec S16 32) a x).toNat < S17760.size a := fun v133 k0_hw40 => k0_hw40
def k0_off92 (k0_t6 : Fin k0_t6_loop.trips) : Fin 2 → Nat :=
  let c0_i32_67 : BitVec 32 := 0#32
  let c1_i32_69 : BitVec 32 := 1#32
  let arg27 : BitVec 32 := Scf.iv c0_i32_67 c1_i32_69 k0_t6
  let c10_i32_82 : BitVec 32 := 10#32
  let v102 : BitVec 32 := Scalar.muli arg27 c10_i32_82
  let v146 : Index := Scalar.indexCast v102
  let c0 : Index := 0#32
  ![v146.toNat, 0]
def k0_off93 (k0_t6 : Fin k0_t6_loop.trips) (c1_i32_88 : BitVec 32) : Fin 2 → Nat :=
  let c0_i32_67 : BitVec 32 := 0#32
  let c1_i32_69 : BitVec 32 := 1#32
  let arg27 : BitVec 32 := Scf.iv c0_i32_67 c1_i32_69 k0_t6
  let c10_i32_82 : BitVec 32 := 10#32
  let v102 : BitVec 32 := Scalar.muli arg27 c10_i32_82
  let v149 : BitVec 32 := Scalar.addi v102 c1_i32_88
  let v150 : Index := Scalar.indexCast v149
  let c0_89 : Index := 0#32
  ![v150.toNat, 0]
def k0_off94 (k0_t6 : Fin k0_t6_loop.trips) : Fin 2 → Nat :=
  let c0_i32_67 : BitVec 32 := 0#32
  let c1_i32_69 : BitVec 32 := 1#32
  let arg27 : BitVec 32 := Scf.iv c0_i32_67 c1_i32_69 k0_t6
  let v195 : Index := Scalar.indexCast arg27
  let c0_106 : Index := 0#32
  ![v195.toNat, 0]
def k0_off95 (k0_t6 : Fin k0_t6_loop.trips) : Fin 2 → Nat :=
  let c0_i32_67 : BitVec 32 := 0#32
  let c1_i32_69 : BitVec 32 := 1#32
  let arg27 : BitVec 32 := Scf.iv c0_i32_67 c1_i32_69 k0_t6
  let c10_i32_82 : BitVec 32 := 10#32
  let v102 : BitVec 32 := Scalar.muli arg27 c10_i32_82
  let v197 : Index := Scalar.indexCast v102
  let c16 : Index := 16#32
  ![v197.toNat, 16]
def k0_off96 (k0_t6 : Fin k0_t6_loop.trips) (c1_i32_107 : BitVec 32) : Fin 2 → Nat :=
  let c0_i32_67 : BitVec 32 := 0#32
  let c1_i32_69 : BitVec 32 := 1#32
  let arg27 : BitVec 32 := Scf.iv c0_i32_67 c1_i32_69 k0_t6
  let c10_i32_82 : BitVec 32 := 10#32
  let v102 : BitVec 32 := Scalar.muli arg27 c10_i32_82
  let v200 : BitVec 32 := Scalar.addi v102 c1_i32_107
  let v201 : Index := Scalar.indexCast v200
  let c16_108 : Index := 16#32
  ![v201.toNat, 16]
def k0_off97 (k0_t6 : Fin k0_t6_loop.trips) : Fin 2 → Nat :=
  let c0_i32_67 : BitVec 32 := 0#32
  let c1_i32_69 : BitVec 32 := 1#32
  let arg27 : BitVec 32 := Scf.iv c0_i32_67 c1_i32_69 k0_t6
  let v246 : Index := Scalar.indexCast arg27
  let c16_125 : Index := 16#32
  ![v246.toNat, 16]
def k0_off98 (k0_t6 : Fin k0_t6_loop.trips) : Fin 2 → Nat :=
  let c0_i32_67 : BitVec 32 := 0#32
  let c1_i32_69 : BitVec 32 := 1#32
  let arg27 : BitVec 32 := Scf.iv c0_i32_67 c1_i32_69 k0_t6
  let c10_i32_82 : BitVec 32 := 10#32
  let v102 : BitVec 32 := Scalar.muli arg27 c10_i32_82
  let v248 : Index := Scalar.indexCast v102
  let c32 : Index := 32#32
  ![v248.toNat, 32]
def k0_off99 (k0_t6 : Fin k0_t6_loop.trips) (c1_i32_126 : BitVec 32) : Fin 2 → Nat :=
  let c0_i32_67 : BitVec 32 := 0#32
  let c1_i32_69 : BitVec 32 := 1#32
  let arg27 : BitVec 32 := Scf.iv c0_i32_67 c1_i32_69 k0_t6
  let c10_i32_82 : BitVec 32 := 10#32
  let v102 : BitVec 32 := Scalar.muli arg27 c10_i32_82
  let v251 : BitVec 32 := Scalar.addi v102 c1_i32_126
  let v252 : Index := Scalar.indexCast v251
  let c32_127 : Index := 32#32
  ![v252.toNat, 32]
def k0_off100 (k0_t6 : Fin k0_t6_loop.trips) : Fin 2 → Nat :=
  let c0_i32_67 : BitVec 32 := 0#32
  let c1_i32_69 : BitVec 32 := 1#32
  let arg27 : BitVec 32 := Scf.iv c0_i32_67 c1_i32_69 k0_t6
  let v297 : Index := Scalar.indexCast arg27
  let c32_144 : Index := 32#32
  ![v297.toNat, 32]
def k0_off101 (k0_t6 : Fin k0_t6_loop.trips) : Fin 2 → Nat :=
  let c0_i32_67 : BitVec 32 := 0#32
  let c1_i32_69 : BitVec 32 := 1#32
  let arg27 : BitVec 32 := Scf.iv c0_i32_67 c1_i32_69 k0_t6
  let c10_i32_82 : BitVec 32 := 10#32
  let v102 : BitVec 32 := Scalar.muli arg27 c10_i32_82
  let v299 : Index := Scalar.indexCast v102
  let c48 : Index := 48#32
  ![v299.toNat, 48]
def k0_off102 (k0_t6 : Fin k0_t6_loop.trips) (c1_i32_145 : BitVec 32) : Fin 2 → Nat :=
  let c0_i32_67 : BitVec 32 := 0#32
  let c1_i32_69 : BitVec 32 := 1#32
  let arg27 : BitVec 32 := Scf.iv c0_i32_67 c1_i32_69 k0_t6
  let c10_i32_82 : BitVec 32 := 10#32
  let v102 : BitVec 32 := Scalar.muli arg27 c10_i32_82
  let v302 : BitVec 32 := Scalar.addi v102 c1_i32_145
  let v303 : Index := Scalar.indexCast v302
  let c48_146 : Index := 48#32
  ![v303.toNat, 48]
def k0_off103 (k0_t6 : Fin k0_t6_loop.trips) : Fin 2 → Nat :=
  let c0_i32_67 : BitVec 32 := 0#32
  let c1_i32_69 : BitVec 32 := 1#32
  let arg27 : BitVec 32 := Scf.iv c0_i32_67 c1_i32_69 k0_t6
  let v348 : Index := Scalar.indexCast arg27
  let c48_163 : Index := 48#32
  ![v348.toNat, 48]
def k0_off104 (k0_t6 : Fin k0_t6_loop.trips) : Fin 2 → Nat :=
  let c0_i32_67 : BitVec 32 := 0#32
  let c1_i32_69 : BitVec 32 := 1#32
  let arg27 : BitVec 32 := Scf.iv c0_i32_67 c1_i32_69 k0_t6
  let c10_i32_82 : BitVec 32 := 10#32
  let v102 : BitVec 32 := Scalar.muli arg27 c10_i32_82
  let v350 : Index := Scalar.indexCast v102
  let c64 : Index := 64#32
  ![v350.toNat, 64]
def k0_off105 (k0_t6 : Fin k0_t6_loop.trips) (c1_i32_164 : BitVec 32) : Fin 2 → Nat :=
  let c0_i32_67 : BitVec 32 := 0#32
  let c1_i32_69 : BitVec 32 := 1#32
  let arg27 : BitVec 32 := Scf.iv c0_i32_67 c1_i32_69 k0_t6
  let c10_i32_82 : BitVec 32 := 10#32
  let v102 : BitVec 32 := Scalar.muli arg27 c10_i32_82
  let v353 : BitVec 32 := Scalar.addi v102 c1_i32_164
  let v354 : Index := Scalar.indexCast v353
  let c64_165 : Index := 64#32
  ![v354.toNat, 64]
def k0_off106 (k0_t6 : Fin k0_t6_loop.trips) : Fin 2 → Nat :=
  let c0_i32_67 : BitVec 32 := 0#32
  let c1_i32_69 : BitVec 32 := 1#32
  let arg27 : BitVec 32 := Scf.iv c0_i32_67 c1_i32_69 k0_t6
  let v399 : Index := Scalar.indexCast arg27
  let c64_182 : Index := 64#32
  ![v399.toNat, 64]
def k0_off107 (k0_t6 : Fin k0_t6_loop.trips) : Fin 2 → Nat :=
  let c0_i32_67 : BitVec 32 := 0#32
  let c1_i32_69 : BitVec 32 := 1#32
  let arg27 : BitVec 32 := Scf.iv c0_i32_67 c1_i32_69 k0_t6
  let c10_i32_82 : BitVec 32 := 10#32
  let v102 : BitVec 32 := Scalar.muli arg27 c10_i32_82
  let v401 : Index := Scalar.indexCast v102
  let c80 : Index := 80#32
  ![v401.toNat, 80]
def k0_off108 (k0_t6 : Fin k0_t6_loop.trips) (c1_i32_183 : BitVec 32) : Fin 2 → Nat :=
  let c0_i32_67 : BitVec 32 := 0#32
  let c1_i32_69 : BitVec 32 := 1#32
  let arg27 : BitVec 32 := Scf.iv c0_i32_67 c1_i32_69 k0_t6
  let c10_i32_82 : BitVec 32 := 10#32
  let v102 : BitVec 32 := Scalar.muli arg27 c10_i32_82
  let v404 : BitVec 32 := Scalar.addi v102 c1_i32_183
  let v405 : Index := Scalar.indexCast v404
  let c80_184 : Index := 80#32
  ![v405.toNat, 80]
def k0_off109 (k0_t6 : Fin k0_t6_loop.trips) : Fin 2 → Nat :=
  let c0_i32_67 : BitVec 32 := 0#32
  let c1_i32_69 : BitVec 32 := 1#32
  let arg27 : BitVec 32 := Scf.iv c0_i32_67 c1_i32_69 k0_t6
  let v450 : Index := Scalar.indexCast arg27
  let c80_201 : Index := 80#32
  ![v450.toNat, 80]
def k0_off110 (k0_t6 : Fin k0_t6_loop.trips) : Fin 2 → Nat :=
  let c0_i32_67 : BitVec 32 := 0#32
  let c1_i32_69 : BitVec 32 := 1#32
  let arg27 : BitVec 32 := Scf.iv c0_i32_67 c1_i32_69 k0_t6
  let c10_i32_82 : BitVec 32 := 10#32
  let v102 : BitVec 32 := Scalar.muli arg27 c10_i32_82
  let v452 : Index := Scalar.indexCast v102
  let c96 : Index := 96#32
  ![v452.toNat, 96]
def k0_off111 (k0_t6 : Fin k0_t6_loop.trips) (c1_i32_202 : BitVec 32) : Fin 2 → Nat :=
  let c0_i32_67 : BitVec 32 := 0#32
  let c1_i32_69 : BitVec 32 := 1#32
  let arg27 : BitVec 32 := Scf.iv c0_i32_67 c1_i32_69 k0_t6
  let c10_i32_82 : BitVec 32 := 10#32
  let v102 : BitVec 32 := Scalar.muli arg27 c10_i32_82
  let v455 : BitVec 32 := Scalar.addi v102 c1_i32_202
  let v456 : Index := Scalar.indexCast v455
  let c96_203 : Index := 96#32
  ![v456.toNat, 96]
def k0_off112 (k0_t6 : Fin k0_t6_loop.trips) : Fin 2 → Nat :=
  let c0_i32_67 : BitVec 32 := 0#32
  let c1_i32_69 : BitVec 32 := 1#32
  let arg27 : BitVec 32 := Scf.iv c0_i32_67 c1_i32_69 k0_t6
  let v501 : Index := Scalar.indexCast arg27
  let c96_220 : Index := 96#32
  ![v501.toNat, 96]
def k0_off113 (k0_t6 : Fin k0_t6_loop.trips) : Fin 2 → Nat :=
  let c0_i32_67 : BitVec 32 := 0#32
  let c1_i32_69 : BitVec 32 := 1#32
  let arg27 : BitVec 32 := Scf.iv c0_i32_67 c1_i32_69 k0_t6
  let c10_i32_82 : BitVec 32 := 10#32
  let v102 : BitVec 32 := Scalar.muli arg27 c10_i32_82
  let v503 : Index := Scalar.indexCast v102
  let c112 : Index := 112#32
  ![v503.toNat, 112]
def k0_off114 (k0_t6 : Fin k0_t6_loop.trips) (c1_i32_221 : BitVec 32) : Fin 2 → Nat :=
  let c0_i32_67 : BitVec 32 := 0#32
  let c1_i32_69 : BitVec 32 := 1#32
  let arg27 : BitVec 32 := Scf.iv c0_i32_67 c1_i32_69 k0_t6
  let c10_i32_82 : BitVec 32 := 10#32
  let v102 : BitVec 32 := Scalar.muli arg27 c10_i32_82
  let v506 : BitVec 32 := Scalar.addi v102 c1_i32_221
  let v507 : Index := Scalar.indexCast v506
  let c112_222 : Index := 112#32
  ![v507.toNat, 112]
def k0_off115 (k0_t6 : Fin k0_t6_loop.trips) : Fin 2 → Nat :=
  let c0_i32_67 : BitVec 32 := 0#32
  let c1_i32_69 : BitVec 32 := 1#32
  let arg27 : BitVec 32 := Scf.iv c0_i32_67 c1_i32_69 k0_t6
  let v552 : Index := Scalar.indexCast arg27
  let c112_239 : Index := 112#32
  ![v552.toNat, 112]
def k0_cond8 (i : grid0.Coords) (k0_t4 : Fin (k0_t4_loop i).trips) : BitVec 1 :=
  let c2_i32_59 : BitVec 32 := 2#32
  let c0_i32_18 : BitVec 32 := 0#32
  let arg0 : BitVec 32 := BitVec.ofNat 32 (i 0).val
  let c0_i32 : BitVec 32 := 0#32
  let v0 : BitVec 1 := Scalar.cmpi .eq arg0 c0_i32
  let c222_i32 : BitVec 32 := 222#32
  let c170_i32 : BitVec 32 := 170#32
  let v1 : BitVec 32 := Scalar.select v0 c222_i32 c170_i32
  let c0_i32_13 : BitVec 32 := 0#32
  let v17 : BitVec 1 := Scalar.cmpi .sgt v1 c0_i32_13
  let v18 : BitVec 32 := Scalar.extui v17
  let c0_i32_14 : BitVec 32 := 0#32
  let v19 : BitVec 1 := Scalar.cmpi .slt v1 c0_i32_14
  let v20 : BitVec 32 := Scalar.extui v19
  let v21 : BitVec 32 := Scalar.subi v18 v20
  let c2_i32 : BitVec 32 := 2#32
  let c0_i32_15 : BitVec 32 := 0#32
  let v22 : BitVec 1 := Scalar.cmpi .sgt c2_i32 c0_i32_15
  let v23 : BitVec 32 := Scalar.extui v22
  let c0_i32_16 : BitVec 32 := 0#32
  let v24 : BitVec 1 := Scalar.cmpi .slt c2_i32 c0_i32_16
  let v25 : BitVec 32 := Scalar.extui v24
  let v26 : BitVec 32 := Scalar.subi v23 v25
  let v27 : BitVec 1 := Scalar.cmpi .ne v21 v26
  let v28 : BitVec 32 := Scalar.remsi v1 c2_i32
  let c0_i32_17 : BitVec 32 := 0#32
  let v29 : BitVec 1 := Scalar.cmpi .ne v28 c0_i32_17
  let v30 : BitVec 1 := Scalar.andi v27 v29
  let v16 : BitVec 32 := Scalar.divsi v1 c2_i32
  let c1_i32 : BitVec 32 := 1#32
  let v31 : BitVec 32 := Scalar.subi v16 c1_i32
  let v32 : BitVec 32 := Scalar.select v30 v31 v16
  let v33 : BitVec 32 := Scalar.subi v32 c0_i32_18
  let c1_i32_20 : BitVec 32 := 1#32
  let v35 : BitVec 32 := Scalar.divsi v33 c1_i32_20
  let v36 : BitVec 32 := Scalar.muli v35 c1_i32_20
  let v37 : BitVec 32 := Scalar.addi c0_i32_18 v36
  let c1_i32_22 : BitVec 32 := 1#32
  let arg25 : BitVec 32 := Scf.iv v37 c1_i32_22 k0_t4
  let v79 : BitVec 32 := Scalar.muli c2_i32_59 arg25
  let c1_i32_60 : BitVec 32 := 1#32
  let v80 : BitVec 32 := Scalar.addi v79 c1_i32_60
  let c2_i32_79 : BitVec 32 := 2#32
  let v98 : BitVec 32 := Scalar.addi v80 c2_i32_79
  let v99 : BitVec 1 := Scalar.cmpi .slt v98 v1
  let v100 : BitVec 32 := Scalar.extui v99
  let c0_i32_80 : BitVec 32 := 0#32
  let v101 : BitVec 1 := Scalar.cmpi .ne v100 c0_i32_80
  v101

def k0_off116 (i : grid0.Coords) (k0_t4 : Fin (k0_t4_loop i).trips) : Fin 1 → Nat :=
  let c2_i32_59 : BitVec 32 := 2#32
  let c0_i32_18 : BitVec 32 := 0#32
  let arg0 : BitVec 32 := BitVec.ofNat 32 (i 0).val
  let c0_i32 : BitVec 32 := 0#32
  let v0 : BitVec 1 := Scalar.cmpi .eq arg0 c0_i32
  let c222_i32 : BitVec 32 := 222#32
  let c170_i32 : BitVec 32 := 170#32
  let v1 : BitVec 32 := Scalar.select v0 c222_i32 c170_i32
  let c0_i32_13 : BitVec 32 := 0#32
  let v17 : BitVec 1 := Scalar.cmpi .sgt v1 c0_i32_13
  let v18 : BitVec 32 := Scalar.extui v17
  let c0_i32_14 : BitVec 32 := 0#32
  let v19 : BitVec 1 := Scalar.cmpi .slt v1 c0_i32_14
  let v20 : BitVec 32 := Scalar.extui v19
  let v21 : BitVec 32 := Scalar.subi v18 v20
  let c2_i32 : BitVec 32 := 2#32
  let c0_i32_15 : BitVec 32 := 0#32
  let v22 : BitVec 1 := Scalar.cmpi .sgt c2_i32 c0_i32_15
  let v23 : BitVec 32 := Scalar.extui v22
  let c0_i32_16 : BitVec 32 := 0#32
  let v24 : BitVec 1 := Scalar.cmpi .slt c2_i32 c0_i32_16
  let v25 : BitVec 32 := Scalar.extui v24
  let v26 : BitVec 32 := Scalar.subi v23 v25
  let v27 : BitVec 1 := Scalar.cmpi .ne v21 v26
  let v28 : BitVec 32 := Scalar.remsi v1 c2_i32
  let c0_i32_17 : BitVec 32 := 0#32
  let v29 : BitVec 1 := Scalar.cmpi .ne v28 c0_i32_17
  let v30 : BitVec 1 := Scalar.andi v27 v29
  let v16 : BitVec 32 := Scalar.divsi v1 c2_i32
  let c1_i32 : BitVec 32 := 1#32
  let v31 : BitVec 32 := Scalar.subi v16 c1_i32
  let v32 : BitVec 32 := Scalar.select v30 v31 v16
  let v33 : BitVec 32 := Scalar.subi v32 c0_i32_18
  let c1_i32_20 : BitVec 32 := 1#32
  let v35 : BitVec 32 := Scalar.divsi v33 c1_i32_20
  let v36 : BitVec 32 := Scalar.muli v35 c1_i32_20
  let v37 : BitVec 32 := Scalar.addi c0_i32_18 v36
  let c1_i32_22 : BitVec 32 := 1#32
  let arg25 : BitVec 32 := Scf.iv v37 c1_i32_22 k0_t4
  let v79 : BitVec 32 := Scalar.muli c2_i32_59 arg25
  let c1_i32_60 : BitVec 32 := 1#32
  let v80 : BitVec 32 := Scalar.addi v79 c1_i32_60
  let c2_i32_82 : BitVec 32 := 2#32
  let v102 : BitVec 32 := Scalar.addi v80 c2_i32_82
  let c80_i32_83 : BitVec 32 := 80#32
  let v103 : BitVec 32 := Scalar.muli v102 c80_i32_83
  ![v103.toNat]
def k0_off117 (i : grid0.Coords) (c0_i32_24 : BitVec 32) : Fin 2 → Nat :=
  let arg1 : BitVec 32 := BitVec.ofNat 32 (i 1).val
  let c392_i32 : BitVec 32 := 392#32
  let v2 : BitVec 32 := Scalar.muli arg1 c392_i32
  let arg0 : BitVec 32 := BitVec.ofNat 32 (i 0).val
  let c222_i32_0 : BitVec 32 := 222#32
  let v3 : BitVec 32 := Scalar.muli arg0 c222_i32_0
  let v4 : BitVec 32 := Scalar.addi v2 v3
  let c8_i32 : BitVec 32 := 8#32
  let v5 : BitVec 32 := Scalar.muli v4 c8_i32
  let c0_i32 : BitVec 32 := 0#32
  let v0 : BitVec 1 := Scalar.cmpi .eq arg0 c0_i32
  let c222_i32 : BitVec 32 := 222#32
  let c170_i32 : BitVec 32 := 170#32
  let v1 : BitVec 32 := Scalar.select v0 c222_i32 c170_i32
  let c2_i32_23 : BitVec 32 := 2#32
  let v40 : BitVec 32 := Scalar.subi v1 c2_i32_23
  let v41 : BitVec 32 := Scalar.addi v40 c0_i32_24
  let c8_i32_25 : BitVec 32 := 8#32
  let v42 : BitVec 32 := Scalar.muli v41 c8_i32_25
  let v43 : BitVec 32 := Scalar.addi v5 v42
  let c0_i32_26 : BitVec 32 := 0#32
  ![v43.toNat, 0]
abbrev grid1 : Pipeline.Grid := ⟨1, ![49], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1024x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S1024x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  shapeCasts_S50000x10_S500000 : S50000x10.ShapeCasts S500000
  pads_S500000_S505920_059200 : S500000.Pads (![0] : Fin 1 → Nat) ![5920] ![0] S505920
  h_S_ : 0 < S_.numel
  pads_S50000_S50592_05920 : S50000.Pads (![0] : Fin 1 → Nat) ![592] ![0] S50592
  inb_S17760_S80_0 : ∀ a, (![0] : Fin 1 → Nat) a + S80.size a ≤ S17760.size a
  inb_S100000x128_S100000x128_0_0 : ∀ a, (![0, 0] : Fin 2 → Nat) a + S100000x128.size a ≤ S100000x128.size a
  gathers_S100000x128_S80x128 : S100000x128.Gathers 0 S80x128
  inb_S1776_S8_0 : ∀ a, (![0] : Fin 1 → Nat) a + S8.size a ≤ S1776.size a
  gathers_S100000x128_S8x128 : S100000x128.Gathers 0 S8x128
  inb_S17760_S80_80 : ∀ a, (![80] : Fin 1 → Nat) a + S80.size a ≤ S17760.size a
  inb_S1776_S8_8 : ∀ a, (![8] : Fin 1 → Nat) a + S8.size a ≤ S1776.size a
  h_S17760 : 0 < S17760.numel
  h_S1x16 : 0 < S1x16.numel
  shapeCasts_S1x16_S16 : S1x16.ShapeCasts S16
  shapeCasts_S16_S1x16 : S16.ShapeCasts S1x16
  shapeCasts_S128_S1x128 : S128.ShapeCasts S1x128
  inb_S128x128_S128x128_0_0 : ∀ a, (![0, 0] : Fin 2 → Nat) a + S128x128.size a ≤ S128x128.size a
  h_S128x128 : 0 < S128x128.numel
  inb_S256x128_S128x128_0_0 : ∀ a, (![0, 0] : Fin 2 → Nat) a + S128x128.size a ≤ S256x128.size a
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S256x128_S128x128_128_0 : ∀ a, (![128, 0] : Fin 2 → Nat) a + S128x128.size a ≤ S256x128.size a
  broadcasts_S1x128_S1024x128 : S1x128.Broadcasts S1024x128
  dot_S128x128_S128x128_S128x128_1_0_0_1_n_n_wf : DotDims.WF S128x128 S128x128 S128x128 [1] [0] [0] [1] [] []
  dot_S1x128_S128x128_S1x128_1_0_0_1_n_n_wf : DotDims.WF S1x128 S128x128 S1x128 [1] [0] [0] [1] [] []
  dot_S1024x128_S128x128_S1024x128_1_0_0_1_n_n_wf : DotDims.WF S1024x128 S128x128 S1024x128 [1] [0] [0] [1] [] []
  hcc0_scratch9 : 0 + S_.numel ≤ 21
  hcc0_scratch10 : 1 + S_.numel ≤ 21
  hcc0_scratch11 : 2 + S_.numel ≤ 21
  hcc0_scratch12 : 3 + S_.numel ≤ 21
  hcc0_scratch13 : 4 + S_.numel ≤ 21
  hcc0_scratch14 : 5 + S_.numel ≤ 21
  hcc0_scratch15 : 6 + S_.numel ≤ 21
  hcc0_scratch16 : 7 + S_.numel ≤ 21
  hcc0_scoped0 : 8 + S_.numel ≤ 21
  hcc0_scoped1 : 9 + S_.numel ≤ 21
  hcc0_scoped2 : 10 + S_.numel ≤ 21
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S17760.size a ≤ S505920.size a
  k0_off2_inb : ∀ i : grid0.Coords, ∀ a, (k0_off2 i) a + S1776.size a ≤ S50592.size a
  k0_t1_ok : ∀ i : grid0.Coords, (k0_t1_loop i).OK
  k0_off3_inb : ∀ (i : grid0.Coords) (k0_t1 : Fin (k0_t1_loop i).trips), ∀ (k0_h1 : k0_cond1 i k0_t1 = 1#1), ∀ a, (k0_off3 i k0_t1) a + S8x128.size a ≤ S50176x128.size a
  k0_off4_inb : ∀ (i : grid0.Coords) (k0_t1 : Fin (k0_t1_loop i).trips), ∀ (k0_h1 : k0_cond1 i k0_t1 = 1#1), ∀ a, (k0_off4 i k0_t1) a + S8.size a ≤ S1776.size a
  k0_off5_inb : ∀ (i : grid0.Coords) (k0_t1 : Fin (k0_t1_loop i).trips), ∀ (r : Fin 2), ∀ a, (k0_off5 i k0_t1 (BitVec.ofNat 32 r.val)) a + S80.size a ≤ S17760.size a
  k0_t2_ok : k0_t2_loop.OK
  k0_off6_inb : ∀ k0_t2 : Fin k0_t2_loop.trips, ∀ a, (k0_off6 k0_t2) a + S1x16.size a ≤ S80x128.size a
  k0_off7_inb : ∀ k0_t2 : Fin k0_t2_loop.trips, ∀ (r : Fin 9), ∀ a, (k0_off7 k0_t2 (BitVec.ofNat 32 (1 + r.val))) a + S1x16.size a ≤ S80x128.size a
  k0_off8_inb : ∀ k0_t2 : Fin k0_t2_loop.trips, ∀ a, (k0_off8 k0_t2) a + S1x16.size a ≤ S8x128.size a
  k0_off9_inb : ∀ k0_t2 : Fin k0_t2_loop.trips, ∀ a, (k0_off9 k0_t2) a + S1x16.size a ≤ S80x128.size a
  k0_off10_inb : ∀ k0_t2 : Fin k0_t2_loop.trips, ∀ (r : Fin 9), ∀ a, (k0_off10 k0_t2 (BitVec.ofNat 32 (1 + r.val))) a + S1x16.size a ≤ S80x128.size a
  k0_off11_inb : ∀ k0_t2 : Fin k0_t2_loop.trips, ∀ a, (k0_off11 k0_t2) a + S1x16.size a ≤ S8x128.size a
  k0_off12_inb : ∀ k0_t2 : Fin k0_t2_loop.trips, ∀ a, (k0_off12 k0_t2) a + S1x16.size a ≤ S80x128.size a
  k0_off13_inb : ∀ k0_t2 : Fin k0_t2_loop.trips, ∀ (r : Fin 9), ∀ a, (k0_off13 k0_t2 (BitVec.ofNat 32 (1 + r.val))) a + S1x16.size a ≤ S80x128.size a
  k0_off14_inb : ∀ k0_t2 : Fin k0_t2_loop.trips, ∀ a, (k0_off14 k0_t2) a + S1x16.size a ≤ S8x128.size a
  k0_off15_inb : ∀ k0_t2 : Fin k0_t2_loop.trips, ∀ a, (k0_off15 k0_t2) a + S1x16.size a ≤ S80x128.size a
  k0_off16_inb : ∀ k0_t2 : Fin k0_t2_loop.trips, ∀ (r : Fin 9), ∀ a, (k0_off16 k0_t2 (BitVec.ofNat 32 (1 + r.val))) a + S1x16.size a ≤ S80x128.size a
  k0_off17_inb : ∀ k0_t2 : Fin k0_t2_loop.trips, ∀ a, (k0_off17 k0_t2) a + S1x16.size a ≤ S8x128.size a
  k0_off18_inb : ∀ k0_t2 : Fin k0_t2_loop.trips, ∀ a, (k0_off18 k0_t2) a + S1x16.size a ≤ S80x128.size a
  k0_off19_inb : ∀ k0_t2 : Fin k0_t2_loop.trips, ∀ (r : Fin 9), ∀ a, (k0_off19 k0_t2 (BitVec.ofNat 32 (1 + r.val))) a + S1x16.size a ≤ S80x128.size a
  k0_off20_inb : ∀ k0_t2 : Fin k0_t2_loop.trips, ∀ a, (k0_off20 k0_t2) a + S1x16.size a ≤ S8x128.size a
  k0_off21_inb : ∀ k0_t2 : Fin k0_t2_loop.trips, ∀ a, (k0_off21 k0_t2) a + S1x16.size a ≤ S80x128.size a
  k0_off22_inb : ∀ k0_t2 : Fin k0_t2_loop.trips, ∀ (r : Fin 9), ∀ a, (k0_off22 k0_t2 (BitVec.ofNat 32 (1 + r.val))) a + S1x16.size a ≤ S80x128.size a
  k0_off23_inb : ∀ k0_t2 : Fin k0_t2_loop.trips, ∀ a, (k0_off23 k0_t2) a + S1x16.size a ≤ S8x128.size a
  k0_off24_inb : ∀ k0_t2 : Fin k0_t2_loop.trips, ∀ a, (k0_off24 k0_t2) a + S1x16.size a ≤ S80x128.size a
  k0_off25_inb : ∀ k0_t2 : Fin k0_t2_loop.trips, ∀ (r : Fin 9), ∀ a, (k0_off25 k0_t2 (BitVec.ofNat 32 (1 + r.val))) a + S1x16.size a ≤ S80x128.size a
  k0_off26_inb : ∀ k0_t2 : Fin k0_t2_loop.trips, ∀ a, (k0_off26 k0_t2) a + S1x16.size a ≤ S8x128.size a
  k0_off27_inb : ∀ k0_t2 : Fin k0_t2_loop.trips, ∀ a, (k0_off27 k0_t2) a + S1x16.size a ≤ S80x128.size a
  k0_off28_inb : ∀ k0_t2 : Fin k0_t2_loop.trips, ∀ (r : Fin 9), ∀ a, (k0_off28 k0_t2 (BitVec.ofNat 32 (1 + r.val))) a + S1x16.size a ≤ S80x128.size a
  k0_off29_inb : ∀ k0_t2 : Fin k0_t2_loop.trips, ∀ a, (k0_off29 k0_t2) a + S1x16.size a ≤ S8x128.size a
  k0_off30_inb : ∀ (i : grid0.Coords) (k0_t1 : Fin (k0_t1_loop i).trips), ∀ (r : Fin 2), ∀ a, (k0_off30 i k0_t1 (BitVec.ofNat 32 r.val)) a + S8.size a ≤ S1776.size a
  k0_off31_inb : ∀ (i : grid0.Coords) (k0_t1 : Fin (k0_t1_loop i).trips), ∀ (r : Fin 2), ∀ a, (k0_off31 i k0_t1 (BitVec.ofNat 32 r.val)) a + S8x128.size a ≤ S50176x128.size a
  k0_off32_inb : ∀ (i : grid0.Coords) (k0_t1 : Fin (k0_t1_loop i).trips), ∀ (k0_h2 : k0_cond2 i k0_t1 = 1#1), ∀ a, (k0_off32 i k0_t1) a + S80.size a ≤ S17760.size a
  k0_off33_inb : ∀ (i : grid0.Coords) (k0_t1 : Fin (k0_t1_loop i).trips), ∀ (k0_h3 : k0_cond3 i k0_t1 = 1#1), ∀ a, (k0_off33 i k0_t1) a + S8x128.size a ≤ S50176x128.size a
  k0_off34_inb : ∀ (i : grid0.Coords) (k0_t1 : Fin (k0_t1_loop i).trips), ∀ (k0_h3 : k0_cond3 i k0_t1 = 1#1), ∀ a, (k0_off34 i k0_t1) a + S8.size a ≤ S1776.size a
  k0_t3_ok : k0_t3_loop.OK
  k0_off35_inb : ∀ k0_t3 : Fin k0_t3_loop.trips, ∀ a, (k0_off35 k0_t3) a + S1x16.size a ≤ S80x128.size a
  k0_off36_inb : ∀ k0_t3 : Fin k0_t3_loop.trips, ∀ (r : Fin 9), ∀ a, (k0_off36 k0_t3 (BitVec.ofNat 32 (1 + r.val))) a + S1x16.size a ≤ S80x128.size a
  k0_off37_inb : ∀ k0_t3 : Fin k0_t3_loop.trips, ∀ a, (k0_off37 k0_t3) a + S1x16.size a ≤ S8x128.size a
  k0_off38_inb : ∀ k0_t3 : Fin k0_t3_loop.trips, ∀ a, (k0_off38 k0_t3) a + S1x16.size a ≤ S80x128.size a
  k0_off39_inb : ∀ k0_t3 : Fin k0_t3_loop.trips, ∀ (r : Fin 9), ∀ a, (k0_off39 k0_t3 (BitVec.ofNat 32 (1 + r.val))) a + S1x16.size a ≤ S80x128.size a
  k0_off40_inb : ∀ k0_t3 : Fin k0_t3_loop.trips, ∀ a, (k0_off40 k0_t3) a + S1x16.size a ≤ S8x128.size a
  k0_off41_inb : ∀ k0_t3 : Fin k0_t3_loop.trips, ∀ a, (k0_off41 k0_t3) a + S1x16.size a ≤ S80x128.size a
  k0_off42_inb : ∀ k0_t3 : Fin k0_t3_loop.trips, ∀ (r : Fin 9), ∀ a, (k0_off42 k0_t3 (BitVec.ofNat 32 (1 + r.val))) a + S1x16.size a ≤ S80x128.size a
  k0_off43_inb : ∀ k0_t3 : Fin k0_t3_loop.trips, ∀ a, (k0_off43 k0_t3) a + S1x16.size a ≤ S8x128.size a
  k0_off44_inb : ∀ k0_t3 : Fin k0_t3_loop.trips, ∀ a, (k0_off44 k0_t3) a + S1x16.size a ≤ S80x128.size a
  k0_off45_inb : ∀ k0_t3 : Fin k0_t3_loop.trips, ∀ (r : Fin 9), ∀ a, (k0_off45 k0_t3 (BitVec.ofNat 32 (1 + r.val))) a + S1x16.size a ≤ S80x128.size a
  k0_off46_inb : ∀ k0_t3 : Fin k0_t3_loop.trips, ∀ a, (k0_off46 k0_t3) a + S1x16.size a ≤ S8x128.size a
  k0_off47_inb : ∀ k0_t3 : Fin k0_t3_loop.trips, ∀ a, (k0_off47 k0_t3) a + S1x16.size a ≤ S80x128.size a
  k0_off48_inb : ∀ k0_t3 : Fin k0_t3_loop.trips, ∀ (r : Fin 9), ∀ a, (k0_off48 k0_t3 (BitVec.ofNat 32 (1 + r.val))) a + S1x16.size a ≤ S80x128.size a
  k0_off49_inb : ∀ k0_t3 : Fin k0_t3_loop.trips, ∀ a, (k0_off49 k0_t3) a + S1x16.size a ≤ S8x128.size a
  k0_off50_inb : ∀ k0_t3 : Fin k0_t3_loop.trips, ∀ a, (k0_off50 k0_t3) a + S1x16.size a ≤ S80x128.size a
  k0_off51_inb : ∀ k0_t3 : Fin k0_t3_loop.trips, ∀ (r : Fin 9), ∀ a, (k0_off51 k0_t3 (BitVec.ofNat 32 (1 + r.val))) a + S1x16.size a ≤ S80x128.size a
  k0_off52_inb : ∀ k0_t3 : Fin k0_t3_loop.trips, ∀ a, (k0_off52 k0_t3) a + S1x16.size a ≤ S8x128.size a
  k0_off53_inb : ∀ k0_t3 : Fin k0_t3_loop.trips, ∀ a, (k0_off53 k0_t3) a + S1x16.size a ≤ S80x128.size a
  k0_off54_inb : ∀ k0_t3 : Fin k0_t3_loop.trips, ∀ (r : Fin 9), ∀ a, (k0_off54 k0_t3 (BitVec.ofNat 32 (1 + r.val))) a + S1x16.size a ≤ S80x128.size a
  k0_off55_inb : ∀ k0_t3 : Fin k0_t3_loop.trips, ∀ a, (k0_off55 k0_t3) a + S1x16.size a ≤ S8x128.size a
  k0_off56_inb : ∀ k0_t3 : Fin k0_t3_loop.trips, ∀ a, (k0_off56 k0_t3) a + S1x16.size a ≤ S80x128.size a
  k0_off57_inb : ∀ k0_t3 : Fin k0_t3_loop.trips, ∀ (r : Fin 9), ∀ a, (k0_off57 k0_t3 (BitVec.ofNat 32 (1 + r.val))) a + S1x16.size a ≤ S80x128.size a
  k0_off58_inb : ∀ k0_t3 : Fin k0_t3_loop.trips, ∀ a, (k0_off58 k0_t3) a + S1x16.size a ≤ S8x128.size a
  k0_off59_inb : ∀ (i : grid0.Coords) (k0_t1 : Fin (k0_t1_loop i).trips), ∀ (k0_h4 : k0_cond4 i k0_t1 = 1#1), ∀ a, (k0_off59 i k0_t1) a + S80.size a ≤ S17760.size a
  k0_t4_ok : ∀ i : grid0.Coords, (k0_t4_loop i).OK
  k0_off60_inb : ∀ (i : grid0.Coords) (k0_t4 : Fin (k0_t4_loop i).trips), ∀ (k0_h5 : k0_cond5 i k0_t4 = 1#1), ∀ a, (k0_off60 i k0_t4) a + S8x128.size a ≤ S50176x128.size a
  k0_off61_inb : ∀ (i : grid0.Coords) (k0_t4 : Fin (k0_t4_loop i).trips), ∀ (k0_h5 : k0_cond5 i k0_t4 = 1#1), ∀ a, (k0_off61 i k0_t4) a + S8.size a ≤ S1776.size a
  k0_off62_inb : ∀ (i : grid0.Coords) (k0_t4 : Fin (k0_t4_loop i).trips), ∀ (r : Fin 2), ∀ a, (k0_off62 i k0_t4 (BitVec.ofNat 32 r.val)) a + S80.size a ≤ S17760.size a
  k0_t5_ok : k0_t5_loop.OK
  k0_off63_inb : ∀ k0_t5 : Fin k0_t5_loop.trips, ∀ a, (k0_off63 k0_t5) a + S1x16.size a ≤ S80x128.size a
  k0_off64_inb : ∀ k0_t5 : Fin k0_t5_loop.trips, ∀ (r : Fin 9), ∀ a, (k0_off64 k0_t5 (BitVec.ofNat 32 (1 + r.val))) a + S1x16.size a ≤ S80x128.size a
  k0_off65_inb : ∀ k0_t5 : Fin k0_t5_loop.trips, ∀ a, (k0_off65 k0_t5) a + S1x16.size a ≤ S8x128.size a
  k0_off66_inb : ∀ k0_t5 : Fin k0_t5_loop.trips, ∀ a, (k0_off66 k0_t5) a + S1x16.size a ≤ S80x128.size a
  k0_off67_inb : ∀ k0_t5 : Fin k0_t5_loop.trips, ∀ (r : Fin 9), ∀ a, (k0_off67 k0_t5 (BitVec.ofNat 32 (1 + r.val))) a + S1x16.size a ≤ S80x128.size a
  k0_off68_inb : ∀ k0_t5 : Fin k0_t5_loop.trips, ∀ a, (k0_off68 k0_t5) a + S1x16.size a ≤ S8x128.size a
  k0_off69_inb : ∀ k0_t5 : Fin k0_t5_loop.trips, ∀ a, (k0_off69 k0_t5) a + S1x16.size a ≤ S80x128.size a
  k0_off70_inb : ∀ k0_t5 : Fin k0_t5_loop.trips, ∀ (r : Fin 9), ∀ a, (k0_off70 k0_t5 (BitVec.ofNat 32 (1 + r.val))) a + S1x16.size a ≤ S80x128.size a
  k0_off71_inb : ∀ k0_t5 : Fin k0_t5_loop.trips, ∀ a, (k0_off71 k0_t5) a + S1x16.size a ≤ S8x128.size a
  k0_off72_inb : ∀ k0_t5 : Fin k0_t5_loop.trips, ∀ a, (k0_off72 k0_t5) a + S1x16.size a ≤ S80x128.size a
  k0_off73_inb : ∀ k0_t5 : Fin k0_t5_loop.trips, ∀ (r : Fin 9), ∀ a, (k0_off73 k0_t5 (BitVec.ofNat 32 (1 + r.val))) a + S1x16.size a ≤ S80x128.size a
  k0_off74_inb : ∀ k0_t5 : Fin k0_t5_loop.trips, ∀ a, (k0_off74 k0_t5) a + S1x16.size a ≤ S8x128.size a
  k0_off75_inb : ∀ k0_t5 : Fin k0_t5_loop.trips, ∀ a, (k0_off75 k0_t5) a + S1x16.size a ≤ S80x128.size a
  k0_off76_inb : ∀ k0_t5 : Fin k0_t5_loop.trips, ∀ (r : Fin 9), ∀ a, (k0_off76 k0_t5 (BitVec.ofNat 32 (1 + r.val))) a + S1x16.size a ≤ S80x128.size a
  k0_off77_inb : ∀ k0_t5 : Fin k0_t5_loop.trips, ∀ a, (k0_off77 k0_t5) a + S1x16.size a ≤ S8x128.size a
  k0_off78_inb : ∀ k0_t5 : Fin k0_t5_loop.trips, ∀ a, (k0_off78 k0_t5) a + S1x16.size a ≤ S80x128.size a
  k0_off79_inb : ∀ k0_t5 : Fin k0_t5_loop.trips, ∀ (r : Fin 9), ∀ a, (k0_off79 k0_t5 (BitVec.ofNat 32 (1 + r.val))) a + S1x16.size a ≤ S80x128.size a
  k0_off80_inb : ∀ k0_t5 : Fin k0_t5_loop.trips, ∀ a, (k0_off80 k0_t5) a + S1x16.size a ≤ S8x128.size a
  k0_off81_inb : ∀ k0_t5 : Fin k0_t5_loop.trips, ∀ a, (k0_off81 k0_t5) a + S1x16.size a ≤ S80x128.size a
  k0_off82_inb : ∀ k0_t5 : Fin k0_t5_loop.trips, ∀ (r : Fin 9), ∀ a, (k0_off82 k0_t5 (BitVec.ofNat 32 (1 + r.val))) a + S1x16.size a ≤ S80x128.size a
  k0_off83_inb : ∀ k0_t5 : Fin k0_t5_loop.trips, ∀ a, (k0_off83 k0_t5) a + S1x16.size a ≤ S8x128.size a
  k0_off84_inb : ∀ k0_t5 : Fin k0_t5_loop.trips, ∀ a, (k0_off84 k0_t5) a + S1x16.size a ≤ S80x128.size a
  k0_off85_inb : ∀ k0_t5 : Fin k0_t5_loop.trips, ∀ (r : Fin 9), ∀ a, (k0_off85 k0_t5 (BitVec.ofNat 32 (1 + r.val))) a + S1x16.size a ≤ S80x128.size a
  k0_off86_inb : ∀ k0_t5 : Fin k0_t5_loop.trips, ∀ a, (k0_off86 k0_t5) a + S1x16.size a ≤ S8x128.size a
  k0_off87_inb : ∀ (i : grid0.Coords) (k0_t4 : Fin (k0_t4_loop i).trips), ∀ (r : Fin 2), ∀ a, (k0_off87 i k0_t4 (BitVec.ofNat 32 r.val)) a + S8.size a ≤ S1776.size a
  k0_off88_inb : ∀ (i : grid0.Coords) (k0_t4 : Fin (k0_t4_loop i).trips), ∀ (r : Fin 2), ∀ a, (k0_off88 i k0_t4 (BitVec.ofNat 32 r.val)) a + S8x128.size a ≤ S50176x128.size a
  k0_off89_inb : ∀ (i : grid0.Coords) (k0_t4 : Fin (k0_t4_loop i).trips), ∀ (k0_h6 : k0_cond6 i k0_t4 = 1#1), ∀ a, (k0_off89 i k0_t4) a + S80.size a ≤ S17760.size a
  k0_off90_inb : ∀ (i : grid0.Coords) (k0_t4 : Fin (k0_t4_loop i).trips), ∀ (k0_h7 : k0_cond7 i k0_t4 = 1#1), ∀ a, (k0_off90 i k0_t4) a + S8x128.size a ≤ S50176x128.size a
  k0_off91_inb : ∀ (i : grid0.Coords) (k0_t4 : Fin (k0_t4_loop i).trips), ∀ (k0_h7 : k0_cond7 i k0_t4 = 1#1), ∀ a, (k0_off91 i k0_t4) a + S8.size a ≤ S1776.size a
  k0_t6_ok : k0_t6_loop.OK
  k0_off92_inb : ∀ k0_t6 : Fin k0_t6_loop.trips, ∀ a, (k0_off92 k0_t6) a + S1x16.size a ≤ S80x128.size a
  k0_off93_inb : ∀ k0_t6 : Fin k0_t6_loop.trips, ∀ (r : Fin 9), ∀ a, (k0_off93 k0_t6 (BitVec.ofNat 32 (1 + r.val))) a + S1x16.size a ≤ S80x128.size a
  k0_off94_inb : ∀ k0_t6 : Fin k0_t6_loop.trips, ∀ a, (k0_off94 k0_t6) a + S1x16.size a ≤ S8x128.size a
  k0_off95_inb : ∀ k0_t6 : Fin k0_t6_loop.trips, ∀ a, (k0_off95 k0_t6) a + S1x16.size a ≤ S80x128.size a
  k0_off96_inb : ∀ k0_t6 : Fin k0_t6_loop.trips, ∀ (r : Fin 9), ∀ a, (k0_off96 k0_t6 (BitVec.ofNat 32 (1 + r.val))) a + S1x16.size a ≤ S80x128.size a
  k0_off97_inb : ∀ k0_t6 : Fin k0_t6_loop.trips, ∀ a, (k0_off97 k0_t6) a + S1x16.size a ≤ S8x128.size a
  k0_off98_inb : ∀ k0_t6 : Fin k0_t6_loop.trips, ∀ a, (k0_off98 k0_t6) a + S1x16.size a ≤ S80x128.size a
  k0_off99_inb : ∀ k0_t6 : Fin k0_t6_loop.trips, ∀ (r : Fin 9), ∀ a, (k0_off99 k0_t6 (BitVec.ofNat 32 (1 + r.val))) a + S1x16.size a ≤ S80x128.size a
  k0_off100_inb : ∀ k0_t6 : Fin k0_t6_loop.trips, ∀ a, (k0_off100 k0_t6) a + S1x16.size a ≤ S8x128.size a
  k0_off101_inb : ∀ k0_t6 : Fin k0_t6_loop.trips, ∀ a, (k0_off101 k0_t6) a + S1x16.size a ≤ S80x128.size a
  k0_off102_inb : ∀ k0_t6 : Fin k0_t6_loop.trips, ∀ (r : Fin 9), ∀ a, (k0_off102 k0_t6 (BitVec.ofNat 32 (1 + r.val))) a + S1x16.size a ≤ S80x128.size a
  k0_off103_inb : ∀ k0_t6 : Fin k0_t6_loop.trips, ∀ a, (k0_off103 k0_t6) a + S1x16.size a ≤ S8x128.size a
  k0_off104_inb : ∀ k0_t6 : Fin k0_t6_loop.trips, ∀ a, (k0_off104 k0_t6) a + S1x16.size a ≤ S80x128.size a
  k0_off105_inb : ∀ k0_t6 : Fin k0_t6_loop.trips, ∀ (r : Fin 9), ∀ a, (k0_off105 k0_t6 (BitVec.ofNat 32 (1 + r.val))) a + S1x16.size a ≤ S80x128.size a
  k0_off106_inb : ∀ k0_t6 : Fin k0_t6_loop.trips, ∀ a, (k0_off106 k0_t6) a + S1x16.size a ≤ S8x128.size a
  k0_off107_inb : ∀ k0_t6 : Fin k0_t6_loop.trips, ∀ a, (k0_off107 k0_t6) a + S1x16.size a ≤ S80x128.size a
  k0_off108_inb : ∀ k0_t6 : Fin k0_t6_loop.trips, ∀ (r : Fin 9), ∀ a, (k0_off108 k0_t6 (BitVec.ofNat 32 (1 + r.val))) a + S1x16.size a ≤ S80x128.size a
  k0_off109_inb : ∀ k0_t6 : Fin k0_t6_loop.trips, ∀ a, (k0_off109 k0_t6) a + S1x16.size a ≤ S8x128.size a
  k0_off110_inb : ∀ k0_t6 : Fin k0_t6_loop.trips, ∀ a, (k0_off110 k0_t6) a + S1x16.size a ≤ S80x128.size a
  k0_off111_inb : ∀ k0_t6 : Fin k0_t6_loop.trips, ∀ (r : Fin 9), ∀ a, (k0_off111 k0_t6 (BitVec.ofNat 32 (1 + r.val))) a + S1x16.size a ≤ S80x128.size a
  k0_off112_inb : ∀ k0_t6 : Fin k0_t6_loop.trips, ∀ a, (k0_off112 k0_t6) a + S1x16.size a ≤ S8x128.size a
  k0_off113_inb : ∀ k0_t6 : Fin k0_t6_loop.trips, ∀ a, (k0_off113 k0_t6) a + S1x16.size a ≤ S80x128.size a
  k0_off114_inb : ∀ k0_t6 : Fin k0_t6_loop.trips, ∀ (r : Fin 9), ∀ a, (k0_off114 k0_t6 (BitVec.ofNat 32 (1 + r.val))) a + S1x16.size a ≤ S80x128.size a
  k0_off115_inb : ∀ k0_t6 : Fin k0_t6_loop.trips, ∀ a, (k0_off115 k0_t6) a + S1x16.size a ≤ S8x128.size a
  k0_off116_inb : ∀ (i : grid0.Coords) (k0_t4 : Fin (k0_t4_loop i).trips), ∀ (k0_h8 : k0_cond8 i k0_t4 = 1#1), ∀ a, (k0_off116 i k0_t4) a + S80.size a ≤ S17760.size a
  k0_off117_inb : ∀ i : grid0.Coords, ∀ (r : Fin 2), ∀ a, (k0_off117 i (BitVec.ofNat 32 r.val)) a + S8x128.size a ≤ S50176x128.size a
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x128.size a ≤ S50176x128.size a
  hwx1_0 : ∀ i : grid1.Coords, EltTy.bits .f32 = 32 ∨ (Rect.block (s := S50176x128) S1024x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x128.size a ≤ S50176x128.size a
  hwx1_1 : ∀ i : grid1.Coords, EltTy.bits .f32 = 32 ∨ (Rect.block (s := S50176x128) S1024x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x128.size a ≤ S256x128.size a
  hwx1_3 : ∀ i : grid1.Coords, EltTy.bits .f32 = 32 ∨ (Rect.block (s := S256x128) S256x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hstart1_6 : ∀ (i : grid1.Coords) a, cc1_transform_6 i a * S1024x128.size a < S50000x128.size a
  hwx1_6 : ∀ i : grid1.Coords, EltTy.bits .f32 = 32 ∨ (Rect.unit (s := S50000x128) (fun a => cc1_transform_6 i a * S1024x128.size a) (fun a => (Pipeline.Clip.of (cc1_transform_6 i a) (S1024x128.size a) (S50000x128.size a)).extent (S1024x128.size a)) fun a => Pipeline.Clip.inb (Pipeline.Clip.ok_of (hstart1_6 i a))).WholeWords (EltTy.packing .f32)
  hwxs1_6 : ∀ i : grid1.Coords, EltTy.bits .f32 = 32 ∨ (Rect.unit (s := S1024x128) (fun _ => 0) (fun a => (Pipeline.Clip.of (cc1_transform_6 i a) (S1024x128.size a) (S50000x128.size a)).extent (S1024x128.size a)) fun a => (Nat.zero_add _).trans_le (Pipeline.Clip.extent_le (Pipeline.Clip.ok_of (hstart1_6 i a)))).WholeWords (EltTy.packing .f32)

variable [Facts₀]

abbrev cc0_scratch9 : DmaSems sig S_ := SemArray.consecutive 0 S_ hcc0_scratch9
abbrev cc0_scratch10 : DmaSems sig S_ := SemArray.consecutive 1 S_ hcc0_scratch10
abbrev cc0_scratch11 : DmaSems sig S_ := SemArray.consecutive 2 S_ hcc0_scratch11
abbrev cc0_scratch12 : DmaSems sig S_ := SemArray.consecutive 3 S_ hcc0_scratch12
abbrev cc0_scratch13 : DmaSems sig S_ := SemArray.consecutive 4 S_ hcc0_scratch13
abbrev cc0_scratch14 : DmaSems sig S_ := SemArray.consecutive 5 S_ hcc0_scratch14
abbrev cc0_scratch15 : DmaSems sig S_ := SemArray.consecutive 6 S_ hcc0_scratch15
abbrev cc0_scratch16 : DmaSems sig S_ := SemArray.consecutive 7 S_ hcc0_scratch16
abbrev cc0_scoped0 : DmaSems sig S_ := SemArray.consecutive 8 S_ hcc0_scoped0
abbrev cc0_scoped1 : DmaSems sig S_ := SemArray.consecutive 9 S_ hcc0_scoped1
abbrev cc0_scoped2 : DmaSems sig S_ := SemArray.consecutive 10 S_ hcc0_scoped2
def dot_S128x128_S128x128_S128x128_1_0_0_1_n_n : DotDims S128x128 S128x128 S128x128 where
  lhsContracting := [1]
  rhsContracting := [0]
  lhsNonContracting := [0]
  rhsNonContracting := [1]
  lhsBatch := []
  rhsBatch := []
  wf := dot_S128x128_S128x128_S128x128_1_0_0_1_n_n_wf
def dot_S1x128_S128x128_S1x128_1_0_0_1_n_n : DotDims S1x128 S128x128 S1x128 where
  lhsContracting := [1]
  rhsContracting := [0]
  lhsNonContracting := [0]
  rhsNonContracting := [1]
  lhsBatch := []
  rhsBatch := []
  wf := dot_S1x128_S128x128_S1x128_1_0_0_1_n_n_wf
def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf

abbrev win1_0 : Pipeline.Window sig grid1 :=
  Pipeline.Window.ofSpec (Memref.whole main_v5_1) S1024x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5_0) S1024x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S256x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v6) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v7) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpecClip (Memref.whole main_v8) S1024x128.size cc1_transform_6 reads1_6 true false 2 stage1_6 sem1_6
    hrank1 hreads1_6 hstart1_6 nbuf1_6 (Memref.isWhole_whole _) hwx1_6 hwxs1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S50000 : Shape := ⟨1, ![50000]⟩
abbrev S50000x10 : Shape := ⟨2, ![50000, 10]⟩
abbrev S100000x128 : Shape := ⟨2, ![100000, 128]⟩
abbrev S128x128 : Shape := ⟨2, ![128, 128]⟩
abbrev S128 : Shape := ⟨1, ![128]⟩
abbrev S256x128 : Shape := ⟨2, ![256, 128]⟩
abbrev S_ : Shape := ⟨0, ![]⟩
abbrev S50000x1 : Shape := ⟨2, ![50000, 1]⟩
abbrev S50000x10x1 : Shape := ⟨3, ![50000, 10, 1]⟩
abbrev S1 : Shape := ⟨1, ![1]⟩
abbrev S1x1x1 : Shape := ⟨3, ![1, 1, 1]⟩
abbrev S50000x10x128 : Shape := ⟨3, ![50000, 10, 128]⟩
abbrev S50000x128 : Shape := ⟨2, ![50000, 128]⟩
abbrev S1x1 : Shape := ⟨2, ![1, 1]⟩
abbrev S1x128 : Shape := ⟨2, ![1, 128]⟩
abbrev S50000x256 : Shape := ⟨2, ![50000, 256]⟩

abbrev nBuf : Space → Nat
  | .hbm => 78
  | .vmem => 0
  | .smem => 0
  | _ => 0

abbrev bufTy : (tb : Table) → Fin (tcTables nBuf tb) → BufTy
  | .hbm, ⟨0, _⟩ => ⟨S50000, .i32⟩
  | .hbm, ⟨1, _⟩ => ⟨S50000x10, .i32⟩
  | .hbm, ⟨2, _⟩ => ⟨S50000x10, .f32⟩
  | .hbm, ⟨3, _⟩ => ⟨S100000x128, .f32⟩
  | .hbm, ⟨4, _⟩ => ⟨S128x128, .f32⟩
  | .hbm, ⟨5, _⟩ => ⟨S128, .f32⟩
  | .hbm, ⟨6, _⟩ => ⟨S256x128, .f32⟩
  | .hbm, ⟨7, _⟩ => ⟨S128, .f32⟩
  | .hbm, ⟨8, _⟩ => ⟨S_, .f32⟩
  | .hbm, ⟨9, _⟩ => ⟨S50000, .f32⟩
  | .hbm, ⟨10, _⟩ => ⟨S50000x1, .f32⟩
  | .hbm, ⟨11, _⟩ => ⟨S50000x10, .f32⟩
  | .hbm, ⟨12, _⟩ => ⟨S50000x10, .f32⟩
  | .hbm, ⟨13, _⟩ => ⟨S_, .i32⟩
  | .hbm, ⟨14, _⟩ => ⟨S50000x10, .i32⟩
  | .hbm, ⟨15, _⟩ => ⟨S50000x10, .i1⟩
  | .hbm, ⟨16, _⟩ => ⟨S_, .i32⟩
  | .hbm, ⟨17, _⟩ => ⟨S50000x10, .i32⟩
  | .hbm, ⟨18, _⟩ => ⟨S50000x10, .i32⟩
  | .hbm, ⟨19, _⟩ => ⟨S50000x10, .i32⟩
  | .hbm, ⟨20, _⟩ => ⟨S50000x10x1, .i32⟩
  | .hbm, ⟨21, _⟩ => ⟨S1, .i32⟩
  | .hbm, ⟨22, _⟩ => ⟨S_, .i32⟩
  | .hbm, ⟨23, _⟩ => ⟨S50000x10x1, .i32⟩
  | .hbm, ⟨24, _⟩ => ⟨S50000x10x1, .i1⟩
  | .hbm, ⟨25, _⟩ => ⟨S1x1x1, .i32⟩
  | .hbm, ⟨26, _⟩ => ⟨S50000x10x1, .i32⟩
  | .hbm, ⟨27, _⟩ => ⟨S50000x10x1, .i1⟩
  | .hbm, ⟨28, _⟩ => ⟨S50000x10x1, .i1⟩
  | .hbm, ⟨29, _⟩ => ⟨S_, .i1⟩
  | .hbm, ⟨30, _⟩ => ⟨S50000x10, .i1⟩
  | .hbm, ⟨31, _⟩ => ⟨S50000x10x128, .f32⟩
  | .hbm, ⟨32, _⟩ => ⟨S50000x10x128, .i1⟩
  | .hbm, ⟨33, _⟩ => ⟨S_, .f32⟩
  | .hbm, ⟨34, _⟩ => ⟨S50000x10x128, .f32⟩
  | .hbm, ⟨35, _⟩ => ⟨S50000x10x128, .f32⟩
  | .hbm, ⟨36, _⟩ => ⟨S50000x128, .f32⟩
  | .hbm, ⟨37, _⟩ => ⟨S_, .i32⟩
  | .hbm, ⟨38, _⟩ => ⟨S50000, .i32⟩
  | .hbm, ⟨39, _⟩ => ⟨S50000, .i1⟩
  | .hbm, ⟨40, _⟩ => ⟨S_, .i32⟩
  | .hbm, ⟨41, _⟩ => ⟨S50000, .i32⟩
  | .hbm, ⟨42, _⟩ => ⟨S50000, .i32⟩
  | .hbm, ⟨43, _⟩ => ⟨S50000, .i32⟩
  | .hbm, ⟨44, _⟩ => ⟨S50000x1, .i32⟩
  | .hbm, ⟨45, _⟩ => ⟨S1, .i32⟩
  | .hbm, ⟨46, _⟩ => ⟨S_, .i32⟩
  | .hbm, ⟨47, _⟩ => ⟨S50000x1, .i32⟩
  | .hbm, ⟨48, _⟩ => ⟨S50000x1, .i1⟩
  | .hbm, ⟨49, _⟩ => ⟨S1x1, .i32⟩
  | .hbm, ⟨50, _⟩ => ⟨S50000x1, .i32⟩
  | .hbm, ⟨51, _⟩ => ⟨S50000x1, .i1⟩
  | .hbm, ⟨52, _⟩ => ⟨S50000x1, .i1⟩
  | .hbm, ⟨53, _⟩ => ⟨S_, .i1⟩
  | .hbm, ⟨54, _⟩ => ⟨S50000, .i1⟩
  | .hbm, ⟨55, _⟩ => ⟨S50000x128, .f32⟩
  | .hbm, ⟨56, _⟩ => ⟨S50000x128, .i1⟩
  | .hbm, ⟨57, _⟩ => ⟨S_, .f32⟩
  | .hbm, ⟨58, _⟩ => ⟨S50000x128, .f32⟩
  | .hbm, ⟨59, _⟩ => ⟨S50000x128, .f32⟩
  | .hbm, ⟨60, _⟩ => ⟨S50000x128, .f32⟩
  | .hbm, ⟨61, _⟩ => ⟨S1x128, .f32⟩
  | .hbm, ⟨62, _⟩ => ⟨S50000x128, .f32⟩
  | .hbm, ⟨63, _⟩ => ⟨S50000x128, .f32⟩
  | .hbm, ⟨64, _⟩ => ⟨S50000x256, .f32⟩
  | .hbm, ⟨65, _⟩ => ⟨S50000x128, .f32⟩
  | .hbm, ⟨66, _⟩ => ⟨S1x128, .f32⟩
  | .hbm, ⟨67, _⟩ => ⟨S50000x128, .f32⟩
  | .hbm, ⟨68, _⟩ => ⟨S50000x128, .f32⟩
  | .hbm, ⟨69, _⟩ => ⟨S50000x128, .f32⟩
  | .hbm, ⟨70, _⟩ => ⟨S50000x128, .f32⟩
  | .hbm, ⟨71, _⟩ => ⟨S_, .f32⟩
  | .hbm, ⟨72, _⟩ => ⟨S50000x128, .f32⟩
  | .hbm, ⟨73, _⟩ => ⟨S50000x128, .f32⟩
  | .hbm, ⟨74, _⟩ => ⟨S_, .f32⟩
  | .hbm, ⟨75, _⟩ => ⟨S50000x128, .f32⟩
  | .hbm, ⟨76, _⟩ => ⟨S50000x128, .f32⟩
  | .hbm, ⟨77, _⟩ => ⟨S50000x128, .f32⟩
  | _, _ => ⟨S50000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_call0_c : Ref sig .tc := ⟨.hbm, 13, rfl⟩
abbrev main_call0_v0 : Ref sig .tc := ⟨.hbm, 14, rfl⟩
abbrev main_call0_v1 : Ref sig .tc := ⟨.hbm, 15, rfl⟩
abbrev main_call0_c_0 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_c_1 : Ref sig .tc := ⟨.hbm, 21, rfl⟩
abbrev main_call0_c_2 : Ref sig .tc := ⟨.hbm, 22, rfl⟩
abbrev main_call0_v6 : Ref sig .tc := ⟨.hbm, 23, rfl⟩
abbrev main_call0_v7 : Ref sig .tc := ⟨.hbm, 24, rfl⟩
abbrev main_call0_v8 : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_c_3 : Ref sig .tc := ⟨.hbm, 29, rfl⟩
abbrev main_call0_v12 : Ref sig .tc := ⟨.hbm, 30, rfl⟩
abbrev main_call0_v13 : Ref sig .tc := ⟨.hbm, 31, rfl⟩
abbrev main_call0_v14 : Ref sig .tc := ⟨.hbm, 32, rfl⟩
abbrev main_call0_cst : Ref sig .tc := ⟨.hbm, 33, rfl⟩
abbrev main_call0_v15 : Ref sig .tc := ⟨.hbm, 34, rfl⟩
abbrev main_v4 : Ref sig .tc := ⟨.hbm, 35, rfl⟩
abbrev main_v5 : Ref sig .tc := ⟨.hbm, 36, rfl⟩
abbrev main_call1_c : Ref sig .tc := ⟨.hbm, 37, rfl⟩
abbrev main_call1_v0 : Ref sig .tc := ⟨.hbm, 38, rfl⟩
abbrev main_call1_v1 : Ref sig .tc := ⟨.hbm, 39, rfl⟩
abbrev main_call1_c_0 : Ref sig .tc := ⟨.hbm, 40, rfl⟩
abbrev main_call1_v2 : Ref sig .tc := ⟨.hbm, 41, rfl⟩
abbrev main_call1_v3 : Ref sig .tc := ⟨.hbm, 42, rfl⟩
abbrev main_call1_v4 : Ref sig .tc := ⟨.hbm, 43, rfl⟩
abbrev main_call1_v5 : Ref sig .tc := ⟨.hbm, 44, rfl⟩
abbrev main_call1_c_1 : Ref sig .tc := ⟨.hbm, 45, rfl⟩
abbrev main_call1_c_2 : Ref sig .tc := ⟨.hbm, 46, rfl⟩
abbrev main_call1_v6 : Ref sig .tc := ⟨.hbm, 47, rfl⟩
abbrev main_call1_v7 : Ref sig .tc := ⟨.hbm, 48, rfl⟩
abbrev main_call1_v8 : Ref sig .tc := ⟨.hbm, 49, rfl⟩
abbrev main_call1_v9 : Ref sig .tc := ⟨.hbm, 50, rfl⟩
abbrev main_call1_v10 : Ref sig .tc := ⟨.hbm, 51, rfl⟩
abbrev main_call1_v11 : Ref sig .tc := ⟨.hbm, 52, rfl⟩
abbrev main_call1_c_3 : Ref sig .tc := ⟨.hbm, 53, rfl⟩
abbrev main_call1_v12 : Ref sig .tc := ⟨.hbm, 54, rfl⟩
abbrev main_call1_v13 : Ref sig .tc := ⟨.hbm, 55, rfl⟩
abbrev main_call1_v14 : Ref sig .tc := ⟨.hbm, 56, rfl⟩
abbrev main_call1_cst : Ref sig .tc := ⟨.hbm, 57, rfl⟩
abbrev main_call1_v15 : Ref sig .tc := ⟨.hbm, 58, rfl⟩
abbrev main_v6 : Ref sig .tc := ⟨.hbm, 59, rfl⟩
abbrev main_v7 : Ref sig .tc := ⟨.hbm, 60, rfl⟩
abbrev main_v8 : Ref sig .tc := ⟨.hbm, 61, rfl⟩
abbrev main_v9 : Ref sig .tc := ⟨.hbm, 62, rfl⟩
abbrev main_v10 : Ref sig .tc := ⟨.hbm, 63, rfl⟩
abbrev main_v11 : Ref sig .tc := ⟨.hbm, 64, rfl⟩
abbrev main_v12 : Ref sig .tc := ⟨.hbm, 65, rfl⟩
abbrev main_v13 : Ref sig .tc := ⟨.hbm, 66, rfl⟩
abbrev main_v14 : Ref sig .tc := ⟨.hbm, 67, rfl⟩
abbrev main_v15 : Ref sig .tc := ⟨.hbm, 68, rfl⟩
abbrev main_v16 : Ref sig .tc := ⟨.hbm, 69, rfl⟩
abbrev main_v17 : Ref sig .tc := ⟨.hbm, 70, rfl⟩
abbrev main_cst_0 : Ref sig .tc := ⟨.hbm, 71, rfl⟩
abbrev main_v18 : Ref sig .tc := ⟨.hbm, 72, rfl⟩
abbrev main_v19 : Ref sig .tc := ⟨.hbm, 73, rfl⟩
abbrev main_cst_1 : Ref sig .tc := ⟨.hbm, 74, rfl⟩
abbrev main_v20 : Ref sig .tc := ⟨.hbm, 75, rfl⟩
abbrev main_v21 : Ref sig .tc := ⟨.hbm, 76, rfl⟩
abbrev main_v22 : Ref sig .tc := ⟨.hbm, 77, rfl⟩

abbrev nD : Nat := 1
abbrev τ : Topo := Topo.v7x

variable {F : FTy → Type} [FloatOps F]

class Facts₀ : Prop where
  reducesTo_S50000x10_S50000_d1 : S50000x10.ReducesTo [1] S50000
  h_S_ : 0 < S_.numel
  bcast_S50000_S50000x1_0 : S50000.BroadcastsInDim S50000x1 (![0] : Fin 1 → Fin S50000x1.rank)
  bcast_S50000x1_S50000x10_0_1 : S50000x1.BroadcastsInDim S50000x10 (![0, 1] : Fin 2 → Fin S50000x10.rank)
  bcast_S_S50000x10 : S_.BroadcastsInDim S50000x10 (![] : Fin 0 → Fin S50000x10.rank)
  bcast_S50000x10_S50000x10x1_0_1 : S50000x10.BroadcastsInDim S50000x10x1 (![0, 1] : Fin 2 → Fin S50000x10x1.rank)
  bcast_S_S50000x10x1 : S_.BroadcastsInDim S50000x10x1 (![] : Fin 0 → Fin S50000x10x1.rank)
  bcast_S1_S1x1x1_2 : S1.BroadcastsInDim S1x1x1 (![2] : Fin 1 → Fin S1x1x1.rank)
  bcast_S1x1x1_S50000x10x1_0_1_2 : S1x1x1.BroadcastsInDim S50000x10x1 (![0, 1, 2] : Fin 3 → Fin S50000x10x1.rank)
  reducesTo_S50000x10x1_S50000x10_d2 : S50000x10x1.ReducesTo [2] S50000x10
  bcast_S50000x10_S50000x10x128_0_1 : S50000x10.BroadcastsInDim S50000x10x128 (![0, 1] : Fin 2 → Fin S50000x10x128.rank)
  bcast_S_S50000x10x128 : S_.BroadcastsInDim S50000x10x128 (![] : Fin 0 → Fin S50000x10x128.rank)
  bcast_S_S50000 : S_.BroadcastsInDim S50000 (![] : Fin 0 → Fin S50000.rank)
  bcast_S_S50000x1 : S_.BroadcastsInDim S50000x1 (![] : Fin 0 → Fin S50000x1.rank)
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  reducesTo_S50000x1_S50000_d1 : S50000x1.ReducesTo [1] S50000
  bcast_S50000_S50000x128_0 : S50000.BroadcastsInDim S50000x128 (![0] : Fin 1 → Fin S50000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  concatenates_S50000x128_S50000x128_S50000x256_d1 : Shape.Concatenates [S50000x128, S50000x128] S50000x256 1
  gather_S100000x128_S50000x10x1_S50000x10x128_2_0_n_n_0_2_1128_wf : GatherDims.WF S100000x128 S50000x10x1 S50000x10x128 [2] [0] [] [0] [] 2 ![1, 128]
  dot_S50000x10_S50000x10x128_S50000x128_1_1_n_2_0_0_wf : DotDims.WF S50000x10 S50000x10x128 S50000x128 [1] [1] [] [2] [0] [0]
  gather_S100000x128_S50000x1_S50000x128_1_0_n_n_0_1_1128_wf : GatherDims.WF S100000x128 S50000x1 S50000x128 [1] [0] [] [0] [] 1 ![1, 128]
  dot_S50000x128_S128x128_S50000x128_1_0_0_1_n_n_wf : DotDims.WF S50000x128 S128x128 S50000x128 [1] [0] [0] [1] [] []
  dot_S50000x256_S256x128_S50000x128_1_0_0_1_n_n_wf : DotDims.WF S50000x256 S256x128 S50000x128 [1] [0] [0] [1] [] []

variable [Facts₀]

def gather_S100000x128_S50000x10x1_S50000x10x128_2_0_n_n_0_2_1128 : GatherDims S100000x128 S50000x10x1 S50000x10x128 where
  offsetDims := [2]
  collapsedSliceDims := [0]
  operandBatchingDims := []
  startIndicesBatchingDims := []
  startIndexMap := [0]
  indexVectorDim := 2
  sliceSizes := ![1, 128]
  wf := gather_S100000x128_S50000x10x1_S50000x10x128_2_0_n_n_0_2_1128_wf
def dot_S50000x10_S50000x10x128_S50000x128_1_1_n_2_0_0 : DotDims S50000x10 S50000x10x128 S50000x128 where
  lhsContracting := [1]
  rhsContracting := [1]
  lhsNonContracting := []
  rhsNonContracting := [2]
  lhsBatch := [0]
  rhsBatch := [0]
  wf := dot_S50000x10_S50000x10x128_S50000x128_1_1_n_2_0_0_wf
def gather_S100000x128_S50000x1_S50000x128_1_0_n_n_0_1_1128 : GatherDims S100000x128 S50000x1 S50000x128 where
  offsetDims := [1]
  collapsedSliceDims := [0]
  operandBatchingDims := []
  startIndicesBatchingDims := []
  startIndexMap := [0]
  indexVectorDim := 1
  sliceSizes := ![1, 128]
  wf := gather_S100000x128_S50000x1_S50000x128_1_0_n_n_0_1_1128_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf

class Facts : Prop extends Facts₀ where

variable [Facts]
-- ==== Proof.Spec.lean ====
/-
  The common specification of both programs, as one function of the eight argument arrays, at the extended reals.

  For batch row `b` with neighbours `idx b k` (k < 10), weights `w b k`, feature table `T`:
    self b d     = T[nodes b, d]
    neighK b d   = (∑ k, w b k · T[idx b k, d]) · (1 / ∑ k, w b k)        -- the kernel's arrangement: reduce, then scale once
    neighR b d   = ∑ k, (w b k / ∑ k', w b k') · T[idx b k, d]            -- the reference's arrangement: normalise, then reduce
  and with Wf split into its upper half Wf0 (rows 0..127) and lower half Wf1 (rows 128..255):
    kernelOut b e = swish (∑ d, self b d · (∑ j, Wi d j · Wf0 j e) + ∑ d, neighK b d · Wf1 d e + (∑ j, bi j · Wf0 j e + bf e))
    refOut b e    = swish (∑ j < 256, concat(self·Wi + bi, neighR) b j · Wf j e + bf e)
  The two agree where every float entry is a real number and no row of weights sums to zero: over the reals the product
  with the reciprocal of a non-zero sum is the quotient by it, scaling commutes with a finite sum, a matrix product is
  associative and distributes over the sum, and a sum over 256 columns splits into its two halves of 128.
-/
import Idealize.ShloMosaic.PureOps.Ideal
import Idealize.ShloMosaic.Lib.ValueIdx

noncomputable section

open Idealize.ShloMosaic Idealize.ShloMosaic.ValueIdx

namespace Cert.Spec

abbrev SNodes : Shape := ⟨1, ![50000]⟩
abbrev SIdx : Shape := ⟨2, ![50000, 10]⟩
abbrev STab : Shape := ⟨2, ![100000, 128]⟩
abbrev SWi : Shape := ⟨2, ![128, 128]⟩
abbrev SVec : Shape := ⟨1, ![128]⟩
abbrev SWf : Shape := ⟨2, ![256, 128]⟩
abbrev SOut : Shape := ⟨2, ![50000, 128]⟩

/-- Row number `r` of the table at column `d`; `0` for a row number past the table (never met where the indices are in range). -/
def tab (T : FVec Ideal STab .f32) (r : ℕ) (d : Fin 128) : EReal :=
  if h : r < 100000 then T (ix2 (⟨r, h⟩ : Fin 100000) d) else 0

/-- The sum of batch row `b`'s ten weights. -/
def wsum (w : FVec Ideal SIdx .f32) (b : Fin 50000) : EReal := ∑ k : Fin 10, w (ix2 b k)

/-- The node's own feature row. -/
def selfRow (nodes : IVec SNodes 32) (T : FVec Ideal STab .f32) (b : Fin 50000) (d : Fin 128) : EReal :=
  tab T (nodes (ix1 b)).toNat d

/-- The weighted neighbour mean as the kernel arranges it: the weighted sum, times the reciprocal of the weights' sum. -/
def neighK (nidx : IVec SIdx 32) (w : FVec Ideal SIdx .f32) (T : FVec Ideal STab .f32) (b : Fin 50000) (d : Fin 128) : EReal :=
  (∑ k : Fin 10, w (ix2 b k) * tab T (nidx (ix2 b k)).toNat d) * Ideal.div 1 (wsum w b)

/-- The weighted neighbour mean as the reference arranges it: each weight divided by the sum, then the weighted sum. -/
def neighR (nidx : IVec SIdx 32) (w : FVec Ideal SIdx .f32) (T : FVec Ideal STab .f32) (b : Fin 50000) (d : Fin 128) : EReal :=
  ∑ k : Fin 10, Ideal.div (w (ix2 b k)) (wsum w b) * tab T (nidx (ix2 b k)).toNat d

/-- `v · σ(v)` with the logistic `σ v = 1 / (1 + e^(-v))`. -/
def swish (v : EReal) : EReal := v * Ideal.logistic v

/-- Row `j` of the upper half of `Wf`. -/
def wf0 (Wf : FVec Ideal SWf .f32) (j : Fin 128) (e : Fin 128) : EReal := Wf (ix2 (⟨j.val, by omega⟩ : Fin 256) e)
/-- Row `d` of the lower half of `Wf`. -/
def wf1 (Wf : FVec Ideal SWf .f32) (d : Fin 128) (e : Fin 128) : EReal := Wf (ix2 (⟨128 + d.val, by omega⟩ : Fin 256) e)

/-- The kernel's pre-activation: the self row through the folded product `Wi · Wf0`, the neighbour mean through `Wf1`, the folded bias. -/
def kernelPre (nodes : IVec SNodes 32) (nidx : IVec SIdx 32) (w : FVec Ideal SIdx .f32) (T : FVec Ideal STab .f32)
    (Wi : FVec Ideal SWi .f32) (bi : FVec Ideal SVec .f32) (Wf : FVec Ideal SWf .f32) (bf : FVec Ideal SVec .f32)
    (b : Fin 50000) (e : Fin 128) : EReal :=
  (∑ d : Fin 128, selfRow nodes T b d * (∑ j : Fin 128, Wi (ix2 d j) * wf0 Wf j e))
    + (∑ d : Fin 128, neighK nidx w T b d * wf1 Wf d e)
    + ((∑ j : Fin 128, bi (ix1 j) * wf0 Wf j e) + bf (ix1 e))

def kernelOut (nodes : IVec SNodes 32) (nidx : IVec SIdx 32) (w : FVec Ideal SIdx .f32) (T : FVec Ideal STab .f32)
    (Wi : FVec Ideal SWi .f32) (bi : FVec Ideal SVec .f32) (Wf : FVec Ideal SWf .f32) (bf : FVec Ideal SVec .f32)
    (b : Fin 50000) (e : Fin 128) : EReal :=
  swish (kernelPre nodes nidx w T Wi bi Wf bf b e)

/-- Column `j` of the reference's concatenation: the transformed self row for `j < 128`, the neighbour mean after. -/
def combined (nodes : IVec SNodes 32) (nidx : IVec SIdx 32) (w : FVec Ideal SIdx .f32) (T : FVec Ideal STab .f32)
    (Wi : FVec Ideal SWi .f32) (bi : FVec Ideal SVec .f32) (b : Fin 50000) (j : Fin 256) : EReal :=
  if h : j.val < 128 then (∑ d : Fin 128, selfRow nodes T b d * Wi (ix2 d (⟨j.val, h⟩ : Fin 128))) + bi (ix1 (⟨j.val, h⟩ : Fin 128))
  else neighR nidx w T b (⟨j.val - 128, by omega⟩ : Fin 128)

/-- The reference's pre-activation: the concatenation through the whole `Wf`, plus the bias. -/
def refPre (nodes : IVec SNodes 32) (nidx : IVec SIdx 32) (w : FVec Ideal SIdx .f32) (T : FVec Ideal STab .f32)
    (Wi : FVec Ideal SWi .f32) (bi : FVec Ideal SVec .f32) (Wf : FVec Ideal SWf .f32) (bf : FVec Ideal SVec .f32)
    (b : Fin 50000) (e : Fin 128) : EReal :=
  (∑ j : Fin 256, combined nodes nidx w T Wi bi b j * Wf (ix2 j e)) + bf (ix1 e)

def refOut (nodes : IVec SNodes 32) (nidx : IVec SIdx 32) (w : FVec Ideal SIdx .f32) (T : FVec Ideal STab .f32)
    (Wi : FVec Ideal SWi .f32) (bi : FVec Ideal SVec .f32) (Wf : FVec Ideal SWf .f32) (bf : FVec Ideal SVec .f32)
    (b : Fin 50000) (e : Fin 128) : EReal :=
  swish (refPre nodes nidx w T Wi bi Wf bf b e)

/-- An array of extended reals all of whose entries are real numbers. -/
def AllReal {S : Shape} (v : FVec Ideal S .f32) : Prop := ∀ i, ∃ r : ℝ, v i = (r : EReal)

end Cert.Spec

end
-- ==== Proof.SpecAlgebra.lean ====
/-
  The kernel's arrangement of the specification equals the reference's, where every float entry is a real number and no
  row of weights sums to zero.

  Both results are the same function (x · σ(x)) of a pre-activation, so it is enough that the two pre-activations agree.
  Every quantity involved is then a real number: a table lookup is an entry of the table or 0.  We choose real witnesses
  for the six float arrays, show that each of the two pre-activations is the image of a real expression (a finite sum of
  images of reals is the image of the sum; a product of images is the image of the product; the quotient by a non-zero
  real is the product with its reciprocal), and prove the identity between the two real expressions:
    * (∑ k, w k · t k) · (1/S) = ∑ k, (w k · (1/S)) · t k             (scaling commutes with a finite sum);
    * a sum over 256 columns is the sum over the first 128 plus the sum over the last 128;
    * ∑ j, (∑ d, x d · A d j + c j) · B j = ∑ d, x d · (∑ j, A d j · B j) + ∑ j, c j · B j   (associativity of the
      matrix product and distributivity over the sum).
-/
import proofs.«208500_g61899068670276_cont_9to1_m_775_47_alg».proof.Proof.Spec
import Mathlib.Data.EReal.Basic
import Mathlib.Algebra.BigOperators.Fin
import Mathlib.Algebra.BigOperators.Ring.Finset
import Mathlib.Tactic.Ring

noncomputable section

open Idealize.ShloMosaic Idealize.ShloMosaic.ValueIdx

namespace Cert.Spec

/-- A finite sum of images of real numbers is the image of the real sum. -/
theorem coe_sum {ι : Type*} (s : Finset ι) (f : ι → ℝ) :
    (∑ i ∈ s, (f i : EReal)) = ((∑ i ∈ s, f i : ℝ) : EReal) := by
  classical
  refine Finset.induction_on s (by simp) ?_
  intro a s ha ih
  rw [Finset.sum_insert ha, Finset.sum_insert ha, ih, EReal.coe_add]

/-- Scaling a weighted sum once by a constant is the weighted sum with every weight scaled by it. -/
theorem real_scale {ι : Type*} (s : Finset ι) (w t : ι → ℝ) (c : ℝ) :
    (∑ k ∈ s, w k * t k) * c = ∑ k ∈ s, (w k * c) * t k := by
  rw [Finset.sum_mul]
  exact Finset.sum_congr rfl fun k _ => by ring

/-- Associativity of the matrix product together with its distributivity over the added row. -/
theorem real_assoc {ι κ : Type*} (sd : Finset ι) (sj : Finset κ) (x : ι → ℝ) (A : ι → κ → ℝ) (c B : κ → ℝ) :
    ∑ j ∈ sj, ((∑ d ∈ sd, x d * A d j) + c j) * B j
      = (∑ d ∈ sd, x d * (∑ j ∈ sj, A d j * B j)) + ∑ j ∈ sj, c j * B j := by
  simp only [add_mul, Finset.sum_add_distrib, Finset.sum_mul, Finset.mul_sum]
  rw [Finset.sum_comm]
  congr 1
  exact Finset.sum_congr rfl fun d _ => Finset.sum_congr rfl fun j _ => by ring

/-- The identity between the two real pre-activations, the 256 columns already split into their halves. -/
theorem real_pre (x n : Fin 128 → ℝ) (A : Fin 128 → Fin 128 → ℝ) (c B0 B1 : Fin 128 → ℝ) (f : ℝ) :
    (∑ d, x d * (∑ j, A d j * B0 j)) + (∑ d, n d * B1 d) + ((∑ j, c j * B0 j) + f)
      = ((∑ j, ((∑ d, x d * A d j) + c j) * B0 j) + ∑ j, n j * B1 j) + f := by
  rw [real_assoc]
  ring

/-- A table lookup in a table of real numbers is a real number. -/
theorem tab_real {T : FVec Ideal STab .f32} (hT : AllReal T) (r : ℕ) (d : Fin 128) :
    ∃ x : ℝ, tab T r d = (x : EReal) := by
  unfold tab
  split
  · exact hT _
  · exact ⟨0, rfl⟩

/-- On the first 128 columns the concatenation is the transformed self row. -/
theorem combined_castAdd (nodes : IVec SNodes 32) (nidx : IVec SIdx 32) (w : FVec Ideal SIdx .f32) (T : FVec Ideal STab .f32)
    (Wi : FVec Ideal SWi .f32) (bi : FVec Ideal SVec .f32) (b : Fin 50000) (j : Fin 128) :
    combined nodes nidx w T Wi bi b (Fin.castAdd 128 j)
      = (∑ d : Fin 128, selfRow nodes T b d * Wi (ix2 d j)) + bi (ix1 j) := by
  have h : (Fin.castAdd 128 j).val < 128 := j.isLt
  unfold combined
  rw [dif_pos h]
  rfl

/-- On the last 128 columns the concatenation is the reference's neighbour mean. -/
theorem combined_natAdd (nodes : IVec SNodes 32) (nidx : IVec SIdx 32) (w : FVec Ideal SIdx .f32) (T : FVec Ideal STab .f32)
    (Wi : FVec Ideal SWi .f32) (bi : FVec Ideal SVec .f32) (b : Fin 50000) (j : Fin 128) :
    combined nodes nidx w T Wi bi b (Fin.natAdd 128 j) = neighR nidx w T b j := by
  have h : ¬ (Fin.natAdd 128 j).val < 128 := by simp
  unfold combined
  rw [dif_neg h]
  congr 1
  apply Fin.ext
  simp

/-- The reference's pre-activation with its 256 columns split into the two halves. -/
theorem refPre_split (nodes : IVec SNodes 32) (nidx : IVec SIdx 32) (w : FVec Ideal SIdx .f32) (T : FVec Ideal STab .f32)
    (Wi : FVec Ideal SWi .f32) (bi : FVec Ideal SVec .f32) (Wf : FVec Ideal SWf .f32) (bf : FVec Ideal SVec .f32)
    (b : Fin 50000) (e : Fin 128) :
    refPre nodes nidx w T Wi bi Wf bf b e
      = ((∑ j : Fin 128, ((∑ d : Fin 128, selfRow nodes T b d * Wi (ix2 d j)) + bi (ix1 j)) * wf0 Wf j e)
          + ∑ j : Fin 128, neighR nidx w T b j * wf1 Wf j e) + bf (ix1 e) := by
  unfold refPre
  rw [Fin.sum_univ_add (a := 128) (b := 128)
    (fun j => combined nodes nidx w T Wi bi b j * Wf (ix2 j e))]
  simp only [combined_castAdd, combined_natAdd]
  rfl

theorem kernelPre_eq_refPre (nodes : IVec SNodes 32) (nidx : IVec SIdx 32) (w : FVec Ideal SIdx .f32) (T : FVec Ideal STab .f32)
    (Wi : FVec Ideal SWi .f32) (bi : FVec Ideal SVec .f32) (Wf : FVec Ideal SWf .f32) (bf : FVec Ideal SVec .f32)
    (hw : AllReal w) (hT : AllReal T) (hWi : AllReal Wi) (hbi : AllReal bi) (hWf : AllReal Wf) (hbf : AllReal bf)
    (hS : ∀ b : Fin 50000, wsum w b ≠ 0) (b : Fin 50000) (e : Fin 128) :
    kernelPre nodes nidx w T Wi bi Wf bf b e = refPre nodes nidx w T Wi bi Wf bf b e := by
  have hw' : ∀ i, ∃ r : ℝ, w i = (r : EReal) := hw
  have hWi' : ∀ i, ∃ r : ℝ, Wi i = (r : EReal) := hWi
  have hbi' : ∀ i, ∃ r : ℝ, bi i = (r : EReal) := hbi
  have hWf' : ∀ i, ∃ r : ℝ, Wf i = (r : EReal) := hWf
  have hbf' : ∀ i, ∃ r : ℝ, bf i = (r : EReal) := hbf
  choose wR hwR using hw'
  choose tR htR using tab_real hT
  choose WiR hWiR using hWi'
  choose biR hbiR using hbi'
  choose WfR hWfR using hWf'
  choose bfR hbfR using hbf'
  -- the weights' sum is the image of the real sum, which is therefore not zero
  have hws : wsum w b = ((∑ k : Fin 10, wR (ix2 b k) : ℝ) : EReal) := by
    simp only [wsum, hwR, coe_sum]
  have hS' : (∑ k : Fin 10, wR (ix2 b k)) ≠ 0 := by
    intro h0
    apply hS b
    rw [hws, h0, EReal.coe_zero]
  -- the two arrangements of the neighbour mean are images of real numbers
  have hnK : ∀ d : Fin 128, neighK nidx w T b d
      = (((∑ k : Fin 10, wR (ix2 b k) * tR (nidx (ix2 b k)).toNat d) * (1 / ∑ k : Fin 10, wR (ix2 b k)) : ℝ) : EReal) := by
    intro d
    simp only [neighK, hws, Ideal.div_coe hS', one_mul, hwR, htR, ← EReal.coe_mul, coe_sum]
  have hnR : ∀ d : Fin 128, neighR nidx w T b d
      = ((∑ k : Fin 10, (wR (ix2 b k) * (1 / ∑ k : Fin 10, wR (ix2 b k))) * tR (nidx (ix2 b k)).toNat d : ℝ) : EReal) := by
    intro d
    simp only [neighR, hws, Ideal.div_coe hS', hwR, htR, ← EReal.coe_mul, coe_sum]
  have hnK' : ∀ d : Fin 128, neighK nidx w T b d
      = ((∑ k : Fin 10, (wR (ix2 b k) * (1 / ∑ k : Fin 10, wR (ix2 b k))) * tR (nidx (ix2 b k)).toNat d : ℝ) : EReal) := by
    intro d
    rw [hnK d, real_scale]
  rw [refPre_split]
  unfold kernelPre
  simp only [hnK', hnR, selfRow, wf0, wf1, htR, hWiR, hbiR, hWfR, hbfR, ← EReal.coe_mul, ← EReal.coe_add, coe_sum]
  rw [EReal.coe_eq_coe_iff]
  exact real_pre _ _ _ _ _ _ _

theorem kernelOut_eq_refOut (nodes : IVec SNodes 32) (nidx : IVec SIdx 32) (w : FVec Ideal SIdx .f32) (T : FVec Ideal STab .f32)
    (Wi : FVec Ideal SWi .f32) (bi : FVec Ideal SVec .f32) (Wf : FVec Ideal SWf .f32) (bf : FVec Ideal SVec .f32)
    (hw : AllReal w) (hT : AllReal T) (hWi : AllReal Wi) (hbi : AllReal bi) (hWf : AllReal Wf) (hbf : AllReal bf)
    (hS : ∀ b : Fin 50000, wsum w b ≠ 0) (b : Fin 50000) (e : Fin 128) :
    kernelOut nodes nidx w T Wi bi Wf bf b e = refOut nodes nidx w T Wi bi Wf bf b e := by
  unfold kernelOut refOut
  rw [kernelPre_eq_refPre nodes nidx w T Wi bi Wf bf hw hT hWi hbi hWf hbf hS b e]

end Cert.Spec

end
-- ==== Proof.PreDecode.lean ====
import proofs.«208500_g61899068670276_cont_9to1_m_775_47_alg».proof.Proof.Gen.Pre_input_domain
import proofs.«208500_g61899068670276_cont_9to1_m_775_47_alg».proof.Proof.Spec
import Idealize.ShloMosaic.Lib.ReduceAll
import Idealize.ShloMosaic.Lib.StableHlo.Predicate
import Idealize.ShloMosaic.Lib.IdealHost
import Idealize.ShloMosaic.PureOps.Ideal.Laws

noncomputable section

namespace Cert.PreDecode

open Idealize.ShloMosaic Idealize.ShloMosaic.ValueIdx Cert.Pre_input_domain

instance : Subsingleton S_.Idx := ⟨fun a b => funext fun d => d.elim0⟩

/-! ## The conjunction, taken apart

The predicate is one chain of `and`s of nine `i1` scalars, each the `and`-reduction of an elementwise test.
Its value being one says each of the nine is one, hence each elementwise test is one at every index. -/

/-- A signed word between the words `0` and `99999` is, read unsigned, below `100000`. -/
theorem toNat_lt_of_signed_range {x : BitVec 32} (h0 : (0#32 : BitVec 32).toInt ≤ x.toInt)
    (h1 : x.toInt ≤ (99999#32 : BitVec 32).toInt) : x.toNat < 100000 := by
  have e0 : (0#32 : BitVec 32).toInt = 0 := by decide
  have e1 : (99999#32 : BitVec 32).toInt = 99999 := by decide
  rw [e0] at h0; rw [e1] at h1
  have hx := x.isLt
  rw [BitVec.toInt_eq_toNat_cond] at h0 h1
  by_cases hc : 2 * x.toNat < 2 ^ 32
  · rw [if_pos hc] at h0 h1; omega
  · rw [if_neg hc] at h0 h1; omega

/-- The nine elementwise tests the predicate's value one gives, at any float instance. -/
theorem decode {F : FTy → Type} [FloatOps F]
    (a0 : IVec S50000 32) (a1 : IVec S50000x10 32) (a2 : FVec F S50000x10 .f32) (a3 : FVec F S100000x128 .f32)
    (a4 : FVec F S128x128 .f32) (a5 : FVec F S128 .f32) (a6 : FVec F S256x128 .f32) (a7 : FVec F S128 .f32)
    (h : Cert.Pre_input_domain.fn (F := F) a0 a1 a2 a3 a4 a5 a6 a7 = (fun _ => 1#1)) :
    (∀ i, FloatOps.cmpf .olt (FloatOps.hostAbsf (a2 i)) (FloatOps.ofBits .f32 0x7F800000#32) = 1#1)
    ∧ (∀ i, FloatOps.cmpf .olt (FloatOps.hostAbsf (a3 i)) (FloatOps.ofBits .f32 0x7F800000#32) = 1#1)
    ∧ (∀ i, FloatOps.cmpf .olt (FloatOps.hostAbsf (a4 i)) (FloatOps.ofBits .f32 0x7F800000#32) = 1#1)
    ∧ (∀ i, FloatOps.cmpf .olt (FloatOps.hostAbsf (a5 i)) (FloatOps.ofBits .f32 0x7F800000#32) = 1#1)
    ∧ (∀ i, FloatOps.cmpf .olt (FloatOps.hostAbsf (a6 i)) (FloatOps.ofBits .f32 0x7F800000#32) = 1#1)
    ∧ (∀ i, FloatOps.cmpf .olt (FloatOps.hostAbsf (a7 i)) (FloatOps.ofBits .f32 0x7F800000#32) = 1#1)
    ∧ (∀ i, (a0 i).toNat < 100000)
    ∧ (∀ i, (a1 i).toNat < 100000)
    ∧ (∀ b, FloatOps.cmpf .une
          (Host.reduceAdd a2 (constant S_ .f32 0x00000000#32) Facts.reducesTo_S50000x10_S50000_d1 Facts.h_S_ b)
          (FloatOps.ofBits (F := F) .f32 0x00000000#32) = 1#1) := by
  have h0 := congrFun h ix0
  dsimp only [fn, fn_part1, fn_part2, andi] at h0
  simp only [IntOp.andi_eq_one] at h0
  obtain ⟨⟨⟨⟨⟨⟨⟨⟨h3, h7⟩, h12⟩, h17⟩, h22⟩, h27⟩, h34⟩, h41⟩, h46⟩ := h0
  refine ⟨fun i => Host.reduce_andi_all _ _ _ _ ix0 h3 i, fun i => Host.reduce_andi_all _ _ _ _ ix0 h7 i,
    fun i => Host.reduce_andi_all _ _ _ _ ix0 h12 i, fun i => Host.reduce_andi_all _ _ _ _ ix0 h17 i,
    fun i => Host.reduce_andi_all _ _ _ _ ix0 h22 i, fun i => Host.reduce_andi_all _ _ _ _ ix0 h27 i,
    fun i => ?_, fun i => ?_, fun b => Host.reduce_andi_all _ _ _ _ ix0 h46 b⟩
  · have e := Host.reduce_andi_all _ _ _ _ ix0 h34 i
    have e' : IntOp.andi (IntOp.cmpi .sge (a0 i) 0#32) (IntOp.cmpi .sle (a0 i) 99999#32) = 1#1 := e
    obtain ⟨e0, e1⟩ := IntOp.andi_eq_one.1 e'
    exact toNat_lt_of_signed_range (IntOp.cmpi_sge.1 e0) (IntOp.cmpi_sle.1 e1)
  · have e := Host.reduce_andi_all _ _ _ _ ix0 h41 i
    have e' : IntOp.andi (IntOp.cmpi .sge (a1 i) 0#32) (IntOp.cmpi .sle (a1 i) 99999#32) = 1#1 := e
    obtain ⟨e0, e1⟩ := IntOp.andi_eq_one.1 e'
    exact toNat_lt_of_signed_range (IntOp.cmpi_sge.1 e0) (IntOp.cmpi_sle.1 e1)

/-- The node numbers are below the table's row count, whatever the float instance. -/
theorem nodes_lt {F : FTy → Type} [FloatOps F]
    (a0 : IVec S50000 32) (a1 : IVec S50000x10 32) (a2 : FVec F S50000x10 .f32) (a3 : FVec F S100000x128 .f32)
    (a4 : FVec F S128x128 .f32) (a5 : FVec F S128 .f32) (a6 : FVec F S256x128 .f32) (a7 : FVec F S128 .f32)
    (h : Cert.Pre_input_domain.fn (F := F) a0 a1 a2 a3 a4 a5 a6 a7 = (fun _ => 1#1)) :
    ∀ i, (a0 i).toNat < 100000 :=
  (decode a0 a1 a2 a3 a4 a5 a6 a7 h).2.2.2.2.2.2.1

/-- The neighbour numbers are below the table's row count, whatever the float instance. -/
theorem nidx_lt {F : FTy → Type} [FloatOps F]
    (a0 : IVec S50000 32) (a1 : IVec S50000x10 32) (a2 : FVec F S50000x10 .f32) (a3 : FVec F S100000x128 .f32)
    (a4 : FVec F S128x128 .f32) (a5 : FVec F S128 .f32) (a6 : FVec F S256x128 .f32) (a7 : FVec F S128 .f32)
    (h : Cert.Pre_input_domain.fn (F := F) a0 a1 a2 a3 a4 a5 a6 a7 = (fun _ => 1#1)) :
    ∀ i, (a1 i).toNat < 100000 :=
  (decode a0 a1 a2 a3 a4 a5 a6 a7 h).2.2.2.2.2.2.2.1

/-! ## At the extended reals

There `|x| < +∞` reads `max x (-x) < ⊤`, which fails at both infinities: the entry is a real number. The row sum of the
weights is the finite sum over the row's ten columns, and `≠ 0` is the comparison on the extended reals. -/

/-- The f32 pattern of `+∞` is the top extended real. -/
theorem ofBits_inf_f32 : Ideal.ofBits .f32 0x7F800000#32 = (⊤ : EReal) := by
  simp [Ideal.ofBits, Ideal.ieee]

/-- An extended real whose absolute value `max x (-x)` is below `+∞` is a real number. -/
theorem real_of_abs_lt_top (x : EReal)
    (h : FloatOps.cmpf (F := Ideal) (φ := .f32) .olt (FloatOps.hostAbsf (F := Ideal) (φ := .f32) x)
      (FloatOps.ofBits (F := Ideal) .f32 0x7F800000#32) = 1#1) :
    ∃ r : ℝ, x = (r : EReal) := by
  change Ideal.cmp .olt (max x (-x)) (Ideal.ofBits .f32 0x7F800000#32) = 1#1 at h
  rw [ofBits_inf_f32] at h
  induction x using EReal.rec with
  | bot => simp [Ideal.cmp] at h
  | coe r => exact ⟨r, rfl⟩
  | top => simp [Ideal.cmp] at h

theorem allReal_w (a0 : IVec S50000 32) (a1 : IVec S50000x10 32) (a2 : FVec Ideal S50000x10 .f32) (a3 : FVec Ideal S100000x128 .f32)
    (a4 : FVec Ideal S128x128 .f32) (a5 : FVec Ideal S128 .f32) (a6 : FVec Ideal S256x128 .f32) (a7 : FVec Ideal S128 .f32)
    (h : Cert.Pre_input_domain.fn (F := Ideal) a0 a1 a2 a3 a4 a5 a6 a7 = (fun _ => 1#1)) : Cert.Spec.AllReal a2 :=
  fun i => real_of_abs_lt_top _ ((decode a0 a1 a2 a3 a4 a5 a6 a7 h).1 i)

theorem allReal_T (a0 : IVec S50000 32) (a1 : IVec S50000x10 32) (a2 : FVec Ideal S50000x10 .f32) (a3 : FVec Ideal S100000x128 .f32)
    (a4 : FVec Ideal S128x128 .f32) (a5 : FVec Ideal S128 .f32) (a6 : FVec Ideal S256x128 .f32) (a7 : FVec Ideal S128 .f32)
    (h : Cert.Pre_input_domain.fn (F := Ideal) a0 a1 a2 a3 a4 a5 a6 a7 = (fun _ => 1#1)) : Cert.Spec.AllReal a3 :=
  fun i => real_of_abs_lt_top _ ((decode a0 a1 a2 a3 a4 a5 a6 a7 h).2.1 i)

theorem allReal_Wi (a0 : IVec S50000 32) (a1 : IVec S50000x10 32) (a2 : FVec Ideal S50000x10 .f32) (a3 : FVec Ideal S100000x128 .f32)
    (a4 : FVec Ideal S128x128 .f32) (a5 : FVec Ideal S128 .f32) (a6 : FVec Ideal S256x128 .f32) (a7 : FVec Ideal S128 .f32)
    (h : Cert.Pre_input_domain.fn (F := Ideal) a0 a1 a2 a3 a4 a5 a6 a7 = (fun _ => 1#1)) : Cert.Spec.AllReal a4 :=
  fun i => real_of_abs_lt_top _ ((decode a0 a1 a2 a3 a4 a5 a6 a7 h).2.2.1 i)

theorem allReal_bi (a0 : IVec S50000 32) (a1 : IVec S50000x10 32) (a2 : FVec Ideal S50000x10 .f32) (a3 : FVec Ideal S100000x128 .f32)
    (a4 : FVec Ideal S128x128 .f32) (a5 : FVec Ideal S128 .f32) (a6 : FVec Ideal S256x128 .f32) (a7 : FVec Ideal S128 .f32)
    (h : Cert.Pre_input_domain.fn (F := Ideal) a0 a1 a2 a3 a4 a5 a6 a7 = (fun _ => 1#1)) : Cert.Spec.AllReal a5 :=
  fun i => real_of_abs_lt_top _ ((decode a0 a1 a2 a3 a4 a5 a6 a7 h).2.2.2.1 i)

theorem allReal_Wf (a0 : IVec S50000 32) (a1 : IVec S50000x10 32) (a2 : FVec Ideal S50000x10 .f32) (a3 : FVec Ideal S100000x128 .f32)
    (a4 : FVec Ideal S128x128 .f32) (a5 : FVec Ideal S128 .f32) (a6 : FVec Ideal S256x128 .f32) (a7 : FVec Ideal S128 .f32)
    (h : Cert.Pre_input_domain.fn (F := Ideal) a0 a1 a2 a3 a4 a5 a6 a7 = (fun _ => 1#1)) : Cert.Spec.AllReal a6 :=
  fun i => real_of_abs_lt_top _ ((decode a0 a1 a2 a3 a4 a5 a6 a7 h).2.2.2.2.1 i)

theorem allReal_bf (a0 : IVec S50000 32) (a1 : IVec S50000x10 32) (a2 : FVec Ideal S50000x10 .f32) (a3 : FVec Ideal S100000x128 .f32)
    (a4 : FVec Ideal S128x128 .f32) (a5 : FVec Ideal S128 .f32) (a6 : FVec Ideal S256x128 .f32) (a7 : FVec Ideal S128 .f32)
    (h : Cert.Pre_input_domain.fn (F := Ideal) a0 a1 a2 a3 a4 a5 a6 a7 = (fun _ => 1#1)) : Cert.Spec.AllReal a7 :=
  fun i => real_of_abs_lt_top _ ((decode a0 a1 a2 a3 a4 a5 a6 a7 h).2.2.2.2.2.1 i)

/-- Reducing the second axis of a `50000 × 10` array: the index of row `b` with column `k` put back is `(b, k)`. -/
theorem lift_row (hR : S50000x10.Reduces [1] S50000) (b : Fin 50000) (k : Fin 10) :
    hR.lift (ix1 b) k = ix2 b k := by
  funext d
  match d with
  | ⟨0, _⟩ => exact Fin.ext rfl
  | ⟨1, _⟩ => exact Fin.ext rfl

/-- No row of weights sums to zero. -/
theorem wsum_ne_zero (a0 : IVec S50000 32) (a1 : IVec S50000x10 32) (a2 : FVec Ideal S50000x10 .f32) (a3 : FVec Ideal S100000x128 .f32)
    (a4 : FVec Ideal S128x128 .f32) (a5 : FVec Ideal S128 .f32) (a6 : FVec Ideal S256x128 .f32) (a7 : FVec Ideal S128 .f32)
    (h : Cert.Pre_input_domain.fn (F := Ideal) a0 a1 a2 a3 a4 a5 a6 a7 = (fun _ => 1#1)) : ∀ b : Fin 50000, Cert.Spec.wsum a2 b ≠ 0 := by
  intro b
  have e := (decode a0 a1 a2 a3 a4 a5 a6 a7 h).2.2.2.2.2.2.2.2 (ix1 b)
  have hR : S50000x10.Reduces [1] S50000 := by decide
  change Ideal.cmp .une (Ideal.hostReduceAdd Facts.reducesTo_S50000x10_S50000_d1 a2 (Ideal.ofBits .f32 0x00000000#32) (ix1 b))
    (Ideal.ofBits .f32 0x00000000#32) = 1#1 at e
  rw [Ideal.ofBits_zero_f32, Ideal.hostReduceAdd_single Facts.reducesTo_S50000x10_S50000_d1 hR, zero_add] at e
  have hs : (∑ k : Fin (S50000x10.size 1), a2 (hR.lift (ix1 b) k)) = Cert.Spec.wsum a2 b :=
    Finset.sum_congr rfl (fun k _ => congrArg a2 (lift_row hR b k))
  rw [hs] at e
  intro hz
  rw [hz] at e
  have e0 : Ideal.cmp .une (0 : EReal) 0 = 0#1 := by simp [Ideal.cmp]
  rw [e0] at e
  exact absurd e (by decide)

end Cert.PreDecode

end
-- ==== Proof.RefRun.lean ====
/-
  The reference program's run. Its @main is a straight line of seventy host operations once the four outlined
  functions (the two index-wrapping selects and the two row lookups) are unfolded at their calls; every weakly fair
  execution ends with the result buffer at the operations' composed term of the eight argument arrays and the
  arguments unchanged. The composed term is named stage by stage below: the normalised weights, the wrapped and
  bounds-masked neighbour rows, their weighted sum, the node's own row through the first affine map, the
  concatenation through the second, and the product with the logistic.
-/
import proofs.«208500_g61899068670276_cont_9to1_m_775_47_alg».proof.Proof.Gen.ReferenceIdeal
import Idealize.ShloMosaic.Lib.StableHlo.Run
import Idealize.ShloMosaic.PureOps.Ideal

noncomputable section

namespace Cert.ReferenceIdeal.RefValue

open Cert.ReferenceIdeal Cert.ReferenceIdeal.Gen Idealize.ShloMosaic Idealize.ShloMosaic.TcCoe Idealize.SL.Sem Idealize.ShloMosaic.StableHlo

/-! ## The composed term, by stages -/

/-- The weights divided by their row sums: the sum over axis 1 from a zero accumulator, spread back over the row. -/
def wnorm (a2 : FVec Ideal S50000x10 .f32) : FVec Ideal S50000x10 .f32 :=
  Host.divf a2 (broadcastInDim S50000x10 ![0, 1] bcast_S50000x1_S50000x10_0_1
    (broadcastInDim S50000x1 ![0] bcast_S50000_S50000x1_0
      (Host.reduceAdd a2 (constant S_ .f32 0x00000000#32) reducesTo_S50000x10_S50000_d1 h_S_)))

/-- The neighbour indices with a negative entry moved up by the table's height. -/
def wrapN (a1 : IVec S50000x10 32) : IVec S50000x10 32 :=
  select (cmpi .slt a1 (broadcastInDim S50000x10 ![] bcast_S_S50000x10 (constantI S_ 32 0#32)))
    (addi a1 (broadcastInDim S50000x10 ![] bcast_S_S50000x10 (constantI S_ 32 100000#32))) a1

/-- The wrapped neighbour indices as one-entry index vectors. -/
def idxN (a1 : IVec S50000x10 32) : IVec S50000x10x1 32 :=
  broadcastInDim S50000x10x1 ![0, 1] bcast_S50000x10_S50000x10x1_0_1 (wrapN a1)

/-- Where the wrapped neighbour index lies between 0 and 99999: the conjunction over the one-entry axis. -/
def maskN (a1 : IVec S50000x10 32) : IVec S50000x10 1 :=
  Host.reduce IntOp.andi
    (andi (cmpi .sge (idxN a1) (broadcastInDim S50000x10x1 ![] bcast_S_S50000x10x1 (constantI S_ 32 0#32)))
      (cmpi .sle (idxN a1) (broadcastInDim S50000x10x1 ![0, 1, 2] bcast_S1x1x1_S50000x10x1_0_1_2
        (broadcastInDim S1x1x1 ![2] bcast_S1_S1x1x1_2 (constantI S1 32 99999#32)))))
    (constantI S_ 1 1#1) reducesTo_S50000x10x1_S50000x10_d2 h_S_

/-- The neighbours' table rows: the gathered row where the index is in range, the fill constant elsewhere. -/
def rowsN (a3 : FVec Ideal S100000x128 .f32) (a1 : IVec S50000x10 32) : FVec Ideal S50000x10x128 .f32 :=
  select (broadcastInDim S50000x10x128 ![0, 1] bcast_S50000x10_S50000x10x128_0_1 (maskN a1))
    (Host.gather gather_S100000x128_S50000x10x1_S50000x10x128_2_0_n_n_0_2_1128 a3 (idxN a1))
    (broadcastInDim S50000x10x128 ![] bcast_S_S50000x10x128 (constant S_ .f32 0x7FC00000#32))

/-- The weighted neighbour mean: the batched contraction of the normalised weights with the neighbours' rows. -/
def neigh (a1 : IVec S50000x10 32) (a2 : FVec Ideal S50000x10 .f32) (a3 : FVec Ideal S100000x128 .f32) :
    FVec Ideal S50000x128 .f32 :=
  Host.dotGeneral dot_S50000x10_S50000x10x128_S50000x128_1_1_n_2_0_0 none (wnorm a2) (rowsN a3 a1)

/-- The node indices with a negative entry moved up by the table's height. -/
def wrapS (a0 : IVec S50000 32) : IVec S50000 32 :=
  select (cmpi .slt a0 (broadcastInDim S50000 ![] bcast_S_S50000 (constantI S_ 32 0#32)))
    (addi a0 (broadcastInDim S50000 ![] bcast_S_S50000 (constantI S_ 32 100000#32))) a0

/-- The wrapped node indices as one-entry index vectors. -/
def idxS (a0 : IVec S50000 32) : IVec S50000x1 32 :=
  broadcastInDim S50000x1 ![0] bcast_S50000_S50000x1_0 (wrapS a0)

/-- Where the wrapped node index lies between 0 and 99999. -/
def maskS (a0 : IVec S50000 32) : IVec S50000 1 :=
  Host.reduce IntOp.andi
    (andi (cmpi .sge (idxS a0) (broadcastInDim S50000x1 ![] bcast_S_S50000x1 (constantI S_ 32 0#32)))
      (cmpi .sle (idxS a0) (broadcastInDim S50000x1 ![0, 1] bcast_S1x1_S50000x1_0_1
        (broadcastInDim S1x1 ![1] bcast_S1_S1x1_1 (constantI S1 32 99999#32)))))
    (constantI S_ 1 1#1) reducesTo_S50000x1_S50000_d1 h_S_

/-- The nodes' own table rows: the gathered row where the index is in range, the fill constant elsewhere. -/
def rowsS (a3 : FVec Ideal S100000x128 .f32) (a0 : IVec S50000 32) : FVec Ideal S50000x128 .f32 :=
  select (broadcastInDim S50000x128 ![0] bcast_S50000_S50000x128_0 (maskS a0))
    (Host.gather gather_S100000x128_S50000x1_S50000x128_1_0_n_n_0_1_1128 a3 (idxS a0))
    (broadcastInDim S50000x128 ![] bcast_S_S50000x128 (constant S_ .f32 0x7FC00000#32))

/-- The node's own row through the first affine map. -/
def selfFeats (a0 : IVec S50000 32) (a3 : FVec Ideal S100000x128 .f32) (a4 : FVec Ideal S128x128 .f32)
    (a5 : FVec Ideal S128 .f32) : FVec Ideal S50000x128 .f32 :=
  addf (Host.dotGeneral dot_S50000x128_S128x128_S50000x128_1_0_0_1_n_n none (rowsS a3 a0) a4)
    (broadcastInDim S50000x128 ![0, 1] bcast_S1x128_S50000x128_0_1 (broadcastInDim S1x128 ![1] bcast_S128_S1x128_1 a5))

/-- The transformed own row and the neighbour mean side by side along axis 1. -/
def combined (a0 : IVec S50000 32) (a1 : IVec S50000x10 32) (a2 : FVec Ideal S50000x10 .f32)
    (a3 : FVec Ideal S100000x128 .f32) (a4 : FVec Ideal S128x128 .f32) (a5 : FVec Ideal S128 .f32) :
    FVec Ideal S50000x256 .f32 :=
  concatenate S50000x256 1 [⟨S50000x128, selfFeats a0 a3 a4 a5⟩, ⟨S50000x128, neigh a1 a2 a3⟩]
    concatenates_S50000x128_S50000x128_S50000x256_d1

/-- The pre-activation: the concatenation through the second affine map. -/
def pre (a0 : IVec S50000 32) (a1 : IVec S50000x10 32) (a2 : FVec Ideal S50000x10 .f32) (a3 : FVec Ideal S100000x128 .f32)
    (a4 : FVec Ideal S128x128 .f32) (a5 : FVec Ideal S128 .f32) (a6 : FVec Ideal S256x128 .f32) (a7 : FVec Ideal S128 .f32) : FVec Ideal S50000x128 .f32 :=
  addf (Host.dotGeneral dot_S50000x256_S256x128_S50000x128_1_0_0_1_n_n none (combined a0 a1 a2 a3 a4 a5) a6)
    (broadcastInDim S50000x128 ![0, 1] bcast_S1x128_S50000x128_0_1 (broadcastInDim S1x128 ![1] bcast_S128_S1x128_1 a7))

/-- The reference's result as a term of its eight arguments: the pre-activation times one over one plus the
    exponential of its negation. -/
def refVal (a0 : IVec S50000 32) (a1 : IVec S50000x10 32) (a2 : FVec Ideal S50000x10 .f32) (a3 : FVec Ideal S100000x128 .f32)
    (a4 : FVec Ideal S128x128 .f32) (a5 : FVec Ideal S128 .f32) (a6 : FVec Ideal S256x128 .f32) (a7 : FVec Ideal S128 .f32) : FVec Ideal S50000x128 .f32 :=
  mulf (pre a0 a1 a2 a3 a4 a5 a6 a7)
    (Host.divf (broadcastInDim S50000x128 ![] bcast_S_S50000x128 (constant S_ .f32 0x3F800000#32))
      (addf (broadcastInDim S50000x128 ![] bcast_S_S50000x128 (constant S_ .f32 0x3F800000#32))
        (Host.exp (Host.negf (pre a0 a1 a2 a3 a4 a5 a6 a7)))))

/-! ## The straight line -/

variable {F : FTy → Type} [FloatOps F]

/-- @main's seventy operations in order, the calls unfolded: five for the normalised weights, the neighbour lookup's
    twenty-three over its call's buffers (the wrap's select among them), the batched contraction, the node lookup's
    twenty-three over its call's buffers, and the eighteen from the first affine map to the final product. -/
abbrev ops : List (HloOp τ sig (Elt F)) :=
  [
    nullary main_cst (constant S_ .f32 0x00000000#32),
    binary main_arg2 main_cst main_v0 ((fun x v => Host.reduceAdd x v reducesTo_S50000x10_S50000_d1 h_S_) : (⟨S50000x10, .f32⟩ : BufTy).Contents (Elt F) → (⟨S_, .f32⟩ : BufTy).Contents (Elt F) → (⟨S50000, .f32⟩ : BufTy).Contents (Elt F)),
    unary main_v0 main_v1 (broadcastInDim S50000x1 ![0] bcast_S50000_S50000x1_0 : (⟨S50000, .f32⟩ : BufTy).Contents (Elt F) → (⟨S50000x1, .f32⟩ : BufTy).Contents (Elt F)),
    unary main_v1 main_v2 (broadcastInDim S50000x10 ![0, 1] bcast_S50000x1_S50000x10_0_1 : (⟨S50000x1, .f32⟩ : BufTy).Contents (Elt F) → (⟨S50000x10, .f32⟩ : BufTy).Contents (Elt F)),
    binary main_arg2 main_v2 main_v3 (Host.divf : (⟨S50000x10, .f32⟩ : BufTy).Contents (Elt F) → (⟨S50000x10, .f32⟩ : BufTy).Contents (Elt F) → (⟨S50000x10, .f32⟩ : BufTy).Contents (Elt F)),
    TRef.nullary main_call0.c (constantI S_ 32 0#32),
    TRef.unary main_call0.c main_call0.v0 (broadcastInDim S50000x10 ![] bcast_S_S50000x10),
    TRef.binary (.of main_arg1) main_call0.v0 main_call0.v1 (cmpi .slt),
    TRef.nullary main_call0.c_0 (constantI S_ 32 100000#32),
    TRef.unary main_call0.c_0 main_call0.v2 (broadcastInDim S50000x10 ![] bcast_S_S50000x10),
    TRef.binary (.of main_arg1) main_call0.v2 main_call0.v3 addi,
    TRef.ternary main_call0.v1 main_call0.v3 (.of main_arg1) main_call0.call0.v0 select,
    TRef.unary main_call0.call0.v0 main_call0.v5 (broadcastInDim S50000x10x1 ![0, 1] bcast_S50000x10_S50000x10x1_0_1),
    TRef.nullary main_call0.c_1 (constantI S1 32 99999#32),
    TRef.nullary main_call0.c_2 (constantI S_ 32 0#32),
    TRef.unary main_call0.c_2 main_call0.v6 (broadcastInDim S50000x10x1 ![] bcast_S_S50000x10x1),
    TRef.binary main_call0.v5 main_call0.v6 main_call0.v7 (cmpi .sge),
    TRef.unary main_call0.c_1 main_call0.v8 (broadcastInDim S1x1x1 ![2] bcast_S1_S1x1x1_2),
    TRef.unary main_call0.v8 main_call0.v9 (broadcastInDim S50000x10x1 ![0, 1, 2] bcast_S1x1x1_S50000x10x1_0_1_2),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S50000x10x1_S50000x10_d2 h_S_),
    TRef.binary (.of main_arg3) main_call0.v5 main_call0.v13 (fun x i => Host.gather gather_S100000x128_S50000x10x1_S50000x10x128_2_0_n_n_0_2_1128 x i),
    TRef.unary main_call0.v12 main_call0.v14 (broadcastInDim S50000x10x128 ![0, 1] bcast_S50000x10_S50000x10x128_0_1),
    TRef.nullary main_call0.cst (constant S_ .f32 0x7FC00000#32),
    TRef.unary main_call0.cst main_call0.v15 (broadcastInDim S50000x10x128 ![] bcast_S_S50000x10x128),
    TRef.ternary main_call0.v14 main_call0.v13 main_call0.v15 main_call0.v16 select,
    binary main_v3 main_v4 main_v5 ((fun l r => Host.dotGeneral dot_S50000x10_S50000x10x128_S50000x128_1_1_n_2_0_0 none l r) : (⟨S50000x10, .f32⟩ : BufTy).Contents (Elt F) → (⟨S50000x10x128, .f32⟩ : BufTy).Contents (Elt F) → (⟨S50000x128, .f32⟩ : BufTy).Contents (Elt F)),
    TRef.nullary main_call1.c (constantI S_ 32 0#32),
    TRef.unary main_call1.c main_call1.v0 (broadcastInDim S50000 ![] bcast_S_S50000),
    TRef.binary (.of main_arg0) main_call1.v0 main_call1.v1 (cmpi .slt),
    TRef.nullary main_call1.c_0 (constantI S_ 32 100000#32),
    TRef.unary main_call1.c_0 main_call1.v2 (broadcastInDim S50000 ![] bcast_S_S50000),
    TRef.binary (.of main_arg0) main_call1.v2 main_call1.v3 addi,
    TRef.ternary main_call1.v1 main_call1.v3 (.of main_arg0) main_call1.call0.v0 select,
    TRef.unary main_call1.call0.v0 main_call1.v5 (broadcastInDim S50000x1 ![0] bcast_S50000_S50000x1_0),
    TRef.nullary main_call1.c_1 (constantI S1 32 99999#32),
    TRef.nullary main_call1.c_2 (constantI S_ 32 0#32),
    TRef.unary main_call1.c_2 main_call1.v6 (broadcastInDim S50000x1 ![] bcast_S_S50000x1),
    TRef.binary main_call1.v5 main_call1.v6 main_call1.v7 (cmpi .sge),
    TRef.unary main_call1.c_1 main_call1.v8 (broadcastInDim S1x1 ![1] bcast_S1_S1x1_1),
    TRef.unary main_call1.v8 main_call1.v9 (broadcastInDim S50000x1 ![0, 1] bcast_S1x1_S50000x1_0_1),
    TRef.binary main_call1.v5 main_call1.v9 main_call1.v10 (cmpi .sle),
    TRef.binary main_call1.v7 main_call1.v10 main_call1.v11 andi,
    TRef.nullary main_call1.c_3 (constantI S_ 1 1#1),
    TRef.binary main_call1.v11 main_call1.c_3 main_call1.v12 (fun x v => Host.reduce IntOp.andi x v reducesTo_S50000x1_S50000_d1 h_S_),
    TRef.binary (.of main_arg3) main_call1.v5 main_call1.v13 (fun x i => Host.gather gather_S100000x128_S50000x1_S50000x128_1_0_n_n_0_1_1128 x i),
    TRef.unary main_call1.v12 main_call1.v14 (broadcastInDim S50000x128 ![0] bcast_S50000_S50000x128_0),
    TRef.nullary main_call1.cst (constant S_ .f32 0x7FC00000#32),
    TRef.unary main_call1.cst main_call1.v15 (broadcastInDim S50000x128 ![] bcast_S_S50000x128),
    TRef.ternary main_call1.v14 main_call1.v13 main_call1.v15 main_call1.v16 select,
    binary main_v6 main_arg4 main_v7 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg5 main_v8 (broadcastInDim S1x128 ![1] bcast_S128_S1x128_1 : (⟨S128, .f32⟩ : BufTy).Contents (Elt F) → (⟨S1x128, .f32⟩ : BufTy).Contents (Elt F)),
    unary main_v8 main_v9 (broadcastInDim S50000x128 ![0, 1] bcast_S1x128_S50000x128_0_1 : (⟨S1x128, .f32⟩ : BufTy).Contents (Elt F) → (⟨S50000x128, .f32⟩ : BufTy).Contents (Elt F)),
    binary main_v7 main_v9 main_v10 (addf : (⟨S50000x128, .f32⟩ : BufTy).Contents (Elt F) → (⟨S50000x128, .f32⟩ : BufTy).Contents (Elt F) → (⟨S50000x128, .f32⟩ : BufTy).Contents (Elt F)),
    binary main_v10 main_v5 main_v11 ((fun a b => concatenate S50000x256 1 [⟨S50000x128, a⟩, ⟨S50000x128, b⟩] concatenates_S50000x128_S50000x128_S50000x256_d1) : (⟨S50000x128, .f32⟩ : BufTy).Contents (Elt F) → (⟨S50000x128, .f32⟩ : BufTy).Contents (Elt F) → (⟨S50000x256, .f32⟩ : BufTy).Contents (Elt F)),
    binary main_v11 main_arg6 main_v12 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)),
    unary main_arg7 main_v13 (broadcastInDim S1x128 ![1] bcast_S128_S1x128_1 : (⟨S128, .f32⟩ : BufTy).Contents (Elt F) → (⟨S1x128, .f32⟩ : BufTy).Contents (Elt F)),
    unary main_v13 main_v14 (broadcastInDim S50000x128 ![0, 1] bcast_S1x128_S50000x128_0_1 : (⟨S1x128, .f32⟩ : BufTy).Contents (Elt F) → (⟨S50000x128, .f32⟩ : BufTy).Contents (Elt F)),
    binary main_v12 main_v14 main_v15 (addf : (⟨S50000x128, .f32⟩ : BufTy).Contents (Elt F) → (⟨S50000x128, .f32⟩ : BufTy).Contents (Elt F) → (⟨S50000x128, .f32⟩ : BufTy).Contents (Elt F)),
    unary main_v15 main_v16 (Host.negf : (⟨S50000x128, .f32⟩ : BufTy).Contents (Elt F) → (⟨S50000x128, .f32⟩ : BufTy).Contents (Elt F)),
    unary main_v16 main_v17 (Host.exp : (⟨S50000x128, .f32⟩ : BufTy).Contents (Elt F) → (⟨S50000x128, .f32⟩ : BufTy).Contents (Elt F)),
    nullary main_cst_0 (constant S_ .f32 0x3F800000#32),
    unary main_cst_0 main_v18 (broadcastInDim S50000x128 ![] bcast_S_S50000x128 : (⟨S_, .f32⟩ : BufTy).Contents (Elt F) → (⟨S50000x128, .f32⟩ : BufTy).Contents (Elt F)),
    binary main_v18 main_v17 main_v19 (addf : (⟨S50000x128, .f32⟩ : BufTy).Contents (Elt F) → (⟨S50000x128, .f32⟩ : BufTy).Contents (Elt F) → (⟨S50000x128, .f32⟩ : BufTy).Contents (Elt F)),
    nullary main_cst_1 (constant S_ .f32 0x3F800000#32),
    unary main_cst_1 main_v20 (broadcastInDim S50000x128 ![] bcast_S_S50000x128 : (⟨S_, .f32⟩ : BufTy).Contents (Elt F) → (⟨S50000x128, .f32⟩ : BufTy).Contents (Elt F)),
    binary main_v20 main_v19 main_v21 (Host.divf : (⟨S50000x128, .f32⟩ : BufTy).Contents (Elt F) → (⟨S50000x128, .f32⟩ : BufTy).Contents (Elt F) → (⟨S50000x128, .f32⟩ : BufTy).Contents (Elt F)),
    binary main_v15 main_v21 main_v22 (mulf : (⟨S50000x128, .f32⟩ : BufTy).Contents (Elt F) → (⟨S50000x128, .f32⟩ : BufTy).Contents (Elt F) → (⟨S50000x128, .f32⟩ : BufTy).Contents (Elt F)) ]

set_option maxRecDepth 8192 in
/-- @main is that straight line: sequencing grafts a continuation onto a finite tree of requests, so with the
    functions' definitions unfolded at their calls both sides compute to the same chain of steps. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., binary_bufs_sub .., unary_bufs_sub .., unary_bufs_sub .., binary_bufs_sub .., nullary_bufs_sub ..,
    unary_bufs_sub .., binary_bufs_sub .., nullary_bufs_sub .., unary_bufs_sub .., binary_bufs_sub .., ternary_bufs_sub ..,
    unary_bufs_sub .., nullary_bufs_sub .., nullary_bufs_sub .., unary_bufs_sub .., binary_bufs_sub .., unary_bufs_sub ..,
    unary_bufs_sub .., binary_bufs_sub .., binary_bufs_sub .., nullary_bufs_sub .., binary_bufs_sub .., binary_bufs_sub ..,
    unary_bufs_sub .., nullary_bufs_sub .., unary_bufs_sub .., ternary_bufs_sub .., binary_bufs_sub .., nullary_bufs_sub ..,
    unary_bufs_sub .., binary_bufs_sub .., nullary_bufs_sub .., unary_bufs_sub .., binary_bufs_sub .., ternary_bufs_sub ..,
    unary_bufs_sub .., nullary_bufs_sub .., nullary_bufs_sub .., unary_bufs_sub .., binary_bufs_sub .., unary_bufs_sub ..,
    unary_bufs_sub .., binary_bufs_sub .., binary_bufs_sub .., nullary_bufs_sub .., binary_bufs_sub .., binary_bufs_sub ..,
    unary_bufs_sub .., nullary_bufs_sub .., unary_bufs_sub .., ternary_bufs_sub .., binary_bufs_sub .., unary_bufs_sub ..,
    unary_bufs_sub .., binary_bufs_sub .., binary_bufs_sub .., binary_bufs_sub .., unary_bufs_sub .., unary_bufs_sub ..,
    binary_bufs_sub .., unary_bufs_sub .., unary_bufs_sub .., nullary_bufs_sub .., unary_bufs_sub .., binary_bufs_sub ..,
    nullary_bufs_sub .., unary_bufs_sub .., binary_bufs_sub .., binary_bufs_sub ..⟩

/-- Every TensorCore buffer after the run is the operations' fold over the launch contents. -/
theorem run_fold (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ

attribute [local irreducible] Host.reduce Host.gather Host.reduceAdd concatenate broadcastInDim in
set_option maxRecDepth 16384 in
set_option maxHeartbeats 2000000 in
/-- The fold at the result buffer is the composed term. -/
theorem out_eq (V : Valuation τ sig (Elt Ideal)) :
    after (ops (F := Ideal)) V (main_v22 : DevRef τ sig)
      = refVal (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) := by
  simp only [after_cons, after_nil]
  rfl

theorem arg0_eq (V : Valuation τ sig (Elt F)) : after (ops (F := F)) V (main_arg0 : DevRef τ sig) = V (main_arg0 : DevRef τ sig) := by
  after_results_simp
theorem arg1_eq (V : Valuation τ sig (Elt F)) : after (ops (F := F)) V (main_arg1 : DevRef τ sig) = V (main_arg1 : DevRef τ sig) := by
  after_results_simp
theorem arg2_eq (V : Valuation τ sig (Elt F)) : after (ops (F := F)) V (main_arg2 : DevRef τ sig) = V (main_arg2 : DevRef τ sig) := by
  after_results_simp
theorem arg3_eq (V : Valuation τ sig (Elt F)) : after (ops (F := F)) V (main_arg3 : DevRef τ sig) = V (main_arg3 : DevRef τ sig) := by
  after_results_simp
theorem arg4_eq (V : Valuation τ sig (Elt F)) : after (ops (F := F)) V (main_arg4 : DevRef τ sig) = V (main_arg4 : DevRef τ sig) := by
  after_results_simp
theorem arg5_eq (V : Valuation τ sig (Elt F)) : after (ops (F := F)) V (main_arg5 : DevRef τ sig) = V (main_arg5 : DevRef τ sig) := by
  after_results_simp
theorem arg6_eq (V : Valuation τ sig (Elt F)) : after (ops (F := F)) V (main_arg6 : DevRef τ sig) = V (main_arg6 : DevRef τ sig) := by
  after_results_simp
theorem arg7_eq (V : Valuation τ sig (Elt F)) : after (ops (F := F)) V (main_arg7 : DevRef τ sig) = V (main_arg7 : DevRef τ sig) := by
  after_results_simp

/-- On the one device, from any memory with zero counters: every weakly fair execution of @main terminates with the
    result buffer at the composed term of the arguments' launch contents and the arguments unchanged. -/
theorem run (m : (ℓ : Loc nD τ sig) → Buf (Elt Ideal) ℓ) (ρ : Dev nD → PrngReg) :
    θ_run (Cert.ReferenceIdeal.defs (F := Ideal)) (onTc (τ := τ) (Cert.ReferenceIdeal.main (F := Ideal))) ⟨m, fun _ => 0, ρ⟩ (fun r => ∀ c : Dev nD,
      r.2.mem ((c.tc : Thread nD τ).loc main_v22) = refVal (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨(h c main_v22).trans (out_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _)⟩)
    (run_fold m ρ)

end Cert.ReferenceIdeal.RefValue

end
-- ==== Proof.RefTake.lean ====
/-
  The reference's two row lookups read at an index. Where every index word is below the table's height, the
  negative-index wrap is the identity, the range mask is one everywhere, the gather's clamped start is the word's
  own value, and the select keeps the gathered row: the lookup at `(b, k, d)` (at `(b, d)` for the nodes) is the
  table's entry at the row the index names and column `d`.
-/
import proofs.«208500_g61899068670276_cont_9to1_m_775_47_alg».proof.Proof.RefRun
import proofs.«208500_g61899068670276_cont_9to1_m_775_47_alg».proof.Proof.Spec
import Idealize.ShloMosaic.Lib.ValueIdx
import Idealize.ShloMosaic.Lib.StableHlo.Predicate
import Idealize.ShloMosaic.PureOps.Reduce

noncomputable section

namespace Cert.ReferenceIdeal.RefValue

open Cert.ReferenceIdeal Cert.ReferenceIdeal.Gen Idealize.ShloMosaic Idealize.ShloMosaic.ValueIdx

/-! ## Words

An index word below `100000` read unsigned is non-negative read signed: the wrap leaves it, both range tests pass,
and the start-index clamp `min · 99999` of its signed reading is the word's unsigned value. -/

/-- The negative-index wrap leaves a word below `100000` alone. -/
theorem wrap_word {x y : BitVec 32} (hx : x.toNat < 100000) :
    Scalar.select (IntOp.cmpi .slt x 0#32) y x = x := by
  have hc : IntOp.cmpi .slt x 0#32 = 0#1 := eq_zero_of_ne_one (fun h => by
    have h' := (StableHlo.Predicate.slt_iff_toNat (a := x) (b := 0#32) (by omega) (by decide)).1 h
    have h0 : (0#32 : BitVec 32).toNat = 0 := rfl
    omega)
  rw [hc, select_zero]

/-- Both range tests pass on a word below `100000`. -/
theorem range_word {x : BitVec 32} (hx : x.toNat < 100000) :
    IntOp.andi (IntOp.cmpi .sge x 0#32) (IntOp.cmpi .sle x 99999#32) = 1#1 := by
  have h0 : (0#32 : BitVec 32).toNat = 0 := rfl
  have h9 : (99999#32 : BitVec 32).toNat = 99999 := rfl
  exact IntOp.andi_eq_one.2 ⟨(StableHlo.Predicate.sge_iff_toNat (by omega) (by omega)).2 (by omega),
    (StableHlo.Predicate.sle_iff_toNat (by omega) (by omega)).2 (by omega)⟩

/-- The clamp of the signed reading of a word below `100000` into `[0, 99999]` is its unsigned value. -/
theorem clamp_word {x : BitVec 32} (hx : x.toNat < 100000) : min x.toInt.toNat 99999 = x.toNat := by
  rw [BitVec.toInt_eq_toNat_of_lt (by omega), Int.toNat_natCast]
  omega

/-! ## A conjunction of ones -/

/-- A left fold by `and` from one over words that are all one is one. -/
theorem foldl_andi_ones {ι : Type} (f : ι → BitVec 1) :
    ∀ (l : List ι) (init : BitVec 1), init = 1#1 → (∀ n ∈ l, f n = 1#1) →
      l.foldl (fun r n => IntOp.andi r (f n)) init = 1#1
  | [], _, hi, _ => hi
  | a :: l, init, hi, hf => by
    rw [List.foldl_cons]
    refine foldl_andi_ones f l _ ?_ (fun n hn => hf n (List.mem_cons_of_mem _ hn))
    rw [hi, hf a (List.mem_cons_self ..)]; decide

/-- An `and`-reduction from one of an array of ones is one at every result index. -/
theorem reduce_andi_ones {s t u : Shape} {axes : List (Fin s.rank)} (x : s.Idx → BitVec 1) (init : u.Idx → BitVec 1)
    (h : s.ReducesTo axes t) (hu : 0 < u.numel) (j : t.Idx) (hi : init (Shape.Idx.first hu) = 1#1)
    (hx : ∀ i, x i = 1#1) : Host.reduce IntOp.andi x init h hu j = 1#1 := by
  rw [Host.reduce_eq_foldl]
  exact foldl_andi_ones x _ _ hi (fun n _ => hx n)

/-! ## The neighbours' lookup -/

theorem wrapN_apply (a1 : IVec S50000x10 32) (h1 : ∀ i, (a1 i).toNat < 100000) (i : S50000x10.Idx) :
    wrapN a1 i = a1 i :=
  wrap_word (h1 i)

theorem idxN_lt (a1 : IVec S50000x10 32) (h1 : ∀ i, (a1 i).toNat < 100000) (i : S50000x10x1.Idx) :
    (idxN a1 i).toNat < 100000 := by
  show (wrapN a1 _).toNat < 100000
  rw [wrapN_apply a1 h1]; exact h1 _

theorem maskN_apply (a1 : IVec S50000x10 32) (h1 : ∀ i, (a1 i).toNat < 100000) (j : S50000x10.Idx) :
    maskN a1 j = 1#1 :=
  reduce_andi_ones _ _ _ _ j rfl (fun i => range_word (idxN_lt a1 h1 i))

/-- The one-entry index vector at `(b, k, 0)` holds the wrapped index of `(b, k)`. -/
theorem idxN_apply (a1 : IVec S50000x10 32) (b : Fin 50000) (k : Fin 10) (z : Fin 1) :
    idxN a1 (ix3 b k z) = wrapN a1 (ix2 b k) := by
  show wrapN a1 _ = wrapN a1 (ix2 b k)
  congr 1
  funext a
  match a with
  | ⟨0, _⟩ => exact Fin.ext rfl
  | ⟨1, _⟩ => exact Fin.ext rfl

/-- A broadcast read at an index is the operand read at some index. -/
theorem bcast_reads {α : Type} {s t : Shape} (dims : Fin s.rank → Fin t.rank) (h : s.BroadcastsInDim t dims)
    (x : s.Idx → α) (j : t.Idx) : ∃ i, broadcastInDim t dims h x j = x i := ⟨_, rfl⟩

/-- The gather's operand index at result index `(b, k, d)`: the row the wrapped index names, column `d`. -/
theorem operandIdxN (a1 : IVec S50000x10 32) (h1 : ∀ i, (a1 i).toNat < 100000) (b : Fin 50000) (k : Fin 10) (d : Fin 128) :
    gather_S100000x128_S50000x10x1_S50000x10x128_2_0_n_n_0_2_1128.operandIdx (ix3 b k d) (idxN a1)
      = ix2 (⟨(a1 (ix2 b k)).toNat, h1 _⟩ : Fin 100000) d := by
  funext a
  refine Fin.ext ?_
  match a with
  | ⟨0, _⟩ =>
    show gather_S100000x128_S50000x10x1_S50000x10x128_2_0_n_n_0_2_1128.start (ix3 b k d) (idxN a1) 0
        + gather_S100000x128_S50000x10x1_S50000x10x128_2_0_n_n_0_2_1128.batchCoord (ix3 b k d) 0
        + gather_S100000x128_S50000x10x1_S50000x10x128_2_0_n_n_0_2_1128.offCoord (ix3 b k d) 0 = (a1 (ix2 b k)).toNat
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S100000x128_S50000x10x1_S50000x10x128_2_0_n_n_0_2_1128.startIndexMap from
      List.mem_singleton.mpr rfl)]
    have hsi : gather_S100000x128_S50000x10x1_S50000x10x128_2_0_n_n_0_2_1128.siIdx (ix3 b k d)
        ⟨List.idxOf (0 : Fin 2) gather_S100000x128_S50000x10x1_S50000x10x128_2_0_n_n_0_2_1128.startIndexMap,
          List.idxOf_lt_length_iff.2 (List.mem_singleton.mpr rfl)⟩ = ix3 b k (0 : Fin 1) := by
      funext c; refine Fin.ext ?_
      match c with
      | ⟨0, _⟩ => rfl
      | ⟨1, _⟩ => rfl
      | ⟨2, _⟩ => rfl
    rw [hsi, idxN_apply, wrapN_apply a1 h1]
    exact clamp_word (h1 _)
  | ⟨1, _⟩ =>
    show gather_S100000x128_S50000x10x1_S50000x10x128_2_0_n_n_0_2_1128.start (ix3 b k d) (idxN a1) 1
        + gather_S100000x128_S50000x10x1_S50000x10x128_2_0_n_n_0_2_1128.batchCoord (ix3 b k d) 1
        + gather_S100000x128_S50000x10x1_S50000x10x128_2_0_n_n_0_2_1128.offCoord (ix3 b k d) 1 = d.val
    rw [GatherDims.batchCoord_eq_zero _ _ _ List.not_mem_nil]
    have hs : gather_S100000x128_S50000x10x1_S50000x10x128_2_0_n_n_0_2_1128.start (ix3 b k d) (idxN a1) 1 = 0 := by
      unfold GatherDims.start
      rw [dif_neg (by decide)]
    rw [hs]
    simp only [Nat.zero_add]
    rfl

/-- The neighbours' rows read at `(b, k, d)`: the table's row that neighbour `k` of batch row `b` names, at column `d`. -/
theorem rowsN_apply (a3 : FVec Ideal S100000x128 .f32) (a1 : IVec S50000x10 32) (h1 : ∀ i, (a1 i).toNat < 100000)
    (b : Fin 50000) (k : Fin 10) (d : Fin 128) :
    rowsN a3 a1 (ix3 b k d) = Cert.Spec.tab a3 (a1 (ix2 b k)).toNat d := by
  obtain ⟨i, hi⟩ := bcast_reads ![0, 1] bcast_S50000x10_S50000x10x128_0_1 (maskN a1) (ix3 b k d)
  unfold rowsN
  rw [select_apply, hi, maskN_apply a1 h1 i, select_one]
  unfold Host.gather
  rw [operandIdxN a1 h1, Cert.Spec.tab, dif_pos (h1 _)]

/-! ## The nodes' lookup -/

theorem wrapS_apply (a0 : IVec S50000 32) (h0 : ∀ i, (a0 i).toNat < 100000) (i : S50000.Idx) :
    wrapS a0 i = a0 i :=
  wrap_word (h0 i)

theorem idxS_lt (a0 : IVec S50000 32) (h0 : ∀ i, (a0 i).toNat < 100000) (i : S50000x1.Idx) :
    (idxS a0 i).toNat < 100000 := by
  show (wrapS a0 _).toNat < 100000
  rw [wrapS_apply a0 h0]; exact h0 _

theorem maskS_apply (a0 : IVec S50000 32) (h0 : ∀ i, (a0 i).toNat < 100000) (j : S50000.Idx) :
    maskS a0 j = 1#1 :=
  reduce_andi_ones _ _ _ _ j rfl (fun i => range_word (idxS_lt a0 h0 i))

/-- The one-entry index vector at `(b, 0)` holds the wrapped index of `b`. -/
theorem idxS_apply (a0 : IVec S50000 32) (b : Fin 50000) (z : Fin 1) :
    idxS a0 (ix2 b z) = wrapS a0 (ix1 b) := by
  show wrapS a0 _ = wrapS a0 (ix1 b)
  congr 1
  funext a
  match a with
  | ⟨0, _⟩ => exact Fin.ext rfl

/-- The gather's operand index at result index `(b, d)`: the row the wrapped index names, column `d`. -/
theorem operandIdxS (a0 : IVec S50000 32) (h0 : ∀ i, (a0 i).toNat < 100000) (b : Fin 50000) (d : Fin 128) :
    gather_S100000x128_S50000x1_S50000x128_1_0_n_n_0_1_1128.operandIdx (ix2 b d) (idxS a0)
      = ix2 (⟨(a0 (ix1 b)).toNat, h0 _⟩ : Fin 100000) d := by
  funext a
  refine Fin.ext ?_
  match a with
  | ⟨0, _⟩ =>
    show gather_S100000x128_S50000x1_S50000x128_1_0_n_n_0_1_1128.start (ix2 b d) (idxS a0) 0
        + gather_S100000x128_S50000x1_S50000x128_1_0_n_n_0_1_1128.batchCoord (ix2 b d) 0
        + gather_S100000x128_S50000x1_S50000x128_1_0_n_n_0_1_1128.offCoord (ix2 b d) 0 = (a0 (ix1 b)).toNat
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S100000x128_S50000x1_S50000x128_1_0_n_n_0_1_1128.startIndexMap from List.mem_singleton.mpr rfl)]
    have hsi : gather_S100000x128_S50000x1_S50000x128_1_0_n_n_0_1_1128.siIdx (ix2 b d)
        ⟨List.idxOf (0 : Fin 2) gather_S100000x128_S50000x1_S50000x128_1_0_n_n_0_1_1128.startIndexMap,
          List.idxOf_lt_length_iff.2 (List.mem_singleton.mpr rfl)⟩ = ix2 b (0 : Fin 1) := by
      funext c; refine Fin.ext ?_
      match c with
      | ⟨0, _⟩ => rfl
      | ⟨1, _⟩ => rfl
    rw [hsi, idxS_apply, wrapS_apply a0 h0]
    exact clamp_word (h0 _)
  | ⟨1, _⟩ =>
    show gather_S100000x128_S50000x1_S50000x128_1_0_n_n_0_1_1128.start (ix2 b d) (idxS a0) 1
        + gather_S100000x128_S50000x1_S50000x128_1_0_n_n_0_1_1128.batchCoord (ix2 b d) 1
        + gather_S100000x128_S50000x1_S50000x128_1_0_n_n_0_1_1128.offCoord (ix2 b d) 1 = d.val
    rw [GatherDims.batchCoord_eq_zero _ _ _ List.not_mem_nil]
    have hs : gather_S100000x128_S50000x1_S50000x128_1_0_n_n_0_1_1128.start (ix2 b d) (idxS a0) 1 = 0 := by
      unfold GatherDims.start
      rw [dif_neg (by decide)]
    rw [hs]
    simp only [Nat.zero_add]
    rfl

/-- The nodes' rows read at `(b, d)`: the table's row that node `b` names, at column `d`. -/
theorem rowsS_apply (a3 : FVec Ideal S100000x128 .f32) (a0 : IVec S50000 32) (h0 : ∀ i, (a0 i).toNat < 100000)
    (b : Fin 50000) (d : Fin 128) :
    rowsS a3 a0 (ix2 b d) = Cert.Spec.tab a3 (a0 (ix1 b)).toNat d := by
  obtain ⟨i, hi⟩ := bcast_reads ![0] bcast_S50000_S50000x128_0 (maskS a0) (ix2 b d)
  unfold rowsS
  rw [select_apply, hi, maskS_apply a0 h0 i, select_one]
  unfold Host.gather
  rw [operandIdxS a0 h0, Cert.Spec.tab, dif_pos (h0 _)]

end Cert.ReferenceIdeal.RefValue

end
-- ==== Proof.RefStages.lean ====
/-
  Two stages of the reference read at an index, over any operands: the closing product with the logistic, and the
  concatenation of two `50000 × 128` arrays along their columns.
-/
import proofs.«208500_g61899068670276_cont_9to1_m_775_47_alg».proof.Proof.Gen.ReferenceIdeal
import proofs.«208500_g61899068670276_cont_9to1_m_775_47_alg».proof.Proof.Spec
import Idealize.ShloMosaic.Lib.ValueIdx
import Idealize.ShloMosaic.Lib.IdealHost
import Idealize.ShloMosaic.Lib.Pipeline.Value

noncomputable section

namespace Cert.ReferenceIdeal.RefValue

open Cert.ReferenceIdeal Cert.ReferenceIdeal.Gen Idealize.ShloMosaic Idealize.ShloMosaic.ValueIdx

/-! ## The closing product

`p · (1 / (1 + e^(-p)))` with both ones the f32 pattern of `1.0`: at the extended reals, `p` times the logistic of `p`. -/

/-- The f32 pattern of `1.0` is the extended real one. -/
theorem one_f32 : Ideal.ofBits .f32 0x3F800000#32 = 1 := Ideal.ofBits_one_f32

theorem tail_apply (p : FVec Ideal S50000x128 .f32) (i : S50000x128.Idx) :
    mulf p (Host.divf (broadcastInDim S50000x128 ![] bcast_S_S50000x128 (constant (F := Ideal) S_ .f32 0x3F800000#32))
      (addf (broadcastInDim S50000x128 ![] bcast_S_S50000x128 (constant (F := Ideal) S_ .f32 0x3F800000#32))
        (Host.exp (Host.negf p)))) i = Cert.Spec.swish (p i) := by
  show p i * Ideal.div (Ideal.ofBits .f32 0x3F800000#32) (Ideal.ofBits .f32 0x3F800000#32 + Ideal.exp (-(p i)))
    = p i * Ideal.div 1 (1 + Ideal.exp (-(p i)))
  rw [one_f32]

/-! ## The concatenation

Column `j` of two `50000 × 128` arrays side by side: the first array's column `j` for `j < 128`, the second's column `j - 128` after. -/

theorem concat_apply (x y : FVec Ideal S50000x128 .f32) (b : Fin 50000) (j : Fin 256) :
    concatenate S50000x256 1 [⟨S50000x128, x⟩, ⟨S50000x128, y⟩] concatenates_S50000x128_S50000x128_S50000x256_d1 (ix2 b j)
      = if h : j.val < 128 then x (ix2 b ⟨j.val, h⟩) else y (ix2 b ⟨j.val - 128, by have := j.isLt; omega⟩) := by
  by_cases h : j.val < 128
  · rw [dif_pos h]
    refine concatenate_pair_apply_left 1 x y _ (ix2 b j) rfl (ix2 b ⟨j.val, h⟩) (fun c => ?_)
    match c with
    | ⟨0, _⟩ => rfl
    | ⟨1, _⟩ => rfl
  · rw [dif_neg h]
    refine concatenate_pair_apply_right 1 x y _ (ix2 b j) rfl rfl (ix2 b ⟨j.val - 128, by have := j.isLt; omega⟩)
      (fun c hc => ?_) ?_
    · match c with
      | ⟨0, _⟩ => rfl
      | ⟨1, _⟩ => exact absurd rfl hc
    · show j.val - 128 + 128 = j.val
      omega

end Cert.ReferenceIdeal.RefValue

end
-- ==== Proof.RefRead.lean ====
/-
  The reference's result read at one entry. Where every node and neighbour index lies below the table's height, the
  entry at row `b`, column `e` of the composed term is the specification's `refOut`: the weights divided by their
  row sum, the ten neighbours' table rows weighted and summed, the node's own row through the first affine map, the
  two side by side through the second, and the product with the logistic — each stage read at an index, the three
  contractions as sums over their one contracted axis.
-/
import proofs.«208500_g61899068670276_cont_9to1_m_775_47_alg».proof.Proof.RefRun
import proofs.«208500_g61899068670276_cont_9to1_m_775_47_alg».proof.Proof.RefTake
import proofs.«208500_g61899068670276_cont_9to1_m_775_47_alg».proof.Proof.RefStages
import proofs.«208500_g61899068670276_cont_9to1_m_775_47_alg».proof.Proof.Spec
import Idealize.ShloMosaic.Lib.ValueIdx
import Idealize.ShloMosaic.PureOps.Ideal.Laws

noncomputable section

open scoped BigOperators

namespace Cert.ReferenceIdeal.RefValue

open Cert.ReferenceIdeal Cert.ReferenceIdeal.Gen Idealize.ShloMosaic Idealize.ShloMosaic.ValueIdx

/-! ## Pointwise host operations at an index -/

theorem hostDivf_apply {s : Shape} {φ : FTy} (x y : FVec Ideal s φ) (i : s.Idx) : Host.divf x y i = Ideal.div (x i) (y i) := rfl
theorem hostNegf_apply {s : Shape} {φ : FTy} (x : FVec Ideal s φ) (i : s.Idx) : Host.negf x i = -(x i) := rfl
theorem hostExp_apply {s : Shape} {φ : FTy} (x : FVec Ideal s φ) (i : s.Idx) : Host.exp x i = Ideal.exp (x i) := rfl

/-! ## The weights' normalisation -/

theorem bcast_col_apply {α : Type} (v : S50000.Idx → α) (b : Fin 50000) (z : Fin 1) :
    broadcastInDim S50000x1 ![0] bcast_S50000_S50000x1_0 v (ix2 b z) = v (ix1 b) := by
  unfold broadcastInDim
  congr 1
  funext a
  match a with
  | ⟨0, _⟩ => rfl

theorem bcast_row_apply {α : Type} (v : S50000x1.Idx → α) (b : Fin 50000) (k : Fin 10) :
    broadcastInDim S50000x10 ![0, 1] bcast_S50000x1_S50000x10_0_1 v (ix2 b k) = v (ix2 b (0 : Fin 1)) := by
  unfold broadcastInDim
  congr 1
  funext a
  match a with
  | ⟨0, _⟩ => rfl
  | ⟨1, _⟩ => rfl

theorem wsum_apply (a2 : FVec Ideal S50000x10 .f32) (b : Fin 50000) :
    Host.reduceAdd a2 (constant (F := Ideal) S_ .f32 0x00000000#32) reducesTo_S50000x10_S50000_d1 h_S_ (ix1 b) = Cert.Spec.wsum a2 b := by
  show Ideal.hostReduceAdd reducesTo_S50000x10_S50000_d1 a2 (Ideal.ofBits .f32 0x00000000#32) (ix1 b) = _
  rw [Ideal.hostReduceAdd_single reducesTo_S50000x10_S50000_d1 (by decide) a2 _ (ix1 b), Ideal.ofBits_zero_f32, zero_add]
  unfold Cert.Spec.wsum
  refine Finset.sum_congr rfl fun k _ => congrArg a2 ?_
  funext a
  refine Fin.ext ?_
  match a with
  | ⟨0, _⟩ => rfl
  | ⟨1, _⟩ => rfl

theorem wnorm_apply (a2 : FVec Ideal S50000x10 .f32) (b : Fin 50000) (k : Fin 10) :
    wnorm a2 (ix2 b k) = Ideal.div (a2 (ix2 b k)) (Cert.Spec.wsum a2 b) := by
  unfold wnorm
  rw [hostDivf_apply, bcast_row_apply, bcast_col_apply, wsum_apply]

/-! ## The three contractions at an index -/

theorem lhsN_0 (j : S50000x128.Idx) (q : dot_S50000x10_S50000x10x128_S50000x128_1_1_n_2_0_0.contr.Idx) :
    (dot_S50000x10_S50000x10x128_S50000x128_1_1_n_2_0_0.lhsIdx j q 0).val = (j 0).val := rfl
theorem lhsN_1 (j : S50000x128.Idx) (q : dot_S50000x10_S50000x10x128_S50000x128_1_1_n_2_0_0.contr.Idx) :
    (dot_S50000x10_S50000x10x128_S50000x128_1_1_n_2_0_0.lhsIdx j q 1).val = (q ⟨0, by decide⟩).val :=
  DotDims.lhsIdx_val_of_single _ (cl := 1) rfl j q
theorem rhsN_0 (j : S50000x128.Idx) (q : dot_S50000x10_S50000x10x128_S50000x128_1_1_n_2_0_0.contr.Idx) :
    (dot_S50000x10_S50000x10x128_S50000x128_1_1_n_2_0_0.rhsIdx j q 0).val = (j 0).val := rfl
theorem rhsN_1 (j : S50000x128.Idx) (q : dot_S50000x10_S50000x10x128_S50000x128_1_1_n_2_0_0.contr.Idx) :
    (dot_S50000x10_S50000x10x128_S50000x128_1_1_n_2_0_0.rhsIdx j q 1).val = (q ⟨0, by decide⟩).val :=
  DotDims.rhsIdx_val_of_single _ (cr := 1) rfl j q
theorem rhsN_2 (j : S50000x128.Idx) (q : dot_S50000x10_S50000x10x128_S50000x128_1_1_n_2_0_0.contr.Idx) :
    (dot_S50000x10_S50000x10x128_S50000x128_1_1_n_2_0_0.rhsIdx j q 2).val = (j 1).val := rfl

/-- The batched contraction at row `b`, column `d`: the sum over the ten neighbours. -/
theorem dotN_apply (x : FVec Ideal S50000x10 .f32) (y : FVec Ideal S50000x10x128 .f32) (b : Fin 50000) (d : Fin 128) :
    Host.dotGeneral dot_S50000x10_S50000x10x128_S50000x128_1_1_n_2_0_0 none x y (ix2 b d)
      = ∑ k : Fin 10, x (ix2 b k) * y (ix3 b k d) := by
  show FloatOps.dotGeneral dot_S50000x10_S50000x10x128_S50000x128_1_1_n_2_0_0 none .single x y (ix2 b d) = _
  rw [Ideal.dotGeneral_apply,
    ← Equiv.sum_comp (contrEquiv1 dot_S50000x10_S50000x10x128_S50000x128_1_1_n_2_0_0 10 rfl rfl).symm]
  refine Finset.sum_congr rfl fun k _ => ?_
  have hk := contrEquiv1_symm_val dot_S50000x10_S50000x10x128_S50000x128_1_1_n_2_0_0 10 rfl rfl k
  congr 1
  · congr 1; funext a; refine Fin.ext ?_
    match a with
    | ⟨0, _⟩ => exact lhsN_0 _ _
    | ⟨1, _⟩ => exact (lhsN_1 _ _).trans hk
  · congr 1; funext a; refine Fin.ext ?_
    match a with
    | ⟨0, _⟩ => exact rhsN_0 _ _
    | ⟨1, _⟩ => exact (rhsN_1 _ _).trans hk
    | ⟨2, _⟩ => exact rhsN_2 _ _

theorem lhsI_0 (j : S50000x128.Idx) (q : dot_S50000x128_S128x128_S50000x128_1_0_0_1_n_n.contr.Idx) :
    (dot_S50000x128_S128x128_S50000x128_1_0_0_1_n_n.lhsIdx j q 0).val = (j 0).val := rfl
theorem lhsI_1 (j : S50000x128.Idx) (q : dot_S50000x128_S128x128_S50000x128_1_0_0_1_n_n.contr.Idx) :
    (dot_S50000x128_S128x128_S50000x128_1_0_0_1_n_n.lhsIdx j q 1).val = (q ⟨0, by decide⟩).val :=
  DotDims.lhsIdx_val_of_single _ (cl := 1) rfl j q
theorem rhsI_0 (j : S50000x128.Idx) (q : dot_S50000x128_S128x128_S50000x128_1_0_0_1_n_n.contr.Idx) :
    (dot_S50000x128_S128x128_S50000x128_1_0_0_1_n_n.rhsIdx j q 0).val = (q ⟨0, by decide⟩).val :=
  DotDims.rhsIdx_val_of_single _ (cr := 0) rfl j q
theorem rhsI_1 (j : S50000x128.Idx) (q : dot_S50000x128_S128x128_S50000x128_1_0_0_1_n_n.contr.Idx) :
    (dot_S50000x128_S128x128_S50000x128_1_0_0_1_n_n.rhsIdx j q 1).val = (j 1).val := rfl

/-- The first plain contraction at row `b`, column `e`: the sum over the 128 columns of the left operand. -/
theorem dotI_apply (x : FVec Ideal S50000x128 .f32) (y : FVec Ideal S128x128 .f32) (b : Fin 50000) (e : Fin 128) :
    Host.dotGeneral dot_S50000x128_S128x128_S50000x128_1_0_0_1_n_n none x y (ix2 b e)
      = ∑ d : Fin 128, x (ix2 b d) * y (ix2 d e) := by
  show FloatOps.dotGeneral dot_S50000x128_S128x128_S50000x128_1_0_0_1_n_n none .single x y (ix2 b e) = _
  rw [Ideal.dotGeneral_apply,
    ← Equiv.sum_comp (contrEquiv1 dot_S50000x128_S128x128_S50000x128_1_0_0_1_n_n 128 rfl rfl).symm]
  refine Finset.sum_congr rfl fun k _ => ?_
  have hk := contrEquiv1_symm_val dot_S50000x128_S128x128_S50000x128_1_0_0_1_n_n 128 rfl rfl k
  congr 1
  · congr 1; funext a; refine Fin.ext ?_
    match a with
    | ⟨0, _⟩ => exact lhsI_0 _ _
    | ⟨1, _⟩ => exact (lhsI_1 _ _).trans hk
  · congr 1; funext a; refine Fin.ext ?_
    match a with
    | ⟨0, _⟩ => exact (rhsI_0 _ _).trans hk
    | ⟨1, _⟩ => exact rhsI_1 _ _

theorem lhsF_0 (j : S50000x128.Idx) (q : dot_S50000x256_S256x128_S50000x128_1_0_0_1_n_n.contr.Idx) :
    (dot_S50000x256_S256x128_S50000x128_1_0_0_1_n_n.lhsIdx j q 0).val = (j 0).val := rfl
theorem lhsF_1 (j : S50000x128.Idx) (q : dot_S50000x256_S256x128_S50000x128_1_0_0_1_n_n.contr.Idx) :
    (dot_S50000x256_S256x128_S50000x128_1_0_0_1_n_n.lhsIdx j q 1).val = (q ⟨0, by decide⟩).val :=
  DotDims.lhsIdx_val_of_single _ (cl := 1) rfl j q
theorem rhsF_0 (j : S50000x128.Idx) (q : dot_S50000x256_S256x128_S50000x128_1_0_0_1_n_n.contr.Idx) :
    (dot_S50000x256_S256x128_S50000x128_1_0_0_1_n_n.rhsIdx j q 0).val = (q ⟨0, by decide⟩).val :=
  DotDims.rhsIdx_val_of_single _ (cr := 0) rfl j q
theorem rhsF_1 (j : S50000x128.Idx) (q : dot_S50000x256_S256x128_S50000x128_1_0_0_1_n_n.contr.Idx) :
    (dot_S50000x256_S256x128_S50000x128_1_0_0_1_n_n.rhsIdx j q 1).val = (j 1).val := rfl

/-- The second plain contraction at row `b`, column `e`: the sum over the 256 columns of the left operand. -/
theorem dotF_apply (x : FVec Ideal S50000x256 .f32) (y : FVec Ideal S256x128 .f32) (b : Fin 50000) (e : Fin 128) :
    Host.dotGeneral dot_S50000x256_S256x128_S50000x128_1_0_0_1_n_n none x y (ix2 b e)
      = ∑ j : Fin 256, x (ix2 b j) * y (ix2 j e) := by
  show FloatOps.dotGeneral dot_S50000x256_S256x128_S50000x128_1_0_0_1_n_n none .single x y (ix2 b e) = _
  rw [Ideal.dotGeneral_apply,
    ← Equiv.sum_comp (contrEquiv1 dot_S50000x256_S256x128_S50000x128_1_0_0_1_n_n 256 rfl rfl).symm]
  refine Finset.sum_congr rfl fun k _ => ?_
  have hk := contrEquiv1_symm_val dot_S50000x256_S256x128_S50000x128_1_0_0_1_n_n 256 rfl rfl k
  congr 1
  · congr 1; funext a; refine Fin.ext ?_
    match a with
    | ⟨0, _⟩ => exact lhsF_0 _ _
    | ⟨1, _⟩ => exact (lhsF_1 _ _).trans hk
  · congr 1; funext a; refine Fin.ext ?_
    match a with
    | ⟨0, _⟩ => exact (rhsF_0 _ _).trans hk
    | ⟨1, _⟩ => exact rhsF_1 _ _

/-! ## The bias rows -/

/-- A length-128 row spread over the 50000 rows reads its own column. -/
theorem bias_apply (v : FVec Ideal S128 .f32) (b : Fin 50000) (e : Fin 128) :
    broadcastInDim S50000x128 ![0, 1] bcast_S1x128_S50000x128_0_1 (broadcastInDim S1x128 ![1] bcast_S128_S1x128_1 v) (ix2 b e)
      = v (ix1 e) := by
  unfold broadcastInDim
  congr 1
  funext a
  match a with
  | ⟨0, _⟩ => rfl

/-! ## The stages at an index -/

/-- The weighted neighbour mean is the specification's, the reference's arrangement. -/
theorem neigh_apply (a1 : IVec S50000x10 32) (a2 : FVec Ideal S50000x10 .f32) (a3 : FVec Ideal S100000x128 .f32)
    (h1 : ∀ i, (a1 i).toNat < 100000) (b : Fin 50000) (d : Fin 128) :
    neigh a1 a2 a3 (ix2 b d) = Cert.Spec.neighR a1 a2 a3 b d := by
  unfold neigh Cert.Spec.neighR
  rw [dotN_apply]
  refine Finset.sum_congr rfl fun k _ => ?_
  rw [wnorm_apply, rowsN_apply a3 a1 h1]

/-- The node's own row through the first affine map. -/
theorem selfFeats_apply (a0 : IVec S50000 32) (a3 : FVec Ideal S100000x128 .f32) (a4 : FVec Ideal S128x128 .f32)
    (a5 : FVec Ideal S128 .f32) (h0 : ∀ i, (a0 i).toNat < 100000) (b : Fin 50000) (j : Fin 128) :
    selfFeats a0 a3 a4 a5 (ix2 b j)
      = (∑ d : Fin 128, Cert.Spec.selfRow a0 a3 b d * a4 (ix2 d j)) + a5 (ix1 j) := by
  unfold selfFeats
  rw [addf_apply, dotI_apply, bias_apply]
  refine congrArg (fun t => t + a5 (ix1 j)) ?_
  refine Finset.sum_congr rfl fun d _ => ?_
  rw [rowsS_apply a3 a0 h0]
  rfl

/-- The concatenation is the specification's column. -/
theorem combined_apply (a0 : IVec S50000 32) (a1 : IVec S50000x10 32) (a2 : FVec Ideal S50000x10 .f32)
    (a3 : FVec Ideal S100000x128 .f32) (a4 : FVec Ideal S128x128 .f32) (a5 : FVec Ideal S128 .f32)
    (h0 : ∀ i, (a0 i).toNat < 100000) (h1 : ∀ i, (a1 i).toNat < 100000) (b : Fin 50000) (j : Fin 256) :
    combined a0 a1 a2 a3 a4 a5 (ix2 b j) = Cert.Spec.combined a0 a1 a2 a3 a4 a5 b j := by
  unfold combined Cert.Spec.combined
  rw [concat_apply]
  split
  · next h => exact selfFeats_apply a0 a3 a4 a5 h0 b ⟨j.val, h⟩
  · next h => exact neigh_apply a1 a2 a3 h1 b _

/-- The pre-activation is the specification's. -/
theorem pre_apply (a0 : IVec S50000 32) (a1 : IVec S50000x10 32) (a2 : FVec Ideal S50000x10 .f32)
    (a3 : FVec Ideal S100000x128 .f32) (a4 : FVec Ideal S128x128 .f32) (a5 : FVec Ideal S128 .f32)
    (a6 : FVec Ideal S256x128 .f32) (a7 : FVec Ideal S128 .f32)
    (h0 : ∀ i, (a0 i).toNat < 100000) (h1 : ∀ i, (a1 i).toNat < 100000) (b : Fin 50000) (e : Fin 128) :
    pre a0 a1 a2 a3 a4 a5 a6 a7 (ix2 b e) = Cert.Spec.refPre a0 a1 a2 a3 a4 a5 a6 a7 b e := by
  unfold pre Cert.Spec.refPre
  rw [addf_apply, dotF_apply, bias_apply]
  refine congrArg (fun t => t + a7 (ix1 e)) ?_
  refine Finset.sum_congr rfl fun j _ => ?_
  rw [combined_apply a0 a1 a2 a3 a4 a5 h0 h1]

/-- The reference's result read at row `b`, column `e`, where every index is in range: the specification's. -/
theorem refVal_apply (a0 : IVec S50000 32) (a1 : IVec S50000x10 32) (a2 : FVec Ideal S50000x10 .f32)
    (a3 : FVec Ideal S100000x128 .f32) (a4 : FVec Ideal S128x128 .f32) (a5 : FVec Ideal S128 .f32)
    (a6 : FVec Ideal S256x128 .f32) (a7 : FVec Ideal S128 .f32)
    (h0 : ∀ i, (a0 i).toNat < 100000) (h1 : ∀ i, (a1 i).toNat < 100000) (b : Fin 50000) (e : Fin 128) :
    refVal a0 a1 a2 a3 a4 a5 a6 a7 (ValueIdx.ix2 b e) = Cert.Spec.refOut a0 a1 a2 a3 a4 a5 a6 a7 b e := by
  unfold refVal Cert.Spec.refOut
  rw [tail_apply, pre_apply a0 a1 a2 a3 a4 a5 a6 a7 h0 h1]

end Cert.ReferenceIdeal.RefValue

end
-- ==== Proof.KBase.lean ====
import proofs.«208500_g61899068670276_cont_9to1_m_775_47_alg».proof.KernelIdeal
import proofs.«208500_g61899068670276_cont_9to1_m_775_47_alg».proof.Proof.Gen.KernelIdeal
import proofs.«208500_g61899068670276_cont_9to1_m_775_47_alg».proof.Proof.Gen.KernelIdeal.Skeleton
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic

noncomputable section

namespace Cert.Proof.K

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the staging cells' rounds, the transfers' counters -/

abbrev UH : Type := URounds (GSem nD τ sig) ℕ
abbrev URc : Type := UR sig nD τ
abbrev UU : Type := UH × (URc × Counters)

local notation "𝕄" => MT nD τ sig (HIx 1) (Elt F) ℕ UU ℕ

/-- The handshakes' rounds: the left factor. -/
abbrev EH : Emb UH (MT nD τ sig (HIx 1) (Elt F) ℕ UU ℕ) := embL
/-- The staging cells' rounds: the left of the right factor. -/
def ER : Emb URc (MT nD τ sig (HIx 1) (Elt F) ℕ UU ℕ) :=
  (Emb.inl : Emb URc (URc × Counters)).trans (embR : Emb (URc × Counters) (MT nD τ sig (HIx 1) (Elt F) ℕ UU ℕ))

instance ER_landsIn : (ER : Emb URc 𝕄).LandsIn (upEmb : UEmb _ 𝕄) := by unfold ER embR; infer_instance

/-! ## Places -/

abbrev cV (L : grid0.Coords) : Fin τ.nSC := (L 0).castLE hcore0
abbrev jV (L : grid0.Coords) : Fin τ.nSub := (L 1).castLE hsub0

def coordsV (c : Fin (grid0.bound 0)) (s : Fin (grid0.bound 1)) : grid0.Coords :=
  fun | 0 => c | 1 => s | ⟨_ + 2, h⟩ => absurd h (Nat.not_lt.2 (Nat.le_add_left _ _))

/-! ## The arrays -/

abbrev nidxLoc (d : Dev nD) : Loc nD τ sig := (SparseCore.T d).loc main_v1
abbrev nodesLoc (d : Dev nD) : Loc nD τ sig := (SparseCore.T d).loc main_v4
abbrev wLoc (d : Dev nD) : Loc nD τ sig := (SparseCore.T d).loc main_v3
abbrev tblLoc (d : Dev nD) : Loc nD τ sig := (SparseCore.T d).loc main_arg3
abbrev noutLoc (d : Dev nD) : Loc nD τ sig := (SparseCore.T d).loc main_v5_0
abbrev soutLoc (d : Dev nD) : Loc nD τ sig := (SparseCore.T d).loc main_v5_1

abbrev nidxV : Memref sig .scVector .hbm S505920 .i32 := Memref.whole main_v1_scv
abbrev nodesV : Memref sig .scVector .hbm S50592 .i32 := Memref.whole main_v4_scv
abbrev wV : Memref sig .scVector .hbm S505920 .f32 := Memref.whole main_v3_scv
abbrev tblV : Memref sig .scVector .hbm S100000x128 .f32 := Memref.whole main_arg3_scv
abbrev noutV : Memref sig .scVector .hbm S50176x128 .f32 := Memref.whole main_v5_0_scv
abbrev soutV : Memref sig .scVector .hbm S50176x128 .f32 := Memref.whole main_v5_1_scv

abbrev sNidx : Memref sig .scVector .vmem S17760 .i32 := Memref.whole cc0_scratch0
abbrev sNodes : Memref sig .scVector .vmem S1776 .i32 := Memref.whole cc0_scratch1
abbrev sW : Memref sig .scVector .vmem S17760 .f32 := Memref.whole cc0_scratch2
abbrev sRows0 : Memref sig .scVector .vmem S80x128 .f32 := Memref.whole cc0_scratch3
abbrev sRows1 : Memref sig .scVector .vmem S80x128 .f32 := Memref.whole cc0_scratch4
abbrev sSst0 : Memref sig .scVector .vmem S8x128 .f32 := Memref.whole cc0_scratch5
abbrev sSst1 : Memref sig .scVector .vmem S8x128 .f32 := Memref.whole cc0_scratch6
abbrev sNout0 : Memref sig .scVector .vmem S8x128 .f32 := Memref.whole cc0_scratch7
abbrev sNout1 : Memref sig .scVector .vmem S8x128 .f32 := Memref.whole cc0_scratch8

/-- The kernel function at tile `L`, on the arguments the body table passes it. -/
abbrev kernelAt [FloatOps F] (L : grid0.Coords) :=
  cc0_sc_kernel (F := F) L nidxV (Memref.isWhole_whole _) nodesV (Memref.isWhole_whole _) wV (Memref.isWhole_whole _) tblV (Memref.isWhole_whole _)
    noutV (Memref.isWhole_whole _) soutV (Memref.isWhole_whole _) sNidx (Memref.isWhole_whole _) sNodes (Memref.isWhole_whole _) sW (Memref.isWhole_whole _)
    sRows0 (Memref.isWhole_whole _) sRows1 (Memref.isWhole_whole _) sSst0 (Memref.isWhole_whole _) sSst1 (Memref.isWhole_whole _)
    sNout0 (Memref.isWhole_whole _) sNout1 (Memref.isWhole_whole _)
    cc0_scratch9 cc0_scratch10 cc0_scratch11 cc0_scratch12 cc0_scratch13 cc0_scratch14 cc0_scratch15 cc0_scratch16 cc0_scoped0 cc0_scoped1 cc0_scoped2

theorem defs₀_vector [FloatOps F] (c : Fin τ.nSC) (s : Fin τ.nSub) :
    defs₀ (F := F) (.scVector c s) 0 () = SparseCore.onTile hcore0 hsub0 (fun c s => kernelAt (F := F) (coordsV c s)) ⟨⟩ c s := rfl

end Cert.Proof.K

end
-- ==== Proof.KSetup.lean ====
import proofs.«208500_g61899068670276_cont_9to1_m_775_47_alg».proof.Proof.KBase
import Idealize.ShloMosaic.Lib.Transfers
import Idealize.ShloMosaic.Rules.PointsTo

noncomputable section

namespace Cert.Proof.K

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-! ## The launch memory and what the host leaves in the padded arrays -/

variable (m : (ℓ : Loc nD τ sig) → Buf (Elt F) ℓ) (ρ : Dev nD → PrngReg)

abbrev arg0Loc (d : Dev nD) : Loc nD τ sig := (SparseCore.T d).loc main_arg0
abbrev arg1Loc (d : Dev nD) : Loc nD τ sig := (SparseCore.T d).loc main_arg1
abbrev arg2Loc (d : Dev nD) : Loc nD τ sig := (SparseCore.T d).loc main_arg2

/-- The neighbour indices, flattened, then padded with 5920 zeros. -/
def nidxF (d : Dev nD) : S505920.Idx → BitVec 32 :=
  pad S505920 ![0] ![5920] ![0] (shapeCast S500000 (m (arg1Loc d)) shapeCasts_S50000x10_S500000) (constantI S_ 32 0#32) pads_S500000_S505920_059200 h_S_

/-- The nodes, padded with 592 zeros. -/
def nodesF (d : Dev nD) : S50592.Idx → BitVec 32 :=
  pad S50592 ![0] ![592] ![0] (m (arg0Loc d)) (constantI S_ 32 0#32) pads_S50000_S50592_05920 h_S_

variable [FloatOps F]

/-- The neighbour weights, flattened, then padded with 5920 ones. -/
def wF (d : Dev nD) : S505920.Idx → F .f32 :=
  pad S505920 ![0] ![5920] ![0] (shapeCast S500000 (m (arg2Loc d)) shapeCasts_S50000x10_S500000) (constant S_ .f32 0x3F800000#32) pads_S500000_S505920_059200 h_S_

/-- What the body needs of the launch memory: every node and every neighbour index names a row of the table. -/
def PreOK : Prop :=
  ∀ d : Dev nD, (∀ x, (m (arg0Loc d) x).toNat < 100000) ∧ (∀ x, (m (arg1Loc d) x).toNat < 100000)

/-! ## The rows of the two results -/

/-- The first padded row of tile `(c, s)`, and its number of groups of eight rows. -/
def rowBase (c s : ℕ) : ℕ := 3136 * s + 1776 * c
def ngcN (c : ℕ) : ℕ := if c = 0 then 222 else 170

/-- The indices of the rows `[a, a + n)` of a result. -/
def rowsFrom (a n : ℕ) : Finset S50176x128.Idx := Finset.univ.filter fun x => a ≤ (x 0).val ∧ (x 0).val < a + n

def tileRowsN (c s : ℕ) : Finset S50176x128.Idx := rowsFrom (rowBase c s) (8 * ngcN c)
def grpRowsN (c s g : ℕ) : Finset S50176x128.Idx := rowsFrom (rowBase c s + 8 * g) 8
def coreRowsN (c : ℕ) : Finset S50176x128.Idx := (Finset.univ : Finset (Fin 16)).biUnion fun s => tileRowsN c s.val

abbrev ngc (L : grid0.Coords) : ℕ := ngcN (L 0).val
abbrev tileRows (L : grid0.Coords) : Finset S50176x128.Idx := tileRowsN (L 0).val (L 1).val
abbrev grpRows (L : grid0.Coords) (g : ℕ) : Finset S50176x128.Idx := grpRowsN (L 0).val (L 1).val g

omit [FloatOps F] in
theorem mem_rowsFrom {a n : ℕ} {x : S50176x128.Idx} : x ∈ rowsFrom a n ↔ a ≤ (x 0).val ∧ (x 0).val < a + n := by
  unfold rowsFrom; simp

theorem k0_off2_rowBase (L : grid0.Coords) : k0_off2 L = ![rowBase (L 0).val (L 1).val] := by
  rw [k0_off2_eq]; rfl
theorem k0_off1_rowBase (L : grid0.Coords) : k0_off1 L = ![10 * rowBase (L 0).val (L 1).val] := by
  rw [k0_off1_eq]; unfold rowBase; congr 1; omega

/-! ## What a tile leaves in its rows -/

/-- Ten terms, summed from the left. -/
def sum10 (x : Fin 10 → F .f32) : F .f32 :=
  FloatOps.addf (FloatOps.addf (FloatOps.addf (FloatOps.addf (FloatOps.addf (FloatOps.addf (FloatOps.addf (FloatOps.addf (FloatOps.addf
    (x 0) (x 1)) (x 2)) (x 3)) (x 4)) (x 5)) (x 6)) (x 7)) (x 8)) (x 9)

/-- A flat index. -/
def flat1 {n : ℕ} (k : ℕ) (h : k < n) : (⟨1, ![n]⟩ : Shape).Idx := fun a => ⟨k, by
  have : a = 0 := Subsingleton.elim _ _
  subst this; exact h⟩

/-- The table's row a word names (the word reduced into range: in range already under `PreOK`), at a column. -/
def tblAt (t : S100000x128.Idx → F .f32) (w : BitVec 32) (col : Fin 128) : F .f32 :=
  t (Shape.pair (d := ![100000, 128]) ⟨w.toNat % 100000, Nat.mod_lt _ (by decide)⟩ col)

omit [FloatOps F] in
theorem flat_lt (x : S50176x128.Idx) (j : Fin 10) : (x 0).val * 10 + j.val < 505920 := by
  have h : (x 0).val < 50176 := (x 0).isLt
  omega
omit [FloatOps F] in
theorem row_lt (x : S50176x128.Idx) : (x 0).val < 50592 := by
  have h : (x 0).val < 50176 := (x 0).isLt
  omega

/-- Row `R` of the self result: the table's row the padded node `R` names. -/
def selfVal (d : Dev nD) : Buf (Elt F) (soutLoc d) := fun x =>
  tblAt (m (tblLoc d)) (nodesF m d (flat1 (x 0).val (row_lt x))) (x 1)

/-- Row `R` of the neighbour result: the weighted sum of the ten table rows the padded neighbour indices
    `10 R + j` name, times the reciprocal of the ten weights' sum; both sums from the left. -/
def neighVal (d : Dev nD) : Buf (Elt F) (noutLoc d) := fun x =>
  FloatOps.mulf
    (sum10 fun j => FloatOps.mulf (wF m d (flat1 ((x 0).val * 10 + j.val) (flat_lt x j)))
      (tblAt (m (tblLoc d)) (nidxF m d (flat1 ((x 0).val * 10 + j.val) (flat_lt x j))) (x 1)))
    (FloatOps.divf (Scalar.ofBits .f32 0x3F800000#32) (sum10 fun j => wF m d (flat1 ((x 0).val * 10 + j.val) (flat_lt x j))))

/-! ## What the handshakes carry -/

/-- The read share of SparseCore `c`, and of its tile `s`. -/
def coreShare (c : ℕ) : PosShare TreeShare := Transfers.shareTokN fullShare c
def tileShare (c s : ℕ) : PosShare TreeShare := Transfers.shareTokN (coreShare c) s

/-- The four arrays the kernel only reads, whole, at a share. -/
def inPts (d : Dev nD) (q : PosShare TreeShare) : sProp 𝕄 :=
  iprop((nidxLoc d ↦{q} (nidxF m d : Buf (Elt F) (nidxLoc d))) ∗ (nodesLoc d ↦{q} (nodesF m d : Buf (Elt F) (nodesLoc d)))
    ∗ (wLoc d ↦{q} (wF m d : Buf (Elt F) (wLoc d))) ∗ (tblLoc d ↦{q} m (tblLoc d)))

/-- The rows `R` of the two results, at given contents. -/
def outPts (d : Dev nD) (R : Finset S50176x128.Idx) (fn : Buf (Elt F) (noutLoc d)) (fs : Buf (Elt F) (soutLoc d)) : sProp 𝕄 :=
  iprop((noutLoc d ↦[R]{fullShare} fn) ∗ (soutLoc d ↦[R]{fullShare} fs))

def coreSt (d : Dev nD) (c : ℕ) : sProp 𝕄 := iprop(inPts m d (coreShare c) ∗ outPts d (coreRowsN c) (m (noutLoc d)) (m (soutLoc d)))
def coreDn (d : Dev nD) (c : ℕ) : sProp 𝕄 := iprop(inPts m d (coreShare c) ∗ outPts d (coreRowsN c) (neighVal m d) (selfVal m d))
def tileGoN (d : Dev nD) (c s : ℕ) : sProp 𝕄 := iprop(inPts m d (tileShare c s) ∗ outPts d (tileRowsN c s) (m (noutLoc d)) (m (soutLoc d)))
def tileTdN (d : Dev nD) (c s : ℕ) : sProp 𝕄 := iprop(inPts m d (tileShare c s) ∗ outPts d (tileRowsN c s) (neighVal m d) (selfVal m d))

abbrev tileGo (d : Dev nD) (L : grid0.Coords) : sProp 𝕄 := tileGoN m d (L 0).val (L 1).val
abbrev tileTd (d : Dev nD) (L : grid0.Coords) : sProp 𝕄 := tileTdN m d (L 0).val (L 1).val

instance inPts_storable (d : Dev nD) (q : PosShare TreeShare) : BI.Storable (upEmb : UEmb _ 𝕄) (inPts m d q) := by
  unfold inPts; infer_instance
instance outPts_storable (d : Dev nD) (R : Finset S50176x128.Idx) (fn : Buf (Elt F) (noutLoc d)) (fs : Buf (Elt F) (soutLoc d)) :
    BI.Storable (upEmb : UEmb _ 𝕄) (outPts (F := F) d R fn fs) := by
  unfold outPts; infer_instance

/-- The one call: each SparseCore is handed a read share of the four inputs and its rows of the two results, each tile
    likewise; they come back with the rows at the two result functions. -/
def P : (K (F := F)).Pay (nD := nD) (Val := Elt F) (Name := ℕ) (U := UU) where
  st := fun _ d c => coreSt m d c.val
  dn := fun _ d c => coreDn m d c.val
  go := fun _ d c i => tileGoN m d c.val i.val
  td := fun _ d c i => tileTdN m d c.val i.val
  x := fun _ _ => iprop(emp)

instance P_storable : (P (F := F) m).IsStorable where
  st _ d c := by unfold P coreSt; infer_instance
  dn _ d c := by unfold P coreDn; infer_instance
  go _ d c i := by unfold P tileGoN; infer_instance
  td _ d c i := by unfold P tileTdN; infer_instance

/-! ## The tile's task, stated -/

/-- The body obligation of one tile, at a symbolic place: from the tile's read shares, its rows of the two results at
    their launch contents, its scoped storage and what it owes, the kernel function runs and leaves its rows at the
    two result functions. -/
def TileBody : Prop :=
  ∀ (hF : (K (F := F)).Facts) (hpre : PreOK m) (d : Dev nD) (L : grid0.Coords) (O : CellTallies nD τ sig (HIx 1)) (W : Waits sig (HIx 1))
    (hO : ∀ g, O g none = 0),
    iprop(levAts (K (F := F)).L (K (F := F)).lev ∗ emp ∗ tileGo m d L
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ (kernelAt (F := F) L)
          fun _ => iprop(tileTd m d L ∗ scopedBufs (V d (cV L) (jV L)) ∗ scopedSems0 (V d (cV L) (jV L))
            ∗ ∃ W', ⌜∀ p ∈ W', p ∈ W ∨ p.2 = none⌝ ∗ owes (V d (cV L) (jV L)) O W')

end Cert.Proof.K

end
-- ==== Proof.KHost.lean ====
/-
  The host part of the kernel program's @main on the TensorCore: the eleven operations before the SparseCore call
  (each of the three padded arrays: a reshape or nothing, the fill constant, its conversion, the pad) and the two
  reshapes after it, as two straight lines; @main as those lines around the two calls; the set of the TensorCore's
  unscoped arrays and the launch valuation; and what the two lines leave: the three padded arrays at the flattened,
  padded arguments, the two bias rows reshaped, every other array as it was.
-/
import proofs.«208500_g61899068670276_cont_9to1_m_775_47_alg».proof.Proof.KSetup

noncomputable section

namespace Cert.Proof.K

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.StableHlo

variable {F : FTy → Type}

local notation "𝕄" => MT nD τ sig (HIx 1) (Elt F) ℕ UU ℕ

/-! ## The two lines -/

section Lines
variable [FloatOps F]

/-- The eleven host operations before the SparseCore call, the three pads unfolded at their calls. -/
abbrev opsA : List (HloOp τ sig (Elt F)) :=
  [ reshape main_arg1 main_v0 rfl shapeCasts_S50000x10_S500000,
    nullary main_c (constantI S_ 32 0#32),
    TRef.unary (.of main_c : TRef sig ⟨S_, .i32⟩) main_call0.v0 id,
    TRef.binary (.of main_v0 : TRef sig ⟨S500000, .i32⟩) main_call0.v0 main_call0.v1 (fun x v => pad S505920 ![0] ![5920] ![0] x v pads_S500000_S505920_059200 h_S_),
    reshape main_arg2 main_v2 rfl shapeCasts_S50000x10_S500000,
    nullary main_cst (constant S_ .f32 0x3F800000#32),
    TRef.unary (.of main_cst : TRef sig ⟨S_, .f32⟩) main_call1.v0 id,
    TRef.binary (.of main_v2 : TRef sig ⟨S500000, .f32⟩) main_call1.v0 main_call1.v1 (fun x v => pad S505920 ![0] ![5920] ![0] x v pads_S500000_S505920_059200 h_S_),
    nullary main_c_0 (constantI S_ 32 0#32),
    TRef.unary (.of main_c_0 : TRef sig ⟨S_, .i32⟩) main_call2.v0 id,
    TRef.binary (.of main_arg0 : TRef sig ⟨S50000, .i32⟩) main_call2.v0 main_call2.v1 (fun x v => pad S50592 ![0] ![592] ![0] x v pads_S50000_S50592_05920 h_S_) ]

/-- The two reshapes between the SparseCore call and the TensorCore kernel. -/
abbrev opsB : List (HloOp τ sig (Elt F)) :=
  [ reshape main_arg5 main_v6 rfl shapeCasts_S128_S1x128,
    reshape main_arg7 main_v7 rfl shapeCasts_S128_S1x128 ]

/-- @main is the first line, the SparseCore call, the second line, the TensorCore kernel. -/
theorem main_eq (d : Dev nD) :
    main (F := F) d = (seq (opsA (F := F)) >>= fun _ => (sc (F := F)).run d 0 >>= fun _ => seq (opsB (F := F)) >>= fun _ =>
      Prog.lift (.customCall (SparseCore.inner (Pipeline.entry 0)) ()) >>= fun _ => pure ⟨⟩) := rfl

end Lines

/-! ## The TensorCore's unscoped arrays -/

/-- Every unscoped array of the TensorCore, as device buffers. -/
def Sall : Finset (DevRef τ sig) :=
  (Finset.univ.filter fun b : Ref sig .tc => ¬ b.isScoped).map ⟨Proc.devRef .tc, Proc.devRef_injective _⟩

/-- The launch valuation of device `d`. -/
abbrev V0 (m : (ℓ : Loc nD τ sig) → Buf (Elt F) ℓ) (d : Dev nD) : Valuation τ sig (Elt F) := fun b => m (d, b)

theorem unscoped_held (m : (ℓ : Loc nD τ sig) → Buf (Elt F) ℓ) (d : Dev nD) :
    (unscopedBufs d (fun b => m ((SparseCore.T d).loc b)) : sProp 𝕄) = held (T d) Sall (V0 m d) := by
  unfold unscopedBufs held Sall
  rw [bigSep_map]
  rfl

theorem devRef_mem_Sall (b : Ref sig .tc) (h : b.isScoped = false) : (Proc.devRef .tc b : DevRef τ sig) ∈ Sall :=
  Finset.mem_map_of_mem _ (Finset.mem_filter.mpr ⟨Finset.mem_univ b, by simp [h]⟩)

theorem sub1 {y : Ref sig .tc} (hy : y.isScoped = false) : ({Proc.devRef .tc y} : Finset (DevRef τ sig)) ⊆ Sall :=
  Finset.singleton_subset_iff.mpr (devRef_mem_Sall y hy)
theorem sub2 {x y : Ref sig .tc} (hx : x.isScoped = false) (hy : y.isScoped = false) :
    ({Proc.devRef .tc x, Proc.devRef .tc y} : Finset (DevRef τ sig)) ⊆ Sall :=
  Finset.insert_subset (devRef_mem_Sall x hx) (sub1 hy)
theorem sub3 {a b y : Ref sig .tc} (ha : a.isScoped = false) (hb : b.isScoped = false) (hy : y.isScoped = false) :
    ({Proc.devRef .tc a, Proc.devRef .tc b, Proc.devRef .tc y} : Finset (DevRef τ sig)) ⊆ Sall :=
  Finset.insert_subset (devRef_mem_Sall a ha) (sub2 hb hy)

section Facts
variable [FloatOps F]

/-- Every operation of the first line touches unscoped arrays only … -/
theorem hA : ∀ op ∈ (opsA : List (HloOp τ sig (Elt F))), op.bufs ⊆ Sall := by
  intro op h
  cases h with | head => exact sub2 rfl rfl | tail _ h => ?_
  cases h with | head => exact sub1 rfl | tail _ h => ?_
  cases h with | head => exact sub2 rfl rfl | tail _ h => ?_
  cases h with | head => exact sub3 rfl rfl rfl | tail _ h => ?_
  cases h with | head => exact sub2 rfl rfl | tail _ h => ?_
  cases h with | head => exact sub1 rfl | tail _ h => ?_
  cases h with | head => exact sub2 rfl rfl | tail _ h => ?_
  cases h with | head => exact sub3 rfl rfl rfl | tail _ h => ?_
  cases h with | head => exact sub1 rfl | tail _ h => ?_
  cases h with | head => exact sub2 rfl rfl | tail _ h => ?_
  cases h with | head => exact sub3 rfl rfl rfl | tail _ h => ?_
  exact nomatch h

/-- … and determines its results. -/
theorem hAf : ∀ op ∈ (opsA : List (HloOp τ sig (Elt F))), op.fresh = ∅ := by
  intro _ h; (repeat (cases h with | head => rfl | tail _ h => ?_)); exact nomatch h

theorem hB : ∀ op ∈ (opsB : List (HloOp τ sig (Elt F))), op.bufs ⊆ Sall := by
  intro op h
  cases h with | head => exact sub2 rfl rfl | tail _ h => ?_
  cases h with | head => exact sub2 rfl rfl | tail _ h => ?_
  exact nomatch h

theorem hBf : ∀ op ∈ (opsB : List (HloOp τ sig (Elt F))), op.fresh = ∅ := by
  intro _ h; (repeat (cases h with | head => rfl | tail _ h => ?_)); exact nomatch h

/-! ## What the first line leaves -/

variable (m : (ℓ : Loc nD τ sig) → Buf (Elt F) ℓ)

/-- The padded neighbour indices. -/
theorem afterA_v1 (d : Dev nD) : after (opsA (F := F)) (V0 m d) (Proc.devRef .tc main_v1) = nidxF m d := by
  after_results
  rfl
/-- The padded weights. -/
theorem afterA_v3 (d : Dev nD) : after (opsA (F := F)) (V0 m d) (Proc.devRef .tc main_v3) = wF m d := by
  after_results
  rfl
/-- The padded nodes. -/
theorem afterA_v4 (d : Dev nD) : after (opsA (F := F)) (V0 m d) (Proc.devRef .tc main_v4) = nodesF m d := by
  after_results
  rfl

theorem afterA_arg0 (W : Valuation τ sig (Elt F)) : after (opsA (F := F)) W (Proc.devRef .tc main_arg0) = W (Proc.devRef .tc main_arg0) := by
  after_results_simp
theorem afterA_arg1 (W : Valuation τ sig (Elt F)) : after (opsA (F := F)) W (Proc.devRef .tc main_arg1) = W (Proc.devRef .tc main_arg1) := by
  after_results_simp
theorem afterA_arg2 (W : Valuation τ sig (Elt F)) : after (opsA (F := F)) W (Proc.devRef .tc main_arg2) = W (Proc.devRef .tc main_arg2) := by
  after_results_simp
theorem afterA_arg3 (W : Valuation τ sig (Elt F)) : after (opsA (F := F)) W (Proc.devRef .tc main_arg3) = W (Proc.devRef .tc main_arg3) := by
  after_results_simp
theorem afterA_arg4 (W : Valuation τ sig (Elt F)) : after (opsA (F := F)) W (Proc.devRef .tc main_arg4) = W (Proc.devRef .tc main_arg4) := by
  after_results_simp
theorem afterA_arg5 (W : Valuation τ sig (Elt F)) : after (opsA (F := F)) W (Proc.devRef .tc main_arg5) = W (Proc.devRef .tc main_arg5) := by
  after_results_simp
theorem afterA_arg6 (W : Valuation τ sig (Elt F)) : after (opsA (F := F)) W (Proc.devRef .tc main_arg6) = W (Proc.devRef .tc main_arg6) := by
  after_results_simp
theorem afterA_arg7 (W : Valuation τ sig (Elt F)) : after (opsA (F := F)) W (Proc.devRef .tc main_arg7) = W (Proc.devRef .tc main_arg7) := by
  after_results_simp
theorem afterA_v5_0 (W : Valuation τ sig (Elt F)) : after (opsA (F := F)) W (Proc.devRef .tc main_v5_0) = W (Proc.devRef .tc main_v5_0) := by
  after_results_simp
theorem afterA_v5_1 (W : Valuation τ sig (Elt F)) : after (opsA (F := F)) W (Proc.devRef .tc main_v5_1) = W (Proc.devRef .tc main_v5_1) := by
  after_results_simp
theorem afterA_v6 (W : Valuation τ sig (Elt F)) : after (opsA (F := F)) W (Proc.devRef .tc main_v6) = W (Proc.devRef .tc main_v6) := by
  after_results_simp
theorem afterA_v7 (W : Valuation τ sig (Elt F)) : after (opsA (F := F)) W (Proc.devRef .tc main_v7) = W (Proc.devRef .tc main_v7) := by
  after_results_simp
theorem afterA_v8 (W : Valuation τ sig (Elt F)) : after (opsA (F := F)) W (Proc.devRef .tc main_v8) = W (Proc.devRef .tc main_v8) := by
  after_results_simp

/-! ## What the second line leaves -/

theorem afterB_v6 (W : Valuation τ sig (Elt F)) :
    after (opsB (F := F)) W (Proc.devRef .tc main_v6) = fun i => shapeCast S1x128 (W (Proc.devRef .tc main_arg5)) shapeCasts_S128_S1x128 i := by
  after_results
  rfl
theorem afterB_v7 (W : Valuation τ sig (Elt F)) :
    after (opsB (F := F)) W (Proc.devRef .tc main_v7) = fun i => shapeCast S1x128 (W (Proc.devRef .tc main_arg7)) shapeCasts_S128_S1x128 i := by
  after_results
  rfl
/-- Every array but the two reshaped rows is as it was. -/
theorem afterB_ne (W : Valuation τ sig (Elt F)) (r : Ref sig .tc) (h6 : r ≠ main_v6) (h7 : r ≠ main_v7) :
    after (opsB (F := F)) W (Proc.devRef .tc r) = W (Proc.devRef .tc r) := by
  simp only [after_cons, after_nil]
  rw [reshape_result_ne _ _ _ _ _ _ _ h7, reshape_result_ne _ _ _ _ _ _ _ h6]

end Facts

end Cert.Proof.K

end
-- ==== Proof.KLaunch.lean ====
import proofs.«208500_g61899068670276_cont_9to1_m_775_47_alg».proof.Proof.KSetup
import proofs.«208500_g61899068670276_cont_9to1_m_775_47_alg».proof.Proof.KHost
import proofs.«208500_g61899068670276_cont_9to1_m_775_47_alg».proof.Proof.Gen.KernelIdeal.Launch

noncomputable section

namespace Cert.Proof.K

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sub_split held_sdiff_result wp_hlo_within wp_seq seq after)
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

variable [FloatOps F]

/-! ## The tile's obligation, from the body -/

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hbody : TileBody (F := F) m) (hF : (K (F := F)).Facts) (hpre : PreOK m) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (hbody hF hpre d (coordsV ⟨_, hc.1⟩ ⟨_, hc.2⟩) O W hO).trans (wp_mono frame _ _ fun _ => obl_post)

/-! ## How a SparseCore's operands split among its tiles -/

omit [FloatOps F] in
theorem tileRows_disjoint (c : ℕ) :
    ∀ s ∈ (Finset.univ : Finset (Fin 16)), ∀ s' ∈ (Finset.univ : Finset (Fin 16)), s ≠ s' → Disjoint (tileRowsN c s.val) (tileRowsN c s'.val) := by
  intro s _ s' _ hne
  rw [Finset.disjoint_left]; intro x hx hx'
  unfold tileRowsN at hx hx'; rw [mem_rowsFrom] at hx hx'
  have hv : s.val ≠ s'.val := fun h => hne (Fin.ext h)
  unfold rowBase ngcN at hx hx'
  split_ifs at hx hx' <;> omega

omit [FloatOps F] in
theorem outPts_tiles (d : Dev nD) (c : ℕ) (fn : Buf (Elt F) (noutLoc d)) (fs : Buf (Elt F) (soutLoc d)) :
    outPts (F := F) d (coreRowsN c) fn fs = bigSep Finset.univ fun s : Fin 16 => outPts (F := F) d (tileRowsN c s.val) fn fs := by
  unfold outPts coreRowsN
  rw [pointsTo_biUnion Finset.univ (ℓ := noutLoc d) (fun s : Fin 16 => tileRowsN c s.val) (tileRows_disjoint c),
    pointsTo_biUnion Finset.univ (ℓ := soutLoc d) (fun s : Fin 16 => tileRowsN c s.val) (tileRows_disjoint c)]
  exact (bigSep_sep' _ _ _).symm

theorem inPts_split (d : Dev nD) (q : PosShare TreeShare) (n : ℕ) :
    inPts m d q ⊢ iprop(inPts m d (Transfers.shareDrop q n) ∗ bigSep Finset.univ fun i : Fin n => inPts m d (Transfers.shareTokN q i.val)) := by
  unfold inPts
  rw [bigSep_sep', bigSep_sep', bigSep_sep']
  iintro ⟨H1, H2, H3, H4⟩
  ihave H1' := (Transfers.pointsTo_toks_split q n) $$ H1
  ihave H2' := (Transfers.pointsTo_toks_split q n) $$ H2
  ihave H3' := (Transfers.pointsTo_toks_split q n) $$ H3
  ihave H4' := (Transfers.pointsTo_toks_split q n) $$ H4
  icases H1' with ⟨A1, B1⟩
  icases H2' with ⟨A2, B2⟩
  icases H3' with ⟨A3, B3⟩
  icases H4' with ⟨A4, B4⟩
  isplitl [A1 A2 A3 A4]
  · isplitl [A1]; · iexact A1
    isplitl [A2]; · iexact A2
    isplitl [A3]; · iexact A3
    iexact A4
  · isplitl [B1]; · iexact B1
    isplitl [B2]; · iexact B2
    isplitl [B3]; · iexact B3
    iexact B4

theorem inPts_join (d : Dev nD) (q : PosShare TreeShare) (n : ℕ) :
    iprop(inPts m d (Transfers.shareDrop q n) ∗ bigSep Finset.univ fun i : Fin n => inPts m d (Transfers.shareTokN q i.val)) ⊢ inPts m d q := by
  unfold inPts
  rw [bigSep_sep', bigSep_sep', bigSep_sep']
  iintro ⟨⟨A1, A2, A3, A4⟩, B1, B2, B3, B4⟩
  isplitl [A1 B1]
  · iapply (Transfers.pointsTo_toks_join q n); isplitl [A1]; · iexact A1
    iexact B1
  isplitl [A2 B2]
  · iapply (Transfers.pointsTo_toks_join q n); isplitl [A2]; · iexact A2
    iexact B2
  isplitl [A3 B3]
  · iapply (Transfers.pointsTo_toks_join q n); isplitl [A3]; · iexact A3
    iexact B3
  · iapply (Transfers.pointsTo_toks_join q n); isplitl [A4]; · iexact A4
    iexact B4

theorem vecSplit : (K (F := F)).VecSplit' (P m) 0 := by
  intro d c
  show coreSt m d c.val ⊢ |={Set.univ}=> iprop((bigSep (Finset.univ : Finset (Fin 16)) fun i => tileGoN m d c.val i.val)
      ∗ ((bigSep (Finset.univ : Finset (Fin 16)) fun i => tileTdN m d c.val i.val) -∗ coreDn m d c.val))
  unfold coreSt coreDn tileGoN tileTdN tileShare
  rw [bigSep_sep', bigSep_sep', outPts_tiles, outPts_tiles]
  iintro ⟨Hin, Hout⟩
  ihave Hin' := (inPts_split m d (coreShare c.val) 16) $$ Hin
  icases Hin' with ⟨Hrem, Htoks⟩
  imodintro
  isplitl [Htoks Hout]
  · isplitl [Htoks]; · iexact Htoks
    iexact Hout
  iintro ⟨Htoks, Hout⟩
  isplitl [Hrem Htoks]
  · iapply (inPts_join m d (coreShare c.val) 16)
    isplitl [Hrem]; · iexact Hrem
    iexact Htoks
  iexact Hout

/-! ## The launch element: the handshakes' rounds, the staging cells' rounds, nothing of the kernel's own -/

def u₀ : UU :=
  (initOf (K (F := F)).hsCells (K (F := F)).hsToks, (initOf (Pipeline.cells cfgs cellOf_inj) (Pipeline.launchToks cfgs cellOf_inj), 1))

/-- What the launch deals device `d`'s TensorCore for its one pipeline: the staging cells' ghost state and the
    transfers' duty tokens. -/
abbrev G (d : Dev nD) : sProp 𝕄 := iprop(Pipeline.cellsGhost cfgs ER 0 d ∗ Pipeline.toksInit cfgs ER 0 d)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P m).x q thr) := by
  unfold u₀
  iintro Hu
  ihave H := (ownU_pair _ _) $$ Hu
  icases H with ⟨HH, HR⟩
  ihave HR' := (own_pair_emb embR _ _) $$ HR
  icases HR' with ⟨HRr0, -⟩
  ihave HRr := (show (BI.own (((Emb.inl : Emb URc (URc × Counters)).trans (embR : Emb (URc × Counters) 𝕄)) (initOf (Pipeline.cells cfgs cellOf_inj) (Pipeline.launchToks cfgs cellOf_inj))) : sProp 𝕄)
      ⊢ BI.own (ER (F := F) (initOf (Pipeline.cells cfgs cellOf_inj) (Pipeline.launchToks cfgs cellOf_inj))) from BI.Entails.refl _) $$ HRr0
  imod (Pipeline.fund_ghost cfgs (ER (F := F)) cellOf_inj) $$ HRr with ⟨Hg, Ht⟩
  imodintro
  isplitl [HH]; · iexact HH
  isplitl [Hg Ht]
  · simp only [bigSep_univ_of_subsingleton (0 : Fin 1)]
    isplitl [Hg]; · iexact Hg
    iexact Ht
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## What @main leaves, and how the final memory reads it -/

abbrev arg3Loc (d : Dev nD) : Loc nD τ sig := (SparseCore.T d).loc main_arg3
abbrev arg4Loc (d : Dev nD) : Loc nD τ sig := (SparseCore.T d).loc main_arg4
abbrev arg5Loc (d : Dev nD) : Loc nD τ sig := (SparseCore.T d).loc main_arg5
abbrev arg6Loc (d : Dev nD) : Loc nD τ sig := (SparseCore.T d).loc main_arg6
abbrev arg7Loc (d : Dev nD) : Loc nD τ sig := (SparseCore.T d).loc main_arg7
abbrev v6Loc (d : Dev nD) : Loc nD τ sig := (SparseCore.T d).loc main_v6
abbrev v7Loc (d : Dev nD) : Loc nD τ sig := (SparseCore.T d).loc main_v7
abbrev v8Loc (d : Dev nD) : Loc nD τ sig := (SparseCore.T d).loc main_v8

variable (tcVal : FVec F S50176x128 .f32 → FVec F S50176x128 .f32 → FVec F S128x128 .f32 → FVec F S256x128 .f32 → FVec F S1x128 .f32 → FVec F S1x128 .f32
  → FVec F S50000x128 .f32)

/-- The two biases as the TensorCore kernel reads them: reshaped to one row. -/
def biasI (d : Dev nD) : FVec F S1x128 .f32 := shapeCast S1x128 (m (arg5Loc d)) shapeCasts_S128_S1x128
def biasF (d : Dev nD) : FVec F S1x128 .f32 := shapeCast S1x128 (m (arg7Loc d)) shapeCasts_S128_S1x128

/-- The result: the TensorCore kernel's function of the two intermediate arrays and the weights. -/
def kval (d : Dev nD) : Buf (Elt F) (v8Loc d) :=
  tcVal (selfVal m d) (neighVal m d) (m (arg4Loc d)) (m (arg6Loc d)) (biasI m d) (biasF m d)

/-- The eight arguments, whole, at their launch contents. -/
def argsPts (d : Dev nD) : sProp 𝕄 :=
  iprop((arg0Loc d ↦{fullShare} m (arg0Loc d)) ∗ (arg1Loc d ↦{fullShare} m (arg1Loc d)) ∗ (arg2Loc d ↦{fullShare} m (arg2Loc d))
    ∗ (arg3Loc d ↦{fullShare} m (arg3Loc d)) ∗ (arg4Loc d ↦{fullShare} m (arg4Loc d)) ∗ (arg5Loc d ↦{fullShare} m (arg5Loc d))
    ∗ (arg6Loc d ↦{fullShare} m (arg6Loc d)) ∗ (arg7Loc d ↦{fullShare} m (arg7Loc d)))

def FIN (d : Dev nD) : sProp 𝕄 := iprop((v8Loc d ↦{fullShare} kval m tcVal d) ∗ argsPts m d)

def fq (d : Dev nD) (s' : Phys nD τ sig (Elt F)) : Prop :=
  s'.mem.mem (v8Loc d) = kval m tcVal d ∧ s'.mem.mem (arg0Loc d) = m (arg0Loc d) ∧ s'.mem.mem (arg1Loc d) = m (arg1Loc d)
    ∧ s'.mem.mem (arg2Loc d) = m (arg2Loc d) ∧ s'.mem.mem (arg3Loc d) = m (arg3Loc d) ∧ s'.mem.mem (arg4Loc d) = m (arg4Loc d)
    ∧ s'.mem.mem (arg5Loc d) = m (arg5Loc d) ∧ s'.mem.mem (arg6Loc d) = m (arg6Loc d) ∧ s'.mem.mem (arg7Loc d) = m (arg7Loc d)

omit [FloatOps F] in
theorem agree_step (ℓ : Loc nD τ sig) (f : Buf (Elt F) ℓ) (s' : Phys nD τ sig (Elt F)) :
    iprop(SI s' ∗ (ℓ ↦{fullShare} f)) ⊢ (iprop(⌜s'.mem.mem ℓ = f⌝ ∗ SI s') : sProp 𝕄) := by
  iintro ⟨HSI, H⟩
  ihave H' := (persistent_entails_right (SI_pointsTo_agree (st := s') (ℓ := ℓ) (I := Finset.univ) (q := fullShare) (f := f))) $$ [HSI H]
  · isplitl [HSI] <;> iassumption
  icases H' with ⟨%h1, HSI, -⟩
  isplitr
  · ipureintro; exact funext fun i => h1 i (Finset.mem_univ i)
  · iexact HSI

theorem hfin (d : Dev nD) (s' : Phys nD τ sig (Elt F)) : iprop(FIN m tcVal d ∗ SI s') ⊢ (⌜fq m tcVal d s'⌝ : sProp 𝕄) := by
  unfold FIN argsPts
  iintro ⟨⟨H8, A0, A1, A2, A3, A4, A5, A6, A7⟩, HSI⟩
  ihave H := (agree_step _ _ s') $$ [HSI H8]
  · isplitl [HSI] <;> iassumption
  icases H with ⟨%h8, HSI⟩
  ihave H := (agree_step _ _ s') $$ [HSI A0]
  · isplitl [HSI] <;> iassumption
  icases H with ⟨%h0, HSI⟩
  ihave H := (agree_step _ _ s') $$ [HSI A1]
  · isplitl [HSI] <;> iassumption
  icases H with ⟨%h1, HSI⟩
  ihave H := (agree_step _ _ s') $$ [HSI A2]
  · isplitl [HSI] <;> iassumption
  icases H with ⟨%h2, HSI⟩
  ihave H := (agree_step _ _ s') $$ [HSI A3]
  · isplitl [HSI] <;> iassumption
  icases H with ⟨%h3, HSI⟩
  ihave H := (agree_step _ _ s') $$ [HSI A4]
  · isplitl [HSI] <;> iassumption
  icases H with ⟨%h4, HSI⟩
  ihave H := (agree_step _ _ s') $$ [HSI A5]
  · isplitl [HSI] <;> iassumption
  icases H with ⟨%h5, HSI⟩
  ihave H := (agree_step _ _ s') $$ [HSI A6]
  · isplitl [HSI] <;> iassumption
  icases H with ⟨%h6, HSI⟩
  ihave H := (agree_step _ _ s') $$ [HSI A7]
  · isplitl [HSI] <;> iassumption
  icases H with ⟨%h7, -⟩
  ipureintro; exact ⟨h8, h0, h1, h2, h3, h4, h5, h6, h7⟩

/-- The claim's kernel half: on every device the result holds the kernel's value and the eight arguments are unchanged. -/
def QC : PUnit × MemSt nD τ sig (Elt F) → Prop := fun r => ∀ c : Dev nD,
  r.2.mem (v8Loc c) = kval m tcVal c ∧ r.2.mem (arg0Loc c) = m (arg0Loc c) ∧ r.2.mem (arg1Loc c) = m (arg1Loc c)
    ∧ r.2.mem (arg2Loc c) = m (arg2Loc c) ∧ r.2.mem (arg3Loc c) = m (arg3Loc c) ∧ r.2.mem (arg4Loc c) = m (arg4Loc c)
    ∧ r.2.mem (arg5Loc c) = m (arg5Loc c) ∧ r.2.mem (arg6Loc c) = m (arg6Loc c) ∧ r.2.mem (arg7Loc c) = m (arg7Loc c)

/-! ## How the call's operands split between the two SparseCores -/

omit [FloatOps F] in
theorem coreRows_disjoint :
    ∀ c ∈ (Finset.univ : Finset (Fin 2)), ∀ c' ∈ (Finset.univ : Finset (Fin 2)), c ≠ c' → Disjoint (coreRowsN c.val) (coreRowsN c'.val) := by
  intro c _ c' _ hne
  rw [Finset.disjoint_left]; intro x hx hx'
  unfold coreRowsN at hx hx'
  obtain ⟨s, -, hs⟩ := Finset.mem_biUnion.mp hx
  obtain ⟨s', -, hs'⟩ := Finset.mem_biUnion.mp hx'
  unfold tileRowsN at hs hs'; rw [mem_rowsFrom] at hs hs'
  have hv : c.val ≠ c'.val := fun h => hne (Fin.ext h)
  have hc := c.isLt; have hc' := c'.isLt
  unfold rowBase ngcN at hs hs'
  split_ifs at hs hs' <;> omega

omit [FloatOps F] in
theorem coreRows_cover : (Finset.univ : Finset (Fin 2)).biUnion (fun c => coreRowsN c.val) = Finset.univ := by
  apply Finset.eq_univ_of_forall; intro x
  have hx : (x 0).val < 50176 := (x 0).isLt
  rw [Finset.mem_biUnion]
  by_cases h : (x 0).val % 3136 < 1776
  · refine ⟨0, Finset.mem_univ _, ?_⟩
    unfold coreRowsN; rw [Finset.mem_biUnion]
    refine ⟨⟨(x 0).val / 3136, by omega⟩, Finset.mem_univ _, ?_⟩
    show x ∈ rowsFrom (3136 * ((x 0).val / 3136) + 1776 * 0) (8 * (if (0 : ℕ) = 0 then 222 else 170))
    rw [mem_rowsFrom, if_pos rfl]; omega
  · refine ⟨1, Finset.mem_univ _, ?_⟩
    unfold coreRowsN; rw [Finset.mem_biUnion]
    refine ⟨⟨(x 0).val / 3136, by omega⟩, Finset.mem_univ _, ?_⟩
    show x ∈ rowsFrom (3136 * ((x 0).val / 3136) + 1776 * 1) (8 * (if (1 : ℕ) = 0 then 222 else 170))
    rw [mem_rowsFrom, if_neg (by decide)]; omega

omit [FloatOps F] in
theorem outPts_cores (d : Dev nD) (fn : Buf (Elt F) (noutLoc d)) (fs : Buf (Elt F) (soutLoc d)) :
    (iprop((noutLoc d ↦{fullShare} fn) ∗ (soutLoc d ↦{fullShare} fs)) : sProp 𝕄)
      = bigSep Finset.univ fun c : Fin 2 => outPts (F := F) d (coreRowsN c.val) fn fs := by
  unfold outPts
  rw [bigSep_sep', ← pointsTo_biUnion Finset.univ (ℓ := noutLoc d) (fun c : Fin 2 => coreRowsN c.val) coreRows_disjoint,
    ← pointsTo_biUnion Finset.univ (ℓ := soutLoc d) (fun c : Fin 2 => coreRowsN c.val) coreRows_disjoint, coreRows_cover]
  try rfl

theorem cores_split (d : Dev nD) (fn : Buf (Elt F) (noutLoc d)) (fs : Buf (Elt F) (soutLoc d)) :
    iprop(inPts m d fullShare ∗ (noutLoc d ↦{fullShare} fn) ∗ (soutLoc d ↦{fullShare} fs))
      ⊢ iprop(inPts m d (Transfers.shareDrop fullShare 2)
          ∗ bigSep Finset.univ fun c : Fin 2 => iprop(inPts m d (coreShare c.val) ∗ outPts (F := F) d (coreRowsN c.val) fn fs)) := by
  unfold coreShare
  rw [bigSep_sep', ← outPts_cores]
  iintro ⟨Hin, Hn, Hs⟩
  ihave H := (inPts_split m d fullShare 2) $$ Hin
  icases H with ⟨Hrem, Htoks⟩
  isplitl [Hrem]; · iexact Hrem
  isplitl [Htoks]; · iexact Htoks
  isplitl [Hn]; · iexact Hn
  iexact Hs

theorem cores_join (d : Dev nD) (fn : Buf (Elt F) (noutLoc d)) (fs : Buf (Elt F) (soutLoc d)) :
    iprop(inPts m d (Transfers.shareDrop fullShare 2)
        ∗ bigSep Finset.univ fun c : Fin 2 => iprop(inPts m d (coreShare c.val) ∗ outPts (F := F) d (coreRowsN c.val) fn fs))
      ⊢ iprop(inPts m d fullShare ∗ (noutLoc d ↦{fullShare} fn) ∗ (soutLoc d ↦{fullShare} fs)) := by
  unfold coreShare
  rw [bigSep_sep', ← outPts_cores]
  iintro ⟨Hrem, Htoks, Hn, Hs⟩
  isplitl [Hrem Htoks]
  · iapply (inPts_join m d fullShare 2)
    isplitl [Hrem]; · iexact Hrem
    iexact Htoks
  isplitl [Hn]; · iexact Hn
  iexact Hs

/-! ## The TensorCore's arrays, taken out of the set it holds -/

abbrev rr (b : Ref sig .tc) : DevRef τ sig := Proc.devRef .tc b

/-- The SparseCore call's six operands. -/
def T6 : Finset (DevRef τ sig) := {rr main_v1, rr main_v4, rr main_v3, rr main_arg3, rr main_v5_0, rr main_v5_1}
/-- The other arrays the proof names: the two biases and their rows, the two weights, the result, the three first arguments. -/
def T10 : Finset (DevRef τ sig) :=
  {rr main_arg5, rr main_v6, rr main_arg7, rr main_v7, rr main_arg4, rr main_arg6, rr main_v8, rr main_arg0, rr main_arg1, rr main_arg2}

omit [FloatOps F] in
theorem hT6 : T6 ⊆ Sall := by
  unfold T6
  exact Finset.insert_subset (devRef_mem_Sall _ rfl) (Finset.insert_subset (devRef_mem_Sall _ rfl) (Finset.insert_subset (devRef_mem_Sall _ rfl)
    (Finset.insert_subset (devRef_mem_Sall _ rfl) (Finset.insert_subset (devRef_mem_Sall _ rfl) (Finset.singleton_subset_iff.mpr (devRef_mem_Sall _ rfl))))))

omit [FloatOps F] in
theorem mem_rest (b : Ref sig .tc) (h : b.isScoped = false) (h' : rr b ∉ T6) : rr b ∈ Sall \ T6 :=
  Finset.mem_sdiff.mpr ⟨devRef_mem_Sall b h, h'⟩

omit [FloatOps F] in
theorem hT10 : T10 ⊆ Sall \ T6 := by
  unfold T10
  exact Finset.insert_subset (mem_rest _ rfl (by decide)) (Finset.insert_subset (mem_rest _ rfl (by decide)) (Finset.insert_subset (mem_rest _ rfl (by decide))
    (Finset.insert_subset (mem_rest _ rfl (by decide)) (Finset.insert_subset (mem_rest _ rfl (by decide)) (Finset.insert_subset (mem_rest _ rfl (by decide))
    (Finset.insert_subset (mem_rest _ rfl (by decide)) (Finset.insert_subset (mem_rest _ rfl (by decide)) (Finset.insert_subset (mem_rest _ rfl (by decide))
    (Finset.singleton_subset_iff.mpr (mem_rest _ rfl (by decide)))))))))))

theorem hB' : ∀ op ∈ (opsB : List (HloOp τ sig (Elt F))), op.bufs ⊆ Sall \ T6 := by
  intro op h
  cases h with | head => exact Finset.insert_subset (mem_rest _ rfl (by decide)) (Finset.singleton_subset_iff.mpr (mem_rest _ rfl (by decide))) | tail _ h => ?_
  cases h with | head => exact Finset.insert_subset (mem_rest _ rfl (by decide)) (Finset.singleton_subset_iff.mpr (mem_rest _ rfl (by decide))) | tail _ h => ?_
  exact nomatch h

omit [FloatOps F] in
theorem held_T6 (d : Dev nD) (W : Valuation τ sig (Elt F)) :
    (held (T d) T6 W : sProp 𝕄) = iprop((nidxLoc d ↦{fullShare} W (rr main_v1)) ∗ (nodesLoc d ↦{fullShare} W (rr main_v4)) ∗ (wLoc d ↦{fullShare} W (rr main_v3))
      ∗ (tblLoc d ↦{fullShare} W (rr main_arg3)) ∗ (noutLoc d ↦{fullShare} W (rr main_v5_0)) ∗ (soutLoc d ↦{fullShare} W (rr main_v5_1))) := by
  unfold held T6
  rw [SparseCore.bigSep_insert' (by decide), SparseCore.bigSep_insert' (by decide), SparseCore.bigSep_insert' (by decide), SparseCore.bigSep_insert' (by decide),
    SparseCore.bigSep_insert' (by decide), bigSep_singleton]

omit [FloatOps F] in
theorem held_T10 (d : Dev nD) (W : Valuation τ sig (Elt F)) :
    (held (T d) T10 W : sProp 𝕄) = iprop((arg5Loc d ↦{fullShare} W (rr main_arg5)) ∗ (v6Loc d ↦{fullShare} W (rr main_v6)) ∗ (arg7Loc d ↦{fullShare} W (rr main_arg7))
      ∗ (v7Loc d ↦{fullShare} W (rr main_v7)) ∗ (arg4Loc d ↦{fullShare} W (rr main_arg4)) ∗ (arg6Loc d ↦{fullShare} W (rr main_arg6))
      ∗ (v8Loc d ↦{fullShare} W (rr main_v8)) ∗ (arg0Loc d ↦{fullShare} W (rr main_arg0)) ∗ (arg1Loc d ↦{fullShare} W (rr main_arg1))
      ∗ (arg2Loc d ↦{fullShare} W (rr main_arg2))) := by
  unfold held T10
  rw [SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide),
    SparseCore.bigSep_insert' (by decide), bigSep_singleton]

/-- After the first line: the call's operands at the padded arrays and the two results' launch contents, and the rest. -/
theorem heldA_split (d : Dev nD) :
    (held (T d) Sall (after (opsA (F := F)) (V0 m d)) : sProp 𝕄)
      = iprop(((nidxLoc d ↦{fullShare} (nidxF m d : Buf (Elt F) (nidxLoc d))) ∗ (nodesLoc d ↦{fullShare} (nodesF m d : Buf (Elt F) (nodesLoc d)))
          ∗ (wLoc d ↦{fullShare} (wF m d : Buf (Elt F) (wLoc d))) ∗ (tblLoc d ↦{fullShare} m (tblLoc d))
          ∗ (noutLoc d ↦{fullShare} m (noutLoc d)) ∗ (soutLoc d ↦{fullShare} m (soutLoc d)))
        ∗ held (T d) (Sall \ T6) (after (opsA (F := F)) (V0 m d))) := by
  rw [held_sub_split (T d) hT6, held_T6, afterA_v1, afterA_v4, afterA_v3, afterA_arg3, afterA_v5_0, afterA_v5_1]

/-- After the second line: the other arrays the proof names, and the rest. -/
theorem heldB_split (d : Dev nD) :
    (held (T d) (Sall \ T6) (after (opsB (F := F)) (after (opsA (F := F)) (V0 m d))) : sProp 𝕄)
      = iprop(((arg5Loc d ↦{fullShare} m (arg5Loc d)) ∗ (v6Loc d ↦{fullShare} (biasI m d : Buf (Elt F) (v6Loc d))) ∗ (arg7Loc d ↦{fullShare} m (arg7Loc d))
          ∗ (v7Loc d ↦{fullShare} (biasF m d : Buf (Elt F) (v7Loc d))) ∗ (arg4Loc d ↦{fullShare} m (arg4Loc d)) ∗ (arg6Loc d ↦{fullShare} m (arg6Loc d))
          ∗ (v8Loc d ↦{fullShare} m (v8Loc d)) ∗ (arg0Loc d ↦{fullShare} m (arg0Loc d)) ∗ (arg1Loc d ↦{fullShare} m (arg1Loc d))
          ∗ (arg2Loc d ↦{fullShare} m (arg2Loc d)))
        ∗ held (T d) ((Sall \ T6) \ T10) (after (opsB (F := F)) (after (opsA (F := F)) (V0 m d)))) := by
  rw [held_sub_split (T d) hT10, held_T10, afterB_v6, afterB_v7,
    afterB_ne _ main_arg5 (by decide) (by decide), afterB_ne _ main_arg7 (by decide) (by decide), afterB_ne _ main_arg4 (by decide) (by decide),
    afterB_ne _ main_arg6 (by decide) (by decide), afterB_ne _ main_v8 (by decide) (by decide), afterB_ne _ main_arg0 (by decide) (by decide),
    afterB_ne _ main_arg1 (by decide) (by decide), afterB_ne _ main_arg2 (by decide) (by decide),
    afterA_arg5, afterA_arg7, afterA_arg4, afterA_arg6, afterA_v8, afterA_arg0, afterA_arg1, afterA_arg2]
  rfl

/-! ## The TensorCore kernel's region, stated -/

/-- The seven arrays the TensorCore kernel's windows name, whole. -/
def tcArrs (d : Dev nD) (X N : FVec F S50176x128 .f32) (Wi : FVec F S128x128 .f32) (Wf : FVec F S256x128 .f32) (bi bf : FVec F S1x128 .f32)
    (O : FVec F S50000x128 .f32) : sProp 𝕄 :=
  iprop((soutLoc d ↦{fullShare} (X : Buf (Elt F) (soutLoc d))) ∗ (noutLoc d ↦{fullShare} (N : Buf (Elt F) (noutLoc d)))
    ∗ (arg4Loc d ↦{fullShare} (Wi : Buf (Elt F) (arg4Loc d))) ∗ (arg6Loc d ↦{fullShare} (Wf : Buf (Elt F) (arg6Loc d)))
    ∗ (v6Loc d ↦{fullShare} (bi : Buf (Elt F) (v6Loc d))) ∗ (v7Loc d ↦{fullShare} (bf : Buf (Elt F) (v7Loc d)))
    ∗ (v8Loc d ↦{fullShare} (O : Buf (Elt F) (v8Loc d))))

/-- The region's obligation: from the boundary, the seven arrays, what the TensorCore owes (nothing) with its recorded
    pairs bounded, the level facts and the pipeline's ghost state, the kernel's call runs to the boundary, the result
    at the kernel's function of the operands, the operands as they were. -/
def TcRegion : Prop :=
  ∀ (d : Dev nD) (X N : FVec F S50176x128 .f32) (Wi : FVec F S128x128 .f32) (Wf : FVec F S256x128 .f32) (bi bf : FVec F S1x128 .f32)
    (O : FVec F S50000x128 .f32) (Rs : Set (SemLoc sig × HIx 1)) {α : Type}
    (k : PUnit → Prog (TpuEff nD τ sig (Elt F) (ΛP (F := F)) .tc) α) (Q : α → sProp 𝕄),
    iprop((iprop(boundary (T d) ∗ tcArrs (F := F) d X N Wi Wf bi bf (tcVal X N Wi Wf bi bf) ∗ Pipeline.owesWithin d 0 (Rs ∪ cfg1.waitPairs none))
            -∗ wp frame (wpE (D (F := F)) 𝒱 (T d) none) Set.univ (k ⟨⟩) Q)
        ∗ boundary (T d) ∗ tcArrs (F := F) d X N Wi Wf bi bf O ∗ Pipeline.owesWithin d 0 Rs ∗ levAts (K (F := F)).L (K (F := F)).lev
        ∗ Pipeline.cellsGhost cfgs (ER (F := F)) 0 d ∗ Pipeline.toksInit cfgs (ER (F := F)) 0 d)
      ⊢ wp frame (wpE (D (F := F)) 𝒱 (T d) none) Set.univ (.op (.customCall (Pipeline.entry 0) ()) k) Q

/-- The region as @main spells it, from the region in the kernels' signature. -/
theorem region_lift (d : Dev nD) (Q : PUnit → sProp 𝕄) :
    wp frame (wpE (D (F := F)) 𝒱 (T d) none) Set.univ (.op (.customCall (Pipeline.entry 0) ()) fun _ => .ret ⟨⟩) Q
      ⊢ wp frame (wpE ((K (F := F)).defs (D (F := F))) 𝒱 (T d) none) Set.univ
          (Prog.lift (.customCall (SparseCore.inner (Pipeline.entry 0)) ()) >>= fun _ => pure ⟨⟩) Q :=
  (K (F := F)).wp_liftProg (D (F := F)) 𝒱 (T d) Set.univ none _ Q

/-! ## @main on the TensorCore -/

set_option backward.isDefEq.respectTransparency.types false in
/-- @main on device `d`'s TensorCore: the first line (the three padded arrays), the SparseCore call (each SparseCore a
    read share of the four inputs and its rows of the two results), the second line (the two bias rows), the
    TensorCore kernel's region; the eight arguments kept, the result at the kernel's value. -/
theorem hmain (hreg : TcRegion (F := F) tcVal) (κ : GSem nD τ sig → ℕ) (d : Dev nD) :
    iprop((K (F := F)).ctx EH (P m) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m tcVal d) := by
  unfold SparseCore.Cfg.tcRes
  rw [unscoped_held, main_eq]
  iintro ⟨#Hctx, Hst, ⟨Hb, Hheld, -, -⟩, Hcg, Hti⟩
  -- the first line
  iapply (wp_seq 𝒱 none Set.univ d Sall _ opsA hA hAf (V0 m d)) $$ [Hb Hheld]
  · isplitl [Hb]; · iexact Hb
    iexact Hheld
  iintro ⟨Hb, Hheld⟩
  ihave Hh := (Entails.of_eq (heldA_split m d)) $$ Hheld
  icases Hh with ⟨⟨H1, H4, H3, Ht, Hn, Hs⟩, Hrest⟩
  ihave Hc := (cores_split m d _ _) $$ [H1 H4 H3 Ht Hn Hs]
  · unfold inPts
    isplitl [H1 H4 H3 Ht]
    · isplitl [H1]; · iexact H1
      isplitl [H4]; · iexact H4
      isplitl [H3]; · iexact H3
      iexact Ht
    isplitl [Hn]; · iexact Hn
    iexact Hs
  icases Hc with ⟨Hrem, Hcores⟩
  -- the call
  rw [wp_bind]
  iapply ((K (F := F)).wp_run (D (F := F)) 𝒱 (EH := EH) (P := P m) κ d 0) $$ [Hst Hcores Hb Hrest Hrem Hcg Hti]
  isplitr; · iexact Hctx
  isplitl [Hst]; · iexact Hst
  isplitl [Hcores]
  · iapply (show (bigSep (Finset.univ : Finset (Fin 2)) fun c => iprop(inPts m d (coreShare c.val) ∗ outPts (F := F) d (coreRowsN c.val) (m (noutLoc d)) (m (soutLoc d))))
        ⊢ bigSep Finset.univ fun c : Fin ((K (F := F)).nCore 0) => (P m).st 0 d c from BI.Entails.refl _)
    iexact Hcores
  iintro ⟨Hst, Hdn⟩
  ihave Hdn' := (show (bigSep Finset.univ fun c : Fin ((K (F := F)).nCore 0) => (P m).dn 0 d c)
      ⊢ (bigSep (Finset.univ : Finset (Fin 2)) fun c => iprop(inPts m d (coreShare c.val) ∗ outPts (F := F) d (coreRowsN c.val) (neighVal m d) (selfVal m d)))
      from BI.Entails.refl _) $$ Hdn
  ihave Hj := (cores_join m d _ _) $$ [Hrem Hdn']
  · isplitl [Hrem]; · iexact Hrem
    iexact Hdn'
  icases Hj with ⟨Hin, Hn, Hs⟩
  -- the second line
  iapply (wp_seq 𝒱 none Set.univ d (Sall \ T6) _ opsB hB' hBf (after opsA (V0 m d))) $$ [Hb Hrest]
  · isplitl [Hb]; · iexact Hb
    iexact Hrest
  iintro ⟨Hb, Hrest⟩
  ihave Hh := (Entails.of_eq (heldB_split m d)) $$ Hrest
  icases Hh with ⟨⟨A5, H6, A7, H7, A4, A6, H8, A0, A1, A2⟩, -⟩
  -- the TensorCore kernel
  unfold SparseCore.Cfg.tcSt
  simp only [show (K (F := F)).Otc d ((0 : Fin 1).val + 1) = 0 from (K (F := F)).Otc_end d (Nat.le_refl 1),
    show (K (F := F)).Otc d 1 = 0 from (K (F := F)).Otc_end d (Nat.le_refl 1)]
  icases Hst with ⟨⟨%W, %hW, HO⟩, Hat, Hrd, Hrs, Htoks⟩
  iapply (region_lift d _)
  iapply (hreg d (selfVal m d) (neighVal m d) (m (arg4Loc d)) (m (arg6Loc d)) (biasI m d) (biasF m d) (m (v8Loc d))
      {p | (K (F := F)).lev (T d, p.1) p.2 ≤ 8} (fun _ => .ret ⟨⟩) _)
  isplitr [Hb Hs Hn A4 A6 H6 H7 H8 HO Hcg Hti]
  · -- after the region
    iintro ⟨Hb, Harr, %W', %hW', HO⟩
    rw [wp_ret]; imodintro
    unfold tcArrs
    icases Harr with ⟨Hs, Hn, A4, A6, H6, H7, H8⟩
    isplitl [HO Hat Hrd Hrs Htoks]
    · isplitl [HO]
      · iexists W'; isplitr
        · ipureintro
          intro p hp
          rcases hW' (Finset.mem_coe.mpr hp) with h | ⟨w, s, rfl⟩
          · exact h
          · exact Nat.zero_le _
        · iexact HO
      isplitl [Hat]; · iexact Hat
      isplitl [Hrd]; · iexact Hrd
      isplitl [Hrs]; · iexact Hrs
      iexact Htoks
    · unfold FIN argsPts kval inPts
      icases Hin with ⟨-, -, -, A3⟩
      isplitl [H8]; · iexact H8
      isplitl [A0]; · iexact A0
      isplitl [A1]; · iexact A1
      isplitl [A2]; · iexact A2
      isplitl [A3]; · iexact A3
      isplitl [A4]; · iexact A4
      isplitl [A5]; · iexact A5
      isplitl [A6]; · iexact A6
      iexact A7
  · isplitl [Hb]; · iexact Hb
    isplitl [Hs Hn A4 A6 H6 H7 H8]
    · unfold tcArrs
      isplitl [Hs]; · iexact Hs
      isplitl [Hn]; · iexact Hn
      isplitl [A4]; · iexact A4
      isplitl [A6]; · iexact A6
      isplitl [H6]; · iexact H6
      isplitl [H7]; · iexact H7
      iexact H8
    isplitl [HO]
    · iexists W; isplitr
      · ipureintro; exact fun p hp => hW p (Finset.mem_coe.mp hp)
      · iexact HO
    isplitr; · iapply (SparseCore.Cfg.ctx_levAts κ); iexact Hctx
    isplitl [Hcg]; · iexact Hcg
    iexact Hti

/-! ## The program's run -/

theorem run_main [∀ e, Nonempty (Elt F e)] (hbody : TileBody (F := F) m) (hreg : TcRegion (F := F) tcVal) (hpre : PreOK m) :
    θ_run (Cert.KernelIdeal.defs (F := F)) (Cert.KernelIdeal.threads (F := F)) ⟨m, fun _ => 0, ρ⟩ (QC m tcVal) :=
  SparseCore.Cfg.θ_run_sc (K := K (F := F)) (D := D (F := F)) (𝒱 := 𝒱) (EH := EH) (P := P m) facts v₀
    (fun q hq => match q with | 0 => nomatch hq)
    (fun q _ => match q with | 0 => tileObl m hbody facts hpre)
    (fun q _ => match q with | 0 => SparseCore.Cfg.VecSplit.of_plain (vecSplit m))
    m ρ main (G (F := F)) (FIN m tcVal) (u₀ (F := F)) (sep_elim_left.trans (hu₀ m)) (hmain m ρ tcVal hreg) (fq m tcVal) (hfin m tcVal) (QC m tcVal) (fun _ h => h)

end Cert.Proof.K

end
-- ==== Proof.KValue.lean ====
/-
  The kernel's values read at an index, against the specification's functions.

  The host flattens and pads three of the inputs before the gather-and-reduce program runs: the neighbour indices
  [50000, 10] become a vector of 500000 entries in row-major order, padded at the high end to 505920; the weights
  likewise; the node indices [50000] are padded at the high end to 50592.  Read at the position R·10 + j of a real
  row R < 50000 and a neighbour j < 10 the flattened, padded vector is the matrix's entry (R, j); read at R the
  padded node vector is the node vector's entry R.

  For one row the program forms the weighted sum of the ten gathered table rows from the left,
      ((w0·r0 + w1·r1) + w2·r2) + … + w9·r9,
  and multiplies by 1 / (((w0 + w1) + w2) + … + w9).  A sum formed from the left over the ten terms is the sum over
  Fin 10, so this is the specification's neighbour mean in the kernel's arrangement.  A table row read at an index
  below the table's height is the specification's lookup.
-/
import proofs.«208500_g61899068670276_cont_9to1_m_775_47_alg».proof.Proof.Spec
import proofs.«208500_g61899068670276_cont_9to1_m_775_47_alg».proof.Proof.SpecAlgebra
import proofs.«208500_g61899068670276_cont_9to1_m_775_47_alg».proof.Proof.KSetup
import Idealize.ShloMosaic.Lib.Pipeline.Value
import Idealize.ShloMosaic.Lib.KernelVsHost
import Idealize.ShloMosaic.PureOps.IdealRules
import Mathlib.Algebra.BigOperators.Fin

noncomputable section

open Idealize.ShloMosaic Idealize.ShloMosaic.ValueIdx

namespace Cert.Proof.KV

open Cert.Spec

/-! ## The host's flattening and padding, read at an index -/

/-- A vector padded at its high end only, read at an index whose coordinate is that of an index of the vector, is the
    vector there. -/
theorem pad_high_at {α : Type} {n m hi : ℕ} (x : (⟨1, ![n]⟩ : Shape).Idx → α) {u : Shape} (v : u.Idx → α)
    (hp : (⟨1, ![n]⟩ : Shape).Pads (![0] : Fin 1 → Nat) ![hi] ![0] ⟨1, ![m]⟩) (hu : 0 < u.numel)
    (i : (⟨1, ![m]⟩ : Shape).Idx) (k : (⟨1, ![n]⟩ : Shape).Idx) (h : (i 0).val = (k 0).val) :
    pad ⟨1, ![m]⟩ ![0] ![hi] ![0] x v hp hu i = x k :=
  pad_apply_of_inside _ _ _ x v hp hu i k (by
    intro a
    have ha : a = 0 := Subsingleton.elim _ _
    subst ha
    show (i 0).val = 0 + (k 0).val * (0 + 1)
    omega)

/-- A matrix of rows of length c flattened in row-major order and padded at its high end, read at an index whose
    coordinate is R·c + j, is the matrix at (R, j). -/
theorem flat_pad_at {α : Type} {r c N m hi : ℕ} (x : (⟨2, ![r, c]⟩ : Shape).Idx → α) {u : Shape} (v : u.Idx → α)
    (hc : (⟨2, ![r, c]⟩ : Shape).ShapeCasts ⟨1, ![N]⟩)
    (hp : (⟨1, ![N]⟩ : Shape).Pads (![0] : Fin 1 → Nat) ![hi] ![0] ⟨1, ![m]⟩) (hu : 0 < u.numel)
    (i : (⟨1, ![m]⟩ : Shape).Idx) (k : (⟨2, ![r, c]⟩ : Shape).Idx) (h : (i 0).val = (k 0).val * c + (k 1).val)
    (hN : (i 0).val < N) :
    pad ⟨1, ![m]⟩ ![0] ![hi] ![0] (shapeCast ⟨1, ![N]⟩ x hc) v hp hu i = x k := by
  rw [pad_high_at (shapeCast ⟨1, ![N]⟩ x hc) v hp hu i (ix1 (⟨(i 0).val, hN⟩ : Fin N)) rfl]
  exact shapeCast_apply x hc _ _ (by
    rw [Shape.rowMajor_val_two, Shape.rowMajor_val_one]
    exact h.symm)

/-- A vector padded at its high end only, read below the vector's length, is the vector there. -/
theorem pad_high_apply {α : Type} {n m hi : ℕ} (x : (⟨1, ![n]⟩ : Shape).Idx → α) {u : Shape} (v : u.Idx → α)
    (hp : (⟨1, ![n]⟩ : Shape).Pads (![0] : Fin 1 → Nat) ![hi] ![0] ⟨1, ![m]⟩) (hu : 0 < u.numel)
    (R : ℕ) (hR : R < n) (hm : R < m) :
    pad ⟨1, ![m]⟩ ![0] ![hi] ![0] x v hp hu (ix1 (⟨R, hm⟩ : Fin m)) = x (ix1 (⟨R, hR⟩ : Fin n)) :=
  pad_apply_of_inside _ _ _ x v hp hu _ (ix1 (⟨R, hR⟩ : Fin n)) (by
    intro a
    have ha : a = 0 := Subsingleton.elim _ _
    subst ha
    show R = 0 + R * (0 + 1)
    omega)

/-- A matrix of rows of length c flattened in row-major order, read at position R·c + j, is the matrix at (R, j). -/
theorem flat_apply {α : Type} {r c N : ℕ} (x : (⟨2, ![r, c]⟩ : Shape).Idx → α)
    (hc : (⟨2, ![r, c]⟩ : Shape).ShapeCasts ⟨1, ![N]⟩) (R j : ℕ) (hR : R < r) (hj : j < c) (hN : R * c + j < N) :
    shapeCast ⟨1, ![N]⟩ x hc (ix1 (⟨R * c + j, hN⟩ : Fin N)) = x (ix2 (⟨R, hR⟩ : Fin r) (⟨j, hj⟩ : Fin c)) :=
  shapeCast_apply x hc _ _ (by
    rw [Shape.rowMajor_val_two, Shape.rowMajor_val_one]
    rfl)

/-- The flattened matrix padded at its high end, read at position R·c + j of a real row, is the matrix at (R, j). -/
theorem flat_pad_apply {α : Type} {r c N m hi : ℕ} (x : (⟨2, ![r, c]⟩ : Shape).Idx → α) {u : Shape} (v : u.Idx → α)
    (hc : (⟨2, ![r, c]⟩ : Shape).ShapeCasts ⟨1, ![N]⟩)
    (hp : (⟨1, ![N]⟩ : Shape).Pads (![0] : Fin 1 → Nat) ![hi] ![0] ⟨1, ![m]⟩) (hu : 0 < u.numel)
    (R j : ℕ) (hR : R < r) (hj : j < c) (hN : R * c + j < N) (hm : R * c + j < m) :
    pad ⟨1, ![m]⟩ ![0] ![hi] ![0] (shapeCast ⟨1, ![N]⟩ x hc) v hp hu (ix1 (⟨R * c + j, hm⟩ : Fin m))
      = x (ix2 (⟨R, hR⟩ : Fin r) (⟨j, hj⟩ : Fin c)) := by
  rw [pad_high_apply (shapeCast ⟨1, ![N]⟩ x hc) v hp hu (R * c + j) hN hm]
  exact flat_apply x hc R j hR hj hN

/-- The neighbour indices, flattened to 500000 and padded to 505920, at position R·10 + j. -/
theorem nidxF_apply {α : Type} (x : (⟨2, ![50000, 10]⟩ : Shape).Idx → α) {u : Shape} (v : u.Idx → α)
    (hc : (⟨2, ![50000, 10]⟩ : Shape).ShapeCasts ⟨1, ![500000]⟩)
    (hp : (⟨1, ![500000]⟩ : Shape).Pads (![0] : Fin 1 → Nat) ![5920] ![0] ⟨1, ![505920]⟩) (hu : 0 < u.numel)
    (R j : ℕ) (hR : R < 50000) (hj : j < 10) :
    pad ⟨1, ![505920]⟩ ![0] ![5920] ![0] (shapeCast ⟨1, ![500000]⟩ x hc) v hp hu
        (ix1 (⟨R * 10 + j, by omega⟩ : Fin 505920))
      = x (ix2 (⟨R, hR⟩ : Fin 50000) (⟨j, hj⟩ : Fin 10)) :=
  flat_pad_apply x v hc hp hu R j hR hj (by omega) (by omega)

/-- The node indices padded to 50592, at a real row. -/
theorem nodesF_apply {α : Type} (x : (⟨1, ![50000]⟩ : Shape).Idx → α) {u : Shape} (v : u.Idx → α)
    (hp : (⟨1, ![50000]⟩ : Shape).Pads (![0] : Fin 1 → Nat) ![592] ![0] ⟨1, ![50592]⟩) (hu : 0 < u.numel)
    (R : ℕ) (hR : R < 50000) :
    pad ⟨1, ![50592]⟩ ![0] ![592] ![0] x v hp hu (ix1 (⟨R, by omega⟩ : Fin 50592)) = x (ix1 (⟨R, hR⟩ : Fin 50000)) :=
  pad_high_apply x v hp hu R hR (by omega)

/-- A vector of n entries recast as one row, read at (0, j), is the vector at j. -/
theorem row_apply {α : Type} {n : ℕ} (x : (⟨1, ![n]⟩ : Shape).Idx → α)
    (hc : (⟨1, ![n]⟩ : Shape).ShapeCasts ⟨2, ![1, n]⟩) (j : Fin n) :
    shapeCast ⟨2, ![1, n]⟩ x hc (ix2 (0 : Fin 1) j) = x (ix1 j) :=
  shapeCast_apply x hc _ _ (by
    rw [Shape.rowMajor_val_two, Shape.rowMajor_val_one]
    show j.val = 0 * n + j.val
    omega)

/-! ## The table rows -/

/-- A table row read at an index below the table's height is the specification's lookup. -/
theorem tab_of_lt (T : FVec Ideal STab .f32) (r : ℕ) (h : r < 100000) (d : Fin 128) :
    T (ix2 (⟨r, h⟩ : Fin 100000) d) = tab T r d := by
  unfold tab
  rw [dif_pos h]

/-- The gathered self row is the specification's self row. -/
theorem selfRow_of_lt (nodes : IVec SNodes 32) (T : FVec Ideal STab .f32) (R : ℕ) (hR : R < 50000)
    (h : (nodes (ix1 (⟨R, hR⟩ : Fin 50000))).toNat < 100000) (d : Fin 128) :
    T (ix2 (⟨(nodes (ix1 (⟨R, hR⟩ : Fin 50000))).toNat, h⟩ : Fin 100000) d) = selfRow nodes T ⟨R, hR⟩ d := by
  unfold selfRow
  exact tab_of_lt T _ h d

/-! ## The ten-term sums formed from the left -/

/-- A sum of ten terms formed from the left is the sum over Fin 10. -/
theorem sum10_left {M : Type} [AddCommMonoid M] (f : Fin 10 → M) :
    ((((((((f 0 + f 1) + f 2) + f 3) + f 4) + f 5) + f 6) + f 7) + f 8) + f 9 = ∑ k : Fin 10, f k := by
  rw [Fin.sum_univ_castSucc, Fin.sum_univ_castSucc, Fin.sum_univ_eight]
  rfl

/-- The kernel's row formula — the weighted sum of the ten gathered rows formed from the left, times the reciprocal of
    the weights' sum formed from the left — is the specification's neighbour mean in the kernel's arrangement. -/
theorem neighK_of_left (nidx : IVec SIdx 32) (w : FVec Ideal SIdx .f32) (T : FVec Ideal STab .f32)
    (b : Fin 50000) (d : Fin 128) (wv rv : Fin 10 → EReal)
    (hwv : ∀ k, wv k = w (ix2 b k)) (hrv : ∀ k, rv k = tab T (nidx (ix2 b k)).toNat d) :
    (((((((((wv 0 * rv 0 + wv 1 * rv 1) + wv 2 * rv 2) + wv 3 * rv 3) + wv 4 * rv 4) + wv 5 * rv 5) + wv 6 * rv 6)
        + wv 7 * rv 7) + wv 8 * rv 8) + wv 9 * rv 9)
      * Ideal.div 1 (((((((((wv 0 + wv 1) + wv 2) + wv 3) + wv 4) + wv 5) + wv 6) + wv 7) + wv 8) + wv 9)
      = neighK nidx w T b d := by
  rw [sum10_left (fun k => wv k * rv k), sum10_left wv]
  unfold neighK wsum
  simp only [hwv, hrv]

/-! ## The two intermediate arrays, row by row, at the extended reals

The launch memory m holds the eight inputs; the host's three padded arrays and the two result functions of the
gather-and-reduce program are functions of m.  Where every node and neighbour index names a row of the table, row b
of the self result is the specification's self row and row b of the neighbour result is the specification's neighbour
mean in the kernel's arrangement, for every real batch row b < 50000. -/

section AtIdeal

open Cert.KernelIdeal Cert.KernelIdeal.Gen Cert.Proof.K

variable (m : (ℓ : Loc nD τ sig) → Buf (Elt Ideal) ℓ)

/-- The pattern of 1.0 is the extended real 1. -/
theorem one_f32 : (Scalar.ofBits .f32 0x3F800000#32 : Ideal .f32) = 1 :=
  IdealRules.sign_bit.ideal_onePat .f32

/-- A table row named by a word below the table's height is the specification's lookup. -/
theorem tblAt_eq_tab (T : S100000x128.Idx → Ideal .f32) (wd : BitVec 32) (h : wd.toNat < 100000) (col : Fin 128) :
    tblAt T wd col = tab T wd.toNat col := by
  unfold tblAt tab
  rw [dif_pos h]
  refine congrArg T (funext fun a => Fin.ext ?_)
  match a with
  | ⟨0, _⟩ => exact Nat.mod_eq_of_lt h
  | ⟨1, _⟩ => rfl

/-- The padded nodes at a real row. -/
theorem nodesF_at (d : Dev nD) (b : Fin 50000) (i : S50592.Idx) (h : (i 0).val = b.val) :
    nodesF m d i = (m (arg0Loc d) : S50000.Idx → BitVec 32) (ix1 b) := by
  unfold nodesF
  exact pad_high_at _ _ _ _ i (ix1 b) h

/-- The flattened, padded neighbour indices at position b·10 + k of a real row. -/
theorem nidxF_at (d : Dev nD) (b : Fin 50000) (k : Fin 10) (i : S505920.Idx) (h : (i 0).val = b.val * 10 + k.val) :
    nidxF m d i = (m (arg1Loc d) : S50000x10.Idx → BitVec 32) (ix2 b k) := by
  unfold nidxF
  exact flat_pad_at _ _ _ _ _ i (ix2 b k) h (by have := b.isLt; have := k.isLt; omega)

/-- The flattened, padded weights at position b·10 + k of a real row. -/
theorem wF_at (d : Dev nD) (b : Fin 50000) (k : Fin 10) (i : S505920.Idx) (h : (i 0).val = b.val * 10 + k.val) :
    wF m d i = (m (arg2Loc d) : S50000x10.Idx → Ideal .f32) (ix2 b k) := by
  unfold wF
  exact flat_pad_at _ _ _ _ _ i (ix2 b k) h (by have := b.isLt; have := k.isLt; omega)

/-- Row b of the self result is the specification's self row. -/
theorem selfVal_eq (hpre : PreOK m) (d : Dev nD) (b : Fin 50000) (col : Fin 128) (x : S50176x128.Idx)
    (hx0 : (x 0).val = b.val) (hx1 : x 1 = col) :
    selfVal m d x = selfRow (m (arg0Loc d)) (m (tblLoc d)) b col := by
  unfold selfVal selfRow
  rw [nodesF_at m d b _ hx0, hx1]
  exact tblAt_eq_tab _ _ ((hpre d).1 _) col

/-- Row b of the neighbour result is the specification's neighbour mean in the kernel's arrangement. -/
theorem neighVal_eq (hpre : PreOK m) (d : Dev nD) (b : Fin 50000) (col : Fin 128) (x : S50176x128.Idx)
    (hx0 : (x 0).val = b.val) (hx1 : x 1 = col) :
    neighVal m d x = neighK (m (arg1Loc d)) (m (arg2Loc d)) (m (tblLoc d)) b col := by
  have hi : ∀ k : Fin 10, ((flat1 ((x 0).val * 10 + k.val) (flat_lt x k) : S505920.Idx) 0).val = b.val * 10 + k.val :=
    fun k => by show (x 0).val * 10 + k.val = _; rw [hx0]
  unfold neighVal Cert.Proof.K.sum10
  simp only [Ideal.mulf_def, Ideal.addf_def, Ideal.divf_def, one_f32]
  have hwv : ∀ k : Fin 10, wF m d (flat1 ((x 0).val * 10 + k.val) (flat_lt x k))
      = (m (arg2Loc d) : S50000x10.Idx → Ideal .f32) (ix2 b k) := fun k => wF_at m d b k _ (hi k)
  have hrv : ∀ k : Fin 10, tblAt (F := Ideal) (m (tblLoc d)) (nidxF m d (flat1 ((x 0).val * 10 + k.val) (flat_lt x k))) (x 1)
      = tab (m (tblLoc d)) ((m (arg1Loc d) : S50000x10.Idx → BitVec 32) (ix2 b k)).toNat col := fun k => by
    rw [nidxF_at m d b k _ (hi k), hx1]
    exact tblAt_eq_tab _ _ ((hpre d).2 _) col
  have key := neighK_of_left (m (arg1Loc d)) (m (arg2Loc d)) (m (tblLoc d)) b col
    (fun k => wF m d (flat1 ((x 0).val * 10 + k.val) (flat_lt x k)))
    (fun k => tblAt (F := Ideal) (m (tblLoc d)) (nidxF m d (flat1 ((x 0).val * 10 + k.val) (flat_lt x k))) (x 1)) hwv hrv
  exact key

end AtIdeal

/-! ## From the rows to the kernel's result -/

/-- The TensorCore body's stored value, written over the two rows, the three weight blocks and the two bias rows it
    reads, is the specification's kernel result once each of them is what the specification names. -/
theorem kernelOut_of_rows (nodes : IVec SNodes 32) (nidx : IVec SIdx 32) (w : FVec Ideal SIdx .f32) (T : FVec Ideal STab .f32)
    (Wi : FVec Ideal SWi .f32) (bi : FVec Ideal SVec .f32) (Wf : FVec Ideal SWf .f32) (bf : FVec Ideal SVec .f32)
    (b : Fin 50000) (e : Fin 128) (xs ns : Fin 128 → EReal) (A : Fin 128 → Fin 128 → EReal) (B0 B1 c : Fin 128 → EReal) (f : EReal)
    (hx : ∀ d, xs d = selfRow nodes T b d) (hn : ∀ d, ns d = neighK nidx w T b d)
    (hA : ∀ d j, A d j = Wi (ix2 d j)) (hB0 : ∀ j, B0 j = wf0 Wf j e) (hB1 : ∀ d, B1 d = wf1 Wf d e)
    (hc : ∀ j, c j = bi (ix1 j)) (hf : f = bf (ix1 e)) :
    swish ((∑ d : Fin 128, xs d * (∑ j : Fin 128, A d j * B0 j)) + (∑ d : Fin 128, ns d * B1 d)
        + ((∑ j : Fin 128, c j * B0 j) + f))
      = kernelOut nodes nidx w T Wi bi Wf bf b e := by
  unfold kernelOut kernelPre
  simp only [hx, hn, hA, hB0, hB1, hc, hf]

end Cert.Proof.KV

end
-- ==== Proof.TcDefs.lean ====
import proofs.«208500_g61899068670276_cont_9to1_m_775_47_alg».proof.Proof.Gen.KernelIdeal
import proofs.«208500_g61899068670276_cont_9to1_m_775_47_alg».proof.Proof.Gen.KernelIdeal.Skeleton
import Idealize.ShloMosaic.Lib.ValueIdx

/-! The TensorCore region's result as a function of its six operands: per grid point the body's payload of the
    operands' blocks, and the whole array read off the blocks. -/

noncomputable section

namespace Cert.Proof.K

open Cert.KernelIdeal Cert.KernelIdeal.Gen
open Idealize.ShloMosaic
open Idealize.ShloMosaic.ValueIdx

variable {F : FTy → Type} [FloatOps F]

/-- Rows [1024 t, 1024 t + 1024) of a 50176-row array: the block of either row-blocked operand at grid point t. -/
def rowsAt (t : Fin 49) (X : FVec F S50176x128 .f32) : FVec F S1024x128 .f32 :=
  fun j => X (ix2 (⟨1024 * t.val + (j 0).val, by have := idx2_lt0 j; have := t.isLt; omega⟩ : Fin 50176) (⟨(j 1).val, idx2_lt1 j⟩ : Fin 128))

/-- Rows [0, 128) of the final weight matrix (they multiply the hidden self features); -/
def wfTop (Wf : FVec F S256x128 .f32) : FVec F S128x128 .f32 :=
  fun j => Wf (ix2 (⟨(j 0).val, by have := idx2_lt0 j; omega⟩ : Fin 256) (⟨(j 1).val, idx2_lt1 j⟩ : Fin 128))
/-- rows [128, 256) (they multiply the neighbour means). -/
def wfBot (Wf : FVec F S256x128 .f32) : FVec F S128x128 .f32 :=
  fun j => Wf (ix2 (⟨128 + (j 0).val, by have := idx2_lt0 j; omega⟩ : Fin 256) (⟨(j 1).val, idx2_lt1 j⟩ : Fin 128))

/-- The result block of grid point t: the body's payload of the operands' blocks there. -/
def tcBlk (t : Fin 49) (X N : FVec F S50176x128 .f32) (Wi : FVec F S128x128 .f32) (Wf : FVec F S256x128 .f32) (bi bf : FVec F S1x128 .f32) : FVec F S1024x128 .f32 :=
  k1_pay1 Wi (wfTop Wf) bi (wfTop Wf) bf (rowsAt t X) (rowsAt t N) (wfBot Wf)

/-- The region's result as one whole-array function: row r lies in block r / 1024 at local row r % 1024 (only the
    rows below 50000 exist: the last block's tail is never written back). -/
def tcVal (X N : FVec F S50176x128 .f32) (Wi : FVec F S128x128 .f32) (Wf : FVec F S256x128 .f32) (bi bf : FVec F S1x128 .f32) : FVec F S50000x128 .f32 :=
  fun i => tcBlk (⟨(i 0).val / 1024, by have := idx2_lt0 i; omega⟩ : Fin 49) X N Wi Wf bi bf
    (ix2 (⟨(i 0).val % 1024, Nat.mod_lt _ (by decide)⟩ : Fin 1024) (⟨(i 1).val, idx2_lt1 i⟩ : Fin 128))

end Cert.Proof.K

end
-- ==== Proof.TcPay.lean ====
/-
  The TensorCore body's one stored value, read at an index, at the extended reals.

  The body forms, from the two loaded row blocks x, n : [1024, 128], the three weight blocks A, B0 : [128, 128] (B0 loaded
  twice) and B1 : [128, 128], and the two bias rows c, f : [1, 128]:
      W   = A · B0                         (into a zero accumulator)
      g   = c · B0 + f
      out = (x · W + n · B1) + broadcast g
      store out · logistic out.
  A matrix product into the zero accumulator, read at (r, e), is the sum over the one contracted coordinate of the
  products of the entries; a shape cast between equal shapes is the identity; the [1,128] → [1024,128] broadcast reads
  row 0.  So the stored value at (r, e) is
      swish (∑ d, x r d · (∑ j, A d j · B0 j e) + ∑ d, n r d · B1 d e + (∑ j, c 0 j · B0 j e + f 0 e)).
-/
import proofs.«208500_g61899068670276_cont_9to1_m_775_47_alg».proof.Proof.Gen.KernelIdeal.Skeleton
import proofs.«208500_g61899068670276_cont_9to1_m_775_47_alg».proof.Proof.Spec
import Idealize.ShloMosaic.Lib.Pipeline.Value
import Idealize.ShloMosaic.Lib.ValueIdx
import Idealize.ShloMosaic.PureOps.Ideal.Laws

noncomputable section

open Idealize.ShloMosaic Idealize.ShloMosaic.ValueIdx

namespace Cert.Proof.KV

open Cert.KernelIdeal Cert.KernelIdeal.Gen

/-! ## The three products, read at an index: the operand indices axis by axis, then the sum -/

theorem lhs_dot_S128x128_S128x128_S128x128_1_0_0_1_n_n_0 (j : S128x128.Idx) (k : dot_S128x128_S128x128_S128x128_1_0_0_1_n_n.contr.Idx) :
    (dot_S128x128_S128x128_S128x128_1_0_0_1_n_n.lhsIdx j k 0).val = (j 0).val := by
  unfold DotDims.lhsIdx
  rw [dif_neg (show ¬(0 : Fin S128x128.rank) ∈ dot_S128x128_S128x128_S128x128_1_0_0_1_n_n.lhsBatch by decide),
    dif_pos (show (0 : Fin S128x128.rank) ∈ dot_S128x128_S128x128_S128x128_1_0_0_1_n_n.lhsNonContracting by decide)]
  rfl

theorem lhs_dot_S128x128_S128x128_S128x128_1_0_0_1_n_n_1 (j : S128x128.Idx) (k : dot_S128x128_S128x128_S128x128_1_0_0_1_n_n.contr.Idx) :
    (dot_S128x128_S128x128_S128x128_1_0_0_1_n_n.lhsIdx j k 1).val = (k ⟨0, by decide⟩).val :=
  DotDims.lhsIdx_val_of_single (d := dot_S128x128_S128x128_S128x128_1_0_0_1_n_n) (cl := 1) rfl j k

theorem rhs_dot_S128x128_S128x128_S128x128_1_0_0_1_n_n_0 (j : S128x128.Idx) (k : dot_S128x128_S128x128_S128x128_1_0_0_1_n_n.contr.Idx) :
    (dot_S128x128_S128x128_S128x128_1_0_0_1_n_n.rhsIdx j k 0).val = (k ⟨0, by decide⟩).val :=
  DotDims.rhsIdx_val_of_single (d := dot_S128x128_S128x128_S128x128_1_0_0_1_n_n) (cr := 0) rfl j k

theorem rhs_dot_S128x128_S128x128_S128x128_1_0_0_1_n_n_1 (j : S128x128.Idx) (k : dot_S128x128_S128x128_S128x128_1_0_0_1_n_n.contr.Idx) :
    (dot_S128x128_S128x128_S128x128_1_0_0_1_n_n.rhsIdx j k 1).val = (j 1).val := by
  unfold DotDims.rhsIdx
  rw [dif_neg (show ¬(1 : Fin S128x128.rank) ∈ dot_S128x128_S128x128_S128x128_1_0_0_1_n_n.rhsBatch by decide),
    dif_pos (show (1 : Fin S128x128.rank) ∈ dot_S128x128_S128x128_S128x128_1_0_0_1_n_n.rhsNonContracting by decide)]
  rfl

/-- The product into the zero accumulator, read at (r, e): the sum over the contracted coordinate. -/
theorem matmul_dot_S128x128_S128x128_S128x128_1_0_0_1_n_n_apply (A : FVec Ideal S128x128 .f32) (B : FVec Ideal S128x128 .f32) (r : Fin 128) (e : Fin 128) :
    matmul dot_S128x128_S128x128_S128x128_1_0_0_1_n_n none A B (constant (F := Ideal) S128x128 .f32 0x00000000#32) (ix2 r e)
      = ∑ c : Fin 128, A (ix2 r c) * B (ix2 c e) := by
  show FloatOps.matmul dot_S128x128_S128x128_S128x128_1_0_0_1_n_n none A B (constant (F := Ideal) S128x128 .f32 0x00000000#32) (ix2 r e) = _
  rw [Ideal.matmul_constant_zero_apply,
    ← Equiv.sum_comp (contrEquiv1 dot_S128x128_S128x128_S128x128_1_0_0_1_n_n 128 rfl rfl).symm]
  refine Finset.sum_congr rfl fun c _ => ?_
  have c2 := contrEquiv1_symm_val dot_S128x128_S128x128_S128x128_1_0_0_1_n_n 128 rfl rfl c
  have l2 : dot_S128x128_S128x128_S128x128_1_0_0_1_n_n.lhsIdx (ix2 r e) ((contrEquiv1 _ 128 rfl rfl).symm c) = ix2 r c := by
    funext ax; apply Fin.ext
    match ax with
    | ⟨0, _⟩ => exact lhs_dot_S128x128_S128x128_S128x128_1_0_0_1_n_n_0 _ _
    | ⟨1, _⟩ => exact (lhs_dot_S128x128_S128x128_S128x128_1_0_0_1_n_n_1 _ _).trans c2
  have r2 : dot_S128x128_S128x128_S128x128_1_0_0_1_n_n.rhsIdx (ix2 r e) ((contrEquiv1 _ 128 rfl rfl).symm c) = ix2 c e := by
    funext ax; apply Fin.ext
    match ax with
    | ⟨0, _⟩ => exact (rhs_dot_S128x128_S128x128_S128x128_1_0_0_1_n_n_0 _ _).trans c2
    | ⟨1, _⟩ => exact rhs_dot_S128x128_S128x128_S128x128_1_0_0_1_n_n_1 _ _
  rw [l2, r2]

theorem lhs_dot_S1x128_S128x128_S1x128_1_0_0_1_n_n_0 (j : S1x128.Idx) (k : dot_S1x128_S128x128_S1x128_1_0_0_1_n_n.contr.Idx) :
    (dot_S1x128_S128x128_S1x128_1_0_0_1_n_n.lhsIdx j k 0).val = (j 0).val := by
  unfold DotDims.lhsIdx
  rw [dif_neg (show ¬(0 : Fin S1x128.rank) ∈ dot_S1x128_S128x128_S1x128_1_0_0_1_n_n.lhsBatch by decide),
    dif_pos (show (0 : Fin S1x128.rank) ∈ dot_S1x128_S128x128_S1x128_1_0_0_1_n_n.lhsNonContracting by decide)]
  rfl

theorem lhs_dot_S1x128_S128x128_S1x128_1_0_0_1_n_n_1 (j : S1x128.Idx) (k : dot_S1x128_S128x128_S1x128_1_0_0_1_n_n.contr.Idx) :
    (dot_S1x128_S128x128_S1x128_1_0_0_1_n_n.lhsIdx j k 1).val = (k ⟨0, by decide⟩).val :=
  DotDims.lhsIdx_val_of_single (d := dot_S1x128_S128x128_S1x128_1_0_0_1_n_n) (cl := 1) rfl j k

theorem rhs_dot_S1x128_S128x128_S1x128_1_0_0_1_n_n_0 (j : S1x128.Idx) (k : dot_S1x128_S128x128_S1x128_1_0_0_1_n_n.contr.Idx) :
    (dot_S1x128_S128x128_S1x128_1_0_0_1_n_n.rhsIdx j k 0).val = (k ⟨0, by decide⟩).val :=
  DotDims.rhsIdx_val_of_single (d := dot_S1x128_S128x128_S1x128_1_0_0_1_n_n) (cr := 0) rfl j k

theorem rhs_dot_S1x128_S128x128_S1x128_1_0_0_1_n_n_1 (j : S1x128.Idx) (k : dot_S1x128_S128x128_S1x128_1_0_0_1_n_n.contr.Idx) :
    (dot_S1x128_S128x128_S1x128_1_0_0_1_n_n.rhsIdx j k 1).val = (j 1).val := by
  unfold DotDims.rhsIdx
  rw [dif_neg (show ¬(1 : Fin S128x128.rank) ∈ dot_S1x128_S128x128_S1x128_1_0_0_1_n_n.rhsBatch by decide),
    dif_pos (show (1 : Fin S128x128.rank) ∈ dot_S1x128_S128x128_S1x128_1_0_0_1_n_n.rhsNonContracting by decide)]
  rfl

/-- The product into the zero accumulator, read at (r, e): the sum over the contracted coordinate. -/
theorem matmul_dot_S1x128_S128x128_S1x128_1_0_0_1_n_n_apply (A : FVec Ideal S1x128 .f32) (B : FVec Ideal S128x128 .f32) (r : Fin 1) (e : Fin 128) :
    matmul dot_S1x128_S128x128_S1x128_1_0_0_1_n_n none A B (constant (F := Ideal) S1x128 .f32 0x00000000#32) (ix2 r e)
      = ∑ c : Fin 128, A (ix2 r c) * B (ix2 c e) := by
  show FloatOps.matmul dot_S1x128_S128x128_S1x128_1_0_0_1_n_n none A B (constant (F := Ideal) S1x128 .f32 0x00000000#32) (ix2 r e) = _
  rw [Ideal.matmul_constant_zero_apply,
    ← Equiv.sum_comp (contrEquiv1 dot_S1x128_S128x128_S1x128_1_0_0_1_n_n 128 rfl rfl).symm]
  refine Finset.sum_congr rfl fun c _ => ?_
  have c2 := contrEquiv1_symm_val dot_S1x128_S128x128_S1x128_1_0_0_1_n_n 128 rfl rfl c
  have l2 : dot_S1x128_S128x128_S1x128_1_0_0_1_n_n.lhsIdx (ix2 r e) ((contrEquiv1 _ 128 rfl rfl).symm c) = ix2 r c := by
    funext ax; apply Fin.ext
    match ax with
    | ⟨0, _⟩ => exact lhs_dot_S1x128_S128x128_S1x128_1_0_0_1_n_n_0 _ _
    | ⟨1, _⟩ => exact (lhs_dot_S1x128_S128x128_S1x128_1_0_0_1_n_n_1 _ _).trans c2
  have r2 : dot_S1x128_S128x128_S1x128_1_0_0_1_n_n.rhsIdx (ix2 r e) ((contrEquiv1 _ 128 rfl rfl).symm c) = ix2 c e := by
    funext ax; apply Fin.ext
    match ax with
    | ⟨0, _⟩ => exact (rhs_dot_S1x128_S128x128_S1x128_1_0_0_1_n_n_0 _ _).trans c2
    | ⟨1, _⟩ => exact rhs_dot_S1x128_S128x128_S1x128_1_0_0_1_n_n_1 _ _
  rw [l2, r2]

theorem lhs_dot_S1024x128_S128x128_S1024x128_1_0_0_1_n_n_0 (j : S1024x128.Idx) (k : dot_S1024x128_S128x128_S1024x128_1_0_0_1_n_n.contr.Idx) :
    (dot_S1024x128_S128x128_S1024x128_1_0_0_1_n_n.lhsIdx j k 0).val = (j 0).val := by
  unfold DotDims.lhsIdx
  rw [dif_neg (show ¬(0 : Fin S1024x128.rank) ∈ dot_S1024x128_S128x128_S1024x128_1_0_0_1_n_n.lhsBatch by decide),
    dif_pos (show (0 : Fin S1024x128.rank) ∈ dot_S1024x128_S128x128_S1024x128_1_0_0_1_n_n.lhsNonContracting by decide)]
  rfl

theorem lhs_dot_S1024x128_S128x128_S1024x128_1_0_0_1_n_n_1 (j : S1024x128.Idx) (k : dot_S1024x128_S128x128_S1024x128_1_0_0_1_n_n.contr.Idx) :
    (dot_S1024x128_S128x128_S1024x128_1_0_0_1_n_n.lhsIdx j k 1).val = (k ⟨0, by decide⟩).val :=
  DotDims.lhsIdx_val_of_single (d := dot_S1024x128_S128x128_S1024x128_1_0_0_1_n_n) (cl := 1) rfl j k

theorem rhs_dot_S1024x128_S128x128_S1024x128_1_0_0_1_n_n_0 (j : S1024x128.Idx) (k : dot_S1024x128_S128x128_S1024x128_1_0_0_1_n_n.contr.Idx) :
    (dot_S1024x128_S128x128_S1024x128_1_0_0_1_n_n.rhsIdx j k 0).val = (k ⟨0, by decide⟩).val :=
  DotDims.rhsIdx_val_of_single (d := dot_S1024x128_S128x128_S1024x128_1_0_0_1_n_n) (cr := 0) rfl j k

theorem rhs_dot_S1024x128_S128x128_S1024x128_1_0_0_1_n_n_1 (j : S1024x128.Idx) (k : dot_S1024x128_S128x128_S1024x128_1_0_0_1_n_n.contr.Idx) :
    (dot_S1024x128_S128x128_S1024x128_1_0_0_1_n_n.rhsIdx j k 1).val = (j 1).val := by
  unfold DotDims.rhsIdx
  rw [dif_neg (show ¬(1 : Fin S128x128.rank) ∈ dot_S1024x128_S128x128_S1024x128_1_0_0_1_n_n.rhsBatch by decide),
    dif_pos (show (1 : Fin S128x128.rank) ∈ dot_S1024x128_S128x128_S1024x128_1_0_0_1_n_n.rhsNonContracting by decide)]
  rfl

/-- The product into the zero accumulator, read at (r, e): the sum over the contracted coordinate. -/
theorem matmul_dot_S1024x128_S128x128_S1024x128_1_0_0_1_n_n_apply (A : FVec Ideal S1024x128 .f32) (B : FVec Ideal S128x128 .f32) (r : Fin 1024) (e : Fin 128) :
    matmul dot_S1024x128_S128x128_S1024x128_1_0_0_1_n_n none A B (constant (F := Ideal) S1024x128 .f32 0x00000000#32) (ix2 r e)
      = ∑ c : Fin 128, A (ix2 r c) * B (ix2 c e) := by
  show FloatOps.matmul dot_S1024x128_S128x128_S1024x128_1_0_0_1_n_n none A B (constant (F := Ideal) S1024x128 .f32 0x00000000#32) (ix2 r e) = _
  rw [Ideal.matmul_constant_zero_apply,
    ← Equiv.sum_comp (contrEquiv1 dot_S1024x128_S128x128_S1024x128_1_0_0_1_n_n 128 rfl rfl).symm]
  refine Finset.sum_congr rfl fun c _ => ?_
  have c2 := contrEquiv1_symm_val dot_S1024x128_S128x128_S1024x128_1_0_0_1_n_n 128 rfl rfl c
  have l2 : dot_S1024x128_S128x128_S1024x128_1_0_0_1_n_n.lhsIdx (ix2 r e) ((contrEquiv1 _ 128 rfl rfl).symm c) = ix2 r c := by
    funext ax; apply Fin.ext
    match ax with
    | ⟨0, _⟩ => exact lhs_dot_S1024x128_S128x128_S1024x128_1_0_0_1_n_n_0 _ _
    | ⟨1, _⟩ => exact (lhs_dot_S1024x128_S128x128_S1024x128_1_0_0_1_n_n_1 _ _).trans c2
  have r2 : dot_S1024x128_S128x128_S1024x128_1_0_0_1_n_n.rhsIdx (ix2 r e) ((contrEquiv1 _ 128 rfl rfl).symm c) = ix2 c e := by
    funext ax; apply Fin.ext
    match ax with
    | ⟨0, _⟩ => exact (rhs_dot_S1024x128_S128x128_S1024x128_1_0_0_1_n_n_0 _ _).trans c2
    | ⟨1, _⟩ => exact rhs_dot_S1024x128_S128x128_S1024x128_1_0_0_1_n_n_1 _ _
  rw [l2, r2]

/-! ## The stored value -/

/-- The row [1, 128] laid along each of the 1024 rows, read at (r, e), is the row at (0, e). -/
theorem broadcast_row_apply (g : FVec Ideal S1x128 .f32) (r : Fin 1024) (e : Fin 128) :
    broadcastTo S1024x128 g broadcasts_S1x128_S1024x128 (ix2 r e) = g (ix2 (0 : Fin 1) e) :=
  broadcastTo_apply g broadcasts_S1x128_S1024x128 (ix2 r e) (ix2 (0 : Fin 1) e) (by
    intro a
    match a with
    | ⟨0, _⟩ => rfl
    | ⟨1, _⟩ => rfl)

/-- The body's stored value at (r, e). -/
theorem k1_pay1_apply (v0 v1 v5 v15 : Vec Ideal S128x128 .f32) (v3 v7 : Vec Ideal S1x128 .f32)
    (v10 v13 : Vec Ideal S1024x128 .f32) (r : Fin 1024) (e : Fin 128) :
    k1_pay1 v0 v1 v3 v5 v7 v10 v13 v15 (ix2 r e)
      = Cert.Spec.swish ((∑ d : Fin 128, v10 (ix2 r d) * (∑ j : Fin 128, v0 (ix2 d j) * v1 (ix2 j e)))
          + (∑ d : Fin 128, v13 (ix2 r d) * v15 (ix2 d e))
          + ((∑ j : Fin 128, v3 (ix2 0 j) * v5 (ix2 j e)) + v7 (ix2 0 e))) := by
  unfold k1_pay1
  simp only [shapeCast_self]
  rw [mulf_apply]
  show _ * FloatOps.logistic _ = _
  rw [Ideal.logistic_def]
  unfold Cert.Spec.swish
  rw [addf_apply, addf_apply, broadcast_row_apply, addf_apply,
    matmul_dot_S1024x128_S128x128_S1024x128_1_0_0_1_n_n_apply,
    matmul_dot_S1024x128_S128x128_S1024x128_1_0_0_1_n_n_apply,
    matmul_dot_S1x128_S128x128_S1x128_1_0_0_1_n_n_apply]
  simp only [matmul_dot_S128x128_S128x128_S128x128_1_0_0_1_n_n_apply]

end Cert.Proof.KV

end
-- ==== Proof.KBridge.lean ====
/-
  The kernel's result against the specification.

  The program's result is the TensorCore body's function of the two intermediate arrays the gather-and-reduce program
  leaves, of the two weight matrices and of the two biases recast as one row.  Read at a real batch row and a column
  it is the specification's kernel result.
-/
import proofs.«208500_g61899068670276_cont_9to1_m_775_47_alg».proof.Proof.KLaunch
import proofs.«208500_g61899068670276_cont_9to1_m_775_47_alg».proof.Proof.KValue
import proofs.«208500_g61899068670276_cont_9to1_m_775_47_alg».proof.Proof.TcDefs
import proofs.«208500_g61899068670276_cont_9to1_m_775_47_alg».proof.Proof.TcPay
import proofs.«208500_g61899068670276_cont_9to1_m_775_47_alg».proof.Proof.Spec

noncomputable section

namespace Cert.Proof.K

open Cert.KernelIdeal Cert.KernelIdeal.Gen
open Idealize.ShloMosaic Idealize.ShloMosaic.ValueIdx
open Cert.Spec

/-- The kernel's result, read at a real batch row b and a column e, is the specification's kernel result: the row lies
    in block b / 1024 at local row b % 1024, the body's stored value there is the swish of the three sums over the
    blocks' entries, and each entry is the one the specification names — the self row and the neighbour mean by the
    two results' row formulas, the weight blocks by their offsets in the final weight matrix, the two biases by the
    one-row recast. -/
theorem kval_apply (m : (ℓ : Loc nD τ sig) → Buf (Elt Ideal) ℓ) (hok : PreOK m) (c : Dev nD) (b : Fin 50000) (e : Fin 128) :
    kval m tcVal c (ix2 b e)
      = kernelOut (m (arg0Loc c)) (m (arg1Loc c)) (m (arg2Loc c)) (m (arg3Loc c)) (m (arg4Loc c)) (m (arg5Loc c))
          (m (arg6Loc c)) (m (arg7Loc c)) b e := by
  have hb : 1024 * (b.val / 1024) + b.val % 1024 = b.val := Nat.div_add_mod b.val 1024
  unfold kval tcVal tcBlk
  rw [Cert.Proof.KV.k1_pay1_apply]
  refine Cert.Proof.KV.kernelOut_of_rows (m (arg0Loc c)) (m (arg1Loc c)) (m (arg2Loc c)) (m (arg3Loc c)) (m (arg4Loc c))
    (m (arg5Loc c)) (m (arg6Loc c)) (m (arg7Loc c)) b e _ _ _ _ _ _ _ ?_ ?_ ?_ ?_ ?_ ?_ ?_
  · intro d
    exact Cert.Proof.KV.selfVal_eq m hok c b d _ hb rfl
  · intro d
    exact Cert.Proof.KV.neighVal_eq m hok c b d _ hb rfl
  · intro d j
    rfl
  · intro j
    rfl
  · intro d
    rfl
  · intro j
    exact Cert.Proof.KV.row_apply _ _ j
  · exact Cert.Proof.KV.row_apply _ _ e

end Cert.Proof.K

end
-- ==== Proof.TileInv.lean ====
import proofs.«208500_g61899068670276_cont_9to1_m_775_47_alg».proof.Proof.KSetup
import Idealize.ShloMosaic.Lib.SparseCore.Stream
import Idealize.ShloMosaic.Lib.SparseCore.Scatter

/-!
  The tile's task: its lists, what each transfer in flight hands back, the invariant of the loop over pairs of
  groups, and the statements of the inner loop over a group's eight rows and of one trip of the outer loop.

  PROTOCOL (per tile; every DMA semaphore is the tile's own, at most one transfer outstanding on each):
    gather semaphore p      : the gather of group g's eighty table rows into row buffer p (g of parity p); waited at the
                              head of step g; re-issued for g + 2 at the end of step g
    self-gather semaphore p : the gather of group g's eight own rows into self buffer p; issued before the loop (g < 2)
                              or at the head of step g after the out copies of g - 2 are waited; waited after the inner loop
    mean-out semaphore p    : the copy of mean buffer p to the result's rows of group g; issued at the end of step g,
                              waited at the head of step g + 2 (or after the loop)
    self-out semaphore p    : likewise for self buffer p
  No buffer is touched between a transfer's issue and its wait.
-/

noncomputable section

namespace Cert.Proof.K

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable (m : (ℓ : Loc nD τ sig) → Buf (Elt F) ℓ)
variable (d : Dev nD) (L : grid0.Coords)

/-- The tile's thread. -/
abbrev tthr : Thread nD τ := V d (cV L) (jV L)

/-- Trips of the loop over pairs of groups. -/
def trips : ℕ := ngc L / 2

theorem L0_lt : (L 0).val < 2 := (L 0).isLt
theorem L1_lt : (L 1).val < 16 := (L 1).isLt
theorem ngc_le : ngc L ≤ 222 := by unfold ngc ngcN; split <;> omega
theorem ngc_even : ngc L = 2 * trips L := by unfold trips ngc ngcN; split <;> omega
theorem trips_le : trips L ≤ 111 := by unfold trips ngc ngcN; split <;> omega

theorem nidx_lt (x : S17760.Idx) : 10 * rowBase (L 0).val (L 1).val + (x 0).val < 505920 := by
  have h0 := L0_lt L; have h1 := L1_lt L
  have hx : (x 0).val < 17760 := (x 0).isLt
  unfold rowBase; omega
theorem nodes_lt (x : S1776.Idx) : rowBase (L 0).val (L 1).val + (x 0).val < 50592 := by
  have h0 := L0_lt L; have h1 := L1_lt L
  have hx : (x 0).val < 1776 := (x 0).isLt
  unfold rowBase; omega

/-! ## The tile's three lists: its slices of the padded neighbour indices, nodes and weights -/

def tNidx : Buf (Elt F) ((tthr d L).loc cc0_scratch0) := fun x =>
  nidxF m d (flat1 (10 * rowBase (L 0).val (L 1).val + (x 0).val) (nidx_lt L x))
def tNodes : Buf (Elt F) ((tthr d L).loc cc0_scratch1) := fun x =>
  nodesF m d (flat1 (rowBase (L 0).val (L 1).val + (x 0).val) (nodes_lt L x))

variable [FloatOps F]

def tW : Buf (Elt F) ((tthr d L).loc cc0_scratch2) := fun x =>
  wF m d (flat1 (10 * rowBase (L 0).val (L 1).val + (x 0).val) (nidx_lt L x))

/-! ## What the scratch buffers hold -/

/-- The row buffer after group `g`'s gather: row `k` is the table row the tile's neighbour word `80 g + k` names. -/
def rowsVal (g : ℕ) : S80x128.Idx → F .f32 := fun x =>
  tblAt (m (tblLoc d)) (tNidx m d L (flat1 ((80 * g + (x 0).val) % 17760) (Nat.mod_lt _ (by decide)))) (x 1)
/-- The self buffer after group `g`'s gather: row `b` is the table row the tile's node `8 g + b` names. -/
def sstVal (g : ℕ) : S8x128.Idx → F .f32 := fun x =>
  tblAt (m (tblLoc d)) (tNodes m d L (flat1 ((8 * g + (x 0).val) % 1776) (Nat.mod_lt _ (by decide)))) (x 1)

/-- Row `b` of the mean of a group, from the weight list `Wv` at words `80 g + 10 b + j` and the row buffer `Rv` at rows
    `10 b + j`: the weighted sum times the reciprocal of the weights' sum, both sums from the left. -/
def meanOf (Wv : S17760.Idx → F .f32) (Rv : S80x128.Idx → F .f32) (g : ℕ) : S8x128.Idx → F .f32 := fun x =>
  FloatOps.mulf
    (sum10 fun j => FloatOps.mulf (Wv (flat1 ((80 * g + 10 * (x 0).val + j.val) % 17760) (Nat.mod_lt _ (by decide))))
      (Rv (Shape.pair (d := ![80, 128]) ⟨(10 * (x 0).val + j.val) % 80, Nat.mod_lt _ (by decide)⟩ (x 1))))
    (FloatOps.divf (Scalar.ofBits .f32 0x3F800000#32)
      (sum10 fun j => Wv (flat1 ((80 * g + 10 * (x 0).val + j.val) % 17760) (Nat.mod_lt _ (by decide)))))
/-- The mean buffer after group `g`'s inner loop. -/
def noutVal (g : ℕ) : S8x128.Idx → F .f32 := meanOf (tW m d L) (rowsVal m d L g) g

/-- The mean buffer with its first `b` rows done, the rest as they were. -/
def meanUpTo (Wv : S17760.Idx → F .f32) (Rv : S80x128.Idx → F .f32) (g b : ℕ) (f0 : S8x128.Idx → F .f32) : S8x128.Idx → F .f32 := fun x =>
  if (x 0).val < b then meanOf Wv Rv g x else f0 x

/-! ## Shares -/

/-- The tile's read share of the inputs, and the four tokens of it the gathers in flight borrow (two per slot). -/
abbrev inShare : PosShare TreeShare := tileShare (L 0).val (L 1).val
def tblTok : Fin 4 → PosShare TreeShare
  | 0 => Transfers.shareTokN (inShare L) 0
  | 1 => Transfers.shareTokN (inShare L) 1
  | 2 => Transfers.shareTokN (inShare L) 2
  | 3 => Transfers.shareDrop (inShare L) 3
/-- The two halves of the tile's own neighbour list and node list, one per slot. -/
def idxTok : Fin 2 → PosShare TreeShare
  | 0 => Transfers.shareTokN fullShare 0
  | 1 => Transfers.shareDrop fullShare 1
abbrev nodTok (p : Fin 2) : PosShare TreeShare := idxTok p

/-! ### Slot 0 (groups of parity 0) -/

/-- What the gather of group `g`'s eighty table rows hands back at its wait: the row buffer at the gathered rows, the
    slot's share of the tile's neighbour list and of the table. -/
def bigD0 (g : ℕ) : sProp 𝕄 :=
  iprop(((sRows0).view.loc (tthr d L) ↦{fullShare} (rowsVal m d L g : Buf (Elt F) ((tthr d L).loc cc0_scratch3)))
    ∗ ((sNidx).view.loc (tthr d L) ↦{idxTok 0} tNidx m d L)
    ∗ ((tblV).view.loc (tthr d L) ↦{tblTok L 0} m (tblLoc d)))
/-- What the gather of group `g`'s eight own table rows hands back. -/
def selfD0 (g : ℕ) : sProp 𝕄 :=
  iprop(((sSst0).view.loc (tthr d L) ↦{fullShare} (sstVal m d L g : Buf (Elt F) ((tthr d L).loc cc0_scratch5)))
    ∗ ((sNodes).view.loc (tthr d L) ↦{nodTok 0} tNodes m d L)
    ∗ ((tblV).view.loc (tthr d L) ↦{tblTok L 2} m (tblLoc d)))
/-- What the copy of group `g`'s eight mean rows out to the result hands back: the rows written, the staging buffer. -/
def outND0 (g : ℕ) : sProp 𝕄 :=
  iprop((noutLoc d ↦[grpRows L g]{fullShare} neighVal m d) ∗ ∃ f, (sNout0).view.loc (tthr d L) ↦{fullShare} f)
def outSD0 (g : ℕ) : sProp 𝕄 :=
  iprop((soutLoc d ↦[grpRows L g]{fullShare} selfVal m d) ∗ ∃ f, (sSst0).view.loc (tthr d L) ↦{fullShare} f)

/-- The big gather's side of slot 0 at the head of outer trip `t`: in flight for group `2 t + 0` while trips remain,
    else everything it uses in hand. -/
def bigPart0 (t : ℕ) : sProp 𝕄 :=
  if t < trips L then
    Transfers.Flight (countersEmb : UEmb Counters 𝕄) (tthr d L) (SemLoc.dma cc0_scratch9.sem) (default : HIx 1) 327680 (bigD0 m d L (2 * t + 0))
  else
    iprop(semVal (tthr d L, SemLoc.dma cc0_scratch9.sem) 0 ∗ (∃ f, (sRows0).view.loc (tthr d L) ↦{fullShare} f)
      ∗ ((sNidx).view.loc (tthr d L) ↦{idxTok 0} tNidx m d L) ∗ ((tblV).view.loc (tthr d L) ↦{tblTok L 0} m (tblLoc d)))
/-- The self gather's side: in flight for group `0` at the first trip's head (started before the loop), idle after. -/
def selfPart0 (t : ℕ) : sProp 𝕄 :=
  if t = 0 then
    Transfers.Flight (countersEmb : UEmb Counters 𝕄) (tthr d L) (SemLoc.dma cc0_scratch11.sem) (default : HIx 1) 32768 (selfD0 m d L 0)
  else
    iprop(semVal (tthr d L, SemLoc.dma cc0_scratch11.sem) 0
      ∗ ((sNodes).view.loc (tthr d L) ↦{nodTok 0} tNodes m d L) ∗ ((tblV).view.loc (tthr d L) ↦{tblTok L 2} m (tblLoc d)))
/-- The out copies' side: none at the first trip's head, those of group `2 t + 0 - 2` in flight after. -/
def outPart0 (t : ℕ) : sProp 𝕄 :=
  if t = 0 then
    iprop(semVal (tthr d L, SemLoc.dma cc0_scratch13.sem) 0 ∗ semVal (tthr d L, SemLoc.dma cc0_scratch15.sem) 0 ∗ ∃ f, (sNout0).view.loc (tthr d L) ↦{fullShare} f)
  else
    iprop(Transfers.Flight (countersEmb : UEmb Counters 𝕄) (tthr d L) (SemLoc.dma cc0_scratch13.sem) (default : HIx 1) 32768 (outND0 m d L (2 * t + 0 - 2))
      ∗ Transfers.Flight (countersEmb : UEmb Counters 𝕄) (tthr d L) (SemLoc.dma cc0_scratch15.sem) (default : HIx 1) 32768 (outSD0 m d L (2 * t + 0 - 2)))
def slot0 (t : ℕ) : sProp 𝕄 := iprop(bigPart0 m d L t ∗ selfPart0 m d L t ∗ outPart0 m d L t)

/-! ### Slot 1 (groups of parity 1) -/

/-- What the gather of group `g`'s eighty table rows hands back at its wait: the row buffer at the gathered rows, the
    slot's share of the tile's neighbour list and of the table. -/
def bigD1 (g : ℕ) : sProp 𝕄 :=
  iprop(((sRows1).view.loc (tthr d L) ↦{fullShare} (rowsVal m d L g : Buf (Elt F) ((tthr d L).loc cc0_scratch4)))
    ∗ ((sNidx).view.loc (tthr d L) ↦{idxTok 1} tNidx m d L)
    ∗ ((tblV).view.loc (tthr d L) ↦{tblTok L 1} m (tblLoc d)))
/-- What the gather of group `g`'s eight own table rows hands back. -/
def selfD1 (g : ℕ) : sProp 𝕄 :=
  iprop(((sSst1).view.loc (tthr d L) ↦{fullShare} (sstVal m d L g : Buf (Elt F) ((tthr d L).loc cc0_scratch6)))
    ∗ ((sNodes).view.loc (tthr d L) ↦{nodTok 1} tNodes m d L)
    ∗ ((tblV).view.loc (tthr d L) ↦{tblTok L 3} m (tblLoc d)))
/-- What the copy of group `g`'s eight mean rows out to the result hands back: the rows written, the staging buffer. -/
def outND1 (g : ℕ) : sProp 𝕄 :=
  iprop((noutLoc d ↦[grpRows L g]{fullShare} neighVal m d) ∗ ∃ f, (sNout1).view.loc (tthr d L) ↦{fullShare} f)
def outSD1 (g : ℕ) : sProp 𝕄 :=
  iprop((soutLoc d ↦[grpRows L g]{fullShare} selfVal m d) ∗ ∃ f, (sSst1).view.loc (tthr d L) ↦{fullShare} f)

/-- The big gather's side of slot 1 at the head of outer trip `t`: in flight for group `2 t + 1` while trips remain,
    else everything it uses in hand. -/
def bigPart1 (t : ℕ) : sProp 𝕄 :=
  if t < trips L then
    Transfers.Flight (countersEmb : UEmb Counters 𝕄) (tthr d L) (SemLoc.dma cc0_scratch10.sem) (default : HIx 1) 327680 (bigD1 m d L (2 * t + 1))
  else
    iprop(semVal (tthr d L, SemLoc.dma cc0_scratch10.sem) 0 ∗ (∃ f, (sRows1).view.loc (tthr d L) ↦{fullShare} f)
      ∗ ((sNidx).view.loc (tthr d L) ↦{idxTok 1} tNidx m d L) ∗ ((tblV).view.loc (tthr d L) ↦{tblTok L 1} m (tblLoc d)))
/-- The self gather's side: in flight for group `1` at the first trip's head (started before the loop), idle after. -/
def selfPart1 (t : ℕ) : sProp 𝕄 :=
  if t = 0 then
    Transfers.Flight (countersEmb : UEmb Counters 𝕄) (tthr d L) (SemLoc.dma cc0_scratch12.sem) (default : HIx 1) 32768 (selfD1 m d L 1)
  else
    iprop(semVal (tthr d L, SemLoc.dma cc0_scratch12.sem) 0
      ∗ ((sNodes).view.loc (tthr d L) ↦{nodTok 1} tNodes m d L) ∗ ((tblV).view.loc (tthr d L) ↦{tblTok L 3} m (tblLoc d)))
/-- The out copies' side: none at the first trip's head, those of group `2 t + 1 - 2` in flight after. -/
def outPart1 (t : ℕ) : sProp 𝕄 :=
  if t = 0 then
    iprop(semVal (tthr d L, SemLoc.dma cc0_scratch14.sem) 0 ∗ semVal (tthr d L, SemLoc.dma cc0_scratch16.sem) 0 ∗ ∃ f, (sNout1).view.loc (tthr d L) ↦{fullShare} f)
  else
    iprop(Transfers.Flight (countersEmb : UEmb Counters 𝕄) (tthr d L) (SemLoc.dma cc0_scratch14.sem) (default : HIx 1) 32768 (outND1 m d L (2 * t + 1 - 2))
      ∗ Transfers.Flight (countersEmb : UEmb Counters 𝕄) (tthr d L) (SemLoc.dma cc0_scratch16.sem) (default : HIx 1) 32768 (outSD1 m d L (2 * t + 1 - 2)))
def slot1 (t : ℕ) : sProp 𝕄 := iprop(bigPart1 m d L t ∗ selfPart1 m d L t ∗ outPart1 m d L t)

/-! ## The rows of the results -/

/-- Groups `< k` finished and back in hand; groups `≥ k` not yet started, at their launch contents. -/
def outDone (k : ℕ) : sProp 𝕄 := bigSep (Finset.range k) fun g => outPts d (grpRows L g) (neighVal m d) (selfVal m d)
def outPend (k : ℕ) : sProp 𝕄 := bigSep (Finset.Ico k (ngc L)) fun g => outPts d (grpRows L g) (m (noutLoc d)) (m (soutLoc d))

/-! ## The outer loop's invariant -/

variable (O : CellTallies nD τ sig (HIx 1)) (W : Waits sig (HIx 1))

/-- What both slots share at the head of trip `t`: the weight list, the
    finished and the untouched rows of the results, what the tile owes. -/
def sharedInv (t : ℕ) : sProp 𝕄 :=
  iprop(Transfers.MayWaits (tthr d L) (none : HIx 1) O
    ∗ ((sW).view.loc (tthr d L) ↦{fullShare} tW m d L)
    ∗ outDone m d L (2 * t - 2) ∗ outPend m d L (2 * t)
    ∗ ∃ W', ⌜∀ p ∈ W', p ∈ W ∨ p.2 = none⌝ ∗ owes (tthr d L) O W')

/-- At the head of trip `t` (groups `2 t` and `2 t + 1` next). The carried word is not read. -/
def outerInv (t : ℕ) (_ : BitVec 32) : sProp 𝕄 := iprop(sharedInv m d L O W t ∗ slot0 m d L t ∗ slot1 m d L t)

/-! ## Statements -/

/-- The loop over pairs of groups runs `ngc / 2` trips. -/
theorem t1_trips : (k0_t1_loop L).trips = trips L := by
  have h : (L 0).val = 0 ∨ (L 0).val = 1 := by have h2 : (L 0).val < 2 := (L 0).isLt; omega
  rcases h with h | h
  · unfold trips ngc ngcN
    simp only [k0_t1_loop, h]
    decide
  · unfold trips ngc ngcN
    simp only [k0_t1_loop, h]
    decide

/-- The remainder loop runs no trip. -/
theorem t4_trips : (k0_t4_loop L).trips = 0 := Nat.le_zero.mp (k0_t4_abs L).2.1

/-- THE INNER LOOP, slot 0 (group `g`, the printed group word `v57`): from the weight list, the row buffer and the mean
    buffer, the eight trips leave the mean buffer at the group's means; the other two as they were. -/
def InnerLoop0 : Prop :=
  ∀ (v1 v5 : BitVec 32) (t : Fin (k0_t1_loop L).trips) (v57 : BitVec 32) (g : ℕ) (hv : v57.toNat = g) (hg : g < 222)
    (qw qr : PosShare TreeShare) (Wv : S17760.Idx → F .f32) (Rv : S80x128.Idx → F .f32) (f0 : S8x128.Idx → F .f32),
    (iprop(((sW).view.loc (tthr d L) ↦{qw} (Wv : Buf (Elt F) ((tthr d L).loc cc0_scratch2)))
        ∗ ((sRows0).view.loc (tthr d L) ↦{qr} (Rv : Buf (Elt F) ((tthr d L).loc cc0_scratch3)))
        ∗ ((sNout0).view.loc (tthr d L) ↦{fullShare} (f0 : Buf (Elt F) ((tthr d L).loc cc0_scratch7)))) : sProp 𝕄)
      ⊢ wp frame (wpE (defs₀ (F := F)) 𝒱₀ (tthr d L) none) Set.univ
          (Scf.Loop.for k0_t2_loop k0_t2_ok 0#32 (k0_t2_body (F := F) L nidxV (Memref.isWhole_whole _) nodesV (Memref.isWhole_whole _) wV (Memref.isWhole_whole _) tblV (Memref.isWhole_whole _) noutV (Memref.isWhole_whole _) soutV (Memref.isWhole_whole _) sNidx (Memref.isWhole_whole _) sNodes (Memref.isWhole_whole _) sW (Memref.isWhole_whole _) sRows0 (Memref.isWhole_whole _) sRows1 (Memref.isWhole_whole _) sSst0 (Memref.isWhole_whole _) sSst1 (Memref.isWhole_whole _) sNout0 (Memref.isWhole_whole _) sNout1 (Memref.isWhole_whole _) cc0_scratch9 cc0_scratch10 cc0_scratch11 cc0_scratch12 cc0_scratch13 cc0_scratch14 cc0_scratch15 cc0_scratch16 cc0_scoped0 cc0_scoped1 cc0_scoped2 v1 v5 0#32 1#32 t v57))
          fun _ => iprop(((sW).view.loc (tthr d L) ↦{qw} (Wv : Buf (Elt F) ((tthr d L).loc cc0_scratch2)))
            ∗ ((sRows0).view.loc (tthr d L) ↦{qr} (Rv : Buf (Elt F) ((tthr d L).loc cc0_scratch3)))
            ∗ ((sNout0).view.loc (tthr d L) ↦{fullShare} (meanOf Wv Rv g : Buf (Elt F) ((tthr d L).loc cc0_scratch7))))

/-- THE INNER LOOP, slot 1 (the printed group word `v80`). -/
def InnerLoop1 : Prop :=
  ∀ (v1 v5 : BitVec 32) (v80 : BitVec 32) (g : ℕ) (hv : v80.toNat = g) (hg : g < 222)
    (qw qr : PosShare TreeShare) (Wv : S17760.Idx → F .f32) (Rv : S80x128.Idx → F .f32) (f0 : S8x128.Idx → F .f32),
    (iprop(((sW).view.loc (tthr d L) ↦{qw} (Wv : Buf (Elt F) ((tthr d L).loc cc0_scratch2)))
        ∗ ((sRows1).view.loc (tthr d L) ↦{qr} (Rv : Buf (Elt F) ((tthr d L).loc cc0_scratch4)))
        ∗ ((sNout1).view.loc (tthr d L) ↦{fullShare} (f0 : Buf (Elt F) ((tthr d L).loc cc0_scratch8)))) : sProp 𝕄)
      ⊢ wp frame (wpE (defs₀ (F := F)) 𝒱₀ (tthr d L) none) Set.univ
          (Scf.Loop.for k0_t3_loop k0_t3_ok 0#32 (k0_t3_body (F := F) L nidxV (Memref.isWhole_whole _) nodesV (Memref.isWhole_whole _) wV (Memref.isWhole_whole _) tblV (Memref.isWhole_whole _) noutV (Memref.isWhole_whole _) soutV (Memref.isWhole_whole _) sNidx (Memref.isWhole_whole _) sNodes (Memref.isWhole_whole _) sW (Memref.isWhole_whole _) sRows0 (Memref.isWhole_whole _) sRows1 (Memref.isWhole_whole _) sSst0 (Memref.isWhole_whole _) sSst1 (Memref.isWhole_whole _) sNout0 (Memref.isWhole_whole _) sNout1 (Memref.isWhole_whole _) cc0_scratch9 cc0_scratch10 cc0_scratch11 cc0_scratch12 cc0_scratch13 cc0_scratch14 cc0_scratch15 cc0_scratch16 cc0_scoped0 cc0_scoped1 cc0_scoped2 v1 v5 v80))
          fun _ => iprop(((sW).view.loc (tthr d L) ↦{qw} (Wv : Buf (Elt F) ((tthr d L).loc cc0_scratch2)))
            ∗ ((sRows1).view.loc (tthr d L) ↦{qr} (Rv : Buf (Elt F) ((tthr d L).loc cc0_scratch4)))
            ∗ ((sNout1).view.loc (tthr d L) ↦{fullShare} (meanOf Wv Rv g : Buf (Elt F) ((tthr d L).loc cc0_scratch8))))

/-- ONE TRIP OF THE OUTER LOOP: from the invariant at `t`, the trip's region re-establishes it at `t + 1`. -/
def OuterTrip : Prop :=
  ∀ (hpre : PreOK m) (v1 v5 : BitVec 32) (t : Fin (k0_t1_loop L).trips) (acc : BitVec 32),
    outerInv m d L O W t.val acc
      ⊢ wp frame (wpE (defs₀ (F := F)) 𝒱₀ (tthr d L) none) Set.univ
          (k0_t1_body (F := F) L nidxV (Memref.isWhole_whole _) nodesV (Memref.isWhole_whole _) wV (Memref.isWhole_whole _) tblV (Memref.isWhole_whole _) noutV (Memref.isWhole_whole _) soutV (Memref.isWhole_whole _) sNidx (Memref.isWhole_whole _) sNodes (Memref.isWhole_whole _) sW (Memref.isWhole_whole _) sRows0 (Memref.isWhole_whole _) sRows1 (Memref.isWhole_whole _) sSst0 (Memref.isWhole_whole _) sSst1 (Memref.isWhole_whole _) sNout0 (Memref.isWhole_whole _) sNout1 (Memref.isWhole_whole _) cc0_scratch9 cc0_scratch10 cc0_scratch11 cc0_scratch12 cc0_scratch13 cc0_scratch14 cc0_scratch15 cc0_scratch16 cc0_scoped0 cc0_scoped1 cc0_scoped2 v1 v5 t acc)
          fun r => outerInv m d L O W (t.val + 1) r

end Cert.Proof.K

end
-- ==== Proof.TileArith.lean ====
/-
  Side facts of the tiles' arithmetic. Under the plain index precondition every entry of the two padded index arrays
  names a row of the table (the padding is the zero word), so every word an indirect gather reads off a tile's fetched
  lists is in range; the prologue's three fetches read the tile's lists; the windows of the results a group's copies go
  through are the group's eight rows, which partition the tile's rows; and a group's staged means and own rows are the
  two result functions on those rows.
-/
import proofs.«208500_g61899068670276_cont_9to1_m_775_47_alg».proof.Proof.TileInv

noncomputable section

namespace Cert.Proof.K

open Cert.KernelIdeal Cert.KernelIdeal.Gen

open Idealize.ShloMosaic
open Idealize.ShloMosaic.SparseCore (S V T)

variable {F : FTy → Type}

variable (m : (ℓ : Loc nD τ sig) → Buf (Elt F) ℓ)
variable (d : Dev nD) (L : grid0.Coords)

/-! ## A padded array's entries -/

/-- An entry of a padded array is an entry of the operand or the padding value. -/
theorem pad_cases {α : Type} {s t u : Shape} (lo hi interior : Fin s.rank → Nat) (x : s.Idx → α) (v : u.Idx → α)
    (h : s.Pads lo hi interior t) (hu : 0 < u.numel) (j : t.Idx) :
    (∃ i, pad t lo hi interior x v h hu j = x i) ∨ pad t lo hi interior x v h hu j = v (Shape.Idx.first hu) := by
  unfold pad
  split
  · exact Or.inl ⟨_, rfl⟩
  · exact Or.inr rfl

/-- Every padded neighbour index names a row of the table. -/
theorem nidxF_lt [FloatOps F] (hpre : PreOK m) (d : Dev nD) : ∀ i, (nidxF m d i).toNat < 100000 := by
  intro i
  unfold nidxF
  rcases pad_cases ![0] ![5920] ![0] (shapeCast S500000 (m (arg1Loc d)) shapeCasts_S50000x10_S500000)
    (constantI S_ 32 0#32) pads_S500000_S505920_059200 h_S_ i with ⟨x, hx⟩ | hx
  · rw [hx]; exact (hpre d).2 _
  · rw [hx]; show (0#32 : BitVec 32).toNat < 100000; decide

/-- Every padded node names a row of the table. -/
theorem nodesF_lt [FloatOps F] (hpre : PreOK m) (d : Dev nD) : ∀ i, (nodesF m d i).toNat < 100000 := by
  intro i
  unfold nodesF
  rcases pad_cases ![0] ![592] ![0] (m (arg0Loc d)) (constantI S_ 32 0#32) pads_S50000_S50592_05920 h_S_ i with ⟨x, hx⟩ | hx
  · rw [hx]; exact (hpre d).1 _
  · rw [hx]; show (0#32 : BitVec 32).toNat < 100000; decide

/-- The same along any family of positions: the words a gather reads off a fetched run of the padded neighbour indices. -/
theorem nidxF_run_lt [FloatOps F] (hpre : PreOK m) (d : Dev nD) {ι : Type} (p : ι → S505920.Idx) :
    ∀ j, (nidxF m d (p j)).toNat < 100000 := fun j => nidxF_lt m hpre d (p j)

/-- The same for the padded nodes. -/
theorem nodesF_run_lt [FloatOps F] (hpre : PreOK m) (d : Dev nD) {ι : Type} (p : ι → S50592.Idx) :
    ∀ j, (nodesF m d (p j)).toNat < 100000 := fun j => nodesF_lt m hpre d (p j)

/-! ## The tile's lists -/

theorem tNidx_lt [FloatOps F] (hpre : PreOK m) : ∀ x, (tNidx m d L x).toNat < 100000 :=
  fun x => nidxF_lt m hpre d _

theorem tNodes_lt [FloatOps F] (hpre : PreOK m) : ∀ x, (tNodes m d L x).toNat < 100000 :=
  fun x => nodesF_lt m hpre d _

/-- Every word a gather reads through a window of eighty of the tile's neighbour list is in range. -/
theorem hin_idx [FloatOps F] (hpre : PreOK m) (off : Fin 1 → ℕ) (h : ∀ a, off a + S80.size a ≤ S17760.size a)
    (h' : ∀ a, (Rect.unit (s := S17760) off S80.size h).stride a = 1) :
    ∀ x, ((sNidx.slice (Rect.unit (s := S17760) off S80.size h) h').view.read (Elt F) (tNidx m d L) x).toNat < 100000 :=
  fun x => tNidx_lt m d L hpre _

/-- Every word a gather reads through a window of eight of the tile's node list is in range. -/
theorem hin_nod [FloatOps F] (hpre : PreOK m) (off : Fin 1 → ℕ) (h : ∀ a, off a + S8.size a ≤ S1776.size a)
    (h' : ∀ a, (Rect.unit (s := S1776) off S8.size h).stride a = 1) :
    ∀ x, ((sNodes.slice (Rect.unit (s := S1776) off S8.size h) h').view.read (Elt F) (tNodes m d L) x).toNat < 100000 :=
  fun x => tNodes_lt m d L hpre _

/-! ## The prologue's fetches -/

/-- A rank-one index is the flat index of its coordinate. -/
theorem eq_flat1 {n : ℕ} (i : (⟨1, ![n]⟩ : Shape).Idx) (k : ℕ) (h : k < n) (hk : (i 0).val = k) : i = flat1 k h := by
  funext a
  obtain rfl : a = 0 := Subsingleton.elim _ _
  exact Fin.ext hk

/-- The window of the padded neighbour indices the tile fetches reads the tile's neighbour list. -/
theorem fetch_nidx [FloatOps F] :
    (nidxV.slice (Rect.unit (s := S505920) (k0_off1 L) S17760.size (k0_off1_inb L)) (fun _ => rfl)).view.read (Elt F)
      (nidxF m d : Buf (Elt F) (nidxLoc d)) = tNidx m d L := by
  funext x
  have e : k0_off1 L 0 = 10 * rowBase (L 0).val (L 1).val := congrFun (k0_off1_rowBase L) 0
  refine congrArg (nidxF m d) (eq_flat1 _ _ _ ?_)
  show k0_off1 L 0 + 1 * (x 0).val = 10 * rowBase (L 0).val (L 1).val + (x 0).val
  omega

/-- The window of the padded nodes the tile fetches reads the tile's node list. -/
theorem fetch_nodes [FloatOps F] :
    (nodesV.slice (Rect.unit (s := S50592) (k0_off2 L) S1776.size (k0_off2_inb L)) (fun _ => rfl)).view.read (Elt F)
      (nodesF m d : Buf (Elt F) (nodesLoc d)) = tNodes m d L := by
  funext x
  have e : k0_off2 L 0 = rowBase (L 0).val (L 1).val := congrFun (k0_off2_rowBase L) 0
  refine congrArg (nodesF m d) (eq_flat1 _ _ _ ?_)
  show k0_off2 L 0 + 1 * (x 0).val = rowBase (L 0).val (L 1).val + (x 0).val
  omega

/-- The window of the padded weights the tile fetches reads the tile's weight list. -/
theorem fetch_w [FloatOps F] :
    (wV.slice (Rect.unit (s := S505920) (k0_off1 L) S17760.size (k0_off1_inb L)) (fun _ => rfl)).view.read (Elt F)
      (wF m d : Buf (Elt F) (wLoc d)) = tW m d L := by
  funext x
  have e : k0_off1 L 0 = 10 * rowBase (L 0).val (L 1).val := congrFun (k0_off1_rowBase L) 0
  refine congrArg (wF m d) (eq_flat1 _ _ _ ?_)
  show k0_off1 L 0 + 1 * (x 0).val = 10 * rowBase (L 0).val (L 1).val + (x 0).val
  omega

/-! ## The windows of the results, and the groups' rows -/

theorem mem_grpRows {g : ℕ} {x : S50176x128.Idx} :
    x ∈ grpRows L g ↔ rowBase (L 0).val (L 1).val + 8 * g ≤ (x 0).val ∧ (x 0).val < rowBase (L 0).val (L 1).val + 8 * g + 8 :=
  mem_rowsFrom

theorem mem_tileRows {x : S50176x128.Idx} :
    x ∈ tileRows L ↔ rowBase (L 0).val (L 1).val ≤ (x 0).val ∧ (x 0).val < rowBase (L 0).val (L 1).val + 8 * ngc L :=
  mem_rowsFrom

/-- The eight-row window of a `50176 × 128` buffer at rows `[A, A + 8)`, all columns, is those rows. -/
theorem win_rows (off : Fin 2 → ℕ) (A : ℕ) (e : off = ![A, 0])
    (h : ∀ a, off a + S8x128.size a ≤ S50176x128.size a) (x : S50176x128.Idx) :
    x ∈ (Rect.unit (s := S50176x128) off S8x128.size h).set ↔ A ≤ (x 0).val ∧ (x 0).val < A + 8 := by
  subst e
  rw [Rect.mem_set_unit]
  constructor
  · intro hx; exact hx 0
  · intro hx a
    match a with
    | ⟨0, _⟩ => exact hx
    | ⟨1, _⟩ => exact ⟨Nat.zero_le _, by have : (x 1).val < 128 := (x 1).isLt; show (x 1).val < 0 + 128; omega⟩

/-- The window of the neighbour result a group's copy goes through is the group's eight rows. -/
theorem win_nout (t : Fin (k0_t1_loop L).trips) (r : Fin 2)
    (h : ∀ a, (k0_off31 L t (BitVec.ofNat 32 r.val)) a + S8x128.size a ≤ S50176x128.size a)
    (h' : ∀ a, (Rect.unit (s := S50176x128) (k0_off31 L t (BitVec.ofNat 32 r.val)) S8x128.size h).stride a = 1) :
    (noutV.slice (Rect.unit (s := S50176x128) (k0_off31 L t (BitVec.ofNat 32 r.val)) S8x128.size h) h').view.set
      = grpRows L (2 * t.val + r.val) := by
  show ((View.whole main_v5_0_scv).slice _).set = _
  rw [View.set_slice_whole]
  ext x
  rw [mem_grpRows]
  rw [win_rows _ _ (k0_off31_eq L t r) h x]
  unfold rowBase
  omega

/-- The window of the self result a group's copy goes through is the group's eight rows. -/
theorem win_sout (t : Fin (k0_t1_loop L).trips) (r : Fin 2)
    (h : ∀ a, (k0_off31 L t (BitVec.ofNat 32 r.val)) a + S8x128.size a ≤ S50176x128.size a)
    (h' : ∀ a, (Rect.unit (s := S50176x128) (k0_off31 L t (BitVec.ofNat 32 r.val)) S8x128.size h).stride a = 1) :
    (soutV.slice (Rect.unit (s := S50176x128) (k0_off31 L t (BitVec.ofNat 32 r.val)) S8x128.size h) h').view.set
      = grpRows L (2 * t.val + r.val) := by
  show ((View.whole main_v5_1_scv).slice _).set = _
  rw [View.set_slice_whole]
  ext x
  rw [mem_grpRows]
  rw [win_rows _ _ (k0_off31_eq L t r) h x]
  unfold rowBase
  omega

/-- The groups' rows cover the tile's rows, -/
theorem grpRows_cover : (Finset.range (ngc L)).biUnion (grpRows L) = tileRows L := by
  ext x
  rw [Finset.mem_biUnion, mem_tileRows]
  constructor
  · rintro ⟨g, hg, hx⟩
    rw [Finset.mem_range] at hg
    rw [mem_grpRows] at hx
    omega
  · intro hx
    refine ⟨((x 0).val - rowBase (L 0).val (L 1).val) / 8, ?_, ?_⟩
    · rw [Finset.mem_range]; omega
    · rw [mem_grpRows]; omega

/-- and those of different groups are disjoint. -/
theorem grpRows_disjoint {g g' : ℕ} (hne : g ≠ g') : Disjoint (grpRows L g) (grpRows L g') := by
  rw [Finset.disjoint_left]
  intro x hx hx'
  rw [mem_grpRows] at hx hx'
  omega

/-- The windows the epilogue's waits name are the rows of the tile's last two groups. -/
theorem win_nout_last (r : Fin 2)
    (h : ∀ a, (k0_off117 L (BitVec.ofNat 32 r.val)) a + S8x128.size a ≤ S50176x128.size a)
    (h' : ∀ a, (Rect.unit (s := S50176x128) (k0_off117 L (BitVec.ofNat 32 r.val)) S8x128.size h).stride a = 1) :
    (noutV.slice (Rect.unit (s := S50176x128) (k0_off117 L (BitVec.ofNat 32 r.val)) S8x128.size h) h').view.set
      = grpRows L (ngc L - 2 + r.val) := by
  show ((View.whole main_v5_0_scv).slice _).set = _
  rw [View.set_slice_whole]
  ext x
  rw [mem_grpRows]
  rw [win_rows _ _ (k0_off117_eq L r) h x]
  unfold rowBase ngc ngcN
  split <;> omega

theorem win_sout_last (r : Fin 2)
    (h : ∀ a, (k0_off117 L (BitVec.ofNat 32 r.val)) a + S8x128.size a ≤ S50176x128.size a)
    (h' : ∀ a, (Rect.unit (s := S50176x128) (k0_off117 L (BitVec.ofNat 32 r.val)) S8x128.size h).stride a = 1) :
    (soutV.slice (Rect.unit (s := S50176x128) (k0_off117 L (BitVec.ofNat 32 r.val)) S8x128.size h) h').view.set
      = grpRows L (ngc L - 2 + r.val) := by
  show ((View.whole main_v5_1_scv).slice _).set = _
  rw [View.set_slice_whole]
  ext x
  rw [mem_grpRows]
  rw [win_rows _ _ (k0_off117_eq L r) h x]
  unfold rowBase ngc ngcN
  split <;> omega

/-! ## A group's staged rows are the two result functions on the group's rows -/

theorem flat1_congr {n k k' : ℕ} (h : k < n) (h' : k' < n) (e : k = k') : flat1 (n := n) k h = flat1 k' h' := by
  subst e; rfl

/-- Row `b` of the staged means of group `g` is the neighbour result's row `rowBase + 8 g + b`. -/
theorem noutVal_eq [FloatOps F] (g : ℕ) (hg : g < ngc L) (x : S50176x128.Idx) (hx : x ∈ grpRows L g)
    (hb : (x 0).val - (rowBase (L 0).val (L 1).val + 8 * g) < 8) :
    noutVal m d L g (Shape.pair (d := ![8, 128]) ⟨(x 0).val - (rowBase (L 0).val (L 1).val + 8 * g), hb⟩ (x 1))
      = neighVal m d x := by
  rw [mem_grpRows] at hx
  have hg2 : g < 222 := Nat.lt_of_lt_of_le hg (ngc_le L)
  have hW : ∀ j : Fin 10,
      tW m d L (flat1 ((80 * g + 10 * ((x 0).val - (rowBase (L 0).val (L 1).val + 8 * g)) + j.val) % 17760) (Nat.mod_lt _ (by decide)))
        = wF m d (flat1 ((x 0).val * 10 + j.val) (flat_lt x j)) := by
    intro j
    have hj : j.val < 10 := j.isLt
    unfold tW
    refine congrArg (wF m d) (flat1_congr _ _ ?_)
    show 10 * rowBase (L 0).val (L 1).val + (80 * g + 10 * ((x 0).val - (rowBase (L 0).val (L 1).val + 8 * g)) + j.val) % 17760 = _
    omega
  have hR : ∀ j : Fin 10,
      rowsVal m d L g (Shape.pair (d := ![80, 128]) ⟨(10 * ((x 0).val - (rowBase (L 0).val (L 1).val + 8 * g)) + j.val) % 80, Nat.mod_lt _ (by decide)⟩ (x 1))
        = tblAt (m (tblLoc d)) (nidxF m d (flat1 ((x 0).val * 10 + j.val) (flat_lt x j))) (x 1) := by
    intro j
    have hj : j.val < 10 := j.isLt
    unfold rowsVal tNidx
    refine congrArg (fun w => tblAt (m (tblLoc d)) w (x 1)) (congrArg (nidxF m d) (flat1_congr _ _ ?_))
    show 10 * rowBase (L 0).val (L 1).val + (80 * g + (10 * ((x 0).val - (rowBase (L 0).val (L 1).val + 8 * g)) + j.val) % 80) % 17760 = _
    omega
  unfold noutVal meanOf neighVal
  exact congrArg₂ FloatOps.mulf (congrArg sum10 (funext fun j => congrArg₂ FloatOps.mulf (hW j) (hR j)))
    (congrArg (FloatOps.divf _) (congrArg sum10 (funext fun j => hW j)))

/-- Row `b` of the staged own rows of group `g` is the self result's row `rowBase + 8 g + b`. -/
theorem sstVal_eq [FloatOps F] (g : ℕ) (hg : g < ngc L) (x : S50176x128.Idx) (hx : x ∈ grpRows L g)
    (hb : (x 0).val - (rowBase (L 0).val (L 1).val + 8 * g) < 8) :
    sstVal m d L g (Shape.pair (d := ![8, 128]) ⟨(x 0).val - (rowBase (L 0).val (L 1).val + 8 * g), hb⟩ (x 1))
      = selfVal m d x := by
  rw [mem_grpRows] at hx
  have hg2 : g < 222 := Nat.lt_of_lt_of_le hg (ngc_le L)
  unfold sstVal selfVal tNodes
  refine congrArg (fun w => tblAt (m (tblLoc d)) w (x 1)) (congrArg (nodesF m d) (flat1_congr _ _ ?_))
  show rowBase (L 0).val (L 1).val + (8 * g + ((x 0).val - (rowBase (L 0).val (L 1).val + 8 * g))) % 1776 = (x 0).val
  omega

/-! ## The list windows' offsets, by group

The offsets of the eighty-word and eight-word windows of the tile's lists, in closed form as multiples of the group
number: group `2 t + r` at the trip's own two gathers, `2 t + 2` and `2 t + 3` at the re-issues for the next trip. -/

theorem k0_off5_grp (t : Fin (k0_t1_loop L).trips) (r : Fin 2) :
    k0_off5 L t (BitVec.ofNat 32 r.val) = ![80 * (2 * t.val + r.val)] := by
  rw [k0_off5_eq]; congr 1; omega

theorem k0_off5_grp0 (t : Fin (k0_t1_loop L).trips) (r : Fin 2) :
    k0_off5 L t (BitVec.ofNat 32 r.val) 0 = 80 * (2 * t.val + r.val) :=
  congrFun (k0_off5_grp L t r) 0

theorem k0_off30_grp (t : Fin (k0_t1_loop L).trips) (r : Fin 2) :
    k0_off30 L t (BitVec.ofNat 32 r.val) = ![8 * (2 * t.val + r.val)] := by
  rw [k0_off30_eq]; congr 1; omega

theorem k0_off30_grp0 (t : Fin (k0_t1_loop L).trips) (r : Fin 2) :
    k0_off30 L t (BitVec.ofNat 32 r.val) 0 = 8 * (2 * t.val + r.val) :=
  congrFun (k0_off30_grp L t r) 0

theorem k0_off4_grp (t : Fin (k0_t1_loop L).trips) : k0_off4 L t = ![8 * (2 * t.val)] := by
  rw [k0_off4_eq]; congr 1; omega

theorem k0_off34_grp (t : Fin (k0_t1_loop L).trips) : k0_off34 L t = ![8 * (2 * t.val + 1)] := by
  rw [k0_off34_eq]; congr 1; omega

theorem k0_off32_grp (t : Fin (k0_t1_loop L).trips) : k0_off32 L t = ![80 * (2 * t.val + 2)] := by
  rw [k0_off32_eq]; congr 1; omega

theorem k0_off59_grp (t : Fin (k0_t1_loop L).trips) : k0_off59 L t = ![80 * (2 * t.val + 3)] := by
  rw [k0_off59_eq]; congr 1; omega

/-- A trip's groups are groups of the tile. -/
theorem grp_lt (t : Fin (k0_t1_loop L).trips) (r : Fin 2) : 2 * t.val + r.val < ngc L := by
  have ht : t.val < trips L := Nat.lt_of_lt_of_eq t.isLt (t1_trips L)
  have he := ngc_even L
  have hr : r.val < 2 := r.isLt
  omega

/-- The word at position `k` of the window of eighty at group `g`'s offset is the tile's neighbour word `80 g + k`. -/
theorem read_idx_win [FloatOps F] (g : ℕ) (h : ∀ a, (![80 * g] : Fin 1 → ℕ) a + S80.size a ≤ S17760.size a)
    (h' : ∀ a, (Rect.unit (s := S17760) ![80 * g] S80.size h).stride a = 1) (x : S80.Idx) :
    (sNidx.slice (Rect.unit (s := S17760) ![80 * g] S80.size h) h').view.read (Elt F) (tNidx m d L) x
      = tNidx m d L (flat1 (80 * g + (x 0).val) (by
          have := h 0; have hx : (x 0).val < 80 := (x 0).isLt
          show 80 * g + (x 0).val < 17760
          have h2 : 80 * g + 80 ≤ 17760 := this
          omega)) := by
  refine congrArg (tNidx m d L) (eq_flat1 _ _ _ ?_)
  show 80 * g + 1 * (x 0).val = 80 * g + (x 0).val
  omega

/-- The word at position `k` of the window of eight at group `g`'s offset is the tile's node `8 g + k`. -/
theorem read_nod_win [FloatOps F] (g : ℕ) (h : ∀ a, (![8 * g] : Fin 1 → ℕ) a + S8.size a ≤ S1776.size a)
    (h' : ∀ a, (Rect.unit (s := S1776) ![8 * g] S8.size h).stride a = 1) (x : S8.Idx) :
    (sNodes.slice (Rect.unit (s := S1776) ![8 * g] S8.size h) h').view.read (Elt F) (tNodes m d L) x
      = tNodes m d L (flat1 (8 * g + (x 0).val) (by
          have := h 0; have hx : (x 0).val < 8 := (x 0).isLt
          show 8 * g + (x 0).val < 1776
          have h2 : 8 * g + 8 ≤ 1776 := this
          omega)) := by
  refine congrArg (tNodes m d L) (eq_flat1 _ _ _ ?_)
  show 8 * g + 1 * (x 0).val = 8 * g + (x 0).val
  omega

/-! ## What a group's out copies leave in the results -/

/-- The neighbour result after a group's mean rows are copied out through the group's window, at a row of the group: the neighbour result function. The payload is any array equal to the group's staged means. -/
theorem outN_value_gen [FloatOps F] (t : Fin (k0_t1_loop L).trips) (r : Fin 2)
    (h : ∀ a, (k0_off31 L t (BitVec.ofNat 32 r.val)) a + S8x128.size a ≤ S50176x128.size a)
    (h' : ∀ a, (Rect.unit (s := S50176x128) (k0_off31 L t (BitVec.ofNat 32 r.val)) S8x128.size h).stride a = 1)
    (f6 : Buf (Elt F) (noutLoc d)) (w : S8x128.Idx → F .f32) (hw : ∀ y, w y = noutVal m d L (2 * t.val + r.val) y)
    (x : S50176x128.Idx) (hx : x ∈ grpRows L (2 * t.val + r.val)) :
    ((noutV.slice (Rect.unit (s := S50176x128) (k0_off31 L t (BitVec.ofNat 32 r.val)) S8x128.size h) h').view.writes (Elt F) f6
      [⟨Rect.whole (Rect.unit (s := S50176x128) (k0_off31 L t (BitVec.ofNat 32 r.val)) S8x128.size h).shape, w⟩]) x
      = neighVal m d x := by
  have hx' := (mem_grpRows L).1 hx
  have e := k0_off31_eq L t r
  have e0 : k0_off31 L t (BitVec.ofNat 32 r.val) 0 = 3136 * (L 1).val + 1776 * (L 0).val + 16 * t.val + 8 * r.val := congrFun e 0
  have e1 : k0_off31 L t (BitVec.ofNat 32 r.val) 1 = 0 := congrFun e 1
  have hrb : rowBase (L 0).val (L 1).val = 3136 * (L 1).val + 1776 * (L 0).val := rfl
  have hb : (x 0).val - (rowBase (L 0).val (L 1).val + 8 * (2 * t.val + r.val)) < 8 := by omega
  have hy : ((noutV.slice (Rect.unit (s := S50176x128) (k0_off31 L t (BitVec.ofNat 32 r.val)) S8x128.size h) h').view.slice
      (Rect.whole (Rect.unit (s := S50176x128) (k0_off31 L t (BitVec.ofNat 32 r.val)) S8x128.size h).shape)).emb
        (Shape.pair (d := ![8, 128]) ⟨(x 0).val - (rowBase (L 0).val (L 1).val + 8 * (2 * t.val + r.val)), hb⟩ (x 1)) = x := by
    funext a
    refine Fin.ext ?_
    match a with
    | ⟨0, _⟩ =>
      show k0_off31 L t (BitVec.ofNat 32 r.val) 0 + 1 * (0 + 1 * ((x 0).val - (rowBase (L 0).val (L 1).val + 8 * (2 * t.val + r.val)))) = (x 0).val
      omega
    | ⟨1, _⟩ =>
      show k0_off31 L t (BitVec.ofNat 32 r.val) 1 + 1 * (0 + 1 * (x 1).val) = (x 1).val
      omega
  rw [View.writes_singleton]
  have hwr := View.write_emb_of_mem
    (v := ((noutV.slice (Rect.unit (s := S50176x128) (k0_off31 L t (BitVec.ofNat 32 r.val)) S8x128.size h) h').view.slice
      (Rect.whole (Rect.unit (s := S50176x128) (k0_off31 L t (BitVec.ofNat 32 r.val)) S8x128.size h).shape)))
    (Val := Elt F) f6 w (M := Finset.univ)
    (x := Shape.pair (d := ![8, 128]) ⟨(x 0).val - (rowBase (L 0).val (L 1).val + 8 * (2 * t.val + r.val)), hb⟩ (x 1))
    (Finset.mem_univ _)
  rw [hy] at hwr
  rw [hwr]
  show w _ = _
  rw [hw]
  exact noutVal_eq m d L _ (grp_lt L t r) x hx hb

theorem outN_value0 [FloatOps F] (t : Fin (k0_t1_loop L).trips) (r : Fin 2)
    (h : ∀ a, (k0_off31 L t (BitVec.ofNat 32 r.val)) a + S8x128.size a ≤ S50176x128.size a)
    (h' : ∀ a, (Rect.unit (s := S50176x128) (k0_off31 L t (BitVec.ofNat 32 r.val)) S8x128.size h).stride a = 1)
    (f6 : Buf (Elt F) (noutLoc d)) (x : S50176x128.Idx) (hx : x ∈ grpRows L (2 * t.val + r.val)) :
    ((noutV.slice (Rect.unit (s := S50176x128) (k0_off31 L t (BitVec.ofNat 32 r.val)) S8x128.size h) h').view.writes (Elt F) f6
      [⟨Rect.whole (Rect.unit (s := S50176x128) (k0_off31 L t (BitVec.ofNat 32 r.val)) S8x128.size h).shape,
        ReadAs.apply (ReadAs.same : ReadAs (Elt F) _ _ _ _) ((sNout0).view.read (Elt F) (noutVal m d L (2 * t.val + r.val)))⟩]) x
      = neighVal m d x :=
  outN_value_gen m d L t r h h' f6 _ (fun _ => rfl) x hx

theorem outN_value1 [FloatOps F] (t : Fin (k0_t1_loop L).trips) (r : Fin 2)
    (h : ∀ a, (k0_off31 L t (BitVec.ofNat 32 r.val)) a + S8x128.size a ≤ S50176x128.size a)
    (h' : ∀ a, (Rect.unit (s := S50176x128) (k0_off31 L t (BitVec.ofNat 32 r.val)) S8x128.size h).stride a = 1)
    (f6 : Buf (Elt F) (noutLoc d)) (x : S50176x128.Idx) (hx : x ∈ grpRows L (2 * t.val + r.val)) :
    ((noutV.slice (Rect.unit (s := S50176x128) (k0_off31 L t (BitVec.ofNat 32 r.val)) S8x128.size h) h').view.writes (Elt F) f6
      [⟨Rect.whole (Rect.unit (s := S50176x128) (k0_off31 L t (BitVec.ofNat 32 r.val)) S8x128.size h).shape,
        ReadAs.apply (ReadAs.same : ReadAs (Elt F) _ _ _ _) ((sNout1).view.read (Elt F) (noutVal m d L (2 * t.val + r.val)))⟩]) x
      = neighVal m d x :=
  outN_value_gen m d L t r h h' f6 _ (fun _ => rfl) x hx

/-- The self result after a group's own rows are copied out through the group's window, at a row of the group: the self result function. -/
theorem outS_value_gen [FloatOps F] (t : Fin (k0_t1_loop L).trips) (r : Fin 2)
    (h : ∀ a, (k0_off31 L t (BitVec.ofNat 32 r.val)) a + S8x128.size a ≤ S50176x128.size a)
    (h' : ∀ a, (Rect.unit (s := S50176x128) (k0_off31 L t (BitVec.ofNat 32 r.val)) S8x128.size h).stride a = 1)
    (f6 : Buf (Elt F) (soutLoc d)) (w : S8x128.Idx → F .f32) (hw : ∀ y, w y = sstVal m d L (2 * t.val + r.val) y)
    (x : S50176x128.Idx) (hx : x ∈ grpRows L (2 * t.val + r.val)) :
    ((soutV.slice (Rect.unit (s := S50176x128) (k0_off31 L t (BitVec.ofNat 32 r.val)) S8x128.size h) h').view.writes (Elt F) f6
      [⟨Rect.whole (Rect.unit (s := S50176x128) (k0_off31 L t (BitVec.ofNat 32 r.val)) S8x128.size h).shape, w⟩]) x
      = selfVal m d x := by
  have hx' := (mem_grpRows L).1 hx
  have e := k0_off31_eq L t r
  have e0 : k0_off31 L t (BitVec.ofNat 32 r.val) 0 = 3136 * (L 1).val + 1776 * (L 0).val + 16 * t.val + 8 * r.val := congrFun e 0
  have e1 : k0_off31 L t (BitVec.ofNat 32 r.val) 1 = 0 := congrFun e 1
  have hrb : rowBase (L 0).val (L 1).val = 3136 * (L 1).val + 1776 * (L 0).val := rfl
  have hb : (x 0).val - (rowBase (L 0).val (L 1).val + 8 * (2 * t.val + r.val)) < 8 := by omega
  have hy : ((soutV.slice (Rect.unit (s := S50176x128) (k0_off31 L t (BitVec.ofNat 32 r.val)) S8x128.size h) h').view.slice
      (Rect.whole (Rect.unit (s := S50176x128) (k0_off31 L t (BitVec.ofNat 32 r.val)) S8x128.size h).shape)).emb
        (Shape.pair (d := ![8, 128]) ⟨(x 0).val - (rowBase (L 0).val (L 1).val + 8 * (2 * t.val + r.val)), hb⟩ (x 1)) = x := by
    funext a
    refine Fin.ext ?_
    match a with
    | ⟨0, _⟩ =>
      show k0_off31 L t (BitVec.ofNat 32 r.val) 0 + 1 * (0 + 1 * ((x 0).val - (rowBase (L 0).val (L 1).val + 8 * (2 * t.val + r.val)))) = (x 0).val
      omega
    | ⟨1, _⟩ =>
      show k0_off31 L t (BitVec.ofNat 32 r.val) 1 + 1 * (0 + 1 * (x 1).val) = (x 1).val
      omega
  rw [View.writes_singleton]
  have hwr := View.write_emb_of_mem
    (v := ((soutV.slice (Rect.unit (s := S50176x128) (k0_off31 L t (BitVec.ofNat 32 r.val)) S8x128.size h) h').view.slice
      (Rect.whole (Rect.unit (s := S50176x128) (k0_off31 L t (BitVec.ofNat 32 r.val)) S8x128.size h).shape)))
    (Val := Elt F) f6 w (M := Finset.univ)
    (x := Shape.pair (d := ![8, 128]) ⟨(x 0).val - (rowBase (L 0).val (L 1).val + 8 * (2 * t.val + r.val)), hb⟩ (x 1))
    (Finset.mem_univ _)
  rw [hy] at hwr
  rw [hwr]
  show w _ = _
  rw [hw]
  exact sstVal_eq m d L _ (grp_lt L t r) x hx hb

theorem outS_value0 [FloatOps F] (t : Fin (k0_t1_loop L).trips) (r : Fin 2)
    (h : ∀ a, (k0_off31 L t (BitVec.ofNat 32 r.val)) a + S8x128.size a ≤ S50176x128.size a)
    (h' : ∀ a, (Rect.unit (s := S50176x128) (k0_off31 L t (BitVec.ofNat 32 r.val)) S8x128.size h).stride a = 1)
    (f6 : Buf (Elt F) (soutLoc d)) (x : S50176x128.Idx) (hx : x ∈ grpRows L (2 * t.val + r.val)) :
    ((soutV.slice (Rect.unit (s := S50176x128) (k0_off31 L t (BitVec.ofNat 32 r.val)) S8x128.size h) h').view.writes (Elt F) f6
      [⟨Rect.whole (Rect.unit (s := S50176x128) (k0_off31 L t (BitVec.ofNat 32 r.val)) S8x128.size h).shape,
        ReadAs.apply (ReadAs.same : ReadAs (Elt F) _ _ _ _) ((sSst0).view.read (Elt F) (sstVal m d L (2 * t.val + r.val)))⟩]) x
      = selfVal m d x :=
  outS_value_gen m d L t r h h' f6 _ (fun _ => rfl) x hx

theorem outS_value1 [FloatOps F] (t : Fin (k0_t1_loop L).trips) (r : Fin 2)
    (h : ∀ a, (k0_off31 L t (BitVec.ofNat 32 r.val)) a + S8x128.size a ≤ S50176x128.size a)
    (h' : ∀ a, (Rect.unit (s := S50176x128) (k0_off31 L t (BitVec.ofNat 32 r.val)) S8x128.size h).stride a = 1)
    (f6 : Buf (Elt F) (soutLoc d)) (x : S50176x128.Idx) (hx : x ∈ grpRows L (2 * t.val + r.val)) :
    ((soutV.slice (Rect.unit (s := S50176x128) (k0_off31 L t (BitVec.ofNat 32 r.val)) S8x128.size h) h').view.writes (Elt F) f6
      [⟨Rect.whole (Rect.unit (s := S50176x128) (k0_off31 L t (BitVec.ofNat 32 r.val)) S8x128.size h).shape,
        ReadAs.apply (ReadAs.same : ReadAs (Elt F) _ _ _ _) ((sSst1).view.read (Elt F) (sstVal m d L (2 * t.val + r.val)))⟩]) x
      = selfVal m d x :=
  outS_value_gen m d L t r h h' f6 _ (fun _ => rfl) x hx

/-- The same through the window's plain write. -/
theorem outN_write [FloatOps F] (t : Fin (k0_t1_loop L).trips) (r : Fin 2)
    (h : ∀ a, (k0_off31 L t (BitVec.ofNat 32 r.val)) a + S8x128.size a ≤ S50176x128.size a)
    (h' : ∀ a, (Rect.unit (s := S50176x128) (k0_off31 L t (BitVec.ofNat 32 r.val)) S8x128.size h).stride a = 1)
    (f6 : Buf (Elt F) (noutLoc d)) (w : S8x128.Idx → F .f32) (hw : ∀ y, w y = noutVal m d L (2 * t.val + r.val) y)
    (x : S50176x128.Idx) (hx : x ∈ grpRows L (2 * t.val + r.val)) :
    (noutV.slice (Rect.unit (s := S50176x128) (k0_off31 L t (BitVec.ofNat 32 r.val)) S8x128.size h) h').view.write (Elt F) f6 w Finset.univ x
      = neighVal m d x := by
  have hx' := (mem_grpRows L).1 hx
  have e := k0_off31_eq L t r
  have e0 : k0_off31 L t (BitVec.ofNat 32 r.val) 0 = 3136 * (L 1).val + 1776 * (L 0).val + 16 * t.val + 8 * r.val := congrFun e 0
  have e1 : k0_off31 L t (BitVec.ofNat 32 r.val) 1 = 0 := congrFun e 1
  have hrb : rowBase (L 0).val (L 1).val = 3136 * (L 1).val + 1776 * (L 0).val := rfl
  have hb : (x 0).val - (rowBase (L 0).val (L 1).val + 8 * (2 * t.val + r.val)) < 8 := by omega
  have hy : (noutV.slice (Rect.unit (s := S50176x128) (k0_off31 L t (BitVec.ofNat 32 r.val)) S8x128.size h) h').view.emb
        (Shape.pair (d := ![8, 128]) ⟨(x 0).val - (rowBase (L 0).val (L 1).val + 8 * (2 * t.val + r.val)), hb⟩ (x 1)) = x := by
    funext a
    refine Fin.ext ?_
    match a with
    | ⟨0, _⟩ =>
      show k0_off31 L t (BitVec.ofNat 32 r.val) 0 + 1 * ((x 0).val - (rowBase (L 0).val (L 1).val + 8 * (2 * t.val + r.val))) = (x 0).val
      omega
    | ⟨1, _⟩ =>
      show k0_off31 L t (BitVec.ofNat 32 r.val) 1 + 1 * (x 1).val = (x 1).val
      omega
  have hwr := View.write_emb_of_mem
    (v := (noutV.slice (Rect.unit (s := S50176x128) (k0_off31 L t (BitVec.ofNat 32 r.val)) S8x128.size h) h').view)
    (Val := Elt F) f6 w (M := Finset.univ)
    (x := Shape.pair (d := ![8, 128]) ⟨(x 0).val - (rowBase (L 0).val (L 1).val + 8 * (2 * t.val + r.val)), hb⟩ (x 1))
    (Finset.mem_univ _)
  rw [hy] at hwr
  rw [hwr]
  show w _ = _
  rw [hw]
  exact noutVal_eq m d L _ (grp_lt L t r) x hx hb

/-- The same through the window's plain write. -/
theorem outS_write [FloatOps F] (t : Fin (k0_t1_loop L).trips) (r : Fin 2)
    (h : ∀ a, (k0_off31 L t (BitVec.ofNat 32 r.val)) a + S8x128.size a ≤ S50176x128.size a)
    (h' : ∀ a, (Rect.unit (s := S50176x128) (k0_off31 L t (BitVec.ofNat 32 r.val)) S8x128.size h).stride a = 1)
    (f6 : Buf (Elt F) (soutLoc d)) (w : S8x128.Idx → F .f32) (hw : ∀ y, w y = sstVal m d L (2 * t.val + r.val) y)
    (x : S50176x128.Idx) (hx : x ∈ grpRows L (2 * t.val + r.val)) :
    (soutV.slice (Rect.unit (s := S50176x128) (k0_off31 L t (BitVec.ofNat 32 r.val)) S8x128.size h) h').view.write (Elt F) f6 w Finset.univ x
      = selfVal m d x := by
  have hx' := (mem_grpRows L).1 hx
  have e := k0_off31_eq L t r
  have e0 : k0_off31 L t (BitVec.ofNat 32 r.val) 0 = 3136 * (L 1).val + 1776 * (L 0).val + 16 * t.val + 8 * r.val := congrFun e 0
  have e1 : k0_off31 L t (BitVec.ofNat 32 r.val) 1 = 0 := congrFun e 1
  have hrb : rowBase (L 0).val (L 1).val = 3136 * (L 1).val + 1776 * (L 0).val := rfl
  have hb : (x 0).val - (rowBase (L 0).val (L 1).val + 8 * (2 * t.val + r.val)) < 8 := by omega
  have hy : (soutV.slice (Rect.unit (s := S50176x128) (k0_off31 L t (BitVec.ofNat 32 r.val)) S8x128.size h) h').view.emb
        (Shape.pair (d := ![8, 128]) ⟨(x 0).val - (rowBase (L 0).val (L 1).val + 8 * (2 * t.val + r.val)), hb⟩ (x 1)) = x := by
    funext a
    refine Fin.ext ?_
    match a with
    | ⟨0, _⟩ =>
      show k0_off31 L t (BitVec.ofNat 32 r.val) 0 + 1 * ((x 0).val - (rowBase (L 0).val (L 1).val + 8 * (2 * t.val + r.val))) = (x 0).val
      omega
    | ⟨1, _⟩ =>
      show k0_off31 L t (BitVec.ofNat 32 r.val) 1 + 1 * (x 1).val = (x 1).val
      omega
  have hwr := View.write_emb_of_mem
    (v := (soutV.slice (Rect.unit (s := S50176x128) (k0_off31 L t (BitVec.ofNat 32 r.val)) S8x128.size h) h').view)
    (Val := Elt F) f6 w (M := Finset.univ)
    (x := Shape.pair (d := ![8, 128]) ⟨(x 0).val - (rowBase (L 0).val (L 1).val + 8 * (2 * t.val + r.val)), hb⟩ (x 1))
    (Finset.mem_univ _)
  rw [hy] at hwr
  rw [hwr]
  show w _ = _
  rw [hw]
  exact sstVal_eq m d L _ (grp_lt L t r) x hx hb

end Cert.Proof.K

end
-- ==== Proof.TileRows.lean ====
/-
  The rows of one tile: the remainder loop that never runs, and what the tile's rows being the disjoint union of its
  groups' eight-row pieces says of the rows of the two results.

  The groups' pieces are pairwise disjoint and their union over the tile's groups is the tile's row set.  So the rows
  of the two results held over the tile's rows are the separating conjunction over the groups of the rows held over
  each group's piece; groups leave the pending part from its low end and join the finished part at its high end, one
  at a time.
-/
import proofs.«208500_g61899068670276_cont_9to1_m_775_47_alg».proof.Proof.TileInv
import proofs.«208500_g61899068670276_cont_9to1_m_775_47_alg».proof.Proof.TileArith
import Idealize.ShloMosaic.Rules.PointsTo
import Idealize.ShloMosaic.Lib.Scf

noncomputable section

namespace Cert.Proof.K

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

/-! ## A loop of no trips -/

/-- A loop whose trip count is zero is the program that returns the carried values. -/
theorem for_zero {w : Nat} {E : Type → Type} {σ : Type} (l : Scf.Loop w) (ok : l.OK) (init : σ)
    (body : Fin l.trips → σ → Prog E σ) (h : l.trips = 0) : Scf.Loop.for l ok init body = Prog.ret init := by
  show Scf.for l.lb l.ub l.st ok init body = _
  rw [Scf.for_eq]
  have hl : List.finRange (Scf.trips l.lb l.ub l.st) = [] :=
    List.eq_nil_of_length_eq_zero (by rw [List.length_finRange]; exact h)
  rw [hl]
  rfl

/-- The remainder loop of every tile runs no trip. -/
theorem t4_for_zero {E : Type → Type} {σ : Type} (L : grid0.Coords) (init : σ)
    (body : Fin (k0_t4_loop L).trips → σ → Prog E σ) :
    Scf.Loop.for (k0_t4_loop L) (k0_t4_ok L) init body = Prog.ret init :=
  for_zero _ _ _ _ (t4_trips L)

/-! ## The rows of the two results, group by group -/

variable {F : FTy → Type} [FloatOps F]

local notation "𝕄" => MT nD τ sig (HIx 1) (Elt F) ℕ UU ℕ

variable (m : (ℓ : Loc nD τ sig) → Buf (Elt F) ℓ)
variable (d : Dev nD) (L : grid0.Coords)

/-- The rows of the two results over a union of pairwise disjoint pieces are the rows over each piece. -/
theorem outPts_biUnion {ι : Type} (S : Finset ι) (K : ι → Finset S50176x128.Idx)
    (h : ∀ t ∈ S, ∀ t' ∈ S, t ≠ t' → Disjoint (K t) (K t'))
    (fn : Buf (Elt F) (noutLoc d)) (fs : Buf (Elt F) (soutLoc d)) :
    (outPts d (S.biUnion K) fn fs : sProp 𝕄) = bigSep S fun t => outPts d (K t) fn fs := by
  unfold outPts
  have e1 : (noutLoc d ↦[S.biUnion K]{fullShare} fn : sProp 𝕄) = bigSep S fun t => noutLoc d ↦[K t]{fullShare} fn :=
    pointsTo_biUnion (ℓ := noutLoc d) S K h
  have e2 : (soutLoc d ↦[S.biUnion K]{fullShare} fs : sProp 𝕄) = bigSep S fun t => soutLoc d ↦[K t]{fullShare} fs :=
    pointsTo_biUnion (ℓ := soutLoc d) S K h
  rw [e1, e2, ← bigSep_sep']

/-- The rows of the two results over the tile's rows are the rows over each group's piece. -/
theorem outPts_tileRows (fn : Buf (Elt F) (noutLoc d)) (fs : Buf (Elt F) (soutLoc d)) :
    (outPts d (tileRows L) fn fs : sProp 𝕄) = bigSep (Finset.range (ngc L)) fun g => outPts d (grpRows L g) fn fs := by
  rw [← grpRows_cover L]
  exact outPts_biUnion d _ _ (fun g _ g' _ hgg' => grpRows_disjoint L hgg') fn fs

/-- Before the first trip every group is pending: the tile's rows at their launch contents. -/
theorem outPend_zero_eq : outPend m d L 0 = (outPts d (tileRows L) (m (noutLoc d)) (m (soutLoc d)) : sProp 𝕄) := by
  unfold outPend
  rw [outPts_tileRows, Finset.range_eq_Ico]

/-- After the last trip every group is finished: the tile's rows at the two result functions. -/
theorem outDone_all_eq : outDone m d L (ngc L) = (outPts d (tileRows L) (neighVal m d) (selfVal m d) : sProp 𝕄) := by
  unfold outDone
  rw [outPts_tileRows]

/-- The launch contents of the tile's rows, dealt to the groups. -/
theorem out_split : (outPts d (tileRows L) (m (noutLoc d)) (m (soutLoc d)) : sProp 𝕄) ⊢ outPend m d L 0 :=
  Entails.of_eq (outPend_zero_eq m d L).symm

/-- The finished groups, joined into the tile's rows. -/
theorem out_join : outDone m d L (ngc L) ⊢ (outPts d (tileRows L) (neighVal m d) (selfVal m d) : sProp 𝕄) :=
  Entails.of_eq (outDone_all_eq m d L)

/-- The lowest pending group leaves the pending part. -/
theorem outPend_take_eq (k : ℕ) (hk : k < ngc L) :
    outPend m d L k = (iprop(outPts d (grpRows L k) (m (noutLoc d)) (m (soutLoc d)) ∗ outPend m d L (k + 1)) : sProp 𝕄) := by
  unfold outPend
  have hI : Finset.Ico k (ngc L) = insert k (Finset.Ico (k + 1) (ngc L)) := by
    ext g
    simp only [Finset.mem_Ico, Finset.mem_insert]
    omega
  rw [hI, bigSep_insert (by simp)]
  rfl

theorem outPend_take (k : ℕ) (hk : k < ngc L) :
    outPend m d L k ⊣⊢ (iprop(outPts d (grpRows L k) (m (noutLoc d)) (m (soutLoc d)) ∗ outPend m d L (k + 1)) : sProp 𝕄) :=
  ⟨Entails.of_eq (outPend_take_eq m d L k hk), Entails.of_eq (outPend_take_eq m d L k hk).symm⟩

/-- A finished group joins the finished part. -/
theorem outDone_put_eq (k : ℕ) :
    outDone m d L (k + 1) = (iprop(outPts d (grpRows L k) (neighVal m d) (selfVal m d) ∗ outDone m d L k) : sProp 𝕄) := by
  unfold outDone
  rw [Finset.range_add_one, bigSep_insert Finset.notMem_range_self]
  rfl

theorem outDone_put (k : ℕ) :
    (iprop(outDone m d L k ∗ outPts d (grpRows L k) (neighVal m d) (selfVal m d)) : sProp 𝕄) ⊣⊢ outDone m d L (k + 1) :=
  ⟨sep_comm.1.trans (Entails.of_eq (outDone_put_eq m d L k).symm),
    (Entails.of_eq (outDone_put_eq m d L k)).trans sep_comm.1⟩

end Cert.Proof.K

end
-- ==== Proof.TileFlight.lean ====
/-
  Normal forms of what a transfer in flight hands back at its wait.

  A transfer issued through windows of its buffers delivers those windows; the issuer keeps the rest of each buffer
  beside the flight. Riding the rests inside the delivery and joining each window with its rest gives the delivery
  over WHOLE buffers, the form the tile's invariants state. For a copy out to rows of a result the rows written are
  restated at the function they agree with on those rows, and the staging buffer is handed back at some contents.
-/
import proofs.«208500_g61899068670276_cont_9to1_m_775_47_alg».proof.Proof.TileInv
import Idealize.ShloMosaic.Lib.SparseCore.Scatter

noncomputable section

namespace Cert.Proof.K

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

/-- A window of a buffer and the rest of the buffer, at one share and one contents, are the buffer whole. -/
theorem join_univ {ℓ : Loc nD τ sig} (Sw : Finset (Idx ℓ)) (q : PosShare TreeShare) (f : Buf (Elt F) ℓ) :
    iprop((ℓ ↦[Sw]{q} f) ∗ (ℓ ↦[Finset.univ \ Sw]{q} f)) ⊢ (ℓ ↦{q} f : sProp 𝕄) :=
  (pointsTo_split_subset (Finset.subset_univ Sw)).2

/-- An indexed gather in flight through windows of its target, its index list and its source, with the three rests kept
    beside it, delivers the three buffers whole: the target at the gathered contents. -/
theorem gather_canon (c : Thread nD τ) (sm : SemLoc sig) (ι : HIx 1) (N : ℕ) {ℓd ℓo ℓs : Loc nD τ sig}
    (Sd : Finset (Idx ℓd)) (So : Finset (Idx ℓo)) (Ss : Finset (Idx ℓs)) (fd' fv : Buf (Elt F) ℓd) (fo : Buf (Elt F) ℓo) (fs : Buf (Elt F) ℓs)
    (q qo : PosShare TreeShare) (hfv : fd' = fv) :
    iprop(Transfers.Flight (countersEmb : UEmb Counters 𝕄) c sm ι N
          iprop(((ℓd ↦[Sd]{fullShare} fd') ∗ (ℓo ↦[So]{qo} fo)) ∗ (ℓs ↦[Ss]{q} fs))
        ∗ (ℓs ↦[Finset.univ \ Ss]{q} fs) ∗ (ℓd ↦[Finset.univ \ Sd]{fullShare} fd') ∗ (ℓo ↦[Finset.univ \ So]{qo} fo))
      ⊢ Transfers.Flight (countersEmb : UEmb Counters 𝕄) c sm ι N
          iprop((ℓd ↦{fullShare} fv) ∗ (ℓo ↦{qo} fo) ∗ (ℓs ↦{q} fs)) := by
  subst hfv
  refine sep_comm.1.trans ?_
  refine (Transfers.Flight_frame (countersEmb : UEmb Counters 𝕄) c).trans ?_
  refine Transfers.Flight_mono (countersEmb : UEmb Counters 𝕄) c ?_
  iintro ⟨⟨Hrs, Hrd, Hro⟩, ⟨⟨Hd, Ho⟩, Hs⟩⟩
  isplitl [Hd Hrd]
  · iapply (join_univ (F := F) Sd fullShare fd') $$ [Hd Hrd]
    isplitl [Hd]; · iexact Hd
    iexact Hrd
  isplitl [Ho Hro]
  · iapply (join_univ (F := F) So qo fo) $$ [Ho Hro]
    isplitl [Ho]; · iexact Ho
    iexact Hro
  · iapply (join_univ (F := F) Ss q fs) $$ [Hs Hrs]
    isplitl [Hs]; · iexact Hs
    iexact Hrs

/-- A copy in flight from a window of a staging buffer out to rows of a result, the staging buffer's rest kept beside
    it, delivers the rows at any function agreeing with what was written on those rows, and the staging buffer whole at
    some contents. -/
theorem copy_canon (c : Thread nD τ) (sm : SemLoc sig) (ι : HIx 1) (N : ℕ) {ℓd ℓs : Loc nD τ sig}
    (Sd : Finset (Idx ℓd)) (Ss : Finset (Idx ℓs)) (W0 fv : Buf (Elt F) ℓd) (fs : Buf (Elt F) ℓs)
    (hfv : ∀ x ∈ Sd, W0 x = fv x) :
    iprop(Transfers.Flight (countersEmb : UEmb Counters 𝕄) c sm ι N
          iprop((ℓd ↦[Sd]{fullShare} W0) ∗ (ℓs ↦[Ss]{fullShare} fs))
        ∗ (ℓs ↦[Finset.univ \ Ss]{fullShare} fs))
      ⊢ Transfers.Flight (countersEmb : UEmb Counters 𝕄) c sm ι N
          iprop((ℓd ↦[Sd]{fullShare} fv) ∗ ∃ f, ℓs ↦{fullShare} f) := by
  refine sep_comm.1.trans ?_
  refine (Transfers.Flight_frame (countersEmb : UEmb Counters 𝕄) c).trans ?_
  refine Transfers.Flight_mono (countersEmb : UEmb Counters 𝕄) c ?_
  rw [pointsTo_congr hfv]
  iintro ⟨Hrs, Hd, Hs⟩
  isplitl [Hd]; · iexact Hd
  iexists fs
  iapply (join_univ (F := F) Ss fullShare fs) $$ [Hs Hrs]
  isplitl [Hs]; · iexact Hs
  iexact Hrs

/-- The same with the staging buffer already held whole by the copy (no rest beside the flight). -/
theorem copy_canon_whole (c : Thread nD τ) (sm : SemLoc sig) (ι : HIx 1) (N : ℕ) {ℓd ℓs : Loc nD τ sig}
    (Sd : Finset (Idx ℓd)) (W0 fv : Buf (Elt F) ℓd) (fs : Buf (Elt F) ℓs)
    (hfv : ∀ x ∈ Sd, W0 x = fv x) :
    Transfers.Flight (countersEmb : UEmb Counters 𝕄) c sm ι N
          iprop((ℓd ↦[Sd]{fullShare} W0) ∗ (ℓs ↦{fullShare} fs))
      ⊢ Transfers.Flight (countersEmb : UEmb Counters 𝕄) c sm ι N
          iprop((ℓd ↦[Sd]{fullShare} fv) ∗ ∃ f, ℓs ↦{fullShare} f) := by
  refine Transfers.Flight_mono (countersEmb : UEmb Counters 𝕄) c ?_
  rw [pointsTo_congr hfv]
  iintro ⟨Hd, Hs⟩
  isplitl [Hd]; · iexact Hd
  iexists fs
  iexact Hs

end Cert.Proof.K

end
-- ==== Proof.TileGather.lean ====
/-
  What an indirect gather delivers, as a value. The tile gathers table rows by a window of one of its two fetched
  lists: eighty words of its neighbour list at offset 80 g, or eight words of its node list at offset 8 g, for a group
  g below 222. The source is the table read through the window that is the whole table, so it is the table; entry k of
  the window is the list's word 80 g + k (8 g + k), a word below the table's height under the index precondition; the
  payload's row k is therefore the table's row that word names, column by column: the row buffer's value for group g,
  or the self buffer's. A destination that is a whole scratch buffer, written whole, holds the payload.
-/
import proofs.«208500_g61899068670276_cont_9to1_m_775_47_alg».proof.Proof.TileInv
import proofs.«208500_g61899068670276_cont_9to1_m_775_47_alg».proof.Proof.TileArith
import Idealize.ShloMosaic.Lib.Writes

noncomputable section

namespace Cert.Proof.K

open Cert.KernelIdeal Cert.KernelIdeal.Gen

open Idealize.ShloMosaic
open Idealize.ShloMosaic.SparseCore (S V T)

variable {F : FTy → Type}

/-! ## The gather read at an index, and the table through its whole window -/

/-- A gather along axis 0 of the table into 80 rows, read at an index: the table at the row the list names for the
    index's row, at the index's own column. -/
theorem gatherPayload_big (hG : S100000x128.Gathers 0 S80x128) (tb : S100000x128.Idx → Elt F .f32)
    (r : Fin (S80x128.size hG.axis') → Fin (S100000x128.size hG.axis)) (x : S80x128.Idx) (I : S100000x128.Idx)
    (h0 : (I 0).val = (r (x hG.axis')).val) (h1 : (I 1).val = (x 1).val) :
    SparseCore.gatherPayload hG tb r x = tb I := by
  unfold SparseCore.gatherPayload
  refine congrArg tb (funext fun a => Fin.ext ?_)
  match a with
  | ⟨0, _⟩ => exact (congrArg Fin.val (hG.idx_axis r x)).trans h0.symm
  | ⟨1, _⟩ => exact (hG.idx_of_ne r x 1 (by decide)).trans h1.symm

/-- A gather along axis 0 of the table into 8 rows, read at an index: the table at the row the list names for the
    index's row, at the index's own column. -/
theorem gatherPayload_self (hG : S100000x128.Gathers 0 S8x128) (tb : S100000x128.Idx → Elt F .f32)
    (r : Fin (S8x128.size hG.axis') → Fin (S100000x128.size hG.axis)) (x : S8x128.Idx) (I : S100000x128.Idx)
    (h0 : (I 0).val = (r (x hG.axis')).val) (h1 : (I 1).val = (x 1).val) :
    SparseCore.gatherPayload hG tb r x = tb I := by
  unfold SparseCore.gatherPayload
  refine congrArg tb (funext fun a => Fin.ext ?_)
  match a with
  | ⟨0, _⟩ => exact (congrArg Fin.val (hG.idx_axis r x)).trans h0.symm
  | ⟨1, _⟩ => exact (hG.idx_of_ne r x 1 (by decide)).trans h1.symm

/-- The table read through the window at offset (0, 0) of the table's own extents is the table. -/
theorem read_tbl_whole (hinb : ∀ a, (![0, 0] : Fin 2 → ℕ) a + S100000x128.size a ≤ S100000x128.size a)
    (hst : ∀ a, (Rect.unit (s := S100000x128) ![0, 0] S100000x128.size hinb).stride a = 1)
    (tb : S100000x128.Idx → Elt F .f32) (I : S100000x128.Idx) :
    (tblV.slice (Rect.unit (s := S100000x128) ![0, 0] S100000x128.size hinb) hst).view.read (Elt F) tb I = tb I := by
  refine congrArg tb (funext fun a => Fin.ext ?_)
  match a with
  | ⟨0, _⟩ =>
    show 0 + 1 * (I 0).val = (I 0).val
    omega
  | ⟨1, _⟩ =>
    show 0 + 1 * (I 1).val = (I 1).val
    omega

variable (m : (ℓ : Loc nD τ sig) → Buf (Elt F) ℓ)
variable (d : Dev nD) (L : grid0.Coords)

/-! ## The two gathers' payloads -/

/-- The gather of a group's eighty table rows delivers the row buffer's value: entry `k` of the window at offset `80 g` of the tile's neighbour list is the list's word `80 g + k`, in range
    under the index precondition, so row `k` of the payload is the table's row that word names. -/
theorem gathered_big [FloatOps F] (hpre : PreOK m) (g : ℕ) (hg : g < 222)
    (hG : S100000x128.Gathers 0 S80x128)
    (hinb : ∀ a, (![0, 0] : Fin 2 → ℕ) a + S100000x128.size a ≤ S100000x128.size a)
    (hst : ∀ a, (Rect.unit (s := S100000x128) ![0, 0] S100000x128.size hinb).stride a = 1)
    (off : Fin 1 → ℕ) (hoff : off 0 = 80 * g)
    (h : ∀ a, off a + S80.size a ≤ S17760.size a) (h' : ∀ a, (Rect.unit (s := S17760) off S80.size h).stride a = 1)
    (hn : S80.numel = S80x128.size hG.axis')
    (hin : ∀ y, ((sNidx.slice (Rect.unit (s := S17760) off S80.size h) h').view.read (Elt F) (tNidx m d L) y).toNat < S100000x128.size hG.axis) :
    SparseCore.gatherPayload hG
        ((tblV.slice (Rect.unit (s := S100000x128) ![0, 0] S100000x128.size hinb) hst).view.read (Elt F) (m (tblLoc d)))
        (SparseCore.rows ((sNidx.slice (Rect.unit (s := S17760) off S80.size h) h').view.read (Elt F) (tNidx m d L)) hn hin)
      = rowsVal m d L g := by
  funext x
  have hx0 : (x 0).val < 80 := (x 0).isLt
  have hlt : 80 * g + (x 0).val < 17760 := by omega
  -- the list's entry for row `x 0`: the row-major position `x 0` of a one-axis shape is the index `x 0`
  have hk : ((S80.rowMajor.symm ((x hG.axis').cast hn.symm)) 0).val = (x 0).val :=
    (Shape.rowMajor_val_one (S80.rowMajor.symm ((x hG.axis').cast hn.symm))).symm.trans
      (congrArg Fin.val (S80.rowMajor.apply_symm_apply ((x hG.axis').cast hn.symm)))
  have hw : (sNidx.slice (Rect.unit (s := S17760) off S80.size h) h').view.read (Elt F) (tNidx m d L)
        (S80.rowMajor.symm ((x hG.axis').cast hn.symm))
      = tNidx m d L (flat1 ((80 * g + (x 0).val) % 17760) (Nat.mod_lt _ (by decide))) := by
    refine congrArg (tNidx m d L) (eq_flat1 _ _ _ ?_)
    show off 0 + 1 * ((S80.rowMajor.symm ((x hG.axis').cast hn.symm)) 0).val = (80 * g + (x 0).val) % 17760
    rw [hk, hoff, Nat.mod_eq_of_lt hlt]
    omega
  have hwlt : (tNidx m d L (flat1 ((80 * g + (x 0).val) % 17760) (Nat.mod_lt _ (by decide)))).toNat < 100000 :=
    tNidx_lt m d L hpre _
  refine (gatherPayload_big hG _ _ x
    (Shape.pair (d := ![100000, 128])
      ⟨(tNidx m d L (flat1 ((80 * g + (x 0).val) % 17760) (Nat.mod_lt _ (by decide)))).toNat % 100000, Nat.mod_lt _ (by decide)⟩ (x 1))
    ?_ rfl).trans ?_
  · show (tNidx m d L (flat1 ((80 * g + (x 0).val) % 17760) (Nat.mod_lt _ (by decide)))).toNat % 100000
      = ((sNidx.slice (Rect.unit (s := S17760) off S80.size h) h').view.read (Elt F) (tNidx m d L)
          (S80.rowMajor.symm ((x hG.axis').cast hn.symm))).toNat
    rw [hw, Nat.mod_eq_of_lt hwlt]
  · exact read_tbl_whole hinb hst (m (tblLoc d)) _

/-- The gather of a group's eight own table rows delivers the self buffer's value: entry `k` of the window at offset `8 g` of the tile's node list is the list's word `8 g + k`, in range
    under the index precondition, so row `k` of the payload is the table's row that word names. -/
theorem gathered_self [FloatOps F] (hpre : PreOK m) (g : ℕ) (hg : g < 222)
    (hG : S100000x128.Gathers 0 S8x128)
    (hinb : ∀ a, (![0, 0] : Fin 2 → ℕ) a + S100000x128.size a ≤ S100000x128.size a)
    (hst : ∀ a, (Rect.unit (s := S100000x128) ![0, 0] S100000x128.size hinb).stride a = 1)
    (off : Fin 1 → ℕ) (hoff : off 0 = 8 * g)
    (h : ∀ a, off a + S8.size a ≤ S1776.size a) (h' : ∀ a, (Rect.unit (s := S1776) off S8.size h).stride a = 1)
    (hn : S8.numel = S8x128.size hG.axis')
    (hin : ∀ y, ((sNodes.slice (Rect.unit (s := S1776) off S8.size h) h').view.read (Elt F) (tNodes m d L) y).toNat < S100000x128.size hG.axis) :
    SparseCore.gatherPayload hG
        ((tblV.slice (Rect.unit (s := S100000x128) ![0, 0] S100000x128.size hinb) hst).view.read (Elt F) (m (tblLoc d)))
        (SparseCore.rows ((sNodes.slice (Rect.unit (s := S1776) off S8.size h) h').view.read (Elt F) (tNodes m d L)) hn hin)
      = sstVal m d L g := by
  funext x
  have hx0 : (x 0).val < 8 := (x 0).isLt
  have hlt : 8 * g + (x 0).val < 1776 := by omega
  -- the list's entry for row `x 0`: the row-major position `x 0` of a one-axis shape is the index `x 0`
  have hk : ((S8.rowMajor.symm ((x hG.axis').cast hn.symm)) 0).val = (x 0).val :=
    (Shape.rowMajor_val_one (S8.rowMajor.symm ((x hG.axis').cast hn.symm))).symm.trans
      (congrArg Fin.val (S8.rowMajor.apply_symm_apply ((x hG.axis').cast hn.symm)))
  have hw : (sNodes.slice (Rect.unit (s := S1776) off S8.size h) h').view.read (Elt F) (tNodes m d L)
        (S8.rowMajor.symm ((x hG.axis').cast hn.symm))
      = tNodes m d L (flat1 ((8 * g + (x 0).val) % 1776) (Nat.mod_lt _ (by decide))) := by
    refine congrArg (tNodes m d L) (eq_flat1 _ _ _ ?_)
    show off 0 + 1 * ((S8.rowMajor.symm ((x hG.axis').cast hn.symm)) 0).val = (8 * g + (x 0).val) % 1776
    rw [hk, hoff, Nat.mod_eq_of_lt hlt]
    omega
  have hwlt : (tNodes m d L (flat1 ((8 * g + (x 0).val) % 1776) (Nat.mod_lt _ (by decide)))).toNat < 100000 :=
    tNodes_lt m d L hpre _
  refine (gatherPayload_self hG _ _ x
    (Shape.pair (d := ![100000, 128])
      ⟨(tNodes m d L (flat1 ((8 * g + (x 0).val) % 1776) (Nat.mod_lt _ (by decide)))).toNat % 100000, Nat.mod_lt _ (by decide)⟩ (x 1))
    ?_ rfl).trans ?_
  · show (tNodes m d L (flat1 ((8 * g + (x 0).val) % 1776) (Nat.mod_lt _ (by decide)))).toNat % 100000
      = ((sNodes.slice (Rect.unit (s := S1776) off S8.size h) h').view.read (Elt F) (tNodes m d L)
          (S8.rowMajor.symm ((x hG.axis').cast hn.symm))).toNat
    rw [hw, Nat.mod_eq_of_lt hwlt]
  · exact read_tbl_whole hinb hst (m (tblLoc d)) _

/-! ## The destinations: a whole scratch buffer written whole holds the payload -/

theorem write_rows0 (fd w : Buf (Elt F) ((tthr d L).loc cc0_scratch3)) :
    (sRows0).view.write (Elt F) fd w Finset.univ = w :=
  View.write_whole_univ cc0_scratch3 fd w
theorem writes_rows0 (fd : Buf (Elt F) ((tthr d L).loc cc0_scratch3)) (w : S80x128.Idx → Elt F .f32) :
    (sRows0).view.writes (Elt F) fd [⟨Rect.whole S80x128, w⟩] = w :=
  Memref.write_access_whole_univ (Elt F) cc0_scratch3 fd w

theorem write_rows1 (fd w : Buf (Elt F) ((tthr d L).loc cc0_scratch4)) :
    (sRows1).view.write (Elt F) fd w Finset.univ = w :=
  View.write_whole_univ cc0_scratch4 fd w
theorem writes_rows1 (fd : Buf (Elt F) ((tthr d L).loc cc0_scratch4)) (w : S80x128.Idx → Elt F .f32) :
    (sRows1).view.writes (Elt F) fd [⟨Rect.whole S80x128, w⟩] = w :=
  Memref.write_access_whole_univ (Elt F) cc0_scratch4 fd w

theorem write_sst0 (fd w : Buf (Elt F) ((tthr d L).loc cc0_scratch5)) :
    (sSst0).view.write (Elt F) fd w Finset.univ = w :=
  View.write_whole_univ cc0_scratch5 fd w
theorem writes_sst0 (fd : Buf (Elt F) ((tthr d L).loc cc0_scratch5)) (w : S8x128.Idx → Elt F .f32) :
    (sSst0).view.writes (Elt F) fd [⟨Rect.whole S8x128, w⟩] = w :=
  Memref.write_access_whole_univ (Elt F) cc0_scratch5 fd w

theorem write_sst1 (fd w : Buf (Elt F) ((tthr d L).loc cc0_scratch6)) :
    (sSst1).view.write (Elt F) fd w Finset.univ = w :=
  View.write_whole_univ cc0_scratch6 fd w
theorem writes_sst1 (fd : Buf (Elt F) ((tthr d L).loc cc0_scratch6)) (w : S8x128.Idx → Elt F .f32) :
    (sSst1).view.writes (Elt F) fd [⟨Rect.whole S8x128, w⟩] = w :=
  Memref.write_access_whole_univ (Elt F) cc0_scratch6 fd w

/-! ## A scratch buffer after its gather lands -/

/-- The sSst0 buffer after the gather for group `g` lands, whatever it held: the payload, entry by entry. -/
theorem selfGather_sst0 [FloatOps F] (hpre : PreOK m) (off : Fin 1 → ℕ)
    (h : ∀ a, off a + S8.size a ≤ S1776.size a) (h' : ∀ a, (Rect.unit (s := S1776) off S8.size h).stride a = 1)
    (hp : ∀ a, (Rect.unit (s := S100000x128) ![0, 0] S100000x128.size inb_S100000x128_S100000x128_0_0).stride a = 1)
    (hn : S8.numel = S8x128.size gathers_S100000x128_S8x128.axis')
    (hin : ∀ y, ((sNodes.slice (Rect.unit (s := S1776) off S8.size h) h').view.read (Elt F) (tNodes m d L) y).toNat
        < S100000x128.size gathers_S100000x128_S8x128.axis)
    (g : ℕ) (hg : g < 222) (hoff : off 0 = 8 * g) (fs : Buf (Elt F) ((sSst0).view.loc (tthr d L))) (x : S8x128.Idx) :
    ((sSst0).view.writes (Elt F) fs [⟨Rect.whole S8x128, SparseCore.gatherPayload gathers_S100000x128_S8x128
        ((tblV.slice (Rect.unit (s := S100000x128) ![0, 0] S100000x128.size inb_S100000x128_S100000x128_0_0) hp).view.read (Elt F) (m (tblLoc d)))
        (SparseCore.rows ((sNodes.slice (Rect.unit (s := S1776) off S8.size h) h').view.read (Elt F) (tNodes m d L)) hn hin)⟩]) x
      = sstVal m d L g x :=
  (congrFun (writes_sst0 d L fs _) x).trans
    (congrFun (gathered_self m d L hpre g hg gathers_S100000x128_S8x128 inb_S100000x128_S100000x128_0_0 hp off hoff h h' hn hin) x)

/-- The sSst1 buffer after the gather for group `g` lands, whatever it held: the payload, entry by entry. -/
theorem selfGather_sst1 [FloatOps F] (hpre : PreOK m) (off : Fin 1 → ℕ)
    (h : ∀ a, off a + S8.size a ≤ S1776.size a) (h' : ∀ a, (Rect.unit (s := S1776) off S8.size h).stride a = 1)
    (hp : ∀ a, (Rect.unit (s := S100000x128) ![0, 0] S100000x128.size inb_S100000x128_S100000x128_0_0).stride a = 1)
    (hn : S8.numel = S8x128.size gathers_S100000x128_S8x128.axis')
    (hin : ∀ y, ((sNodes.slice (Rect.unit (s := S1776) off S8.size h) h').view.read (Elt F) (tNodes m d L) y).toNat
        < S100000x128.size gathers_S100000x128_S8x128.axis)
    (g : ℕ) (hg : g < 222) (hoff : off 0 = 8 * g) (fs : Buf (Elt F) ((sSst1).view.loc (tthr d L))) (x : S8x128.Idx) :
    ((sSst1).view.writes (Elt F) fs [⟨Rect.whole S8x128, SparseCore.gatherPayload gathers_S100000x128_S8x128
        ((tblV.slice (Rect.unit (s := S100000x128) ![0, 0] S100000x128.size inb_S100000x128_S100000x128_0_0) hp).view.read (Elt F) (m (tblLoc d)))
        (SparseCore.rows ((sNodes.slice (Rect.unit (s := S1776) off S8.size h) h').view.read (Elt F) (tNodes m d L)) hn hin)⟩]) x
      = sstVal m d L g x :=
  (congrFun (writes_sst1 d L fs _) x).trans
    (congrFun (gathered_self m d L hpre g hg gathers_S100000x128_S8x128 inb_S100000x128_S100000x128_0_0 hp off hoff h h' hn hin) x)

/-- The sRows0 buffer after the gather for group `g` lands, whatever it held: the payload, entry by entry. -/
theorem bigGather_rows0 [FloatOps F] (hpre : PreOK m) (off : Fin 1 → ℕ)
    (h : ∀ a, off a + S80.size a ≤ S17760.size a) (h' : ∀ a, (Rect.unit (s := S17760) off S80.size h).stride a = 1)
    (hp : ∀ a, (Rect.unit (s := S100000x128) ![0, 0] S100000x128.size inb_S100000x128_S100000x128_0_0).stride a = 1)
    (hn : S80.numel = S80x128.size gathers_S100000x128_S80x128.axis')
    (hin : ∀ y, ((sNidx.slice (Rect.unit (s := S17760) off S80.size h) h').view.read (Elt F) (tNidx m d L) y).toNat
        < S100000x128.size gathers_S100000x128_S80x128.axis)
    (g : ℕ) (hg : g < 222) (hoff : off 0 = 80 * g) (fs : Buf (Elt F) ((sRows0).view.loc (tthr d L))) (x : S80x128.Idx) :
    ((sRows0).view.writes (Elt F) fs [⟨Rect.whole S80x128, SparseCore.gatherPayload gathers_S100000x128_S80x128
        ((tblV.slice (Rect.unit (s := S100000x128) ![0, 0] S100000x128.size inb_S100000x128_S100000x128_0_0) hp).view.read (Elt F) (m (tblLoc d)))
        (SparseCore.rows ((sNidx.slice (Rect.unit (s := S17760) off S80.size h) h').view.read (Elt F) (tNidx m d L)) hn hin)⟩]) x
      = rowsVal m d L g x :=
  (congrFun (writes_rows0 d L fs _) x).trans
    (congrFun (gathered_big m d L hpre g hg gathers_S100000x128_S80x128 inb_S100000x128_S100000x128_0_0 hp off hoff h h' hn hin) x)

/-- The sRows1 buffer after the gather for group `g` lands, whatever it held: the payload, entry by entry. -/
theorem bigGather_rows1 [FloatOps F] (hpre : PreOK m) (off : Fin 1 → ℕ)
    (h : ∀ a, off a + S80.size a ≤ S17760.size a) (h' : ∀ a, (Rect.unit (s := S17760) off S80.size h).stride a = 1)
    (hp : ∀ a, (Rect.unit (s := S100000x128) ![0, 0] S100000x128.size inb_S100000x128_S100000x128_0_0).stride a = 1)
    (hn : S80.numel = S80x128.size gathers_S100000x128_S80x128.axis')
    (hin : ∀ y, ((sNidx.slice (Rect.unit (s := S17760) off S80.size h) h').view.read (Elt F) (tNidx m d L) y).toNat
        < S100000x128.size gathers_S100000x128_S80x128.axis)
    (g : ℕ) (hg : g < 222) (hoff : off 0 = 80 * g) (fs : Buf (Elt F) ((sRows1).view.loc (tthr d L))) (x : S80x128.Idx) :
    ((sRows1).view.writes (Elt F) fs [⟨Rect.whole S80x128, SparseCore.gatherPayload gathers_S100000x128_S80x128
        ((tblV.slice (Rect.unit (s := S100000x128) ![0, 0] S100000x128.size inb_S100000x128_S100000x128_0_0) hp).view.read (Elt F) (m (tblLoc d)))
        (SparseCore.rows ((sNidx.slice (Rect.unit (s := S17760) off S80.size h) h').view.read (Elt F) (tNidx m d L)) hn hin)⟩]) x
      = rowsVal m d L g x :=
  (congrFun (writes_rows1 d L fs _) x).trans
    (congrFun (gathered_big m d L hpre g hg gathers_S100000x128_S80x128 inb_S100000x128_S100000x128_0_0 hp off hoff h h' hn hin) x)

end Cert.Proof.K

end
-- ==== Proof.TileBody.lean ====
import proofs.«208500_g61899068670276_cont_9to1_m_775_47_alg».proof.Proof.TileInv
import proofs.«208500_g61899068670276_cont_9to1_m_775_47_alg».proof.Proof.TileArith
import proofs.«208500_g61899068670276_cont_9to1_m_775_47_alg».proof.Proof.TileRows
import proofs.«208500_g61899068670276_cont_9to1_m_775_47_alg».proof.Proof.TileFlight
import proofs.«208500_g61899068670276_cont_9to1_m_775_47_alg».proof.Proof.TileGather

noncomputable section

namespace Cert.Proof.K

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)
variable (d : Dev nD) (L : grid0.Coords)

/-! ## The tile's scoped storage, named -/

/-- The nine scratch buffers of a tile. -/
def tRefs : Finset (DevRef τ sig) :=
  ({cc0_scratch0, cc0_scratch1, cc0_scratch2, cc0_scratch3, cc0_scratch4, cc0_scratch5, cc0_scratch6, cc0_scratch7, cc0_scratch8} : Finset (Ref sig .scVector)).map
    ⟨(Proc.scVector (cV L) (jV L)).devRef, Proc.devRef_injective _⟩

theorem tRefs_sub : tRefs L ⊆ ownRefs (τ := τ) (.scVector (cV L) (jV L)) := by
  intro b hb
  obtain ⟨r, hr, rfl⟩ := Finset.mem_map.mp hb
  simp only [Finset.mem_insert, Finset.mem_singleton] at hr
  rcases hr with rfl | rfl | rfl | rfl | rfl | rfl | rfl | rfl | rfl <;>
    exact SparseCore.Cfg.mem_ownRefs_of_owner (p := Proc.scVector (cV L) (jV L)) rfl

theorem ownBufs_tile :
    (ownBufs (tthr d L) : sProp 𝕄)
      = iprop(((∃ f, (tthr d L).loc cc0_scratch0 ↦{fullShare} f) ∗ (∃ f, (tthr d L).loc cc0_scratch1 ↦{fullShare} f)
          ∗ (∃ f, (tthr d L).loc cc0_scratch2 ↦{fullShare} f) ∗ (∃ f, (tthr d L).loc cc0_scratch3 ↦{fullShare} f)
          ∗ (∃ f, (tthr d L).loc cc0_scratch4 ↦{fullShare} f) ∗ (∃ f, (tthr d L).loc cc0_scratch5 ↦{fullShare} f)
          ∗ (∃ f, (tthr d L).loc cc0_scratch6 ↦{fullShare} f) ∗ (∃ f, (tthr d L).loc cc0_scratch7 ↦{fullShare} f)
          ∗ (∃ f, (tthr d L).loc cc0_scratch8 ↦{fullShare} f))
          ∗ bigSep (ownRefs (τ := τ) (.scVector (cV L) (jV L)) \ tRefs L) fun b => iprop(∃ f, ((d, b) : Loc nD τ sig) ↦{fullShare} f)) := by
  unfold SparseCore.Cfg.ownBufs
  rw [SparseCore.bigSep_sdiff_split' (tRefs_sub L)]
  unfold tRefs
  rw [bigSep_map,
    SparseCore.bigSep_insert' (show (cc0_scratch0 : Ref sig .scVector) ∉ ({cc0_scratch1, cc0_scratch2, cc0_scratch3, cc0_scratch4, cc0_scratch5, cc0_scratch6, cc0_scratch7, cc0_scratch8} : Finset (Ref sig .scVector)) by decide),
    SparseCore.bigSep_insert' (show (cc0_scratch1 : Ref sig .scVector) ∉ ({cc0_scratch2, cc0_scratch3, cc0_scratch4, cc0_scratch5, cc0_scratch6, cc0_scratch7, cc0_scratch8} : Finset (Ref sig .scVector)) by decide),
    SparseCore.bigSep_insert' (show (cc0_scratch2 : Ref sig .scVector) ∉ ({cc0_scratch3, cc0_scratch4, cc0_scratch5, cc0_scratch6, cc0_scratch7, cc0_scratch8} : Finset (Ref sig .scVector)) by decide),
    SparseCore.bigSep_insert' (show (cc0_scratch3 : Ref sig .scVector) ∉ ({cc0_scratch4, cc0_scratch5, cc0_scratch6, cc0_scratch7, cc0_scratch8} : Finset (Ref sig .scVector)) by decide),
    SparseCore.bigSep_insert' (show (cc0_scratch4 : Ref sig .scVector) ∉ ({cc0_scratch5, cc0_scratch6, cc0_scratch7, cc0_scratch8} : Finset (Ref sig .scVector)) by decide),
    SparseCore.bigSep_insert' (show (cc0_scratch5 : Ref sig .scVector) ∉ ({cc0_scratch6, cc0_scratch7, cc0_scratch8} : Finset (Ref sig .scVector)) by decide),
    SparseCore.bigSep_insert' (show (cc0_scratch6 : Ref sig .scVector) ∉ ({cc0_scratch7, cc0_scratch8} : Finset (Ref sig .scVector)) by decide),
    SparseCore.bigSep_insert' (show (cc0_scratch7 : Ref sig .scVector) ∉ ({cc0_scratch8} : Finset (Ref sig .scVector)) by decide),
    bigSep_singleton]
  rfl

/-- The eleven DMA semaphores of a tile. -/
def tSems : Finset (GSem nD τ sig) :=
  ({SemLoc.dma cc0_scoped0.sem, SemLoc.dma cc0_scoped1.sem, SemLoc.dma cc0_scoped2.sem, SemLoc.dma cc0_scratch9.sem, SemLoc.dma cc0_scratch10.sem,
    SemLoc.dma cc0_scratch11.sem, SemLoc.dma cc0_scratch12.sem, SemLoc.dma cc0_scratch13.sem, SemLoc.dma cc0_scratch14.sem,
    SemLoc.dma cc0_scratch15.sem, SemLoc.dma cc0_scratch16.sem} : Finset (SemLoc sig)).map
    ⟨fun sm => (tthr d L, sm), fun _ _ e => (Prod.mk.inj e).2⟩

theorem tSems_sub : tSems d L ⊆ ownCells (tthr d L) := by
  intro g hg
  obtain ⟨sm, hsm, rfl⟩ := Finset.mem_map.mp hg
  refine mem_ownCells.mpr ⟨rfl, ?_⟩
  have key : ∀ sm ∈ ({SemLoc.dma cc0_scoped0.sem, SemLoc.dma cc0_scoped1.sem, SemLoc.dma cc0_scoped2.sem, SemLoc.dma cc0_scratch9.sem, SemLoc.dma cc0_scratch10.sem,
    SemLoc.dma cc0_scratch11.sem, SemLoc.dma cc0_scratch12.sem, SemLoc.dma cc0_scratch13.sem, SemLoc.dma cc0_scratch14.sem,
    SemLoc.dma cc0_scratch15.sem, SemLoc.dma cc0_scratch16.sem} : Finset (SemLoc sig)), sm.isScoped .scVector = true := by decide
  exact key sm hsm

theorem ownSems0_tile :
    (ownSems0 (tthr d L) : sProp 𝕄)
      = iprop((semVal (tthr d L, SemLoc.dma cc0_scoped0.sem) 0 ∗ semVal (tthr d L, SemLoc.dma cc0_scoped1.sem) 0 ∗ semVal (tthr d L, SemLoc.dma cc0_scoped2.sem) 0
          ∗ semVal (tthr d L, SemLoc.dma cc0_scratch9.sem) 0 ∗ semVal (tthr d L, SemLoc.dma cc0_scratch10.sem) 0
          ∗ semVal (tthr d L, SemLoc.dma cc0_scratch11.sem) 0 ∗ semVal (tthr d L, SemLoc.dma cc0_scratch12.sem) 0
          ∗ semVal (tthr d L, SemLoc.dma cc0_scratch13.sem) 0 ∗ semVal (tthr d L, SemLoc.dma cc0_scratch14.sem) 0
          ∗ semVal (tthr d L, SemLoc.dma cc0_scratch15.sem) 0 ∗ semVal (tthr d L, SemLoc.dma cc0_scratch16.sem) 0)
          ∗ bigSep (ownCells (tthr d L) \ tSems d L) fun g => semVal g 0) := by
  unfold SparseCore.Cfg.ownSems0
  rw [SparseCore.bigSep_sdiff_split' (tSems_sub d L)]
  unfold tSems
  rw [bigSep_map,
    SparseCore.bigSep_insert' (show (SemLoc.dma cc0_scoped0.sem : SemLoc sig) ∉ ({SemLoc.dma cc0_scoped1.sem, SemLoc.dma cc0_scoped2.sem, SemLoc.dma cc0_scratch9.sem, SemLoc.dma cc0_scratch10.sem, SemLoc.dma cc0_scratch11.sem, SemLoc.dma cc0_scratch12.sem, SemLoc.dma cc0_scratch13.sem, SemLoc.dma cc0_scratch14.sem, SemLoc.dma cc0_scratch15.sem, SemLoc.dma cc0_scratch16.sem} : Finset (SemLoc sig)) by decide),
    SparseCore.bigSep_insert' (show (SemLoc.dma cc0_scoped1.sem : SemLoc sig) ∉ ({SemLoc.dma cc0_scoped2.sem, SemLoc.dma cc0_scratch9.sem, SemLoc.dma cc0_scratch10.sem, SemLoc.dma cc0_scratch11.sem, SemLoc.dma cc0_scratch12.sem, SemLoc.dma cc0_scratch13.sem, SemLoc.dma cc0_scratch14.sem, SemLoc.dma cc0_scratch15.sem, SemLoc.dma cc0_scratch16.sem} : Finset (SemLoc sig)) by decide),
    SparseCore.bigSep_insert' (show (SemLoc.dma cc0_scoped2.sem : SemLoc sig) ∉ ({SemLoc.dma cc0_scratch9.sem, SemLoc.dma cc0_scratch10.sem, SemLoc.dma cc0_scratch11.sem, SemLoc.dma cc0_scratch12.sem, SemLoc.dma cc0_scratch13.sem, SemLoc.dma cc0_scratch14.sem, SemLoc.dma cc0_scratch15.sem, SemLoc.dma cc0_scratch16.sem} : Finset (SemLoc sig)) by decide),
    SparseCore.bigSep_insert' (show (SemLoc.dma cc0_scratch9.sem : SemLoc sig) ∉ ({SemLoc.dma cc0_scratch10.sem, SemLoc.dma cc0_scratch11.sem, SemLoc.dma cc0_scratch12.sem, SemLoc.dma cc0_scratch13.sem, SemLoc.dma cc0_scratch14.sem, SemLoc.dma cc0_scratch15.sem, SemLoc.dma cc0_scratch16.sem} : Finset (SemLoc sig)) by decide),
    SparseCore.bigSep_insert' (show (SemLoc.dma cc0_scratch10.sem : SemLoc sig) ∉ ({SemLoc.dma cc0_scratch11.sem, SemLoc.dma cc0_scratch12.sem, SemLoc.dma cc0_scratch13.sem, SemLoc.dma cc0_scratch14.sem, SemLoc.dma cc0_scratch15.sem, SemLoc.dma cc0_scratch16.sem} : Finset (SemLoc sig)) by decide),
    SparseCore.bigSep_insert' (show (SemLoc.dma cc0_scratch11.sem : SemLoc sig) ∉ ({SemLoc.dma cc0_scratch12.sem, SemLoc.dma cc0_scratch13.sem, SemLoc.dma cc0_scratch14.sem, SemLoc.dma cc0_scratch15.sem, SemLoc.dma cc0_scratch16.sem} : Finset (SemLoc sig)) by decide),
    SparseCore.bigSep_insert' (show (SemLoc.dma cc0_scratch12.sem : SemLoc sig) ∉ ({SemLoc.dma cc0_scratch13.sem, SemLoc.dma cc0_scratch14.sem, SemLoc.dma cc0_scratch15.sem, SemLoc.dma cc0_scratch16.sem} : Finset (SemLoc sig)) by decide),
    SparseCore.bigSep_insert' (show (SemLoc.dma cc0_scratch13.sem : SemLoc sig) ∉ ({SemLoc.dma cc0_scratch14.sem, SemLoc.dma cc0_scratch15.sem, SemLoc.dma cc0_scratch16.sem} : Finset (SemLoc sig)) by decide),
    SparseCore.bigSep_insert' (show (SemLoc.dma cc0_scratch14.sem : SemLoc sig) ∉ ({SemLoc.dma cc0_scratch15.sem, SemLoc.dma cc0_scratch16.sem} : Finset (SemLoc sig)) by decide),
    SparseCore.bigSep_insert' (show (SemLoc.dma cc0_scratch15.sem : SemLoc sig) ∉ ({SemLoc.dma cc0_scratch16.sem} : Finset (SemLoc sig)) by decide),
    bigSep_singleton]
  rfl

variable [FloatOps F]

/-! ## Shares -/

omit [FloatOps F] in
theorem halves_split {ℓ : Loc nD τ sig} (S : Finset (Idx ℓ)) (f : Buf (Elt F) ℓ) :
    (ℓ ↦[S]{fullShare} f : sProp 𝕄) ⊣⊢ iprop((ℓ ↦[S]{idxTok 0} f) ∗ (ℓ ↦[S]{idxTok 1} f)) := by
  have h : (ℓ ↦[S]{fullShare} f : sProp 𝕄) ⊣⊢ iprop((ℓ ↦[S]{Transfers.shareDrop fullShare 1} f) ∗ ℓ ↦[S]{Transfers.shareTokN fullShare 0} f) :=
    pointsTo_share (PosShare.mem_left_op_right _)
  constructor
  · refine h.1.trans ?_
    iintro ⟨H1, H0⟩
    isplitl [H0]
    · iexact H0
    · iexact H1
  · iintro ⟨H0, H1⟩
    iapply h.2
    isplitl [H1]
    · iexact H1
    · iexact H0

omit [FloatOps F] in
theorem toks4 {ℓ : Loc nD τ sig} (S : Finset (Idx ℓ)) (f : Buf (Elt F) ℓ) :
    (ℓ ↦[S]{inShare L} f : sProp 𝕄) ⊣⊢ iprop((ℓ ↦[S]{tblTok L 0} f) ∗ (ℓ ↦[S]{tblTok L 1} f) ∗ (ℓ ↦[S]{tblTok L 2} f) ∗ (ℓ ↦[S]{tblTok L 3} f)) := by
  have h0 : (ℓ ↦[S]{inShare L} f : sProp 𝕄) ⊣⊢ iprop((ℓ ↦[S]{Transfers.shareDrop (inShare L) 1} f) ∗ ℓ ↦[S]{Transfers.shareTokN (inShare L) 0} f) :=
    pointsTo_share (PosShare.mem_left_op_right _)
  have h1 : (ℓ ↦[S]{Transfers.shareDrop (inShare L) 1} f : sProp 𝕄) ⊣⊢ iprop((ℓ ↦[S]{Transfers.shareDrop (inShare L) 2} f) ∗ ℓ ↦[S]{Transfers.shareTokN (inShare L) 1} f) :=
    pointsTo_share (PosShare.mem_left_op_right _)
  have h2 : (ℓ ↦[S]{Transfers.shareDrop (inShare L) 2} f : sProp 𝕄) ⊣⊢ iprop((ℓ ↦[S]{Transfers.shareDrop (inShare L) 3} f) ∗ ℓ ↦[S]{Transfers.shareTokN (inShare L) 2} f) :=
    pointsTo_share (PosShare.mem_left_op_right _)
  constructor
  · iintro H
    ihave H' := h0.1 $$ H
    icases H' with ⟨Hd, Ht0⟩
    ihave H' := h1.1 $$ Hd
    icases H' with ⟨Hd, Ht1⟩
    ihave H' := h2.1 $$ Hd
    icases H' with ⟨Hd, Ht2⟩
    isplitl [Ht0]; · iexact Ht0
    isplitl [Ht1]; · iexact Ht1
    isplitl [Ht2]; · iexact Ht2
    iexact Hd
  · iintro ⟨Ht0, Ht1, Ht2, Hd⟩
    iapply h0.2
    isplitr [Ht0]
    · iapply h1.2
      isplitr [Ht1]
      · iapply h2.2
        isplitl [Hd]
        · iexact Hd
        · iexact Ht2
      · iexact Ht1
    · iexact Ht0

/-- A hypothesis set aside. -/
def Held (P : sProp 𝕄) : sProp 𝕄 := P
omit [FloatOps F] in
theorem held_in {P : sProp 𝕄} : P ⊢ Held P := Entails.of_eq rfl
omit [FloatOps F] in
theorem held_out {P : sProp 𝕄} : Held P ⊢ P := Entails.of_eq rfl

/-! ## The invariant at the first trip's head and after the last trip -/

theorem trips_pos : 0 < trips L := by unfold trips ngc ngcN; split <;> omega
theorem trips_ne_zero : trips L ≠ 0 := (trips_pos L).ne'

variable (O : CellTallies nD τ sig (HIx 1)) (W : Waits sig (HIx 1))

theorem outerInv_zero (acc : BitVec 32) :
    outerInv m d L O W 0 acc
      = iprop((Transfers.MayWaits (tthr d L) (none : HIx 1) O
        ∗ ((sW).view.loc (tthr d L) ↦{fullShare} tW m d L)
        ∗ outDone m d L (2 * 0 - 2) ∗ outPend m d L (2 * 0)
        ∗ ∃ W', ⌜∀ p ∈ W', p ∈ W ∨ p.2 = none⌝ ∗ owes (tthr d L) O W')
        ∗ (Transfers.Flight (countersEmb : UEmb Counters 𝕄) (tthr d L) (SemLoc.dma cc0_scratch9.sem) (default : HIx 1) 327680 (bigD0 m d L (2 * 0 + 0))
        ∗ Transfers.Flight (countersEmb : UEmb Counters 𝕄) (tthr d L) (SemLoc.dma cc0_scratch11.sem) (default : HIx 1) 32768 (selfD0 m d L 0)
        ∗ (semVal (tthr d L, SemLoc.dma cc0_scratch13.sem) 0 ∗ semVal (tthr d L, SemLoc.dma cc0_scratch15.sem) 0 ∗ ∃ f, (sNout0).view.loc (tthr d L) ↦{fullShare} f))
        ∗ (Transfers.Flight (countersEmb : UEmb Counters 𝕄) (tthr d L) (SemLoc.dma cc0_scratch10.sem) (default : HIx 1) 327680 (bigD1 m d L (2 * 0 + 1))
        ∗ Transfers.Flight (countersEmb : UEmb Counters 𝕄) (tthr d L) (SemLoc.dma cc0_scratch12.sem) (default : HIx 1) 32768 (selfD1 m d L 1)
        ∗ (semVal (tthr d L, SemLoc.dma cc0_scratch14.sem) 0 ∗ semVal (tthr d L, SemLoc.dma cc0_scratch16.sem) 0 ∗ ∃ f, (sNout1).view.loc (tthr d L) ↦{fullShare} f))) := by
  unfold outerInv sharedInv slot0 slot1 bigPart0 selfPart0 outPart0 bigPart1 selfPart1 outPart1
  simp only [trips_pos L, eq_self, ↓reduceIte]

theorem outerInv_last (acc : BitVec 32) :
    outerInv m d L O W (trips L) acc
      = iprop((Transfers.MayWaits (tthr d L) (none : HIx 1) O
        ∗ ((sW).view.loc (tthr d L) ↦{fullShare} tW m d L)
        ∗ outDone m d L (2 * trips L - 2) ∗ outPend m d L (2 * trips L)
        ∗ ∃ W', ⌜∀ p ∈ W', p ∈ W ∨ p.2 = none⌝ ∗ owes (tthr d L) O W')
        ∗ ((semVal (tthr d L, SemLoc.dma cc0_scratch9.sem) 0 ∗ (∃ f, (sRows0).view.loc (tthr d L) ↦{fullShare} f)
          ∗ ((sNidx).view.loc (tthr d L) ↦{idxTok 0} tNidx m d L) ∗ ((tblV).view.loc (tthr d L) ↦{tblTok L 0} m (tblLoc d)))
        ∗ (semVal (tthr d L, SemLoc.dma cc0_scratch11.sem) 0
          ∗ ((sNodes).view.loc (tthr d L) ↦{nodTok 0} tNodes m d L) ∗ ((tblV).view.loc (tthr d L) ↦{tblTok L 2} m (tblLoc d)))
        ∗ (Transfers.Flight (countersEmb : UEmb Counters 𝕄) (tthr d L) (SemLoc.dma cc0_scratch13.sem) (default : HIx 1) 32768 (outND0 m d L (2 * trips L + 0 - 2))
          ∗ Transfers.Flight (countersEmb : UEmb Counters 𝕄) (tthr d L) (SemLoc.dma cc0_scratch15.sem) (default : HIx 1) 32768 (outSD0 m d L (2 * trips L + 0 - 2))))
        ∗ ((semVal (tthr d L, SemLoc.dma cc0_scratch10.sem) 0 ∗ (∃ f, (sRows1).view.loc (tthr d L) ↦{fullShare} f)
          ∗ ((sNidx).view.loc (tthr d L) ↦{idxTok 1} tNidx m d L) ∗ ((tblV).view.loc (tthr d L) ↦{tblTok L 1} m (tblLoc d)))
        ∗ (semVal (tthr d L, SemLoc.dma cc0_scratch12.sem) 0
          ∗ ((sNodes).view.loc (tthr d L) ↦{nodTok 1} tNodes m d L) ∗ ((tblV).view.loc (tthr d L) ↦{tblTok L 3} m (tblLoc d)))
        ∗ (Transfers.Flight (countersEmb : UEmb Counters 𝕄) (tthr d L) (SemLoc.dma cc0_scratch14.sem) (default : HIx 1) 32768 (outND1 m d L (2 * trips L + 1 - 2))
          ∗ Transfers.Flight (countersEmb : UEmb Counters 𝕄) (tthr d L) (SemLoc.dma cc0_scratch16.sem) (default : HIx 1) 32768 (outSD1 m d L (2 * trips L + 1 - 2))))) := by
  unfold outerInv sharedInv slot0 slot1 bigPart0 selfPart0 outPart0 bigPart1 selfPart1 outPart1
  simp only [Nat.lt_irrefl, trips_ne_zero L, ↓reduceIte]

/-! ## The tile's task -/

theorem tile_body
    (trip : ∀ (d : Dev nD) (L : grid0.Coords) (O : CellTallies nD τ sig (HIx 1)) (W : Waits sig (HIx 1)), OuterTrip (F := F) m d L O W) :
    TileBody (F := F) m := by
  unfold TileBody; intro hF hpre d L O W hO
  unfold kernelAt
  rw [cc0_sc_kernel_eq_skeleton]; unfold cc0_sc_kernel_skel
  rw [k0_part51_eq_skeleton, k0_part52_eq_skeleton]; unfold k0_part51_skel k0_part52_skel
  rw [(K (F := F)).scopedBufs_V hF d (cV L) (jV L), SparseCore.Cfg.scopedSems0_V (Val := Elt F) d (cV L) (jV L), ownSems0_tile, ownBufs_tile]
  unfold tileGo tileTd tileGoN tileTdN inPts outPts
  iintro ⟨#Hlv, -, ⟨⟨Hnidx, Hnodes, Hw, Htbl⟩, ⟨Hno, Hso⟩⟩, ⟨⟨⟨%f0, Hs0⟩, ⟨%f1, Hs1⟩, ⟨%f2, Hs2⟩, ⟨%f3, Hs3⟩, ⟨%f4, Hs4⟩, ⟨%f5, Hs5⟩, ⟨%f6, Hs6⟩, ⟨%f7, Hs7⟩, ⟨%f8, Hs8⟩⟩, Hbufs⟩,
    ⟨⟨Hc0, Hc1, Hc2, Hg0, Hg1, Hsg0, Hsg1, Hn0, Hn1, Hss0, Hss1⟩, Hsems⟩, HO⟩
  ihave Hmw := ((K (F := F)).mayWaits_none (thr := tthr d L) hO) $$ Hlv
  -- the arrays and the scratch buffers as the kernel's memrefs address them
  ihave Hnidx' := (Entails.of_eq (show ((nidxLoc d ↦{tileShare (L 0).val (L 1).val} (nidxF m d : Buf (Elt F) (nidxLoc d))) : sProp 𝕄) = ((nidxV).view.loc (tthr d L) ↦{tileShare (L 0).val (L 1).val} (nidxF m d : Buf (Elt F) (nidxLoc d))) from rfl)) $$ Hnidx
  ihave Hnodes' := (Entails.of_eq (show ((nodesLoc d ↦{tileShare (L 0).val (L 1).val} (nodesF m d : Buf (Elt F) (nodesLoc d))) : sProp 𝕄) = ((nodesV).view.loc (tthr d L) ↦{tileShare (L 0).val (L 1).val} (nodesF m d : Buf (Elt F) (nodesLoc d))) from rfl)) $$ Hnodes
  ihave Hw' := (Entails.of_eq (show ((wLoc d ↦{tileShare (L 0).val (L 1).val} (wF m d : Buf (Elt F) (wLoc d))) : sProp 𝕄) = ((wV).view.loc (tthr d L) ↦{tileShare (L 0).val (L 1).val} (wF m d : Buf (Elt F) (wLoc d))) from rfl)) $$ Hw
  ihave Hs0' := (Entails.of_eq (show (((tthr d L).loc cc0_scratch0 ↦{fullShare} f0) : sProp 𝕄) = ((sNidx).view.loc (tthr d L) ↦{fullShare} f0) from rfl)) $$ Hs0
  ihave Hs1' := (Entails.of_eq (show (((tthr d L).loc cc0_scratch1 ↦{fullShare} f1) : sProp 𝕄) = ((sNodes).view.loc (tthr d L) ↦{fullShare} f1) from rfl)) $$ Hs1
  ihave Hs2' := (Entails.of_eq (show (((tthr d L).loc cc0_scratch2 ↦{fullShare} f2) : sProp 𝕄) = ((sW).view.loc (tthr d L) ↦{fullShare} f2) from rfl)) $$ Hs2
  -- the three synchronous copies
  sl_exec
  sl_unfold_run_names
  have hf0 : View.write (Elt F) sNidx.view f0 (ReadAs.same.apply ((nidxV.slice (Rect.unit (s := S505920) (k0_off1 L) S17760.size (k0_off1_inb L)) (fun _ => rfl)).view.read (Elt F) (nidxF m d : Buf (Elt F) (nidxLoc d)))) Finset.univ = tNidx m d L := by
    rw [View.write_whole_univ]; exact fetch_nidx m d L
  have hf1 : View.write (Elt F) sNodes.view f1 (ReadAs.same.apply ((nodesV.slice (Rect.unit (s := S50592) (k0_off2 L) S1776.size (k0_off2_inb L)) (fun _ => rfl)).view.read (Elt F) (nodesF m d : Buf (Elt F) (nodesLoc d)))) Finset.univ = tNodes m d L := by
    rw [View.write_whole_univ]; exact fetch_nodes m d L
  have hf2 : View.write (Elt F) sW.view f2 (ReadAs.same.apply ((wV.slice (Rect.unit (s := S505920) (k0_off1 L) S17760.size (k0_off1_inb L)) (fun _ => rfl)).view.read (Elt F) (wF m d : Buf (Elt F) (wLoc d)))) Finset.univ = tW m d L := by
    rw [View.write_whole_univ]; exact fetch_w m d L
  ihave Hs0 := (Entails.of_eq (congrArg (fun f => ((sNidx).view.loc (tthr d L) ↦{fullShare} f : sProp 𝕄)) hf0)) $$ Hs0'
  ihave Hs1 := (Entails.of_eq (congrArg (fun f => ((sNodes).view.loc (tthr d L) ↦{fullShare} f : sProp 𝕄)) hf1)) $$ Hs1'
  ihave Hs2 := (Entails.of_eq (congrArg (fun f => ((sW).view.loc (tthr d L) ↦{fullShare} f : sProp 𝕄)) hf2)) $$ Hs2'
  -- the shares the gathers borrow: the two lists in halves, the table in four
  ihave Hs0s := (halves_split (F := F) (ℓ := (sNidx).view.loc (tthr d L)) Finset.univ (tNidx m d L)).1 $$ Hs0
  icases Hs0s with ⟨Hi0, Hi1⟩
  ihave Hi1h := held_in $$ Hi1
  ihave Hs1s := (halves_split (F := F) (ℓ := (sNodes).view.loc (tthr d L)) Finset.univ (tNodes m d L)).1 $$ Hs1
  icases Hs1s with ⟨Hd0, Hd1⟩
  ihave Hd0h := held_in $$ Hd0
  ihave Hd1h := held_in $$ Hd1
  ihave Htbl' := (Entails.of_eq (show ((tblLoc d ↦{tileShare (L 0).val (L 1).val} m (tblLoc d)) : sProp 𝕄) = ((tblV).view.loc (tthr d L) ↦{inShare L} m (tblLoc d)) from rfl)) $$ Htbl
  ihave Htbls := (toks4 (F := F) L (ℓ := (tblV).view.loc (tthr d L)) Finset.univ (m (tblLoc d))).1 $$ Htbl'
  icases Htbls with ⟨Ht0, Ht1, Ht2, Ht3⟩
  ihave Ht1h := held_in $$ Ht1
  ihave Ht2h := held_in $$ Ht2
  ihave Ht3h := held_in $$ Ht3
  have hin0 := hin_idx m d L hpre ![0] inb_S17760_S80_0 (fun _ => rfl)
  have hin1 := hin_idx m d L hpre ![80] inb_S17760_S80_80 (fun _ => rfl)
  have hid0 := hin_nod m d L hpre ![0] inb_S1776_S8_0 (fun _ => rfl)
  have hid1 := hin_nod m d L hpre ![8] inb_S1776_S8_8 (fun _ => rfl)
  -- group 0's eighty rows
  ihave Hs3' := (Entails.of_eq (show (((tthr d L).loc cc0_scratch3 ↦{fullShare} f3) : sProp 𝕄) = ((sRows0).view.loc (tthr d L) ↦{fullShare} f3) from rfl)) $$ Hs3
  sl_exec
  sl_unfold_run_names
  ihave Hfb0r := (gather_canon (F := F) (tthr d L) (SemLoc.dma cc0_scratch9.sem) (default : HIx 1) 327680 _ _ _ _ _ _ _ _ _ rfl) $$ [Hg0 Ht0 Hs3' Hi0]
  · isplitl [Hg0]; · iexact Hg0
    isplitl [Ht0]; · iexact Ht0
    isplitl [Hs3']; · iexact Hs3'
    iexact Hi0
  ihave Hfb0 := (Transfers.Flight_mono (countersEmb : UEmb Counters 𝕄) (tthr d L) (D' := bigD0 m d L (2 * 0 + 0)) ?hvHfb0) $$ Hfb0r
  case hvHfb0 =>
    unfold bigD0
    iintro ⟨Hr, Hi, Ht⟩
    isplitl [Hr]
    · iapply (Entails.of_eq (congrArg (fun f => ((sRows0).view.loc (tthr d L) ↦{fullShare} f : sProp 𝕄)) (funext fun x => bigGather_rows0 m d L hpre ![0] _ _ _ _ _ (2 * 0 + 0) (by omega) rfl _ x)))
      iexact Hr
    isplitl [Hi]; · iexact Hi
    iexact Ht
  -- group 0's own eight rows
  ihave Ht2 := held_out $$ Ht2h
  ihave Hd0 := held_out $$ Hd0h
  ihave Hs5' := (Entails.of_eq (show (((tthr d L).loc cc0_scratch5 ↦{fullShare} f5) : sProp 𝕄) = ((sSst0).view.loc (tthr d L) ↦{fullShare} f5) from rfl)) $$ Hs5
  sl_exec
  sl_unfold_run_names
  ihave Hfs0r := (gather_canon (F := F) (tthr d L) (SemLoc.dma cc0_scratch11.sem) (default : HIx 1) 32768 _ _ _ _ _ _ _ _ _ rfl) $$ [Hsg0 Ht2 Hs5' Hd0]
  · isplitl [Hsg0]; · iexact Hsg0
    isplitl [Ht2]; · iexact Ht2
    isplitl [Hs5']; · iexact Hs5'
    iexact Hd0
  ihave Hfs0 := (Transfers.Flight_mono (countersEmb : UEmb Counters 𝕄) (tthr d L) (D' := selfD0 m d L (0)) ?hvHfs0) $$ Hfs0r
  case hvHfs0 =>
    unfold selfD0
    iintro ⟨Hr, Hi, Ht⟩
    isplitl [Hr]
    · iapply (Entails.of_eq (congrArg (fun f => ((sSst0).view.loc (tthr d L) ↦{fullShare} f : sProp 𝕄)) (funext fun x => selfGather_sst0 m d L hpre ![0] _ _ _ _ _ (0) (by omega) rfl _ x)))
      iexact Hr
    isplitl [Hi]; · iexact Hi
    iexact Ht
  -- group 1's eighty rows
  ihave Ht1 := held_out $$ Ht1h
  ihave Hi1 := held_out $$ Hi1h
  ihave Hs4' := (Entails.of_eq (show (((tthr d L).loc cc0_scratch4 ↦{fullShare} f4) : sProp 𝕄) = ((sRows1).view.loc (tthr d L) ↦{fullShare} f4) from rfl)) $$ Hs4
  sl_exec
  sl_unfold_run_names
  ihave Hfb1r := (gather_canon (F := F) (tthr d L) (SemLoc.dma cc0_scratch10.sem) (default : HIx 1) 327680 _ _ _ _ _ _ _ _ _ rfl) $$ [Hg1 Ht1 Hs4' Hi1]
  · isplitl [Hg1]; · iexact Hg1
    isplitl [Ht1]; · iexact Ht1
    isplitl [Hs4']; · iexact Hs4'
    iexact Hi1
  ihave Hfb1 := (Transfers.Flight_mono (countersEmb : UEmb Counters 𝕄) (tthr d L) (D' := bigD1 m d L (2 * 0 + 1)) ?hvHfb1) $$ Hfb1r
  case hvHfb1 =>
    unfold bigD1
    iintro ⟨Hr, Hi, Ht⟩
    isplitl [Hr]
    · iapply (Entails.of_eq (congrArg (fun f => ((sRows1).view.loc (tthr d L) ↦{fullShare} f : sProp 𝕄)) (funext fun x => bigGather_rows1 m d L hpre ![80] _ _ _ _ _ (2 * 0 + 1) (by omega) rfl _ x)))
      iexact Hr
    isplitl [Hi]; · iexact Hi
    iexact Ht
  -- group 1's own eight rows
  ihave Ht3 := held_out $$ Ht3h
  ihave Hd1 := held_out $$ Hd1h
  ihave Hs6' := (Entails.of_eq (show (((tthr d L).loc cc0_scratch6 ↦{fullShare} f6) : sProp 𝕄) = ((sSst1).view.loc (tthr d L) ↦{fullShare} f6) from rfl)) $$ Hs6
  sl_exec
  sl_unfold_run_names
  ihave Hfs1r := (gather_canon (F := F) (tthr d L) (SemLoc.dma cc0_scratch12.sem) (default : HIx 1) 32768 _ _ _ _ _ _ _ _ _ rfl) $$ [Hsg1 Ht3 Hs6' Hd1]
  · isplitl [Hsg1]; · iexact Hsg1
    isplitl [Ht3]; · iexact Ht3
    isplitl [Hs6']; · iexact Hs6'
    iexact Hd1
  ihave Hfs1 := (Transfers.Flight_mono (countersEmb : UEmb Counters 𝕄) (tthr d L) (D' := selfD1 m d L (1)) ?hvHfs1) $$ Hfs1r
  case hvHfs1 =>
    unfold selfD1
    iintro ⟨Hr, Hi, Ht⟩
    isplitl [Hr]
    · iapply (Entails.of_eq (congrArg (fun f => ((sSst1).view.loc (tthr d L) ↦{fullShare} f : sProp 𝕄)) (funext fun x => selfGather_sst1 m d L hpre ![8] _ _ _ _ _ (1) (by omega) rfl _ x)))
      iexact Hr
    isplitl [Hi]; · iexact Hi
    iexact Ht
  -- the rows of the results, dealt to the groups
  ihave Hout := (out_split m d L) $$ [Hno Hso]
  · unfold outPts; isplitl [Hno]; · iexact Hno
    iexact Hso
  ihave Hs7' := (Entails.of_eq (show (((tthr d L).loc cc0_scratch7 ↦{fullShare} f7) : sProp 𝕄) = ((sNout0).view.loc (tthr d L) ↦{fullShare} f7) from rfl)) $$ Hs7
  ihave Hs8' := (Entails.of_eq (show (((tthr d L).loc cc0_scratch8 ↦{fullShare} f8) : sProp 𝕄) = ((sNout1).view.loc (tthr d L) ↦{fullShare} f8) from rfl)) $$ Hs8
  -- the loop over pairs of groups
  simp only [Prog.bind_assoc]
  sl_for (outerInv m d L O W) $$ [Hs2 Hout HO Hfb0 Hfs0 Hn0 Hss0 Hs7' Hfb1 Hfs1 Hn1 Hss1 Hs8']
  case region => intro k acc; exact trip d L O W hpre _ _ k acc
  · rw [outerInv_zero]
    isplitl [Hs2 Hout HO]
    · isplitr; · iexact Hmw
      isplitl [Hs2]; · iexact Hs2
      isplitr
      · unfold outDone; rw [show 2 * 0 - 2 = 0 from rfl, Finset.range_zero, bigSep_empty]; iempintro
      isplitl [Hout]; · iexact Hout
      iexists _; isplitr
      rotate_left
      · iexact HO
      · ipureintro; intro p hp
        rcases Finset.mem_insert.mp hp with rfl | hp
        · exact .inr rfl
        rcases Finset.mem_insert.mp hp with rfl | hp
        · exact .inr rfl
        rcases Finset.mem_insert.mp hp with rfl | hp
        · exact .inr rfl
        · exact .inl hp
    isplitl [Hfb0 Hfs0 Hn0 Hss0 Hs7']
    · isplitl [Hfb0]; · iexact Hfb0
      isplitl [Hfs0]; · iexact Hfs0
      isplitl [Hn0]; · iexact Hn0
      isplitl [Hss0]; · iexact Hss0
      iexists _; iexact Hs7'
    · isplitl [Hfb1]; · iexact Hfb1
      isplitl [Hfs1]; · iexact Hfs1
      isplitl [Hn1]; · iexact Hn1
      isplitl [Hss1]; · iexact Hss1
      iexists _; iexact Hs8'
  iintro %acc HI
  ihave HI' := (Entails.of_eq (outerInv_last m d L O W acc)) $$ [HI]
  · rw [← t1_trips L]; iexact HI
  icases HI' with ⟨⟨-, Hs2, Hdone, -, %W', %hW', HO⟩,
    ⟨⟨Hg0, ⟨%r0, Hr0⟩, Hi0, Ht0⟩, ⟨Hsg0, Hd0, Ht2⟩, ⟨HfN0, HfS0⟩⟩,
    ⟨⟨Hg1, ⟨%r1, Hr1⟩, Hi1, Ht1⟩, ⟨Hsg1, Hd1, Ht3⟩, ⟨HfN1, HfS1⟩⟩⟩
  -- the remainder loop runs no trip
  sl_for (fun (_ : ℕ) (_ : BitVec 32) => (iprop(emp) : sProp 𝕄)) $$ []
  case region => intro k; exact absurd (lt_of_lt_of_eq k.isLt (t4_trips L)) (Nat.not_lt_zero _)
  · iempintro
  iintro %acc' -
  -- the last two groups' out copies
  sl_respell []
  conv => { arg 2; pattern (Idealize.SL.Sem.wp _ _ _ _); arg 4; simp only [Prog.lift, Prog.bind_op, Prog.bind_ret, Prog.pure_eq_ret, Prog.bind_assoc] }
  iapply (Transfers.wp_waitLocalO (countersEmb : UEmb Counters 𝕄) 𝒱₀ (tthr d L) none (default : HIx 1) (N := 32768) rfl) $$ [HfN0 HO]
  · isplitl [HfN0]; · iexact HfN0
    isplitl [HO]; · iexact HO
    iapply (Transfers.MayWaits.elim (SemLoc.dma cc0_scratch13.sem)); iexact Hmw
  iintro ⟨HDn0, HfN0, HO⟩
  iapply (Transfers.wp_waitLocalO (countersEmb : UEmb Counters 𝕄) 𝒱₀ (tthr d L) none (default : HIx 1) (N := 32768) rfl) $$ [HfS0 HO]
  · isplitl [HfS0]; · iexact HfS0
    isplitl [HO]; · iexact HO
    iapply (Transfers.MayWaits.elim (SemLoc.dma cc0_scratch15.sem)); iexact Hmw
  iintro ⟨HDs0, HfS0, HO⟩
  iapply (Transfers.wp_waitLocalO (countersEmb : UEmb Counters 𝕄) 𝒱₀ (tthr d L) none (default : HIx 1) (N := 32768) rfl) $$ [HfN1 HO]
  · isplitl [HfN1]; · iexact HfN1
    isplitl [HO]; · iexact HO
    iapply (Transfers.MayWaits.elim (SemLoc.dma cc0_scratch14.sem)); iexact Hmw
  iintro ⟨HDn1, HfN1, HO⟩
  iapply (Transfers.wp_waitLocalO (countersEmb : UEmb Counters 𝕄) 𝒱₀ (tthr d L) none (default : HIx 1) (N := 32768) rfl) $$ [HfS1 HO]
  · isplitl [HfS1]; · iexact HfS1
    isplitl [HO]; · iexact HO
    iapply (Transfers.MayWaits.elim (SemLoc.dma cc0_scratch16.sem)); iexact Hmw
  iintro ⟨HDs1, HfS1, HO⟩
  sl_step
  unfold outND0 outSD0 outND1 outSD1
  icases HDs1 with ⟨Hso1, %fs1, Hsst1⟩
  icases HDn1 with ⟨Hno1, %fn1, Hnout1⟩
  icases HDs0 with ⟨Hso0, %fs0, Hsst0⟩
  icases HDn0 with ⟨Hno0, %fn0, Hnout0⟩
  have hk1 : 2 * trips L + 1 - 2 = 2 * trips L - 2 + 1 := by have := trips_pos L; omega
  have hk2 : 2 * trips L - 2 + 1 + 1 = ngc L := by have := trips_pos L; have := ngc_even L; omega
  ihave Hno1' := (Entails.of_eq (congrArg (fun g => (noutLoc d ↦[grpRows L g]{fullShare} neighVal m d : sProp 𝕄)) hk1)) $$ Hno1
  ihave Hso1' := (Entails.of_eq (congrArg (fun g => (soutLoc d ↦[grpRows L g]{fullShare} selfVal m d : sProp 𝕄)) hk1)) $$ Hso1
  ihave Hdn1 := (outDone_put m d L (2 * trips L - 2)).1 $$ [Hdone Hno0 Hso0]
  · isplitl [Hdone]; · iexact Hdone
    unfold outPts; isplitl [Hno0]; · iexact Hno0
    iexact Hso0
  ihave Hdn2 := (outDone_put m d L (2 * trips L - 2 + 1)).1 $$ [Hdn1 Hno1' Hso1']
  · isplitl [Hdn1]; · iexact Hdn1
    unfold outPts; isplitl [Hno1']; · iexact Hno1'
    iexact Hso1'
  ihave Hdn := (Entails.of_eq (congrArg (fun k => (outDone m d L k : sProp 𝕄)) hk2)) $$ Hdn2
  ihave Hrows := (out_join m d L) $$ Hdn
  ihave Hrows' := (Entails.of_eq (show (outPts d (tileRows L) (neighVal m d) (selfVal m d) : sProp 𝕄) = iprop((noutLoc d ↦[tileRowsN (L 0).val (L 1).val]{fullShare} neighVal m d) ∗ (soutLoc d ↦[tileRowsN (L 0).val (L 1).val]{fullShare} selfVal m d)) from rfl)) $$ Hrows
  icases Hrows' with ⟨Hno, Hso⟩
  ihave Htbl := (toks4 (F := F) L (ℓ := (tblV).view.loc (tthr d L)) Finset.univ (m (tblLoc d))).2 $$ [Ht0 Ht1 Ht2 Ht3]
  · isplitl [Ht0]; · iexact Ht0
    isplitl [Ht1]; · iexact Ht1
    isplitl [Ht2]; · iexact Ht2
    iexact Ht3
  ihave Hs0 := (halves_split (F := F) (ℓ := (sNidx).view.loc (tthr d L)) Finset.univ (tNidx m d L)).2 $$ [Hi0 Hi1]
  · isplitl [Hi0]; · iexact Hi0
    iexact Hi1
  ihave Hs1 := (halves_split (F := F) (ℓ := (sNodes).view.loc (tthr d L)) Finset.univ (tNodes m d L)).2 $$ [Hd0 Hd1]
  · isplitl [Hd0]; · iexact Hd0
    iexact Hd1
  -- the tile's arrays
  isplitl [Hnidx' Hnodes' Hw' Htbl Hno Hso]
  · isplitl [Hnidx' Hnodes' Hw' Htbl]
    · isplitl [Hnidx']; · iexact Hnidx'
      isplitl [Hnodes']; · iexact Hnodes'
      isplitl [Hw']; · iexact Hw'
      iexact Htbl
    · isplitl [Hno]; · iexact Hno
      iexact Hso
  -- its scratch buffers
  isplitl [Hs0 Hs1 Hs2 Hr0 Hr1 Hsst0 Hsst1 Hnout0 Hnout1 Hbufs]
  · isplitr [Hbufs]
    · isplitl [Hs0]; · iexists _; iexact Hs0
      isplitl [Hs1]; · iexists _; iexact Hs1
      isplitl [Hs2]; · iexists _; iexact Hs2
      isplitl [Hr0]; · iexists _; iexact Hr0
      isplitl [Hr1]; · iexists _; iexact Hr1
      isplitl [Hsst0]; · iexists _; iexact Hsst0
      isplitl [Hsst1]; · iexists _; iexact Hsst1
      isplitl [Hnout0]; · iexists _; iexact Hnout0
      iexists _; iexact Hnout1
    · iexact Hbufs
  -- its semaphores
  isplitl [Hc0 Hc1 Hc2 Hg0 Hg1 Hsg0 Hsg1 HfN0 HfN1 HfS0 HfS1 Hsems]
  · isplitr [Hsems]
    · isplitl [Hc0]; · iexact Hc0
      isplitl [Hc1]; · iexact Hc1
      isplitl [Hc2]; · iexact Hc2
      isplitl [Hg0]; · iexact Hg0
      isplitl [Hg1]; · iexact Hg1
      isplitl [Hsg0]; · iexact Hsg0
      isplitl [Hsg1]; · iexact Hsg1
      isplitl [HfN0]; · iexact HfN0
      isplitl [HfN1]; · iexact HfN1
      isplitl [HfS0]; · iexact HfS0
      iexact HfS1
    · iexact Hsems
  -- what it owes
  iexists _; isplitr
  rotate_left
  · iexact HO
  · ipureintro; intro p hp
    rcases Finset.mem_insert.mp hp with rfl | hp
    · exact .inr rfl
    rcases Finset.mem_insert.mp hp with rfl | hp
    · exact .inr rfl
    rcases Finset.mem_insert.mp hp with rfl | hp
    · exact .inr rfl
    rcases Finset.mem_insert.mp hp with rfl | hp
    · exact .inr rfl
    · exact hW' p hp

end Cert.Proof.K

end
-- ==== Proof.TilePay.lean ====
/-
  The values one trip of the gather-and-reduce program's inner loop stores, read at a lane.

  For one batch row the program holds ten 16-lane vectors w0 … w9 (each the row's weight j in every lane) and, for
  each of the eight blocks of 16 columns, the ten 16-lane slices r0 … r9 of the ten gathered table rows.  It forms
      inv = 1 / (((w0 + w1) + w2) + … + w9)
  once, and for each column block stores
      (((w0·r0 + w1·r1) + w2·r2) + … + w9·r9) · inv.
  The printed program splits this computation into many small payload functions whose results are carried from one
  to the next; composed as the loop body threads them, each stored vector, read at a lane l, is rowVal of the ten
  weights and the ten row slices at that lane.  Every operation involved acts lane by lane, so each statement holds
  by unfolding the definitions.
-/
import proofs.«208500_g61899068670276_cont_9to1_m_775_47_alg».proof.Proof.KSetup

noncomputable section

namespace Cert.Proof.K

open Cert.KernelIdeal Cert.KernelIdeal.Gen
open Idealize.ShloMosaic

variable {F : FTy → Type} [FloatOps F]

/-- The value one row leaves in one column: the weighted sum of the ten row entries, formed from the left, times the
    reciprocal of the weights' sum, formed from the left. -/
def rowVal (w r : Fin 10 → F .f32) : F .f32 :=
  FloatOps.mulf (sum10 fun j => FloatOps.mulf (w j) (r j)) (FloatOps.divf (Scalar.ofBits .f32 0x3F800000#32) (sum10 w))

/-! ## The inner trip of loop k0_t2 (payloads k0_pay1 … k0_pay23 and k0_pay47) -/

/-- Column block 0 (lanes 0 … 15) of the t2 copy of the inner trip: the stored vector at lane l. -/
theorem t2_store0_fam (w : Fin 10 → Vec F S16 .f32) (r : Fin 10 → Vec F S1x16 .f32) (l : S16.Idx) :
    (k0_pay5 (w 7) (w 8) (w 9) (k0_pay2 (w 5) (w 6) (w 7) (w 8) (w 9) (k0_pay1 (w 0) (w 1) (w 2) (w 3) (w 4))) (k0_pay3 (w 0) (w 1) (w 2) (w 3) (w 4) (w 5) (r 0) (r 1) (r 2) (r 3) (r 4) (r 5)) (k0_pay4 (w 6) (r 6)) (r 7) (r 8) (r 9)) l
      = rowVal (fun j => w j l) (fun j => shapeCast S16 (r j) shapeCasts_S1x16_S16 l) := rfl

/-- Column block 1 (lanes 16 … 31) of the t2 copy of the inner trip: the stored vector at lane l. -/
theorem t2_store1_fam (w : Fin 10 → Vec F S16 .f32) (r : Fin 10 → Vec F S1x16 .f32) (l : S16.Idx) :
    (k0_pay7 (w 4) (w 5) (w 6) (w 7) (w 8) (w 9) (k0_pay2 (w 5) (w 6) (w 7) (w 8) (w 9) (k0_pay1 (w 0) (w 1) (w 2) (w 3) (w 4))) (k0_pay6 (w 0) (w 1) (w 2) (w 3) (r 0) (r 1) (r 2) (r 3)) (r 4) (r 5) (r 6) (r 7) (r 8) (r 9)) l
      = rowVal (fun j => w j l) (fun j => shapeCast S16 (r j) shapeCasts_S1x16_S16 l) := rfl

/-- Column block 2 (lanes 32 … 47) of the t2 copy of the inner trip: the stored vector at lane l. -/
theorem t2_store2_fam (w : Fin 10 → Vec F S16 .f32) (r : Fin 10 → Vec F S1x16 .f32) (l : S16.Idx) :
    (k0_pay10 (w 8) (w 9) (k0_pay2 (w 5) (w 6) (w 7) (w 8) (w 9) (k0_pay1 (w 0) (w 1) (w 2) (w 3) (w 4))) (k0_pay9 (w 1) (w 2) (w 3) (w 4) (w 5) (w 6) (w 7) (k0_pay8 (w 0) (r 0)) (r 1) (r 2) (r 3) (r 4) (r 5) (r 6) (r 7)) (r 8) (r 9)) l
      = rowVal (fun j => w j l) (fun j => shapeCast S16 (r j) shapeCasts_S1x16_S16 l) := rfl

/-- Column block 3 (lanes 48 … 63) of the t2 copy of the inner trip: the stored vector at lane l. -/
theorem t2_store3_fam (w : Fin 10 → Vec F S16 .f32) (r : Fin 10 → Vec F S1x16 .f32) (l : S16.Idx) :
    (k0_pay13 (w 5) (w 6) (w 7) (w 8) (w 9) (k0_pay2 (w 5) (w 6) (w 7) (w 8) (w 9) (k0_pay1 (w 0) (w 1) (w 2) (w 3) (w 4))) (k0_pay11 (w 0) (w 1) (w 2) (w 3) (w 4) (r 0) (r 1) (r 2) (r 3) (r 4)) (k0_pay12 (r 5)) (r 6) (r 7) (r 8) (r 9)) l
      = rowVal (fun j => w j l) (fun j => shapeCast S16 (r j) shapeCasts_S1x16_S16 l) := rfl

/-- Column block 4 (lanes 64 … 79) of the t2 copy of the inner trip: the stored vector at lane l. -/
theorem t2_store4_fam (w : Fin 10 → Vec F S16 .f32) (r : Fin 10 → Vec F S1x16 .f32) (l : S16.Idx) :
    (k0_pay16 (w 3) (w 4) (w 5) (w 6) (w 7) (w 8) (w 9) (k0_pay2 (w 5) (w 6) (w 7) (w 8) (w 9) (k0_pay1 (w 0) (w 1) (w 2) (w 3) (w 4))) (k0_pay14 (w 0) (w 1) (r 0) (r 1)) (k0_pay15 (w 2) (r 2)) (r 3) (r 4) (r 5) (r 6) (r 7) (r 8) (r 9)) l
      = rowVal (fun j => w j l) (fun j => shapeCast S16 (r j) shapeCasts_S1x16_S16 l) := rfl

/-- Column block 5 (lanes 80 … 95) of the t2 copy of the inner trip: the stored vector at lane l. -/
theorem t2_store5_fam (w : Fin 10 → Vec F S16 .f32) (r : Fin 10 → Vec F S1x16 .f32) (l : S16.Idx) :
    (k0_pay18 (w 7) (w 8) (w 9) (k0_pay2 (w 5) (w 6) (w 7) (w 8) (w 9) (k0_pay1 (w 0) (w 1) (w 2) (w 3) (w 4))) (k0_pay17 (w 0) (w 1) (w 2) (w 3) (w 4) (w 5) (w 6) (r 0) (r 1) (r 2) (r 3) (r 4) (r 5) (r 6)) (r 7) (r 8) (r 9)) l
      = rowVal (fun j => w j l) (fun j => shapeCast S16 (r j) shapeCasts_S1x16_S16 l) := rfl

/-- Column block 6 (lanes 96 … 111) of the t2 copy of the inner trip: the stored vector at lane l. -/
theorem t2_store6_fam (w : Fin 10 → Vec F S16 .f32) (r : Fin 10 → Vec F S1x16 .f32) (l : S16.Idx) :
    (k0_pay20 (w 4) (w 5) (w 6) (w 7) (w 8) (w 9) (k0_pay2 (w 5) (w 6) (w 7) (w 8) (w 9) (k0_pay1 (w 0) (w 1) (w 2) (w 3) (w 4))) (k0_pay19 (w 0) (w 1) (w 2) (w 3) (r 0) (r 1) (r 2) (r 3)) (r 4) (r 5) (r 6) (r 7) (r 8) (r 9)) l
      = rowVal (fun j => w j l) (fun j => shapeCast S16 (r j) shapeCasts_S1x16_S16 l) := rfl

/-- Column block 7 (lanes 112 … 127) of the t2 copy of the inner trip: the stored vector at lane l. -/
theorem t2_store7_fam (w : Fin 10 → Vec F S16 .f32) (r : Fin 10 → Vec F S1x16 .f32) (l : S16.Idx) :
    (k0_pay47 (w 9) (k0_pay2 (w 5) (w 6) (w 7) (w 8) (w 9) (k0_pay1 (w 0) (w 1) (w 2) (w 3) (w 4))) (k0_pay23 (w 1) (w 2) (w 3) (w 4) (w 5) (w 6) (w 7) (w 8) (k0_pay21 (w 0) (r 0)) (k0_pay22 (r 1)) (r 2) (r 3) (r 4) (r 5) (r 6) (r 7) (r 8)) (r 9)) l
      = rowVal (fun j => w j l) (fun j => shapeCast S16 (r j) shapeCasts_S1x16_S16 l) := rfl

/-- Column block 0 (lanes 0 … 15) of the t2 copy of the inner trip: the stored vector at lane l. -/
theorem t2_store0 (w0 w1 w2 w3 w4 w5 w6 w7 w8 w9 : Vec F S16 .f32) (r0 r1 r2 r3 r4 r5 r6 r7 r8 r9 : Vec F S1x16 .f32) (l : S16.Idx) :
    (k0_pay5 w7 w8 w9 (k0_pay2 w5 w6 w7 w8 w9 (k0_pay1 w0 w1 w2 w3 w4)) (k0_pay3 w0 w1 w2 w3 w4 w5 r0 r1 r2 r3 r4 r5) (k0_pay4 w6 r6) r7 r8 r9) l
      = rowVal ![w0 l, w1 l, w2 l, w3 l, w4 l, w5 l, w6 l, w7 l, w8 l, w9 l]
        ![shapeCast S16 r0 shapeCasts_S1x16_S16 l, shapeCast S16 r1 shapeCasts_S1x16_S16 l, shapeCast S16 r2 shapeCasts_S1x16_S16 l,
          shapeCast S16 r3 shapeCasts_S1x16_S16 l, shapeCast S16 r4 shapeCasts_S1x16_S16 l, shapeCast S16 r5 shapeCasts_S1x16_S16 l,
          shapeCast S16 r6 shapeCasts_S1x16_S16 l, shapeCast S16 r7 shapeCasts_S1x16_S16 l, shapeCast S16 r8 shapeCasts_S1x16_S16 l,
          shapeCast S16 r9 shapeCasts_S1x16_S16 l] := rfl

/-- Column block 1 (lanes 16 … 31) of the t2 copy of the inner trip: the stored vector at lane l. -/
theorem t2_store1 (w0 w1 w2 w3 w4 w5 w6 w7 w8 w9 : Vec F S16 .f32) (r0 r1 r2 r3 r4 r5 r6 r7 r8 r9 : Vec F S1x16 .f32) (l : S16.Idx) :
    (k0_pay7 w4 w5 w6 w7 w8 w9 (k0_pay2 w5 w6 w7 w8 w9 (k0_pay1 w0 w1 w2 w3 w4)) (k0_pay6 w0 w1 w2 w3 r0 r1 r2 r3) r4 r5 r6 r7 r8 r9) l
      = rowVal ![w0 l, w1 l, w2 l, w3 l, w4 l, w5 l, w6 l, w7 l, w8 l, w9 l]
        ![shapeCast S16 r0 shapeCasts_S1x16_S16 l, shapeCast S16 r1 shapeCasts_S1x16_S16 l, shapeCast S16 r2 shapeCasts_S1x16_S16 l,
          shapeCast S16 r3 shapeCasts_S1x16_S16 l, shapeCast S16 r4 shapeCasts_S1x16_S16 l, shapeCast S16 r5 shapeCasts_S1x16_S16 l,
          shapeCast S16 r6 shapeCasts_S1x16_S16 l, shapeCast S16 r7 shapeCasts_S1x16_S16 l, shapeCast S16 r8 shapeCasts_S1x16_S16 l,
          shapeCast S16 r9 shapeCasts_S1x16_S16 l] := rfl

/-- Column block 2 (lanes 32 … 47) of the t2 copy of the inner trip: the stored vector at lane l. -/
theorem t2_store2 (w0 w1 w2 w3 w4 w5 w6 w7 w8 w9 : Vec F S16 .f32) (r0 r1 r2 r3 r4 r5 r6 r7 r8 r9 : Vec F S1x16 .f32) (l : S16.Idx) :
    (k0_pay10 w8 w9 (k0_pay2 w5 w6 w7 w8 w9 (k0_pay1 w0 w1 w2 w3 w4)) (k0_pay9 w1 w2 w3 w4 w5 w6 w7 (k0_pay8 w0 r0) r1 r2 r3 r4 r5 r6 r7) r8 r9) l
      = rowVal ![w0 l, w1 l, w2 l, w3 l, w4 l, w5 l, w6 l, w7 l, w8 l, w9 l]
        ![shapeCast S16 r0 shapeCasts_S1x16_S16 l, shapeCast S16 r1 shapeCasts_S1x16_S16 l, shapeCast S16 r2 shapeCasts_S1x16_S16 l,
          shapeCast S16 r3 shapeCasts_S1x16_S16 l, shapeCast S16 r4 shapeCasts_S1x16_S16 l, shapeCast S16 r5 shapeCasts_S1x16_S16 l,
          shapeCast S16 r6 shapeCasts_S1x16_S16 l, shapeCast S16 r7 shapeCasts_S1x16_S16 l, shapeCast S16 r8 shapeCasts_S1x16_S16 l,
          shapeCast S16 r9 shapeCasts_S1x16_S16 l] := rfl

/-- Column block 3 (lanes 48 … 63) of the t2 copy of the inner trip: the stored vector at lane l. -/
theorem t2_store3 (w0 w1 w2 w3 w4 w5 w6 w7 w8 w9 : Vec F S16 .f32) (r0 r1 r2 r3 r4 r5 r6 r7 r8 r9 : Vec F S1x16 .f32) (l : S16.Idx) :
    (k0_pay13 w5 w6 w7 w8 w9 (k0_pay2 w5 w6 w7 w8 w9 (k0_pay1 w0 w1 w2 w3 w4)) (k0_pay11 w0 w1 w2 w3 w4 r0 r1 r2 r3 r4) (k0_pay12 r5) r6 r7 r8 r9) l
      = rowVal ![w0 l, w1 l, w2 l, w3 l, w4 l, w5 l, w6 l, w7 l, w8 l, w9 l]
        ![shapeCast S16 r0 shapeCasts_S1x16_S16 l, shapeCast S16 r1 shapeCasts_S1x16_S16 l, shapeCast S16 r2 shapeCasts_S1x16_S16 l,
          shapeCast S16 r3 shapeCasts_S1x16_S16 l, shapeCast S16 r4 shapeCasts_S1x16_S16 l, shapeCast S16 r5 shapeCasts_S1x16_S16 l,
          shapeCast S16 r6 shapeCasts_S1x16_S16 l, shapeCast S16 r7 shapeCasts_S1x16_S16 l, shapeCast S16 r8 shapeCasts_S1x16_S16 l,
          shapeCast S16 r9 shapeCasts_S1x16_S16 l] := rfl

/-- Column block 4 (lanes 64 … 79) of the t2 copy of the inner trip: the stored vector at lane l. -/
theorem t2_store4 (w0 w1 w2 w3 w4 w5 w6 w7 w8 w9 : Vec F S16 .f32) (r0 r1 r2 r3 r4 r5 r6 r7 r8 r9 : Vec F S1x16 .f32) (l : S16.Idx) :
    (k0_pay16 w3 w4 w5 w6 w7 w8 w9 (k0_pay2 w5 w6 w7 w8 w9 (k0_pay1 w0 w1 w2 w3 w4)) (k0_pay14 w0 w1 r0 r1) (k0_pay15 w2 r2) r3 r4 r5 r6 r7 r8 r9) l
      = rowVal ![w0 l, w1 l, w2 l, w3 l, w4 l, w5 l, w6 l, w7 l, w8 l, w9 l]
        ![shapeCast S16 r0 shapeCasts_S1x16_S16 l, shapeCast S16 r1 shapeCasts_S1x16_S16 l, shapeCast S16 r2 shapeCasts_S1x16_S16 l,
          shapeCast S16 r3 shapeCasts_S1x16_S16 l, shapeCast S16 r4 shapeCasts_S1x16_S16 l, shapeCast S16 r5 shapeCasts_S1x16_S16 l,
          shapeCast S16 r6 shapeCasts_S1x16_S16 l, shapeCast S16 r7 shapeCasts_S1x16_S16 l, shapeCast S16 r8 shapeCasts_S1x16_S16 l,
          shapeCast S16 r9 shapeCasts_S1x16_S16 l] := rfl

/-- Column block 5 (lanes 80 … 95) of the t2 copy of the inner trip: the stored vector at lane l. -/
theorem t2_store5 (w0 w1 w2 w3 w4 w5 w6 w7 w8 w9 : Vec F S16 .f32) (r0 r1 r2 r3 r4 r5 r6 r7 r8 r9 : Vec F S1x16 .f32) (l : S16.Idx) :
    (k0_pay18 w7 w8 w9 (k0_pay2 w5 w6 w7 w8 w9 (k0_pay1 w0 w1 w2 w3 w4)) (k0_pay17 w0 w1 w2 w3 w4 w5 w6 r0 r1 r2 r3 r4 r5 r6) r7 r8 r9) l
      = rowVal ![w0 l, w1 l, w2 l, w3 l, w4 l, w5 l, w6 l, w7 l, w8 l, w9 l]
        ![shapeCast S16 r0 shapeCasts_S1x16_S16 l, shapeCast S16 r1 shapeCasts_S1x16_S16 l, shapeCast S16 r2 shapeCasts_S1x16_S16 l,
          shapeCast S16 r3 shapeCasts_S1x16_S16 l, shapeCast S16 r4 shapeCasts_S1x16_S16 l, shapeCast S16 r5 shapeCasts_S1x16_S16 l,
          shapeCast S16 r6 shapeCasts_S1x16_S16 l, shapeCast S16 r7 shapeCasts_S1x16_S16 l, shapeCast S16 r8 shapeCasts_S1x16_S16 l,
          shapeCast S16 r9 shapeCasts_S1x16_S16 l] := rfl

/-- Column block 6 (lanes 96 … 111) of the t2 copy of the inner trip: the stored vector at lane l. -/
theorem t2_store6 (w0 w1 w2 w3 w4 w5 w6 w7 w8 w9 : Vec F S16 .f32) (r0 r1 r2 r3 r4 r5 r6 r7 r8 r9 : Vec F S1x16 .f32) (l : S16.Idx) :
    (k0_pay20 w4 w5 w6 w7 w8 w9 (k0_pay2 w5 w6 w7 w8 w9 (k0_pay1 w0 w1 w2 w3 w4)) (k0_pay19 w0 w1 w2 w3 r0 r1 r2 r3) r4 r5 r6 r7 r8 r9) l
      = rowVal ![w0 l, w1 l, w2 l, w3 l, w4 l, w5 l, w6 l, w7 l, w8 l, w9 l]
        ![shapeCast S16 r0 shapeCasts_S1x16_S16 l, shapeCast S16 r1 shapeCasts_S1x16_S16 l, shapeCast S16 r2 shapeCasts_S1x16_S16 l,
          shapeCast S16 r3 shapeCasts_S1x16_S16 l, shapeCast S16 r4 shapeCasts_S1x16_S16 l, shapeCast S16 r5 shapeCasts_S1x16_S16 l,
          shapeCast S16 r6 shapeCasts_S1x16_S16 l, shapeCast S16 r7 shapeCasts_S1x16_S16 l, shapeCast S16 r8 shapeCasts_S1x16_S16 l,
          shapeCast S16 r9 shapeCasts_S1x16_S16 l] := rfl

/-- Column block 7 (lanes 112 … 127) of the t2 copy of the inner trip: the stored vector at lane l. -/
theorem t2_store7 (w0 w1 w2 w3 w4 w5 w6 w7 w8 w9 : Vec F S16 .f32) (r0 r1 r2 r3 r4 r5 r6 r7 r8 r9 : Vec F S1x16 .f32) (l : S16.Idx) :
    (k0_pay47 w9 (k0_pay2 w5 w6 w7 w8 w9 (k0_pay1 w0 w1 w2 w3 w4)) (k0_pay23 w1 w2 w3 w4 w5 w6 w7 w8 (k0_pay21 w0 r0) (k0_pay22 r1) r2 r3 r4 r5 r6 r7 r8) r9) l
      = rowVal ![w0 l, w1 l, w2 l, w3 l, w4 l, w5 l, w6 l, w7 l, w8 l, w9 l]
        ![shapeCast S16 r0 shapeCasts_S1x16_S16 l, shapeCast S16 r1 shapeCasts_S1x16_S16 l, shapeCast S16 r2 shapeCasts_S1x16_S16 l,
          shapeCast S16 r3 shapeCasts_S1x16_S16 l, shapeCast S16 r4 shapeCasts_S1x16_S16 l, shapeCast S16 r5 shapeCasts_S1x16_S16 l,
          shapeCast S16 r6 shapeCasts_S1x16_S16 l, shapeCast S16 r7 shapeCasts_S1x16_S16 l, shapeCast S16 r8 shapeCasts_S1x16_S16 l,
          shapeCast S16 r9 shapeCasts_S1x16_S16 l] := rfl

/-! ## The inner trip of loop k0_t3 (payloads k0_pay24 … k0_pay46 and k0_pay95) -/

/-- Column block 0 (lanes 0 … 15) of the t3 copy of the inner trip: the stored vector at lane l. -/
theorem t3_store0_fam (w : Fin 10 → Vec F S16 .f32) (r : Fin 10 → Vec F S1x16 .f32) (l : S16.Idx) :
    (k0_pay28 (w 7) (w 8) (w 9) (k0_pay25 (w 5) (w 6) (w 7) (w 8) (w 9) (k0_pay24 (w 0) (w 1) (w 2) (w 3) (w 4))) (k0_pay26 (w 0) (w 1) (w 2) (w 3) (w 4) (w 5) (r 0) (r 1) (r 2) (r 3) (r 4) (r 5)) (k0_pay27 (w 6) (r 6)) (r 7) (r 8) (r 9)) l
      = rowVal (fun j => w j l) (fun j => shapeCast S16 (r j) shapeCasts_S1x16_S16 l) := rfl

/-- Column block 1 (lanes 16 … 31) of the t3 copy of the inner trip: the stored vector at lane l. -/
theorem t3_store1_fam (w : Fin 10 → Vec F S16 .f32) (r : Fin 10 → Vec F S1x16 .f32) (l : S16.Idx) :
    (k0_pay30 (w 4) (w 5) (w 6) (w 7) (w 8) (w 9) (k0_pay25 (w 5) (w 6) (w 7) (w 8) (w 9) (k0_pay24 (w 0) (w 1) (w 2) (w 3) (w 4))) (k0_pay29 (w 0) (w 1) (w 2) (w 3) (r 0) (r 1) (r 2) (r 3)) (r 4) (r 5) (r 6) (r 7) (r 8) (r 9)) l
      = rowVal (fun j => w j l) (fun j => shapeCast S16 (r j) shapeCasts_S1x16_S16 l) := rfl

/-- Column block 2 (lanes 32 … 47) of the t3 copy of the inner trip: the stored vector at lane l. -/
theorem t3_store2_fam (w : Fin 10 → Vec F S16 .f32) (r : Fin 10 → Vec F S1x16 .f32) (l : S16.Idx) :
    (k0_pay33 (w 8) (w 9) (k0_pay25 (w 5) (w 6) (w 7) (w 8) (w 9) (k0_pay24 (w 0) (w 1) (w 2) (w 3) (w 4))) (k0_pay32 (w 1) (w 2) (w 3) (w 4) (w 5) (w 6) (w 7) (k0_pay31 (w 0) (r 0)) (r 1) (r 2) (r 3) (r 4) (r 5) (r 6) (r 7)) (r 8) (r 9)) l
      = rowVal (fun j => w j l) (fun j => shapeCast S16 (r j) shapeCasts_S1x16_S16 l) := rfl

/-- Column block 3 (lanes 48 … 63) of the t3 copy of the inner trip: the stored vector at lane l. -/
theorem t3_store3_fam (w : Fin 10 → Vec F S16 .f32) (r : Fin 10 → Vec F S1x16 .f32) (l : S16.Idx) :
    (k0_pay36 (w 5) (w 6) (w 7) (w 8) (w 9) (k0_pay25 (w 5) (w 6) (w 7) (w 8) (w 9) (k0_pay24 (w 0) (w 1) (w 2) (w 3) (w 4))) (k0_pay34 (w 0) (w 1) (w 2) (w 3) (w 4) (r 0) (r 1) (r 2) (r 3) (r 4)) (k0_pay35 (r 5)) (r 6) (r 7) (r 8) (r 9)) l
      = rowVal (fun j => w j l) (fun j => shapeCast S16 (r j) shapeCasts_S1x16_S16 l) := rfl

/-- Column block 4 (lanes 64 … 79) of the t3 copy of the inner trip: the stored vector at lane l. -/
theorem t3_store4_fam (w : Fin 10 → Vec F S16 .f32) (r : Fin 10 → Vec F S1x16 .f32) (l : S16.Idx) :
    (k0_pay39 (w 3) (w 4) (w 5) (w 6) (w 7) (w 8) (w 9) (k0_pay25 (w 5) (w 6) (w 7) (w 8) (w 9) (k0_pay24 (w 0) (w 1) (w 2) (w 3) (w 4))) (k0_pay37 (w 0) (w 1) (r 0) (r 1)) (k0_pay38 (w 2) (r 2)) (r 3) (r 4) (r 5) (r 6) (r 7) (r 8) (r 9)) l
      = rowVal (fun j => w j l) (fun j => shapeCast S16 (r j) shapeCasts_S1x16_S16 l) := rfl

/-- Column block 5 (lanes 80 … 95) of the t3 copy of the inner trip: the stored vector at lane l. -/
theorem t3_store5_fam (w : Fin 10 → Vec F S16 .f32) (r : Fin 10 → Vec F S1x16 .f32) (l : S16.Idx) :
    (k0_pay41 (w 7) (w 8) (w 9) (k0_pay25 (w 5) (w 6) (w 7) (w 8) (w 9) (k0_pay24 (w 0) (w 1) (w 2) (w 3) (w 4))) (k0_pay40 (w 0) (w 1) (w 2) (w 3) (w 4) (w 5) (w 6) (r 0) (r 1) (r 2) (r 3) (r 4) (r 5) (r 6)) (r 7) (r 8) (r 9)) l
      = rowVal (fun j => w j l) (fun j => shapeCast S16 (r j) shapeCasts_S1x16_S16 l) := rfl

/-- Column block 6 (lanes 96 … 111) of the t3 copy of the inner trip: the stored vector at lane l. -/
theorem t3_store6_fam (w : Fin 10 → Vec F S16 .f32) (r : Fin 10 → Vec F S1x16 .f32) (l : S16.Idx) :
    (k0_pay43 (w 4) (w 5) (w 6) (w 7) (w 8) (w 9) (k0_pay25 (w 5) (w 6) (w 7) (w 8) (w 9) (k0_pay24 (w 0) (w 1) (w 2) (w 3) (w 4))) (k0_pay42 (w 0) (w 1) (w 2) (w 3) (r 0) (r 1) (r 2) (r 3)) (r 4) (r 5) (r 6) (r 7) (r 8) (r 9)) l
      = rowVal (fun j => w j l) (fun j => shapeCast S16 (r j) shapeCasts_S1x16_S16 l) := rfl

/-- Column block 7 (lanes 112 … 127) of the t3 copy of the inner trip: the stored vector at lane l. -/
theorem t3_store7_fam (w : Fin 10 → Vec F S16 .f32) (r : Fin 10 → Vec F S1x16 .f32) (l : S16.Idx) :
    (k0_pay95 (w 9) (k0_pay25 (w 5) (w 6) (w 7) (w 8) (w 9) (k0_pay24 (w 0) (w 1) (w 2) (w 3) (w 4))) (k0_pay46 (w 1) (w 2) (w 3) (w 4) (w 5) (w 6) (w 7) (w 8) (k0_pay44 (w 0) (r 0)) (k0_pay45 (r 1)) (r 2) (r 3) (r 4) (r 5) (r 6) (r 7) (r 8)) (r 9)) l
      = rowVal (fun j => w j l) (fun j => shapeCast S16 (r j) shapeCasts_S1x16_S16 l) := rfl

/-- Column block 0 (lanes 0 … 15) of the t3 copy of the inner trip: the stored vector at lane l. -/
theorem t3_store0 (w0 w1 w2 w3 w4 w5 w6 w7 w8 w9 : Vec F S16 .f32) (r0 r1 r2 r3 r4 r5 r6 r7 r8 r9 : Vec F S1x16 .f32) (l : S16.Idx) :
    (k0_pay28 w7 w8 w9 (k0_pay25 w5 w6 w7 w8 w9 (k0_pay24 w0 w1 w2 w3 w4)) (k0_pay26 w0 w1 w2 w3 w4 w5 r0 r1 r2 r3 r4 r5) (k0_pay27 w6 r6) r7 r8 r9) l
      = rowVal ![w0 l, w1 l, w2 l, w3 l, w4 l, w5 l, w6 l, w7 l, w8 l, w9 l]
        ![shapeCast S16 r0 shapeCasts_S1x16_S16 l, shapeCast S16 r1 shapeCasts_S1x16_S16 l, shapeCast S16 r2 shapeCasts_S1x16_S16 l,
          shapeCast S16 r3 shapeCasts_S1x16_S16 l, shapeCast S16 r4 shapeCasts_S1x16_S16 l, shapeCast S16 r5 shapeCasts_S1x16_S16 l,
          shapeCast S16 r6 shapeCasts_S1x16_S16 l, shapeCast S16 r7 shapeCasts_S1x16_S16 l, shapeCast S16 r8 shapeCasts_S1x16_S16 l,
          shapeCast S16 r9 shapeCasts_S1x16_S16 l] := rfl

/-- Column block 1 (lanes 16 … 31) of the t3 copy of the inner trip: the stored vector at lane l. -/
theorem t3_store1 (w0 w1 w2 w3 w4 w5 w6 w7 w8 w9 : Vec F S16 .f32) (r0 r1 r2 r3 r4 r5 r6 r7 r8 r9 : Vec F S1x16 .f32) (l : S16.Idx) :
    (k0_pay30 w4 w5 w6 w7 w8 w9 (k0_pay25 w5 w6 w7 w8 w9 (k0_pay24 w0 w1 w2 w3 w4)) (k0_pay29 w0 w1 w2 w3 r0 r1 r2 r3) r4 r5 r6 r7 r8 r9) l
      = rowVal ![w0 l, w1 l, w2 l, w3 l, w4 l, w5 l, w6 l, w7 l, w8 l, w9 l]
        ![shapeCast S16 r0 shapeCasts_S1x16_S16 l, shapeCast S16 r1 shapeCasts_S1x16_S16 l, shapeCast S16 r2 shapeCasts_S1x16_S16 l,
          shapeCast S16 r3 shapeCasts_S1x16_S16 l, shapeCast S16 r4 shapeCasts_S1x16_S16 l, shapeCast S16 r5 shapeCasts_S1x16_S16 l,
          shapeCast S16 r6 shapeCasts_S1x16_S16 l, shapeCast S16 r7 shapeCasts_S1x16_S16 l, shapeCast S16 r8 shapeCasts_S1x16_S16 l,
          shapeCast S16 r9 shapeCasts_S1x16_S16 l] := rfl

/-- Column block 2 (lanes 32 … 47) of the t3 copy of the inner trip: the stored vector at lane l. -/
theorem t3_store2 (w0 w1 w2 w3 w4 w5 w6 w7 w8 w9 : Vec F S16 .f32) (r0 r1 r2 r3 r4 r5 r6 r7 r8 r9 : Vec F S1x16 .f32) (l : S16.Idx) :
    (k0_pay33 w8 w9 (k0_pay25 w5 w6 w7 w8 w9 (k0_pay24 w0 w1 w2 w3 w4)) (k0_pay32 w1 w2 w3 w4 w5 w6 w7 (k0_pay31 w0 r0) r1 r2 r3 r4 r5 r6 r7) r8 r9) l
      = rowVal ![w0 l, w1 l, w2 l, w3 l, w4 l, w5 l, w6 l, w7 l, w8 l, w9 l]
        ![shapeCast S16 r0 shapeCasts_S1x16_S16 l, shapeCast S16 r1 shapeCasts_S1x16_S16 l, shapeCast S16 r2 shapeCasts_S1x16_S16 l,
          shapeCast S16 r3 shapeCasts_S1x16_S16 l, shapeCast S16 r4 shapeCasts_S1x16_S16 l, shapeCast S16 r5 shapeCasts_S1x16_S16 l,
          shapeCast S16 r6 shapeCasts_S1x16_S16 l, shapeCast S16 r7 shapeCasts_S1x16_S16 l, shapeCast S16 r8 shapeCasts_S1x16_S16 l,
          shapeCast S16 r9 shapeCasts_S1x16_S16 l] := rfl

/-- Column block 3 (lanes 48 … 63) of the t3 copy of the inner trip: the stored vector at lane l. -/
theorem t3_store3 (w0 w1 w2 w3 w4 w5 w6 w7 w8 w9 : Vec F S16 .f32) (r0 r1 r2 r3 r4 r5 r6 r7 r8 r9 : Vec F S1x16 .f32) (l : S16.Idx) :
    (k0_pay36 w5 w6 w7 w8 w9 (k0_pay25 w5 w6 w7 w8 w9 (k0_pay24 w0 w1 w2 w3 w4)) (k0_pay34 w0 w1 w2 w3 w4 r0 r1 r2 r3 r4) (k0_pay35 r5) r6 r7 r8 r9) l
      = rowVal ![w0 l, w1 l, w2 l, w3 l, w4 l, w5 l, w6 l, w7 l, w8 l, w9 l]
        ![shapeCast S16 r0 shapeCasts_S1x16_S16 l, shapeCast S16 r1 shapeCasts_S1x16_S16 l, shapeCast S16 r2 shapeCasts_S1x16_S16 l,
          shapeCast S16 r3 shapeCasts_S1x16_S16 l, shapeCast S16 r4 shapeCasts_S1x16_S16 l, shapeCast S16 r5 shapeCasts_S1x16_S16 l,
          shapeCast S16 r6 shapeCasts_S1x16_S16 l, shapeCast S16 r7 shapeCasts_S1x16_S16 l, shapeCast S16 r8 shapeCasts_S1x16_S16 l,
          shapeCast S16 r9 shapeCasts_S1x16_S16 l] := rfl

/-- Column block 4 (lanes 64 … 79) of the t3 copy of the inner trip: the stored vector at lane l. -/
theorem t3_store4 (w0 w1 w2 w3 w4 w5 w6 w7 w8 w9 : Vec F S16 .f32) (r0 r1 r2 r3 r4 r5 r6 r7 r8 r9 : Vec F S1x16 .f32) (l : S16.Idx) :
    (k0_pay39 w3 w4 w5 w6 w7 w8 w9 (k0_pay25 w5 w6 w7 w8 w9 (k0_pay24 w0 w1 w2 w3 w4)) (k0_pay37 w0 w1 r0 r1) (k0_pay38 w2 r2) r3 r4 r5 r6 r7 r8 r9) l
      = rowVal ![w0 l, w1 l, w2 l, w3 l, w4 l, w5 l, w6 l, w7 l, w8 l, w9 l]
        ![shapeCast S16 r0 shapeCasts_S1x16_S16 l, shapeCast S16 r1 shapeCasts_S1x16_S16 l, shapeCast S16 r2 shapeCasts_S1x16_S16 l,
          shapeCast S16 r3 shapeCasts_S1x16_S16 l, shapeCast S16 r4 shapeCasts_S1x16_S16 l, shapeCast S16 r5 shapeCasts_S1x16_S16 l,
          shapeCast S16 r6 shapeCasts_S1x16_S16 l, shapeCast S16 r7 shapeCasts_S1x16_S16 l, shapeCast S16 r8 shapeCasts_S1x16_S16 l,
          shapeCast S16 r9 shapeCasts_S1x16_S16 l] := rfl

/-- Column block 5 (lanes 80 … 95) of the t3 copy of the inner trip: the stored vector at lane l. -/
theorem t3_store5 (w0 w1 w2 w3 w4 w5 w6 w7 w8 w9 : Vec F S16 .f32) (r0 r1 r2 r3 r4 r5 r6 r7 r8 r9 : Vec F S1x16 .f32) (l : S16.Idx) :
    (k0_pay41 w7 w8 w9 (k0_pay25 w5 w6 w7 w8 w9 (k0_pay24 w0 w1 w2 w3 w4)) (k0_pay40 w0 w1 w2 w3 w4 w5 w6 r0 r1 r2 r3 r4 r5 r6) r7 r8 r9) l
      = rowVal ![w0 l, w1 l, w2 l, w3 l, w4 l, w5 l, w6 l, w7 l, w8 l, w9 l]
        ![shapeCast S16 r0 shapeCasts_S1x16_S16 l, shapeCast S16 r1 shapeCasts_S1x16_S16 l, shapeCast S16 r2 shapeCasts_S1x16_S16 l,
          shapeCast S16 r3 shapeCasts_S1x16_S16 l, shapeCast S16 r4 shapeCasts_S1x16_S16 l, shapeCast S16 r5 shapeCasts_S1x16_S16 l,
          shapeCast S16 r6 shapeCasts_S1x16_S16 l, shapeCast S16 r7 shapeCasts_S1x16_S16 l, shapeCast S16 r8 shapeCasts_S1x16_S16 l,
          shapeCast S16 r9 shapeCasts_S1x16_S16 l] := rfl

/-- Column block 6 (lanes 96 … 111) of the t3 copy of the inner trip: the stored vector at lane l. -/
theorem t3_store6 (w0 w1 w2 w3 w4 w5 w6 w7 w8 w9 : Vec F S16 .f32) (r0 r1 r2 r3 r4 r5 r6 r7 r8 r9 : Vec F S1x16 .f32) (l : S16.Idx) :
    (k0_pay43 w4 w5 w6 w7 w8 w9 (k0_pay25 w5 w6 w7 w8 w9 (k0_pay24 w0 w1 w2 w3 w4)) (k0_pay42 w0 w1 w2 w3 r0 r1 r2 r3) r4 r5 r6 r7 r8 r9) l
      = rowVal ![w0 l, w1 l, w2 l, w3 l, w4 l, w5 l, w6 l, w7 l, w8 l, w9 l]
        ![shapeCast S16 r0 shapeCasts_S1x16_S16 l, shapeCast S16 r1 shapeCasts_S1x16_S16 l, shapeCast S16 r2 shapeCasts_S1x16_S16 l,
          shapeCast S16 r3 shapeCasts_S1x16_S16 l, shapeCast S16 r4 shapeCasts_S1x16_S16 l, shapeCast S16 r5 shapeCasts_S1x16_S16 l,
          shapeCast S16 r6 shapeCasts_S1x16_S16 l, shapeCast S16 r7 shapeCasts_S1x16_S16 l, shapeCast S16 r8 shapeCasts_S1x16_S16 l,
          shapeCast S16 r9 shapeCasts_S1x16_S16 l] := rfl

/-- Column block 7 (lanes 112 … 127) of the t3 copy of the inner trip: the stored vector at lane l. -/
theorem t3_store7 (w0 w1 w2 w3 w4 w5 w6 w7 w8 w9 : Vec F S16 .f32) (r0 r1 r2 r3 r4 r5 r6 r7 r8 r9 : Vec F S1x16 .f32) (l : S16.Idx) :
    (k0_pay95 w9 (k0_pay25 w5 w6 w7 w8 w9 (k0_pay24 w0 w1 w2 w3 w4)) (k0_pay46 w1 w2 w3 w4 w5 w6 w7 w8 (k0_pay44 w0 r0) (k0_pay45 r1) r2 r3 r4 r5 r6 r7 r8) r9) l
      = rowVal ![w0 l, w1 l, w2 l, w3 l, w4 l, w5 l, w6 l, w7 l, w8 l, w9 l]
        ![shapeCast S16 r0 shapeCasts_S1x16_S16 l, shapeCast S16 r1 shapeCasts_S1x16_S16 l, shapeCast S16 r2 shapeCasts_S1x16_S16 l,
          shapeCast S16 r3 shapeCasts_S1x16_S16 l, shapeCast S16 r4 shapeCasts_S1x16_S16 l, shapeCast S16 r5 shapeCasts_S1x16_S16 l,
          shapeCast S16 r6 shapeCasts_S1x16_S16 l, shapeCast S16 r7 shapeCasts_S1x16_S16 l, shapeCast S16 r8 shapeCasts_S1x16_S16 l,
          shapeCast S16 r9 shapeCasts_S1x16_S16 l] := rfl

/-! ## The inner trip of loop k0_t5 (payloads k0_pay48 … k0_pay70 and k0_pay94) -/

/-- Column block 0 (lanes 0 … 15) of the t5 copy of the inner trip: the stored vector at lane l. -/
theorem t5_store0_fam (w : Fin 10 → Vec F S16 .f32) (r : Fin 10 → Vec F S1x16 .f32) (l : S16.Idx) :
    (k0_pay52 (w 7) (w 8) (w 9) (k0_pay49 (w 5) (w 6) (w 7) (w 8) (w 9) (k0_pay48 (w 0) (w 1) (w 2) (w 3) (w 4))) (k0_pay50 (w 0) (w 1) (w 2) (w 3) (w 4) (w 5) (r 0) (r 1) (r 2) (r 3) (r 4) (r 5)) (k0_pay51 (w 6) (r 6)) (r 7) (r 8) (r 9)) l
      = rowVal (fun j => w j l) (fun j => shapeCast S16 (r j) shapeCasts_S1x16_S16 l) := rfl

/-- Column block 1 (lanes 16 … 31) of the t5 copy of the inner trip: the stored vector at lane l. -/
theorem t5_store1_fam (w : Fin 10 → Vec F S16 .f32) (r : Fin 10 → Vec F S1x16 .f32) (l : S16.Idx) :
    (k0_pay54 (w 4) (w 5) (w 6) (w 7) (w 8) (w 9) (k0_pay49 (w 5) (w 6) (w 7) (w 8) (w 9) (k0_pay48 (w 0) (w 1) (w 2) (w 3) (w 4))) (k0_pay53 (w 0) (w 1) (w 2) (w 3) (r 0) (r 1) (r 2) (r 3)) (r 4) (r 5) (r 6) (r 7) (r 8) (r 9)) l
      = rowVal (fun j => w j l) (fun j => shapeCast S16 (r j) shapeCasts_S1x16_S16 l) := rfl

/-- Column block 2 (lanes 32 … 47) of the t5 copy of the inner trip: the stored vector at lane l. -/
theorem t5_store2_fam (w : Fin 10 → Vec F S16 .f32) (r : Fin 10 → Vec F S1x16 .f32) (l : S16.Idx) :
    (k0_pay57 (w 8) (w 9) (k0_pay49 (w 5) (w 6) (w 7) (w 8) (w 9) (k0_pay48 (w 0) (w 1) (w 2) (w 3) (w 4))) (k0_pay56 (w 1) (w 2) (w 3) (w 4) (w 5) (w 6) (w 7) (k0_pay55 (w 0) (r 0)) (r 1) (r 2) (r 3) (r 4) (r 5) (r 6) (r 7)) (r 8) (r 9)) l
      = rowVal (fun j => w j l) (fun j => shapeCast S16 (r j) shapeCasts_S1x16_S16 l) := rfl

/-- Column block 3 (lanes 48 … 63) of the t5 copy of the inner trip: the stored vector at lane l. -/
theorem t5_store3_fam (w : Fin 10 → Vec F S16 .f32) (r : Fin 10 → Vec F S1x16 .f32) (l : S16.Idx) :
    (k0_pay60 (w 5) (w 6) (w 7) (w 8) (w 9) (k0_pay49 (w 5) (w 6) (w 7) (w 8) (w 9) (k0_pay48 (w 0) (w 1) (w 2) (w 3) (w 4))) (k0_pay58 (w 0) (w 1) (w 2) (w 3) (w 4) (r 0) (r 1) (r 2) (r 3) (r 4)) (k0_pay59 (r 5)) (r 6) (r 7) (r 8) (r 9)) l
      = rowVal (fun j => w j l) (fun j => shapeCast S16 (r j) shapeCasts_S1x16_S16 l) := rfl

/-- Column block 4 (lanes 64 … 79) of the t5 copy of the inner trip: the stored vector at lane l. -/
theorem t5_store4_fam (w : Fin 10 → Vec F S16 .f32) (r : Fin 10 → Vec F S1x16 .f32) (l : S16.Idx) :
    (k0_pay63 (w 3) (w 4) (w 5) (w 6) (w 7) (w 8) (w 9) (k0_pay49 (w 5) (w 6) (w 7) (w 8) (w 9) (k0_pay48 (w 0) (w 1) (w 2) (w 3) (w 4))) (k0_pay61 (w 0) (w 1) (r 0) (r 1)) (k0_pay62 (w 2) (r 2)) (r 3) (r 4) (r 5) (r 6) (r 7) (r 8) (r 9)) l
      = rowVal (fun j => w j l) (fun j => shapeCast S16 (r j) shapeCasts_S1x16_S16 l) := rfl

/-- Column block 5 (lanes 80 … 95) of the t5 copy of the inner trip: the stored vector at lane l. -/
theorem t5_store5_fam (w : Fin 10 → Vec F S16 .f32) (r : Fin 10 → Vec F S1x16 .f32) (l : S16.Idx) :
    (k0_pay65 (w 7) (w 8) (w 9) (k0_pay49 (w 5) (w 6) (w 7) (w 8) (w 9) (k0_pay48 (w 0) (w 1) (w 2) (w 3) (w 4))) (k0_pay64 (w 0) (w 1) (w 2) (w 3) (w 4) (w 5) (w 6) (r 0) (r 1) (r 2) (r 3) (r 4) (r 5) (r 6)) (r 7) (r 8) (r 9)) l
      = rowVal (fun j => w j l) (fun j => shapeCast S16 (r j) shapeCasts_S1x16_S16 l) := rfl

/-- Column block 6 (lanes 96 … 111) of the t5 copy of the inner trip: the stored vector at lane l. -/
theorem t5_store6_fam (w : Fin 10 → Vec F S16 .f32) (r : Fin 10 → Vec F S1x16 .f32) (l : S16.Idx) :
    (k0_pay67 (w 4) (w 5) (w 6) (w 7) (w 8) (w 9) (k0_pay49 (w 5) (w 6) (w 7) (w 8) (w 9) (k0_pay48 (w 0) (w 1) (w 2) (w 3) (w 4))) (k0_pay66 (w 0) (w 1) (w 2) (w 3) (r 0) (r 1) (r 2) (r 3)) (r 4) (r 5) (r 6) (r 7) (r 8) (r 9)) l
      = rowVal (fun j => w j l) (fun j => shapeCast S16 (r j) shapeCasts_S1x16_S16 l) := rfl

/-- Column block 7 (lanes 112 … 127) of the t5 copy of the inner trip: the stored vector at lane l. -/
theorem t5_store7_fam (w : Fin 10 → Vec F S16 .f32) (r : Fin 10 → Vec F S1x16 .f32) (l : S16.Idx) :
    (k0_pay94 (w 9) (k0_pay49 (w 5) (w 6) (w 7) (w 8) (w 9) (k0_pay48 (w 0) (w 1) (w 2) (w 3) (w 4))) (k0_pay70 (w 1) (w 2) (w 3) (w 4) (w 5) (w 6) (w 7) (w 8) (k0_pay68 (w 0) (r 0)) (k0_pay69 (r 1)) (r 2) (r 3) (r 4) (r 5) (r 6) (r 7) (r 8)) (r 9)) l
      = rowVal (fun j => w j l) (fun j => shapeCast S16 (r j) shapeCasts_S1x16_S16 l) := rfl

/-- Column block 0 (lanes 0 … 15) of the t5 copy of the inner trip: the stored vector at lane l. -/
theorem t5_store0 (w0 w1 w2 w3 w4 w5 w6 w7 w8 w9 : Vec F S16 .f32) (r0 r1 r2 r3 r4 r5 r6 r7 r8 r9 : Vec F S1x16 .f32) (l : S16.Idx) :
    (k0_pay52 w7 w8 w9 (k0_pay49 w5 w6 w7 w8 w9 (k0_pay48 w0 w1 w2 w3 w4)) (k0_pay50 w0 w1 w2 w3 w4 w5 r0 r1 r2 r3 r4 r5) (k0_pay51 w6 r6) r7 r8 r9) l
      = rowVal ![w0 l, w1 l, w2 l, w3 l, w4 l, w5 l, w6 l, w7 l, w8 l, w9 l]
        ![shapeCast S16 r0 shapeCasts_S1x16_S16 l, shapeCast S16 r1 shapeCasts_S1x16_S16 l, shapeCast S16 r2 shapeCasts_S1x16_S16 l,
          shapeCast S16 r3 shapeCasts_S1x16_S16 l, shapeCast S16 r4 shapeCasts_S1x16_S16 l, shapeCast S16 r5 shapeCasts_S1x16_S16 l,
          shapeCast S16 r6 shapeCasts_S1x16_S16 l, shapeCast S16 r7 shapeCasts_S1x16_S16 l, shapeCast S16 r8 shapeCasts_S1x16_S16 l,
          shapeCast S16 r9 shapeCasts_S1x16_S16 l] := rfl

/-- Column block 1 (lanes 16 … 31) of the t5 copy of the inner trip: the stored vector at lane l. -/
theorem t5_store1 (w0 w1 w2 w3 w4 w5 w6 w7 w8 w9 : Vec F S16 .f32) (r0 r1 r2 r3 r4 r5 r6 r7 r8 r9 : Vec F S1x16 .f32) (l : S16.Idx) :
    (k0_pay54 w4 w5 w6 w7 w8 w9 (k0_pay49 w5 w6 w7 w8 w9 (k0_pay48 w0 w1 w2 w3 w4)) (k0_pay53 w0 w1 w2 w3 r0 r1 r2 r3) r4 r5 r6 r7 r8 r9) l
      = rowVal ![w0 l, w1 l, w2 l, w3 l, w4 l, w5 l, w6 l, w7 l, w8 l, w9 l]
        ![shapeCast S16 r0 shapeCasts_S1x16_S16 l, shapeCast S16 r1 shapeCasts_S1x16_S16 l, shapeCast S16 r2 shapeCasts_S1x16_S16 l,
          shapeCast S16 r3 shapeCasts_S1x16_S16 l, shapeCast S16 r4 shapeCasts_S1x16_S16 l, shapeCast S16 r5 shapeCasts_S1x16_S16 l,
          shapeCast S16 r6 shapeCasts_S1x16_S16 l, shapeCast S16 r7 shapeCasts_S1x16_S16 l, shapeCast S16 r8 shapeCasts_S1x16_S16 l,
          shapeCast S16 r9 shapeCasts_S1x16_S16 l] := rfl

/-- Column block 2 (lanes 32 … 47) of the t5 copy of the inner trip: the stored vector at lane l. -/
theorem t5_store2 (w0 w1 w2 w3 w4 w5 w6 w7 w8 w9 : Vec F S16 .f32) (r0 r1 r2 r3 r4 r5 r6 r7 r8 r9 : Vec F S1x16 .f32) (l : S16.Idx) :
    (k0_pay57 w8 w9 (k0_pay49 w5 w6 w7 w8 w9 (k0_pay48 w0 w1 w2 w3 w4)) (k0_pay56 w1 w2 w3 w4 w5 w6 w7 (k0_pay55 w0 r0) r1 r2 r3 r4 r5 r6 r7) r8 r9) l
      = rowVal ![w0 l, w1 l, w2 l, w3 l, w4 l, w5 l, w6 l, w7 l, w8 l, w9 l]
        ![shapeCast S16 r0 shapeCasts_S1x16_S16 l, shapeCast S16 r1 shapeCasts_S1x16_S16 l, shapeCast S16 r2 shapeCasts_S1x16_S16 l,
          shapeCast S16 r3 shapeCasts_S1x16_S16 l, shapeCast S16 r4 shapeCasts_S1x16_S16 l, shapeCast S16 r5 shapeCasts_S1x16_S16 l,
          shapeCast S16 r6 shapeCasts_S1x16_S16 l, shapeCast S16 r7 shapeCasts_S1x16_S16 l, shapeCast S16 r8 shapeCasts_S1x16_S16 l,
          shapeCast S16 r9 shapeCasts_S1x16_S16 l] := rfl

/-- Column block 3 (lanes 48 … 63) of the t5 copy of the inner trip: the stored vector at lane l. -/
theorem t5_store3 (w0 w1 w2 w3 w4 w5 w6 w7 w8 w9 : Vec F S16 .f32) (r0 r1 r2 r3 r4 r5 r6 r7 r8 r9 : Vec F S1x16 .f32) (l : S16.Idx) :
    (k0_pay60 w5 w6 w7 w8 w9 (k0_pay49 w5 w6 w7 w8 w9 (k0_pay48 w0 w1 w2 w3 w4)) (k0_pay58 w0 w1 w2 w3 w4 r0 r1 r2 r3 r4) (k0_pay59 r5) r6 r7 r8 r9) l
      = rowVal ![w0 l, w1 l, w2 l, w3 l, w4 l, w5 l, w6 l, w7 l, w8 l, w9 l]
        ![shapeCast S16 r0 shapeCasts_S1x16_S16 l, shapeCast S16 r1 shapeCasts_S1x16_S16 l, shapeCast S16 r2 shapeCasts_S1x16_S16 l,
          shapeCast S16 r3 shapeCasts_S1x16_S16 l, shapeCast S16 r4 shapeCasts_S1x16_S16 l, shapeCast S16 r5 shapeCasts_S1x16_S16 l,
          shapeCast S16 r6 shapeCasts_S1x16_S16 l, shapeCast S16 r7 shapeCasts_S1x16_S16 l, shapeCast S16 r8 shapeCasts_S1x16_S16 l,
          shapeCast S16 r9 shapeCasts_S1x16_S16 l] := rfl

/-- Column block 4 (lanes 64 … 79) of the t5 copy of the inner trip: the stored vector at lane l. -/
theorem t5_store4 (w0 w1 w2 w3 w4 w5 w6 w7 w8 w9 : Vec F S16 .f32) (r0 r1 r2 r3 r4 r5 r6 r7 r8 r9 : Vec F S1x16 .f32) (l : S16.Idx) :
    (k0_pay63 w3 w4 w5 w6 w7 w8 w9 (k0_pay49 w5 w6 w7 w8 w9 (k0_pay48 w0 w1 w2 w3 w4)) (k0_pay61 w0 w1 r0 r1) (k0_pay62 w2 r2) r3 r4 r5 r6 r7 r8 r9) l
      = rowVal ![w0 l, w1 l, w2 l, w3 l, w4 l, w5 l, w6 l, w7 l, w8 l, w9 l]
        ![shapeCast S16 r0 shapeCasts_S1x16_S16 l, shapeCast S16 r1 shapeCasts_S1x16_S16 l, shapeCast S16 r2 shapeCasts_S1x16_S16 l,
          shapeCast S16 r3 shapeCasts_S1x16_S16 l, shapeCast S16 r4 shapeCasts_S1x16_S16 l, shapeCast S16 r5 shapeCasts_S1x16_S16 l,
          shapeCast S16 r6 shapeCasts_S1x16_S16 l, shapeCast S16 r7 shapeCasts_S1x16_S16 l, shapeCast S16 r8 shapeCasts_S1x16_S16 l,
          shapeCast S16 r9 shapeCasts_S1x16_S16 l] := rfl

/-- Column block 5 (lanes 80 … 95) of the t5 copy of the inner trip: the stored vector at lane l. -/
theorem t5_store5 (w0 w1 w2 w3 w4 w5 w6 w7 w8 w9 : Vec F S16 .f32) (r0 r1 r2 r3 r4 r5 r6 r7 r8 r9 : Vec F S1x16 .f32) (l : S16.Idx) :
    (k0_pay65 w7 w8 w9 (k0_pay49 w5 w6 w7 w8 w9 (k0_pay48 w0 w1 w2 w3 w4)) (k0_pay64 w0 w1 w2 w3 w4 w5 w6 r0 r1 r2 r3 r4 r5 r6) r7 r8 r9) l
      = rowVal ![w0 l, w1 l, w2 l, w3 l, w4 l, w5 l, w6 l, w7 l, w8 l, w9 l]
        ![shapeCast S16 r0 shapeCasts_S1x16_S16 l, shapeCast S16 r1 shapeCasts_S1x16_S16 l, shapeCast S16 r2 shapeCasts_S1x16_S16 l,
          shapeCast S16 r3 shapeCasts_S1x16_S16 l, shapeCast S16 r4 shapeCasts_S1x16_S16 l, shapeCast S16 r5 shapeCasts_S1x16_S16 l,
          shapeCast S16 r6 shapeCasts_S1x16_S16 l, shapeCast S16 r7 shapeCasts_S1x16_S16 l, shapeCast S16 r8 shapeCasts_S1x16_S16 l,
          shapeCast S16 r9 shapeCasts_S1x16_S16 l] := rfl

/-- Column block 6 (lanes 96 … 111) of the t5 copy of the inner trip: the stored vector at lane l. -/
theorem t5_store6 (w0 w1 w2 w3 w4 w5 w6 w7 w8 w9 : Vec F S16 .f32) (r0 r1 r2 r3 r4 r5 r6 r7 r8 r9 : Vec F S1x16 .f32) (l : S16.Idx) :
    (k0_pay67 w4 w5 w6 w7 w8 w9 (k0_pay49 w5 w6 w7 w8 w9 (k0_pay48 w0 w1 w2 w3 w4)) (k0_pay66 w0 w1 w2 w3 r0 r1 r2 r3) r4 r5 r6 r7 r8 r9) l
      = rowVal ![w0 l, w1 l, w2 l, w3 l, w4 l, w5 l, w6 l, w7 l, w8 l, w9 l]
        ![shapeCast S16 r0 shapeCasts_S1x16_S16 l, shapeCast S16 r1 shapeCasts_S1x16_S16 l, shapeCast S16 r2 shapeCasts_S1x16_S16 l,
          shapeCast S16 r3 shapeCasts_S1x16_S16 l, shapeCast S16 r4 shapeCasts_S1x16_S16 l, shapeCast S16 r5 shapeCasts_S1x16_S16 l,
          shapeCast S16 r6 shapeCasts_S1x16_S16 l, shapeCast S16 r7 shapeCasts_S1x16_S16 l, shapeCast S16 r8 shapeCasts_S1x16_S16 l,
          shapeCast S16 r9 shapeCasts_S1x16_S16 l] := rfl

/-- Column block 7 (lanes 112 … 127) of the t5 copy of the inner trip: the stored vector at lane l. -/
theorem t5_store7 (w0 w1 w2 w3 w4 w5 w6 w7 w8 w9 : Vec F S16 .f32) (r0 r1 r2 r3 r4 r5 r6 r7 r8 r9 : Vec F S1x16 .f32) (l : S16.Idx) :
    (k0_pay94 w9 (k0_pay49 w5 w6 w7 w8 w9 (k0_pay48 w0 w1 w2 w3 w4)) (k0_pay70 w1 w2 w3 w4 w5 w6 w7 w8 (k0_pay68 w0 r0) (k0_pay69 r1) r2 r3 r4 r5 r6 r7 r8) r9) l
      = rowVal ![w0 l, w1 l, w2 l, w3 l, w4 l, w5 l, w6 l, w7 l, w8 l, w9 l]
        ![shapeCast S16 r0 shapeCasts_S1x16_S16 l, shapeCast S16 r1 shapeCasts_S1x16_S16 l, shapeCast S16 r2 shapeCasts_S1x16_S16 l,
          shapeCast S16 r3 shapeCasts_S1x16_S16 l, shapeCast S16 r4 shapeCasts_S1x16_S16 l, shapeCast S16 r5 shapeCasts_S1x16_S16 l,
          shapeCast S16 r6 shapeCasts_S1x16_S16 l, shapeCast S16 r7 shapeCasts_S1x16_S16 l, shapeCast S16 r8 shapeCasts_S1x16_S16 l,
          shapeCast S16 r9 shapeCasts_S1x16_S16 l] := rfl

/-! ## The inner trip of loop k0_t6 (payloads k0_pay71 … k0_pay93 and k0_pay96) -/

/-- Column block 0 (lanes 0 … 15) of the t6 copy of the inner trip: the stored vector at lane l. -/
theorem t6_store0_fam (w : Fin 10 → Vec F S16 .f32) (r : Fin 10 → Vec F S1x16 .f32) (l : S16.Idx) :
    (k0_pay75 (w 7) (w 8) (w 9) (k0_pay72 (w 5) (w 6) (w 7) (w 8) (w 9) (k0_pay71 (w 0) (w 1) (w 2) (w 3) (w 4))) (k0_pay73 (w 0) (w 1) (w 2) (w 3) (w 4) (w 5) (r 0) (r 1) (r 2) (r 3) (r 4) (r 5)) (k0_pay74 (w 6) (r 6)) (r 7) (r 8) (r 9)) l
      = rowVal (fun j => w j l) (fun j => shapeCast S16 (r j) shapeCasts_S1x16_S16 l) := rfl

/-- Column block 1 (lanes 16 … 31) of the t6 copy of the inner trip: the stored vector at lane l. -/
theorem t6_store1_fam (w : Fin 10 → Vec F S16 .f32) (r : Fin 10 → Vec F S1x16 .f32) (l : S16.Idx) :
    (k0_pay77 (w 4) (w 5) (w 6) (w 7) (w 8) (w 9) (k0_pay72 (w 5) (w 6) (w 7) (w 8) (w 9) (k0_pay71 (w 0) (w 1) (w 2) (w 3) (w 4))) (k0_pay76 (w 0) (w 1) (w 2) (w 3) (r 0) (r 1) (r 2) (r 3)) (r 4) (r 5) (r 6) (r 7) (r 8) (r 9)) l
      = rowVal (fun j => w j l) (fun j => shapeCast S16 (r j) shapeCasts_S1x16_S16 l) := rfl

/-- Column block 2 (lanes 32 … 47) of the t6 copy of the inner trip: the stored vector at lane l. -/
theorem t6_store2_fam (w : Fin 10 → Vec F S16 .f32) (r : Fin 10 → Vec F S1x16 .f32) (l : S16.Idx) :
    (k0_pay80 (w 8) (w 9) (k0_pay72 (w 5) (w 6) (w 7) (w 8) (w 9) (k0_pay71 (w 0) (w 1) (w 2) (w 3) (w 4))) (k0_pay79 (w 1) (w 2) (w 3) (w 4) (w 5) (w 6) (w 7) (k0_pay78 (w 0) (r 0)) (r 1) (r 2) (r 3) (r 4) (r 5) (r 6) (r 7)) (r 8) (r 9)) l
      = rowVal (fun j => w j l) (fun j => shapeCast S16 (r j) shapeCasts_S1x16_S16 l) := rfl

/-- Column block 3 (lanes 48 … 63) of the t6 copy of the inner trip: the stored vector at lane l. -/
theorem t6_store3_fam (w : Fin 10 → Vec F S16 .f32) (r : Fin 10 → Vec F S1x16 .f32) (l : S16.Idx) :
    (k0_pay83 (w 5) (w 6) (w 7) (w 8) (w 9) (k0_pay72 (w 5) (w 6) (w 7) (w 8) (w 9) (k0_pay71 (w 0) (w 1) (w 2) (w 3) (w 4))) (k0_pay81 (w 0) (w 1) (w 2) (w 3) (w 4) (r 0) (r 1) (r 2) (r 3) (r 4)) (k0_pay82 (r 5)) (r 6) (r 7) (r 8) (r 9)) l
      = rowVal (fun j => w j l) (fun j => shapeCast S16 (r j) shapeCasts_S1x16_S16 l) := rfl

/-- Column block 4 (lanes 64 … 79) of the t6 copy of the inner trip: the stored vector at lane l. -/
theorem t6_store4_fam (w : Fin 10 → Vec F S16 .f32) (r : Fin 10 → Vec F S1x16 .f32) (l : S16.Idx) :
    (k0_pay86 (w 3) (w 4) (w 5) (w 6) (w 7) (w 8) (w 9) (k0_pay72 (w 5) (w 6) (w 7) (w 8) (w 9) (k0_pay71 (w 0) (w 1) (w 2) (w 3) (w 4))) (k0_pay84 (w 0) (w 1) (r 0) (r 1)) (k0_pay85 (w 2) (r 2)) (r 3) (r 4) (r 5) (r 6) (r 7) (r 8) (r 9)) l
      = rowVal (fun j => w j l) (fun j => shapeCast S16 (r j) shapeCasts_S1x16_S16 l) := rfl

/-- Column block 5 (lanes 80 … 95) of the t6 copy of the inner trip: the stored vector at lane l. -/
theorem t6_store5_fam (w : Fin 10 → Vec F S16 .f32) (r : Fin 10 → Vec F S1x16 .f32) (l : S16.Idx) :
    (k0_pay88 (w 7) (w 8) (w 9) (k0_pay72 (w 5) (w 6) (w 7) (w 8) (w 9) (k0_pay71 (w 0) (w 1) (w 2) (w 3) (w 4))) (k0_pay87 (w 0) (w 1) (w 2) (w 3) (w 4) (w 5) (w 6) (r 0) (r 1) (r 2) (r 3) (r 4) (r 5) (r 6)) (r 7) (r 8) (r 9)) l
      = rowVal (fun j => w j l) (fun j => shapeCast S16 (r j) shapeCasts_S1x16_S16 l) := rfl

/-- Column block 6 (lanes 96 … 111) of the t6 copy of the inner trip: the stored vector at lane l. -/
theorem t6_store6_fam (w : Fin 10 → Vec F S16 .f32) (r : Fin 10 → Vec F S1x16 .f32) (l : S16.Idx) :
    (k0_pay90 (w 4) (w 5) (w 6) (w 7) (w 8) (w 9) (k0_pay72 (w 5) (w 6) (w 7) (w 8) (w 9) (k0_pay71 (w 0) (w 1) (w 2) (w 3) (w 4))) (k0_pay89 (w 0) (w 1) (w 2) (w 3) (r 0) (r 1) (r 2) (r 3)) (r 4) (r 5) (r 6) (r 7) (r 8) (r 9)) l
      = rowVal (fun j => w j l) (fun j => shapeCast S16 (r j) shapeCasts_S1x16_S16 l) := rfl

/-- Column block 7 (lanes 112 … 127) of the t6 copy of the inner trip: the stored vector at lane l. -/
theorem t6_store7_fam (w : Fin 10 → Vec F S16 .f32) (r : Fin 10 → Vec F S1x16 .f32) (l : S16.Idx) :
    (k0_pay96 (w 9) (k0_pay72 (w 5) (w 6) (w 7) (w 8) (w 9) (k0_pay71 (w 0) (w 1) (w 2) (w 3) (w 4))) (k0_pay93 (w 1) (w 2) (w 3) (w 4) (w 5) (w 6) (w 7) (w 8) (k0_pay91 (w 0) (r 0)) (k0_pay92 (r 1)) (r 2) (r 3) (r 4) (r 5) (r 6) (r 7) (r 8)) (r 9)) l
      = rowVal (fun j => w j l) (fun j => shapeCast S16 (r j) shapeCasts_S1x16_S16 l) := rfl

/-- Column block 0 (lanes 0 … 15) of the t6 copy of the inner trip: the stored vector at lane l. -/
theorem t6_store0 (w0 w1 w2 w3 w4 w5 w6 w7 w8 w9 : Vec F S16 .f32) (r0 r1 r2 r3 r4 r5 r6 r7 r8 r9 : Vec F S1x16 .f32) (l : S16.Idx) :
    (k0_pay75 w7 w8 w9 (k0_pay72 w5 w6 w7 w8 w9 (k0_pay71 w0 w1 w2 w3 w4)) (k0_pay73 w0 w1 w2 w3 w4 w5 r0 r1 r2 r3 r4 r5) (k0_pay74 w6 r6) r7 r8 r9) l
      = rowVal ![w0 l, w1 l, w2 l, w3 l, w4 l, w5 l, w6 l, w7 l, w8 l, w9 l]
        ![shapeCast S16 r0 shapeCasts_S1x16_S16 l, shapeCast S16 r1 shapeCasts_S1x16_S16 l, shapeCast S16 r2 shapeCasts_S1x16_S16 l,
          shapeCast S16 r3 shapeCasts_S1x16_S16 l, shapeCast S16 r4 shapeCasts_S1x16_S16 l, shapeCast S16 r5 shapeCasts_S1x16_S16 l,
          shapeCast S16 r6 shapeCasts_S1x16_S16 l, shapeCast S16 r7 shapeCasts_S1x16_S16 l, shapeCast S16 r8 shapeCasts_S1x16_S16 l,
          shapeCast S16 r9 shapeCasts_S1x16_S16 l] := rfl

/-- Column block 1 (lanes 16 … 31) of the t6 copy of the inner trip: the stored vector at lane l. -/
theorem t6_store1 (w0 w1 w2 w3 w4 w5 w6 w7 w8 w9 : Vec F S16 .f32) (r0 r1 r2 r3 r4 r5 r6 r7 r8 r9 : Vec F S1x16 .f32) (l : S16.Idx) :
    (k0_pay77 w4 w5 w6 w7 w8 w9 (k0_pay72 w5 w6 w7 w8 w9 (k0_pay71 w0 w1 w2 w3 w4)) (k0_pay76 w0 w1 w2 w3 r0 r1 r2 r3) r4 r5 r6 r7 r8 r9) l
      = rowVal ![w0 l, w1 l, w2 l, w3 l, w4 l, w5 l, w6 l, w7 l, w8 l, w9 l]
        ![shapeCast S16 r0 shapeCasts_S1x16_S16 l, shapeCast S16 r1 shapeCasts_S1x16_S16 l, shapeCast S16 r2 shapeCasts_S1x16_S16 l,
          shapeCast S16 r3 shapeCasts_S1x16_S16 l, shapeCast S16 r4 shapeCasts_S1x16_S16 l, shapeCast S16 r5 shapeCasts_S1x16_S16 l,
          shapeCast S16 r6 shapeCasts_S1x16_S16 l, shapeCast S16 r7 shapeCasts_S1x16_S16 l, shapeCast S16 r8 shapeCasts_S1x16_S16 l,
          shapeCast S16 r9 shapeCasts_S1x16_S16 l] := rfl

/-- Column block 2 (lanes 32 … 47) of the t6 copy of the inner trip: the stored vector at lane l. -/
theorem t6_store2 (w0 w1 w2 w3 w4 w5 w6 w7 w8 w9 : Vec F S16 .f32) (r0 r1 r2 r3 r4 r5 r6 r7 r8 r9 : Vec F S1x16 .f32) (l : S16.Idx) :
    (k0_pay80 w8 w9 (k0_pay72 w5 w6 w7 w8 w9 (k0_pay71 w0 w1 w2 w3 w4)) (k0_pay79 w1 w2 w3 w4 w5 w6 w7 (k0_pay78 w0 r0) r1 r2 r3 r4 r5 r6 r7) r8 r9) l
      = rowVal ![w0 l, w1 l, w2 l, w3 l, w4 l, w5 l, w6 l, w7 l, w8 l, w9 l]
        ![shapeCast S16 r0 shapeCasts_S1x16_S16 l, shapeCast S16 r1 shapeCasts_S1x16_S16 l, shapeCast S16 r2 shapeCasts_S1x16_S16 l,
          shapeCast S16 r3 shapeCasts_S1x16_S16 l, shapeCast S16 r4 shapeCasts_S1x16_S16 l, shapeCast S16 r5 shapeCasts_S1x16_S16 l,
          shapeCast S16 r6 shapeCasts_S1x16_S16 l, shapeCast S16 r7 shapeCasts_S1x16_S16 l, shapeCast S16 r8 shapeCasts_S1x16_S16 l,
          shapeCast S16 r9 shapeCasts_S1x16_S16 l] := rfl

/-- Column block 3 (lanes 48 … 63) of the t6 copy of the inner trip: the stored vector at lane l. -/
theorem t6_store3 (w0 w1 w2 w3 w4 w5 w6 w7 w8 w9 : Vec F S16 .f32) (r0 r1 r2 r3 r4 r5 r6 r7 r8 r9 : Vec F S1x16 .f32) (l : S16.Idx) :
    (k0_pay83 w5 w6 w7 w8 w9 (k0_pay72 w5 w6 w7 w8 w9 (k0_pay71 w0 w1 w2 w3 w4)) (k0_pay81 w0 w1 w2 w3 w4 r0 r1 r2 r3 r4) (k0_pay82 r5) r6 r7 r8 r9) l
      = rowVal ![w0 l, w1 l, w2 l, w3 l, w4 l, w5 l, w6 l, w7 l, w8 l, w9 l]
        ![shapeCast S16 r0 shapeCasts_S1x16_S16 l, shapeCast S16 r1 shapeCasts_S1x16_S16 l, shapeCast S16 r2 shapeCasts_S1x16_S16 l,
          shapeCast S16 r3 shapeCasts_S1x16_S16 l, shapeCast S16 r4 shapeCasts_S1x16_S16 l, shapeCast S16 r5 shapeCasts_S1x16_S16 l,
          shapeCast S16 r6 shapeCasts_S1x16_S16 l, shapeCast S16 r7 shapeCasts_S1x16_S16 l, shapeCast S16 r8 shapeCasts_S1x16_S16 l,
          shapeCast S16 r9 shapeCasts_S1x16_S16 l] := rfl

/-- Column block 4 (lanes 64 … 79) of the t6 copy of the inner trip: the stored vector at lane l. -/
theorem t6_store4 (w0 w1 w2 w3 w4 w5 w6 w7 w8 w9 : Vec F S16 .f32) (r0 r1 r2 r3 r4 r5 r6 r7 r8 r9 : Vec F S1x16 .f32) (l : S16.Idx) :
    (k0_pay86 w3 w4 w5 w6 w7 w8 w9 (k0_pay72 w5 w6 w7 w8 w9 (k0_pay71 w0 w1 w2 w3 w4)) (k0_pay84 w0 w1 r0 r1) (k0_pay85 w2 r2) r3 r4 r5 r6 r7 r8 r9) l
      = rowVal ![w0 l, w1 l, w2 l, w3 l, w4 l, w5 l, w6 l, w7 l, w8 l, w9 l]
        ![shapeCast S16 r0 shapeCasts_S1x16_S16 l, shapeCast S16 r1 shapeCasts_S1x16_S16 l, shapeCast S16 r2 shapeCasts_S1x16_S16 l,
          shapeCast S16 r3 shapeCasts_S1x16_S16 l, shapeCast S16 r4 shapeCasts_S1x16_S16 l, shapeCast S16 r5 shapeCasts_S1x16_S16 l,
          shapeCast S16 r6 shapeCasts_S1x16_S16 l, shapeCast S16 r7 shapeCasts_S1x16_S16 l, shapeCast S16 r8 shapeCasts_S1x16_S16 l,
          shapeCast S16 r9 shapeCasts_S1x16_S16 l] := rfl

/-- Column block 5 (lanes 80 … 95) of the t6 copy of the inner trip: the stored vector at lane l. -/
theorem t6_store5 (w0 w1 w2 w3 w4 w5 w6 w7 w8 w9 : Vec F S16 .f32) (r0 r1 r2 r3 r4 r5 r6 r7 r8 r9 : Vec F S1x16 .f32) (l : S16.Idx) :
    (k0_pay88 w7 w8 w9 (k0_pay72 w5 w6 w7 w8 w9 (k0_pay71 w0 w1 w2 w3 w4)) (k0_pay87 w0 w1 w2 w3 w4 w5 w6 r0 r1 r2 r3 r4 r5 r6) r7 r8 r9) l
      = rowVal ![w0 l, w1 l, w2 l, w3 l, w4 l, w5 l, w6 l, w7 l, w8 l, w9 l]
        ![shapeCast S16 r0 shapeCasts_S1x16_S16 l, shapeCast S16 r1 shapeCasts_S1x16_S16 l, shapeCast S16 r2 shapeCasts_S1x16_S16 l,
          shapeCast S16 r3 shapeCasts_S1x16_S16 l, shapeCast S16 r4 shapeCasts_S1x16_S16 l, shapeCast S16 r5 shapeCasts_S1x16_S16 l,
          shapeCast S16 r6 shapeCasts_S1x16_S16 l, shapeCast S16 r7 shapeCasts_S1x16_S16 l, shapeCast S16 r8 shapeCasts_S1x16_S16 l,
          shapeCast S16 r9 shapeCasts_S1x16_S16 l] := rfl

/-- Column block 6 (lanes 96 … 111) of the t6 copy of the inner trip: the stored vector at lane l. -/
theorem t6_store6 (w0 w1 w2 w3 w4 w5 w6 w7 w8 w9 : Vec F S16 .f32) (r0 r1 r2 r3 r4 r5 r6 r7 r8 r9 : Vec F S1x16 .f32) (l : S16.Idx) :
    (k0_pay90 w4 w5 w6 w7 w8 w9 (k0_pay72 w5 w6 w7 w8 w9 (k0_pay71 w0 w1 w2 w3 w4)) (k0_pay89 w0 w1 w2 w3 r0 r1 r2 r3) r4 r5 r6 r7 r8 r9) l
      = rowVal ![w0 l, w1 l, w2 l, w3 l, w4 l, w5 l, w6 l, w7 l, w8 l, w9 l]
        ![shapeCast S16 r0 shapeCasts_S1x16_S16 l, shapeCast S16 r1 shapeCasts_S1x16_S16 l, shapeCast S16 r2 shapeCasts_S1x16_S16 l,
          shapeCast S16 r3 shapeCasts_S1x16_S16 l, shapeCast S16 r4 shapeCasts_S1x16_S16 l, shapeCast S16 r5 shapeCasts_S1x16_S16 l,
          shapeCast S16 r6 shapeCasts_S1x16_S16 l, shapeCast S16 r7 shapeCasts_S1x16_S16 l, shapeCast S16 r8 shapeCasts_S1x16_S16 l,
          shapeCast S16 r9 shapeCasts_S1x16_S16 l] := rfl

/-- Column block 7 (lanes 112 … 127) of the t6 copy of the inner trip: the stored vector at lane l. -/
theorem t6_store7 (w0 w1 w2 w3 w4 w5 w6 w7 w8 w9 : Vec F S16 .f32) (r0 r1 r2 r3 r4 r5 r6 r7 r8 r9 : Vec F S1x16 .f32) (l : S16.Idx) :
    (k0_pay96 w9 (k0_pay72 w5 w6 w7 w8 w9 (k0_pay71 w0 w1 w2 w3 w4)) (k0_pay93 w1 w2 w3 w4 w5 w6 w7 w8 (k0_pay91 w0 r0) (k0_pay92 r1) r2 r3 r4 r5 r6 r7 r8) r9) l
      = rowVal ![w0 l, w1 l, w2 l, w3 l, w4 l, w5 l, w6 l, w7 l, w8 l, w9 l]
        ![shapeCast S16 r0 shapeCasts_S1x16_S16 l, shapeCast S16 r1 shapeCasts_S1x16_S16 l, shapeCast S16 r2 shapeCasts_S1x16_S16 l,
          shapeCast S16 r3 shapeCasts_S1x16_S16 l, shapeCast S16 r4 shapeCasts_S1x16_S16 l, shapeCast S16 r5 shapeCasts_S1x16_S16 l,
          shapeCast S16 r6 shapeCasts_S1x16_S16 l, shapeCast S16 r7 shapeCasts_S1x16_S16 l, shapeCast S16 r8 shapeCasts_S1x16_S16 l,
          shapeCast S16 r9 shapeCasts_S1x16_S16 l] := rfl

end Cert.Proof.K

end
-- ==== Proof.TileInner.lean ====
/-
  The inner loop of one step of the SparseCore kernel, for each of the two buffer slots.

  A step works on one group `g` of eight batch rows. Trip `b` (of eight) gathers the ten weights at the flat words
  `80 g + 10 b + j` of the tile's slab of weights (each index in range because `g < 222`), reads the ten gathered table
  rows `10 b + j` in eight slices of sixteen columns, and stores into row `b` of the output scratch, slice by slice,
  the weighted sum of the ten rows times the reciprocal of the weights' sum, both sums taken from the left. The trip
  is run symbolically; what its eight stores leave is read back as ONE function of the slab, the rows and `g`
  (`meanOf`): a word of row `b` lies in exactly one stored slice, whose lane there is the mean's value, and a word of
  another row is untouched. The loop's invariant is `meanUpTo`: the rows below the trip done, the rest as they started.
-/
import proofs.«208500_g61899068670276_cont_9to1_m_775_47_alg».proof.Proof.TileInv
import proofs.«208500_g61899068670276_cont_9to1_m_775_47_alg».proof.Proof.TilePay
import Idealize.ShloMosaic.Lib.Writes
import Idealize.ShloMosaic.Lib.Pipeline.Value

noncomputable section

namespace Cert.Proof.K

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

variable (d : Dev nD) (L : grid0.Coords)

/-! ## Index arithmetic of the weights' gather -/

/-- The flat index `g*80 + b*10 + j` of a weight, computed in 32-bit words, does not wrap (eight trips at most). -/
theorem widx_toNat {n : ℕ} (hn : n ≤ 8) (v : BitVec 32) (hg : v.toNat < 222) (k : Fin n) (j : ℕ) (hj : j < 10) :
    (Scalar.addi (Scalar.addi (Scalar.muli v 80#32) (Scalar.muli (Scf.iv 0#32 1#32 k) 10#32)) (BitVec.ofNat 32 j)).toNat = 80 * v.toNat + 10 * k.val + j := by
  have hk : k.val < 8 := Nat.lt_of_lt_of_le k.isLt hn
  simp only [Scalar.addi, Scalar.muli, IntOp.addi, IntOp.muli, Scf.iv, BitVec.toNat_add, BitVec.toNat_mul, BitVec.toNat_ofNat]
  omega

/-- Every lane of the splat index vector names a word of the weights' slab. -/
theorem chk_ok {n : ℕ} (hn : n ≤ 8) (v : BitVec 32) (hg : v.toNat < 222) (k : Fin n) (j : ℕ) (hj : j < 10) :
    ∀ a x, ((![broadcast S16 (Scalar.addi (Scalar.addi (Scalar.muli v 80#32) (Scalar.muli (Scf.iv 0#32 1#32 k) 10#32)) (BitVec.ofNat 32 j))] : Fin 1 → IVec S16 32) a x).toNat < S17760.size a := by
  intro a x
  obtain rfl : a = 0 := Subsingleton.elim _ _
  have hk : k.val < 8 := Nat.lt_of_lt_of_le k.isLt hn
  show (Scalar.addi (Scalar.addi (Scalar.muli v 80#32) (Scalar.muli (Scf.iv 0#32 1#32 k) 10#32)) (BitVec.ofNat 32 j)).toNat < 17760
  rw [widx_toNat hn v hg k j hj]
  omega

omit [FloatOps F] in
/-- The weights' slab held whole is held through its whole-rectangle access (the form an indexed load reads). -/
theorem pts_sW_access (q : PosShare TreeShare) (f : Buf (Elt F) (sW.view.loc (tthr d L))) :
    (((sW).access (.whole S17760)).loc (tthr d L) ↦{q} f : sProp 𝕄) = (sW.view.loc (tthr d L) ↦{q} f) := rfl

/-- A lane of a gathered weight vector is the slab's word at the flat index. -/
theorem wload_apply {n : ℕ} (hn : n ≤ 8) (Wv : S17760.Idx → F .f32) (v : BitVec 32) (hg : v.toNat < 222) (k : Fin n) (j : ℕ) (hj : j < 10)
    (h : ∀ a x, ((![broadcast S16 (Scalar.addi (Scalar.addi (Scalar.muli v 80#32) (Scalar.muli (Scf.iv 0#32 1#32 k) 10#32)) (BitVec.ofNat 32 j))] : Fin 1 → IVec S16 32) a x).toNat < S17760.size a) (l : S16.Idx) :
    loadIdx (View.read (Elt F) (sW.access (Rect.whole S17760)) Wv) ![broadcast S16 (Scalar.addi (Scalar.addi (Scalar.muli v 80#32) (Scalar.muli (Scf.iv 0#32 1#32 k) 10#32)) (BitVec.ofNat 32 j))] h l
      = Wv (flat1 ((80 * v.toNat + 10 * k.val + j) % 17760) (Nat.mod_lt _ (by decide))) := by
  have hk : k.val < 8 := Nat.lt_of_lt_of_le k.isLt hn
  have hr : View.read (Elt F) (sW.access (Rect.whole S17760)) Wv = Wv :=
    Memref.read_access_whole (Elt F) cc0_scratch2 Wv
  unfold loadIdx
  rw [hr]
  congr 1
  funext a
  obtain rfl : a = 0 := Subsingleton.elim _ _
  apply Fin.ext
  show (Scalar.addi (Scalar.addi (Scalar.muli v 80#32) (Scalar.muli (Scf.iv 0#32 1#32 k) 10#32)) (BitVec.ofNat 32 j)).toNat = (80 * v.toNat + 10 * k.val + j) % 17760
  rw [widx_toNat hn v hg k j hj, Nat.mod_eq_of_lt (by omega)]

/-- Ten weights and ten row words at one column give the mean's value there. -/
theorem rowVal_mean (Wv : S17760.Idx → F .f32) (Rv : S80x128.Idx → F .f32) (g b : ℕ) (hb : b < 8) (col : Fin 128) (w r : Fin 10 → F .f32)
    (hw : ∀ j : Fin 10, w j = Wv (flat1 ((80 * g + 10 * b + j.val) % 17760) (Nat.mod_lt _ (by decide))))
    (hr : ∀ j : Fin 10, r j = Rv (Shape.pair (d := ![80, 128]) ⟨(10 * b + j.val) % 80, Nat.mod_lt _ (by decide)⟩ col)) :
    rowVal w r = meanOf Wv Rv g (Shape.pair (d := ![8, 128]) ⟨b, hb⟩ col) := by
  obtain rfl : w = fun j => Wv (flat1 ((80 * g + 10 * b + j.val) % 17760) (Nat.mod_lt _ (by decide))) := funext hw
  obtain rfl : r = fun j => Rv (Shape.pair (d := ![80, 128]) ⟨(10 * b + j.val) % 80, Nat.mod_lt _ (by decide)⟩ col) := funext hr
  rfl

/-- A stored 16-lane vector whose lanes are the mean's values of row `b`, columns `16 cb + lane`, agrees with the mean on its rectangle. -/
theorem piece_mean (Wv : S17760.Idx → F .f32) (Rv : S80x128.Idx → F .f32) (g b : ℕ) (hb : b < 8) (cb : ℕ)
    (off : Fin 2 → ℕ) (inb : ∀ a, off a + S1x16.size a ≤ S8x128.size a) (hoff : off = ![b, 16 * cb]) (P : FVec F S16 .f32)
    (hP : ∀ (l : S16.Idx) (col : Fin 128), col.val = 16 * cb + (l 0).val → P l = meanOf Wv Rv g (Shape.pair (d := ![8, 128]) ⟨b, hb⟩ col)) :
    ∀ x : S1x16.Idx, shapeCast S1x16 P shapeCasts_S16_S1x16 x = meanOf Wv Rv g ((Rect.unit (s := S8x128) off S1x16.size inb).emb x) := by
  subst hoff
  intro x
  have h1 := inb 1
  have hx0 : (x 0).val = 0 := by have := (x 0).isLt; simpa using this
  have hx1 : (x 1).val < 16 := (x 1).isLt
  simp only [Matrix.cons_val_one] at h1
  have h1' : 16 * cb + 16 ≤ 128 := h1
  rw [shapeCast_apply P shapeCasts_S16_S1x16 x (flat1 (x 1).val hx1)
    (by rw [Shape.rowMajor_val_one, Shape.rowMajor_val_two]; simp [flat1, hx0])]
  rw [hP (flat1 (x 1).val hx1) ⟨16 * cb + (x 1).val, by omega⟩ rfl]
  congr 1
  funext a
  apply Fin.ext
  rcases a with ⟨_ | _ | n, ha⟩
  · show b = b + 1 * (x 0).val
    omega
  · show 16 * cb + (x 1).val = 16 * cb + 1 * (x 1).val
    omega
  · exact absurd ha (by show ¬ (n + 1 + 1 < 2); omega)

/-! ## Slot 0 -/

/-- A lane of a loaded 16-column slice of a gathered row (slot 0) is the rows' word at (row, column + lane). -/
theorem rload0_apply (Rv : S80x128.Idx → F .f32) (off : Fin 2 → ℕ)
    (inb : ∀ a, off a + S1x16.size a ≤ S80x128.size a) (ro c : ℕ) (hoff : off = ![ro, c]) (b j : ℕ) (hro : ro = 10 * b + j)
    (l : S16.Idx) (col : Fin 128) (hcol : col.val = c + (l 0).val) :
    shapeCast S16 (View.readAt (Elt F) sRows0.view (Rect.unit (s := S80x128) off S1x16.size inb).toLoadRect Rv) shapeCasts_S1x16_S16 l
      = Rv (Shape.pair (d := ![80, 128]) ⟨(10 * b + j) % 80, Nat.mod_lt _ (by decide)⟩ col) := by
  subst hoff hro
  have h0 := inb 0
  have hl : (l 0).val < 16 := (l 0).isLt
  simp only [Matrix.cons_val_zero] at h0
  have h0' : 10 * b + j + 1 ≤ 80 := h0
  rw [shapeCast_apply _ shapeCasts_S1x16_S16 l (Shape.pair (d := ![1, 16]) ⟨0, by decide⟩ ⟨(l 0).val, hl⟩)
    (by rw [Shape.rowMajor_val_two, Shape.rowMajor_val_one]; show 0 * 16 + (l 0).val = (l 0).val; omega)]
  rw [View.readAt_apply]
  show Rv _ = Rv _
  congr 1
  funext a
  apply Fin.ext
  rcases a with ⟨_ | _ | n, ha⟩
  · show (10 * b + j) + 1 * 0 = (10 * b + j) % 80
    rw [Nat.mod_eq_of_lt (by omega)]; omega
  · show c + 1 * (l 0).val = col.val
    omega
  · exact absurd ha (by show ¬ (n + 1 + 1 < 2); omega)

/-- Before trip `k` of slot 0's inner loop: the weights and the gathered rows as they were, the output rows below `k` at the group's means, the rest as they started. -/
def inv0 (qw qr : PosShare TreeShare) (Wv : S17760.Idx → F .f32) (Rv : S80x128.Idx → F .f32) (g : ℕ) (f0 : S8x128.Idx → F .f32)
    (k : ℕ) (_ : BitVec 32) : sProp 𝕄 :=
  iprop(((sW).view.loc (tthr d L) ↦{qw} (Wv : Buf (Elt F) ((tthr d L).loc cc0_scratch2)))
    ∗ ((sRows0).view.loc (tthr d L) ↦{qr} (Rv : Buf (Elt F) ((tthr d L).loc cc0_scratch3)))
    ∗ ∃ f' : Buf (Elt F) ((tthr d L).loc cc0_scratch7), ((sNout0).view.loc (tthr d L) ↦{fullShare} f') ∗ ⌜f' = meanUpTo Wv Rv g k f0⌝)

omit [FloatOps F] in
/-- What the eight stores of a trip leave, read through a whole buffer: a word some piece covers, all pieces agreeing with one function. -/
theorem whole0_writes_of_pieces (f G : S8x128.Idx → F .f32) :
    ∀ Ls : List (View.Piece (Elt F) S8x128 .f32), (∀ p ∈ Ls, ∀ x : p.1.shape.Idx, p.2 x = G (p.1.emb x)) →
      ∀ y : S8x128.Idx, (∃ p ∈ Ls, y ∈ p.1.set) → (sNout0).view.writes (Elt F) f Ls y = G y :=
  fun Ls hG y h => View.read_writes_apply_of_pieces (Val := Elt F) (sNout0).view f G Ls hG y h

omit [FloatOps F] in
/-- A word no piece covers keeps its value. -/
theorem whole0_writes_of_not_mem (f : S8x128.Idx → F .f32) (y : S8x128.Idx) :
    ∀ Ls : List (View.Piece (Elt F) S8x128 .f32), (∀ p ∈ Ls, y ∉ p.1.set) →
      (sNout0).view.writes (Elt F) f Ls y = f y :=
  fun Ls h => View.read_writes_apply_of_forall_not_mem (Val := Elt F) (sNout0).view f y Ls h

set_option maxHeartbeats 8000000 in
set_option maxRecDepth 65536 in
/-- One trip of slot 0's inner loop: ten gathered weights (each index in range), eighty row slices, eight stores: row `k` of the output becomes the mean's. -/
theorem trip0 (v1 v5 : BitVec 32) (t : Fin (k0_t1_loop L).trips) (v57 : BitVec 32) (hg : v57.toNat < 222)
    (qw qr : PosShare TreeShare) (Wv : S17760.Idx → F .f32) (Rv : S80x128.Idx → F .f32) (f0 : S8x128.Idx → F .f32)
    (k0_t2 : Fin k0_t2_loop.trips) (arg28 : BitVec 32) :
    (inv0 (F := F) d L qw qr Wv Rv v57.toNat f0 k0_t2.val arg28 : sProp 𝕄)
      ⊢ wp frame (wpE (defs₀ (F := F)) 𝒱₀ (tthr d L) none) Set.univ
          (k0_t2_body (F := F) L nidxV (Memref.isWhole_whole _) nodesV (Memref.isWhole_whole _) wV (Memref.isWhole_whole _) tblV (Memref.isWhole_whole _) noutV (Memref.isWhole_whole _) soutV (Memref.isWhole_whole _) sNidx (Memref.isWhole_whole _) sNodes (Memref.isWhole_whole _) sW (Memref.isWhole_whole _) sRows0 (Memref.isWhole_whole _) sRows1 (Memref.isWhole_whole _) sSst0 (Memref.isWhole_whole _) sSst1 (Memref.isWhole_whole _) sNout0 (Memref.isWhole_whole _) sNout1 (Memref.isWhole_whole _) cc0_scratch9 cc0_scratch10 cc0_scratch11 cc0_scratch12 cc0_scratch13 cc0_scratch14 cc0_scratch15 cc0_scratch16 cc0_scoped0 cc0_scoped1 cc0_scoped2 v1 v5 0#32 1#32 t v57 k0_t2 arg28)
          (inv0 (F := F) d L qw qr Wv Rv v57.toNat f0 (k0_t2.val + 1)) := by
  have hb : k0_t2.val < 8 := Nat.lt_of_lt_of_le k0_t2.isLt k0_t2_abs.2.1
  unfold inv0
  iintro ⟨Hw, Hr, %f', Hn, %hf'⟩
  subst hf'
  unfold k0_t2_body
  rw [k0_part1_eq_skeleton]; unfold k0_part1_skel
  ihave Hw := (Entails.of_eq (pts_sW_access (F := F) d L qw _).symm) $$ Hw
  sl_exec (disch := exact chk_ok k0_t2_abs.2.1 v57 hg k0_t2 0 (by decide))
  rw [Prog.bind_assoc]
  iapply (SparseCore.wp_vectorLoadIdx 𝒱₀ (tthr d L) none Set.univ (base := sW) (S := Finset.univ) (q := qw) (Finset.subset_univ _)) $$ Hw; iintro Hw
  sl_exec (disch := exact chk_ok k0_t2_abs.2.1 v57 hg k0_t2 1 (by decide))
  rw [Prog.bind_assoc]
  iapply (SparseCore.wp_vectorLoadIdx 𝒱₀ (tthr d L) none Set.univ (base := sW) (S := Finset.univ) (q := qw) (Finset.subset_univ _)) $$ Hw; iintro Hw
  sl_exec (disch := exact chk_ok k0_t2_abs.2.1 v57 hg k0_t2 2 (by decide))
  rw [Prog.bind_assoc]
  iapply (SparseCore.wp_vectorLoadIdx 𝒱₀ (tthr d L) none Set.univ (base := sW) (S := Finset.univ) (q := qw) (Finset.subset_univ _)) $$ Hw; iintro Hw
  sl_exec (disch := exact chk_ok k0_t2_abs.2.1 v57 hg k0_t2 3 (by decide))
  rw [Prog.bind_assoc]
  iapply (SparseCore.wp_vectorLoadIdx 𝒱₀ (tthr d L) none Set.univ (base := sW) (S := Finset.univ) (q := qw) (Finset.subset_univ _)) $$ Hw; iintro Hw
  sl_exec (disch := exact chk_ok k0_t2_abs.2.1 v57 hg k0_t2 4 (by decide))
  rw [Prog.bind_assoc]
  iapply (SparseCore.wp_vectorLoadIdx 𝒱₀ (tthr d L) none Set.univ (base := sW) (S := Finset.univ) (q := qw) (Finset.subset_univ _)) $$ Hw; iintro Hw
  sl_exec (disch := exact chk_ok k0_t2_abs.2.1 v57 hg k0_t2 5 (by decide))
  rw [Prog.bind_assoc]
  iapply (SparseCore.wp_vectorLoadIdx 𝒱₀ (tthr d L) none Set.univ (base := sW) (S := Finset.univ) (q := qw) (Finset.subset_univ _)) $$ Hw; iintro Hw
  sl_exec (disch := exact chk_ok k0_t2_abs.2.1 v57 hg k0_t2 6 (by decide))
  rw [Prog.bind_assoc]
  iapply (SparseCore.wp_vectorLoadIdx 𝒱₀ (tthr d L) none Set.univ (base := sW) (S := Finset.univ) (q := qw) (Finset.subset_univ _)) $$ Hw; iintro Hw
  sl_exec (disch := exact chk_ok k0_t2_abs.2.1 v57 hg k0_t2 7 (by decide))
  rw [Prog.bind_assoc]
  iapply (SparseCore.wp_vectorLoadIdx 𝒱₀ (tthr d L) none Set.univ (base := sW) (S := Finset.univ) (q := qw) (Finset.subset_univ _)) $$ Hw; iintro Hw
  sl_exec (disch := exact chk_ok k0_t2_abs.2.1 v57 hg k0_t2 8 (by decide))
  rw [Prog.bind_assoc]
  iapply (SparseCore.wp_vectorLoadIdx 𝒱₀ (tthr d L) none Set.univ (base := sW) (S := Finset.univ) (q := qw) (Finset.subset_univ _)) $$ Hw; iintro Hw
  sl_exec (disch := exact chk_ok k0_t2_abs.2.1 v57 hg k0_t2 9 (by decide))
  rw [Prog.bind_assoc]
  iapply (SparseCore.wp_vectorLoadIdx 𝒱₀ (tthr d L) none Set.univ (base := sW) (S := Finset.univ) (q := qw) (Finset.subset_univ _)) $$ Hw; iintro Hw
  ihave Hw := (Entails.of_eq (pts_sW_access (F := F) d L qw _)) $$ Hw
  sl_exec
  sl_step
  isplitl [Hw]; · iexact Hw
  isplitl [Hr]; · iexact Hr
  iexists _
  isplitl [Hn]; · iexact Hn
  ipureintro
  sl_unfold_run_names
  funext y
  by_cases hy : (y 0).val = k0_t2.val
  · -- row k: the eight pieces cover it and each agrees with the mean
    have hy1 : (y 1).val < 128 := (y 1).isLt
    refine (whole0_writes_of_pieces (F := F) _ (meanOf Wv Rv v57.toNat) _ (List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, fun _ h => absurd h List.not_mem_nil⟩⟩⟩⟩⟩⟩⟩⟩) y ?hcov).trans ?_
    -- column block 7: lanes 112 … 127 of row b
    · dsimp only
      refine piece_mean Wv Rv v57.toNat k0_t2.val hb 7 _ _ (k0_off29_eq k0_t2) _ ?_
      intro l col hcol
      refine (t2_store7 _ _ _ _ _ _ _ _ _ _ _ _ _ _ _ _ _ _ _ _ l).trans ?_
      refine rowVal_mean Wv Rv v57.toNat k0_t2.val hb col _ _ ?_ ?_
      · intro j; fin_cases j
        · exact wload_apply k0_t2_abs.2.1 Wv v57 hg k0_t2 0 (by decide) _ l
        · exact wload_apply k0_t2_abs.2.1 Wv v57 hg k0_t2 1 (by decide) _ l
        · exact wload_apply k0_t2_abs.2.1 Wv v57 hg k0_t2 2 (by decide) _ l
        · exact wload_apply k0_t2_abs.2.1 Wv v57 hg k0_t2 3 (by decide) _ l
        · exact wload_apply k0_t2_abs.2.1 Wv v57 hg k0_t2 4 (by decide) _ l
        · exact wload_apply k0_t2_abs.2.1 Wv v57 hg k0_t2 5 (by decide) _ l
        · exact wload_apply k0_t2_abs.2.1 Wv v57 hg k0_t2 6 (by decide) _ l
        · exact wload_apply k0_t2_abs.2.1 Wv v57 hg k0_t2 7 (by decide) _ l
        · exact wload_apply k0_t2_abs.2.1 Wv v57 hg k0_t2 8 (by decide) _ l
        · exact wload_apply k0_t2_abs.2.1 Wv v57 hg k0_t2 9 (by decide) _ l
      · intro j; fin_cases j
        · exact rload0_apply Rv _ _ _ _ (k0_off27_eq k0_t2) k0_t2.val 0 (by omega) l col hcol
        · exact rload0_apply Rv _ _ _ _ (k0_off28_eq k0_t2 ⟨0, by decide⟩) k0_t2.val 1 (by show 10 * k0_t2.val + 0 + 1 = 10 * k0_t2.val + 1; omega) l col hcol
        · exact rload0_apply Rv _ _ _ _ (k0_off28_eq k0_t2 ⟨1, by decide⟩) k0_t2.val 2 (by show 10 * k0_t2.val + 1 + 1 = 10 * k0_t2.val + 2; omega) l col hcol
        · exact rload0_apply Rv _ _ _ _ (k0_off28_eq k0_t2 ⟨2, by decide⟩) k0_t2.val 3 (by show 10 * k0_t2.val + 2 + 1 = 10 * k0_t2.val + 3; omega) l col hcol
        · exact rload0_apply Rv _ _ _ _ (k0_off28_eq k0_t2 ⟨3, by decide⟩) k0_t2.val 4 (by show 10 * k0_t2.val + 3 + 1 = 10 * k0_t2.val + 4; omega) l col hcol
        · exact rload0_apply Rv _ _ _ _ (k0_off28_eq k0_t2 ⟨4, by decide⟩) k0_t2.val 5 (by show 10 * k0_t2.val + 4 + 1 = 10 * k0_t2.val + 5; omega) l col hcol
        · exact rload0_apply Rv _ _ _ _ (k0_off28_eq k0_t2 ⟨5, by decide⟩) k0_t2.val 6 (by show 10 * k0_t2.val + 5 + 1 = 10 * k0_t2.val + 6; omega) l col hcol
        · exact rload0_apply Rv _ _ _ _ (k0_off28_eq k0_t2 ⟨6, by decide⟩) k0_t2.val 7 (by show 10 * k0_t2.val + 6 + 1 = 10 * k0_t2.val + 7; omega) l col hcol
        · exact rload0_apply Rv _ _ _ _ (k0_off28_eq k0_t2 ⟨7, by decide⟩) k0_t2.val 8 (by show 10 * k0_t2.val + 7 + 1 = 10 * k0_t2.val + 8; omega) l col hcol
        · exact rload0_apply Rv _ _ _ _ (k0_off28_eq k0_t2 ⟨8, by decide⟩) k0_t2.val 9 (by show 10 * k0_t2.val + 8 + 1 = 10 * k0_t2.val + 9; omega) l col hcol
    -- column block 6: lanes 96 … 111 of row b
    · dsimp only
      refine piece_mean Wv Rv v57.toNat k0_t2.val hb 6 _ _ (k0_off26_eq k0_t2) _ ?_
      intro l col hcol
      refine (t2_store6 _ _ _ _ _ _ _ _ _ _ _ _ _ _ _ _ _ _ _ _ l).trans ?_
      refine rowVal_mean Wv Rv v57.toNat k0_t2.val hb col _ _ ?_ ?_
      · intro j; fin_cases j
        · exact wload_apply k0_t2_abs.2.1 Wv v57 hg k0_t2 0 (by decide) _ l
        · exact wload_apply k0_t2_abs.2.1 Wv v57 hg k0_t2 1 (by decide) _ l
        · exact wload_apply k0_t2_abs.2.1 Wv v57 hg k0_t2 2 (by decide) _ l
        · exact wload_apply k0_t2_abs.2.1 Wv v57 hg k0_t2 3 (by decide) _ l
        · exact wload_apply k0_t2_abs.2.1 Wv v57 hg k0_t2 4 (by decide) _ l
        · exact wload_apply k0_t2_abs.2.1 Wv v57 hg k0_t2 5 (by decide) _ l
        · exact wload_apply k0_t2_abs.2.1 Wv v57 hg k0_t2 6 (by decide) _ l
        · exact wload_apply k0_t2_abs.2.1 Wv v57 hg k0_t2 7 (by decide) _ l
        · exact wload_apply k0_t2_abs.2.1 Wv v57 hg k0_t2 8 (by decide) _ l
        · exact wload_apply k0_t2_abs.2.1 Wv v57 hg k0_t2 9 (by decide) _ l
      · intro j; fin_cases j
        · exact rload0_apply Rv _ _ _ _ (k0_off24_eq k0_t2) k0_t2.val 0 (by omega) l col hcol
        · exact rload0_apply Rv _ _ _ _ (k0_off25_eq k0_t2 ⟨0, by decide⟩) k0_t2.val 1 (by show 10 * k0_t2.val + 0 + 1 = 10 * k0_t2.val + 1; omega) l col hcol
        · exact rload0_apply Rv _ _ _ _ (k0_off25_eq k0_t2 ⟨1, by decide⟩) k0_t2.val 2 (by show 10 * k0_t2.val + 1 + 1 = 10 * k0_t2.val + 2; omega) l col hcol
        · exact rload0_apply Rv _ _ _ _ (k0_off25_eq k0_t2 ⟨2, by decide⟩) k0_t2.val 3 (by show 10 * k0_t2.val + 2 + 1 = 10 * k0_t2.val + 3; omega) l col hcol
        · exact rload0_apply Rv _ _ _ _ (k0_off25_eq k0_t2 ⟨3, by decide⟩) k0_t2.val 4 (by show 10 * k0_t2.val + 3 + 1 = 10 * k0_t2.val + 4; omega) l col hcol
        · exact rload0_apply Rv _ _ _ _ (k0_off25_eq k0_t2 ⟨4, by decide⟩) k0_t2.val 5 (by show 10 * k0_t2.val + 4 + 1 = 10 * k0_t2.val + 5; omega) l col hcol
        · exact rload0_apply Rv _ _ _ _ (k0_off25_eq k0_t2 ⟨5, by decide⟩) k0_t2.val 6 (by show 10 * k0_t2.val + 5 + 1 = 10 * k0_t2.val + 6; omega) l col hcol
        · exact rload0_apply Rv _ _ _ _ (k0_off25_eq k0_t2 ⟨6, by decide⟩) k0_t2.val 7 (by show 10 * k0_t2.val + 6 + 1 = 10 * k0_t2.val + 7; omega) l col hcol
        · exact rload0_apply Rv _ _ _ _ (k0_off25_eq k0_t2 ⟨7, by decide⟩) k0_t2.val 8 (by show 10 * k0_t2.val + 7 + 1 = 10 * k0_t2.val + 8; omega) l col hcol
        · exact rload0_apply Rv _ _ _ _ (k0_off25_eq k0_t2 ⟨8, by decide⟩) k0_t2.val 9 (by show 10 * k0_t2.val + 8 + 1 = 10 * k0_t2.val + 9; omega) l col hcol
    -- column block 5: lanes 80 … 95 of row b
    · dsimp only
      refine piece_mean Wv Rv v57.toNat k0_t2.val hb 5 _ _ (k0_off23_eq k0_t2) _ ?_
      intro l col hcol
      refine (t2_store5 _ _ _ _ _ _ _ _ _ _ _ _ _ _ _ _ _ _ _ _ l).trans ?_
      refine rowVal_mean Wv Rv v57.toNat k0_t2.val hb col _ _ ?_ ?_
      · intro j; fin_cases j
        · exact wload_apply k0_t2_abs.2.1 Wv v57 hg k0_t2 0 (by decide) _ l
        · exact wload_apply k0_t2_abs.2.1 Wv v57 hg k0_t2 1 (by decide) _ l
        · exact wload_apply k0_t2_abs.2.1 Wv v57 hg k0_t2 2 (by decide) _ l
        · exact wload_apply k0_t2_abs.2.1 Wv v57 hg k0_t2 3 (by decide) _ l
        · exact wload_apply k0_t2_abs.2.1 Wv v57 hg k0_t2 4 (by decide) _ l
        · exact wload_apply k0_t2_abs.2.1 Wv v57 hg k0_t2 5 (by decide) _ l
        · exact wload_apply k0_t2_abs.2.1 Wv v57 hg k0_t2 6 (by decide) _ l
        · exact wload_apply k0_t2_abs.2.1 Wv v57 hg k0_t2 7 (by decide) _ l
        · exact wload_apply k0_t2_abs.2.1 Wv v57 hg k0_t2 8 (by decide) _ l
        · exact wload_apply k0_t2_abs.2.1 Wv v57 hg k0_t2 9 (by decide) _ l
      · intro j; fin_cases j
        · exact rload0_apply Rv _ _ _ _ (k0_off21_eq k0_t2) k0_t2.val 0 (by omega) l col hcol
        · exact rload0_apply Rv _ _ _ _ (k0_off22_eq k0_t2 ⟨0, by decide⟩) k0_t2.val 1 (by show 10 * k0_t2.val + 0 + 1 = 10 * k0_t2.val + 1; omega) l col hcol
        · exact rload0_apply Rv _ _ _ _ (k0_off22_eq k0_t2 ⟨1, by decide⟩) k0_t2.val 2 (by show 10 * k0_t2.val + 1 + 1 = 10 * k0_t2.val + 2; omega) l col hcol
        · exact rload0_apply Rv _ _ _ _ (k0_off22_eq k0_t2 ⟨2, by decide⟩) k0_t2.val 3 (by show 10 * k0_t2.val + 2 + 1 = 10 * k0_t2.val + 3; omega) l col hcol
        · exact rload0_apply Rv _ _ _ _ (k0_off22_eq k0_t2 ⟨3, by decide⟩) k0_t2.val 4 (by show 10 * k0_t2.val + 3 + 1 = 10 * k0_t2.val + 4; omega) l col hcol
        · exact rload0_apply Rv _ _ _ _ (k0_off22_eq k0_t2 ⟨4, by decide⟩) k0_t2.val 5 (by show 10 * k0_t2.val + 4 + 1 = 10 * k0_t2.val + 5; omega) l col hcol
        · exact rload0_apply Rv _ _ _ _ (k0_off22_eq k0_t2 ⟨5, by decide⟩) k0_t2.val 6 (by show 10 * k0_t2.val + 5 + 1 = 10 * k0_t2.val + 6; omega) l col hcol
        · exact rload0_apply Rv _ _ _ _ (k0_off22_eq k0_t2 ⟨6, by decide⟩) k0_t2.val 7 (by show 10 * k0_t2.val + 6 + 1 = 10 * k0_t2.val + 7; omega) l col hcol
        · exact rload0_apply Rv _ _ _ _ (k0_off22_eq k0_t2 ⟨7, by decide⟩) k0_t2.val 8 (by show 10 * k0_t2.val + 7 + 1 = 10 * k0_t2.val + 8; omega) l col hcol
        · exact rload0_apply Rv _ _ _ _ (k0_off22_eq k0_t2 ⟨8, by decide⟩) k0_t2.val 9 (by show 10 * k0_t2.val + 8 + 1 = 10 * k0_t2.val + 9; omega) l col hcol
    -- column block 4: lanes 64 … 79 of row b
    · dsimp only
      refine piece_mean Wv Rv v57.toNat k0_t2.val hb 4 _ _ (k0_off20_eq k0_t2) _ ?_
      intro l col hcol
      refine (t2_store4 _ _ _ _ _ _ _ _ _ _ _ _ _ _ _ _ _ _ _ _ l).trans ?_
      refine rowVal_mean Wv Rv v57.toNat k0_t2.val hb col _ _ ?_ ?_
      · intro j; fin_cases j
        · exact wload_apply k0_t2_abs.2.1 Wv v57 hg k0_t2 0 (by decide) _ l
        · exact wload_apply k0_t2_abs.2.1 Wv v57 hg k0_t2 1 (by decide) _ l
        · exact wload_apply k0_t2_abs.2.1 Wv v57 hg k0_t2 2 (by decide) _ l
        · exact wload_apply k0_t2_abs.2.1 Wv v57 hg k0_t2 3 (by decide) _ l
        · exact wload_apply k0_t2_abs.2.1 Wv v57 hg k0_t2 4 (by decide) _ l
        · exact wload_apply k0_t2_abs.2.1 Wv v57 hg k0_t2 5 (by decide) _ l
        · exact wload_apply k0_t2_abs.2.1 Wv v57 hg k0_t2 6 (by decide) _ l
        · exact wload_apply k0_t2_abs.2.1 Wv v57 hg k0_t2 7 (by decide) _ l
        · exact wload_apply k0_t2_abs.2.1 Wv v57 hg k0_t2 8 (by decide) _ l
        · exact wload_apply k0_t2_abs.2.1 Wv v57 hg k0_t2 9 (by decide) _ l
      · intro j; fin_cases j
        · exact rload0_apply Rv _ _ _ _ (k0_off18_eq k0_t2) k0_t2.val 0 (by omega) l col hcol
        · exact rload0_apply Rv _ _ _ _ (k0_off19_eq k0_t2 ⟨0, by decide⟩) k0_t2.val 1 (by show 10 * k0_t2.val + 0 + 1 = 10 * k0_t2.val + 1; omega) l col hcol
        · exact rload0_apply Rv _ _ _ _ (k0_off19_eq k0_t2 ⟨1, by decide⟩) k0_t2.val 2 (by show 10 * k0_t2.val + 1 + 1 = 10 * k0_t2.val + 2; omega) l col hcol
        · exact rload0_apply Rv _ _ _ _ (k0_off19_eq k0_t2 ⟨2, by decide⟩) k0_t2.val 3 (by show 10 * k0_t2.val + 2 + 1 = 10 * k0_t2.val + 3; omega) l col hcol
        · exact rload0_apply Rv _ _ _ _ (k0_off19_eq k0_t2 ⟨3, by decide⟩) k0_t2.val 4 (by show 10 * k0_t2.val + 3 + 1 = 10 * k0_t2.val + 4; omega) l col hcol
        · exact rload0_apply Rv _ _ _ _ (k0_off19_eq k0_t2 ⟨4, by decide⟩) k0_t2.val 5 (by show 10 * k0_t2.val + 4 + 1 = 10 * k0_t2.val + 5; omega) l col hcol
        · exact rload0_apply Rv _ _ _ _ (k0_off19_eq k0_t2 ⟨5, by decide⟩) k0_t2.val 6 (by show 10 * k0_t2.val + 5 + 1 = 10 * k0_t2.val + 6; omega) l col hcol
        · exact rload0_apply Rv _ _ _ _ (k0_off19_eq k0_t2 ⟨6, by decide⟩) k0_t2.val 7 (by show 10 * k0_t2.val + 6 + 1 = 10 * k0_t2.val + 7; omega) l col hcol
        · exact rload0_apply Rv _ _ _ _ (k0_off19_eq k0_t2 ⟨7, by decide⟩) k0_t2.val 8 (by show 10 * k0_t2.val + 7 + 1 = 10 * k0_t2.val + 8; omega) l col hcol
        · exact rload0_apply Rv _ _ _ _ (k0_off19_eq k0_t2 ⟨8, by decide⟩) k0_t2.val 9 (by show 10 * k0_t2.val + 8 + 1 = 10 * k0_t2.val + 9; omega) l col hcol
    -- column block 3: lanes 48 … 63 of row b
    · dsimp only
      refine piece_mean Wv Rv v57.toNat k0_t2.val hb 3 _ _ (k0_off17_eq k0_t2) _ ?_
      intro l col hcol
      refine (t2_store3 _ _ _ _ _ _ _ _ _ _ _ _ _ _ _ _ _ _ _ _ l).trans ?_
      refine rowVal_mean Wv Rv v57.toNat k0_t2.val hb col _ _ ?_ ?_
      · intro j; fin_cases j
        · exact wload_apply k0_t2_abs.2.1 Wv v57 hg k0_t2 0 (by decide) _ l
        · exact wload_apply k0_t2_abs.2.1 Wv v57 hg k0_t2 1 (by decide) _ l
        · exact wload_apply k0_t2_abs.2.1 Wv v57 hg k0_t2 2 (by decide) _ l
        · exact wload_apply k0_t2_abs.2.1 Wv v57 hg k0_t2 3 (by decide) _ l
        · exact wload_apply k0_t2_abs.2.1 Wv v57 hg k0_t2 4 (by decide) _ l
        · exact wload_apply k0_t2_abs.2.1 Wv v57 hg k0_t2 5 (by decide) _ l
        · exact wload_apply k0_t2_abs.2.1 Wv v57 hg k0_t2 6 (by decide) _ l
        · exact wload_apply k0_t2_abs.2.1 Wv v57 hg k0_t2 7 (by decide) _ l
        · exact wload_apply k0_t2_abs.2.1 Wv v57 hg k0_t2 8 (by decide) _ l
        · exact wload_apply k0_t2_abs.2.1 Wv v57 hg k0_t2 9 (by decide) _ l
      · intro j; fin_cases j
        · exact rload0_apply Rv _ _ _ _ (k0_off15_eq k0_t2) k0_t2.val 0 (by omega) l col hcol
        · exact rload0_apply Rv _ _ _ _ (k0_off16_eq k0_t2 ⟨0, by decide⟩) k0_t2.val 1 (by show 10 * k0_t2.val + 0 + 1 = 10 * k0_t2.val + 1; omega) l col hcol
        · exact rload0_apply Rv _ _ _ _ (k0_off16_eq k0_t2 ⟨1, by decide⟩) k0_t2.val 2 (by show 10 * k0_t2.val + 1 + 1 = 10 * k0_t2.val + 2; omega) l col hcol
        · exact rload0_apply Rv _ _ _ _ (k0_off16_eq k0_t2 ⟨2, by decide⟩) k0_t2.val 3 (by show 10 * k0_t2.val + 2 + 1 = 10 * k0_t2.val + 3; omega) l col hcol
        · exact rload0_apply Rv _ _ _ _ (k0_off16_eq k0_t2 ⟨3, by decide⟩) k0_t2.val 4 (by show 10 * k0_t2.val + 3 + 1 = 10 * k0_t2.val + 4; omega) l col hcol
        · exact rload0_apply Rv _ _ _ _ (k0_off16_eq k0_t2 ⟨4, by decide⟩) k0_t2.val 5 (by show 10 * k0_t2.val + 4 + 1 = 10 * k0_t2.val + 5; omega) l col hcol
        · exact rload0_apply Rv _ _ _ _ (k0_off16_eq k0_t2 ⟨5, by decide⟩) k0_t2.val 6 (by show 10 * k0_t2.val + 5 + 1 = 10 * k0_t2.val + 6; omega) l col hcol
        · exact rload0_apply Rv _ _ _ _ (k0_off16_eq k0_t2 ⟨6, by decide⟩) k0_t2.val 7 (by show 10 * k0_t2.val + 6 + 1 = 10 * k0_t2.val + 7; omega) l col hcol
        · exact rload0_apply Rv _ _ _ _ (k0_off16_eq k0_t2 ⟨7, by decide⟩) k0_t2.val 8 (by show 10 * k0_t2.val + 7 + 1 = 10 * k0_t2.val + 8; omega) l col hcol
        · exact rload0_apply Rv _ _ _ _ (k0_off16_eq k0_t2 ⟨8, by decide⟩) k0_t2.val 9 (by show 10 * k0_t2.val + 8 + 1 = 10 * k0_t2.val + 9; omega) l col hcol
    -- column block 2: lanes 32 … 47 of row b
    · dsimp only
      refine piece_mean Wv Rv v57.toNat k0_t2.val hb 2 _ _ (k0_off14_eq k0_t2) _ ?_
      intro l col hcol
      refine (t2_store2 _ _ _ _ _ _ _ _ _ _ _ _ _ _ _ _ _ _ _ _ l).trans ?_
      refine rowVal_mean Wv Rv v57.toNat k0_t2.val hb col _ _ ?_ ?_
      · intro j; fin_cases j
        · exact wload_apply k0_t2_abs.2.1 Wv v57 hg k0_t2 0 (by decide) _ l
        · exact wload_apply k0_t2_abs.2.1 Wv v57 hg k0_t2 1 (by decide) _ l
        · exact wload_apply k0_t2_abs.2.1 Wv v57 hg k0_t2 2 (by decide) _ l
        · exact wload_apply k0_t2_abs.2.1 Wv v57 hg k0_t2 3 (by decide) _ l
        · exact wload_apply k0_t2_abs.2.1 Wv v57 hg k0_t2 4 (by decide) _ l
        · exact wload_apply k0_t2_abs.2.1 Wv v57 hg k0_t2 5 (by decide) _ l
        · exact wload_apply k0_t2_abs.2.1 Wv v57 hg k0_t2 6 (by decide) _ l
        · exact wload_apply k0_t2_abs.2.1 Wv v57 hg k0_t2 7 (by decide) _ l
        · exact wload_apply k0_t2_abs.2.1 Wv v57 hg k0_t2 8 (by decide) _ l
        · exact wload_apply k0_t2_abs.2.1 Wv v57 hg k0_t2 9 (by decide) _ l
      · intro j; fin_cases j
        · exact rload0_apply Rv _ _ _ _ (k0_off12_eq k0_t2) k0_t2.val 0 (by omega) l col hcol
        · exact rload0_apply Rv _ _ _ _ (k0_off13_eq k0_t2 ⟨0, by decide⟩) k0_t2.val 1 (by show 10 * k0_t2.val + 0 + 1 = 10 * k0_t2.val + 1; omega) l col hcol
        · exact rload0_apply Rv _ _ _ _ (k0_off13_eq k0_t2 ⟨1, by decide⟩) k0_t2.val 2 (by show 10 * k0_t2.val + 1 + 1 = 10 * k0_t2.val + 2; omega) l col hcol
        · exact rload0_apply Rv _ _ _ _ (k0_off13_eq k0_t2 ⟨2, by decide⟩) k0_t2.val 3 (by show 10 * k0_t2.val + 2 + 1 = 10 * k0_t2.val + 3; omega) l col hcol
        · exact rload0_apply Rv _ _ _ _ (k0_off13_eq k0_t2 ⟨3, by decide⟩) k0_t2.val 4 (by show 10 * k0_t2.val + 3 + 1 = 10 * k0_t2.val + 4; omega) l col hcol
        · exact rload0_apply Rv _ _ _ _ (k0_off13_eq k0_t2 ⟨4, by decide⟩) k0_t2.val 5 (by show 10 * k0_t2.val + 4 + 1 = 10 * k0_t2.val + 5; omega) l col hcol
        · exact rload0_apply Rv _ _ _ _ (k0_off13_eq k0_t2 ⟨5, by decide⟩) k0_t2.val 6 (by show 10 * k0_t2.val + 5 + 1 = 10 * k0_t2.val + 6; omega) l col hcol
        · exact rload0_apply Rv _ _ _ _ (k0_off13_eq k0_t2 ⟨6, by decide⟩) k0_t2.val 7 (by show 10 * k0_t2.val + 6 + 1 = 10 * k0_t2.val + 7; omega) l col hcol
        · exact rload0_apply Rv _ _ _ _ (k0_off13_eq k0_t2 ⟨7, by decide⟩) k0_t2.val 8 (by show 10 * k0_t2.val + 7 + 1 = 10 * k0_t2.val + 8; omega) l col hcol
        · exact rload0_apply Rv _ _ _ _ (k0_off13_eq k0_t2 ⟨8, by decide⟩) k0_t2.val 9 (by show 10 * k0_t2.val + 8 + 1 = 10 * k0_t2.val + 9; omega) l col hcol
    -- column block 1: lanes 16 … 31 of row b
    · dsimp only
      refine piece_mean Wv Rv v57.toNat k0_t2.val hb 1 _ _ (k0_off11_eq k0_t2) _ ?_
      intro l col hcol
      refine (t2_store1 _ _ _ _ _ _ _ _ _ _ _ _ _ _ _ _ _ _ _ _ l).trans ?_
      refine rowVal_mean Wv Rv v57.toNat k0_t2.val hb col _ _ ?_ ?_
      · intro j; fin_cases j
        · exact wload_apply k0_t2_abs.2.1 Wv v57 hg k0_t2 0 (by decide) _ l
        · exact wload_apply k0_t2_abs.2.1 Wv v57 hg k0_t2 1 (by decide) _ l
        · exact wload_apply k0_t2_abs.2.1 Wv v57 hg k0_t2 2 (by decide) _ l
        · exact wload_apply k0_t2_abs.2.1 Wv v57 hg k0_t2 3 (by decide) _ l
        · exact wload_apply k0_t2_abs.2.1 Wv v57 hg k0_t2 4 (by decide) _ l
        · exact wload_apply k0_t2_abs.2.1 Wv v57 hg k0_t2 5 (by decide) _ l
        · exact wload_apply k0_t2_abs.2.1 Wv v57 hg k0_t2 6 (by decide) _ l
        · exact wload_apply k0_t2_abs.2.1 Wv v57 hg k0_t2 7 (by decide) _ l
        · exact wload_apply k0_t2_abs.2.1 Wv v57 hg k0_t2 8 (by decide) _ l
        · exact wload_apply k0_t2_abs.2.1 Wv v57 hg k0_t2 9 (by decide) _ l
      · intro j; fin_cases j
        · exact rload0_apply Rv _ _ _ _ (k0_off9_eq k0_t2) k0_t2.val 0 (by omega) l col hcol
        · exact rload0_apply Rv _ _ _ _ (k0_off10_eq k0_t2 ⟨0, by decide⟩) k0_t2.val 1 (by show 10 * k0_t2.val + 0 + 1 = 10 * k0_t2.val + 1; omega) l col hcol
        · exact rload0_apply Rv _ _ _ _ (k0_off10_eq k0_t2 ⟨1, by decide⟩) k0_t2.val 2 (by show 10 * k0_t2.val + 1 + 1 = 10 * k0_t2.val + 2; omega) l col hcol
        · exact rload0_apply Rv _ _ _ _ (k0_off10_eq k0_t2 ⟨2, by decide⟩) k0_t2.val 3 (by show 10 * k0_t2.val + 2 + 1 = 10 * k0_t2.val + 3; omega) l col hcol
        · exact rload0_apply Rv _ _ _ _ (k0_off10_eq k0_t2 ⟨3, by decide⟩) k0_t2.val 4 (by show 10 * k0_t2.val + 3 + 1 = 10 * k0_t2.val + 4; omega) l col hcol
        · exact rload0_apply Rv _ _ _ _ (k0_off10_eq k0_t2 ⟨4, by decide⟩) k0_t2.val 5 (by show 10 * k0_t2.val + 4 + 1 = 10 * k0_t2.val + 5; omega) l col hcol
        · exact rload0_apply Rv _ _ _ _ (k0_off10_eq k0_t2 ⟨5, by decide⟩) k0_t2.val 6 (by show 10 * k0_t2.val + 5 + 1 = 10 * k0_t2.val + 6; omega) l col hcol
        · exact rload0_apply Rv _ _ _ _ (k0_off10_eq k0_t2 ⟨6, by decide⟩) k0_t2.val 7 (by show 10 * k0_t2.val + 6 + 1 = 10 * k0_t2.val + 7; omega) l col hcol
        · exact rload0_apply Rv _ _ _ _ (k0_off10_eq k0_t2 ⟨7, by decide⟩) k0_t2.val 8 (by show 10 * k0_t2.val + 7 + 1 = 10 * k0_t2.val + 8; omega) l col hcol
        · exact rload0_apply Rv _ _ _ _ (k0_off10_eq k0_t2 ⟨8, by decide⟩) k0_t2.val 9 (by show 10 * k0_t2.val + 8 + 1 = 10 * k0_t2.val + 9; omega) l col hcol
    -- column block 0: lanes 0 … 15 of row b
    · dsimp only
      refine piece_mean Wv Rv v57.toNat k0_t2.val hb 0 _ _ (k0_off8_eq k0_t2) _ ?_
      intro l col hcol
      refine (t2_store0 _ _ _ _ _ _ _ _ _ _ _ _ _ _ _ _ _ _ _ _ l).trans ?_
      refine rowVal_mean Wv Rv v57.toNat k0_t2.val hb col _ _ ?_ ?_
      · intro j; fin_cases j
        · exact wload_apply k0_t2_abs.2.1 Wv v57 hg k0_t2 0 (by decide) _ l
        · exact wload_apply k0_t2_abs.2.1 Wv v57 hg k0_t2 1 (by decide) _ l
        · exact wload_apply k0_t2_abs.2.1 Wv v57 hg k0_t2 2 (by decide) _ l
        · exact wload_apply k0_t2_abs.2.1 Wv v57 hg k0_t2 3 (by decide) _ l
        · exact wload_apply k0_t2_abs.2.1 Wv v57 hg k0_t2 4 (by decide) _ l
        · exact wload_apply k0_t2_abs.2.1 Wv v57 hg k0_t2 5 (by decide) _ l
        · exact wload_apply k0_t2_abs.2.1 Wv v57 hg k0_t2 6 (by decide) _ l
        · exact wload_apply k0_t2_abs.2.1 Wv v57 hg k0_t2 7 (by decide) _ l
        · exact wload_apply k0_t2_abs.2.1 Wv v57 hg k0_t2 8 (by decide) _ l
        · exact wload_apply k0_t2_abs.2.1 Wv v57 hg k0_t2 9 (by decide) _ l
      · intro j; fin_cases j
        · exact rload0_apply Rv _ _ _ _ (k0_off6_eq k0_t2) k0_t2.val 0 (by omega) l col hcol
        · exact rload0_apply Rv _ _ _ _ (k0_off7_eq k0_t2 ⟨0, by decide⟩) k0_t2.val 1 (by show 10 * k0_t2.val + 0 + 1 = 10 * k0_t2.val + 1; omega) l col hcol
        · exact rload0_apply Rv _ _ _ _ (k0_off7_eq k0_t2 ⟨1, by decide⟩) k0_t2.val 2 (by show 10 * k0_t2.val + 1 + 1 = 10 * k0_t2.val + 2; omega) l col hcol
        · exact rload0_apply Rv _ _ _ _ (k0_off7_eq k0_t2 ⟨2, by decide⟩) k0_t2.val 3 (by show 10 * k0_t2.val + 2 + 1 = 10 * k0_t2.val + 3; omega) l col hcol
        · exact rload0_apply Rv _ _ _ _ (k0_off7_eq k0_t2 ⟨3, by decide⟩) k0_t2.val 4 (by show 10 * k0_t2.val + 3 + 1 = 10 * k0_t2.val + 4; omega) l col hcol
        · exact rload0_apply Rv _ _ _ _ (k0_off7_eq k0_t2 ⟨4, by decide⟩) k0_t2.val 5 (by show 10 * k0_t2.val + 4 + 1 = 10 * k0_t2.val + 5; omega) l col hcol
        · exact rload0_apply Rv _ _ _ _ (k0_off7_eq k0_t2 ⟨5, by decide⟩) k0_t2.val 6 (by show 10 * k0_t2.val + 5 + 1 = 10 * k0_t2.val + 6; omega) l col hcol
        · exact rload0_apply Rv _ _ _ _ (k0_off7_eq k0_t2 ⟨6, by decide⟩) k0_t2.val 7 (by show 10 * k0_t2.val + 6 + 1 = 10 * k0_t2.val + 7; omega) l col hcol
        · exact rload0_apply Rv _ _ _ _ (k0_off7_eq k0_t2 ⟨7, by decide⟩) k0_t2.val 8 (by show 10 * k0_t2.val + 7 + 1 = 10 * k0_t2.val + 8; omega) l col hcol
        · exact rload0_apply Rv _ _ _ _ (k0_off7_eq k0_t2 ⟨8, by decide⟩) k0_t2.val 9 (by show 10 * k0_t2.val + 8 + 1 = 10 * k0_t2.val + 9; omega) l col hcol
    case hcov =>
      rcases (show (y 1).val / 16 = 0 ∨ (y 1).val / 16 = 1 ∨ (y 1).val / 16 = 2 ∨ (y 1).val / 16 = 3 ∨ (y 1).val / 16 = 4 ∨ (y 1).val / 16 = 5
          ∨ (y 1).val / 16 = 6 ∨ (y 1).val / 16 = 7 by omega) with h | h | h | h | h | h | h | h
      · refine ⟨_, List.Mem.tail _ (List.Mem.tail _ (List.Mem.tail _ (List.Mem.tail _ (List.Mem.tail _ (List.Mem.tail _ (List.Mem.tail _ (List.Mem.head _))))))), ?_⟩
        dsimp only
        refine Rect.mem_set_unit.mpr ?_
        rw [k0_off8_eq k0_t2]
        intro a
        rcases a with ⟨_ | _ | n, ha⟩
        · show k0_t2.val ≤ (y 0).val ∧ (y 0).val < k0_t2.val + 1; omega
        · show 0 ≤ (y 1).val ∧ (y 1).val < 0 + 16; omega
        · exact absurd ha (by show ¬ (n + 1 + 1 < 2); omega)
      · refine ⟨_, List.Mem.tail _ (List.Mem.tail _ (List.Mem.tail _ (List.Mem.tail _ (List.Mem.tail _ (List.Mem.tail _ (List.Mem.head _)))))), ?_⟩
        dsimp only
        refine Rect.mem_set_unit.mpr ?_
        rw [k0_off11_eq k0_t2]
        intro a
        rcases a with ⟨_ | _ | n, ha⟩
        · show k0_t2.val ≤ (y 0).val ∧ (y 0).val < k0_t2.val + 1; omega
        · show 16 ≤ (y 1).val ∧ (y 1).val < 16 + 16; omega
        · exact absurd ha (by show ¬ (n + 1 + 1 < 2); omega)
      · refine ⟨_, List.Mem.tail _ (List.Mem.tail _ (List.Mem.tail _ (List.Mem.tail _ (List.Mem.tail _ (List.Mem.head _))))), ?_⟩
        dsimp only
        refine Rect.mem_set_unit.mpr ?_
        rw [k0_off14_eq k0_t2]
        intro a
        rcases a with ⟨_ | _ | n, ha⟩
        · show k0_t2.val ≤ (y 0).val ∧ (y 0).val < k0_t2.val + 1; omega
        · show 32 ≤ (y 1).val ∧ (y 1).val < 32 + 16; omega
        · exact absurd ha (by show ¬ (n + 1 + 1 < 2); omega)
      · refine ⟨_, List.Mem.tail _ (List.Mem.tail _ (List.Mem.tail _ (List.Mem.tail _ (List.Mem.head _)))), ?_⟩
        dsimp only
        refine Rect.mem_set_unit.mpr ?_
        rw [k0_off17_eq k0_t2]
        intro a
        rcases a with ⟨_ | _ | n, ha⟩
        · show k0_t2.val ≤ (y 0).val ∧ (y 0).val < k0_t2.val + 1; omega
        · show 48 ≤ (y 1).val ∧ (y 1).val < 48 + 16; omega
        · exact absurd ha (by show ¬ (n + 1 + 1 < 2); omega)
      · refine ⟨_, List.Mem.tail _ (List.Mem.tail _ (List.Mem.tail _ (List.Mem.head _))), ?_⟩
        dsimp only
        refine Rect.mem_set_unit.mpr ?_
        rw [k0_off20_eq k0_t2]
        intro a
        rcases a with ⟨_ | _ | n, ha⟩
        · show k0_t2.val ≤ (y 0).val ∧ (y 0).val < k0_t2.val + 1; omega
        · show 64 ≤ (y 1).val ∧ (y 1).val < 64 + 16; omega
        · exact absurd ha (by show ¬ (n + 1 + 1 < 2); omega)
      · refine ⟨_, List.Mem.tail _ (List.Mem.tail _ (List.Mem.head _)), ?_⟩
        dsimp only
        refine Rect.mem_set_unit.mpr ?_
        rw [k0_off23_eq k0_t2]
        intro a
        rcases a with ⟨_ | _ | n, ha⟩
        · show k0_t2.val ≤ (y 0).val ∧ (y 0).val < k0_t2.val + 1; omega
        · show 80 ≤ (y 1).val ∧ (y 1).val < 80 + 16; omega
        · exact absurd ha (by show ¬ (n + 1 + 1 < 2); omega)
      · refine ⟨_, List.Mem.tail _ (List.Mem.head _), ?_⟩
        dsimp only
        refine Rect.mem_set_unit.mpr ?_
        rw [k0_off26_eq k0_t2]
        intro a
        rcases a with ⟨_ | _ | n, ha⟩
        · show k0_t2.val ≤ (y 0).val ∧ (y 0).val < k0_t2.val + 1; omega
        · show 96 ≤ (y 1).val ∧ (y 1).val < 96 + 16; omega
        · exact absurd ha (by show ¬ (n + 1 + 1 < 2); omega)
      · refine ⟨_, List.Mem.head _, ?_⟩
        dsimp only
        refine Rect.mem_set_unit.mpr ?_
        rw [k0_off29_eq k0_t2]
        intro a
        rcases a with ⟨_ | _ | n, ha⟩
        · show k0_t2.val ≤ (y 0).val ∧ (y 0).val < k0_t2.val + 1; omega
        · show 112 ≤ (y 1).val ∧ (y 1).val < 112 + 16; omega
        · exact absurd ha (by show ¬ (n + 1 + 1 < 2); omega)
    · unfold meanUpTo; rw [if_pos (by omega)]
  · -- another row: no piece touches it
    refine (whole0_writes_of_not_mem (F := F) _ y _ (List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, fun _ h => absurd h List.not_mem_nil⟩⟩⟩⟩⟩⟩⟩⟩)).trans ?_
    · dsimp only; intro hm; have h0 := (Rect.mem_set_unit.mp hm) 0; rw [k0_off29_eq k0_t2] at h0; simp only [Matrix.cons_val_zero] at h0; have : S1x16.size 0 = 1 := rfl; omega
    · dsimp only; intro hm; have h0 := (Rect.mem_set_unit.mp hm) 0; rw [k0_off26_eq k0_t2] at h0; simp only [Matrix.cons_val_zero] at h0; have : S1x16.size 0 = 1 := rfl; omega
    · dsimp only; intro hm; have h0 := (Rect.mem_set_unit.mp hm) 0; rw [k0_off23_eq k0_t2] at h0; simp only [Matrix.cons_val_zero] at h0; have : S1x16.size 0 = 1 := rfl; omega
    · dsimp only; intro hm; have h0 := (Rect.mem_set_unit.mp hm) 0; rw [k0_off20_eq k0_t2] at h0; simp only [Matrix.cons_val_zero] at h0; have : S1x16.size 0 = 1 := rfl; omega
    · dsimp only; intro hm; have h0 := (Rect.mem_set_unit.mp hm) 0; rw [k0_off17_eq k0_t2] at h0; simp only [Matrix.cons_val_zero] at h0; have : S1x16.size 0 = 1 := rfl; omega
    · dsimp only; intro hm; have h0 := (Rect.mem_set_unit.mp hm) 0; rw [k0_off14_eq k0_t2] at h0; simp only [Matrix.cons_val_zero] at h0; have : S1x16.size 0 = 1 := rfl; omega
    · dsimp only; intro hm; have h0 := (Rect.mem_set_unit.mp hm) 0; rw [k0_off11_eq k0_t2] at h0; simp only [Matrix.cons_val_zero] at h0; have : S1x16.size 0 = 1 := rfl; omega
    · dsimp only; intro hm; have h0 := (Rect.mem_set_unit.mp hm) 0; rw [k0_off8_eq k0_t2] at h0; simp only [Matrix.cons_val_zero] at h0; have : S1x16.size 0 = 1 := rfl; omega
    · unfold meanUpTo
      by_cases h1 : (y 0).val < k0_t2.val
      · rw [if_pos h1, if_pos (by omega)]
      · rw [if_neg h1, if_neg (by omega)]

omit [FloatOps F] in
theorem trips0_eq : k0_t2_loop.trips = 8 := by decide

set_option maxHeartbeats 4000000 in
/-- Slot 0's inner loop: its eight trips leave the output scratch at the group's means, the weights and the gathered rows as they were. -/
theorem inner_loop0 : InnerLoop0 (F := F) d L := by
  intro v1 v5 t v57 g hv hg qw qr Wv Rv f0
  subst hv
  iintro ⟨Hw, Hr, Hn⟩
  sl_for (inv0 (F := F) d L qw qr Wv Rv v57.toNat f0) $$ [Hw Hr Hn]
  case region =>
    intro k acc
    exact trip0 (F := F) d L v1 v5 t v57 hg qw qr Wv Rv f0 k acc
  · isplitl [Hw Hr Hn]
    · -- before the first trip no row is done: the output scratch as it started
      unfold inv0
      isplitl [Hw]; · iexact Hw
      isplitl [Hr]; · iexact Hr
      iexists _
      isplitl [Hn]; · iexact Hn
      ipureintro
      funext y
      unfold meanUpTo
      rw [if_neg (Nat.not_lt_zero _)]
    · -- after the eighth trip every row is done
      iintro %acc HI
      unfold inv0
      icases HI with ⟨Hw, Hr, %f', Hn, %hf'⟩
      subst hf'
      have hfin : (meanUpTo Wv Rv v57.toNat k0_t2_loop.trips f0 : S8x128.Idx → F .f32) = meanOf Wv Rv v57.toNat := by
        funext y
        have hy : (y 0).val < 8 := (y 0).isLt
        unfold meanUpTo
        rw [trips0_eq, if_pos hy]
      rw [hfin]
      isplitl [Hw]; · iexact Hw
      isplitl [Hr]; · iexact Hr
      iexact Hn

/-! ## Slot 1 -/

/-- A lane of a loaded 16-column slice of a gathered row (slot 1) is the rows' word at (row, column + lane). -/
theorem rload1_apply (Rv : S80x128.Idx → F .f32) (off : Fin 2 → ℕ)
    (inb : ∀ a, off a + S1x16.size a ≤ S80x128.size a) (ro c : ℕ) (hoff : off = ![ro, c]) (b j : ℕ) (hro : ro = 10 * b + j)
    (l : S16.Idx) (col : Fin 128) (hcol : col.val = c + (l 0).val) :
    shapeCast S16 (View.readAt (Elt F) sRows1.view (Rect.unit (s := S80x128) off S1x16.size inb).toLoadRect Rv) shapeCasts_S1x16_S16 l
      = Rv (Shape.pair (d := ![80, 128]) ⟨(10 * b + j) % 80, Nat.mod_lt _ (by decide)⟩ col) := by
  subst hoff hro
  have h0 := inb 0
  have hl : (l 0).val < 16 := (l 0).isLt
  simp only [Matrix.cons_val_zero] at h0
  have h0' : 10 * b + j + 1 ≤ 80 := h0
  rw [shapeCast_apply _ shapeCasts_S1x16_S16 l (Shape.pair (d := ![1, 16]) ⟨0, by decide⟩ ⟨(l 0).val, hl⟩)
    (by rw [Shape.rowMajor_val_two, Shape.rowMajor_val_one]; show 0 * 16 + (l 0).val = (l 0).val; omega)]
  rw [View.readAt_apply]
  show Rv _ = Rv _
  congr 1
  funext a
  apply Fin.ext
  rcases a with ⟨_ | _ | n, ha⟩
  · show (10 * b + j) + 1 * 0 = (10 * b + j) % 80
    rw [Nat.mod_eq_of_lt (by omega)]; omega
  · show c + 1 * (l 0).val = col.val
    omega
  · exact absurd ha (by show ¬ (n + 1 + 1 < 2); omega)

/-- Before trip `k` of slot 1's inner loop: the weights and the gathered rows as they were, the output rows below `k` at the group's means, the rest as they started. -/
def inv1 (qw qr : PosShare TreeShare) (Wv : S17760.Idx → F .f32) (Rv : S80x128.Idx → F .f32) (g : ℕ) (f0 : S8x128.Idx → F .f32)
    (k : ℕ) (_ : BitVec 32) : sProp 𝕄 :=
  iprop(((sW).view.loc (tthr d L) ↦{qw} (Wv : Buf (Elt F) ((tthr d L).loc cc0_scratch2)))
    ∗ ((sRows1).view.loc (tthr d L) ↦{qr} (Rv : Buf (Elt F) ((tthr d L).loc cc0_scratch4)))
    ∗ ∃ f' : Buf (Elt F) ((tthr d L).loc cc0_scratch8), ((sNout1).view.loc (tthr d L) ↦{fullShare} f') ∗ ⌜f' = meanUpTo Wv Rv g k f0⌝)

omit [FloatOps F] in
/-- What the eight stores of a trip leave, read through a whole buffer: a word some piece covers, all pieces agreeing with one function. -/
theorem whole1_writes_of_pieces (f G : S8x128.Idx → F .f32) :
    ∀ Ls : List (View.Piece (Elt F) S8x128 .f32), (∀ p ∈ Ls, ∀ x : p.1.shape.Idx, p.2 x = G (p.1.emb x)) →
      ∀ y : S8x128.Idx, (∃ p ∈ Ls, y ∈ p.1.set) → (sNout1).view.writes (Elt F) f Ls y = G y :=
  fun Ls hG y h => View.read_writes_apply_of_pieces (Val := Elt F) (sNout1).view f G Ls hG y h

omit [FloatOps F] in
/-- A word no piece covers keeps its value. -/
theorem whole1_writes_of_not_mem (f : S8x128.Idx → F .f32) (y : S8x128.Idx) :
    ∀ Ls : List (View.Piece (Elt F) S8x128 .f32), (∀ p ∈ Ls, y ∉ p.1.set) →
      (sNout1).view.writes (Elt F) f Ls y = f y :=
  fun Ls h => View.read_writes_apply_of_forall_not_mem (Val := Elt F) (sNout1).view f y Ls h

set_option maxHeartbeats 8000000 in
set_option maxRecDepth 65536 in
/-- One trip of slot 1's inner loop: ten gathered weights (each index in range), eighty row slices, eight stores: row `k` of the output becomes the mean's. -/
theorem trip1 (v1 v5 : BitVec 32) (v80 : BitVec 32) (hg : v80.toNat < 222)
    (qw qr : PosShare TreeShare) (Wv : S17760.Idx → F .f32) (Rv : S80x128.Idx → F .f32) (f0 : S8x128.Idx → F .f32)
    (k0_t3 : Fin k0_t3_loop.trips) (arg28 : BitVec 32) :
    (inv1 (F := F) d L qw qr Wv Rv v80.toNat f0 k0_t3.val arg28 : sProp 𝕄)
      ⊢ wp frame (wpE (defs₀ (F := F)) 𝒱₀ (tthr d L) none) Set.univ
          (k0_t3_body (F := F) L nidxV (Memref.isWhole_whole _) nodesV (Memref.isWhole_whole _) wV (Memref.isWhole_whole _) tblV (Memref.isWhole_whole _) noutV (Memref.isWhole_whole _) soutV (Memref.isWhole_whole _) sNidx (Memref.isWhole_whole _) sNodes (Memref.isWhole_whole _) sW (Memref.isWhole_whole _) sRows0 (Memref.isWhole_whole _) sRows1 (Memref.isWhole_whole _) sSst0 (Memref.isWhole_whole _) sSst1 (Memref.isWhole_whole _) sNout0 (Memref.isWhole_whole _) sNout1 (Memref.isWhole_whole _) cc0_scratch9 cc0_scratch10 cc0_scratch11 cc0_scratch12 cc0_scratch13 cc0_scratch14 cc0_scratch15 cc0_scratch16 cc0_scoped0 cc0_scoped1 cc0_scoped2 v1 v5 v80 k0_t3 arg28)
          (inv1 (F := F) d L qw qr Wv Rv v80.toNat f0 (k0_t3.val + 1)) := by
  have hb : k0_t3.val < 8 := Nat.lt_of_lt_of_le k0_t3.isLt k0_t3_abs.2.1
  unfold inv1
  iintro ⟨Hw, Hr, %f', Hn, %hf'⟩
  subst hf'
  unfold k0_t3_body
  rw [k0_part13_eq_skeleton]; unfold k0_part13_skel
  ihave Hw := (Entails.of_eq (pts_sW_access (F := F) d L qw _).symm) $$ Hw
  sl_exec (disch := exact chk_ok k0_t3_abs.2.1 v80 hg k0_t3 0 (by decide))
  rw [Prog.bind_assoc]
  iapply (SparseCore.wp_vectorLoadIdx 𝒱₀ (tthr d L) none Set.univ (base := sW) (S := Finset.univ) (q := qw) (Finset.subset_univ _)) $$ Hw; iintro Hw
  sl_exec (disch := exact chk_ok k0_t3_abs.2.1 v80 hg k0_t3 1 (by decide))
  rw [Prog.bind_assoc]
  iapply (SparseCore.wp_vectorLoadIdx 𝒱₀ (tthr d L) none Set.univ (base := sW) (S := Finset.univ) (q := qw) (Finset.subset_univ _)) $$ Hw; iintro Hw
  sl_exec (disch := exact chk_ok k0_t3_abs.2.1 v80 hg k0_t3 2 (by decide))
  rw [Prog.bind_assoc]
  iapply (SparseCore.wp_vectorLoadIdx 𝒱₀ (tthr d L) none Set.univ (base := sW) (S := Finset.univ) (q := qw) (Finset.subset_univ _)) $$ Hw; iintro Hw
  sl_exec (disch := exact chk_ok k0_t3_abs.2.1 v80 hg k0_t3 3 (by decide))
  rw [Prog.bind_assoc]
  iapply (SparseCore.wp_vectorLoadIdx 𝒱₀ (tthr d L) none Set.univ (base := sW) (S := Finset.univ) (q := qw) (Finset.subset_univ _)) $$ Hw; iintro Hw
  sl_exec (disch := exact chk_ok k0_t3_abs.2.1 v80 hg k0_t3 4 (by decide))
  rw [Prog.bind_assoc]
  iapply (SparseCore.wp_vectorLoadIdx 𝒱₀ (tthr d L) none Set.univ (base := sW) (S := Finset.univ) (q := qw) (Finset.subset_univ _)) $$ Hw; iintro Hw
  sl_exec (disch := exact chk_ok k0_t3_abs.2.1 v80 hg k0_t3 5 (by decide))
  rw [Prog.bind_assoc]
  iapply (SparseCore.wp_vectorLoadIdx 𝒱₀ (tthr d L) none Set.univ (base := sW) (S := Finset.univ) (q := qw) (Finset.subset_univ _)) $$ Hw; iintro Hw
  sl_exec (disch := exact chk_ok k0_t3_abs.2.1 v80 hg k0_t3 6 (by decide))
  rw [Prog.bind_assoc]
  iapply (SparseCore.wp_vectorLoadIdx 𝒱₀ (tthr d L) none Set.univ (base := sW) (S := Finset.univ) (q := qw) (Finset.subset_univ _)) $$ Hw; iintro Hw
  sl_exec (disch := exact chk_ok k0_t3_abs.2.1 v80 hg k0_t3 7 (by decide))
  rw [Prog.bind_assoc]
  iapply (SparseCore.wp_vectorLoadIdx 𝒱₀ (tthr d L) none Set.univ (base := sW) (S := Finset.univ) (q := qw) (Finset.subset_univ _)) $$ Hw; iintro Hw
  sl_exec (disch := exact chk_ok k0_t3_abs.2.1 v80 hg k0_t3 8 (by decide))
  rw [Prog.bind_assoc]
  iapply (SparseCore.wp_vectorLoadIdx 𝒱₀ (tthr d L) none Set.univ (base := sW) (S := Finset.univ) (q := qw) (Finset.subset_univ _)) $$ Hw; iintro Hw
  sl_exec (disch := exact chk_ok k0_t3_abs.2.1 v80 hg k0_t3 9 (by decide))
  rw [Prog.bind_assoc]
  iapply (SparseCore.wp_vectorLoadIdx 𝒱₀ (tthr d L) none Set.univ (base := sW) (S := Finset.univ) (q := qw) (Finset.subset_univ _)) $$ Hw; iintro Hw
  ihave Hw := (Entails.of_eq (pts_sW_access (F := F) d L qw _)) $$ Hw
  sl_exec
  sl_step
  isplitl [Hw]; · iexact Hw
  isplitl [Hr]; · iexact Hr
  iexists _
  isplitl [Hn]; · iexact Hn
  ipureintro
  sl_unfold_run_names
  funext y
  by_cases hy : (y 0).val = k0_t3.val
  · -- row k: the eight pieces cover it and each agrees with the mean
    have hy1 : (y 1).val < 128 := (y 1).isLt
    refine (whole1_writes_of_pieces (F := F) _ (meanOf Wv Rv v80.toNat) _ (List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, fun _ h => absurd h List.not_mem_nil⟩⟩⟩⟩⟩⟩⟩⟩) y ?hcov).trans ?_
    -- column block 7: lanes 112 … 127 of row b
    · dsimp only
      refine piece_mean Wv Rv v80.toNat k0_t3.val hb 7 _ _ (k0_off58_eq k0_t3) _ ?_
      intro l col hcol
      refine (t3_store7 _ _ _ _ _ _ _ _ _ _ _ _ _ _ _ _ _ _ _ _ l).trans ?_
      refine rowVal_mean Wv Rv v80.toNat k0_t3.val hb col _ _ ?_ ?_
      · intro j; fin_cases j
        · exact wload_apply k0_t3_abs.2.1 Wv v80 hg k0_t3 0 (by decide) _ l
        · exact wload_apply k0_t3_abs.2.1 Wv v80 hg k0_t3 1 (by decide) _ l
        · exact wload_apply k0_t3_abs.2.1 Wv v80 hg k0_t3 2 (by decide) _ l
        · exact wload_apply k0_t3_abs.2.1 Wv v80 hg k0_t3 3 (by decide) _ l
        · exact wload_apply k0_t3_abs.2.1 Wv v80 hg k0_t3 4 (by decide) _ l
        · exact wload_apply k0_t3_abs.2.1 Wv v80 hg k0_t3 5 (by decide) _ l
        · exact wload_apply k0_t3_abs.2.1 Wv v80 hg k0_t3 6 (by decide) _ l
        · exact wload_apply k0_t3_abs.2.1 Wv v80 hg k0_t3 7 (by decide) _ l
        · exact wload_apply k0_t3_abs.2.1 Wv v80 hg k0_t3 8 (by decide) _ l
        · exact wload_apply k0_t3_abs.2.1 Wv v80 hg k0_t3 9 (by decide) _ l
      · intro j; fin_cases j
        · exact rload1_apply Rv _ _ _ _ (k0_off56_eq k0_t3) k0_t3.val 0 (by omega) l col hcol
        · exact rload1_apply Rv _ _ _ _ (k0_off57_eq k0_t3 ⟨0, by decide⟩) k0_t3.val 1 (by show 10 * k0_t3.val + 0 + 1 = 10 * k0_t3.val + 1; omega) l col hcol
        · exact rload1_apply Rv _ _ _ _ (k0_off57_eq k0_t3 ⟨1, by decide⟩) k0_t3.val 2 (by show 10 * k0_t3.val + 1 + 1 = 10 * k0_t3.val + 2; omega) l col hcol
        · exact rload1_apply Rv _ _ _ _ (k0_off57_eq k0_t3 ⟨2, by decide⟩) k0_t3.val 3 (by show 10 * k0_t3.val + 2 + 1 = 10 * k0_t3.val + 3; omega) l col hcol
        · exact rload1_apply Rv _ _ _ _ (k0_off57_eq k0_t3 ⟨3, by decide⟩) k0_t3.val 4 (by show 10 * k0_t3.val + 3 + 1 = 10 * k0_t3.val + 4; omega) l col hcol
        · exact rload1_apply Rv _ _ _ _ (k0_off57_eq k0_t3 ⟨4, by decide⟩) k0_t3.val 5 (by show 10 * k0_t3.val + 4 + 1 = 10 * k0_t3.val + 5; omega) l col hcol
        · exact rload1_apply Rv _ _ _ _ (k0_off57_eq k0_t3 ⟨5, by decide⟩) k0_t3.val 6 (by show 10 * k0_t3.val + 5 + 1 = 10 * k0_t3.val + 6; omega) l col hcol
        · exact rload1_apply Rv _ _ _ _ (k0_off57_eq k0_t3 ⟨6, by decide⟩) k0_t3.val 7 (by show 10 * k0_t3.val + 6 + 1 = 10 * k0_t3.val + 7; omega) l col hcol
        · exact rload1_apply Rv _ _ _ _ (k0_off57_eq k0_t3 ⟨7, by decide⟩) k0_t3.val 8 (by show 10 * k0_t3.val + 7 + 1 = 10 * k0_t3.val + 8; omega) l col hcol
        · exact rload1_apply Rv _ _ _ _ (k0_off57_eq k0_t3 ⟨8, by decide⟩) k0_t3.val 9 (by show 10 * k0_t3.val + 8 + 1 = 10 * k0_t3.val + 9; omega) l col hcol
    -- column block 6: lanes 96 … 111 of row b
    · dsimp only
      refine piece_mean Wv Rv v80.toNat k0_t3.val hb 6 _ _ (k0_off55_eq k0_t3) _ ?_
      intro l col hcol
      refine (t3_store6 _ _ _ _ _ _ _ _ _ _ _ _ _ _ _ _ _ _ _ _ l).trans ?_
      refine rowVal_mean Wv Rv v80.toNat k0_t3.val hb col _ _ ?_ ?_
      · intro j; fin_cases j
        · exact wload_apply k0_t3_abs.2.1 Wv v80 hg k0_t3 0 (by decide) _ l
        · exact wload_apply k0_t3_abs.2.1 Wv v80 hg k0_t3 1 (by decide) _ l
        · exact wload_apply k0_t3_abs.2.1 Wv v80 hg k0_t3 2 (by decide) _ l
        · exact wload_apply k0_t3_abs.2.1 Wv v80 hg k0_t3 3 (by decide) _ l
        · exact wload_apply k0_t3_abs.2.1 Wv v80 hg k0_t3 4 (by decide) _ l
        · exact wload_apply k0_t3_abs.2.1 Wv v80 hg k0_t3 5 (by decide) _ l
        · exact wload_apply k0_t3_abs.2.1 Wv v80 hg k0_t3 6 (by decide) _ l
        · exact wload_apply k0_t3_abs.2.1 Wv v80 hg k0_t3 7 (by decide) _ l
        · exact wload_apply k0_t3_abs.2.1 Wv v80 hg k0_t3 8 (by decide) _ l
        · exact wload_apply k0_t3_abs.2.1 Wv v80 hg k0_t3 9 (by decide) _ l
      · intro j; fin_cases j
        · exact rload1_apply Rv _ _ _ _ (k0_off53_eq k0_t3) k0_t3.val 0 (by omega) l col hcol
        · exact rload1_apply Rv _ _ _ _ (k0_off54_eq k0_t3 ⟨0, by decide⟩) k0_t3.val 1 (by show 10 * k0_t3.val + 0 + 1 = 10 * k0_t3.val + 1; omega) l col hcol
        · exact rload1_apply Rv _ _ _ _ (k0_off54_eq k0_t3 ⟨1, by decide⟩) k0_t3.val 2 (by show 10 * k0_t3.val + 1 + 1 = 10 * k0_t3.val + 2; omega) l col hcol
        · exact rload1_apply Rv _ _ _ _ (k0_off54_eq k0_t3 ⟨2, by decide⟩) k0_t3.val 3 (by show 10 * k0_t3.val + 2 + 1 = 10 * k0_t3.val + 3; omega) l col hcol
        · exact rload1_apply Rv _ _ _ _ (k0_off54_eq k0_t3 ⟨3, by decide⟩) k0_t3.val 4 (by show 10 * k0_t3.val + 3 + 1 = 10 * k0_t3.val + 4; omega) l col hcol
        · exact rload1_apply Rv _ _ _ _ (k0_off54_eq k0_t3 ⟨4, by decide⟩) k0_t3.val 5 (by show 10 * k0_t3.val + 4 + 1 = 10 * k0_t3.val + 5; omega) l col hcol
        · exact rload1_apply Rv _ _ _ _ (k0_off54_eq k0_t3 ⟨5, by decide⟩) k0_t3.val 6 (by show 10 * k0_t3.val + 5 + 1 = 10 * k0_t3.val + 6; omega) l col hcol
        · exact rload1_apply Rv _ _ _ _ (k0_off54_eq k0_t3 ⟨6, by decide⟩) k0_t3.val 7 (by show 10 * k0_t3.val + 6 + 1 = 10 * k0_t3.val + 7; omega) l col hcol
        · exact rload1_apply Rv _ _ _ _ (k0_off54_eq k0_t3 ⟨7, by decide⟩) k0_t3.val 8 (by show 10 * k0_t3.val + 7 + 1 = 10 * k0_t3.val + 8; omega) l col hcol
        · exact rload1_apply Rv _ _ _ _ (k0_off54_eq k0_t3 ⟨8, by decide⟩) k0_t3.val 9 (by show 10 * k0_t3.val + 8 + 1 = 10 * k0_t3.val + 9; omega) l col hcol
    -- column block 5: lanes 80 … 95 of row b
    · dsimp only
      refine piece_mean Wv Rv v80.toNat k0_t3.val hb 5 _ _ (k0_off52_eq k0_t3) _ ?_
      intro l col hcol
      refine (t3_store5 _ _ _ _ _ _ _ _ _ _ _ _ _ _ _ _ _ _ _ _ l).trans ?_
      refine rowVal_mean Wv Rv v80.toNat k0_t3.val hb col _ _ ?_ ?_
      · intro j; fin_cases j
        · exact wload_apply k0_t3_abs.2.1 Wv v80 hg k0_t3 0 (by decide) _ l
        · exact wload_apply k0_t3_abs.2.1 Wv v80 hg k0_t3 1 (by decide) _ l
        · exact wload_apply k0_t3_abs.2.1 Wv v80 hg k0_t3 2 (by decide) _ l
        · exact wload_apply k0_t3_abs.2.1 Wv v80 hg k0_t3 3 (by decide) _ l
        · exact wload_apply k0_t3_abs.2.1 Wv v80 hg k0_t3 4 (by decide) _ l
        · exact wload_apply k0_t3_abs.2.1 Wv v80 hg k0_t3 5 (by decide) _ l
        · exact wload_apply k0_t3_abs.2.1 Wv v80 hg k0_t3 6 (by decide) _ l
        · exact wload_apply k0_t3_abs.2.1 Wv v80 hg k0_t3 7 (by decide) _ l
        · exact wload_apply k0_t3_abs.2.1 Wv v80 hg k0_t3 8 (by decide) _ l
        · exact wload_apply k0_t3_abs.2.1 Wv v80 hg k0_t3 9 (by decide) _ l
      · intro j; fin_cases j
        · exact rload1_apply Rv _ _ _ _ (k0_off50_eq k0_t3) k0_t3.val 0 (by omega) l col hcol
        · exact rload1_apply Rv _ _ _ _ (k0_off51_eq k0_t3 ⟨0, by decide⟩) k0_t3.val 1 (by show 10 * k0_t3.val + 0 + 1 = 10 * k0_t3.val + 1; omega) l col hcol
        · exact rload1_apply Rv _ _ _ _ (k0_off51_eq k0_t3 ⟨1, by decide⟩) k0_t3.val 2 (by show 10 * k0_t3.val + 1 + 1 = 10 * k0_t3.val + 2; omega) l col hcol
        · exact rload1_apply Rv _ _ _ _ (k0_off51_eq k0_t3 ⟨2, by decide⟩) k0_t3.val 3 (by show 10 * k0_t3.val + 2 + 1 = 10 * k0_t3.val + 3; omega) l col hcol
        · exact rload1_apply Rv _ _ _ _ (k0_off51_eq k0_t3 ⟨3, by decide⟩) k0_t3.val 4 (by show 10 * k0_t3.val + 3 + 1 = 10 * k0_t3.val + 4; omega) l col hcol
        · exact rload1_apply Rv _ _ _ _ (k0_off51_eq k0_t3 ⟨4, by decide⟩) k0_t3.val 5 (by show 10 * k0_t3.val + 4 + 1 = 10 * k0_t3.val + 5; omega) l col hcol
        · exact rload1_apply Rv _ _ _ _ (k0_off51_eq k0_t3 ⟨5, by decide⟩) k0_t3.val 6 (by show 10 * k0_t3.val + 5 + 1 = 10 * k0_t3.val + 6; omega) l col hcol
        · exact rload1_apply Rv _ _ _ _ (k0_off51_eq k0_t3 ⟨6, by decide⟩) k0_t3.val 7 (by show 10 * k0_t3.val + 6 + 1 = 10 * k0_t3.val + 7; omega) l col hcol
        · exact rload1_apply Rv _ _ _ _ (k0_off51_eq k0_t3 ⟨7, by decide⟩) k0_t3.val 8 (by show 10 * k0_t3.val + 7 + 1 = 10 * k0_t3.val + 8; omega) l col hcol
        · exact rload1_apply Rv _ _ _ _ (k0_off51_eq k0_t3 ⟨8, by decide⟩) k0_t3.val 9 (by show 10 * k0_t3.val + 8 + 1 = 10 * k0_t3.val + 9; omega) l col hcol
    -- column block 4: lanes 64 … 79 of row b
    · dsimp only
      refine piece_mean Wv Rv v80.toNat k0_t3.val hb 4 _ _ (k0_off49_eq k0_t3) _ ?_
      intro l col hcol
      refine (t3_store4 _ _ _ _ _ _ _ _ _ _ _ _ _ _ _ _ _ _ _ _ l).trans ?_
      refine rowVal_mean Wv Rv v80.toNat k0_t3.val hb col _ _ ?_ ?_
      · intro j; fin_cases j
        · exact wload_apply k0_t3_abs.2.1 Wv v80 hg k0_t3 0 (by decide) _ l
        · exact wload_apply k0_t3_abs.2.1 Wv v80 hg k0_t3 1 (by decide) _ l
        · exact wload_apply k0_t3_abs.2.1 Wv v80 hg k0_t3 2 (by decide) _ l
        · exact wload_apply k0_t3_abs.2.1 Wv v80 hg k0_t3 3 (by decide) _ l
        · exact wload_apply k0_t3_abs.2.1 Wv v80 hg k0_t3 4 (by decide) _ l
        · exact wload_apply k0_t3_abs.2.1 Wv v80 hg k0_t3 5 (by decide) _ l
        · exact wload_apply k0_t3_abs.2.1 Wv v80 hg k0_t3 6 (by decide) _ l
        · exact wload_apply k0_t3_abs.2.1 Wv v80 hg k0_t3 7 (by decide) _ l
        · exact wload_apply k0_t3_abs.2.1 Wv v80 hg k0_t3 8 (by decide) _ l
        · exact wload_apply k0_t3_abs.2.1 Wv v80 hg k0_t3 9 (by decide) _ l
      · intro j; fin_cases j
        · exact rload1_apply Rv _ _ _ _ (k0_off47_eq k0_t3) k0_t3.val 0 (by omega) l col hcol
        · exact rload1_apply Rv _ _ _ _ (k0_off48_eq k0_t3 ⟨0, by decide⟩) k0_t3.val 1 (by show 10 * k0_t3.val + 0 + 1 = 10 * k0_t3.val + 1; omega) l col hcol
        · exact rload1_apply Rv _ _ _ _ (k0_off48_eq k0_t3 ⟨1, by decide⟩) k0_t3.val 2 (by show 10 * k0_t3.val + 1 + 1 = 10 * k0_t3.val + 2; omega) l col hcol
        · exact rload1_apply Rv _ _ _ _ (k0_off48_eq k0_t3 ⟨2, by decide⟩) k0_t3.val 3 (by show 10 * k0_t3.val + 2 + 1 = 10 * k0_t3.val + 3; omega) l col hcol
        · exact rload1_apply Rv _ _ _ _ (k0_off48_eq k0_t3 ⟨3, by decide⟩) k0_t3.val 4 (by show 10 * k0_t3.val + 3 + 1 = 10 * k0_t3.val + 4; omega) l col hcol
        · exact rload1_apply Rv _ _ _ _ (k0_off48_eq k0_t3 ⟨4, by decide⟩) k0_t3.val 5 (by show 10 * k0_t3.val + 4 + 1 = 10 * k0_t3.val + 5; omega) l col hcol
        · exact rload1_apply Rv _ _ _ _ (k0_off48_eq k0_t3 ⟨5, by decide⟩) k0_t3.val 6 (by show 10 * k0_t3.val + 5 + 1 = 10 * k0_t3.val + 6; omega) l col hcol
        · exact rload1_apply Rv _ _ _ _ (k0_off48_eq k0_t3 ⟨6, by decide⟩) k0_t3.val 7 (by show 10 * k0_t3.val + 6 + 1 = 10 * k0_t3.val + 7; omega) l col hcol
        · exact rload1_apply Rv _ _ _ _ (k0_off48_eq k0_t3 ⟨7, by decide⟩) k0_t3.val 8 (by show 10 * k0_t3.val + 7 + 1 = 10 * k0_t3.val + 8; omega) l col hcol
        · exact rload1_apply Rv _ _ _ _ (k0_off48_eq k0_t3 ⟨8, by decide⟩) k0_t3.val 9 (by show 10 * k0_t3.val + 8 + 1 = 10 * k0_t3.val + 9; omega) l col hcol
    -- column block 3: lanes 48 … 63 of row b
    · dsimp only
      refine piece_mean Wv Rv v80.toNat k0_t3.val hb 3 _ _ (k0_off46_eq k0_t3) _ ?_
      intro l col hcol
      refine (t3_store3 _ _ _ _ _ _ _ _ _ _ _ _ _ _ _ _ _ _ _ _ l).trans ?_
      refine rowVal_mean Wv Rv v80.toNat k0_t3.val hb col _ _ ?_ ?_
      · intro j; fin_cases j
        · exact wload_apply k0_t3_abs.2.1 Wv v80 hg k0_t3 0 (by decide) _ l
        · exact wload_apply k0_t3_abs.2.1 Wv v80 hg k0_t3 1 (by decide) _ l
        · exact wload_apply k0_t3_abs.2.1 Wv v80 hg k0_t3 2 (by decide) _ l
        · exact wload_apply k0_t3_abs.2.1 Wv v80 hg k0_t3 3 (by decide) _ l
        · exact wload_apply k0_t3_abs.2.1 Wv v80 hg k0_t3 4 (by decide) _ l
        · exact wload_apply k0_t3_abs.2.1 Wv v80 hg k0_t3 5 (by decide) _ l
        · exact wload_apply k0_t3_abs.2.1 Wv v80 hg k0_t3 6 (by decide) _ l
        · exact wload_apply k0_t3_abs.2.1 Wv v80 hg k0_t3 7 (by decide) _ l
        · exact wload_apply k0_t3_abs.2.1 Wv v80 hg k0_t3 8 (by decide) _ l
        · exact wload_apply k0_t3_abs.2.1 Wv v80 hg k0_t3 9 (by decide) _ l
      · intro j; fin_cases j
        · exact rload1_apply Rv _ _ _ _ (k0_off44_eq k0_t3) k0_t3.val 0 (by omega) l col hcol
        · exact rload1_apply Rv _ _ _ _ (k0_off45_eq k0_t3 ⟨0, by decide⟩) k0_t3.val 1 (by show 10 * k0_t3.val + 0 + 1 = 10 * k0_t3.val + 1; omega) l col hcol
        · exact rload1_apply Rv _ _ _ _ (k0_off45_eq k0_t3 ⟨1, by decide⟩) k0_t3.val 2 (by show 10 * k0_t3.val + 1 + 1 = 10 * k0_t3.val + 2; omega) l col hcol
        · exact rload1_apply Rv _ _ _ _ (k0_off45_eq k0_t3 ⟨2, by decide⟩) k0_t3.val 3 (by show 10 * k0_t3.val + 2 + 1 = 10 * k0_t3.val + 3; omega) l col hcol
        · exact rload1_apply Rv _ _ _ _ (k0_off45_eq k0_t3 ⟨3, by decide⟩) k0_t3.val 4 (by show 10 * k0_t3.val + 3 + 1 = 10 * k0_t3.val + 4; omega) l col hcol
        · exact rload1_apply Rv _ _ _ _ (k0_off45_eq k0_t3 ⟨4, by decide⟩) k0_t3.val 5 (by show 10 * k0_t3.val + 4 + 1 = 10 * k0_t3.val + 5; omega) l col hcol
        · exact rload1_apply Rv _ _ _ _ (k0_off45_eq k0_t3 ⟨5, by decide⟩) k0_t3.val 6 (by show 10 * k0_t3.val + 5 + 1 = 10 * k0_t3.val + 6; omega) l col hcol
        · exact rload1_apply Rv _ _ _ _ (k0_off45_eq k0_t3 ⟨6, by decide⟩) k0_t3.val 7 (by show 10 * k0_t3.val + 6 + 1 = 10 * k0_t3.val + 7; omega) l col hcol
        · exact rload1_apply Rv _ _ _ _ (k0_off45_eq k0_t3 ⟨7, by decide⟩) k0_t3.val 8 (by show 10 * k0_t3.val + 7 + 1 = 10 * k0_t3.val + 8; omega) l col hcol
        · exact rload1_apply Rv _ _ _ _ (k0_off45_eq k0_t3 ⟨8, by decide⟩) k0_t3.val 9 (by show 10 * k0_t3.val + 8 + 1 = 10 * k0_t3.val + 9; omega) l col hcol
    -- column block 2: lanes 32 … 47 of row b
    · dsimp only
      refine piece_mean Wv Rv v80.toNat k0_t3.val hb 2 _ _ (k0_off43_eq k0_t3) _ ?_
      intro l col hcol
      refine (t3_store2 _ _ _ _ _ _ _ _ _ _ _ _ _ _ _ _ _ _ _ _ l).trans ?_
      refine rowVal_mean Wv Rv v80.toNat k0_t3.val hb col _ _ ?_ ?_
      · intro j; fin_cases j
        · exact wload_apply k0_t3_abs.2.1 Wv v80 hg k0_t3 0 (by decide) _ l
        · exact wload_apply k0_t3_abs.2.1 Wv v80 hg k0_t3 1 (by decide) _ l
        · exact wload_apply k0_t3_abs.2.1 Wv v80 hg k0_t3 2 (by decide) _ l
        · exact wload_apply k0_t3_abs.2.1 Wv v80 hg k0_t3 3 (by decide) _ l
        · exact wload_apply k0_t3_abs.2.1 Wv v80 hg k0_t3 4 (by decide) _ l
        · exact wload_apply k0_t3_abs.2.1 Wv v80 hg k0_t3 5 (by decide) _ l
        · exact wload_apply k0_t3_abs.2.1 Wv v80 hg k0_t3 6 (by decide) _ l
        · exact wload_apply k0_t3_abs.2.1 Wv v80 hg k0_t3 7 (by decide) _ l
        · exact wload_apply k0_t3_abs.2.1 Wv v80 hg k0_t3 8 (by decide) _ l
        · exact wload_apply k0_t3_abs.2.1 Wv v80 hg k0_t3 9 (by decide) _ l
      · intro j; fin_cases j
        · exact rload1_apply Rv _ _ _ _ (k0_off41_eq k0_t3) k0_t3.val 0 (by omega) l col hcol
        · exact rload1_apply Rv _ _ _ _ (k0_off42_eq k0_t3 ⟨0, by decide⟩) k0_t3.val 1 (by show 10 * k0_t3.val + 0 + 1 = 10 * k0_t3.val + 1; omega) l col hcol
        · exact rload1_apply Rv _ _ _ _ (k0_off42_eq k0_t3 ⟨1, by decide⟩) k0_t3.val 2 (by show 10 * k0_t3.val + 1 + 1 = 10 * k0_t3.val + 2; omega) l col hcol
        · exact rload1_apply Rv _ _ _ _ (k0_off42_eq k0_t3 ⟨2, by decide⟩) k0_t3.val 3 (by show 10 * k0_t3.val + 2 + 1 = 10 * k0_t3.val + 3; omega) l col hcol
        · exact rload1_apply Rv _ _ _ _ (k0_off42_eq k0_t3 ⟨3, by decide⟩) k0_t3.val 4 (by show 10 * k0_t3.val + 3 + 1 = 10 * k0_t3.val + 4; omega) l col hcol
        · exact rload1_apply Rv _ _ _ _ (k0_off42_eq k0_t3 ⟨4, by decide⟩) k0_t3.val 5 (by show 10 * k0_t3.val + 4 + 1 = 10 * k0_t3.val + 5; omega) l col hcol
        · exact rload1_apply Rv _ _ _ _ (k0_off42_eq k0_t3 ⟨5, by decide⟩) k0_t3.val 6 (by show 10 * k0_t3.val + 5 + 1 = 10 * k0_t3.val + 6; omega) l col hcol
        · exact rload1_apply Rv _ _ _ _ (k0_off42_eq k0_t3 ⟨6, by decide⟩) k0_t3.val 7 (by show 10 * k0_t3.val + 6 + 1 = 10 * k0_t3.val + 7; omega) l col hcol
        · exact rload1_apply Rv _ _ _ _ (k0_off42_eq k0_t3 ⟨7, by decide⟩) k0_t3.val 8 (by show 10 * k0_t3.val + 7 + 1 = 10 * k0_t3.val + 8; omega) l col hcol
        · exact rload1_apply Rv _ _ _ _ (k0_off42_eq k0_t3 ⟨8, by decide⟩) k0_t3.val 9 (by show 10 * k0_t3.val + 8 + 1 = 10 * k0_t3.val + 9; omega) l col hcol
    -- column block 1: lanes 16 … 31 of row b
    · dsimp only
      refine piece_mean Wv Rv v80.toNat k0_t3.val hb 1 _ _ (k0_off40_eq k0_t3) _ ?_
      intro l col hcol
      refine (t3_store1 _ _ _ _ _ _ _ _ _ _ _ _ _ _ _ _ _ _ _ _ l).trans ?_
      refine rowVal_mean Wv Rv v80.toNat k0_t3.val hb col _ _ ?_ ?_
      · intro j; fin_cases j
        · exact wload_apply k0_t3_abs.2.1 Wv v80 hg k0_t3 0 (by decide) _ l
        · exact wload_apply k0_t3_abs.2.1 Wv v80 hg k0_t3 1 (by decide) _ l
        · exact wload_apply k0_t3_abs.2.1 Wv v80 hg k0_t3 2 (by decide) _ l
        · exact wload_apply k0_t3_abs.2.1 Wv v80 hg k0_t3 3 (by decide) _ l
        · exact wload_apply k0_t3_abs.2.1 Wv v80 hg k0_t3 4 (by decide) _ l
        · exact wload_apply k0_t3_abs.2.1 Wv v80 hg k0_t3 5 (by decide) _ l
        · exact wload_apply k0_t3_abs.2.1 Wv v80 hg k0_t3 6 (by decide) _ l
        · exact wload_apply k0_t3_abs.2.1 Wv v80 hg k0_t3 7 (by decide) _ l
        · exact wload_apply k0_t3_abs.2.1 Wv v80 hg k0_t3 8 (by decide) _ l
        · exact wload_apply k0_t3_abs.2.1 Wv v80 hg k0_t3 9 (by decide) _ l
      · intro j; fin_cases j
        · exact rload1_apply Rv _ _ _ _ (k0_off38_eq k0_t3) k0_t3.val 0 (by omega) l col hcol
        · exact rload1_apply Rv _ _ _ _ (k0_off39_eq k0_t3 ⟨0, by decide⟩) k0_t3.val 1 (by show 10 * k0_t3.val + 0 + 1 = 10 * k0_t3.val + 1; omega) l col hcol
        · exact rload1_apply Rv _ _ _ _ (k0_off39_eq k0_t3 ⟨1, by decide⟩) k0_t3.val 2 (by show 10 * k0_t3.val + 1 + 1 = 10 * k0_t3.val + 2; omega) l col hcol
        · exact rload1_apply Rv _ _ _ _ (k0_off39_eq k0_t3 ⟨2, by decide⟩) k0_t3.val 3 (by show 10 * k0_t3.val + 2 + 1 = 10 * k0_t3.val + 3; omega) l col hcol
        · exact rload1_apply Rv _ _ _ _ (k0_off39_eq k0_t3 ⟨3, by decide⟩) k0_t3.val 4 (by show 10 * k0_t3.val + 3 + 1 = 10 * k0_t3.val + 4; omega) l col hcol
        · exact rload1_apply Rv _ _ _ _ (k0_off39_eq k0_t3 ⟨4, by decide⟩) k0_t3.val 5 (by show 10 * k0_t3.val + 4 + 1 = 10 * k0_t3.val + 5; omega) l col hcol
        · exact rload1_apply Rv _ _ _ _ (k0_off39_eq k0_t3 ⟨5, by decide⟩) k0_t3.val 6 (by show 10 * k0_t3.val + 5 + 1 = 10 * k0_t3.val + 6; omega) l col hcol
        · exact rload1_apply Rv _ _ _ _ (k0_off39_eq k0_t3 ⟨6, by decide⟩) k0_t3.val 7 (by show 10 * k0_t3.val + 6 + 1 = 10 * k0_t3.val + 7; omega) l col hcol
        · exact rload1_apply Rv _ _ _ _ (k0_off39_eq k0_t3 ⟨7, by decide⟩) k0_t3.val 8 (by show 10 * k0_t3.val + 7 + 1 = 10 * k0_t3.val + 8; omega) l col hcol
        · exact rload1_apply Rv _ _ _ _ (k0_off39_eq k0_t3 ⟨8, by decide⟩) k0_t3.val 9 (by show 10 * k0_t3.val + 8 + 1 = 10 * k0_t3.val + 9; omega) l col hcol
    -- column block 0: lanes 0 … 15 of row b
    · dsimp only
      refine piece_mean Wv Rv v80.toNat k0_t3.val hb 0 _ _ (k0_off37_eq k0_t3) _ ?_
      intro l col hcol
      refine (t3_store0 _ _ _ _ _ _ _ _ _ _ _ _ _ _ _ _ _ _ _ _ l).trans ?_
      refine rowVal_mean Wv Rv v80.toNat k0_t3.val hb col _ _ ?_ ?_
      · intro j; fin_cases j
        · exact wload_apply k0_t3_abs.2.1 Wv v80 hg k0_t3 0 (by decide) _ l
        · exact wload_apply k0_t3_abs.2.1 Wv v80 hg k0_t3 1 (by decide) _ l
        · exact wload_apply k0_t3_abs.2.1 Wv v80 hg k0_t3 2 (by decide) _ l
        · exact wload_apply k0_t3_abs.2.1 Wv v80 hg k0_t3 3 (by decide) _ l
        · exact wload_apply k0_t3_abs.2.1 Wv v80 hg k0_t3 4 (by decide) _ l
        · exact wload_apply k0_t3_abs.2.1 Wv v80 hg k0_t3 5 (by decide) _ l
        · exact wload_apply k0_t3_abs.2.1 Wv v80 hg k0_t3 6 (by decide) _ l
        · exact wload_apply k0_t3_abs.2.1 Wv v80 hg k0_t3 7 (by decide) _ l
        · exact wload_apply k0_t3_abs.2.1 Wv v80 hg k0_t3 8 (by decide) _ l
        · exact wload_apply k0_t3_abs.2.1 Wv v80 hg k0_t3 9 (by decide) _ l
      · intro j; fin_cases j
        · exact rload1_apply Rv _ _ _ _ (k0_off35_eq k0_t3) k0_t3.val 0 (by omega) l col hcol
        · exact rload1_apply Rv _ _ _ _ (k0_off36_eq k0_t3 ⟨0, by decide⟩) k0_t3.val 1 (by show 10 * k0_t3.val + 0 + 1 = 10 * k0_t3.val + 1; omega) l col hcol
        · exact rload1_apply Rv _ _ _ _ (k0_off36_eq k0_t3 ⟨1, by decide⟩) k0_t3.val 2 (by show 10 * k0_t3.val + 1 + 1 = 10 * k0_t3.val + 2; omega) l col hcol
        · exact rload1_apply Rv _ _ _ _ (k0_off36_eq k0_t3 ⟨2, by decide⟩) k0_t3.val 3 (by show 10 * k0_t3.val + 2 + 1 = 10 * k0_t3.val + 3; omega) l col hcol
        · exact rload1_apply Rv _ _ _ _ (k0_off36_eq k0_t3 ⟨3, by decide⟩) k0_t3.val 4 (by show 10 * k0_t3.val + 3 + 1 = 10 * k0_t3.val + 4; omega) l col hcol
        · exact rload1_apply Rv _ _ _ _ (k0_off36_eq k0_t3 ⟨4, by decide⟩) k0_t3.val 5 (by show 10 * k0_t3.val + 4 + 1 = 10 * k0_t3.val + 5; omega) l col hcol
        · exact rload1_apply Rv _ _ _ _ (k0_off36_eq k0_t3 ⟨5, by decide⟩) k0_t3.val 6 (by show 10 * k0_t3.val + 5 + 1 = 10 * k0_t3.val + 6; omega) l col hcol
        · exact rload1_apply Rv _ _ _ _ (k0_off36_eq k0_t3 ⟨6, by decide⟩) k0_t3.val 7 (by show 10 * k0_t3.val + 6 + 1 = 10 * k0_t3.val + 7; omega) l col hcol
        · exact rload1_apply Rv _ _ _ _ (k0_off36_eq k0_t3 ⟨7, by decide⟩) k0_t3.val 8 (by show 10 * k0_t3.val + 7 + 1 = 10 * k0_t3.val + 8; omega) l col hcol
        · exact rload1_apply Rv _ _ _ _ (k0_off36_eq k0_t3 ⟨8, by decide⟩) k0_t3.val 9 (by show 10 * k0_t3.val + 8 + 1 = 10 * k0_t3.val + 9; omega) l col hcol
    case hcov =>
      rcases (show (y 1).val / 16 = 0 ∨ (y 1).val / 16 = 1 ∨ (y 1).val / 16 = 2 ∨ (y 1).val / 16 = 3 ∨ (y 1).val / 16 = 4 ∨ (y 1).val / 16 = 5
          ∨ (y 1).val / 16 = 6 ∨ (y 1).val / 16 = 7 by omega) with h | h | h | h | h | h | h | h
      · refine ⟨_, List.Mem.tail _ (List.Mem.tail _ (List.Mem.tail _ (List.Mem.tail _ (List.Mem.tail _ (List.Mem.tail _ (List.Mem.tail _ (List.Mem.head _))))))), ?_⟩
        dsimp only
        refine Rect.mem_set_unit.mpr ?_
        rw [k0_off37_eq k0_t3]
        intro a
        rcases a with ⟨_ | _ | n, ha⟩
        · show k0_t3.val ≤ (y 0).val ∧ (y 0).val < k0_t3.val + 1; omega
        · show 0 ≤ (y 1).val ∧ (y 1).val < 0 + 16; omega
        · exact absurd ha (by show ¬ (n + 1 + 1 < 2); omega)
      · refine ⟨_, List.Mem.tail _ (List.Mem.tail _ (List.Mem.tail _ (List.Mem.tail _ (List.Mem.tail _ (List.Mem.tail _ (List.Mem.head _)))))), ?_⟩
        dsimp only
        refine Rect.mem_set_unit.mpr ?_
        rw [k0_off40_eq k0_t3]
        intro a
        rcases a with ⟨_ | _ | n, ha⟩
        · show k0_t3.val ≤ (y 0).val ∧ (y 0).val < k0_t3.val + 1; omega
        · show 16 ≤ (y 1).val ∧ (y 1).val < 16 + 16; omega
        · exact absurd ha (by show ¬ (n + 1 + 1 < 2); omega)
      · refine ⟨_, List.Mem.tail _ (List.Mem.tail _ (List.Mem.tail _ (List.Mem.tail _ (List.Mem.tail _ (List.Mem.head _))))), ?_⟩
        dsimp only
        refine Rect.mem_set_unit.mpr ?_
        rw [k0_off43_eq k0_t3]
        intro a
        rcases a with ⟨_ | _ | n, ha⟩
        · show k0_t3.val ≤ (y 0).val ∧ (y 0).val < k0_t3.val + 1; omega
        · show 32 ≤ (y 1).val ∧ (y 1).val < 32 + 16; omega
        · exact absurd ha (by show ¬ (n + 1 + 1 < 2); omega)
      · refine ⟨_, List.Mem.tail _ (List.Mem.tail _ (List.Mem.tail _ (List.Mem.tail _ (List.Mem.head _)))), ?_⟩
        dsimp only
        refine Rect.mem_set_unit.mpr ?_
        rw [k0_off46_eq k0_t3]
        intro a
        rcases a with ⟨_ | _ | n, ha⟩
        · show k0_t3.val ≤ (y 0).val ∧ (y 0).val < k0_t3.val + 1; omega
        · show 48 ≤ (y 1).val ∧ (y 1).val < 48 + 16; omega
        · exact absurd ha (by show ¬ (n + 1 + 1 < 2); omega)
      · refine ⟨_, List.Mem.tail _ (List.Mem.tail _ (List.Mem.tail _ (List.Mem.head _))), ?_⟩
        dsimp only
        refine Rect.mem_set_unit.mpr ?_
        rw [k0_off49_eq k0_t3]
        intro a
        rcases a with ⟨_ | _ | n, ha⟩
        · show k0_t3.val ≤ (y 0).val ∧ (y 0).val < k0_t3.val + 1; omega
        · show 64 ≤ (y 1).val ∧ (y 1).val < 64 + 16; omega
        · exact absurd ha (by show ¬ (n + 1 + 1 < 2); omega)
      · refine ⟨_, List.Mem.tail _ (List.Mem.tail _ (List.Mem.head _)), ?_⟩
        dsimp only
        refine Rect.mem_set_unit.mpr ?_
        rw [k0_off52_eq k0_t3]
        intro a
        rcases a with ⟨_ | _ | n, ha⟩
        · show k0_t3.val ≤ (y 0).val ∧ (y 0).val < k0_t3.val + 1; omega
        · show 80 ≤ (y 1).val ∧ (y 1).val < 80 + 16; omega
        · exact absurd ha (by show ¬ (n + 1 + 1 < 2); omega)
      · refine ⟨_, List.Mem.tail _ (List.Mem.head _), ?_⟩
        dsimp only
        refine Rect.mem_set_unit.mpr ?_
        rw [k0_off55_eq k0_t3]
        intro a
        rcases a with ⟨_ | _ | n, ha⟩
        · show k0_t3.val ≤ (y 0).val ∧ (y 0).val < k0_t3.val + 1; omega
        · show 96 ≤ (y 1).val ∧ (y 1).val < 96 + 16; omega
        · exact absurd ha (by show ¬ (n + 1 + 1 < 2); omega)
      · refine ⟨_, List.Mem.head _, ?_⟩
        dsimp only
        refine Rect.mem_set_unit.mpr ?_
        rw [k0_off58_eq k0_t3]
        intro a
        rcases a with ⟨_ | _ | n, ha⟩
        · show k0_t3.val ≤ (y 0).val ∧ (y 0).val < k0_t3.val + 1; omega
        · show 112 ≤ (y 1).val ∧ (y 1).val < 112 + 16; omega
        · exact absurd ha (by show ¬ (n + 1 + 1 < 2); omega)
    · unfold meanUpTo; rw [if_pos (by omega)]
  · -- another row: no piece touches it
    refine (whole1_writes_of_not_mem (F := F) _ y _ (List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, fun _ h => absurd h List.not_mem_nil⟩⟩⟩⟩⟩⟩⟩⟩)).trans ?_
    · dsimp only; intro hm; have h0 := (Rect.mem_set_unit.mp hm) 0; rw [k0_off58_eq k0_t3] at h0; simp only [Matrix.cons_val_zero] at h0; have : S1x16.size 0 = 1 := rfl; omega
    · dsimp only; intro hm; have h0 := (Rect.mem_set_unit.mp hm) 0; rw [k0_off55_eq k0_t3] at h0; simp only [Matrix.cons_val_zero] at h0; have : S1x16.size 0 = 1 := rfl; omega
    · dsimp only; intro hm; have h0 := (Rect.mem_set_unit.mp hm) 0; rw [k0_off52_eq k0_t3] at h0; simp only [Matrix.cons_val_zero] at h0; have : S1x16.size 0 = 1 := rfl; omega
    · dsimp only; intro hm; have h0 := (Rect.mem_set_unit.mp hm) 0; rw [k0_off49_eq k0_t3] at h0; simp only [Matrix.cons_val_zero] at h0; have : S1x16.size 0 = 1 := rfl; omega
    · dsimp only; intro hm; have h0 := (Rect.mem_set_unit.mp hm) 0; rw [k0_off46_eq k0_t3] at h0; simp only [Matrix.cons_val_zero] at h0; have : S1x16.size 0 = 1 := rfl; omega
    · dsimp only; intro hm; have h0 := (Rect.mem_set_unit.mp hm) 0; rw [k0_off43_eq k0_t3] at h0; simp only [Matrix.cons_val_zero] at h0; have : S1x16.size 0 = 1 := rfl; omega
    · dsimp only; intro hm; have h0 := (Rect.mem_set_unit.mp hm) 0; rw [k0_off40_eq k0_t3] at h0; simp only [Matrix.cons_val_zero] at h0; have : S1x16.size 0 = 1 := rfl; omega
    · dsimp only; intro hm; have h0 := (Rect.mem_set_unit.mp hm) 0; rw [k0_off37_eq k0_t3] at h0; simp only [Matrix.cons_val_zero] at h0; have : S1x16.size 0 = 1 := rfl; omega
    · unfold meanUpTo
      by_cases h1 : (y 0).val < k0_t3.val
      · rw [if_pos h1, if_pos (by omega)]
      · rw [if_neg h1, if_neg (by omega)]

omit [FloatOps F] in
theorem trips1_eq : k0_t3_loop.trips = 8 := by decide

set_option maxHeartbeats 4000000 in
/-- Slot 1's inner loop: its eight trips leave the output scratch at the group's means, the weights and the gathered rows as they were. -/
theorem inner_loop1 : InnerLoop1 (F := F) d L := by
  intro v1 v5 v80 g hv hg qw qr Wv Rv f0
  subst hv
  iintro ⟨Hw, Hr, Hn⟩
  sl_for (inv1 (F := F) d L qw qr Wv Rv v80.toNat f0) $$ [Hw Hr Hn]
  case region =>
    intro k acc
    exact trip1 (F := F) d L v1 v5 v80 hg qw qr Wv Rv f0 k acc
  · isplitl [Hw Hr Hn]
    · -- before the first trip no row is done: the output scratch as it started
      unfold inv1
      isplitl [Hw]; · iexact Hw
      isplitl [Hr]; · iexact Hr
      iexists _
      isplitl [Hn]; · iexact Hn
      ipureintro
      funext y
      unfold meanUpTo
      rw [if_neg (Nat.not_lt_zero _)]
    · -- after the eighth trip every row is done
      iintro %acc HI
      unfold inv1
      icases HI with ⟨Hw, Hr, %f', Hn, %hf'⟩
      subst hf'
      have hfin : (meanUpTo Wv Rv v80.toNat k0_t3_loop.trips f0 : S8x128.Idx → F .f32) = meanOf Wv Rv v80.toNat := by
        funext y
        have hy : (y 0).val < 8 := (y 0).isLt
        unfold meanUpTo
        rw [trips1_eq, if_pos hy]
      rw [hfin]
      isplitl [Hw]; · iexact Hw
      isplitl [Hr]; · iexact Hr
      iexact Hn

end Cert.Proof.K

end
-- ==== Proof.TileFacts.lean ====
import proofs.«208500_g61899068670276_cont_9to1_m_775_47_alg».proof.Proof.KSetup

/-!
  The conditions of the loop over pairs of groups, and the two row offsets of the copies it waits for, in closed
  form: each is a finite statement over the thirty-two tiles and the trips of each, decided by evaluation.
-/

namespace Cert.Proof.K

open Cert.KernelIdeal Cert.KernelIdeal.Gen
open Idealize.ShloMosaic

/-- The loop over pairs of groups runs half the tile's group count. -/
theorem t1_trips' : ∀ i : grid0.Coords, (k0_t1_loop i).trips = if (i 0).val = 0 then 111 else 85 := by decide +kernel

/-- The first group of a trip has two groups before it exactly from the second trip on; so has the second. -/
theorem cond1_iff : ∀ (i : grid0.Coords) (t : Fin (k0_t1_loop i).trips), k0_cond1 i t = 1#1 ↔ 1 ≤ t.val := by decide +kernel
theorem cond3_iff : ∀ (i : grid0.Coords) (t : Fin (k0_t1_loop i).trips), k0_cond3 i t = 1#1 ↔ 1 ≤ t.val := by decide +kernel
/-- A group of a trip has a group two after it exactly before the last trip. -/
theorem cond2_iff : ∀ (i : grid0.Coords) (t : Fin (k0_t1_loop i).trips), k0_cond2 i t = 1#1 ↔ t.val + 1 < (k0_t1_loop i).trips := by decide +kernel
theorem cond4_iff : ∀ (i : grid0.Coords) (t : Fin (k0_t1_loop i).trips), k0_cond4 i t = 1#1 ↔ t.val + 1 < (k0_t1_loop i).trips := by decide +kernel

/-- The rows waited for at the head of a trip's first step are those of the first group of the trip before; at the
    head of its second step, those of the second group of the trip before. -/
theorem off3_eq : ∀ (i : grid0.Coords) (t : Fin (k0_t1_loop i).trips), k0_cond1 i t = 1#1 →
    k0_off3 i t = ![3136 * (i 1).val + 1776 * (i 0).val + 16 * t.val - 16, 0] := by decide +kernel
theorem off33_eq : ∀ (i : grid0.Coords) (t : Fin (k0_t1_loop i).trips), k0_cond3 i t = 1#1 →
    k0_off33 i t = ![3136 * (i 1).val + 1776 * (i 0).val + 16 * t.val - 8, 0] := by decide +kernel

end Cert.Proof.K
-- ==== Proof.TileMid.lean ====
import proofs.«208500_g61899068670276_cont_9to1_m_775_47_alg».proof.Proof.TileInv

/-!
  The assertion between the two steps of a trip of the loop over pairs of groups: the first step has run for group
  `2 t` (slot 0 is as at the head of trip `t + 1`), the second, for group `2 t + 1`, has not (slot 1 is as at the
  head of trip `t`).
-/

noncomputable section

namespace Cert.Proof.K

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

variable (m : (ℓ : Loc nD τ sig) → Buf (Elt F) ℓ)
variable (d : Dev nD) (L : grid0.Coords)
variable [FloatOps F]
variable (O : CellTallies nD τ sig (HIx 1)) (W : Waits sig (HIx 1))

/-- What both slots share when the groups below `kd` are finished and back in hand and the groups from `kp` on are
    not yet started. -/
def sharedAt (kd kp : ℕ) : sProp 𝕄 :=
  iprop(Transfers.MayWaits (tthr d L) (none : HIx 1) O
    ∗ ((sW).view.loc (tthr d L) ↦{fullShare} tW m d L)
    ∗ outDone m d L kd ∗ outPend m d L kp
    ∗ ∃ W', ⌜∀ p ∈ W', p ∈ W ∨ p.2 = none⌝ ∗ owes (tthr d L) O W')

theorem sharedInv_eq (t : ℕ) : sharedInv m d L O W t = sharedAt m d L O W (2 * t - 2) (2 * t) := rfl

/-- Between the two steps of trip `t`. -/
def midInv (t : ℕ) : sProp 𝕄 := iprop(sharedAt m d L O W (2 * t - 1) (2 * t + 1) ∗ slot0 m d L (t + 1) ∗ slot1 m d L t)

end Cert.Proof.K

end
-- ==== Proof.TileStep.lean ====
import proofs.«208500_g61899068670276_cont_9to1_m_775_47_alg».proof.Proof.TileRows
import proofs.«208500_g61899068670276_cont_9to1_m_775_47_alg».proof.Proof.TileFacts
import proofs.«208500_g61899068670276_cont_9to1_m_775_47_alg».proof.Proof.TileMid
import proofs.«208500_g61899068670276_cont_9to1_m_775_47_alg».proof.Proof.TileGather

/-!
  The first step of one trip of the loop over pairs of groups: group `2 t`, slot 0. From the loop's invariant at
  trip `t` the step leaves the assertion between the two steps: the out copies of group `2 t - 2` waited for and
  their rows joined to the finished ones, the self gather of group `2 t` started and waited for, the group's eighty
  table rows waited for, its eight means computed, both results' rows of the group on their way out, and the
  gather of group `2 t + 2` started while a trip remains.

  Every wait is on a semaphore with exactly one transfer of the tile's own in flight: it hands back what that
  transfer delivers and the semaphore at zero. Every issue finds its semaphore at zero. What an issue leaves beside
  the transfer in flight is folded into what the transfer delivers, so that the invariant names whole buffers only.
-/

noncomputable section

namespace Cert.Proof.K

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## Waits, and what rides with a transfer in flight -/

/-- A wait on one of the tile's own DMA semaphores whose one transfer is in flight: the transfer's delivery, the
    semaphore back at zero, the wait recorded. -/
theorem wait_step [FloatOps F] {α : Type} {Q : α → sProp 𝕄} {c : Thread nD τ} {sp sp' : Space} {s s' : Shape} {e e' : EltTy} {κ' : Kind} {sem : DmaSem sig}
    {srcw : Memref sig c.2.kind sp' s' e'} {dstw : Memref sig κ' sp s e} {hsrc : srcw.view.WordExact} {hdst : dstw.view.WordExact}
    {k : PUnit → Prog (TpuEff nD τ sig (Elt F) Λ₀ c.2) α} {N : ℕ} (hN : dstw.view.dmaCredit = N) {D : sProp 𝕄}
    {O : CellTallies nD τ sig (HIx 1)} {W : Waits sig (HIx 1)} :
    iprop(Transfers.MayWaits c (none : HIx 1) O ∗ Transfers.Flight (countersEmb : UEmb Counters 𝕄) c (.dma sem) (default : HIx 1) N D ∗ owes c O W)
      ⊢ iprop((iprop(D ∗ semVal (c, SemLoc.dma sem) 0 ∗ owes c O (insert (SemLoc.dma sem, (default : HIx 1)) W))
            -∗ wp frame (wpE (defs₀ (F := F)) 𝒱₀ c none) Set.univ (k ⟨⟩) Q)
          -∗ wp frame (wpE (defs₀ (F := F)) 𝒱₀ c none) Set.univ (.op (.waitDma2 sem srcw dstw hsrc hdst) k) Q) := by
  iintro ⟨#Hmw, Hf, HO⟩
  iapply (Transfers.wp_waitLocalO (EC := (countersEmb : UEmb Counters 𝕄)) (𝒱 := 𝒱₀) (c := c) (bd := none) (default : HIx 1) hN)
  isplitl [Hf]; · iexact Hf
  isplitl [HO]; · iexact HO
  iapply (Transfers.MayWaits.elim (SemLoc.dma sem)); iexact Hmw

/-- What the tile keeps beside a transfer in flight rides with it, and the delivery may be restated. -/
theorem flight_fold [FloatOps F] {c : Thread nD τ} {sm : SemLoc sig} {N : ℕ} {D D' R : sProp 𝕄} (h : iprop(R ∗ D) ⊢ D') :
    iprop(R ∗ Transfers.Flight (countersEmb : UEmb Counters 𝕄) c sm (default : HIx 1) N D)
      ⊢ Transfers.Flight (countersEmb : UEmb Counters 𝕄) c sm (default : HIx 1) N D' :=
  (Transfers.Flight_frame (countersEmb : UEmb Counters 𝕄) c).trans (Transfers.Flight_mono (countersEmb : UEmb Counters 𝕄) c h)

/-- A buffer's elements and the rest of it are the buffer. -/
theorem pts_join_univ {ℓ : Loc nD τ sig} {I : Finset (Idx ℓ)} {q : PosShare TreeShare} {f : Buf (Elt F) ℓ} :
    iprop((ℓ ↦[I]{q} f) ∗ (ℓ ↦[Finset.univ \ I]{q} f)) ⊢ (ℓ ↦{q} f : sProp 𝕄) :=
  (pointsTo_split_subset (Finset.subset_univ I)).2

/-- A program that has returned, bound to its continuation, is the continuation. -/
theorem prog_ret_bind {E : Type → Type} {α β : Type} (a : α) (k : α → Prog E β) : (Prog.ret a).bind k = k a := rfl

/-- A wait at the default index keeps the recorded waits among the launch's or at no call. -/
theorem waits_ins {W W0 : Waits sig (HIx 1)} (sm : SemLoc sig) (h : ∀ p ∈ W0, p ∈ W ∨ p.2 = none) :
    ∀ p ∈ insert (sm, (default : HIx 1)) W0, p ∈ W ∨ p.2 = none := by
  intro p hp
  rcases Finset.mem_insert.mp hp with hp | hp
  · exact .inr (hp ▸ rfl)
  · exact h p hp

/-- A hypothesis set aside. -/
def Aside (P : sProp 𝕄) : sProp 𝕄 := P
theorem aside_in {P : sProp 𝕄} : P ⊢ Aside P := .rfl
theorem aside_out {P : sProp 𝕄} : Aside P ⊢ P := .rfl

variable (m : (ℓ : Loc nD τ sig) → Buf (Elt F) ℓ)
variable (d : Dev nD) (L : grid0.Coords)
variable [FloatOps F]
variable (O : CellTallies nD τ sig (HIx 1)) (W : Waits sig (HIx 1))

/-- The first step's printed part at the arguments the kernel passes. -/
abbrev part25At (v1 v5 : BitVec 32) (t : Fin (k0_t1_loop L).trips) :=
  k0_part25 (F := F) L nidxV (Memref.isWhole_whole _) nodesV (Memref.isWhole_whole _) wV (Memref.isWhole_whole _) tblV (Memref.isWhole_whole _)
    noutV (Memref.isWhole_whole _) soutV (Memref.isWhole_whole _) sNidx (Memref.isWhole_whole _) sNodes (Memref.isWhole_whole _) sW (Memref.isWhole_whole _)
    sRows0 (Memref.isWhole_whole _) sRows1 (Memref.isWhole_whole _) sSst0 (Memref.isWhole_whole _) sSst1 (Memref.isWhole_whole _)
    sNout0 (Memref.isWhole_whole _) sNout1 (Memref.isWhole_whole _)
    cc0_scratch9 cc0_scratch10 cc0_scratch11 cc0_scratch12 cc0_scratch13 cc0_scratch14 cc0_scratch15 cc0_scratch16 cc0_scoped0 cc0_scoped1 cc0_scoped2
    v1 v5 0#32 1#32 t

/-- The group word the first step hands the second: `2 t + 1`. -/
abbrev v80Of (t : Fin (k0_t1_loop L).trips) : BitVec 32 := Scalar.addi (Scalar.muli 2#32 (Scf.iv 0#32 1#32 t)) 1#32

/-- The first step's group word is `2 t`. -/
theorem v57_toNat (t : Fin (k0_t1_loop L).trips) :
    (Scalar.addi (Scalar.muli 2#32 (Scf.iv 0#32 1#32 t)) 0#32).toNat = 2 * t.val + 0 := by
  have h2 : Affine.IsInt 2#32 (2) := Affine.ofNat _ (by omega)
  have h0 : Affine.IsInt 0#32 (0) := Affine.ofNat _ (by omega)
  have h1 : Affine.IsInt 1#32 (1) := Affine.ofNat _ (by omega)
  have r : t.val < 111 := Nat.lt_of_lt_of_le t.isLt (k0_t1_abs L).2.1
  have ha : Affine.IsInt (Scf.iv 0#32 1#32 t) ((t.val : Int)) := Affine.iv h0 h1 t.val (by omega)
  have h56 : Affine.IsInt (Scalar.muli 2#32 (Scf.iv 0#32 1#32 t)) (2 * (t.val : Int)) := Affine.muli h2 ha (by omega)
  have h57 : Affine.IsInt (Scalar.addi (Scalar.muli 2#32 (Scf.iv 0#32 1#32 t)) 0#32) (2 * (t.val : Int)) := Affine.addi h56 h0 (by omega)
  have := Affine.toNat_of h57 (by omega)
  omega

/-! ## Folding slot 0's transfers -/

/-- The self gather's flight as issued, with what it left beside, delivers the slot's whole buffers. -/
theorem selfD0_fold (g : ℕ) (WR : Buf (Elt F) ((sSst0).view.loc (tthr d L))) (hWR : ∀ x, WR x = sstVal m d L g x)
    (I : Finset (Idx ((sNodes).view.loc (tthr d L)))) (J : Finset (Idx ((tblV).view.loc (tthr d L)))) :
    iprop((((tblV).view.loc (tthr d L) ↦[Finset.univ \ J]{tblTok L 2} m (tblLoc d))
          ∗ ((sSst0).view.loc (tthr d L) ↦[Finset.univ \ (sSst0).view.set]{fullShare} WR)
          ∗ ((sNodes).view.loc (tthr d L) ↦[Finset.univ \ I]{nodTok 0} tNodes m d L))
        ∗ ((((sSst0).view.loc (tthr d L) ↦[(sSst0).view.set]{fullShare} WR)
            ∗ ((sNodes).view.loc (tthr d L) ↦[I]{nodTok 0} tNodes m d L))
          ∗ ((tblV).view.loc (tthr d L) ↦[J]{tblTok L 2} m (tblLoc d))))
      ⊢ (selfD0 m d L g : sProp 𝕄) := by
  unfold selfD0
  iintro ⟨⟨HTr, HSr, HNr⟩, ⟨HS, HN⟩, HT⟩
  isplitl [HS HSr]
  · rw [← pointsTo_congr (fun x _ => hWR x)]
    iapply pts_join_univ; isplitl [HS] <;> iassumption
  isplitl [HN HNr]
  · iapply pts_join_univ; isplitl [HN] <;> iassumption
  · iapply pts_join_univ; isplitl [HT] <;> iassumption

/-- The big gather's flight as issued, with what it left beside, delivers the slot's whole buffers. -/
theorem bigD0_fold (g : ℕ) (RW : Buf (Elt F) ((sRows0).view.loc (tthr d L))) (hRW : ∀ x, RW x = rowsVal m d L g x)
    (I : Finset (Idx ((sNidx).view.loc (tthr d L)))) (J : Finset (Idx ((tblV).view.loc (tthr d L)))) :
    iprop((((tblV).view.loc (tthr d L) ↦[Finset.univ \ J]{tblTok L 0} m (tblLoc d))
          ∗ ((sRows0).view.loc (tthr d L) ↦[Finset.univ \ (sRows0).view.set]{fullShare} RW)
          ∗ ((sNidx).view.loc (tthr d L) ↦[Finset.univ \ I]{idxTok 0} tNidx m d L))
        ∗ ((((sRows0).view.loc (tthr d L) ↦[(sRows0).view.set]{fullShare} RW)
            ∗ ((sNidx).view.loc (tthr d L) ↦[I]{idxTok 0} tNidx m d L))
          ∗ ((tblV).view.loc (tthr d L) ↦[J]{tblTok L 0} m (tblLoc d))))
      ⊢ (bigD0 m d L g : sProp 𝕄) := by
  unfold bigD0
  iintro ⟨⟨HTr, HSr, HNr⟩, ⟨HS, HN⟩, HT⟩
  isplitl [HS HSr]
  · rw [← pointsTo_congr (fun x _ => hRW x)]
    iapply pts_join_univ; isplitl [HS] <;> iassumption
  isplitl [HN HNr]
  · iapply pts_join_univ; isplitl [HN] <;> iassumption
  · iapply pts_join_univ; isplitl [HT] <;> iassumption

/-- A whole scratch buffer held by its view's own elements is held whole. -/
theorem pts_set_Nout0 (q : PosShare TreeShare) (f : Buf (Elt F) ((sNout0).view.loc (tthr d L))) :
    ((sNout0).view.loc (tthr d L) ↦[(sNout0).view.set]{q} f : sProp 𝕄) = ((sNout0).view.loc (tthr d L) ↦{q} f) := by
  simp only [Memref.view_whole, View.set_whole]
theorem pts_set_Sst0 (q : PosShare TreeShare) (f : Buf (Elt F) ((sSst0).view.loc (tthr d L))) :
    ((sSst0).view.loc (tthr d L) ↦[(sSst0).view.set]{q} f : sProp 𝕄) = ((sSst0).view.loc (tthr d L) ↦{q} f) := by
  simp only [Memref.view_whole, View.set_whole]

/-- The mean copy's flight as issued delivers the group's rows of the first result at its values, and the staging buffer. -/
theorem outND0_fold (g : ℕ) (I : Finset S50176x128.Idx) (hI : I = grpRows L g)
    (X : Buf (Elt F) (noutLoc d)) (hX : ∀ x ∈ grpRows L g, X x = neighVal m d x)
    (fsrc : Buf (Elt F) ((sNout0).view.loc (tthr d L))) :
    iprop((noutLoc d ↦[I]{fullShare} X) ∗ ((sNout0).view.loc (tthr d L) ↦[(sNout0).view.set]{fullShare} fsrc))
      ⊢ (outND0 m d L g : sProp 𝕄) := by
  subst hI
  unfold outND0
  iintro ⟨Hx, Hsrc⟩
  isplitl [Hx]
  · have e : (noutLoc d ↦[grpRows L g]{fullShare} X : sProp 𝕄) = (noutLoc d ↦[grpRows L g]{fullShare} neighVal m d) := pointsTo_congr hX
    rw [← e]; iexact Hx
  · iexists fsrc; rw [← pts_set_Nout0]; iexact Hsrc

/-- The self copy's flight as issued delivers the group's rows of the second result at its values, and the staging buffer. -/
theorem outSD0_fold (g : ℕ) (I : Finset S50176x128.Idx) (hI : I = grpRows L g)
    (X : Buf (Elt F) (soutLoc d)) (hX : ∀ x ∈ grpRows L g, X x = selfVal m d x)
    (fsrc : Buf (Elt F) ((sSst0).view.loc (tthr d L))) :
    iprop((soutLoc d ↦[I]{fullShare} X) ∗ ((sSst0).view.loc (tthr d L) ↦[(sSst0).view.set]{fullShare} fsrc))
      ⊢ (outSD0 m d L g : sProp 𝕄) := by
  subst hI
  unfold outSD0
  iintro ⟨Hx, Hsrc⟩
  isplitl [Hx]
  · have e : (soutLoc d ↦[grpRows L g]{fullShare} X : sProp 𝕄) = (soutLoc d ↦[grpRows L g]{fullShare} selfVal m d) := pointsTo_congr hX
    rw [← e]; iexact Hx
  · iexists fsrc; rw [← pts_set_Sst0]; iexact Hsrc

/-- The group's rows of the first result, as the mean copy's destination window names them. -/
theorem nwin0_eq (t : Fin (k0_t1_loop L).trips) (f : Buf (Elt F) (noutLoc d)) :
    (noutLoc d ↦[grpRows L (2 * t.val)]{fullShare} f : sProp 𝕄)
      = (((noutV).slice (Rect.unit (s := S50176x128) (k0_off31 L t 0#32) S8x128.size (k0_off31_inb L t 0)) (fun _ => rfl)).view.loc (tthr d L)
          ↦[((noutV).slice (Rect.unit (s := S50176x128) (k0_off31 L t 0#32) S8x128.size (k0_off31_inb L t 0)) (fun _ => rfl)).view.set]{fullShare} f) := by
  have h := win_nout L t 0 (k0_off31_inb L t 0) (fun _ => rfl)
  exact congrArg (fun S => (noutLoc d ↦[S]{fullShare} f : sProp 𝕄)) h.symm
theorem swin0_eq (t : Fin (k0_t1_loop L).trips) (f : Buf (Elt F) (soutLoc d)) :
    (soutLoc d ↦[grpRows L (2 * t.val)]{fullShare} f : sProp 𝕄)
      = (((soutV).slice (Rect.unit (s := S50176x128) (k0_off31 L t 0#32) S8x128.size (k0_off31_inb L t 0)) (fun _ => rfl)).view.loc (tthr d L)
          ↦[((soutV).slice (Rect.unit (s := S50176x128) (k0_off31 L t 0#32) S8x128.size (k0_off31_inb L t 0)) (fun _ => rfl)).view.set]{fullShare} f) := by
  have h := win_sout L t 0 (k0_off31_inb L t 0) (fun _ => rfl)
  exact congrArg (fun S => (soutLoc d ↦[S]{fullShare} f : sProp 𝕄)) h.symm

theorem step0_pos_mid (inner0 : InnerLoop0 (F := F) d L) (hpre : PreOK m) (v1 v5 : BitVec 32) (t : Fin (k0_t1_loop L).trips) (ht : 1 ≤ t.val) (hlast : t.val + 1 < (k0_t1_loop L).trips) :
    iprop(sharedInv m d L O W t.val ∗ slot0 m d L t.val ∗ slot1 m d L t.val)
      ⊢ wp frame (wpE (defs₀ (F := F)) 𝒱₀ (tthr d L) none) Set.univ (part25At (F := F) L v1 v5 t)
          fun r => iprop(⌜r.1 = v80Of L t⌝ ∗ midInv m d L O W t.val) := by
  have k0_h1 : k0_cond1 L t = 1#1 := (cond1_iff L t).2 ht
  have ht0 : ¬ t.val = 0 := by omega
  have k0_h2 : k0_cond2 L t = 1#1 := (cond2_iff L t).2 hlast
  have hnext : t.val + 1 < trips L := by rw [← t1_trips L]; exact hlast
  have htt : t.val < trips L := by rw [← t1_trips L]; exact t.isLt
  have hne : ¬ t.val + 1 = 0 := by omega
  have hg : 2 * t.val + 0 < 222 := by have := trips_le L; omega
  have hgn : 2 * t.val < ngc L := by have := ngc_even L; omega
  have e2 : 2 * (t.val + 1) + 0 - 2 = 2 * t.val + 0 := by omega
  have eD : 2 * t.val - 1 = (2 * t.val - 2) + 1 := by omega
  have hinN := hin_nod m d L hpre (k0_off4 L t) (k0_off4_inb L t k0_h1) (fun _ => rfl)
  have hinI := hin_idx m d L hpre (k0_off32 L t) (k0_off32_inb L t k0_h2) (fun _ => rfl)
  unfold part25At sharedInv slot0 bigPart0 selfPart0 outPart0
  rw [if_pos htt, if_neg ht0, if_neg ht0]
  rw [k0_part25_eq_skeleton]; unfold k0_part25_skel
  iintro ⟨⟨#Hmw, HW, Hdone, Hpend, ⟨%W', %hW', HO⟩⟩, ⟨HfG, ⟨Hsg, HNod, HT2⟩, ⟨HfN, HfS⟩⟩, Hslot1⟩
  -- the condition holds: the out copies of the group two before are waited for, the self gather started
  sl_exec
  iapply (wait_step (F := F) rfl) $$ [HfN HO]
  · isplitr; · iexact Hmw
    isplitl [HfN]; · iexact HfN
    iexact HO
  iintro ⟨HD, HfN, HO⟩
  unfold outND0
  icases HD with ⟨HrN, ⟨%fn, Hn⟩⟩
  iapply (wait_step (F := F) rfl) $$ [HfS HO]
  · isplitr; · iexact Hmw
    isplitl [HfS]; · iexact HfS
    iexact HO
  iintro ⟨HD, HfS, HO⟩
  unfold outSD0
  icases HD with ⟨HrS, ⟨%fs, Hs⟩⟩
  rw [prog_ret_bind]
  sl_exec
  ihave Hsg := (flight_fold (selfD0_fold m d L (2 * t.val + 0) _ ?hWR _ _)) $$ [HT2 Hs HNod Hsg]
  case hWR => exact fun x => selfGather_sst0 m d L hpre (k0_off4 L t) (k0_off4_inb L t k0_h1) (fun _ => rfl) (fun _ => rfl) rfl hinN (2 * t.val + 0) hg (by rw [k0_off4_eq]; show 16 * t.val = _; omega) fs x
  · isplitl [HT2 Hs HNod]
    · isplitl [HT2]; · iexact HT2
      isplitl [Hs]; · iexact Hs
      iexact HNod
    · iexact Hsg
  -- the group's eighty table rows
  iapply (wait_step (F := F) rfl) $$ [HfG HO]
  · isplitr; · iexact Hmw
    isplitl [HfG]; · iexact HfG
    iexact HO
  iintro ⟨HD, HfG, HO⟩
  unfold bigD0
  icases HD with ⟨Hrows, HIdx, HT0⟩
  sl_exec
  -- the eight rows' means
  rw [wp_bind]
  ihave Hl := (inner0 v1 v5 t _ (2 * t.val + 0) ?hv hg fullShare fullShare _ _ fn) $$ [HW Hrows Hn]
  case hv => exact v57_toNat L t
  · isplitl [HW]; · iexact HW
    isplitl [Hrows]; · iexact Hrows
    iexact Hn
  iapply wp_wand_r
  isplitl [Hl]; · iexact Hl
  iintro %acc2 ⟨HW, Hrows, Hn⟩
  sl_exec
  -- the group's eight own rows
  iapply (wait_step (F := F) rfl) $$ [Hsg HO]
  · isplitr; · iexact Hmw
    isplitl [Hsg]; · iexact Hsg
    iexact HO
  iintro ⟨HD, Hsg, HO⟩
  unfold selfD0
  icases HD with ⟨Hs, HNod, HT2⟩
  -- the group's rows of the two results, out of the untouched ones, as the copies' windows name them
  ihave Hp := (outPend_take m d L (2 * t.val) hgn).1 $$ Hpend
  icases Hp with ⟨Hp0, Hpend⟩
  unfold outPts
  icases Hp0 with ⟨H6, H7⟩
  ihave H6 := (Entails.of_eq (nwin0_eq d L t _)) $$ H6
  ihave H7 := (Entails.of_eq (swin0_eq d L t _)) $$ H7
  ihave Hn := (Entails.of_eq (pts_set_Nout0 d L fullShare _).symm) $$ Hn
  ihave Hs := (Entails.of_eq (pts_set_Sst0 d L fullShare _).symm) $$ Hs
  ihave HNod := aside_in $$ HNod
  ihave HT2 := aside_in $$ HT2
  try rw [prog_ret_bind]
  sl_exec
  ihave HfN := (Transfers.Flight_mono (countersEmb : UEmb Counters 𝕄) (tthr d L) (outND0_fold m d L (2 * t.val + 0) _ ?hIN _ ?hXN _)) $$ HfN
  case hIN => exact win_nout L t 0 (k0_off31_inb L t 0) (fun _ => rfl)
  case hXN => exact fun x hx => outN_value0 m d L t 0 (k0_off31_inb L t 0) (fun _ => rfl) (m (noutLoc d)) x hx
  ihave HfS := (Transfers.Flight_mono (countersEmb : UEmb Counters 𝕄) (tthr d L) (outSD0_fold m d L (2 * t.val + 0) _ ?hIS _ ?hXS _)) $$ HfS
  case hIS => exact win_sout L t 0 (k0_off31_inb L t 0) (fun _ => rfl)
  case hXS => exact fun x hx => outS_value0 m d L t 0 (k0_off31_inb L t 0) (fun _ => rfl) (m (soutLoc d)) x hx
  ihave HfG := (flight_fold (bigD0_fold m d L (2 * (t.val + 1) + 0) _ ?hRW _ _)) $$ [HT0 Hrows HIdx HfG]
  case hRW => exact fun x => bigGather_rows0 m d L hpre (k0_off32 L t) (k0_off32_inb L t k0_h2) (fun _ => rfl) (fun _ => rfl) rfl hinI (2 * (t.val + 1) + 0) (by have := trips_le L; omega) (by rw [k0_off32_eq]; show 160 * t.val + 160 = _; omega) (rowsVal m d L (2 * t.val + 0)) x
  · isplitl [HT0 Hrows HIdx]
    · isplitl [HT0]; · iexact HT0
      isplitl [Hrows]; · iexact Hrows
      iexact HIdx
    · iexact HfG
  ihave HNod := aside_out $$ HNod
  ihave HT2 := aside_out $$ HT2
  sl_step
  isplitr
  · ipureintro; rfl
  unfold midInv sharedAt slot0 bigPart0 selfPart0 outPart0
  rw [if_pos hnext, if_neg hne, if_neg hne, e2, eD, outDone_put_eq]
  unfold outPts
  isplitl [HW Hdone Hpend HO HrN HrS]
  · isplitr; · iexact Hmw
    isplitl [HW]; · iexact HW
    isplitl [Hdone HrN HrS]
    · isplitl [HrN HrS]
      · isplitl [HrN]; · iexact HrN
        iexact HrS
      · iexact Hdone
    isplitl [Hpend]; · iexact Hpend
    iexists (insert (SemLoc.dma cc0_scratch11.sem, (default : HIx 1)) (insert (SemLoc.dma cc0_scratch9.sem, (default : HIx 1))
      (insert (SemLoc.dma cc0_scratch15.sem, (default : HIx 1)) (insert (SemLoc.dma cc0_scratch13.sem, (default : HIx 1)) W'))))
    isplitr
    · ipureintro
      exact waits_ins _ (waits_ins _ (waits_ins _ (waits_ins _ hW')))
    · iexact HO
  isplitr [Hslot1]
  · isplitl [HfG]
    · iexact HfG
    isplitl [Hsg HNod HT2]
    · isplitl [Hsg]; · iexact Hsg
      isplitl [HNod]; · iexact HNod
      iexact HT2
    · isplitl [HfN]; · iexact HfN
      iexact HfS
  · iexact Hslot1

theorem step0_pos_last (inner0 : InnerLoop0 (F := F) d L) (hpre : PreOK m) (v1 v5 : BitVec 32) (t : Fin (k0_t1_loop L).trips) (ht : 1 ≤ t.val) (hlast : ¬ t.val + 1 < (k0_t1_loop L).trips) :
    iprop(sharedInv m d L O W t.val ∗ slot0 m d L t.val ∗ slot1 m d L t.val)
      ⊢ wp frame (wpE (defs₀ (F := F)) 𝒱₀ (tthr d L) none) Set.univ (part25At (F := F) L v1 v5 t)
          fun r => iprop(⌜r.1 = v80Of L t⌝ ∗ midInv m d L O W t.val) := by
  have k0_h1 : k0_cond1 L t = 1#1 := (cond1_iff L t).2 ht
  have ht0 : ¬ t.val = 0 := by omega
  have k0_h2 : ¬ k0_cond2 L t = 1#1 := fun h => hlast ((cond2_iff L t).1 h)
  have hnext : ¬ t.val + 1 < trips L := by rw [← t1_trips L]; exact hlast
  have htt : t.val < trips L := by rw [← t1_trips L]; exact t.isLt
  have hne : ¬ t.val + 1 = 0 := by omega
  have hg : 2 * t.val + 0 < 222 := by have := trips_le L; omega
  have hgn : 2 * t.val < ngc L := by have := ngc_even L; omega
  have e2 : 2 * (t.val + 1) + 0 - 2 = 2 * t.val + 0 := by omega
  have eD : 2 * t.val - 1 = (2 * t.val - 2) + 1 := by omega
  have hinN := hin_nod m d L hpre (k0_off4 L t) (k0_off4_inb L t k0_h1) (fun _ => rfl)
  unfold part25At sharedInv slot0 bigPart0 selfPart0 outPart0
  rw [if_pos htt, if_neg ht0, if_neg ht0]
  rw [k0_part25_eq_skeleton]; unfold k0_part25_skel
  iintro ⟨⟨#Hmw, HW, Hdone, Hpend, ⟨%W', %hW', HO⟩⟩, ⟨HfG, ⟨Hsg, HNod, HT2⟩, ⟨HfN, HfS⟩⟩, Hslot1⟩
  -- the condition holds: the out copies of the group two before are waited for, the self gather started
  sl_exec
  iapply (wait_step (F := F) rfl) $$ [HfN HO]
  · isplitr; · iexact Hmw
    isplitl [HfN]; · iexact HfN
    iexact HO
  iintro ⟨HD, HfN, HO⟩
  unfold outND0
  icases HD with ⟨HrN, ⟨%fn, Hn⟩⟩
  iapply (wait_step (F := F) rfl) $$ [HfS HO]
  · isplitr; · iexact Hmw
    isplitl [HfS]; · iexact HfS
    iexact HO
  iintro ⟨HD, HfS, HO⟩
  unfold outSD0
  icases HD with ⟨HrS, ⟨%fs, Hs⟩⟩
  rw [prog_ret_bind]
  sl_exec
  ihave Hsg := (flight_fold (selfD0_fold m d L (2 * t.val + 0) _ ?hWR _ _)) $$ [HT2 Hs HNod Hsg]
  case hWR => exact fun x => selfGather_sst0 m d L hpre (k0_off4 L t) (k0_off4_inb L t k0_h1) (fun _ => rfl) (fun _ => rfl) rfl hinN (2 * t.val + 0) hg (by rw [k0_off4_eq]; show 16 * t.val = _; omega) fs x
  · isplitl [HT2 Hs HNod]
    · isplitl [HT2]; · iexact HT2
      isplitl [Hs]; · iexact Hs
      iexact HNod
    · iexact Hsg
  -- the group's eighty table rows
  iapply (wait_step (F := F) rfl) $$ [HfG HO]
  · isplitr; · iexact Hmw
    isplitl [HfG]; · iexact HfG
    iexact HO
  iintro ⟨HD, HfG, HO⟩
  unfold bigD0
  icases HD with ⟨Hrows, HIdx, HT0⟩
  sl_exec
  -- the eight rows' means
  rw [wp_bind]
  ihave Hl := (inner0 v1 v5 t _ (2 * t.val + 0) ?hv hg fullShare fullShare _ _ fn) $$ [HW Hrows Hn]
  case hv => exact v57_toNat L t
  · isplitl [HW]; · iexact HW
    isplitl [Hrows]; · iexact Hrows
    iexact Hn
  iapply wp_wand_r
  isplitl [Hl]; · iexact Hl
  iintro %acc2 ⟨HW, Hrows, Hn⟩
  sl_exec
  -- the group's eight own rows
  iapply (wait_step (F := F) rfl) $$ [Hsg HO]
  · isplitr; · iexact Hmw
    isplitl [Hsg]; · iexact Hsg
    iexact HO
  iintro ⟨HD, Hsg, HO⟩
  unfold selfD0
  icases HD with ⟨Hs, HNod, HT2⟩
  -- the group's rows of the two results, out of the untouched ones, as the copies' windows name them
  ihave Hp := (outPend_take m d L (2 * t.val) hgn).1 $$ Hpend
  icases Hp with ⟨Hp0, Hpend⟩
  unfold outPts
  icases Hp0 with ⟨H6, H7⟩
  ihave H6 := (Entails.of_eq (nwin0_eq d L t _)) $$ H6
  ihave H7 := (Entails.of_eq (swin0_eq d L t _)) $$ H7
  ihave Hn := (Entails.of_eq (pts_set_Nout0 d L fullShare _).symm) $$ Hn
  ihave Hs := (Entails.of_eq (pts_set_Sst0 d L fullShare _).symm) $$ Hs
  ihave HNod := aside_in $$ HNod
  ihave HT2 := aside_in $$ HT2
  try rw [prog_ret_bind]
  sl_exec
  ihave HfN := (Transfers.Flight_mono (countersEmb : UEmb Counters 𝕄) (tthr d L) (outND0_fold m d L (2 * t.val + 0) _ ?hIN _ ?hXN _)) $$ HfN
  case hIN => exact win_nout L t 0 (k0_off31_inb L t 0) (fun _ => rfl)
  case hXN => exact fun x hx => outN_value0 m d L t 0 (k0_off31_inb L t 0) (fun _ => rfl) (m (noutLoc d)) x hx
  ihave HfS := (Transfers.Flight_mono (countersEmb : UEmb Counters 𝕄) (tthr d L) (outSD0_fold m d L (2 * t.val + 0) _ ?hIS _ ?hXS _)) $$ HfS
  case hIS => exact win_sout L t 0 (k0_off31_inb L t 0) (fun _ => rfl)
  case hXS => exact fun x hx => outS_value0 m d L t 0 (k0_off31_inb L t 0) (fun _ => rfl) (m (soutLoc d)) x hx
  ihave HNod := aside_out $$ HNod
  ihave HT2 := aside_out $$ HT2
  sl_step
  isplitr
  · ipureintro; rfl
  unfold midInv sharedAt slot0 bigPart0 selfPart0 outPart0
  rw [if_neg hnext, if_neg hne, if_neg hne, e2, eD, outDone_put_eq]
  unfold outPts
  isplitl [HW Hdone Hpend HO HrN HrS]
  · isplitr; · iexact Hmw
    isplitl [HW]; · iexact HW
    isplitl [Hdone HrN HrS]
    · isplitl [HrN HrS]
      · isplitl [HrN]; · iexact HrN
        iexact HrS
      · iexact Hdone
    isplitl [Hpend]; · iexact Hpend
    iexists (insert (SemLoc.dma cc0_scratch11.sem, (default : HIx 1)) (insert (SemLoc.dma cc0_scratch9.sem, (default : HIx 1))
      (insert (SemLoc.dma cc0_scratch15.sem, (default : HIx 1)) (insert (SemLoc.dma cc0_scratch13.sem, (default : HIx 1)) W'))))
    isplitr
    · ipureintro
      exact waits_ins _ (waits_ins _ (waits_ins _ (waits_ins _ hW')))
    · iexact HO
  isplitr [Hslot1]
  · isplitl [HfG Hrows HIdx HT0]
    · isplitl [HfG]; · iexact HfG
      isplitl [Hrows]; · iexists _; iexact Hrows
      isplitl [HIdx]; · iexact HIdx
      iexact HT0
    isplitl [Hsg HNod HT2]
    · isplitl [Hsg]; · iexact Hsg
      isplitl [HNod]; · iexact HNod
      iexact HT2
    · isplitl [HfN]; · iexact HfN
      iexact HfS
  · iexact Hslot1

theorem step0_zero (inner0 : InnerLoop0 (F := F) d L) (hpre : PreOK m) (v1 v5 : BitVec 32) (t : Fin (k0_t1_loop L).trips) (ht : t.val = 0) (hlast : t.val + 1 < (k0_t1_loop L).trips) :
    iprop(sharedInv m d L O W t.val ∗ slot0 m d L t.val ∗ slot1 m d L t.val)
      ⊢ wp frame (wpE (defs₀ (F := F)) 𝒱₀ (tthr d L) none) Set.univ (part25At (F := F) L v1 v5 t)
          fun r => iprop(⌜r.1 = v80Of L t⌝ ∗ midInv m d L O W t.val) := by
  have k0_h1 : ¬ k0_cond1 L t = 1#1 := fun h => by have := (cond1_iff L t).1 h; omega
  have ht0 : t.val = 0 := ht
  have k0_h2 : k0_cond2 L t = 1#1 := (cond2_iff L t).2 hlast
  have hnext : t.val + 1 < trips L := by rw [← t1_trips L]; exact hlast
  have htt : t.val < trips L := by rw [← t1_trips L]; exact t.isLt
  have hne : ¬ t.val + 1 = 0 := by omega
  have hg : 2 * t.val + 0 < 222 := by have := trips_le L; omega
  have hgn : 2 * t.val < ngc L := by have := ngc_even L; omega
  have e2 : 2 * (t.val + 1) + 0 - 2 = 2 * t.val + 0 := by omega
  have eD : 2 * t.val - 1 = 2 * t.val - 2 := by omega
  have eg0 : (0 : ℕ) = 2 * t.val + 0 := by omega
  have hinI := hin_idx m d L hpre (k0_off32 L t) (k0_off32_inb L t k0_h2) (fun _ => rfl)
  unfold part25At sharedInv slot0 bigPart0 selfPart0 outPart0
  rw [if_pos htt, if_pos ht0, if_pos ht0]
  rw [k0_part25_eq_skeleton]; unfold k0_part25_skel
  iintro ⟨⟨#Hmw, HW, Hdone, Hpend, ⟨%W', %hW', HO⟩⟩, ⟨HfG, Hsg, ⟨HfN, HfS, ⟨%fn, Hn⟩⟩⟩, Hslot1⟩
  -- the condition fails: nothing to wait for, the self gather was started before the loop
  sl_exec
  -- the group's eighty table rows
  iapply (wait_step (F := F) rfl) $$ [HfG HO]
  · isplitr; · iexact Hmw
    isplitl [HfG]; · iexact HfG
    iexact HO
  iintro ⟨HD, HfG, HO⟩
  unfold bigD0
  icases HD with ⟨Hrows, HIdx, HT0⟩
  sl_exec
  -- the eight rows' means
  rw [wp_bind]
  ihave Hl := (inner0 v1 v5 t _ (2 * t.val + 0) ?hv hg fullShare fullShare _ _ fn) $$ [HW Hrows Hn]
  case hv => exact v57_toNat L t
  · isplitl [HW]; · iexact HW
    isplitl [Hrows]; · iexact Hrows
    iexact Hn
  iapply wp_wand_r
  isplitl [Hl]; · iexact Hl
  iintro %acc2 ⟨HW, Hrows, Hn⟩
  sl_exec
  -- the group's eight own rows
  iapply (wait_step (F := F) rfl) $$ [Hsg HO]
  · isplitr; · iexact Hmw
    isplitl [Hsg]; · iexact Hsg
    iexact HO
  iintro ⟨HD, Hsg, HO⟩
  unfold selfD0
  icases HD with ⟨Hs, HNod, HT2⟩
  ihave Hs := (Entails.of_eq (congrArg (fun g => ((sSst0).view.loc (tthr d L) ↦{fullShare} (sstVal m d L g : Buf (Elt F) ((tthr d L).loc cc0_scratch5)) : sProp 𝕄)) eg0)) $$ Hs
  -- the group's rows of the two results, out of the untouched ones, as the copies' windows name them
  ihave Hp := (outPend_take m d L (2 * t.val) hgn).1 $$ Hpend
  icases Hp with ⟨Hp0, Hpend⟩
  unfold outPts
  icases Hp0 with ⟨H6, H7⟩
  ihave H6 := (Entails.of_eq (nwin0_eq d L t _)) $$ H6
  ihave H7 := (Entails.of_eq (swin0_eq d L t _)) $$ H7
  ihave Hn := (Entails.of_eq (pts_set_Nout0 d L fullShare _).symm) $$ Hn
  ihave Hs := (Entails.of_eq (pts_set_Sst0 d L fullShare _).symm) $$ Hs
  ihave HNod := aside_in $$ HNod
  ihave HT2 := aside_in $$ HT2
  try rw [prog_ret_bind]
  sl_exec
  ihave HfN := (Transfers.Flight_mono (countersEmb : UEmb Counters 𝕄) (tthr d L) (outND0_fold m d L (2 * t.val + 0) _ ?hIN _ ?hXN _)) $$ HfN
  case hIN => exact win_nout L t 0 (k0_off31_inb L t 0) (fun _ => rfl)
  case hXN => exact fun x hx => outN_value0 m d L t 0 (k0_off31_inb L t 0) (fun _ => rfl) (m (noutLoc d)) x hx
  ihave HfS := (Transfers.Flight_mono (countersEmb : UEmb Counters 𝕄) (tthr d L) (outSD0_fold m d L (2 * t.val + 0) _ ?hIS _ ?hXS _)) $$ HfS
  case hIS => exact win_sout L t 0 (k0_off31_inb L t 0) (fun _ => rfl)
  case hXS => exact fun x hx => outS_value0 m d L t 0 (k0_off31_inb L t 0) (fun _ => rfl) (m (soutLoc d)) x hx
  ihave HfG := (flight_fold (bigD0_fold m d L (2 * (t.val + 1) + 0) _ ?hRW _ _)) $$ [HT0 Hrows HIdx HfG]
  case hRW => exact fun x => bigGather_rows0 m d L hpre (k0_off32 L t) (k0_off32_inb L t k0_h2) (fun _ => rfl) (fun _ => rfl) rfl hinI (2 * (t.val + 1) + 0) (by have := trips_le L; omega) (by rw [k0_off32_eq]; show 160 * t.val + 160 = _; omega) (rowsVal m d L (2 * t.val + 0)) x
  · isplitl [HT0 Hrows HIdx]
    · isplitl [HT0]; · iexact HT0
      isplitl [Hrows]; · iexact Hrows
      iexact HIdx
    · iexact HfG
  ihave HNod := aside_out $$ HNod
  ihave HT2 := aside_out $$ HT2
  sl_step
  isplitr
  · ipureintro; rfl
  unfold midInv sharedAt slot0 bigPart0 selfPart0 outPart0
  rw [if_pos hnext, if_neg hne, if_neg hne, e2, eD]
  isplitl [HW Hdone Hpend HO]
  · isplitr; · iexact Hmw
    isplitl [HW]; · iexact HW
    isplitl [Hdone]
    · iexact Hdone
    isplitl [Hpend]; · iexact Hpend
    iexists (insert (SemLoc.dma cc0_scratch11.sem, (default : HIx 1)) (insert (SemLoc.dma cc0_scratch9.sem, (default : HIx 1)) W'))
    isplitr
    · ipureintro
      exact waits_ins _ (waits_ins _ hW')
    · iexact HO
  isplitr [Hslot1]
  · isplitl [HfG]
    · iexact HfG
    isplitl [Hsg HNod HT2]
    · isplitl [Hsg]; · iexact Hsg
      isplitl [HNod]; · iexact HNod
      iexact HT2
    · isplitl [HfN]; · iexact HfN
      iexact HfS
  · iexact Hslot1

/-- THE FIRST STEP of trip `t`: from the loop's invariant, the printed part that runs group `2 t` in slot 0 leaves
    the assertion between the two steps and hands on the second group's word. -/
theorem step0 (inner0 : InnerLoop0 (F := F) d L) (hpre : PreOK m) (v1 v5 : BitVec 32) (t : Fin (k0_t1_loop L).trips) (acc : BitVec 32) :
    outerInv m d L O W t.val acc
      ⊢ wp frame (wpE (defs₀ (F := F)) 𝒱₀ (tthr d L) none) Set.univ (part25At (F := F) L v1 v5 t)
          fun r => iprop(⌜r.1 = v80Of L t⌝ ∗ midInv m d L O W t.val) := by
  unfold outerInv
  by_cases ht : 1 ≤ t.val
  · by_cases hl : t.val + 1 < (k0_t1_loop L).trips
    · exact step0_pos_mid m d L O W inner0 hpre v1 v5 t ht hl
    · exact step0_pos_last m d L O W inner0 hpre v1 v5 t ht hl
  · have h0 : t.val = 0 := by omega
    have e := t1_trips L
    have h2 : 2 ≤ trips L := by unfold trips ngc ngcN; split <;> omega
    have hl : t.val + 1 < (k0_t1_loop L).trips := by omega
    exact step0_zero m d L O W inner0 hpre v1 v5 t h0 hl

end Cert.Proof.K

end
-- ==== Proof.TileStep1.lean ====
import proofs.«208500_g61899068670276_cont_9to1_m_775_47_alg».proof.Proof.TileArith
import proofs.«208500_g61899068670276_cont_9to1_m_775_47_alg».proof.Proof.TileFacts
import proofs.«208500_g61899068670276_cont_9to1_m_775_47_alg».proof.Proof.TileMid
import proofs.«208500_g61899068670276_cont_9to1_m_775_47_alg».proof.Proof.TileRows
import proofs.«208500_g61899068670276_cont_9to1_m_775_47_alg».proof.Proof.TileGather
/-!
  The second step of a trip of the loop over pairs of groups: the group of odd parity, on the second slot. From the
  assertion between the two steps (the first step done) it waits for the copies out of the odd group two before,
  starts this group's own-row gather, waits for its eighty table rows, computes the eight means, waits for its own
  rows, starts the two copies out and the gather of the odd group two after; which is the invariant at the next trip.
-/

noncomputable section

namespace Cert.Proof.K

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## Waits, and what rides with a transfer in flight -/

/-- A wait on one of the tile's own DMA semaphores whose one transfer is in flight: the transfer's delivery, the
    semaphore back at zero, the wait recorded. -/
theorem wait_stepB [FloatOps F] {α : Type} {Q : α → sProp 𝕄} {c : Thread nD τ} {sp sp' : Space} {s s' : Shape} {e e' : EltTy} {κ' : Kind} {sem : DmaSem sig}
    {srcw : Memref sig c.2.kind sp' s' e'} {dstw : Memref sig κ' sp s e} {hsrc : srcw.view.WordExact} {hdst : dstw.view.WordExact}
    {k : PUnit → Prog (TpuEff nD τ sig (Elt F) Λ₀ c.2) α} {N : ℕ} (hN : dstw.view.dmaCredit = N) {D : sProp 𝕄}
    {O : CellTallies nD τ sig (HIx 1)} {W : Waits sig (HIx 1)} :
    iprop(Transfers.MayWaits c (none : HIx 1) O ∗ Transfers.Flight (countersEmb : UEmb Counters 𝕄) c (.dma sem) (default : HIx 1) N D ∗ owes c O W)
      ⊢ iprop((iprop(D ∗ semVal (c, SemLoc.dma sem) 0 ∗ owes c O (insert (SemLoc.dma sem, (default : HIx 1)) W))
            -∗ wp frame (wpE (defs₀ (F := F)) 𝒱₀ c none) Set.univ (k ⟨⟩) Q)
          -∗ wp frame (wpE (defs₀ (F := F)) 𝒱₀ c none) Set.univ (.op (.waitDma2 sem srcw dstw hsrc hdst) k) Q) := by
  iintro ⟨#Hmw, Hf, HO⟩
  iapply (Transfers.wp_waitLocalO (EC := (countersEmb : UEmb Counters 𝕄)) (𝒱 := 𝒱₀) (c := c) (bd := none) (default : HIx 1) hN)
  isplitl [Hf]; · iexact Hf
  isplitl [HO]; · iexact HO
  iapply (Transfers.MayWaits.elim (SemLoc.dma sem)); iexact Hmw

/-- What the tile keeps beside a transfer in flight rides with it, and the delivery may be restated. -/
theorem flight_foldB [FloatOps F] {c : Thread nD τ} {sm : SemLoc sig} {N : ℕ} {D D' R : sProp 𝕄} (h : iprop(R ∗ D) ⊢ D') :
    iprop(R ∗ Transfers.Flight (countersEmb : UEmb Counters 𝕄) c sm (default : HIx 1) N D)
      ⊢ Transfers.Flight (countersEmb : UEmb Counters 𝕄) c sm (default : HIx 1) N D' :=
  (Transfers.Flight_frame (countersEmb : UEmb Counters 𝕄) c).trans (Transfers.Flight_mono (countersEmb : UEmb Counters 𝕄) c h)

/-- A buffer's elements and the rest of it are the buffer. -/
theorem pts_join_univB {ℓ : Loc nD τ sig} {I : Finset (Idx ℓ)} {q : PosShare TreeShare} {f : Buf (Elt F) ℓ} :
    iprop((ℓ ↦[I]{q} f) ∗ (ℓ ↦[Finset.univ \ I]{q} f)) ⊢ (ℓ ↦{q} f : sProp 𝕄) :=
  (pointsTo_split_subset (Finset.subset_univ I)).2

/-- A program that has returned, bound to its continuation, is the continuation. -/
theorem prog_ret_bindB {E : Type → Type} {α β : Type} (a : α) (k : α → Prog E β) : (Prog.ret a).bind k = k a := rfl

/-- A wait at the default index keeps the recorded waits among the launch's or at no call. -/
theorem waits_insB {W W0 : Waits sig (HIx 1)} (sm : SemLoc sig) (h : ∀ p ∈ W0, p ∈ W ∨ p.2 = none) :
    ∀ p ∈ insert (sm, (default : HIx 1)) W0, p ∈ W ∨ p.2 = none := by
  intro p hp
  rcases Finset.mem_insert.mp hp with hp | hp
  · exact .inr (hp ▸ rfl)
  · exact h p hp

/-- An assertion set aside. -/
def AsideB (P : sProp 𝕄) : sProp 𝕄 := P
theorem asideB_in {P : sProp 𝕄} : P ⊢ AsideB P := .rfl
theorem asideB_out {P : sProp 𝕄} : AsideB P ⊢ P := .rfl

variable (m : (ℓ : Loc nD τ sig) → Buf (Elt F) ℓ)
variable (d : Dev nD) (L : grid0.Coords)
variable [FloatOps F]
variable (O : CellTallies nD τ sig (HIx 1)) (W : Waits sig (HIx 1))

/-- The odd group's word is `2 t + 1`. -/
theorem v80_toNatB (t : Fin (k0_t1_loop L).trips) :
    (Scalar.addi (Scalar.muli 2#32 (Scf.iv 0#32 1#32 t)) 1#32).toNat = 2 * t.val + 1 := by
  have h2 : Affine.IsInt 2#32 (2) := Affine.ofNat _ (by omega)
  have h0 : Affine.IsInt 0#32 (0) := Affine.ofNat _ (by omega)
  have h1 : Affine.IsInt 1#32 (1) := Affine.ofNat _ (by omega)
  have r : t.val < 111 := Nat.lt_of_lt_of_le t.isLt (k0_t1_abs L).2.1
  have ha : Affine.IsInt (Scf.iv 0#32 1#32 t) ((t.val : Int)) := Affine.iv h0 h1 t.val (by omega)
  have h56 : Affine.IsInt (Scalar.muli 2#32 (Scf.iv 0#32 1#32 t)) (2 * (t.val : Int)) := Affine.muli h2 ha (by omega)
  have h80 : Affine.IsInt (Scalar.addi (Scalar.muli 2#32 (Scf.iv 0#32 1#32 t)) 1#32) (2 * (t.val : Int) + 1) := Affine.addi h56 h1 (by omega)
  have := Affine.toNat_of h80 (by omega)
  omega

/-! ## Folding the second slot's transfers -/

/-- The self gather's flight as issued, with what it left beside, delivers the slot's whole buffers. -/
theorem selfD1_fold (g : ℕ) (WR : Buf (Elt F) ((sSst1).view.loc (tthr d L))) (hWR : ∀ x, WR x = sstVal m d L g x)
    (I : Finset (Idx ((sNodes).view.loc (tthr d L)))) (J : Finset (Idx ((tblV).view.loc (tthr d L)))) :
    iprop((((tblV).view.loc (tthr d L) ↦[Finset.univ \ J]{tblTok L 3} m (tblLoc d))
          ∗ ((sSst1).view.loc (tthr d L) ↦[Finset.univ \ (sSst1).view.set]{fullShare} WR)
          ∗ ((sNodes).view.loc (tthr d L) ↦[Finset.univ \ I]{nodTok 1} tNodes m d L))
        ∗ ((((sSst1).view.loc (tthr d L) ↦[(sSst1).view.set]{fullShare} WR)
            ∗ ((sNodes).view.loc (tthr d L) ↦[I]{nodTok 1} tNodes m d L))
          ∗ ((tblV).view.loc (tthr d L) ↦[J]{tblTok L 3} m (tblLoc d))))
      ⊢ (selfD1 m d L g : sProp 𝕄) := by
  unfold selfD1
  iintro ⟨⟨HTr, HSr, HNr⟩, ⟨HS, HN⟩, HT⟩
  isplitl [HS HSr]
  · rw [← pointsTo_congr (fun x _ => hWR x)]
    iapply pts_join_univB; isplitl [HS] <;> iassumption
  isplitl [HN HNr]
  · iapply pts_join_univB; isplitl [HN] <;> iassumption
  · iapply pts_join_univB; isplitl [HT] <;> iassumption

/-- The big gather's flight as issued, with what it left beside, delivers the slot's whole buffers. -/
theorem bigD1_fold (g : ℕ) (RW : Buf (Elt F) ((sRows1).view.loc (tthr d L))) (hRW : ∀ x, RW x = rowsVal m d L g x)
    (I : Finset (Idx ((sNidx).view.loc (tthr d L)))) (J : Finset (Idx ((tblV).view.loc (tthr d L)))) :
    iprop((((tblV).view.loc (tthr d L) ↦[Finset.univ \ J]{tblTok L 1} m (tblLoc d))
          ∗ ((sRows1).view.loc (tthr d L) ↦[Finset.univ \ (sRows1).view.set]{fullShare} RW)
          ∗ ((sNidx).view.loc (tthr d L) ↦[Finset.univ \ I]{idxTok 1} tNidx m d L))
        ∗ ((((sRows1).view.loc (tthr d L) ↦[(sRows1).view.set]{fullShare} RW)
            ∗ ((sNidx).view.loc (tthr d L) ↦[I]{idxTok 1} tNidx m d L))
          ∗ ((tblV).view.loc (tthr d L) ↦[J]{tblTok L 1} m (tblLoc d))))
      ⊢ (bigD1 m d L g : sProp 𝕄) := by
  unfold bigD1
  iintro ⟨⟨HTr, HSr, HNr⟩, ⟨HS, HN⟩, HT⟩
  isplitl [HS HSr]
  · rw [← pointsTo_congr (fun x _ => hRW x)]
    iapply pts_join_univB; isplitl [HS] <;> iassumption
  isplitl [HN HNr]
  · iapply pts_join_univB; isplitl [HN] <;> iassumption
  · iapply pts_join_univB; isplitl [HT] <;> iassumption

/-- A whole scratch buffer held by its view's own elements is held whole. -/
theorem pts_set_Nout1 (q : PosShare TreeShare) (f : Buf (Elt F) ((sNout1).view.loc (tthr d L))) :
    ((sNout1).view.loc (tthr d L) ↦[(sNout1).view.set]{q} f : sProp 𝕄) = ((sNout1).view.loc (tthr d L) ↦{q} f) := by
  simp only [Memref.view_whole, View.set_whole]
theorem pts_set_Sst1 (q : PosShare TreeShare) (f : Buf (Elt F) ((sSst1).view.loc (tthr d L))) :
    ((sSst1).view.loc (tthr d L) ↦[(sSst1).view.set]{q} f : sProp 𝕄) = ((sSst1).view.loc (tthr d L) ↦{q} f) := by
  simp only [Memref.view_whole, View.set_whole]

/-- The mean copy's flight as issued delivers the group's rows of the first result at its values, and the staging buffer. -/
theorem outND1_fold (g : ℕ) (I : Finset S50176x128.Idx) (hI : I = grpRows L g)
    (X : Buf (Elt F) (noutLoc d)) (hX : ∀ x ∈ grpRows L g, X x = neighVal m d x)
    (fsrc : Buf (Elt F) ((sNout1).view.loc (tthr d L))) :
    iprop((noutLoc d ↦[I]{fullShare} X) ∗ ((sNout1).view.loc (tthr d L) ↦[(sNout1).view.set]{fullShare} fsrc))
      ⊢ (outND1 m d L g : sProp 𝕄) := by
  subst hI
  unfold outND1
  iintro ⟨Hx, Hsrc⟩
  isplitl [Hx]
  · have e : (noutLoc d ↦[grpRows L g]{fullShare} X : sProp 𝕄) = (noutLoc d ↦[grpRows L g]{fullShare} neighVal m d) := pointsTo_congr hX
    rw [← e]; iexact Hx
  · iexists fsrc; rw [← pts_set_Nout1]; iexact Hsrc

/-- The self copy's flight as issued delivers the group's rows of the second result at its values, and the staging buffer. -/
theorem outSD1_fold (g : ℕ) (I : Finset S50176x128.Idx) (hI : I = grpRows L g)
    (X : Buf (Elt F) (soutLoc d)) (hX : ∀ x ∈ grpRows L g, X x = selfVal m d x)
    (fsrc : Buf (Elt F) ((sSst1).view.loc (tthr d L))) :
    iprop((soutLoc d ↦[I]{fullShare} X) ∗ ((sSst1).view.loc (tthr d L) ↦[(sSst1).view.set]{fullShare} fsrc))
      ⊢ (outSD1 m d L g : sProp 𝕄) := by
  subst hI
  unfold outSD1
  iintro ⟨Hx, Hsrc⟩
  isplitl [Hx]
  · have e : (soutLoc d ↦[grpRows L g]{fullShare} X : sProp 𝕄) = (soutLoc d ↦[grpRows L g]{fullShare} selfVal m d) := pointsTo_congr hX
    rw [← e]; iexact Hx
  · iexists fsrc; rw [← pts_set_Sst1]; iexact Hsrc

/-- The group's rows of the first result, as the mean copy's destination window names them. -/
theorem nwin1_eq (t : Fin (k0_t1_loop L).trips) (f : Buf (Elt F) (noutLoc d)) :
    (noutLoc d ↦[grpRows L (2 * t.val + 1)]{fullShare} f : sProp 𝕄)
      = (((noutV).slice (Rect.unit (s := S50176x128) (k0_off31 L t 1#32) S8x128.size (k0_off31_inb L t 1)) (fun _ => rfl)).view.loc (tthr d L)
          ↦[((noutV).slice (Rect.unit (s := S50176x128) (k0_off31 L t 1#32) S8x128.size (k0_off31_inb L t 1)) (fun _ => rfl)).view.set]{fullShare} f) := by
  have h := win_nout L t 1 (k0_off31_inb L t 1) (fun _ => rfl)
  exact congrArg (fun S => (noutLoc d ↦[S]{fullShare} f : sProp 𝕄)) h.symm
theorem swin1_eq (t : Fin (k0_t1_loop L).trips) (f : Buf (Elt F) (soutLoc d)) :
    (soutLoc d ↦[grpRows L (2 * t.val + 1)]{fullShare} f : sProp 𝕄)
      = (((soutV).slice (Rect.unit (s := S50176x128) (k0_off31 L t 1#32) S8x128.size (k0_off31_inb L t 1)) (fun _ => rfl)).view.loc (tthr d L)
          ↦[((soutV).slice (Rect.unit (s := S50176x128) (k0_off31 L t 1#32) S8x128.size (k0_off31_inb L t 1)) (fun _ => rfl)).view.set]{fullShare} f) := by
  have h := win_sout L t 1 (k0_off31_inb L t 1) (fun _ => rfl)
  exact congrArg (fun S => (soutLoc d ↦[S]{fullShare} f : sProp 𝕄)) h.symm

/-! ## The step -/

/-- The first step of a trip at the arguments the kernel passes. -/
abbrev part25B (v1 v5 : BitVec 32) (t : Fin (k0_t1_loop L).trips) :=
  k0_part25 (F := F) L nidxV (Memref.isWhole_whole _) nodesV (Memref.isWhole_whole _) wV (Memref.isWhole_whole _) tblV (Memref.isWhole_whole _)
    noutV (Memref.isWhole_whole _) soutV (Memref.isWhole_whole _) sNidx (Memref.isWhole_whole _) sNodes (Memref.isWhole_whole _) sW (Memref.isWhole_whole _)
    sRows0 (Memref.isWhole_whole _) sRows1 (Memref.isWhole_whole _) sSst0 (Memref.isWhole_whole _) sSst1 (Memref.isWhole_whole _)
    sNout0 (Memref.isWhole_whole _) sNout1 (Memref.isWhole_whole _)
    cc0_scratch9 cc0_scratch10 cc0_scratch11 cc0_scratch12 cc0_scratch13 cc0_scratch14 cc0_scratch15 cc0_scratch16 cc0_scoped0 cc0_scoped1 cc0_scoped2
    v1 v5 0#32 1#32 t

/-- The trip's region at the arguments the kernel passes. -/
abbrev tripB (v1 v5 : BitVec 32) (t : Fin (k0_t1_loop L).trips) (acc : BitVec 32) :=
  k0_t1_body (F := F) L nidxV (Memref.isWhole_whole _) nodesV (Memref.isWhole_whole _) wV (Memref.isWhole_whole _) tblV (Memref.isWhole_whole _)
    noutV (Memref.isWhole_whole _) soutV (Memref.isWhole_whole _) sNidx (Memref.isWhole_whole _) sNodes (Memref.isWhole_whole _) sW (Memref.isWhole_whole _)
    sRows0 (Memref.isWhole_whole _) sRows1 (Memref.isWhole_whole _) sSst0 (Memref.isWhole_whole _) sSst1 (Memref.isWhole_whole _)
    sNout0 (Memref.isWhole_whole _) sNout1 (Memref.isWhole_whole _)
    cc0_scratch9 cc0_scratch10 cc0_scratch11 cc0_scratch12 cc0_scratch13 cc0_scratch14 cc0_scratch15 cc0_scratch16 cc0_scoped0 cc0_scoped1 cc0_scoped2
    v1 v5 t acc

set_option maxHeartbeats 4000000 in
/-- ONE TRIP, from its first step: the second step takes the assertion between the steps to the invariant at the next
    trip. -/
theorem trip_of_step0 (inner1 : InnerLoop1 (F := F) d L) (hpre : PreOK m) (v1 v5 : BitVec 32) (t : Fin (k0_t1_loop L).trips) (acc : BitVec 32)
    (Φ : sProp 𝕄)
    (h0 : Φ ⊢ wp frame (wpE (defs₀ (F := F)) 𝒱₀ (tthr d L) none) Set.univ (part25B (F := F) L v1 v5 t)
        (fun r => iprop(⌜r.1 = Scalar.addi (Scalar.muli 2#32 (Scf.iv 0#32 1#32 t)) 1#32⌝ ∗ midInv m d L O W t.val))) :
    Φ ⊢ wp frame (wpE (defs₀ (F := F)) 𝒱₀ (tthr d L) none) Set.univ (tripB (F := F) L v1 v5 t acc)
        (fun r => outerInv m d L O W (t.val + 1) r) := by
  have hT := t1_trips' L
  unfold tripB k0_t1_body
  rw [wp_bind]
  refine h0.trans (wp_mono _ _ _ fun r => ?_)
  obtain ⟨v80, v82, c62⟩ := r
  dsimp only
  by_cases ht : 1 ≤ t.val
  · by_cases hlast : t.val + 1 < (k0_t1_loop L).trips
    · ------------------------------------------------------------------ a middle trip
      have k0_h3 : k0_cond3 L t = 1#1 := (cond3_iff L t).2 ht
      have ht0 : ¬ t.val = 0 := by omega
      have k0_h4 : k0_cond4 L t = 1#1 := (cond4_iff L t).2 hlast
      have hnext : t.val + 1 < trips L := by rw [← t1_trips L]; exact hlast
      have htt : t.val < trips L := by rw [← t1_trips L]; exact t.isLt
      have hne : ¬ t.val + 1 = 0 := by omega
      have hg : 2 * t.val + 1 < 222 := by have := trips_le L; omega
      have hgn : 2 * t.val + 1 < ngc L := by have := ngc_even L; omega
      have e2 : 2 * (t.val + 1) + 1 - 2 = 2 * t.val + 1 := by omega
      have eD : 2 * t.val - 1 = (2 * t.val - 2) + 1 := by omega
      have hinN := hin_nod m d L hpre (k0_off34 L t) (k0_off34_inb L t k0_h3) (fun _ => rfl)
      have hinI := hin_idx m d L hpre (k0_off59 L t) (k0_off59_inb L t k0_h4) (fun _ => rfl)
      have eN : 2 * t.val + 1 - 2 = 2 * t.val - 1 := by omega
      have eD' : 2 * (t.val + 1) - 2 = (2 * t.val - 1) + 1 := by omega
      have ePend : 2 * t.val + 1 + 1 = 2 * (t.val + 1) := by omega
      unfold midInv sharedAt slot1 bigPart1 selfPart1 outPart1
      rw [if_pos htt, if_neg ht0, if_neg ht0, eN]
      iintro ⟨%hv, ⟨#Hmw, HW, Hdone, Hpend, ⟨%W', %hW', HO⟩⟩, Hslot0, HfG, ⟨Hsg, HNod, HT3⟩, ⟨HfN, HfS⟩⟩
      try dsimp only at hv
      subst hv
      -- the condition holds: the out copies of the group two before are waited for, the self gather started
      sl_exec
      iapply (wait_stepB (F := F) rfl) $$ [HfN HO]
      · isplitr; · iexact Hmw
        isplitl [HfN]; · iexact HfN
        iexact HO
      iintro ⟨HD, HfN, HO⟩
      unfold outND1
      icases HD with ⟨HrN, ⟨%fn, Hn⟩⟩
      iapply (wait_stepB (F := F) rfl) $$ [HfS HO]
      · isplitr; · iexact Hmw
        isplitl [HfS]; · iexact HfS
        iexact HO
      iintro ⟨HD, HfS, HO⟩
      unfold outSD1
      icases HD with ⟨HrS, ⟨%fs, Hs⟩⟩
      rw [prog_ret_bindB]
      sl_exec
      ihave Hsg := (flight_foldB (selfD1_fold m d L (2 * t.val + 1) _ ?hWR _ _)) $$ [HT3 Hs HNod Hsg]
      rotate_left
      · isplitl [HT3 Hs HNod]
        · isplitl [HT3]; · iexact HT3
          isplitl [Hs]; · iexact Hs
          iexact HNod
        · iexact Hsg
      case hWR => exact fun x => selfGather_sst1 m d L hpre (k0_off34 L t) _ _ _ _ _ (2 * t.val + 1) hg (by rw [k0_off34_eq]; show 16 * t.val + 8 = _; omega) _ x
      -- the group's eighty table rows
      iapply (wait_stepB (F := F) rfl) $$ [HfG HO]
      · isplitr; · iexact Hmw
        isplitl [HfG]; · iexact HfG
        iexact HO
      iintro ⟨HD, HfG, HO⟩
      unfold bigD1
      icases HD with ⟨Hrows, HIdx, HT1⟩
      sl_exec
      -- the eight rows' means
      rw [wp_bind]
      ihave Hl := (inner1 v1 v5 _ (2 * t.val + 1) ?hv hg fullShare fullShare _ _ fn) $$ [HW Hrows Hn]
      case hv => exact v80_toNatB L t
      · isplitl [HW]; · iexact HW
        isplitl [Hrows]; · iexact Hrows
        iexact Hn
      iapply wp_wand_r
      isplitl [Hl]; · iexact Hl
      iintro %acc2 ⟨HW, Hrows, Hn⟩
      sl_exec
      -- the group's eight own rows
      iapply (wait_stepB (F := F) rfl) $$ [Hsg HO]
      · isplitr; · iexact Hmw
        isplitl [Hsg]; · iexact Hsg
        iexact HO
      iintro ⟨HD, Hsg, HO⟩
      unfold selfD1
      icases HD with ⟨Hs, HNod, HT3⟩
      -- the group's rows of the two results, out of the untouched ones, as the copies' windows name them
      ihave Hp := (outPend_take m d L (2 * t.val + 1) hgn).1 $$ Hpend
      icases Hp with ⟨Hp0, Hpend⟩
      unfold outPts
      icases Hp0 with ⟨H6, H7⟩
      ihave H6 := (Entails.of_eq (nwin1_eq d L t _)) $$ H6
      ihave H7 := (Entails.of_eq (swin1_eq d L t _)) $$ H7
      ihave Hn := (Entails.of_eq (pts_set_Nout1 d L fullShare _).symm) $$ Hn
      ihave Hs := (Entails.of_eq (pts_set_Sst1 d L fullShare _).symm) $$ Hs
      ihave HNod := asideB_in $$ HNod
      ihave HT3 := asideB_in $$ HT3
      try rw [prog_ret_bindB]
      sl_exec
      ihave HfN := (Transfers.Flight_mono (countersEmb : UEmb Counters 𝕄) (tthr d L) (outND1_fold m d L (2 * t.val + 1) _ ?hIN _ ?hXN _)) $$ HfN
      case hIN => exact win_nout L t 1 _ _
      case hXN => exact fun x hx => outN_value1 m d L t 1 _ _ _ x hx
      ihave HfS := (Transfers.Flight_mono (countersEmb : UEmb Counters 𝕄) (tthr d L) (outSD1_fold m d L (2 * t.val + 1) _ ?hIS _ ?hXS _)) $$ HfS
      case hIS => exact win_sout L t 1 _ _
      case hXS => exact fun x hx => outS_value1 m d L t 1 _ _ _ x hx
      ihave HfG := (flight_foldB (bigD1_fold m d L (2 * (t.val + 1) + 1) _ ?hRW _ _)) $$ [HT1 Hrows HIdx HfG]
      rotate_left
      · isplitl [HT1 Hrows HIdx]
        · isplitl [HT1]; · iexact HT1
          isplitl [Hrows]; · iexact Hrows
          iexact HIdx
        · iexact HfG
      case hRW => exact fun x => bigGather_rows1 m d L hpre (k0_off59 L t) _ _ _ _ _ (2 * (t.val + 1) + 1) (by have := trips_le L; omega) (by rw [k0_off59_eq]; show 160 * t.val + 240 = _; omega) _ x
      ihave HNod := asideB_out $$ HNod
      ihave HT3 := asideB_out $$ HT3
      sl_step
      unfold outerInv sharedInv slot1 bigPart1 selfPart1 outPart1
      rw [if_pos hnext, if_neg hne, if_neg hne, e2, eD', outDone_put_eq]
      ihave Hpend := (Entails.of_eq (congrArg (outPend m d L) ePend)) $$ Hpend
      isplitl [HW Hdone Hpend HO HrN HrS]
      · isplitr; · iexact Hmw
        isplitl [HW]; · iexact HW
        isplitl [Hdone HrN HrS]
        · isplitl [HrN HrS]
          · unfold outPts
            isplitl [HrN]; · iexact HrN
            iexact HrS
          · iexact Hdone
        isplitl [Hpend]; · iexact Hpend
        iexists _; isplitr
        rotate_left
        · iexact HO
        · ipureintro
          exact waits_insB _ (waits_insB _ (waits_insB _ (waits_insB _ hW')))
      isplitl [Hslot0]; · iexact Hslot0
      isplitl [HfG]
      · iexact HfG
      isplitl [Hsg HNod HT3]
      · isplitl [Hsg]; · iexact Hsg
        isplitl [HNod]; · iexact HNod
        iexact HT3
      · isplitl [HfN]; · iexact HfN
        iexact HfS
    · ------------------------------------------------------------------ the last trip
      have k0_h3 : k0_cond3 L t = 1#1 := (cond3_iff L t).2 ht
      have ht0 : ¬ t.val = 0 := by omega
      have k0_h4 : ¬ k0_cond4 L t = 1#1 := fun h => hlast ((cond4_iff L t).1 h)
      have hnext : ¬ t.val + 1 < trips L := by rw [← t1_trips L]; exact hlast
      have htt : t.val < trips L := by rw [← t1_trips L]; exact t.isLt
      have hne : ¬ t.val + 1 = 0 := by omega
      have hg : 2 * t.val + 1 < 222 := by have := trips_le L; omega
      have hgn : 2 * t.val + 1 < ngc L := by have := ngc_even L; omega
      have e2 : 2 * (t.val + 1) + 1 - 2 = 2 * t.val + 1 := by omega
      have eD : 2 * t.val - 1 = (2 * t.val - 2) + 1 := by omega
      have hinN := hin_nod m d L hpre (k0_off34 L t) (k0_off34_inb L t k0_h3) (fun _ => rfl)
      have eN : 2 * t.val + 1 - 2 = 2 * t.val - 1 := by omega
      have eD' : 2 * (t.val + 1) - 2 = (2 * t.val - 1) + 1 := by omega
      have ePend : 2 * t.val + 1 + 1 = 2 * (t.val + 1) := by omega
      unfold midInv sharedAt slot1 bigPart1 selfPart1 outPart1
      rw [if_pos htt, if_neg ht0, if_neg ht0, eN]
      iintro ⟨%hv, ⟨#Hmw, HW, Hdone, Hpend, ⟨%W', %hW', HO⟩⟩, Hslot0, HfG, ⟨Hsg, HNod, HT3⟩, ⟨HfN, HfS⟩⟩
      try dsimp only at hv
      subst hv
      -- the condition holds: the out copies of the group two before are waited for, the self gather started
      sl_exec
      iapply (wait_stepB (F := F) rfl) $$ [HfN HO]
      · isplitr; · iexact Hmw
        isplitl [HfN]; · iexact HfN
        iexact HO
      iintro ⟨HD, HfN, HO⟩
      unfold outND1
      icases HD with ⟨HrN, ⟨%fn, Hn⟩⟩
      iapply (wait_stepB (F := F) rfl) $$ [HfS HO]
      · isplitr; · iexact Hmw
        isplitl [HfS]; · iexact HfS
        iexact HO
      iintro ⟨HD, HfS, HO⟩
      unfold outSD1
      icases HD with ⟨HrS, ⟨%fs, Hs⟩⟩
      rw [prog_ret_bindB]
      sl_exec
      ihave Hsg := (flight_foldB (selfD1_fold m d L (2 * t.val + 1) _ ?hWR _ _)) $$ [HT3 Hs HNod Hsg]
      rotate_left
      · isplitl [HT3 Hs HNod]
        · isplitl [HT3]; · iexact HT3
          isplitl [Hs]; · iexact Hs
          iexact HNod
        · iexact Hsg
      case hWR => exact fun x => selfGather_sst1 m d L hpre (k0_off34 L t) _ _ _ _ _ (2 * t.val + 1) hg (by rw [k0_off34_eq]; show 16 * t.val + 8 = _; omega) _ x
      -- the group's eighty table rows
      iapply (wait_stepB (F := F) rfl) $$ [HfG HO]
      · isplitr; · iexact Hmw
        isplitl [HfG]; · iexact HfG
        iexact HO
      iintro ⟨HD, HfG, HO⟩
      unfold bigD1
      icases HD with ⟨Hrows, HIdx, HT1⟩
      sl_exec
      -- the eight rows' means
      rw [wp_bind]
      ihave Hl := (inner1 v1 v5 _ (2 * t.val + 1) ?hv hg fullShare fullShare _ _ fn) $$ [HW Hrows Hn]
      case hv => exact v80_toNatB L t
      · isplitl [HW]; · iexact HW
        isplitl [Hrows]; · iexact Hrows
        iexact Hn
      iapply wp_wand_r
      isplitl [Hl]; · iexact Hl
      iintro %acc2 ⟨HW, Hrows, Hn⟩
      sl_exec
      -- the group's eight own rows
      iapply (wait_stepB (F := F) rfl) $$ [Hsg HO]
      · isplitr; · iexact Hmw
        isplitl [Hsg]; · iexact Hsg
        iexact HO
      iintro ⟨HD, Hsg, HO⟩
      unfold selfD1
      icases HD with ⟨Hs, HNod, HT3⟩
      -- the group's rows of the two results, out of the untouched ones, as the copies' windows name them
      ihave Hp := (outPend_take m d L (2 * t.val + 1) hgn).1 $$ Hpend
      icases Hp with ⟨Hp0, Hpend⟩
      unfold outPts
      icases Hp0 with ⟨H6, H7⟩
      ihave H6 := (Entails.of_eq (nwin1_eq d L t _)) $$ H6
      ihave H7 := (Entails.of_eq (swin1_eq d L t _)) $$ H7
      ihave Hn := (Entails.of_eq (pts_set_Nout1 d L fullShare _).symm) $$ Hn
      ihave Hs := (Entails.of_eq (pts_set_Sst1 d L fullShare _).symm) $$ Hs
      ihave HNod := asideB_in $$ HNod
      ihave HT3 := asideB_in $$ HT3
      try rw [prog_ret_bindB]
      sl_exec
      ihave HfN := (Transfers.Flight_mono (countersEmb : UEmb Counters 𝕄) (tthr d L) (outND1_fold m d L (2 * t.val + 1) _ ?hIN _ ?hXN _)) $$ HfN
      case hIN => exact win_nout L t 1 _ _
      case hXN => exact fun x hx => outN_value1 m d L t 1 _ _ _ x hx
      ihave HfS := (Transfers.Flight_mono (countersEmb : UEmb Counters 𝕄) (tthr d L) (outSD1_fold m d L (2 * t.val + 1) _ ?hIS _ ?hXS _)) $$ HfS
      case hIS => exact win_sout L t 1 _ _
      case hXS => exact fun x hx => outS_value1 m d L t 1 _ _ _ x hx
      ihave HNod := asideB_out $$ HNod
      ihave HT3 := asideB_out $$ HT3
      sl_step
      unfold outerInv sharedInv slot1 bigPart1 selfPart1 outPart1
      rw [if_neg hnext, if_neg hne, if_neg hne, e2, eD', outDone_put_eq]
      ihave Hpend := (Entails.of_eq (congrArg (outPend m d L) ePend)) $$ Hpend
      isplitl [HW Hdone Hpend HO HrN HrS]
      · isplitr; · iexact Hmw
        isplitl [HW]; · iexact HW
        isplitl [Hdone HrN HrS]
        · isplitl [HrN HrS]
          · unfold outPts
            isplitl [HrN]; · iexact HrN
            iexact HrS
          · iexact Hdone
        isplitl [Hpend]; · iexact Hpend
        iexists _; isplitr
        rotate_left
        · iexact HO
        · ipureintro
          exact waits_insB _ (waits_insB _ (waits_insB _ (waits_insB _ hW')))
      isplitl [Hslot0]; · iexact Hslot0
      isplitl [HfG Hrows HIdx HT1]
      · isplitl [HfG]; · iexact HfG
        isplitl [Hrows]; · iexists _; iexact Hrows
        isplitl [HIdx]; · iexact HIdx
        iexact HT1
      isplitl [Hsg HNod HT3]
      · isplitl [Hsg]; · iexact Hsg
        isplitl [HNod]; · iexact HNod
        iexact HT3
      · isplitl [HfN]; · iexact HfN
        iexact HfS
  · -------------------------------------------------------------------- the first trip
    have hlast : t.val + 1 < (k0_t1_loop L).trips := by split at hT <;> omega
    have k0_h3 : ¬ k0_cond3 L t = 1#1 := fun h => by have := (cond3_iff L t).1 h; omega
    have ht0 : t.val = 0 := by omega
    have k0_h4 : k0_cond4 L t = 1#1 := (cond4_iff L t).2 hlast
    have hnext : t.val + 1 < trips L := by rw [← t1_trips L]; exact hlast
    have htt : t.val < trips L := by rw [← t1_trips L]; exact t.isLt
    have hne : ¬ t.val + 1 = 0 := by omega
    have hg : 2 * t.val + 1 < 222 := by have := trips_le L; omega
    have hgn : 2 * t.val + 1 < ngc L := by have := ngc_even L; omega
    have e2 : 2 * (t.val + 1) + 1 - 2 = 2 * t.val + 1 := by omega
    have eD : 2 * t.val - 1 = 2 * t.val - 2 := by omega
    have eg0 : (1 : ℕ) = 2 * t.val + 1 := by omega
    have hinI := hin_idx m d L hpre (k0_off59 L t) (k0_off59_inb L t k0_h4) (fun _ => rfl)
    have eD0 : 2 * (t.val + 1) - 2 = 2 * t.val - 1 := by omega
    have ePend : 2 * t.val + 1 + 1 = 2 * (t.val + 1) := by omega
    unfold midInv sharedAt slot1 bigPart1 selfPart1 outPart1
    rw [if_pos htt, if_pos ht0, if_pos ht0]
    iintro ⟨%hv, ⟨#Hmw, HW, Hdone, Hpend, ⟨%W', %hW', HO⟩⟩, Hslot0, HfG, Hsg, ⟨HfN, HfS, ⟨%fn, Hn⟩⟩⟩
    try dsimp only at hv
    subst hv
    -- the condition fails: nothing to wait for, the self gather was started before the loop
    sl_exec
    -- the group's eighty table rows
    iapply (wait_stepB (F := F) rfl) $$ [HfG HO]
    · isplitr; · iexact Hmw
      isplitl [HfG]; · iexact HfG
      iexact HO
    iintro ⟨HD, HfG, HO⟩
    unfold bigD1
    icases HD with ⟨Hrows, HIdx, HT1⟩
    sl_exec
    -- the eight rows' means
    rw [wp_bind]
    ihave Hl := (inner1 v1 v5 _ (2 * t.val + 1) ?hv hg fullShare fullShare _ _ fn) $$ [HW Hrows Hn]
    case hv => exact v80_toNatB L t
    · isplitl [HW]; · iexact HW
      isplitl [Hrows]; · iexact Hrows
      iexact Hn
    iapply wp_wand_r
    isplitl [Hl]; · iexact Hl
    iintro %acc2 ⟨HW, Hrows, Hn⟩
    sl_exec
    -- the group's eight own rows
    iapply (wait_stepB (F := F) rfl) $$ [Hsg HO]
    · isplitr; · iexact Hmw
      isplitl [Hsg]; · iexact Hsg
      iexact HO
    iintro ⟨HD, Hsg, HO⟩
    unfold selfD1
    icases HD with ⟨Hs, HNod, HT3⟩
    ihave Hs := (Entails.of_eq (congrArg (fun g => ((sSst1).view.loc (tthr d L) ↦{fullShare} (sstVal m d L g : Buf (Elt F) ((tthr d L).loc cc0_scratch6)) : sProp 𝕄)) eg0)) $$ Hs
    -- the group's rows of the two results, out of the untouched ones, as the copies' windows name them
    ihave Hp := (outPend_take m d L (2 * t.val + 1) hgn).1 $$ Hpend
    icases Hp with ⟨Hp0, Hpend⟩
    unfold outPts
    icases Hp0 with ⟨H6, H7⟩
    ihave H6 := (Entails.of_eq (nwin1_eq d L t _)) $$ H6
    ihave H7 := (Entails.of_eq (swin1_eq d L t _)) $$ H7
    ihave Hn := (Entails.of_eq (pts_set_Nout1 d L fullShare _).symm) $$ Hn
    ihave Hs := (Entails.of_eq (pts_set_Sst1 d L fullShare _).symm) $$ Hs
    ihave HNod := asideB_in $$ HNod
    ihave HT3 := asideB_in $$ HT3
    try rw [prog_ret_bindB]
    sl_exec
    ihave HfN := (Transfers.Flight_mono (countersEmb : UEmb Counters 𝕄) (tthr d L) (outND1_fold m d L (2 * t.val + 1) _ ?hIN _ ?hXN _)) $$ HfN
    case hIN => exact win_nout L t 1 _ _
    case hXN => exact fun x hx => outN_value1 m d L t 1 _ _ _ x hx
    ihave HfS := (Transfers.Flight_mono (countersEmb : UEmb Counters 𝕄) (tthr d L) (outSD1_fold m d L (2 * t.val + 1) _ ?hIS _ ?hXS _)) $$ HfS
    case hIS => exact win_sout L t 1 _ _
    case hXS => exact fun x hx => outS_value1 m d L t 1 _ _ _ x hx
    ihave HfG := (flight_foldB (bigD1_fold m d L (2 * (t.val + 1) + 1) _ ?hRW _ _)) $$ [HT1 Hrows HIdx HfG]
    rotate_left
    · isplitl [HT1 Hrows HIdx]
      · isplitl [HT1]; · iexact HT1
        isplitl [Hrows]; · iexact Hrows
        iexact HIdx
      · iexact HfG
    case hRW => exact fun x => bigGather_rows1 m d L hpre (k0_off59 L t) _ _ _ _ _ (2 * (t.val + 1) + 1) (by have := trips_le L; omega) (by rw [k0_off59_eq]; show 160 * t.val + 240 = _; omega) _ x
    ihave HNod := asideB_out $$ HNod
    ihave HT3 := asideB_out $$ HT3
    sl_step
    unfold outerInv sharedInv slot1 bigPart1 selfPart1 outPart1
    rw [if_pos hnext, if_neg hne, if_neg hne, e2, eD0]
    ihave Hpend := (Entails.of_eq (congrArg (outPend m d L) ePend)) $$ Hpend
    isplitl [HW Hdone Hpend HO]
    · isplitr; · iexact Hmw
      isplitl [HW]; · iexact HW
      isplitl [Hdone]; · iexact Hdone
      isplitl [Hpend]; · iexact Hpend
      iexists _; isplitr
      rotate_left
      · iexact HO
      · ipureintro
        exact waits_insB _ (waits_insB _ hW')
    isplitl [Hslot0]; · iexact Hslot0
    isplitl [HfG]
    · iexact HfG
    isplitl [Hsg HNod HT3]
    · isplitl [Hsg]; · iexact Hsg
      isplitl [HNod]; · iexact HNod
      iexact HT3
    · isplitl [HfN]; · iexact HfN
      iexact HfS

end Cert.Proof.K

end
-- ==== Proof.TileTrip.lean ====
import proofs.«208500_g61899068670276_cont_9to1_m_775_47_alg».proof.Proof.TileInner
import proofs.«208500_g61899068670276_cont_9to1_m_775_47_alg».proof.Proof.TileStep
import proofs.«208500_g61899068670276_cont_9to1_m_775_47_alg».proof.Proof.TileStep1

/-!
  One trip of the loop over pairs of groups: its first step (the even group, on the first slot) followed by its second
  (the odd group, on the second slot), each with its inner loop over the group's eight rows.
-/

noncomputable section

namespace Cert.Proof.K

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

/-- ONE TRIP OF THE OUTER LOOP: from the invariant at `t`, the trip's region re-establishes it at `t + 1`. -/
theorem outer_trip (m : (ℓ : Loc nD τ sig) → Buf (Elt F) ℓ) (d : Dev nD) (L : grid0.Coords)
    (O : CellTallies nD τ sig (HIx 1)) (W : Waits sig (HIx 1)) : OuterTrip (F := F) m d L O W := by
  intro hpre v1 v5 t acc
  exact trip_of_step0 m d L O W (inner_loop1 d L) hpre v1 v5 t acc _ (step0 m d L O W (inner_loop0 d L) hpre v1 v5 t acc)

end Cert.Proof.K

end
-- ==== Proof.TcBlocks.lean ====
/-
  The TensorCore region's seven windows, read against the whole arrays. The grid has forty-nine points; the two
  row-blocked operands' block at point t is rows [1024 t, 1024 t + 1024) of a 50176-row array; the two weight
  matrices and the two bias rows are one block each, the whole array; the result's block at point t starts at row
  1024 t of a 50000-row array and is cut to 848 rows at the last point. So a fetch leaves a staging buffer at the
  operand's rows or at the whole operand, a write-back writes the whole result read through the cut block, and every
  row below 50000 lies in the block of the point r / 1024.
-/
import proofs.«208500_g61899068670276_cont_9to1_m_775_47_alg».proof.Proof.Gen.KernelIdeal
import proofs.«208500_g61899068670276_cont_9to1_m_775_47_alg».proof.Proof.Gen.KernelIdeal.Skeleton
import proofs.«208500_g61899068670276_cont_9to1_m_775_47_alg».proof.Proof.Gen.KernelIdeal.Launch
import proofs.«208500_g61899068670276_cont_9to1_m_775_47_alg».proof.Proof.Gen.KernelIdeal.Points
import proofs.«208500_g61899068670276_cont_9to1_m_775_47_alg».proof.Proof.TcDefs
import Idealize.ShloMosaic.Lib.ValueIdx
import Idealize.ShloMosaic.Lib.Pipeline.Value

noncomputable section

namespace Cert.Proof.K

open Cert.KernelIdeal Cert.KernelIdeal.Gen
open Idealize.ShloMosaic
open Idealize.ShloMosaic.ValueIdx

variable {F : FTy → Type} [FloatOps F]

/-! ## The grid's points and the windows' block indices -/

omit [FloatOps F] in
/-- The grid has forty-nine points. -/
theorem lt49 (t : Fin cfg1.N) : t.val < 49 := Nat.lt_of_lt_of_eq t.isLt N_1

/-- The two row-blocked operands' block index at point `t` is `(t, 0)`. -/
theorem idx_rows0 : ∀ t : Fin cfg1.N, win1_0.index t 0 = t.val ∧ win1_0.index t 1 = 0 :=
  (by decide +kernel : ∀ t : Fin grid1.N, win1_0.index t 0 = t.val ∧ win1_0.index t 1 = 0)
theorem idx_rows1 : ∀ t : Fin cfg1.N, win1_1.index t 0 = t.val ∧ win1_1.index t 1 = 0 :=
  (by decide +kernel : ∀ t : Fin grid1.N, win1_1.index t 0 = t.val ∧ win1_1.index t 1 = 0)
/-- The four whole-array operands' block index is `(0, 0)` at every point. -/
theorem idx_whole2 : ∀ t : Fin cfg1.N, win1_2.index t 0 = 0 ∧ win1_2.index t 1 = 0 :=
  (by decide +kernel : ∀ t : Fin grid1.N, win1_2.index t 0 = 0 ∧ win1_2.index t 1 = 0)
theorem idx_whole3 : ∀ t : Fin cfg1.N, win1_3.index t 0 = 0 ∧ win1_3.index t 1 = 0 :=
  (by decide +kernel : ∀ t : Fin grid1.N, win1_3.index t 0 = 0 ∧ win1_3.index t 1 = 0)
theorem idx_whole4 : ∀ t : Fin cfg1.N, win1_4.index t 0 = 0 ∧ win1_4.index t 1 = 0 :=
  (by decide +kernel : ∀ t : Fin grid1.N, win1_4.index t 0 = 0 ∧ win1_4.index t 1 = 0)
theorem idx_whole5 : ∀ t : Fin cfg1.N, win1_5.index t 0 = 0 ∧ win1_5.index t 1 = 0 :=
  (by decide +kernel : ∀ t : Fin grid1.N, win1_5.index t 0 = 0 ∧ win1_5.index t 1 = 0)
/-- The result's block index at point `t` is `(t, 0)`; the block is cut to 848 rows at the last point, whole elsewhere. -/
theorem idx_out6 : ∀ t : Fin cfg1.N, win1_6.index t 0 = t.val ∧ win1_6.index t 1 = 0
    ∧ win1_6.xsize (grid1.coords t) 0 = (if t.val = 48 then 848 else 1024) ∧ win1_6.xsize (grid1.coords t) 1 = 128 :=
  (by decide +kernel : ∀ t : Fin grid1.N, win1_6.index t 0 = t.val ∧ win1_6.index t 1 = 0
    ∧ win1_6.xsize (grid1.coords t) 0 = (if t.val = 48 then 848 else 1024) ∧ win1_6.xsize (grid1.coords t) 1 = 128)

/-! ## The operands' blocks read out of the whole arrays -/

/-- The first row-blocked operand's block at point `t`, as the fetch leaves it in a staging buffer: rows
    `[1024 t, 1024 t + 1024)` of the array, whatever the buffer held. -/
theorem fill_rows0 (t : Fin cfg1.N) (dflt : S1024x128.Idx → Elt F .f32) (A : FVec F S50176x128 .f32) :
    win1_0.fill (grid1.coords t) dflt ((win1_0.blk t).view.read (Elt F) A) = rowsAt ⟨t.val, lt49 t⟩ A := by
  funext j
  have hm : win1_0.moved (grid1.coords t) j = true := (win1_0.moved_iff _ j).mpr fun a => (j a).isLt
  unfold Pipeline.Window.fill
  rw [dif_pos hm, View.read_apply]
  unfold rowsAt
  obtain ⟨h0, h1⟩ := idx_rows0 t
  show A _ = A _
  refine congrArg A (funext fun a => Fin.ext ?_)
  match a with
  | ⟨0, _⟩ =>
    refine (win1_0.rect_emb_val t _ 0).trans ?_
    rw [h0]
    show t.val * 1024 + (j 0).val = 1024 * t.val + (j 0).val
    omega
  | ⟨1, _⟩ =>
    refine (win1_0.rect_emb_val t _ 1).trans ?_
    rw [h1]
    show 0 * 128 + (j 1).val = (j 1).val
    omega
/-- The second row-blocked operand's block at point `t`, as the fetch leaves it in a staging buffer: rows
    `[1024 t, 1024 t + 1024)` of the array, whatever the buffer held. -/
theorem fill_rows1 (t : Fin cfg1.N) (dflt : S1024x128.Idx → Elt F .f32) (A : FVec F S50176x128 .f32) :
    win1_1.fill (grid1.coords t) dflt ((win1_1.blk t).view.read (Elt F) A) = rowsAt ⟨t.val, lt49 t⟩ A := by
  funext j
  have hm : win1_1.moved (grid1.coords t) j = true := (win1_1.moved_iff _ j).mpr fun a => (j a).isLt
  unfold Pipeline.Window.fill
  rw [dif_pos hm, View.read_apply]
  unfold rowsAt
  obtain ⟨h0, h1⟩ := idx_rows1 t
  show A _ = A _
  refine congrArg A (funext fun a => Fin.ext ?_)
  match a with
  | ⟨0, _⟩ =>
    refine (win1_1.rect_emb_val t _ 0).trans ?_
    rw [h0]
    show t.val * 1024 + (j 0).val = 1024 * t.val + (j 0).val
    omega
  | ⟨1, _⟩ =>
    refine (win1_1.rect_emb_val t _ 1).trans ?_
    rw [h1]
    show 0 * 128 + (j 1).val = (j 1).val
    omega

/-- The first weight matrix: its one block is the whole array, at every point. -/
theorem fill_whole2 (t : Fin cfg1.N) (dflt : S128x128.Idx → Elt F .f32) (A : FVec F S128x128 .f32) :
    win1_2.fill (grid1.coords t) dflt ((win1_2.blk t).view.read (Elt F) A) = A := by
  funext j
  have hm : win1_2.moved (grid1.coords t) j = true := (win1_2.moved_iff _ j).mpr fun a => (j a).isLt
  unfold Pipeline.Window.fill
  rw [dif_pos hm, View.read_apply]
  obtain ⟨h0, h1⟩ := idx_whole2 t
  show A _ = A _
  refine congrArg A (funext fun a => Fin.ext ?_)
  match a with
  | ⟨0, _⟩ =>
    refine (win1_2.rect_emb_val t _ 0).trans ?_
    rw [h0]
    show 0 * 128 + (j 0).val = (j 0).val
    omega
  | ⟨1, _⟩ =>
    refine (win1_2.rect_emb_val t _ 1).trans ?_
    rw [h1]
    show 0 * 128 + (j 1).val = (j 1).val
    omega

/-- The second weight matrix: its one block is the whole array, at every point. -/
theorem fill_whole3 (t : Fin cfg1.N) (dflt : S256x128.Idx → Elt F .f32) (A : FVec F S256x128 .f32) :
    win1_3.fill (grid1.coords t) dflt ((win1_3.blk t).view.read (Elt F) A) = A := by
  funext j
  have hm : win1_3.moved (grid1.coords t) j = true := (win1_3.moved_iff _ j).mpr fun a => (j a).isLt
  unfold Pipeline.Window.fill
  rw [dif_pos hm, View.read_apply]
  obtain ⟨h0, h1⟩ := idx_whole3 t
  show A _ = A _
  refine congrArg A (funext fun a => Fin.ext ?_)
  match a with
  | ⟨0, _⟩ =>
    refine (win1_3.rect_emb_val t _ 0).trans ?_
    rw [h0]
    show 0 * 256 + (j 0).val = (j 0).val
    omega
  | ⟨1, _⟩ =>
    refine (win1_3.rect_emb_val t _ 1).trans ?_
    rw [h1]
    show 0 * 128 + (j 1).val = (j 1).val
    omega

/-- The first bias row: its one block is the whole array, at every point. -/
theorem fill_whole4 (t : Fin cfg1.N) (dflt : S1x128.Idx → Elt F .f32) (A : FVec F S1x128 .f32) :
    win1_4.fill (grid1.coords t) dflt ((win1_4.blk t).view.read (Elt F) A) = A := by
  funext j
  have hm : win1_4.moved (grid1.coords t) j = true := (win1_4.moved_iff _ j).mpr fun a => (j a).isLt
  unfold Pipeline.Window.fill
  rw [dif_pos hm, View.read_apply]
  obtain ⟨h0, h1⟩ := idx_whole4 t
  show A _ = A _
  refine congrArg A (funext fun a => Fin.ext ?_)
  match a with
  | ⟨0, _⟩ =>
    refine (win1_4.rect_emb_val t _ 0).trans ?_
    rw [h0]
    show 0 * 1 + (j 0).val = (j 0).val
    omega
  | ⟨1, _⟩ =>
    refine (win1_4.rect_emb_val t _ 1).trans ?_
    rw [h1]
    show 0 * 128 + (j 1).val = (j 1).val
    omega

/-- The second bias row: its one block is the whole array, at every point. -/
theorem fill_whole5 (t : Fin cfg1.N) (dflt : S1x128.Idx → Elt F .f32) (A : FVec F S1x128 .f32) :
    win1_5.fill (grid1.coords t) dflt ((win1_5.blk t).view.read (Elt F) A) = A := by
  funext j
  have hm : win1_5.moved (grid1.coords t) j = true := (win1_5.moved_iff _ j).mpr fun a => (j a).isLt
  unfold Pipeline.Window.fill
  rw [dif_pos hm, View.read_apply]
  obtain ⟨h0, h1⟩ := idx_whole5 t
  show A _ = A _
  refine congrArg A (funext fun a => Fin.ext ?_)
  match a with
  | ⟨0, _⟩ =>
    refine (win1_5.rect_emb_val t _ 0).trans ?_
    rw [h0]
    show 0 * 1 + (j 0).val = (j 0).val
    omega
  | ⟨1, _⟩ =>
    refine (win1_5.rect_emb_val t _ 1).trans ?_
    rw [h1]
    show 0 * 128 + (j 1).val = (j 1).val
    omega

/-! ## The result's blocks and the whole result -/

theorem tcBlk_congr {t t' : Fin 49} (ht : t = t') {j j' : S1024x128.Idx} (hj : j = j')
    (X N : FVec F S50176x128 .f32) (Wi : FVec F S128x128 .f32) (Wf : FVec F S256x128 .f32) (bi bf : FVec F S1x128 .f32) :
    tcBlk t X N Wi Wf bi bf j = tcBlk t' X N Wi Wf bi bf j' := by
  subst ht; subst hj; rfl

/-- What a write-back at point `t` writes of the result block, the block cut at the array's end, is the whole result
    read through that block: an entry `y` of the cut block sits at row `1024 t + y 0` below 50000, whose quotient by
    1024 is `t` and whose remainder is `y 0`. -/
theorem cut_tcBlk (t : Fin cfg1.N) (X N : FVec F S50176x128 .f32) (Wi : FVec F S128x128 .f32) (Wf : FVec F S256x128 .f32)
    (bi bf : FVec F S1x128 .f32) :
    win1_6.cut (grid1.coords t) (tcBlk ⟨t.val, lt49 t⟩ X N Wi Wf bi bf)
      = (win1_6.blk t).view.read (Elt F) (tcVal X N Wi Wf bi bf) := by
  funext y
  obtain ⟨h0, h1, hx0, hx1⟩ := idx_out6 t
  have hy0 : (y 0).val < 1024 := by
    have h := (y 0).isLt
    have h' : (y 0).val < win1_6.xsize (grid1.coords t) 0 := h
    rw [hx0] at h'
    split at h' <;> omega
  have e0 : (((win1_6.rect t).emb y) 0 : Nat) = 1024 * t.val + (y 0).val := by
    refine (win1_6.rect_emb_val t y 0).trans ?_
    rw [h0]
    show t.val * 1024 + (y 0).val = _
    omega
  have e1 : (((win1_6.rect t).emb y) 1 : Nat) = (y 1).val := by
    refine (win1_6.rect_emb_val t y 1).trans ?_
    rw [h1]
    show 0 * 128 + (y 1).val = _
    omega
  rw [View.read_apply]
  show tcBlk ⟨t.val, lt49 t⟩ X N Wi Wf bi bf (win1_6.xinj (grid1.coords t) y) = tcVal X N Wi Wf bi bf ((win1_6.rect t).emb y)
  unfold tcVal
  refine tcBlk_congr (Fin.ext ?_) (funext fun a => Fin.ext ?_) X N Wi Wf bi bf
  · show t.val = (((win1_6.rect t).emb y) 0 : Nat) / 1024
    rw [e0]; omega
  · match a with
    | ⟨0, _⟩ =>
      show (y 0).val = (((win1_6.rect t).emb y) 0 : Nat) % 1024
      rw [e0]; omega
    | ⟨1, _⟩ =>
      show (y 1).val = (((win1_6.rect t).emb y) 1 : Nat)
      rw [e1]

omit [FloatOps F] in
/-- Every entry of the result array lies in the block some point writes back: row `r` in point `r / 1024`'s. -/
theorem cover6 (i : S50000x128.Idx) : ∃ t : Fin cfg1.N, win1_6.flush t = true ∧ i ∈ (win1_6.blk t).view.set := by
  have hi0 : (i 0).val < 50000 := idx2_lt0 i
  have hi1 : (i 1).val < 128 := idx2_lt1 i
  have ht : (i 0).val / 1024 < cfg1.N := by rw [show cfg1.N = 49 from N_1]; omega
  refine ⟨⟨(i 0).val / 1024, ht⟩, flush1_6 _, ?_⟩
  obtain ⟨h0, h1, hx0, hx1⟩ := idx_out6 ⟨(i 0).val / 1024, ht⟩
  show i ∈ ((View.whole main_v8).slice (win1_6.rect ⟨(i 0).val / 1024, ht⟩)).set
  rw [View.set_slice_whole, Rect.mem_set_unit]
  intro a
  match a with
  | ⟨0, _⟩ =>
    show win1_6.index ⟨(i 0).val / 1024, ht⟩ 0 * 1024 ≤ (i 0).val ∧ (i 0).val < win1_6.index ⟨(i 0).val / 1024, ht⟩ 0 * 1024 + win1_6.xsize (grid1.coords ⟨(i 0).val / 1024, ht⟩) 0
    rw [h0, hx0]
    show (i 0).val / 1024 * 1024 ≤ (i 0).val ∧ (i 0).val < (i 0).val / 1024 * 1024 + (if (i 0).val / 1024 = 48 then 848 else 1024)
    split <;> omega
  | ⟨1, _⟩ =>
    show win1_6.index ⟨(i 0).val / 1024, ht⟩ 1 * 128 ≤ (i 1).val ∧ (i 1).val < win1_6.index ⟨(i 0).val / 1024, ht⟩ 1 * 128 + win1_6.xsize (grid1.coords ⟨(i 0).val / 1024, ht⟩) 1
    rw [h1, hx1]
    omega

end Cert.Proof.K

end
-- ==== Proof.TcRegion.lean ====
import proofs.«208500_g61899068670276_cont_9to1_m_775_47_alg».proof.Proof.KLaunch
import proofs.«208500_g61899068670276_cont_9to1_m_775_47_alg».proof.Proof.TcDefs
import proofs.«208500_g61899068670276_cont_9to1_m_775_47_alg».proof.Proof.TcBlocks
import proofs.«208500_g61899068670276_cont_9to1_m_775_47_alg».proof.Proof.Gen.KernelIdeal.Launch
import proofs.«208500_g61899068670276_cont_9to1_m_775_47_alg».proof.Proof.Gen.KernelIdeal.Points
import proofs.«208500_g61899068670276_cont_9to1_m_775_47_alg».proof.Proof.Gen.KernelIdeal.Skeleton
import Idealize.ShloMosaic.Lib.Pipeline.Kit
import Idealize.ShloMosaic.Lib.Pipeline.Regions
import Idealize.ShloMosaic.Lib.Pipeline.Value
import Idealize.ShloMosaic.Lib.Pipeline.Frame
import Idealize.ShloMosaic.Lib.ValueIdx
import Idealize.ShloMosaic.Lib.Tactic

/-! The dense layer's region. Its grid has 49 points; at point t the two row-blocked operands (the self rows and the
    neighbour means) are read at rows [1024 t, 1024 t + 1024), the two weight matrices and the two bias rows whole, and
    the block swish(self · (W_init · W_final[0..128)) + mean · W_final[128..256) + (b_init · W_final[0..128) + b_final))
    is stored over the whole result block, which is written back to the result array at the same rows — the last block
    cut at row 50000, where the array ends. So after the run the result array is one function of the six operands, row
    r read off block r / 1024 at local row r % 1024, and the operands are as they were. -/

noncomputable section

namespace Cert.Proof.K

open Cert.KernelIdeal Cert.KernelIdeal.Gen
open Idealize.ShloMosaic Idealize.ShloMosaic.TcCoe
open Idealize.ShloMosaic.ValueIdx
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose)

variable {F : FTy → Type} [FloatOps F]

section Body

variable {U : Type} [URA U]

local notation "𝕄" => MT nD τ sig (HIx 1) (Elt F) ℕ U ℕ

/-- A load of the leading 128 rows of the 256-row staging buffer held whole reads the top half; -/
theorem readAt_top (inb) (f : S256x128.Idx → Elt F .f32) :
    View.readAt (Elt F) (Memref.whole cc1_stg3_0 : Memref sig .tc _ _ _).view (Rect.unit (s := S256x128) ![0, 0] S128x128.size inb).toLoadRect f = wfTop f := by
  funext j
  rw [View.readAt_apply]
  simp only [Memref.view_whole, View.read_whole]
  unfold wfTop
  congr 1
  funext a
  match a with
  | ⟨0, _⟩ => exact Fin.ext (by simp [LoadRect.idx])
  | ⟨1, _⟩ => exact Fin.ext (by simp [LoadRect.idx])

/-- one at row offset 128 reads the bottom half. -/
theorem readAt_bot (inb) (f : S256x128.Idx → Elt F .f32) :
    View.readAt (Elt F) (Memref.whole cc1_stg3_0 : Memref sig .tc _ _ _).view (Rect.unit (s := S256x128) ![128, 0] S128x128.size inb).toLoadRect f = wfBot f := by
  funext j
  rw [View.readAt_apply]
  simp only [Memref.view_whole, View.read_whole]
  unfold wfBot
  congr 1
  funext a
  match a with
  | ⟨0, _⟩ => exact Fin.ext (by simp [LoadRect.idx])
  | ⟨1, _⟩ => exact Fin.ext (by simp [LoadRect.idx])

theorem hz2 : (![0, 0] : Fin 2 → Nat) = fun _ => 0 := funext fun a => by fin_cases a <;> rfl

/-! A load of a whole buffer reads its contents; a store over a whole buffer leaves the payload. -/
theorem rd0_0 (inb) (f : S1024x128.Idx → Elt F .f32) :
    View.readAt (Elt F) (Memref.whole cc1_stg0_0 : Memref sig .tc _ _ _).view (Rect.unit (s := S1024x128) ![0, 0] S1024x128.size inb).toLoadRect f = f :=
  Memref.readAt_unit_zero (Elt F) cc1_stg0_0 hz2 _ f

theorem rd0_1 (inb) (f : S1024x128.Idx → Elt F .f32) :
    View.readAt (Elt F) (Memref.whole cc1_stg0_1 : Memref sig .tc _ _ _).view (Rect.unit (s := S1024x128) ![0, 0] S1024x128.size inb).toLoadRect f = f :=
  Memref.readAt_unit_zero (Elt F) cc1_stg0_1 hz2 _ f

theorem rd1_0 (inb) (f : S1024x128.Idx → Elt F .f32) :
    View.readAt (Elt F) (Memref.whole cc1_stg1_0 : Memref sig .tc _ _ _).view (Rect.unit (s := S1024x128) ![0, 0] S1024x128.size inb).toLoadRect f = f :=
  Memref.readAt_unit_zero (Elt F) cc1_stg1_0 hz2 _ f

theorem rd1_1 (inb) (f : S1024x128.Idx → Elt F .f32) :
    View.readAt (Elt F) (Memref.whole cc1_stg1_1 : Memref sig .tc _ _ _).view (Rect.unit (s := S1024x128) ![0, 0] S1024x128.size inb).toLoadRect f = f :=
  Memref.readAt_unit_zero (Elt F) cc1_stg1_1 hz2 _ f

theorem rd2_0 (inb) (f : S128x128.Idx → Elt F .f32) :
    View.readAt (Elt F) (Memref.whole cc1_stg2_0 : Memref sig .tc _ _ _).view (Rect.unit (s := S128x128) ![0, 0] S128x128.size inb).toLoadRect f = f :=
  Memref.readAt_unit_zero (Elt F) cc1_stg2_0 hz2 _ f

theorem rd4_0 (inb) (f : S1x128.Idx → Elt F .f32) :
    View.readAt (Elt F) (Memref.whole cc1_stg4_0 : Memref sig .tc _ _ _).view (Rect.unit (s := S1x128) ![0, 0] S1x128.size inb).toLoadRect f = f :=
  Memref.readAt_unit_zero (Elt F) cc1_stg4_0 hz2 _ f

theorem rd5_0 (inb) (f : S1x128.Idx → Elt F .f32) :
    View.readAt (Elt F) (Memref.whole cc1_stg5_0 : Memref sig .tc _ _ _).view (Rect.unit (s := S1x128) ![0, 0] S1x128.size inb).toLoadRect f = f :=
  Memref.readAt_unit_zero (Elt F) cc1_stg5_0 hz2 _ f

theorem wr6_0 (inb) (f w : S1024x128.Idx → Elt F .f32) :
    View.write (Elt F) ((View.whole cc1_stg6_0 : View sig .tc _ _ _).slice (Rect.unit (s := S1024x128) ![0, 0] S1024x128.size inb)) f w Finset.univ = w :=
  Memref.write_access_unit_zero_univ (Elt F) cc1_stg6_0 hz2 _ f w

theorem wr6_1 (inb) (f w : S1024x128.Idx → Elt F .f32) :
    View.write (Elt F) ((View.whole cc1_stg6_1 : View sig .tc _ _ _).slice (Rect.unit (s := S1024x128) ![0, 0] S1024x128.size inb)) f w Finset.univ = w :=
  Memref.write_access_unit_zero_univ (Elt F) cc1_stg6_1 hz2 _ f w

set_option maxHeartbeats 4000000 in
/-- The body at any staging slots: the six input buffers are read whole (the final weights as their two halves) and
    the payload of what they hold is stored over the whole result buffer; the inputs keep their contents. -/
theorem sound_body (d : Dev nD) (E : Set ℕ) (i : grid1.Coords) (s0 s1 : Fin 2) (s2 s3 s4 s5 : Fin 1) (s6 : Fin 2)
    (X0 X1 : S1024x128.Idx → Elt F .f32) (X2 : S128x128.Idx → Elt F .f32) (X3 : S256x128.Idx → Elt F .f32) (X4 X5 : S1x128.Idx → Elt F .f32) (X6 : S1024x128.Idx → Elt F .f32)
    (Kc : PUnit → sProp 𝕄) :
    iprop((owns (d : Thread nD τ) (stage1_0 s0) fullShare X0 ∗ owns (d : Thread nD τ) (stage1_1 s1) fullShare X1
        ∗ owns (d : Thread nD τ) (stage1_2 s2) fullShare X2 ∗ owns (d : Thread nD τ) (stage1_3 s3) fullShare X3
        ∗ owns (d : Thread nD τ) (stage1_4 s4) fullShare X4 ∗ owns (d : Thread nD τ) (stage1_5 s5) fullShare X5
        ∗ owns (d : Thread nD τ) (stage1_6 s6) fullShare X6)
      ∗ (iprop(owns (d : Thread nD τ) (stage1_0 s0) fullShare X0 ∗ owns (d : Thread nD τ) (stage1_1 s1) fullShare X1
        ∗ owns (d : Thread nD τ) (stage1_2 s2) fullShare X2 ∗ owns (d : Thread nD τ) (stage1_3 s3) fullShare X3
        ∗ owns (d : Thread nD τ) (stage1_4 s4) fullShare X4 ∗ owns (d : Thread nD τ) (stage1_5 s5) fullShare X5
        ∗ owns (d : Thread nD τ) (stage1_6 s6) fullShare (k1_pay1 X2 (wfTop X3) X4 (wfTop X3) X5 X0 X1 (wfBot X3))) -∗ Kc ⟨⟩))
      ⊢ wp frame (wpE (defs₀ (F := F)) 𝒱₀ (d : Thread nD τ) none) E
          (cc1_body i (stage1_0 s0) (hstage1_0 s0) (stage1_1 s1) (hstage1_1 s1) (stage1_2 s2) (hstage1_2 s2)
            (stage1_3 s3) (hstage1_3 s3) (stage1_4 s4) (hstage1_4 s4) (stage1_5 s5) (hstage1_5 s5) (stage1_6 s6) (hstage1_6 s6)) Kc := by
  fin_cases s2 <;> fin_cases s3 <;> fin_cases s4 <;> fin_cases s5 <;> fin_cases s0 <;> fin_cases s1 <;> fin_cases s6 <;>
  · dsimp only [stage1_0, stage1_1, stage1_2, stage1_3, stage1_4, stage1_5, stage1_6]
    unfold owns
    iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩⟩, Hk⟩
    rw [cc1_body_eq_skeleton]
    sl_unfold [cc1_body_skel]
    sl_exec
    sl_step
    simp only [Memref.view_whole, View.read_whole] at hf0 hf1 hf2 hf3 hf4 hf5
    subst hf0 hf1 hf2 hf3 hf4 hf5
    iapply Hk
    isplitl [H0]
    · iexists _; isplitr; · ipureintro; rfl
      iexact H0
    isplitl [H1]
    · iexists _; isplitr; · ipureintro; rfl
      iexact H1
    isplitl [H2]
    · iexists _; isplitr; · ipureintro; rfl
      iexact H2
    isplitl [H3]
    · iexists _; isplitr; · ipureintro; rfl
      iexact H3
    isplitl [H4]
    · iexists _; isplitr; · ipureintro; rfl
      iexact H4
    isplitl [H5]
    · iexists _; isplitr; · ipureintro; rfl
      iexact H5
    iexists _; isplitr
    pick_goal 2
    · iexact H6
    · ipureintro
      rw [View.writes_singleton, readAt_top, readAt_bot, rd2_0, rd4_0, rd5_0]
      first | rw [rd0_0] | rw [rd0_1]
      first | rw [rd1_0] | rw [rd1_1]
      simp only [Memref.view_whole, View.read_whole]
      first | exact wr6_0 _ _ _ | exact wr6_1 _ _ _

end Body

section Region

variable {U : Type} [URA U]

local notation "𝕄" => MT nD τ sig (HIx 1) (Elt F) ℕ U ℕ

/-- The proof data of the one pipeline on a device's TensorCore: the seven arrays at the given contents; after the body
    each input's staging buffer holds its block (the two row-blocked operands their rows at the point, the four whole
    operands themselves) and the result's the payload of those; no invariant, nothing owed, full shares; the pairs
    recorded before the region within the given bound. -/
def dat (d : Dev nD) (X N : FVec F S50176x128 .f32) (Wi : FVec F S128x128 .f32) (Wf : FVec F S256x128 .f32) (bi bf : FVec F S1x128 .f32)
    (O : FVec F S50000x128 .f32) (Rs : Set (SemLoc sig × HIx 1)) : Dat τ (Elt F) (HIx 1) ℕ U ℕ cfg1 d where
  A w := match w with
    | ⟨0, _⟩ => X | ⟨1, _⟩ => N | ⟨2, _⟩ => Wi | ⟨3, _⟩ => Wf | ⟨4, _⟩ => bi | ⟨5, _⟩ => bf | ⟨6, _⟩ => O
  after w t := match w with
    | ⟨0, _⟩ => rowsAt ⟨t.val, lt49 t⟩ X | ⟨1, _⟩ => rowsAt ⟨t.val, lt49 t⟩ N | ⟨2, _⟩ => Wi | ⟨3, _⟩ => Wf | ⟨4, _⟩ => bi | ⟨5, _⟩ => bf
    | ⟨6, _⟩ => tcBlk ⟨t.val, lt49 t⟩ X N Wi Wf bi bf
  Φ _ := iprop(emp)
  q _ := fullShare
  owed _ := 0
  recorded _ := Rs

variable (d : Dev nD) (X N : FVec F S50176x128 .f32) (Wi : FVec F S128x128 .f32) (Wf : FVec F S256x128 .f32) (bi bf : FVec F S1x128 .f32)
  (O : FVec F S50000x128 .f32) (Rs : Set (SemLoc sig × HIx 1))

local notation "DAT" => dat (U := U) d X N Wi Wf bi bf O Rs

/-- The row-blocked operands are fetched at every point: the body finds their rows of the point. -/
theorem before_0 (t : Fin cfg1.N) (dd) : (DAT).before (0 : Fin 7) t dd = rowsAt ⟨t.val, lt49 t⟩ X := by
  rw [Pipeline.Dat.before_fetched (DAT) (0 : Fin 7) t (fetch1_0 t)]
  first
    | exact fill_rows0 t dd X
    | (unfold Pipeline.Dat.fetched Pipeline.Dat.blockOf; dsimp only [dat]; exact fill_rows0 t dd X)
theorem before_1 (t : Fin cfg1.N) (dd) : (DAT).before (1 : Fin 7) t dd = rowsAt ⟨t.val, lt49 t⟩ N := by
  rw [Pipeline.Dat.before_fetched (DAT) (1 : Fin 7) t (fetch1_1 t)]
  first
    | exact fill_rows1 t dd N
    | (unfold Pipeline.Dat.fetched Pipeline.Dat.blockOf; dsimp only [dat]; exact fill_rows1 t dd N)

/-- A whole operand is fetched at the first point and kept: the body finds it at every point. -/
theorem before_2 (t : Fin cfg1.N) (dd) : (DAT).before (2 : Fin 7) t dd = Wi := by
  have h49 := lt49 t
  by_cases ht : t.val = 0
  · rw [Pipeline.Dat.before_fetched (DAT) (2 : Fin 7) t ((fetch1_2 t).mpr (by omega))]
    first
      | exact fill_whole2 t dd Wi
      | (unfold Pipeline.Dat.fetched Pipeline.Dat.blockOf; dsimp only [dat]; exact fill_whole2 t dd Wi)
  · have hf : (cfg1.win (2 : Fin 7)).fetch t = false := by
      rw [Bool.eq_false_iff]; intro h; have := (fetch1_2 t).mp h; omega
    rw [Pipeline.Dat.before_unfetched_in (DAT) (2 : Fin 7) rfl t hf (fun _ => rfl)]
    unfold Pipeline.Dat.kept
    rw [Pipeline.fill_of_clip_none (cfg := cfg1) (2 : Fin 7) (cfg1.grid.coords _) (fun _ => rfl) dd ((DAT).after (2 : Fin 7) _), Pipeline.Window.fill_cut]
    first | (dsimp only [dat]; done) | rfl
theorem before_3 (t : Fin cfg1.N) (dd) : (DAT).before (3 : Fin 7) t dd = Wf := by
  have h49 := lt49 t
  by_cases ht : t.val = 0
  · rw [Pipeline.Dat.before_fetched (DAT) (3 : Fin 7) t ((fetch1_3 t).mpr (by omega))]
    first
      | exact fill_whole3 t dd Wf
      | (unfold Pipeline.Dat.fetched Pipeline.Dat.blockOf; dsimp only [dat]; exact fill_whole3 t dd Wf)
  · have hf : (cfg1.win (3 : Fin 7)).fetch t = false := by
      rw [Bool.eq_false_iff]; intro h; have := (fetch1_3 t).mp h; omega
    rw [Pipeline.Dat.before_unfetched_in (DAT) (3 : Fin 7) rfl t hf (fun _ => rfl)]
    unfold Pipeline.Dat.kept
    rw [Pipeline.fill_of_clip_none (cfg := cfg1) (3 : Fin 7) (cfg1.grid.coords _) (fun _ => rfl) dd ((DAT).after (3 : Fin 7) _), Pipeline.Window.fill_cut]
    first | (dsimp only [dat]; done) | rfl
theorem before_4 (t : Fin cfg1.N) (dd) : (DAT).before (4 : Fin 7) t dd = bi := by
  have h49 := lt49 t
  by_cases ht : t.val = 0
  · rw [Pipeline.Dat.before_fetched (DAT) (4 : Fin 7) t ((fetch1_4 t).mpr (by omega))]
    first
      | exact fill_whole4 t dd bi
      | (unfold Pipeline.Dat.fetched Pipeline.Dat.blockOf; dsimp only [dat]; exact fill_whole4 t dd bi)
  · have hf : (cfg1.win (4 : Fin 7)).fetch t = false := by
      rw [Bool.eq_false_iff]; intro h; have := (fetch1_4 t).mp h; omega
    rw [Pipeline.Dat.before_unfetched_in (DAT) (4 : Fin 7) rfl t hf (fun _ => rfl)]
    unfold Pipeline.Dat.kept
    rw [Pipeline.fill_of_clip_none (cfg := cfg1) (4 : Fin 7) (cfg1.grid.coords _) (fun _ => rfl) dd ((DAT).after (4 : Fin 7) _), Pipeline.Window.fill_cut]
    first | (dsimp only [dat]; done) | rfl
theorem before_5 (t : Fin cfg1.N) (dd) : (DAT).before (5 : Fin 7) t dd = bf := by
  have h49 := lt49 t
  by_cases ht : t.val = 0
  · rw [Pipeline.Dat.before_fetched (DAT) (5 : Fin 7) t ((fetch1_5 t).mpr (by omega))]
    first
      | exact fill_whole5 t dd bf
      | (unfold Pipeline.Dat.fetched Pipeline.Dat.blockOf; dsimp only [dat]; exact fill_whole5 t dd bf)
  · have hf : (cfg1.win (5 : Fin 7)).fetch t = false := by
      rw [Bool.eq_false_iff]; intro h; have := (fetch1_5 t).mp h; omega
    rw [Pipeline.Dat.before_unfetched_in (DAT) (5 : Fin 7) rfl t hf (fun _ => rfl)]
    unfold Pipeline.Dat.kept
    rw [Pipeline.fill_of_clip_none (cfg := cfg1) (5 : Fin 7) (cfg1.grid.coords _) (fun _ => rfl) dd ((DAT).after (5 : Fin 7) _), Pipeline.Window.fill_cut]
    first | (dsimp only [dat]; done) | rfl

/-- The result's staging buffer is written back at every point: the body finds it at contents nothing names. -/
theorem before_6 (t : Fin cfg1.N) (dd) : (DAT).before (6 : Fin 7) t dd = dd := by
  refine Pipeline.Dat.before_out_reset (DAT) (6 : Fin 7) rfl t ?_ dd
  by_cases ht : t.val = 0
  · exact .inl ht
  · exact .inr ⟨ht, flush1_6 _⟩

/-- The body obligation: at every point the seven staging buffers hold the operands' blocks and anything; the body
    leaves the operands' buffers as they were and the result's at the payload of the blocks, which is all the loose
    result window asks on the rows it writes back. -/
theorem body_obligation : BodyObligationLoose (DAT) (defs₀ (F := F)) 𝒱₀ (none : HIx 1) Set.univ := fun t => by
  rw [bigSep_W1, bigSep_W1]
  simp only
  rw [show (DAT).Φ t.succ = (DAT).Φ t.castSucc from rfl,
    show (DAT).owesAt (none : HIx 1) t.succ = (DAT).owesAt (none : HIx 1) t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩⟩
  rw [before_0 (U := U) d X N Wi Wf bi bf O Rs t d0, before_1 (U := U) d X N Wi Wf bi bf O Rs t d1,
    before_2 (U := U) d X N Wi Wf bi bf O Rs t d2, before_3 (U := U) d X N Wi Wf bi bf O Rs t d3,
    before_4 (U := U) d X N Wi Wf bi bf O Rs t d4, before_5 (U := U) d X N Wi Wf bi bf O Rs t d5,
    before_6 (U := U) d X N Wi Wf bi bf O Rs t d6]
  iapply (sound_body (U := U) d Set.univ (grid1.coords t) (cfg1.slots t 0) (cfg1.slots t 1) (cfg1.slots t 2) (cfg1.slots t 3)
    (cfg1.slots t 4) (cfg1.slots t 5) (cfg1.slots t 6)
    (rowsAt ⟨t.val, lt49 t⟩ X) (rowsAt ⟨t.val, lt49 t⟩ N) Wi Wf bi bf d6 _)
  isplitl [H0 H1 H2 H3 H4 H5 H6]
  · isplitl [H0]; · iexact H0
    isplitl [H1]; · iexact H1
    isplitl [H2]; · iexact H2
    isplitl [H3]; · iexact H3
    isplitl [H4]; · iexact H4
    isplitl [H5]; · iexact H5
    iexact H6
  iintro ⟨H0, H1, H2, H3, H4, H5, H6⟩
  have e0 : (DAT).after (0 : Fin 7) t = rowsAt ⟨t.val, lt49 t⟩ X := by first | (dsimp only [dat]; done) | rfl
  have e1 : (DAT).after (1 : Fin 7) t = rowsAt ⟨t.val, lt49 t⟩ N := by first | (dsimp only [dat]; done) | rfl
  have e2 : (DAT).after (2 : Fin 7) t = Wi := by first | (dsimp only [dat]; done) | rfl
  have e3 : (DAT).after (3 : Fin 7) t = Wf := by first | (dsimp only [dat]; done) | rfl
  have e4 : (DAT).after (4 : Fin 7) t = bi := by first | (dsimp only [dat]; done) | rfl
  have e5 : (DAT).after (5 : Fin 7) t = bf := by first | (dsimp only [dat]; done) | rfl
  have e6 : (DAT).after (6 : Fin 7) t
      = k1_pay1 Wi (wfTop Wf) bi (wfTop Wf) bf (rowsAt ⟨t.val, lt49 t⟩ X) (rowsAt ⟨t.val, lt49 t⟩ N) (wfBot Wf) := by first | (dsimp only [dat, tcBlk]; done) | rfl
  rw [e0, e1, e2, e3, e4, e5, e6]
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexists (k1_pay1 Wi (wfTop Wf) bi (wfTop Wf) bf (rowsAt ⟨t.val, lt49 t⟩ X) (rowsAt ⟨t.val, lt49 t⟩ N) (wfBot Wf))
  rw [Pipeline.Window.fill_cut]
  iexact H6

/-- The result array after the run: every row below 50000 lies in one point's block, and what that point wrote back
    there is the whole-array function read through the block. -/
theorem arrAt_out : (DAT).arrAt (6 : Fin 7) cfg1.N = tcVal X N Wi Wf bi bf := by
  refine Pipeline.Dat.arrAt_eq_of_cover (DAT) (6 : Fin 7) (tcVal X N Wi Wf bi bf) (fun t _ => ?_) cover6
  have h := cut_tcBlk t X N Wi Wf bi bf
  have e6 : (DAT).after (6 : Fin 7) t = tcBlk ⟨t.val, lt49 t⟩ X N Wi Wf bi bf := by first | (dsimp only [dat]; done) | rfl
  show (cfg1.win (6 : Fin 7)).cut (cfg1.grid.coords t) ((DAT).after (6 : Fin 7) t) = _
  rw [e6]
  exact h

/-- The seven arrays of the region held whole, at the given contents. -/
def arrs7 (d : Dev nD) (X N : FVec F S50176x128 .f32) (Wi : FVec F S128x128 .f32) (Wf : FVec F S256x128 .f32) (bi bf : FVec F S1x128 .f32)
    (O : FVec F S50000x128 .f32) : sProp 𝕄 :=
  iprop((((SparseCore.T d : Thread nD τ).loc main_v5_1) ↦{fullShare} (X : Buf (Elt F) ((SparseCore.T d : Thread nD τ).loc main_v5_1)))
    ∗ (((SparseCore.T d : Thread nD τ).loc main_v5_0) ↦{fullShare} (N : Buf (Elt F) ((SparseCore.T d : Thread nD τ).loc main_v5_0)))
    ∗ (((SparseCore.T d : Thread nD τ).loc main_arg4) ↦{fullShare} (Wi : Buf (Elt F) ((SparseCore.T d : Thread nD τ).loc main_arg4)))
    ∗ (((SparseCore.T d : Thread nD τ).loc main_arg6) ↦{fullShare} (Wf : Buf (Elt F) ((SparseCore.T d : Thread nD τ).loc main_arg6)))
    ∗ (((SparseCore.T d : Thread nD τ).loc main_v6) ↦{fullShare} (bi : Buf (Elt F) ((SparseCore.T d : Thread nD τ).loc main_v6)))
    ∗ (((SparseCore.T d : Thread nD τ).loc main_v7) ↦{fullShare} (bf : Buf (Elt F) ((SparseCore.T d : Thread nD τ).loc main_v7)))
    ∗ (((SparseCore.T d : Thread nD τ).loc main_v8) ↦{fullShare} (O : Buf (Elt F) ((SparseCore.T d : Thread nD τ).loc main_v8))))

/-- The pipeline's arrays, window by window, are those seven. -/
theorem arrays_tc (G : (w : Fin cfg1.W) → Buf (Elt F) ((cfg1.win w).arr.view.loc (d : Thread nD τ))) :
    (DAT).arrays G = arrs7 (U := U) d (G (0 : Fin 7)) (G (1 : Fin 7)) (G (2 : Fin 7)) (G (3 : Fin 7)) (G (4 : Fin 7)) (G (5 : Fin 7)) (G (6 : Fin 7)) := by
  rw [Pipeline.arrays_eq (fun _ : Fin 1 => cfg1) (fun _ c => dat (U := U) c X N Wi Wf bi bf O Rs) (0 : Fin 1) d arr_whole1
    (fun w => Pipeline.Dat.share_full (DAT) (fun _ => rfl) w) G, bigSep_W1]
  rfl

theorem bigSep_univ_of_isEmpty {M : Type} [URA M] {α : Type} [Fintype α] [IsEmpty α] (Φ : α → sProp M) :
    bigSep Finset.univ Φ = BI.emp := by
  rw [Finset.univ_eq_empty, BI.bigSep_empty]

/-- No table is prefetched: none is held. -/
theorem prefHeld_emp (c : Dev nD) :
    (BI.emp : sProp 𝕄) ⊢ Pipeline.prefHeld (pcfgs (F := F) 0).pre c (fun _ => fullShare) ((cfgs (0 : Fin 1)).toPCfg_adm (Val := Elt F)).1 :=
  Entails.of_eq (bigSep_univ_of_isEmpty (α := Fin 0) _).symm
/-- The kernel has no semaphore of its own. -/
theorem ownSems0_emp (c : Dev nD) : (BI.emp : sProp 𝕄) ⊢ Pipeline.ownSems0 (fun k : PEmpty => k.elim) c := by
  first
    | exact Entails.of_eq (Pipeline.ownSems0_none nD τ sig (HIx 1) (Elt F) ℕ U ℕ c).symm
    | exact Entails.of_eq (bigSep_univ_of_isEmpty (α := PEmpty) _).symm
/-- Every scoped buffer of the TensorCore is a staging buffer of the pipeline. -/
theorem scopedRest_emp (c : Dev nD) : (BI.emp : sProp 𝕄) ⊢ Pipeline.scopedRest spec1 c :=
  Entails.of_eq (scopedRest1_eq c).symm

/-- No table is prefetched. -/
abbrev adm : (p : Fin 1) → (pcfgs (F := F) p).Adm := fun q => (cfgs q).toPCfg_adm

/-- The proof data as a family over the one pipeline and the devices. -/
abbrev pdats : (p : Fin 1) → (c : Dev nD) → Dat τ (Elt F) (HIx 1) ℕ U ℕ (Pipeline.pin (pcfgs (F := F)) adm p) c :=
  fun _ c => dat (U := U) c X N Wi Wf bi bf O Rs

/-- The region's record: the windows' layout as decided, no semaphore of the kernel's own, the body obligation, nothing
    owed at the staging cells; entered from the seven arrays and what the core owes, left with the result array at the
    whole-array function of the operands. -/
def tcSeg (L : GSem nD τ sig → Finset (HIx 1)) (lv : GSem nD τ sig → HIx 1 → ℕ) :
    Pipeline.RegionSeg (pcfgs (F := F)) adm (pdats (U := U) X N Wi Wf bi bf O Rs) (none : HIx 1) (defs₀ (F := F)) 𝒱₀ L lv (0 : Fin 1) where
  win := winFacts1.to₀
  block_pos := block_pos1
  stage_whole := stage_whole1
  K := PEmpty
  osem := fun k => k.elim
  ho := ⟨fun k => k.elim, fun k => k.elim, fun k => k.elim⟩
  hbody := fun c => body_obligation (U := U) c X N Wi Wf bi bf O Rs
  hwaits := fun c => by
    iintro -
    iapply (Pipeline.cellsWaits_of_owed_zero (Pipeline.pin (pcfgs (F := F)) adm) (pdats (U := U) X N Wi Wf bi bf O Rs) (none : HIx 1) (0 : Fin 1) c fun _ => rfl)
    iempintro
  pre := fun c => iprop(arrs7 (U := U) c X N Wi Wf bi bf O ∗ Pipeline.owesWithin c 0 Rs)
  post := fun c => iprop(arrs7 (U := U) c X N Wi Wf bi bf (tcVal X N Wi Wf bi bf) ∗ Pipeline.owesWithin c 0 (Rs ∪ cfg1.waitPairs none))
  X := fun _ => iprop(emp)
  Y := fun _ => iprop(emp)
  Z := fun _ => iprop(emp)
  hentry := fun c => by
    show iprop((arrs7 (U := U) c X N Wi Wf bi bf O ∗ Pipeline.owesWithin c 0 Rs) ∗ Pipeline.ownSems0 (fun k : PEmpty => k.elim) c ∗ levAts L lv)
      ⊢ |={Set.univ}=> iprop((dat (U := U) c X N Wi Wf bi bf O Rs).arrays (fun w => (dat (U := U) c X N Wi Wf bi bf O Rs).arrAt w 0)
          ∗ Pipeline.prefHeld (pcfgs (F := F) 0).pre c (fun _ => fullShare) ((cfgs (0 : Fin 1)).toPCfg_adm (Val := Elt F)).1
          ∗ Pipeline.owesWithin c 0 (Rs ∪ cfg1.waitPairs none) ∗ emp ∗ emp)
    rw [arrays_tc (U := U) c X N Wi Wf bi bf O Rs]
    iintro ⟨⟨Ha, Ho⟩, -, -⟩
    imodintro
    isplitl [Ha]
    · first | iexact Ha | (dsimp only [dat, Pipeline.Dat.arrAt]; iexact Ha)
    isplitr
    · iapply (prefHeld_emp (U := U) c); iempintro
    isplitl [Ho]
    · iapply (Pipeline.owesWithin_mono c 0 (Set.subset_union_left : Rs ⊆ Rs ∪ cfg1.waitPairs none))
      iexact Ho
    isplitr <;> iempintro
  hin := fun c => by
    show _ ⊢ (iprop(emp) : sProp 𝕄)
    iintro -; iempintro
  hout := fun c => by
    show _ ⊢ iprop(emp ∗ Pipeline.ownSems0 (fun k : PEmpty => k.elim) c ∗ Pipeline.scopedRest spec1 c)
    iintro -
    isplitr; · iempintro
    isplitr
    · iapply (ownSems0_emp (U := U) c); iempintro
    · iapply (scopedRest_emp (U := U) c); iempintro
  hexit := fun c => by
    show iprop((dat (U := U) c X N Wi Wf bi bf O Rs).arrays (fun w => (dat (U := U) c X N Wi Wf bi bf O Rs).arrAt w cfg1.N)
          ∗ Pipeline.owesWithin c 0 (Rs ∪ cfg1.waitPairs none) ∗ emp ∗ emp)
      ⊢ |={Set.univ}=> iprop(arrs7 (U := U) c X N Wi Wf bi bf (tcVal X N Wi Wf bi bf) ∗ Pipeline.owesWithin c 0 (Rs ∪ cfg1.waitPairs none))
    rw [arrays_tc (U := U) c X N Wi Wf bi bf O Rs]
    iintro ⟨Ha', Ho, -, -⟩
    imodintro
    isplitl [Ha']
    · rw [arrAt_out (U := U) c X N Wi Wf bi bf O Rs,
        Pipeline.Dat.arrAt_in (dat (U := U) c X N Wi Wf bi bf O Rs) (0 : Fin 7) rfl, Pipeline.Dat.arrAt_in (dat (U := U) c X N Wi Wf bi bf O Rs) (1 : Fin 7) rfl,
        Pipeline.Dat.arrAt_in (dat (U := U) c X N Wi Wf bi bf O Rs) (2 : Fin 7) rfl, Pipeline.Dat.arrAt_in (dat (U := U) c X N Wi Wf bi bf O Rs) (3 : Fin 7) rfl,
        Pipeline.Dat.arrAt_in (dat (U := U) c X N Wi Wf bi bf O Rs) (4 : Fin 7) rfl, Pipeline.Dat.arrAt_in (dat (U := U) c X N Wi Wf bi bf O Rs) (5 : Fin 7) rfl]
      first | iexact Ha' | (dsimp only [dat]; iexact Ha')
    · iexact Ho

end Region

section Final

local notation "𝕄" => MT nD τ sig (HIx 1) (Elt F) ℕ UU ℕ

theorem tcArrs_eq (d : Dev nD) (X N : FVec F S50176x128 .f32) (Wi : FVec F S128x128 .f32) (Wf : FVec F S256x128 .f32) (bi bf : FVec F S1x128 .f32)
    (O : FVec F S50000x128 .f32) : tcArrs (F := F) d X N Wi Wf bi bf O = arrs7 (U := UU) d X N Wi Wf bi bf O := rfl

set_option backward.isDefEq.respectTransparency.types false in
/-- The region: from the boundary, the seven arrays, what the core owes and the pipeline's ghost state, the kernel's call
    runs to the boundary again, the operands as they were and the result array at the whole-array function of them. -/
theorem tc_region : TcRegion (F := F) tcVal := by
  intro d X N Wi Wf bi bf O Rs α k Q
  have h : iprop((iprop(boundary (SparseCore.T d : Thread nD τ) ∗ (arrs7 (U := UU) d X N Wi Wf bi bf (tcVal X N Wi Wf bi bf) ∗ Pipeline.owesWithin d 0 (Rs ∪ cfg1.waitPairs none)))
            -∗ wp frame (wpE (D (F := F)) 𝒱 (SparseCore.T d) none) Set.univ (k ⟨⟩) Q)
        ∗ boundary (SparseCore.T d : Thread nD τ) ∗ (arrs7 (U := UU) d X N Wi Wf bi bf O ∗ Pipeline.owesWithin d 0 Rs) ∗ levAts (K (F := F)).L (K (F := F)).lev
        ∗ Pipeline.cellsGhost cfgs (ER (F := F)) 0 d ∗ Pipeline.toksInit cfgs (ER (F := F)) 0 d : sProp 𝕄)
      ⊢ wp frame (wpE (D (F := F)) 𝒱 (SparseCore.T d) none) Set.univ (.op (.customCall (Pipeline.entry 0) ()) k) Q :=
    Pipeline.RegionSeg.wp (pcfgs (F := F)) adm (pdats (U := UU) X N Wi Wf bi bf O Rs) (none : HIx 1) cellOf_inj (ER (F := F)) (defs₀ (F := F)) 𝒱₀
      (K (F := F)).L (K (F := F)).lev (tcSeg (U := UU) X N Wi Wf bi bf O Rs (K (F := F)).L (K (F := F)).lev) d none (fun u hu => nomatch hu) k Q
  simp only [tcArrs_eq]
  iintro ⟨Hk, Hb, Ha, Ho, Hl, Hg, Ht⟩
  iapply h
  isplitl [Hk]
  · iintro ⟨Hb, Ha, Ho⟩
    iapply Hk
    isplitl [Hb]; · iexact Hb
    isplitl [Ha]; · iexact Ha
    iexact Ho
  isplitl [Hb]; · iexact Hb
  isplitl [Ha Ho]
  · isplitl [Ha]; · iexact Ha
    iexact Ho
  isplitl [Hl]; · iexact Hl
  isplitl [Hg]; · iexact Hg
  iexact Ht

end Final

end Cert.Proof.K

end
-- ==== Proof.lean ====
/-
  A node's embedding from its own features and the weighted mean of its neighbours' features.

  For batch row b with neighbours idx b k (k < 10) and weights w b k over a feature table T, the reference forms
      self b   = T[nodes b] · W_init + b_init,        neigh b = ∑ k, (w b k / ∑ k', w b k') · T[idx b k],
      out b    = [self b, neigh b] · W_final + b_final,          result = out · σ(out),    σ x = 1 / (1 + e^(-x)).
  The kernel gathers the rows on the device's second processor: each of its 32 vector units takes a contiguous range of (padded)
  batch rows, fetches eight rows' neighbours at a time, forms (∑ k, w k · T[idx k]) · (1 / ∑ k, w k) and writes the means and the
  self rows out; a second kernel on the matrix unit then applies the folded product  T[nodes] · (W_init · W_final↑) + neigh · W_final↓
  + (b_init · W_final↑ + b_final)  and the same x · σ(x), block of 1024 rows by block, the last block clipped at row 50000.

  Where every float entry is a real number, every index names a table row and no row of weights sums to zero (the stated domain:
  outside the last condition the reference itself divides by zero) the two are one function: the product with the reciprocal of a
  non-zero sum is the quotient by it, scaling commutes with a finite sum, the matrix product is associative and distributes over the
  sum, and a sum over 256 columns is the sum of its two halves (Spec, SpecAlgebra).  The reference's value is its run's term read at
  an index (RefRun, RefTake, RefStages, RefRead); the kernel's is what the launch leaves in the result array (KLaunch over the tile's
  and the matrix-unit region's obligations) read at an index (KBridge); the precondition is decoded once (PreDecode).
  A tile's obligation is its prologue, the loop over pairs of groups at an invariant that carries the copies in flight and the rows
  already written, and the closing join (TileBody over TileTrip: the two steps of a trip, each with its eight-row inner loop).
  Both kernel programs are the same text read at two float instances, so their frames are one argument stated twice.
-/
import proofs.«208500_g61899068670276_cont_9to1_m_775_47_alg».proof.Defs
import proofs.«208500_g61899068670276_cont_9to1_m_775_47_alg».proof.Proof.Gen.Kernel
import proofs.«208500_g61899068670276_cont_9to1_m_775_47_alg».proof.Proof.Gen.Kernel.Skeleton
import proofs.«208500_g61899068670276_cont_9to1_m_775_47_alg».proof.Proof.Gen.Kernel.Launch
import proofs.«208500_g61899068670276_cont_9to1_m_775_47_alg».proof.Proof.Gen.Kernel.Points
import proofs.«208500_g61899068670276_cont_9to1_m_775_47_alg».proof.Proof.Gen.KernelIdeal
import proofs.«208500_g61899068670276_cont_9to1_m_775_47_alg».proof.Proof.Gen.KernelIdeal.Skeleton
import proofs.«208500_g61899068670276_cont_9to1_m_775_47_alg».proof.Proof.Gen.KernelIdeal.Launch
import proofs.«208500_g61899068670276_cont_9to1_m_775_47_alg».proof.Proof.Gen.KernelIdeal.Points
import proofs.«208500_g61899068670276_cont_9to1_m_775_47_alg».proof.Proof.Gen.ReferenceIdeal
import proofs.«208500_g61899068670276_cont_9to1_m_775_47_alg».proof.Proof.Gen.Pre_input_domain
import proofs.«208500_g61899068670276_cont_9to1_m_775_47_alg».proof.Proof.SpecAlgebra
import proofs.«208500_g61899068670276_cont_9to1_m_775_47_alg».proof.Proof.PreDecode
import proofs.«208500_g61899068670276_cont_9to1_m_775_47_alg».proof.Proof.RefRead
import proofs.«208500_g61899068670276_cont_9to1_m_775_47_alg».proof.Proof.KBridge
import proofs.«208500_g61899068670276_cont_9to1_m_775_47_alg».proof.Proof.KLaunch
import proofs.«208500_g61899068670276_cont_9to1_m_775_47_alg».proof.Proof.TileBody
import proofs.«208500_g61899068670276_cont_9to1_m_775_47_alg».proof.Proof.TileTrip
import proofs.«208500_g61899068670276_cont_9to1_m_775_47_alg».proof.Proof.TcRegion
import proofs.«208500_g61899068670276_cont_9to1_m_775_47_alg».proof.Proof.KLaunchB
import proofs.«208500_g61899068670276_cont_9to1_m_775_47_alg».proof.Proof.TileBodyB
import proofs.«208500_g61899068670276_cont_9to1_m_775_47_alg».proof.Proof.TileTripB
import proofs.«208500_g61899068670276_cont_9to1_m_775_47_alg».proof.Proof.TcRegionB
import Idealize.ShloMosaic.Adequacy
import Idealize.ShloMosaic.Init

noncomputable section

namespace Cert.Proof

open Idealize.ShloMosaic Idealize.SL.Sem Idealize.ShloMosaic.ValueIdx

/-- Under the precondition every node index and every neighbour index names a row of the table (word-level instance). -/
theorem preOK_bits (m : (ℓ : Loc Cert.Kernel.nD Cert.Kernel.τ Cert.Kernel.sig) → Buf (Elt Bits) ℓ) (hpre : Cert.Pre_Kernel m) : KB.PreOK m :=
  fun d => ⟨Cert.PreDecode.nodes_lt _ _ _ _ _ _ _ _ (hpre d), Cert.PreDecode.nidx_lt _ _ _ _ _ _ _ _ (hpre d)⟩

/-- The same at the extended reals. -/
theorem preOK_ideal (m : (ℓ : Loc Cert.KernelIdeal.nD Cert.KernelIdeal.τ Cert.KernelIdeal.sig) → Buf (Elt Ideal) ℓ) (hpre : Cert.Pre_KernelIdeal m) : K.PreOK m :=
  fun d => ⟨Cert.PreDecode.nodes_lt _ _ _ _ _ _ _ _ (hpre d), Cert.PreDecode.nidx_lt _ _ _ _ _ _ _ _ (hpre d)⟩

/-- The kernel program runs to the end, nothing faulting, its eight arguments unchanged (word-level instance): its run with the value dropped. -/
theorem frame_p : Cert.frame_Kernel := fun m ρ hpre =>
  (θ_run Cert.Kernel.defs _ _).mono (fun _ h c => (h c).2)
    (KB.run_main (F := Bits) m ρ KB.tcVal (KB.tile_body m (KB.outer_trip m)) KB.tc_region (preOK_bits m hpre))

/-- The same at the extended reals. -/
theorem frame_pi : Cert.frame_KernelIdeal := fun m ρ hpre =>
  (θ_run Cert.KernelIdeal.defs _ _).mono (fun _ h c => (h c).2)
    (K.run_main (F := Ideal) m ρ K.tcVal (K.tile_body m (K.outer_trip m)) K.tc_region (preOK_ideal m hpre))

/-- The reference runs to the end with its arguments unchanged: its run with the value dropped. -/
theorem frame_ri : Cert.frame_ReferenceIdeal := fun m ρ _ =>
  (θ_run Cert.ReferenceIdeal.defs _ _).mono (fun _ h c => (h c).2) (Cert.ReferenceIdeal.RefValue.run m ρ)

/-- At the extended reals the kernel's result array and the reference's hold the same function of arguments that agree: index by
    index the kernel's value is the specification in the kernel's arrangement, the reference's the specification in the reference's,
    and the two arrangements agree on the stated domain. -/
theorem algebraic : Cert.algebraic_KernelIdeal_ReferenceIdeal := by
  intro m ρ m' ρ' hpre hagree
  have hok : K.PreOK m := preOK_ideal m hpre
  refine ⟨fun c => K.kval m K.tcVal c, (θ_run _ _ _).mono (fun r h c => h c)
    (K.run_main (F := Ideal) m ρ K.tcVal (K.tile_body m (K.outer_trip m)) K.tc_region hok), ?_⟩
  refine (θ_run Cert.ReferenceIdeal.defs _ _).mono (fun r h c => ⟨(h c).1.trans ?_, (h c).2⟩) (Cert.ReferenceIdeal.RefValue.run m' ρ')
  obtain ⟨e0, e1, e2, e3, e4, e5, e6, e7⟩ := hagree c
  rw [e0, e1, e2, e3, e4, e5, e6, e7]
  funext i
  obtain ⟨b, e, rfl⟩ : ∃ (b : Fin 50000) (e : Fin 128), i = ix2 b e := ⟨i 0, i 1, eq_ix2 i⟩
  rw [Cert.ReferenceIdeal.RefValue.refVal_apply _ _ _ _ _ _ _ _ (hok c).1 (hok c).2 b e]
  refine ((K.kval_apply m hok c b e).trans ?_).symm
  exact Cert.Spec.kernelOut_eq_refOut _ _ _ _ _ _ _ _
    (Cert.PreDecode.allReal_w _ _ _ _ _ _ _ _ (hpre c)) (Cert.PreDecode.allReal_T _ _ _ _ _ _ _ _ (hpre c)) (Cert.PreDecode.allReal_Wi _ _ _ _ _ _ _ _ (hpre c))
    (Cert.PreDecode.allReal_bi _ _ _ _ _ _ _ _ (hpre c)) (Cert.PreDecode.allReal_Wf _ _ _ _ _ _ _ _ (hpre c)) (Cert.PreDecode.allReal_bf _ _ _ _ _ _ _ _ (hpre c))
    (Cert.PreDecode.wsum_ne_zero _ _ _ _ _ _ _ _ (hpre c)) b e

theorem claim : Cert.Claim :=
  ⟨Cert.Kernel.Gen.facts, Cert.KernelIdeal.Gen.facts, Cert.ReferenceIdeal.Gen.facts, Cert.Pre_input_domain.Gen.facts,
    frame_p, frame_pi, frame_ri, trivial, algebraic⟩

end Cert.Proof

end
